-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S3x4096x256 : Shape := ⟨3, ![3, 4096, 256]⟩
abbrev S3x256x256 : Shape := ⟨3, ![3, 256, 256]⟩
abbrev S3x256 : Shape := ⟨2, ![3, 256]⟩
abbrev S3x3x256 : Shape := ⟨3, ![3, 3, 256]⟩
abbrev S3x3 : Shape := ⟨2, ![3, 3]⟩
abbrev S3x3x768 : Shape := ⟨3, ![3, 3, 768]⟩
abbrev S3x768x768 : Shape := ⟨3, ![3, 768, 768]⟩
abbrev S3x768 : Shape := ⟨2, ![3, 768]⟩
abbrev S44x2304 : Shape := ⟨2, ![44, 2304]⟩
abbrev S44 : Shape := ⟨1, ![44]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S3x4096x256 : S_.BroadcastsInDim S3x4096x256 (![] : Fin 0 → Fin S3x4096x256.rank)
  reducesTo_S3x4096x256_S_d0_1_2 : S3x4096x256.ReducesTo [0, 1, 2] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S3x3x256 : S_.BroadcastsInDim S3x3x256 (![] : Fin 0 → Fin S3x3x256.rank)
  reducesTo_S3x3x256_S_d0_1_2 : S3x3x256.ReducesTo [0, 1, 2] S_
  bcast_S_S3x3 : S_.BroadcastsInDim S3x3 (![] : Fin 0 → Fin S3x3.rank)
  reducesTo_S3x3_S_d0_1 : S3x3.ReducesTo [0, 1] S_
  bcast_S_S3x3x768 : S_.BroadcastsInDim S3x3x768 (![] : Fin 0 → Fin S3x3x768.rank)
  reducesTo_S3x3x768_S_d0_1_2 : S3x3x768.ReducesTo [0, 1, 2] S_
  bcast_S_S3x768x768 : S_.BroadcastsInDim S3x768x768 (![] : Fin 0 → Fin S3x768x768.rank)
  reducesTo_S3x768x768_S_d0_1_2 : S3x768x768.ReducesTo [0, 1, 2] S_
  bcast_S_S3x768 : S_.BroadcastsInDim S3x768 (![] : Fin 0 → Fin S3x768.rank)
  reducesTo_S3x768_S_d0_1 : S3x768.ReducesTo [0, 1] S_
  bcast_S_S44x2304 : S_.BroadcastsInDim S44x2304 (![] : Fin 0 → Fin S44x2304.rank)
  reducesTo_S44x2304_S_d0_1 : S44x2304.ReducesTo [0, 1] S_
  bcast_S_S44 : S_.BroadcastsInDim S44 (![] : Fin 0 → Fin S44.rank)
  reducesTo_S44_S_d0 : S44.ReducesTo [0] S_

variable [Facts]

def fn_part7 {F : FTy → Type} [FloatOps F] (main_v118 : IVec S_ 1) (main_v119 : FVec F S44 .f32) : IVec S_ 1 :=
  let main_cst_46 : FVec F S_ .f32 := constant S_ .f32 0x7F800000#32
  let main_v120 : FVec F S44 .f32 := broadcastInDim S44 ![] bcast_S_S44 main_cst_46
  let main_v121 : IVec S44 1 := cmpf .olt main_v119 main_v120
  let main_c_47 : IVec S_ 1 := constantI S_ 1 1#1
  let main_v122 : IVec S_ 1 := (fun x v => Host.reduce IntOp.andi x v reducesTo_S44_S_d0 h_S_) main_v121 main_c_47
  let main_v123 : IVec S_ 1 := andi main_v118 main_v122
  main_v123

def fn_part6 {F : FTy → Type} [FloatOps F] (main_arg21 : FVec F S3x768x768 .f32) (main_arg22 : FVec F S3x768 .f32) (main_arg23 : FVec F S44x2304 .f32) (main_arg24 : FVec F S44 .f32) (main_v98 : IVec S_ 1) (main_v101 : IVec S3x3 1) (main_c_39 : IVec S_ 1) : IVec S_ 1 :=
  let main_v102 : IVec S_ 1 := (fun x v => Host.reduce IntOp.andi x v reducesTo_S3x3_S_d0_1 h_S_) main_v101 main_c_39
  let main_v103 : IVec S_ 1 := andi main_v98 main_v102
  let main_v104 : FVec F S3x768x768 .f32 := Host.absf main_arg21
  let main_cst_40 : FVec F S_ .f32 := constant S_ .f32 0x7F800000#32
  let main_v105 : FVec F S3x768x768 .f32 := broadcastInDim S3x768x768 ![] bcast_S_S3x768x768 main_cst_40
  let main_v106 : IVec S3x768x768 1 := cmpf .olt main_v104 main_v105
  let main_c_41 : IVec S_ 1 := constantI S_ 1 1#1
  let main_v107 : IVec S_ 1 := (fun x v => Host.reduce IntOp.andi x v reducesTo_S3x768x768_S_d0_1_2 h_S_) main_v106 main_c_41
  let main_v108 : IVec S_ 1 := andi main_v103 main_v107
  let main_v109 : FVec F S3x768 .f32 := Host.absf main_arg22
  let main_cst_42 : FVec F S_ .f32 := constant S_ .f32 0x7F800000#32
  let main_v110 : FVec F S3x768 .f32 := broadcastInDim S3x768 ![] bcast_S_S3x768 main_cst_42
  let main_v111 : IVec S3x768 1 := cmpf .olt main_v109 main_v110
  let main_c_43 : IVec S_ 1 := constantI S_ 1 1#1
  let main_v112 : IVec S_ 1 := (fun x v => Host.reduce IntOp.andi x v reducesTo_S3x768_S_d0_1 h_S_) main_v111 main_c_43
  let main_v113 : IVec S_ 1 := andi main_v108 main_v112
  let main_v114 : FVec F S44x2304 .f32 := Host.absf main_arg23
  let main_cst_44 : FVec F S_ .f32 := constant S_ .f32 0x7F800000#32
  let main_v115 : FVec F S44x2304 .f32 := broadcastInDim S44x2304 ![] bcast_S_S44x2304 main_cst_44
  let main_v116 : IVec S44x2304 1 := cmpf .olt main_v114 main_v115
  let main_c_45 : IVec S_ 1 := constantI S_ 1 1#1
  let main_v117 : IVec S_ 1 := (fun x v => Host.reduce IntOp.andi x v reducesTo_S44x2304_S_d0_1 h_S_) main_v116 main_c_45
  let main_v118 : IVec S_ 1 := andi main_v113 main_v117
  let main_v119 : FVec F S44 .f32 := Host.absf main_arg24
  fn_part7 (F := F) main_v118 main_v119

def fn_part5 {F : FTy → Type} [FloatOps F] (main_arg18 : FVec F S3x256 .f32) (main_arg19 : FVec F S3x3x768 .f32) (main_arg20 : FVec F S3x3 .f32) (main_arg21 : FVec F S3x768x768 .f32) (main_arg22 : FVec F S3x768 .f32) (main_arg23 : FVec F S44x2304 .f32) (main_arg24 : FVec F S44 .f32) (main_v83 : IVec S_ 1) (main_v84 : FVec F S3x256x256 .f32) (main_cst_32 : FVec F S_ .f32) : IVec S_ 1 :=
  let main_v85 : FVec F S3x256x256 .f32 := broadcastInDim S3x256x256 ![] bcast_S_S3x256x256 main_cst_32
  let main_v86 : IVec S3x256x256 1 := cmpf .olt main_v84 main_v85
  let main_c_33 : IVec S_ 1 := constantI S_ 1 1#1
  let main_v87 : IVec S_ 1 := (fun x v => Host.reduce IntOp.andi x v reducesTo_S3x256x256_S_d0_1_2 h_S_) main_v86 main_c_33
  let main_v88 : IVec S_ 1 := andi main_v83 main_v87
  let main_v89 : FVec F S3x256 .f32 := Host.absf main_arg18
  let main_cst_34 : FVec F S_ .f32 := constant S_ .f32 0x7F800000#32
  let main_v90 : FVec F S3x256 .f32 := broadcastInDim S3x256 ![] bcast_S_S3x256 main_cst_34
  let main_v91 : IVec S3x256 1 := cmpf .olt main_v89 main_v90
  let main_c_35 : IVec S_ 1 := constantI S_ 1 1#1
  let main_v92 : IVec S_ 1 := (fun x v => Host.reduce IntOp.andi x v reducesTo_S3x256_S_d0_1 h_S_) main_v91 main_c_35
  let main_v93 : IVec S_ 1 := andi main_v88 main_v92
  let main_v94 : FVec F S3x3x768 .f32 := Host.absf main_arg19
  let main_cst_36 : FVec F S_ .f32 := constant S_ .f32 0x7F800000#32
  let main_v95 : FVec F S3x3x768 .f32 := broadcastInDim S3x3x768 ![] bcast_S_S3x3x768 main_cst_36
  let main_v96 : IVec S3x3x768 1 := cmpf .olt main_v94 main_v95
  let main_c_37 : IVec S_ 1 := constantI S_ 1 1#1
  let main_v97 : IVec S_ 1 := (fun x v => Host.reduce IntOp.andi x v reducesTo_S3x3x768_S_d0_1_2 h_S_) main_v96 main_c_37
  let main_v98 : IVec S_ 1 := andi main_v93 main_v97
  let main_v99 : FVec F S3x3 .f32 := Host.absf main_arg20
  let main_cst_38 : FVec F S_ .f32 := constant S_ .f32 0x7F800000#32
  let main_v100 : FVec F S3x3 .f32 := broadcastInDim S3x3 ![] bcast_S_S3x3 main_cst_38
  let main_v101 : IVec S3x3 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S3x256 .f32) (main_arg15 : FVec F S3x256x256 .f32) (main_arg16 : FVec F S3x256 .f32) (main_arg17 : FVec F S3x256x256 .f32) (main_arg18 : FVec F S3x256 .f32) (main_arg19 : FVec F S3x3x768 .f32) (main_arg20 : FVec F S3x3 .f32) (main_arg21 : FVec F S3x768x768 .f32) (main_arg22 : FVec F S3x768 .f32) (main_arg23 : FVec F S44x2304 .f32) (main_arg24 : FVec F S44 .f32) (main_v63 : IVec S_ 1) (main_v67 : IVec S_ 1) : IVec S_ 1 :=
  let main_v68 : IVec S_ 1 := andi main_v63 main_v67
  let main_v69 : FVec F S3x256 .f32 := Host.absf main_arg14
  let main_cst_26 : FVec F S_ .f32 := constant S_ .f32 0x7F800000#32
  let main_v70 : FVec F S3x256 .f32 := broadcastInDim S3x256 ![] bcast_S_S3x256 main_cst_26
  let main_v71 : IVec S3x256 1 := cmpf .olt main_v69 main_v70
  let main_c_27 : IVec S_ 1 := constantI S_ 1 1#1
  let main_v72 : IVec S_ 1 := (fun x v => Host.reduce IntOp.andi x v reducesTo_S3x256_S_d0_1 h_S_) main_v71 main_c_27
  let main_v73 : IVec S_ 1 := andi main_v68 main_v72
  let main_v74 : FVec F S3x256x256 .f32 := Host.absf main_arg15
  let main_cst_28 : FVec F S_ .f32 := constant S_ .f32 0x7F800000#32
  let main_v75 : FVec F S3x256x256 .f32 := broadcastInDim S3x256x256 ![] bcast_S_S3x256x256 main_cst_28
  let main_v76 : IVec S3x256x256 1 := cmpf .olt main_v74 main_v75
  let main_c_29 : IVec S_ 1 := constantI S_ 1 1#1
  let main_v77 : IVec S_ 1 := (fun x v => Host.reduce IntOp.andi x v reducesTo_S3x256x256_S_d0_1_2 h_S_) main_v76 main_c_29
  let main_v78 : IVec S_ 1 := andi main_v73 main_v77
  let main_v79 : FVec F S3x256 .f32 := Host.absf main_arg16
  let main_cst_30 : FVec F S_ .f32 := constant S_ .f32 0x7F800000#32
  let main_v80 : FVec F S3x256 .f32 := broadcastInDim S3x256 ![] bcast_S_S3x256 main_cst_30
  let main_v81 : IVec S3x256 1 := cmpf .olt main_v79 main_v80
  let main_c_31 : IVec S_ 1 := constantI S_ 1 1#1
  let main_v82 : IVec S_ 1 := (fun x v => Host.reduce IntOp.andi x v reducesTo_S3x256_S_d0_1 h_S_) main_v81 main_c_31
  let main_v83 : IVec S_ 1 := andi main_v78 main_v82
  let main_v84 : FVec F S3x256x256 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S3x3x256 .f32) (main_arg12 : FVec F S3x3 .f32) (main_arg13 : FVec F S3x256x256 .f32) (main_arg14 : FVec F S3x256 .f32) (main_arg15 : FVec F S3x256x256 .f32) (main_arg16 : FVec F S3x256 .f32) (main_arg17 : FVec F S3x256x256 .f32) (main_arg18 : FVec F S3x256 .f32) (main_arg19 : FVec F S3x3x768 .f32) (main_arg20 : FVec F S3x3 .f32) (main_arg21 : FVec F S3x768x768 .f32) (main_arg22 : FVec F S3x768 .f32) (main_arg23 : FVec F S44x2304 .f32) (main_arg24 : FVec F S44 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S3x3x256 .f32 := Host.absf main_arg11
  let main_cst_20 : FVec F S_ .f32 := constant S_ .f32 0x7F800000#32
  let main_v55 : FVec F S3x3x256 .f32 := broadcastInDim S3x3x256 ![] bcast_S_S3x3x256 main_cst_20
  let main_v56 : IVec S3x3x256 1 := cmpf .olt main_v54 main_v55
  let main_c_21 : IVec S_ 1 := constantI S_ 1 1#1
  let main_v57 : IVec S_ 1 := (fun x v => Host.reduce IntOp.andi x v reducesTo_S3x3x256_S_d0_1_2 h_S_) main_v56 main_c_21
  let main_v58 : IVec S_ 1 := andi main_v53 main_v57
  let main_v59 : FVec F S3x3 .f32 := Host.absf main_arg12
  let main_cst_22 : FVec F S_ .f32 := constant S_ .f32 0x7F800000#32
  let main_v60 : FVec F S3x3 .f32 := broadcastInDim S3x3 ![] bcast_S_S3x3 main_cst_22
  let main_v61 : IVec S3x3 1 := cmpf .olt main_v59 main_v60
  let main_c_23 : IVec S_ 1 := constantI S_ 1 1#1
  let main_v62 : IVec S_ 1 := (fun x v => Host.reduce IntOp.andi x v reducesTo_S3x3_S_d0_1 h_S_) main_v61 main_c_23
  let main_v63 : IVec S_ 1 := andi main_v58 main_v62
  let main_v64 : FVec F S3x256x256 .f32 := Host.absf main_arg13
  let main_cst_24 : FVec F S_ .f32 := constant S_ .f32 0x7F800000#32
  let main_v65 : FVec F S3x256x256 .f32 := broadcastInDim S3x256x256 ![] bcast_S_S3x256x256 main_cst_24
  let main_v66 : IVec S3x256x256 1 := cmpf .olt main_v64 main_v65
  let main_c_25 : IVec S_ 1 := constantI S_ 1 1#1
  let main_v67 : IVec S_ 1 := (fun x v => Host.reduce IntOp.andi x v reducesTo_S3x256x256_S_d0_1_2 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S3x256x256 .f32) (main_arg8 : FVec F S3x256 .f32) (main_arg9 : FVec F S3x256x256 .f32) (main_arg10 : FVec F S3x256 .f32) (main_arg11 : FVec F S3x3x256 .f32) (main_arg12 : FVec F S3x3 .f32) (main_arg13 : FVec F S3x256x256 .f32) (main_arg14 : FVec F S3x256 .f32) (main_arg15 : FVec F S3x256x256 .f32) (main_arg16 : FVec F S3x256 .f32) (main_arg17 : FVec F S3x256x256 .f32) (main_arg18 : FVec F S3x256 .f32) (main_arg19 : FVec F S3x3x768 .f32) (main_arg20 : FVec F S3x3 .f32) (main_arg21 : FVec F S3x768x768 .f32) (main_arg22 : FVec F S3x768 .f32) (main_arg23 : FVec F S44x2304 .f32) (main_arg24 : FVec F S44 .f32) (main_v33 : IVec S_ 1) : IVec S_ 1 :=
  let main_v34 : FVec F S3x256x256 .f32 := Host.absf main_arg7
  let main_cst_12 : FVec F S_ .f32 := constant S_ .f32 0x7F800000#32
  let main_v35 : FVec F S3x256x256 .f32 := broadcastInDim S3x256x256 ![] bcast_S_S3x256x256 main_cst_12
  let main_v36 : IVec S3x256x256 1 := cmpf .olt main_v34 main_v35
  let main_c_13 : IVec S_ 1 := constantI S_ 1 1#1
  let main_v37 : IVec S_ 1 := (fun x v => Host.reduce IntOp.andi x v reducesTo_S3x256x256_S_d0_1_2 h_S_) main_v36 main_c_13
  let main_v38 : IVec S_ 1 := andi main_v33 main_v37
  let main_v39 : FVec F S3x256 .f32 := Host.absf main_arg8
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256x256 .f32 := Host.absf main_arg9
  let main_cst_16 : FVec F S_ .f32 := constant S_ .f32 0x7F800000#32
  let main_v45 : FVec F S3x256x256 .f32 := broadcastInDim S3x256x256 ![] bcast_S_S3x256x256 main_cst_16
  let main_v46 : IVec S3x256x256 1 := cmpf .olt main_v44 main_v45
  let main_c_17 : IVec S_ 1 := constantI S_ 1 1#1
  let main_v47 : IVec S_ 1 := (fun x v => Host.reduce IntOp.andi x v reducesTo_S3x256x256_S_d0_1_2 h_S_) main_v46 main_c_17
  let main_v48 : IVec S_ 1 := andi main_v43 main_v47
  let main_v49 : FVec F S3x256 .f32 := Host.absf main_arg10
  let main_cst_18 : FVec F S_ .f32 := constant S_ .f32 0x7F800000#32
  let main_v50 : FVec F S3x256 .f32 := broadcastInDim S3x256 ![] bcast_S_S3x256 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S3x256 .f32) (main_arg5 : FVec F S3x256x256 .f32) (main_arg6 : FVec F S3x256 .f32) (main_arg7 : FVec F S3x256x256 .f32) (main_arg8 : FVec F S3x256 .f32) (main_arg9 : FVec F S3x256x256 .f32) (main_arg10 : FVec F S3x256 .f32) (main_arg11 : FVec F S3x3x256 .f32) (main_arg12 : FVec F S3x3 .f32) (main_arg13 : FVec F S3x256x256 .f32) (main_arg14 : FVec F S3x256 .f32) (main_arg15 : FVec F S3x256x256 .f32) (main_arg16 : FVec F S3x256 .f32) (main_arg17 : FVec F S3x256x256 .f32) (main_arg18 : FVec F S3x256 .f32) (main_arg19 : FVec F S3x3x768 .f32) (main_arg20 : FVec F S3x3 .f32) (main_arg21 : FVec F S3x768x768 .f32) (main_arg22 : FVec F S3x768 .f32) (main_arg23 : FVec F S44x2304 .f32) (main_arg24 : FVec F S44 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg4
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256x256 .f32 := Host.absf main_arg5
  let main_cst_8 : FVec F S_ .f32 := constant S_ .f32 0x7F800000#32
  let main_v25 : FVec F S3x256x256 .f32 := broadcastInDim S3x256x256 ![] bcast_S_S3x256x256 main_cst_8
  let main_v26 : IVec S3x256x256 1 := cmpf .olt main_v24 main_v25
  let main_c_9 : IVec S_ 1 := constantI S_ 1 1#1
  let main_v27 : IVec S_ 1 := (fun x v => Host.reduce IntOp.andi x v reducesTo_S3x256x256_S_d0_1_2 h_S_) main_v26 main_c_9
  let main_v28 : IVec S_ 1 := andi main_v23 main_v27
  let main_v29 : FVec F S3x256 .f32 := Host.absf main_arg6
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S4096x256 .f32) (main_arg1 : FVec F S3x4096x256 .f32) (main_arg2 : FVec F S3x4096x256 .f32) (main_arg3 : FVec F S3x256x256 .f32) (main_arg4 : FVec F S3x256 .f32) (main_arg5 : FVec F S3x256x256 .f32) (main_arg6 : FVec F S3x256 .f32) (main_arg7 : FVec F S3x256x256 .f32) (main_arg8 : FVec F S3x256 .f32) (main_arg9 : FVec F S3x256x256 .f32) (main_arg10 : FVec F S3x256 .f32) (main_arg11 : FVec F S3x3x256 .f32) (main_arg12 : FVec F S3x3 .f32) (main_arg13 : FVec F S3x256x256 .f32) (main_arg14 : FVec F S3x256 .f32) (main_arg15 : FVec F S3x256x256 .f32) (main_arg16 : FVec F S3x256 .f32) (main_arg17 : FVec F S3x256x256 .f32) (main_arg18 : FVec F S3x256 .f32) (main_arg19 : FVec F S3x3x768 .f32) (main_arg20 : FVec F S3x3 .f32) (main_arg21 : FVec F S3x768x768 .f32) (main_arg22 : FVec F S3x768 .f32) (main_arg23 : FVec F S44x2304 .f32) (main_arg24 : FVec F S44 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S3x4096x256 .f32 := Host.absf main_arg1
  let main_cst_0 : FVec F S_ .f32 := constant S_ .f32 0x7F800000#32
  let main_v5 : FVec F S3x4096x256 .f32 := broadcastInDim S3x4096x256 ![] bcast_S_S3x4096x256 main_cst_0
  let main_v6 : IVec S3x4096x256 1 := cmpf .olt main_v4 main_v5
  let main_c_1 : IVec S_ 1 := constantI S_ 1 1#1
  let main_v7 : IVec S_ 1 := (fun x v => Host.reduce IntOp.andi x v reducesTo_S3x4096x256_S_d0_1_2 h_S_) main_v6 main_c_1
  let main_v8 : IVec S_ 1 := andi main_v3 main_v7
  let main_v9 : FVec F S3x4096x256 .f32 := Host.absf main_arg2
  let main_cst_2 : FVec F S_ .f32 := constant S_ .f32 0x7F800000#32
  let main_v10 : FVec F S3x4096x256 .f32 := broadcastInDim S3x4096x256 ![] bcast_S_S3x4096x256 main_cst_2
  let main_v11 : IVec S3x4096x256 1 := cmpf .olt main_v9 main_v10
  let main_c_3 : IVec S_ 1 := constantI S_ 1 1#1
  let main_v12 : IVec S_ 1 := (fun x v => Host.reduce IntOp.andi x v reducesTo_S3x4096x256_S_d0_1_2 h_S_) main_v11 main_c_3
  let main_v13 : IVec S_ 1 := andi main_v8 main_v12
  let main_v14 : FVec F S3x256x256 .f32 := Host.absf main_arg3
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S4096x256 : Shape := ⟨2, ![4096, 256]⟩
abbrev S3x4096x256 : Shape := ⟨3, ![3, 4096, 256]⟩
abbrev S3x256x256 : Shape := ⟨3, ![3, 256, 256]⟩
abbrev S3x256 : Shape := ⟨2, ![3, 256]⟩
abbrev S3x3x256 : Shape := ⟨3, ![3, 3, 256]⟩
abbrev S3x3 : Shape := ⟨2, ![3, 3]⟩
abbrev S3x3x768 : Shape := ⟨3, ![3, 3, 768]⟩
abbrev S3x768x768 : Shape := ⟨3, ![3, 768, 768]⟩
abbrev S3x768 : Shape := ⟨2, ![3, 768]⟩
abbrev S44x2304 : Shape := ⟨2, ![44, 2304]⟩
abbrev S44 : Shape := ⟨1, ![44]⟩
abbrev S3x256x1024 : Shape := ⟨3, ![3, 256, 1024]⟩
abbrev S3x1024 : Shape := ⟨2, ![3, 1024]⟩
abbrev S3x256x768 : Shape := ⟨3, ![3, 256, 768]⟩
abbrev S3x256x3 : Shape := ⟨3, ![3, 256, 3]⟩
abbrev S3x768x3 : Shape := ⟨3, ![3, 768, 3]⟩
abbrev S768x3x3 : Shape := ⟨3, ![768, 3, 3]⟩
abbrev S768x9 : Shape := ⟨2, ![768, 9]⟩
abbrev S9 : Shape := ⟨1, ![9]⟩
abbrev S768x3x768 : Shape := ⟨3, ![768, 3, 768]⟩
abbrev S768x2304 : Shape := ⟨2, ![768, 2304]⟩
abbrev S2304 : Shape := ⟨1, ![2304]⟩
abbrev S2304x44 : Shape := ⟨2, ![2304, 44]⟩
abbrev S4096x44 : Shape := ⟨2, ![4096, 44]⟩
abbrev S256x256 : Shape := ⟨2, ![256, 256]⟩
abbrev S256x44 : Shape := ⟨2, ![256, 44]⟩
abbrev S256x2304 : Shape := ⟨2, ![256, 2304]⟩
abbrev S1x256x256 : Shape := ⟨3, ![1, 256, 256]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S1x256x3 : Shape := ⟨3, ![1, 256, 3]⟩
abbrev S256x3 : Shape := ⟨2, ![256, 3]⟩
abbrev S1x3 : Shape := ⟨2, ![1, 3]⟩
abbrev S3 : Shape := ⟨1, ![3]⟩
abbrev S256x768 : Shape := ⟨2, ![256, 768]⟩
abbrev S3x1x768 : Shape := ⟨3, ![3, 1, 768]⟩
abbrev S256x9 : Shape := ⟨2, ![256, 9]⟩
abbrev S1x9 : Shape := ⟨2, ![1, 9]⟩
abbrev S1x2304 : Shape := ⟨2, ![1, 2304]⟩
abbrev S1x256x768 : Shape := ⟨3, ![1, 256, 768]⟩
abbrev S256x1 : Shape := ⟨2, ![256, 1]⟩
abbrev S1x44 : Shape := ⟨2, ![1, 44]⟩

abbrev nBuf : Space → Nat
  | .hbm => 53
  | .vmem => 21
  | .smem => 0
  | _ => 0

abbrev bufTy : (tb : Table) → Fin (tcTables nBuf tb) → BufTy
  | .hbm, ⟨0, _⟩ => ⟨S4096x256, .f32⟩
  | .hbm, ⟨1, _⟩ => ⟨S3x4096x256, .f32⟩
  | .hbm, ⟨2, _⟩ => ⟨S3x4096x256, .f32⟩
  | .hbm, ⟨3, _⟩ => ⟨S3x256x256, .f32⟩
  | .hbm, ⟨4, _⟩ => ⟨S3x256, .f32⟩
  | .hbm, ⟨5, _⟩ => ⟨S3x256x256, .f32⟩
  | .hbm, ⟨6, _⟩ => ⟨S3x256, .f32⟩
  | .hbm, ⟨7, _⟩ => ⟨S3x256x256, .f32⟩
  | .hbm, ⟨8, _⟩ => ⟨S3x256, .f32⟩
  | .hbm, ⟨9, _⟩ => ⟨S3x256x256, .f32⟩
  | .hbm, ⟨10, _⟩ => ⟨S3x256, .f32⟩
  | .hbm, ⟨11, _⟩ => ⟨S3x3x256, .f32⟩
  | .hbm, ⟨12, _⟩ => ⟨S3x3, .f32⟩
  | .hbm, ⟨13, _⟩ => ⟨S3x256x256, .f32⟩
  | .hbm, ⟨14, _⟩ => ⟨S3x256, .f32⟩
  | .hbm, ⟨15, _⟩ => ⟨S3x256x256, .f32⟩
  | .hbm, ⟨16, _⟩ => ⟨S3x256, .f32⟩
  | .hbm, ⟨17, _⟩ => ⟨S3x256x256, .f32⟩
  | .hbm, ⟨18, _⟩ => ⟨S3x256, .f32⟩
  | .hbm, ⟨19, _⟩ => ⟨S3x3x768, .f32⟩
  | .hbm, ⟨20, _⟩ => ⟨S3x3, .f32⟩
  | .hbm, ⟨21, _⟩ => ⟨S3x768x768, .f32⟩
  | .hbm, ⟨22, _⟩ => ⟨S3x768, .f32⟩
  | .hbm, ⟨23, _⟩ => ⟨S44x2304, .f32⟩
  | .hbm, ⟨24, _⟩ => ⟨S44, .f32⟩
  | .hbm, ⟨25, _⟩ => ⟨S3x256x256, .f32⟩
  | .hbm, ⟨26, _⟩ => ⟨S3x256x256, .f32⟩
  | .hbm, ⟨27, _⟩ => ⟨S3x256x256, .f32⟩
  | .hbm, ⟨28, _⟩ => ⟨S3x256x256, .f32⟩
  | .hbm, ⟨29, _⟩ => ⟨S3x256x1024, .f32⟩
  | .hbm, ⟨30, _⟩ => ⟨S3x256x1024, .bf16⟩
  | .hbm, ⟨31, _⟩ => ⟨S3x1024, .f32⟩
  | .hbm, ⟨32, _⟩ => ⟨S3x256x256, .f32⟩
  | .hbm, ⟨33, _⟩ => ⟨S3x256x256, .f32⟩
  | .hbm, ⟨34, _⟩ => ⟨S3x256x256, .f32⟩
  | .hbm, ⟨35, _⟩ => ⟨S3x256x768, .f32⟩
  | .hbm, ⟨36, _⟩ => ⟨S3x256x768, .bf16⟩
  | .hbm, ⟨37, _⟩ => ⟨S3x768, .f32⟩
  | .hbm, ⟨38, _⟩ => ⟨S3x256x3, .f32⟩
  | .hbm, ⟨39, _⟩ => ⟨S3x256x3, .bf16⟩
  | .hbm, ⟨40, _⟩ => ⟨S3x768x3, .f32⟩
  | .hbm, ⟨41, _⟩ => ⟨S768x3x3, .f32⟩
  | .hbm, ⟨42, _⟩ => ⟨S768x9, .f32⟩
  | .hbm, ⟨43, _⟩ => ⟨S768x9, .bf16⟩
  | .hbm, ⟨44, _⟩ => ⟨S9, .f32⟩
  | .hbm, ⟨45, _⟩ => ⟨S3x768x768, .f32⟩
  | .hbm, ⟨46, _⟩ => ⟨S768x3x768, .f32⟩
  | .hbm, ⟨47, _⟩ => ⟨S768x2304, .f32⟩
  | .hbm, ⟨48, _⟩ => ⟨S768x2304, .bf16⟩
  | .hbm, ⟨49, _⟩ => ⟨S2304, .f32⟩
  | .hbm, ⟨50, _⟩ => ⟨S2304x44, .f32⟩
  | .hbm, ⟨51, _⟩ => ⟨S2304x44, .bf16⟩
  | .hbm, ⟨52, _⟩ => ⟨S4096x44, .f32⟩
  | .local _ .vmem, ⟨0, _⟩ => ⟨S256x256, .f32⟩
  | .local _ .vmem, ⟨1, _⟩ => ⟨S256x256, .f32⟩
  | .local _ .vmem, ⟨2, _⟩ => ⟨S3x256x256, .f32⟩
  | .local _ .vmem, ⟨3, _⟩ => ⟨S3x256x256, .f32⟩
  | .local _ .vmem, ⟨4, _⟩ => ⟨S3x256x256, .f32⟩
  | .local _ .vmem, ⟨5, _⟩ => ⟨S3x256x256, .f32⟩
  | .local _ .vmem, ⟨6, _⟩ => ⟨S3x256x1024, .bf16⟩
  | .local _ .vmem, ⟨7, _⟩ => ⟨S3x1024, .f32⟩
  | .local _ .vmem, ⟨8, _⟩ => ⟨S3x256x3, .bf16⟩
  | .local _ .vmem, ⟨9, _⟩ => ⟨S3x3, .f32⟩
  | .local _ .vmem, ⟨10, _⟩ => ⟨S3x256x768, .bf16⟩
  | .local _ .vmem, ⟨11, _⟩ => ⟨S3x768, .f32⟩
  | .local _ .vmem, ⟨12, _⟩ => ⟨S768x9, .bf16⟩
  | .local _ .vmem, ⟨13, _⟩ => ⟨S9, .f32⟩
  | .local _ .vmem, ⟨14, _⟩ => ⟨S768x2304, .bf16⟩
  | .local _ .vmem, ⟨15, _⟩ => ⟨S2304, .f32⟩
  | .local _ .vmem, ⟨16, _⟩ => ⟨S2304x44, .bf16⟩
  | .local _ .vmem, ⟨17, _⟩ => ⟨S44, .f32⟩
  | .local _ .vmem, ⟨18, _⟩ => ⟨S256x44, .f32⟩
  | .local _ .vmem, ⟨19, _⟩ => ⟨S256x44, .f32⟩
  | .local _ .vmem, ⟨20, _⟩ => ⟨S256x2304, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256x3 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x256x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x9 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S9 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x2304 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2304 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2304x44 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S44 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x44 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S3x256x256_S3x256x256_0_2_1 : S3x256x256.Transposes [0, 2, 1] S3x256x256
  concatenates_S3x256x256_S3x256x256_S3x256x256_S3x256x256_S3x256x1024_d2 : Shape.Concatenates [S3x256x256, S3x256x256, S3x256x256, S3x256x256] S3x256x1024 2
  bitsLt_bf16_f32 : FTy.bits .bf16 < FTy.bits .f32
  concatenates_S3x256_S3x256_S3x256_S3x256_S3x1024_d1 : Shape.Concatenates [S3x256, S3x256, S3x256, S3x256] S3x1024 1
  concatenates_S3x256x256_S3x256x256_S3x256x256_S3x256x768_d2 : Shape.Concatenates [S3x256x256, S3x256x256, S3x256x256] S3x256x768 2
  concatenates_S3x256_S3x256_S3x256_S3x768_d1 : Shape.Concatenates [S3x256, S3x256, S3x256] S3x768 1
  transposes_S3x3x256_S3x256x3_0_2_1 : S3x3x256.Transposes [0, 2, 1] S3x256x3
  transposes_S3x3x768_S3x768x3_0_2_1 : S3x3x768.Transposes [0, 2, 1] S3x768x3
  transposes_S3x768x3_S768x3x3_1_0_2 : S3x768x3.Transposes [1, 0, 2] S768x3x3
  shapeCasts_S768x3x3_S768x9 : S768x3x3.ShapeCasts S768x9
  shapeCasts_S3x3_S9 : S3x3.ShapeCasts S9
  transposes_S3x768x768_S3x768x768_0_2_1 : S3x768x768.Transposes [0, 2, 1] S3x768x768
  transposes_S3x768x768_S768x3x768_1_0_2 : S3x768x768.Transposes [1, 0, 2] S768x3x768
  shapeCasts_S768x3x768_S768x2304 : S768x3x768.ShapeCasts S768x2304
  shapeCasts_S3x768_S2304 : S3x768.ShapeCasts S2304
  transposes_S44x2304_S2304x44_1_0 : S44x2304.Transposes [1, 0] S2304x44
  inb_S256x256_S256x256_0_0 : ∀ a, (![0, 0] : Fin 2 → Nat) a + S256x256.size a ≤ S256x256.size a
  h_S256x256 : 0 < S256x256.numel
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256x256_S1x256x256_1_0_0 : ∀ a, (![1, 0, 0] : Fin 3 → Nat) a + S1x256x256.size a ≤ S3x256x256.size a
  inb_S3x256x256_S1x256x256_2_0_0 : ∀ a, (![2, 0, 0] : Fin 3 → Nat) a + S1x256x256.size a ≤ S3x256x256.size a
  inb_S3x256x1024_S1x256x1024_0_0_0 : ∀ a, (![0, 0, 0] : Fin 3 → Nat) a + S1x256x1024.size a ≤ S3x256x1024.size a
  h_S1x256x1024 : 0 < S1x256x1024.numel
  shapeCasts_S1x256x1024_S256x1024 : S1x256x1024.ShapeCasts S256x1024
  inb_S3x1024_S1x1024_0_0 : ∀ a, (![0, 0] : Fin 2 → Nat) a + S1x1024.size a ≤ S3x1024.size a
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  inb_S3x256x3_S1x256x3_0_0_0 : ∀ a, (![0, 0, 0] : Fin 3 → Nat) a + S1x256x3.size a ≤ S3x256x3.size a
  h_S1x256x3 : 0 < S1x256x3.numel
  shapeCasts_S1x256x3_S256x3 : S1x256x3.ShapeCasts S256x3
  inb_S3x3_S1x3_0_0 : ∀ a, (![0, 0] : Fin 2 → Nat) a + S1x3.size a ≤ S3x3.size a
  h_S1x3 : 0 < S1x3.numel
  shapeCasts_S1x3_S3 : S1x3.ShapeCasts S3
  shapeCasts_S3_S1x3 : S3.ShapeCasts S1x3
  broadcasts_S1x3_S256x3 : S1x3.Broadcasts S256x3
  concatenates_S256x256_S256x256_S256x256_S256x768_d1 : Shape.Concatenates [S256x256, S256x256, S256x256] S256x768 1
  shapeCasts_S256x256_S1x256x256 : S256x256.ShapeCasts S1x256x256
  concatenates_S1x256x256_S1x256x256_S1x256x256_S3x256x256_d0 : Shape.Concatenates [S1x256x256, S1x256x256, S1x256x256] S3x256x256 0
  inb_S3x256x768_S3x256x768_0_0_0 : ∀ a, (![0, 0, 0] : Fin 3 → Nat) a + S3x256x768.size a ≤ S3x256x768.size a
  h_S3x256x768 : 0 < S3x256x768.numel
  shapeCasts_S3x256x768_S3x256x768 : S3x256x768.ShapeCasts S3x256x768
  inb_S3x768_S3x768_0_0 : ∀ a, (![0, 0] : Fin 2 → Nat) a + S3x768.size a ≤ S3x768.size a
  h_S3x768 : 0 < S3x768.numel
  shapeCasts_S3x768_S3x768 : S3x768.ShapeCasts S3x768
  shapeCasts_S3x768_S3x1x768 : S3x768.ShapeCasts S3x1x768
  broadcasts_S3x1x768_S3x256x768 : S3x1x768.Broadcasts S3x256x768
  inb_S768x9_S768x9_0_0 : ∀ a, (![0, 0] : Fin 2 → Nat) a + S768x9.size a ≤ S768x9.size a
  h_S768x9 : 0 < S768x9.numel
  shapeCasts_S768x9_S768x9 : S768x9.ShapeCasts S768x9
  inb_S9_S9_0 : ∀ a, (![0] : Fin 1 → Nat) a + S9.size a ≤ S9.size a
  h_S9 : 0 < S9.numel
  shapeCasts_S9_S9 : S9.ShapeCasts S9
  shapeCasts_S9_S1x9 : S9.ShapeCasts S1x9
  broadcasts_S1x9_S256x9 : S1x9.Broadcasts S256x9
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S2304_S2304_0 : ∀ a, (![0] : Fin 1 → Nat) a + S2304.size a ≤ S2304.size a
  h_S2304 : 0 < S2304.numel
  shapeCasts_S2304_S2304 : S2304.ShapeCasts S2304
  shapeCasts_S2304_S1x2304 : S2304.ShapeCasts S1x2304
  broadcasts_S1x2304_S256x2304 : S1x2304.Broadcasts S256x2304
  slices_S256x1024_o0_0_S256x256 : S256x1024.Slices ![0, 0] S256x256
  slices_S256x1024_o0_256_S256x256 : S256x1024.Slices ![0, 256] S256x256
  slices_S256x1024_o0_512_S256x256 : S256x1024.Slices ![0, 512] S256x256
  slices_S256x1024_o0_768_S256x256 : S256x1024.Slices ![0, 768] S256x256
  slices_S3x256x768_o0_0_0_S1x256x768 : S3x256x768.Slices ![0, 0, 0] S1x256x768
  shapeCasts_S1x256x768_S256x768 : S1x256x768.ShapeCasts S256x768
  slices_S256x768_o0_0_S256x256 : S256x768.Slices ![0, 0] S256x256
  slices_S256x768_o0_256_S256x256 : S256x768.Slices ![0, 256] S256x256
  slices_S256x768_o0_512_S256x256 : S256x768.Slices ![0, 512] S256x256
  slices_S256x9_o0_0_S256x3 : S256x9.Slices ![0, 0] S256x3
  slices_S256x2304_o0_0_S256x768 : S256x2304.Slices ![0, 0] S256x768
  slices_S256x3_o0_0_S256x1 : S256x3.Slices ![0, 0] S256x1
  broadcasts_S256x1_S256x256 : S256x1.Broadcasts S256x256
  slices_S256x3_o0_1_S256x1 : S256x3.Slices ![0, 1] S256x1
  slices_S256x3_o0_2_S256x1 : S256x3.Slices ![0, 2] S256x1
  inb_S3x256x1024_S1x256x1024_1_0_0 : ∀ a, (![1, 0, 0] : Fin 3 → Nat) a + S1x256x1024.size a ≤ S3x256x1024.size a
  inb_S3x1024_S1x1024_1_0 : ∀ a, (![1, 0] : Fin 2 → Nat) a + S1x1024.size a ≤ S3x1024.size a
  inb_S3x256x3_S1x256x3_1_0_0 : ∀ a, (![1, 0, 0] : Fin 3 → Nat) a + S1x256x3.size a ≤ S3x256x3.size a
  inb_S3x3_S1x3_1_0 : ∀ a, (![1, 0] : Fin 2 → Nat) a + S1x3.size a ≤ S3x3.size a
  slices_S3x256x768_o1_0_0_S1x256x768 : S3x256x768.Slices ![1, 0, 0] S1x256x768
  slices_S256x9_o0_3_S256x3 : S256x9.Slices ![0, 3] S256x3
  slices_S256x2304_o0_768_S256x768 : S256x2304.Slices ![0, 768] S256x768
  inb_S3x256x1024_S1x256x1024_2_0_0 : ∀ a, (![2, 0, 0] : Fin 3 → Nat) a + S1x256x1024.size a ≤ S3x256x1024.size a
  inb_S3x1024_S1x1024_2_0 : ∀ a, (![2, 0] : Fin 2 → Nat) a + S1x1024.size a ≤ S3x1024.size a
  inb_S3x256x3_S1x256x3_2_0_0 : ∀ a, (![2, 0, 0] : Fin 3 → Nat) a + S1x256x3.size a ≤ S3x256x3.size a
  inb_S3x3_S1x3_2_0 : ∀ a, (![2, 0] : Fin 2 → Nat) a + S1x3.size a ≤ S3x3.size a
  slices_S3x256x768_o2_0_0_S1x256x768 : S3x256x768.Slices ![2, 0, 0] S1x256x768
  slices_S256x9_o0_6_S256x3 : S256x9.Slices ![0, 6] S256x3
  slices_S256x2304_o0_1536_S256x768 : S256x2304.Slices ![0, 1536] S256x768
  inb_S256x2304_S256x256_0_0 : ∀ a, (![0, 0] : Fin 2 → Nat) a + S256x256.size a ≤ S256x2304.size a
  shapeCasts_S256x256_S256x256 : S256x256.ShapeCasts S256x256
  inb_S256x2304_S256x256_0_256 : ∀ a, (![0, 256] : Fin 2 → Nat) a + S256x256.size a ≤ S256x2304.size a
  inb_S256x2304_S256x256_0_512 : ∀ a, (![0, 512] : Fin 2 → Nat) a + S256x256.size a ≤ S256x2304.size a
  inb_S256x2304_S256x256_0_768 : ∀ a, (![0, 768] : Fin 2 → Nat) a + S256x256.size a ≤ S256x2304.size a
  inb_S256x2304_S256x256_0_1024 : ∀ a, (![0, 1024] : Fin 2 → Nat) a + S256x256.size a ≤ S256x2304.size a
  inb_S256x2304_S256x256_0_1280 : ∀ a, (![0, 1280] : Fin 2 → Nat) a + S256x256.size a ≤ S256x2304.size a
  inb_S256x2304_S256x256_0_1536 : ∀ a, (![0, 1536] : Fin 2 → Nat) a + S256x256.size a ≤ S256x2304.size a
  inb_S256x2304_S256x256_0_1792 : ∀ a, (![0, 1792] : Fin 2 → Nat) a + S256x256.size a ≤ S256x2304.size a
  inb_S256x2304_S256x256_0_2048 : ∀ a, (![0, 2048] : Fin 2 → Nat) a + S256x256.size a ≤ S256x2304.size a
  inb_S256x2304_S256x2304_0_0 : ∀ a, (![0, 0] : Fin 2 → Nat) a + S256x2304.size a ≤ S256x2304.size a
  h_S256x2304 : 0 < S256x2304.numel
  inb_S2304x44_S2304x44_0_0 : ∀ a, (![0, 0] : Fin 2 → Nat) a + S2304x44.size a ≤ S2304x44.size a
  h_S2304x44 : 0 < S2304x44.numel
  shapeCasts_S2304x44_S2304x44 : S2304x44.ShapeCasts S2304x44
  inb_S44_S44_0 : ∀ a, (![0] : Fin 1 → Nat) a + S44.size a ≤ S44.size a
  h_S44 : 0 < S44.numel
  shapeCasts_S44_S1x44 : S44.ShapeCasts S1x44
  broadcasts_S1x44_S256x44 : S1x44.Broadcasts S256x44
  inb_S256x44_S256x44_0_0 : ∀ a, (![0, 0] : Fin 2 → Nat) a + S256x44.size a ≤ S256x44.size a
  h_S256x44 : 0 < S256x44.numel
  dot_S256x256_S256x1024_S256x1024_1_0_0_1_n_n_wf : DotDims.WF S256x256 S256x1024 S256x1024 [1] [0] [0] [1] [] []
  dot_S256x256_S256x3_S256x3_1_0_0_1_n_n_wf : DotDims.WF S256x256 S256x3 S256x3 [1] [0] [0] [1] [] []
  dot_S3x256x256_S3x256x768_S3x256x768_2_1_1_2_0_0_wf : DotDims.WF S3x256x256 S3x256x768 S3x256x768 [2] [1] [1] [2] [0] [0]
  dot_S256x768_S768x9_S256x9_1_0_0_1_n_n_wf : DotDims.WF S256x768 S768x9 S256x9 [1] [0] [0] [1] [] []
  dot_S256x768_S768x2304_S256x2304_1_0_0_1_n_n_wf : DotDims.WF S256x768 S768x2304 S256x2304 [1] [0] [0] [1] [] []
  dot_S256x2304_S2304x44_S256x44_1_0_0_1_n_n_wf : DotDims.WF S256x2304 S2304x44 S256x44 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x256x256.size a ≤ S3x4096x256.size a
  hwx0_1 : ∀ i : grid0.Coords, EltTy.bits .f32 = 32 ∨ (Rect.block (s := S3x4096x256) S3x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x256x256.size a ≤ S3x4096x256.size a
  hwx0_2 : ∀ i : grid0.Coords, EltTy.bits .f32 = 32 ∨ (Rect.block (s := S3x4096x256) S3x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x256x1024.size a ≤ S3x256x1024.size a
  hwx0_3 : ∀ i : grid0.Coords, EltTy.bits .bf16 = 32 ∨ (Rect.block (s := S3x256x1024) S3x256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1024.size a ≤ S3x1024.size a
  hwx0_4 : ∀ i : grid0.Coords, EltTy.bits .f32 = 32 ∨ (Rect.block (s := S3x1024) S3x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x256x3.size a ≤ S3x256x3.size a
  hwx0_5 : ∀ i : grid0.Coords, EltTy.bits .bf16 = 32 ∨ (Rect.block (s := S3x256x3) S3x256x3.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x3.size a ≤ S3x3.size a
  hwx0_6 : ∀ i : grid0.Coords, EltTy.bits .f32 = 32 ∨ (Rect.block (s := S3x3) S3x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x256x768.size a ≤ S3x256x768.size a
  hwx0_7 : ∀ i : grid0.Coords, EltTy.bits .bf16 = 32 ∨ (Rect.block (s := S3x256x768) S3x256x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x768.size a ≤ S3x768.size a
  hwx0_8 : ∀ i : grid0.Coords, EltTy.bits .f32 = 32 ∨ (Rect.block (s := S3x768) S3x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768x9.size a ≤ S768x9.size a
  hwx0_9 : ∀ i : grid0.Coords, EltTy.bits .bf16 = 32 ∨ (Rect.block (s := S768x9) S768x9.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S9.size a ≤ S9.size a
  hwx0_10 : ∀ i : grid0.Coords, EltTy.bits .f32 = 32 ∨ (Rect.block (s := S9) S9.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S768x2304.size a ≤ S768x2304.size a
  hwx0_11 : ∀ i : grid0.Coords, EltTy.bits .bf16 = 32 ∨ (Rect.block (s := S768x2304) S768x2304.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2304.size a ≤ S2304.size a
  hwx0_12 : ∀ i : grid0.Coords, EltTy.bits .f32 = 32 ∨ (Rect.block (s := S2304) S2304.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2304x44.size a ≤ S2304x44.size a
  hwx0_13 : ∀ i : grid0.Coords, EltTy.bits .bf16 = 32 ∨ (Rect.block (s := S2304x44) S2304x44.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S44.size a ≤ S44.size a
  hwx0_14 : ∀ i : grid0.Coords, EltTy.bits .f32 = 32 ∨ (Rect.block (s := S44) S44.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x44.size a ≤ S4096x44.size a
  hwx0_15 : ∀ i : grid0.Coords, EltTy.bits .f32 = 32 ∨ (Rect.block (s := S4096x44) S256x44.size (cc0_transform_15 i) (hinb0_15 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x256_S256x3_S256x3_1_0_0_1_n_n : DotDims S256x256 S256x3 S256x3 where
  lhsContracting := [1]
  rhsContracting := [0]
  lhsNonContracting := [0]
  rhsNonContracting := [1]
  lhsBatch := []
  rhsBatch := []
  wf := dot_S256x256_S256x3_S256x3_1_0_0_1_n_n_wf
def dot_S3x256x256_S3x256x768_S3x256x768_2_1_1_2_0_0 : DotDims S3x256x256 S3x256x768 S3x256x768 where
  lhsContracting := [2]
  rhsContracting := [1]
  lhsNonContracting := [1]
  rhsNonContracting := [2]
  lhsBatch := [0]
  rhsBatch := [0]
  wf := dot_S3x256x256_S3x256x768_S3x256x768_2_1_1_2_0_0_wf
def dot_S256x768_S768x9_S256x9_1_0_0_1_n_n : DotDims S256x768 S768x9 S256x9 where
  lhsContracting := [1]
  rhsContracting := [0]
  lhsNonContracting := [0]
  rhsNonContracting := [1]
  lhsBatch := []
  rhsBatch := []
  wf := dot_S256x768_S768x9_S256x9_1_0_0_1_n_n_wf
def dot_S256x768_S768x2304_S256x2304_1_0_0_1_n_n : DotDims S256x768 S768x2304 S256x2304 where
  lhsContracting := [1]
  rhsContracting := [0]
  lhsNonContracting := [0]
  rhsNonContracting := [1]
  lhsBatch := []
  rhsBatch := []
  wf := dot_S256x768_S768x2304_S256x2304_1_0_0_1_n_n_wf
def dot_S256x2304_S2304x44_S256x44_1_0_0_1_n_n : DotDims S256x2304 S2304x44 S256x44 where
  lhsContracting := [1]
  rhsContracting := [0]
  lhsNonContracting := [0]
  rhsNonContracting := [1]
  lhsBatch := []
  rhsBatch := []
  wf := dot_S256x2304_S2304x44_S256x44_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S3x256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S3x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S3x256x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S3x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S3x256x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S3x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S768x9.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S9.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S768x2304.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v24) S2304.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v26) S2304x44.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg24) S44.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v27) S256x44.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4096x256 : Shape := ⟨2, ![4096, 256]⟩
abbrev S3x4096x256 : Shape := ⟨3, ![3, 4096, 256]⟩
abbrev S3x256x256 : Shape := ⟨3, ![3, 256, 256]⟩
abbrev S3x256 : Shape := ⟨2, ![3, 256]⟩
abbrev S3x3x256 : Shape := ⟨3, ![3, 3, 256]⟩
abbrev S3x3 : Shape := ⟨2, ![3, 3]⟩
abbrev S3x3x768 : Shape := ⟨3, ![3, 3, 768]⟩
abbrev S3x768x768 : Shape := ⟨3, ![3, 768, 768]⟩
abbrev S3x768 : Shape := ⟨2, ![3, 768]⟩
abbrev S44x2304 : Shape := ⟨2, ![44, 2304]⟩
abbrev S44 : Shape := ⟨1, ![44]⟩
abbrev S4096x3x256 : Shape := ⟨3, ![4096, 3, 256]⟩
abbrev S4096x768 : Shape := ⟨2, ![4096, 768]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x4096x256 : Shape := ⟨3, ![1, 4096, 256]⟩
abbrev S_ : Shape := ⟨0, ![]⟩
abbrev S1x3x256 : Shape := ⟨3, ![1, 3, 256]⟩
abbrev S1x3 : Shape := ⟨2, ![1, 3]⟩
abbrev S3 : Shape := ⟨1, ![3]⟩
abbrev S256x3 : Shape := ⟨2, ![256, 3]⟩
abbrev S4096x3 : Shape := ⟨2, ![4096, 3]⟩
abbrev S1x3x768 : Shape := ⟨3, ![1, 3, 768]⟩
abbrev S768x3 : Shape := ⟨2, ![768, 3]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩
abbrev S4096x3x1 : Shape := ⟨3, ![4096, 3, 1]⟩
abbrev S4096x2304 : Shape := ⟨2, ![4096, 2304]⟩
abbrev S2304x44 : Shape := ⟨2, ![2304, 44]⟩
abbrev S4096x44 : Shape := ⟨2, ![4096, 44]⟩
abbrev S1x44 : Shape := ⟨2, ![1, 44]⟩

abbrev nBuf : Space → Nat
  | .hbm => 4519
  | .vmem => 0
  | .smem => 0
  | _ => 0

abbrev hbmTy0_0 (i : Nat) : BufTy := match i % 128 with
  | 0 => ⟨S4096x256, .f32⟩
  | 1 => ⟨S3x4096x256, .f32⟩
  | 2 => ⟨S3x4096x256, .f32⟩
  | 3 => ⟨S3x256x256, .f32⟩
  | 4 => ⟨S3x256, .f32⟩
  | 5 => ⟨S3x256x256, .f32⟩
  | 6 => ⟨S3x256, .f32⟩
  | 7 => ⟨S3x256x256, .f32⟩
  | 8 => ⟨S3x256, .f32⟩
  | 9 => ⟨S3x256x256, .f32⟩
  | 10 => ⟨S3x256, .f32⟩
  | 11 => ⟨S3x3x256, .f32⟩
  | 12 => ⟨S3x3, .f32⟩
  | 13 => ⟨S3x256x256, .f32⟩
  | 14 => ⟨S3x256, .f32⟩
  | 15 => ⟨S3x256x256, .f32⟩
  | 16 => ⟨S3x256, .f32⟩
  | 17 => ⟨S3x256x256, .f32⟩
  | 18 => ⟨S3x256, .f32⟩
  | 19 => ⟨S3x3x768, .f32⟩
  | 20 => ⟨S3x3, .f32⟩
  | 21 => ⟨S3x768x768, .f32⟩
  | 22 => ⟨S3x768, .f32⟩
  | 23 => ⟨S44x2304, .f32⟩
  | 24 => ⟨S44, .f32⟩
  | 25 => ⟨S4096x3x256, .f32⟩
  | 26 => ⟨S4096x768, .f32⟩
  | 27 => ⟨S1x256x256, .f32⟩
  | 28 => ⟨S256x256, .f32⟩
  | 29 => ⟨S1x256, .f32⟩
  | 30 => ⟨S256, .f32⟩
  | 31 => ⟨S256x256, .f32⟩
  | 32 => ⟨S4096x256, .f32⟩
  | 33 => ⟨S1x256, .f32⟩
  | 34 => ⟨S4096x256, .f32⟩
  | 35 => ⟨S4096x256, .f32⟩
  | 36 => ⟨S1x4096x256, .f32⟩
  | 37 => ⟨S4096x256, .f32⟩
  | 38 => ⟨S1x256x256, .f32⟩
  | 39 => ⟨S256x256, .f32⟩
  | 40 => ⟨S1x256, .f32⟩
  | 41 => ⟨S256, .f32⟩
  | 42 => ⟨S256x256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S1x4096x256, .f32⟩
  | 66 => ⟨S4096x256, .f32⟩
  | 67 => ⟨S1x256x256, .f32⟩
  | 68 => ⟨S256x256, .f32⟩
  | 69 => ⟨S1x256, .f32⟩
  | 70 => ⟨S256, .f32⟩
  | 71 => ⟨S256x256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S1x3x256, .f32⟩
  | 86 => ⟨S3x256, .f32⟩
  | 87 => ⟨S1x3, .f32⟩
  | 88 => ⟨S3, .f32⟩
  | 89 => ⟨S256x3, .f32⟩
  | 90 => ⟨S4096x3, .f32⟩
  | 91 => ⟨S1x3, .f32⟩
  | 92 => ⟨S4096x3, .f32⟩
  | 93 => ⟨S4096x3, .f32⟩
  | 94 => ⟨S1x3x768, .f32⟩
  | 95 => ⟨S3x768, .f32⟩
  | 96 => ⟨S1x3, .f32⟩
  | 97 => ⟨S3, .f32⟩
  | 98 => ⟨S768x3, .f32⟩
  | 99 => ⟨S4096x3, .f32⟩
  | 100 => ⟨S1x3, .f32⟩
  | 101 => ⟨S4096x3, .f32⟩
  | 102 => ⟨S4096x3, .f32⟩
  | 103 => ⟨S4096x3, .f32⟩
  | 104 => ⟨S4096x3, .f32⟩
  | 105 => ⟨S4096x3, .f32⟩
  | 106 => ⟨S_, .f32⟩
  | 107 => ⟨S4096x3, .f32⟩
  | 108 => ⟨S4096x3, .f32⟩
  | 109 => ⟨S_, .f32⟩
  | 110 => ⟨S4096x3, .f32⟩
  | 111 => ⟨S4096x3, .f32⟩
  | 112 => ⟨S1x768x768, .f32⟩
  | 113 => ⟨S768x768, .f32⟩
  | 114 => ⟨S1x768, .f32⟩
  | 115 => ⟨S768, .f32⟩
  | 116 => ⟨S768x768, .f32⟩
  | 117 => ⟨S4096x768, .f32⟩
  | 118 => ⟨S1x768, .f32⟩
  | 119 => ⟨S4096x768, .f32⟩
  | 120 => ⟨S4096x768, .f32⟩
  | 121 => ⟨S4096x3x256, .f32⟩
  | 122 => ⟨S4096x3x1, .f32⟩
  | 123 => ⟨S4096x3x256, .f32⟩
  | 124 => ⟨S4096x3x256, .f32⟩
  | 125 => ⟨S_, .f32⟩
  | 126 => ⟨S4096x256, .f32⟩
  | 127 => ⟨S1x256x256, .f32⟩
  | _ => ⟨S4096x256, .f32⟩

abbrev hbmTy0_1 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S4096x256, .f32⟩
  | 10 => ⟨S1x4096x256, .f32⟩
  | 11 => ⟨S4096x256, .f32⟩
  | 12 => ⟨S4096x256, .f32⟩
  | 13 => ⟨S4096x256, .f32⟩
  | 14 => ⟨S4096x256, .f32⟩
  | 15 => ⟨S1x256x256, .f32⟩
  | 16 => ⟨S256x256, .f32⟩
  | 17 => ⟨S1x256, .f32⟩
  | 18 => ⟨S256, .f32⟩
  | 19 => ⟨S256x256, .f32⟩
  | 20 => ⟨S4096x256, .f32⟩
  | 21 => ⟨S1x256, .f32⟩
  | 22 => ⟨S4096x256, .f32⟩
  | 23 => ⟨S4096x256, .f32⟩
  | 24 => ⟨S1x4096x256, .f32⟩
  | 25 => ⟨S4096x256, .f32⟩
  | 26 => ⟨S1x256x256, .f32⟩
  | 27 => ⟨S256x256, .f32⟩
  | 28 => ⟨S1x256, .f32⟩
  | 29 => ⟨S256, .f32⟩
  | 30 => ⟨S256x256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S_, .f32⟩
  | 39 => ⟨S4096x256, .f32⟩
  | 40 => ⟨S4096x256, .f32⟩
  | 41 => ⟨S_, .f32⟩
  | 42 => ⟨S4096x256, .f32⟩
  | 43 => ⟨S4096x256, .f32⟩
  | 44 => ⟨S4096x256, .f32⟩
  | 45 => ⟨S1x256x256, .f32⟩
  | 46 => ⟨S256x256, .f32⟩
  | 47 => ⟨S1x256, .f32⟩
  | 48 => ⟨S256, .f32⟩
  | 49 => ⟨S256x256, .f32⟩
  | 50 => ⟨S4096x256, .f32⟩
  | 51 => ⟨S1x256, .f32⟩
  | 52 => ⟨S4096x256, .f32⟩
  | 53 => ⟨S4096x256, .f32⟩
  | 54 => ⟨S1x4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S_, .f32⟩
  | 72 => ⟨S4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S1x4096x256, .f32⟩
  | 84 => ⟨S4096x256, .f32⟩
  | 85 => ⟨S1x256x256, .f32⟩
  | 86 => ⟨S256x256, .f32⟩
  | 87 => ⟨S1x256, .f32⟩
  | 88 => ⟨S256, .f32⟩
  | 89 => ⟨S256x256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S1x3x256, .f32⟩
  | 104 => ⟨S3x256, .f32⟩
  | 105 => ⟨S1x3, .f32⟩
  | 106 => ⟨S3, .f32⟩
  | 107 => ⟨S256x3, .f32⟩
  | 108 => ⟨S4096x3, .f32⟩
  | 109 => ⟨S1x3, .f32⟩
  | 110 => ⟨S4096x3, .f32⟩
  | 111 => ⟨S4096x3, .f32⟩
  | 112 => ⟨S1x3x768, .f32⟩
  | 113 => ⟨S3x768, .f32⟩
  | 114 => ⟨S1x3, .f32⟩
  | 115 => ⟨S3, .f32⟩
  | 116 => ⟨S768x3, .f32⟩
  | 117 => ⟨S4096x3, .f32⟩
  | 118 => ⟨S1x3, .f32⟩
  | 119 => ⟨S4096x3, .f32⟩
  | 120 => ⟨S4096x3, .f32⟩
  | 121 => ⟨S4096x3, .f32⟩
  | 122 => ⟨S4096x3, .f32⟩
  | 123 => ⟨S4096x3, .f32⟩
  | 124 => ⟨S_, .f32⟩
  | 125 => ⟨S4096x3, .f32⟩
  | 126 => ⟨S4096x3, .f32⟩
  | 127 => ⟨S_, .f32⟩
  | _ => ⟨S4096x256, .f32⟩

abbrev hbmTy0_2 (i : Nat) : BufTy := match i % 128 with
  | 0 => ⟨S4096x3, .f32⟩
  | 1 => ⟨S4096x3, .f32⟩
  | 2 => ⟨S1x768x768, .f32⟩
  | 3 => ⟨S768x768, .f32⟩
  | 4 => ⟨S1x768, .f32⟩
  | 5 => ⟨S768, .f32⟩
  | 6 => ⟨S768x768, .f32⟩
  | 7 => ⟨S4096x768, .f32⟩
  | 8 => ⟨S1x768, .f32⟩
  | 9 => ⟨S4096x768, .f32⟩
  | 10 => ⟨S4096x768, .f32⟩
  | 11 => ⟨S4096x3x256, .f32⟩
  | 12 => ⟨S4096x3x1, .f32⟩
  | 13 => ⟨S4096x3x256, .f32⟩
  | 14 => ⟨S4096x3x256, .f32⟩
  | 15 => ⟨S_, .f32⟩
  | 16 => ⟨S4096x256, .f32⟩
  | 17 => ⟨S1x256x256, .f32⟩
  | 18 => ⟨S256x256, .f32⟩
  | 19 => ⟨S1x256, .f32⟩
  | 20 => ⟨S256, .f32⟩
  | 21 => ⟨S256x256, .f32⟩
  | 22 => ⟨S4096x256, .f32⟩
  | 23 => ⟨S1x256, .f32⟩
  | 24 => ⟨S4096x256, .f32⟩
  | 25 => ⟨S4096x256, .f32⟩
  | 26 => ⟨S4096x256, .f32⟩
  | 27 => ⟨S4096x256, .f32⟩
  | 28 => ⟨S1x4096x256, .f32⟩
  | 29 => ⟨S4096x256, .f32⟩
  | 30 => ⟨S4096x256, .f32⟩
  | 31 => ⟨S4096x256, .f32⟩
  | 32 => ⟨S4096x256, .f32⟩
  | 33 => ⟨S1x256x256, .f32⟩
  | 34 => ⟨S256x256, .f32⟩
  | 35 => ⟨S1x256, .f32⟩
  | 36 => ⟨S256, .f32⟩
  | 37 => ⟨S256x256, .f32⟩
  | 38 => ⟨S4096x256, .f32⟩
  | 39 => ⟨S1x256, .f32⟩
  | 40 => ⟨S4096x256, .f32⟩
  | 41 => ⟨S4096x256, .f32⟩
  | 42 => ⟨S1x4096x256, .f32⟩
  | 43 => ⟨S4096x256, .f32⟩
  | 44 => ⟨S1x256x256, .f32⟩
  | 45 => ⟨S256x256, .f32⟩
  | 46 => ⟨S1x256, .f32⟩
  | 47 => ⟨S256, .f32⟩
  | 48 => ⟨S256x256, .f32⟩
  | 49 => ⟨S4096x256, .f32⟩
  | 50 => ⟨S1x256, .f32⟩
  | 51 => ⟨S4096x256, .f32⟩
  | 52 => ⟨S4096x256, .f32⟩
  | 53 => ⟨S4096x256, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S1x4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S4096x256, .f32⟩
  | 85 => ⟨S4096x256, .f32⟩
  | 86 => ⟨S_, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S1x256x256, .f32⟩
  | 93 => ⟨S256x256, .f32⟩
  | 94 => ⟨S1x256, .f32⟩
  | 95 => ⟨S256, .f32⟩
  | 96 => ⟨S256x256, .f32⟩
  | 97 => ⟨S4096x256, .f32⟩
  | 98 => ⟨S1x256, .f32⟩
  | 99 => ⟨S4096x256, .f32⟩
  | 100 => ⟨S4096x256, .f32⟩
  | 101 => ⟨S1x4096x256, .f32⟩
  | 102 => ⟨S4096x256, .f32⟩
  | 103 => ⟨S1x256x256, .f32⟩
  | 104 => ⟨S256x256, .f32⟩
  | 105 => ⟨S1x256, .f32⟩
  | 106 => ⟨S256, .f32⟩
  | 107 => ⟨S256x256, .f32⟩
  | 108 => ⟨S4096x256, .f32⟩
  | 109 => ⟨S1x256, .f32⟩
  | 110 => ⟨S4096x256, .f32⟩
  | 111 => ⟨S4096x256, .f32⟩
  | 112 => ⟨S4096x256, .f32⟩
  | 113 => ⟨S4096x256, .f32⟩
  | 114 => ⟨S4096x256, .f32⟩
  | 115 => ⟨S_, .f32⟩
  | 116 => ⟨S4096x256, .f32⟩
  | 117 => ⟨S4096x256, .f32⟩
  | 118 => ⟨S_, .f32⟩
  | 119 => ⟨S4096x256, .f32⟩
  | 120 => ⟨S4096x256, .f32⟩
  | 121 => ⟨S1x3x256, .f32⟩
  | 122 => ⟨S3x256, .f32⟩
  | 123 => ⟨S1x3, .f32⟩
  | 124 => ⟨S3, .f32⟩
  | 125 => ⟨S256x3, .f32⟩
  | 126 => ⟨S4096x3, .f32⟩
  | 127 => ⟨S1x3, .f32⟩
  | _ => ⟨S4096x256, .f32⟩

abbrev hbmTy0_3 (i : Nat) : BufTy := match i % 128 with
  | 0 => ⟨S4096x3, .f32⟩
  | 1 => ⟨S4096x3, .f32⟩
  | 2 => ⟨S1x3x768, .f32⟩
  | 3 => ⟨S3x768, .f32⟩
  | 4 => ⟨S1x3, .f32⟩
  | 5 => ⟨S3, .f32⟩
  | 6 => ⟨S768x3, .f32⟩
  | 7 => ⟨S4096x3, .f32⟩
  | 8 => ⟨S1x3, .f32⟩
  | 9 => ⟨S4096x3, .f32⟩
  | 10 => ⟨S4096x3, .f32⟩
  | 11 => ⟨S4096x3, .f32⟩
  | 12 => ⟨S4096x3, .f32⟩
  | 13 => ⟨S4096x3, .f32⟩
  | 14 => ⟨S_, .f32⟩
  | 15 => ⟨S4096x3, .f32⟩
  | 16 => ⟨S4096x3, .f32⟩
  | 17 => ⟨S_, .f32⟩
  | 18 => ⟨S4096x3, .f32⟩
  | 19 => ⟨S4096x3, .f32⟩
  | 20 => ⟨S1x768x768, .f32⟩
  | 21 => ⟨S768x768, .f32⟩
  | 22 => ⟨S1x768, .f32⟩
  | 23 => ⟨S768, .f32⟩
  | 24 => ⟨S768x768, .f32⟩
  | 25 => ⟨S4096x768, .f32⟩
  | 26 => ⟨S1x768, .f32⟩
  | 27 => ⟨S4096x768, .f32⟩
  | 28 => ⟨S4096x768, .f32⟩
  | 29 => ⟨S4096x3x256, .f32⟩
  | 30 => ⟨S4096x3x1, .f32⟩
  | 31 => ⟨S4096x3x256, .f32⟩
  | 32 => ⟨S4096x3x256, .f32⟩
  | 33 => ⟨S_, .f32⟩
  | 34 => ⟨S4096x256, .f32⟩
  | 35 => ⟨S1x256x256, .f32⟩
  | 36 => ⟨S256x256, .f32⟩
  | 37 => ⟨S1x256, .f32⟩
  | 38 => ⟨S256, .f32⟩
  | 39 => ⟨S256x256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S4096x256, .f32⟩
  | 46 => ⟨S1x4096x256, .f32⟩
  | 47 => ⟨S4096x256, .f32⟩
  | 48 => ⟨S4096x256, .f32⟩
  | 49 => ⟨S4096x256, .f32⟩
  | 50 => ⟨S4096x256, .f32⟩
  | 51 => ⟨S1x256x256, .f32⟩
  | 52 => ⟨S256x256, .f32⟩
  | 53 => ⟨S1x256, .f32⟩
  | 54 => ⟨S256, .f32⟩
  | 55 => ⟨S256x256, .f32⟩
  | 56 => ⟨S4096x256, .f32⟩
  | 57 => ⟨S1x256, .f32⟩
  | 58 => ⟨S4096x256, .f32⟩
  | 59 => ⟨S4096x256, .f32⟩
  | 60 => ⟨S1x4096x256, .f32⟩
  | 61 => ⟨S4096x256, .f32⟩
  | 62 => ⟨S1x256x256, .f32⟩
  | 63 => ⟨S256x256, .f32⟩
  | 64 => ⟨S1x256, .f32⟩
  | 65 => ⟨S256, .f32⟩
  | 66 => ⟨S256x256, .f32⟩
  | 67 => ⟨S4096x256, .f32⟩
  | 68 => ⟨S1x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S_, .f32⟩
  | 75 => ⟨S4096x256, .f32⟩
  | 76 => ⟨S4096x256, .f32⟩
  | 77 => ⟨S_, .f32⟩
  | 78 => ⟨S4096x256, .f32⟩
  | 79 => ⟨S4096x256, .f32⟩
  | 80 => ⟨S4096x256, .f32⟩
  | 81 => ⟨S1x4096x256, .f32⟩
  | 82 => ⟨S1x4096x256, .f32⟩
  | 83 => ⟨S1x4096x256, .f32⟩
  | 84 => ⟨S3x4096x256, .f32⟩
  | 85 => ⟨S1x4096x256, .f32⟩
  | 86 => ⟨S1x4096x256, .f32⟩
  | 87 => ⟨S1x4096x256, .f32⟩
  | 88 => ⟨S3x4096x256, .f32⟩
  | 89 => ⟨S4096x3x256, .f32⟩
  | 90 => ⟨S4096x768, .f32⟩
  | 91 => ⟨S1x256x256, .f32⟩
  | 92 => ⟨S256x256, .f32⟩
  | 93 => ⟨S1x256, .f32⟩
  | 94 => ⟨S256, .f32⟩
  | 95 => ⟨S256x256, .f32⟩
  | 96 => ⟨S4096x256, .f32⟩
  | 97 => ⟨S1x256, .f32⟩
  | 98 => ⟨S4096x256, .f32⟩
  | 99 => ⟨S4096x256, .f32⟩
  | 100 => ⟨S1x4096x256, .f32⟩
  | 101 => ⟨S4096x256, .f32⟩
  | 102 => ⟨S1x256x256, .f32⟩
  | 103 => ⟨S256x256, .f32⟩
  | 104 => ⟨S1x256, .f32⟩
  | 105 => ⟨S256, .f32⟩
  | 106 => ⟨S256x256, .f32⟩
  | 107 => ⟨S4096x256, .f32⟩
  | 108 => ⟨S1x256, .f32⟩
  | 109 => ⟨S4096x256, .f32⟩
  | 110 => ⟨S4096x256, .f32⟩
  | 111 => ⟨S4096x256, .f32⟩
  | 112 => ⟨S4096x256, .f32⟩
  | 113 => ⟨S4096x256, .f32⟩
  | 114 => ⟨S_, .f32⟩
  | 115 => ⟨S4096x256, .f32⟩
  | 116 => ⟨S4096x256, .f32⟩
  | 117 => ⟨S_, .f32⟩
  | 118 => ⟨S4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_4 (i : Nat) : BufTy := match i % 128 with
  | 0 => ⟨S4096x256, .f32⟩
  | 1 => ⟨S1x4096x256, .f32⟩
  | 2 => ⟨S4096x256, .f32⟩
  | 3 => ⟨S1x256x256, .f32⟩
  | 4 => ⟨S256x256, .f32⟩
  | 5 => ⟨S1x256, .f32⟩
  | 6 => ⟨S256, .f32⟩
  | 7 => ⟨S256x256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S_, .f32⟩
  | 19 => ⟨S4096x256, .f32⟩
  | 20 => ⟨S4096x256, .f32⟩
  | 21 => ⟨S1x3x256, .f32⟩
  | 22 => ⟨S3x256, .f32⟩
  | 23 => ⟨S1x3, .f32⟩
  | 24 => ⟨S3, .f32⟩
  | 25 => ⟨S256x3, .f32⟩
  | 26 => ⟨S4096x3, .f32⟩
  | 27 => ⟨S1x3, .f32⟩
  | 28 => ⟨S4096x3, .f32⟩
  | 29 => ⟨S4096x3, .f32⟩
  | 30 => ⟨S1x3x768, .f32⟩
  | 31 => ⟨S3x768, .f32⟩
  | 32 => ⟨S1x3, .f32⟩
  | 33 => ⟨S3, .f32⟩
  | 34 => ⟨S768x3, .f32⟩
  | 35 => ⟨S4096x3, .f32⟩
  | 36 => ⟨S1x3, .f32⟩
  | 37 => ⟨S4096x3, .f32⟩
  | 38 => ⟨S4096x3, .f32⟩
  | 39 => ⟨S4096x3, .f32⟩
  | 40 => ⟨S4096x3, .f32⟩
  | 41 => ⟨S4096x3, .f32⟩
  | 42 => ⟨S_, .f32⟩
  | 43 => ⟨S4096x3, .f32⟩
  | 44 => ⟨S4096x3, .f32⟩
  | 45 => ⟨S_, .f32⟩
  | 46 => ⟨S4096x3, .f32⟩
  | 47 => ⟨S4096x3, .f32⟩
  | 48 => ⟨S1x768x768, .f32⟩
  | 49 => ⟨S768x768, .f32⟩
  | 50 => ⟨S1x768, .f32⟩
  | 51 => ⟨S768, .f32⟩
  | 52 => ⟨S768x768, .f32⟩
  | 53 => ⟨S4096x768, .f32⟩
  | 54 => ⟨S1x768, .f32⟩
  | 55 => ⟨S4096x768, .f32⟩
  | 56 => ⟨S4096x768, .f32⟩
  | 57 => ⟨S4096x3x256, .f32⟩
  | 58 => ⟨S4096x3x1, .f32⟩
  | 59 => ⟨S4096x3x256, .f32⟩
  | 60 => ⟨S4096x3x256, .f32⟩
  | 61 => ⟨S_, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S4096x256, .f32⟩
  | 74 => ⟨S1x4096x256, .f32⟩
  | 75 => ⟨S4096x256, .f32⟩
  | 76 => ⟨S4096x256, .f32⟩
  | 77 => ⟨S4096x256, .f32⟩
  | 78 => ⟨S4096x256, .f32⟩
  | 79 => ⟨S1x256x256, .f32⟩
  | 80 => ⟨S256x256, .f32⟩
  | 81 => ⟨S1x256, .f32⟩
  | 82 => ⟨S256, .f32⟩
  | 83 => ⟨S256x256, .f32⟩
  | 84 => ⟨S4096x256, .f32⟩
  | 85 => ⟨S1x256, .f32⟩
  | 86 => ⟨S4096x256, .f32⟩
  | 87 => ⟨S4096x256, .f32⟩
  | 88 => ⟨S1x4096x256, .f32⟩
  | 89 => ⟨S4096x256, .f32⟩
  | 90 => ⟨S1x256x256, .f32⟩
  | 91 => ⟨S256x256, .f32⟩
  | 92 => ⟨S1x256, .f32⟩
  | 93 => ⟨S256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S_, .f32⟩
  | 106 => ⟨S4096x256, .f32⟩
  | 107 => ⟨S4096x256, .f32⟩
  | 108 => ⟨S4096x256, .f32⟩
  | 109 => ⟨S1x256x256, .f32⟩
  | 110 => ⟨S256x256, .f32⟩
  | 111 => ⟨S1x256, .f32⟩
  | 112 => ⟨S256, .f32⟩
  | 113 => ⟨S256x256, .f32⟩
  | 114 => ⟨S4096x256, .f32⟩
  | 115 => ⟨S1x256, .f32⟩
  | 116 => ⟨S4096x256, .f32⟩
  | 117 => ⟨S4096x256, .f32⟩
  | 118 => ⟨S1x4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_5 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S_, .f32⟩
  | 8 => ⟨S4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S1x4096x256, .f32⟩
  | 20 => ⟨S4096x256, .f32⟩
  | 21 => ⟨S1x256x256, .f32⟩
  | 22 => ⟨S256x256, .f32⟩
  | 23 => ⟨S1x256, .f32⟩
  | 24 => ⟨S256, .f32⟩
  | 25 => ⟨S256x256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S_, .f32⟩
  | 37 => ⟨S4096x256, .f32⟩
  | 38 => ⟨S4096x256, .f32⟩
  | 39 => ⟨S1x3x256, .f32⟩
  | 40 => ⟨S3x256, .f32⟩
  | 41 => ⟨S1x3, .f32⟩
  | 42 => ⟨S3, .f32⟩
  | 43 => ⟨S256x3, .f32⟩
  | 44 => ⟨S4096x3, .f32⟩
  | 45 => ⟨S1x3, .f32⟩
  | 46 => ⟨S4096x3, .f32⟩
  | 47 => ⟨S4096x3, .f32⟩
  | 48 => ⟨S1x3x768, .f32⟩
  | 49 => ⟨S3x768, .f32⟩
  | 50 => ⟨S1x3, .f32⟩
  | 51 => ⟨S3, .f32⟩
  | 52 => ⟨S768x3, .f32⟩
  | 53 => ⟨S4096x3, .f32⟩
  | 54 => ⟨S1x3, .f32⟩
  | 55 => ⟨S4096x3, .f32⟩
  | 56 => ⟨S4096x3, .f32⟩
  | 57 => ⟨S4096x3, .f32⟩
  | 58 => ⟨S4096x3, .f32⟩
  | 59 => ⟨S4096x3, .f32⟩
  | 60 => ⟨S_, .f32⟩
  | 61 => ⟨S4096x3, .f32⟩
  | 62 => ⟨S4096x3, .f32⟩
  | 63 => ⟨S_, .f32⟩
  | 64 => ⟨S4096x3, .f32⟩
  | 65 => ⟨S4096x3, .f32⟩
  | 66 => ⟨S1x768x768, .f32⟩
  | 67 => ⟨S768x768, .f32⟩
  | 68 => ⟨S1x768, .f32⟩
  | 69 => ⟨S768, .f32⟩
  | 70 => ⟨S768x768, .f32⟩
  | 71 => ⟨S4096x768, .f32⟩
  | 72 => ⟨S1x768, .f32⟩
  | 73 => ⟨S4096x768, .f32⟩
  | 74 => ⟨S4096x768, .f32⟩
  | 75 => ⟨S4096x3x256, .f32⟩
  | 76 => ⟨S4096x3x1, .f32⟩
  | 77 => ⟨S4096x3x256, .f32⟩
  | 78 => ⟨S4096x3x256, .f32⟩
  | 79 => ⟨S_, .f32⟩
  | 80 => ⟨S4096x256, .f32⟩
  | 81 => ⟨S1x256x256, .f32⟩
  | 82 => ⟨S256x256, .f32⟩
  | 83 => ⟨S1x256, .f32⟩
  | 84 => ⟨S256, .f32⟩
  | 85 => ⟨S256x256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S4096x256, .f32⟩
  | 92 => ⟨S1x4096x256, .f32⟩
  | 93 => ⟨S4096x256, .f32⟩
  | 94 => ⟨S4096x256, .f32⟩
  | 95 => ⟨S4096x256, .f32⟩
  | 96 => ⟨S4096x256, .f32⟩
  | 97 => ⟨S1x256x256, .f32⟩
  | 98 => ⟨S256x256, .f32⟩
  | 99 => ⟨S1x256, .f32⟩
  | 100 => ⟨S256, .f32⟩
  | 101 => ⟨S256x256, .f32⟩
  | 102 => ⟨S4096x256, .f32⟩
  | 103 => ⟨S1x256, .f32⟩
  | 104 => ⟨S4096x256, .f32⟩
  | 105 => ⟨S4096x256, .f32⟩
  | 106 => ⟨S1x4096x256, .f32⟩
  | 107 => ⟨S4096x256, .f32⟩
  | 108 => ⟨S1x256x256, .f32⟩
  | 109 => ⟨S256x256, .f32⟩
  | 110 => ⟨S1x256, .f32⟩
  | 111 => ⟨S256, .f32⟩
  | 112 => ⟨S256x256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S_, .f32⟩
  | 124 => ⟨S4096x256, .f32⟩
  | 125 => ⟨S4096x256, .f32⟩
  | 126 => ⟨S4096x256, .f32⟩
  | 127 => ⟨S1x256x256, .f32⟩
  | _ => ⟨S4096x256, .f32⟩

abbrev hbmTy0_6 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S1x4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S1x256x256, .f32⟩
  | 29 => ⟨S256x256, .f32⟩
  | 30 => ⟨S1x256, .f32⟩
  | 31 => ⟨S256, .f32⟩
  | 32 => ⟨S256x256, .f32⟩
  | 33 => ⟨S4096x256, .f32⟩
  | 34 => ⟨S1x256, .f32⟩
  | 35 => ⟨S4096x256, .f32⟩
  | 36 => ⟨S4096x256, .f32⟩
  | 37 => ⟨S1x4096x256, .f32⟩
  | 38 => ⟨S4096x256, .f32⟩
  | 39 => ⟨S1x256x256, .f32⟩
  | 40 => ⟨S256x256, .f32⟩
  | 41 => ⟨S1x256, .f32⟩
  | 42 => ⟨S256, .f32⟩
  | 43 => ⟨S256x256, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S4096x256, .f32⟩
  | 50 => ⟨S4096x256, .f32⟩
  | 51 => ⟨S_, .f32⟩
  | 52 => ⟨S4096x256, .f32⟩
  | 53 => ⟨S4096x256, .f32⟩
  | 54 => ⟨S_, .f32⟩
  | 55 => ⟨S4096x256, .f32⟩
  | 56 => ⟨S4096x256, .f32⟩
  | 57 => ⟨S1x3x256, .f32⟩
  | 58 => ⟨S3x256, .f32⟩
  | 59 => ⟨S1x3, .f32⟩
  | 60 => ⟨S3, .f32⟩
  | 61 => ⟨S256x3, .f32⟩
  | 62 => ⟨S4096x3, .f32⟩
  | 63 => ⟨S1x3, .f32⟩
  | 64 => ⟨S4096x3, .f32⟩
  | 65 => ⟨S4096x3, .f32⟩
  | 66 => ⟨S1x3x768, .f32⟩
  | 67 => ⟨S3x768, .f32⟩
  | 68 => ⟨S1x3, .f32⟩
  | 69 => ⟨S3, .f32⟩
  | 70 => ⟨S768x3, .f32⟩
  | 71 => ⟨S4096x3, .f32⟩
  | 72 => ⟨S1x3, .f32⟩
  | 73 => ⟨S4096x3, .f32⟩
  | 74 => ⟨S4096x3, .f32⟩
  | 75 => ⟨S4096x3, .f32⟩
  | 76 => ⟨S4096x3, .f32⟩
  | 77 => ⟨S4096x3, .f32⟩
  | 78 => ⟨S_, .f32⟩
  | 79 => ⟨S4096x3, .f32⟩
  | 80 => ⟨S4096x3, .f32⟩
  | 81 => ⟨S_, .f32⟩
  | 82 => ⟨S4096x3, .f32⟩
  | 83 => ⟨S4096x3, .f32⟩
  | 84 => ⟨S1x768x768, .f32⟩
  | 85 => ⟨S768x768, .f32⟩
  | 86 => ⟨S1x768, .f32⟩
  | 87 => ⟨S768, .f32⟩
  | 88 => ⟨S768x768, .f32⟩
  | 89 => ⟨S4096x768, .f32⟩
  | 90 => ⟨S1x768, .f32⟩
  | 91 => ⟨S4096x768, .f32⟩
  | 92 => ⟨S4096x768, .f32⟩
  | 93 => ⟨S4096x3x256, .f32⟩
  | 94 => ⟨S4096x3x1, .f32⟩
  | 95 => ⟨S4096x3x256, .f32⟩
  | 96 => ⟨S4096x3x256, .f32⟩
  | 97 => ⟨S_, .f32⟩
  | 98 => ⟨S4096x256, .f32⟩
  | 99 => ⟨S1x256x256, .f32⟩
  | 100 => ⟨S256x256, .f32⟩
  | 101 => ⟨S1x256, .f32⟩
  | 102 => ⟨S256, .f32⟩
  | 103 => ⟨S256x256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S4096x256, .f32⟩
  | 110 => ⟨S1x4096x256, .f32⟩
  | 111 => ⟨S4096x256, .f32⟩
  | 112 => ⟨S4096x256, .f32⟩
  | 113 => ⟨S4096x256, .f32⟩
  | 114 => ⟨S4096x256, .f32⟩
  | 115 => ⟨S1x256x256, .f32⟩
  | 116 => ⟨S256x256, .f32⟩
  | 117 => ⟨S1x256, .f32⟩
  | 118 => ⟨S256, .f32⟩
  | 119 => ⟨S256x256, .f32⟩
  | 120 => ⟨S4096x256, .f32⟩
  | 121 => ⟨S1x256, .f32⟩
  | 122 => ⟨S4096x256, .f32⟩
  | 123 => ⟨S4096x256, .f32⟩
  | 124 => ⟨S1x4096x256, .f32⟩
  | 125 => ⟨S4096x256, .f32⟩
  | 126 => ⟨S1x256x256, .f32⟩
  | 127 => ⟨S256x256, .f32⟩
  | _ => ⟨S4096x256, .f32⟩

abbrev hbmTy0_7 (i : Nat) : BufTy := match i % 128 with
  | 0 => ⟨S1x256, .f32⟩
  | 1 => ⟨S256, .f32⟩
  | 2 => ⟨S256x256, .f32⟩
  | 3 => ⟨S4096x256, .f32⟩
  | 4 => ⟨S1x256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S1x4096x256, .f32⟩
  | 18 => ⟨S1x4096x256, .f32⟩
  | 19 => ⟨S1x4096x256, .f32⟩
  | 20 => ⟨S3x4096x256, .f32⟩
  | 21 => ⟨S1x4096x256, .f32⟩
  | 22 => ⟨S1x4096x256, .f32⟩
  | 23 => ⟨S1x4096x256, .f32⟩
  | 24 => ⟨S3x4096x256, .f32⟩
  | 25 => ⟨S4096x3x256, .f32⟩
  | 26 => ⟨S4096x768, .f32⟩
  | 27 => ⟨S1x256x256, .f32⟩
  | 28 => ⟨S256x256, .f32⟩
  | 29 => ⟨S1x256, .f32⟩
  | 30 => ⟨S256, .f32⟩
  | 31 => ⟨S256x256, .f32⟩
  | 32 => ⟨S4096x256, .f32⟩
  | 33 => ⟨S1x256, .f32⟩
  | 34 => ⟨S4096x256, .f32⟩
  | 35 => ⟨S4096x256, .f32⟩
  | 36 => ⟨S1x4096x256, .f32⟩
  | 37 => ⟨S4096x256, .f32⟩
  | 38 => ⟨S1x256x256, .f32⟩
  | 39 => ⟨S256x256, .f32⟩
  | 40 => ⟨S1x256, .f32⟩
  | 41 => ⟨S256, .f32⟩
  | 42 => ⟨S256x256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S1x4096x256, .f32⟩
  | 66 => ⟨S4096x256, .f32⟩
  | 67 => ⟨S1x256x256, .f32⟩
  | 68 => ⟨S256x256, .f32⟩
  | 69 => ⟨S1x256, .f32⟩
  | 70 => ⟨S256, .f32⟩
  | 71 => ⟨S256x256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S1x3x256, .f32⟩
  | 86 => ⟨S3x256, .f32⟩
  | 87 => ⟨S1x3, .f32⟩
  | 88 => ⟨S3, .f32⟩
  | 89 => ⟨S256x3, .f32⟩
  | 90 => ⟨S4096x3, .f32⟩
  | 91 => ⟨S1x3, .f32⟩
  | 92 => ⟨S4096x3, .f32⟩
  | 93 => ⟨S4096x3, .f32⟩
  | 94 => ⟨S1x3x768, .f32⟩
  | 95 => ⟨S3x768, .f32⟩
  | 96 => ⟨S1x3, .f32⟩
  | 97 => ⟨S3, .f32⟩
  | 98 => ⟨S768x3, .f32⟩
  | 99 => ⟨S4096x3, .f32⟩
  | 100 => ⟨S1x3, .f32⟩
  | 101 => ⟨S4096x3, .f32⟩
  | 102 => ⟨S4096x3, .f32⟩
  | 103 => ⟨S4096x3, .f32⟩
  | 104 => ⟨S4096x3, .f32⟩
  | 105 => ⟨S4096x3, .f32⟩
  | 106 => ⟨S_, .f32⟩
  | 107 => ⟨S4096x3, .f32⟩
  | 108 => ⟨S4096x3, .f32⟩
  | 109 => ⟨S_, .f32⟩
  | 110 => ⟨S4096x3, .f32⟩
  | 111 => ⟨S4096x3, .f32⟩
  | 112 => ⟨S1x768x768, .f32⟩
  | 113 => ⟨S768x768, .f32⟩
  | 114 => ⟨S1x768, .f32⟩
  | 115 => ⟨S768, .f32⟩
  | 116 => ⟨S768x768, .f32⟩
  | 117 => ⟨S4096x768, .f32⟩
  | 118 => ⟨S1x768, .f32⟩
  | 119 => ⟨S4096x768, .f32⟩
  | 120 => ⟨S4096x768, .f32⟩
  | 121 => ⟨S4096x3x256, .f32⟩
  | 122 => ⟨S4096x3x1, .f32⟩
  | 123 => ⟨S4096x3x256, .f32⟩
  | 124 => ⟨S4096x3x256, .f32⟩
  | 125 => ⟨S_, .f32⟩
  | 126 => ⟨S4096x256, .f32⟩
  | 127 => ⟨S1x256x256, .f32⟩
  | _ => ⟨S4096x256, .f32⟩

abbrev hbmTy0_8 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S4096x256, .f32⟩
  | 10 => ⟨S1x4096x256, .f32⟩
  | 11 => ⟨S4096x256, .f32⟩
  | 12 => ⟨S4096x256, .f32⟩
  | 13 => ⟨S4096x256, .f32⟩
  | 14 => ⟨S4096x256, .f32⟩
  | 15 => ⟨S1x256x256, .f32⟩
  | 16 => ⟨S256x256, .f32⟩
  | 17 => ⟨S1x256, .f32⟩
  | 18 => ⟨S256, .f32⟩
  | 19 => ⟨S256x256, .f32⟩
  | 20 => ⟨S4096x256, .f32⟩
  | 21 => ⟨S1x256, .f32⟩
  | 22 => ⟨S4096x256, .f32⟩
  | 23 => ⟨S4096x256, .f32⟩
  | 24 => ⟨S1x4096x256, .f32⟩
  | 25 => ⟨S4096x256, .f32⟩
  | 26 => ⟨S1x256x256, .f32⟩
  | 27 => ⟨S256x256, .f32⟩
  | 28 => ⟨S1x256, .f32⟩
  | 29 => ⟨S256, .f32⟩
  | 30 => ⟨S256x256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S_, .f32⟩
  | 39 => ⟨S4096x256, .f32⟩
  | 40 => ⟨S4096x256, .f32⟩
  | 41 => ⟨S_, .f32⟩
  | 42 => ⟨S4096x256, .f32⟩
  | 43 => ⟨S4096x256, .f32⟩
  | 44 => ⟨S4096x256, .f32⟩
  | 45 => ⟨S1x256x256, .f32⟩
  | 46 => ⟨S256x256, .f32⟩
  | 47 => ⟨S1x256, .f32⟩
  | 48 => ⟨S256, .f32⟩
  | 49 => ⟨S256x256, .f32⟩
  | 50 => ⟨S4096x256, .f32⟩
  | 51 => ⟨S1x256, .f32⟩
  | 52 => ⟨S4096x256, .f32⟩
  | 53 => ⟨S4096x256, .f32⟩
  | 54 => ⟨S1x4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S_, .f32⟩
  | 72 => ⟨S4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S1x4096x256, .f32⟩
  | 84 => ⟨S4096x256, .f32⟩
  | 85 => ⟨S1x256x256, .f32⟩
  | 86 => ⟨S256x256, .f32⟩
  | 87 => ⟨S1x256, .f32⟩
  | 88 => ⟨S256, .f32⟩
  | 89 => ⟨S256x256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S1x3x256, .f32⟩
  | 104 => ⟨S3x256, .f32⟩
  | 105 => ⟨S1x3, .f32⟩
  | 106 => ⟨S3, .f32⟩
  | 107 => ⟨S256x3, .f32⟩
  | 108 => ⟨S4096x3, .f32⟩
  | 109 => ⟨S1x3, .f32⟩
  | 110 => ⟨S4096x3, .f32⟩
  | 111 => ⟨S4096x3, .f32⟩
  | 112 => ⟨S1x3x768, .f32⟩
  | 113 => ⟨S3x768, .f32⟩
  | 114 => ⟨S1x3, .f32⟩
  | 115 => ⟨S3, .f32⟩
  | 116 => ⟨S768x3, .f32⟩
  | 117 => ⟨S4096x3, .f32⟩
  | 118 => ⟨S1x3, .f32⟩
  | 119 => ⟨S4096x3, .f32⟩
  | 120 => ⟨S4096x3, .f32⟩
  | 121 => ⟨S4096x3, .f32⟩
  | 122 => ⟨S4096x3, .f32⟩
  | 123 => ⟨S4096x3, .f32⟩
  | 124 => ⟨S_, .f32⟩
  | 125 => ⟨S4096x3, .f32⟩
  | 126 => ⟨S4096x3, .f32⟩
  | 127 => ⟨S_, .f32⟩
  | _ => ⟨S4096x256, .f32⟩

abbrev hbmTy0_9 (i : Nat) : BufTy := match i % 128 with
  | 0 => ⟨S4096x3, .f32⟩
  | 1 => ⟨S4096x3, .f32⟩
  | 2 => ⟨S1x768x768, .f32⟩
  | 3 => ⟨S768x768, .f32⟩
  | 4 => ⟨S1x768, .f32⟩
  | 5 => ⟨S768, .f32⟩
  | 6 => ⟨S768x768, .f32⟩
  | 7 => ⟨S4096x768, .f32⟩
  | 8 => ⟨S1x768, .f32⟩
  | 9 => ⟨S4096x768, .f32⟩
  | 10 => ⟨S4096x768, .f32⟩
  | 11 => ⟨S4096x3x256, .f32⟩
  | 12 => ⟨S4096x3x1, .f32⟩
  | 13 => ⟨S4096x3x256, .f32⟩
  | 14 => ⟨S4096x3x256, .f32⟩
  | 15 => ⟨S_, .f32⟩
  | 16 => ⟨S4096x256, .f32⟩
  | 17 => ⟨S1x256x256, .f32⟩
  | 18 => ⟨S256x256, .f32⟩
  | 19 => ⟨S1x256, .f32⟩
  | 20 => ⟨S256, .f32⟩
  | 21 => ⟨S256x256, .f32⟩
  | 22 => ⟨S4096x256, .f32⟩
  | 23 => ⟨S1x256, .f32⟩
  | 24 => ⟨S4096x256, .f32⟩
  | 25 => ⟨S4096x256, .f32⟩
  | 26 => ⟨S4096x256, .f32⟩
  | 27 => ⟨S4096x256, .f32⟩
  | 28 => ⟨S1x4096x256, .f32⟩
  | 29 => ⟨S4096x256, .f32⟩
  | 30 => ⟨S4096x256, .f32⟩
  | 31 => ⟨S4096x256, .f32⟩
  | 32 => ⟨S4096x256, .f32⟩
  | 33 => ⟨S1x256x256, .f32⟩
  | 34 => ⟨S256x256, .f32⟩
  | 35 => ⟨S1x256, .f32⟩
  | 36 => ⟨S256, .f32⟩
  | 37 => ⟨S256x256, .f32⟩
  | 38 => ⟨S4096x256, .f32⟩
  | 39 => ⟨S1x256, .f32⟩
  | 40 => ⟨S4096x256, .f32⟩
  | 41 => ⟨S4096x256, .f32⟩
  | 42 => ⟨S1x4096x256, .f32⟩
  | 43 => ⟨S4096x256, .f32⟩
  | 44 => ⟨S1x256x256, .f32⟩
  | 45 => ⟨S256x256, .f32⟩
  | 46 => ⟨S1x256, .f32⟩
  | 47 => ⟨S256, .f32⟩
  | 48 => ⟨S256x256, .f32⟩
  | 49 => ⟨S4096x256, .f32⟩
  | 50 => ⟨S1x256, .f32⟩
  | 51 => ⟨S4096x256, .f32⟩
  | 52 => ⟨S4096x256, .f32⟩
  | 53 => ⟨S4096x256, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S1x4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S4096x256, .f32⟩
  | 85 => ⟨S4096x256, .f32⟩
  | 86 => ⟨S_, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S1x256x256, .f32⟩
  | 93 => ⟨S256x256, .f32⟩
  | 94 => ⟨S1x256, .f32⟩
  | 95 => ⟨S256, .f32⟩
  | 96 => ⟨S256x256, .f32⟩
  | 97 => ⟨S4096x256, .f32⟩
  | 98 => ⟨S1x256, .f32⟩
  | 99 => ⟨S4096x256, .f32⟩
  | 100 => ⟨S4096x256, .f32⟩
  | 101 => ⟨S1x4096x256, .f32⟩
  | 102 => ⟨S4096x256, .f32⟩
  | 103 => ⟨S1x256x256, .f32⟩
  | 104 => ⟨S256x256, .f32⟩
  | 105 => ⟨S1x256, .f32⟩
  | 106 => ⟨S256, .f32⟩
  | 107 => ⟨S256x256, .f32⟩
  | 108 => ⟨S4096x256, .f32⟩
  | 109 => ⟨S1x256, .f32⟩
  | 110 => ⟨S4096x256, .f32⟩
  | 111 => ⟨S4096x256, .f32⟩
  | 112 => ⟨S4096x256, .f32⟩
  | 113 => ⟨S4096x256, .f32⟩
  | 114 => ⟨S4096x256, .f32⟩
  | 115 => ⟨S_, .f32⟩
  | 116 => ⟨S4096x256, .f32⟩
  | 117 => ⟨S4096x256, .f32⟩
  | 118 => ⟨S_, .f32⟩
  | 119 => ⟨S4096x256, .f32⟩
  | 120 => ⟨S4096x256, .f32⟩
  | 121 => ⟨S1x3x256, .f32⟩
  | 122 => ⟨S3x256, .f32⟩
  | 123 => ⟨S1x3, .f32⟩
  | 124 => ⟨S3, .f32⟩
  | 125 => ⟨S256x3, .f32⟩
  | 126 => ⟨S4096x3, .f32⟩
  | 127 => ⟨S1x3, .f32⟩
  | _ => ⟨S4096x256, .f32⟩

abbrev hbmTy0_10 (i : Nat) : BufTy := match i % 128 with
  | 0 => ⟨S4096x3, .f32⟩
  | 1 => ⟨S4096x3, .f32⟩
  | 2 => ⟨S1x3x768, .f32⟩
  | 3 => ⟨S3x768, .f32⟩
  | 4 => ⟨S1x3, .f32⟩
  | 5 => ⟨S3, .f32⟩
  | 6 => ⟨S768x3, .f32⟩
  | 7 => ⟨S4096x3, .f32⟩
  | 8 => ⟨S1x3, .f32⟩
  | 9 => ⟨S4096x3, .f32⟩
  | 10 => ⟨S4096x3, .f32⟩
  | 11 => ⟨S4096x3, .f32⟩
  | 12 => ⟨S4096x3, .f32⟩
  | 13 => ⟨S4096x3, .f32⟩
  | 14 => ⟨S_, .f32⟩
  | 15 => ⟨S4096x3, .f32⟩
  | 16 => ⟨S4096x3, .f32⟩
  | 17 => ⟨S_, .f32⟩
  | 18 => ⟨S4096x3, .f32⟩
  | 19 => ⟨S4096x3, .f32⟩
  | 20 => ⟨S1x768x768, .f32⟩
  | 21 => ⟨S768x768, .f32⟩
  | 22 => ⟨S1x768, .f32⟩
  | 23 => ⟨S768, .f32⟩
  | 24 => ⟨S768x768, .f32⟩
  | 25 => ⟨S4096x768, .f32⟩
  | 26 => ⟨S1x768, .f32⟩
  | 27 => ⟨S4096x768, .f32⟩
  | 28 => ⟨S4096x768, .f32⟩
  | 29 => ⟨S4096x3x256, .f32⟩
  | 30 => ⟨S4096x3x1, .f32⟩
  | 31 => ⟨S4096x3x256, .f32⟩
  | 32 => ⟨S4096x3x256, .f32⟩
  | 33 => ⟨S_, .f32⟩
  | 34 => ⟨S4096x256, .f32⟩
  | 35 => ⟨S1x256x256, .f32⟩
  | 36 => ⟨S256x256, .f32⟩
  | 37 => ⟨S1x256, .f32⟩
  | 38 => ⟨S256, .f32⟩
  | 39 => ⟨S256x256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S4096x256, .f32⟩
  | 46 => ⟨S1x4096x256, .f32⟩
  | 47 => ⟨S4096x256, .f32⟩
  | 48 => ⟨S4096x256, .f32⟩
  | 49 => ⟨S4096x256, .f32⟩
  | 50 => ⟨S4096x256, .f32⟩
  | 51 => ⟨S1x256x256, .f32⟩
  | 52 => ⟨S256x256, .f32⟩
  | 53 => ⟨S1x256, .f32⟩
  | 54 => ⟨S256, .f32⟩
  | 55 => ⟨S256x256, .f32⟩
  | 56 => ⟨S4096x256, .f32⟩
  | 57 => ⟨S1x256, .f32⟩
  | 58 => ⟨S4096x256, .f32⟩
  | 59 => ⟨S4096x256, .f32⟩
  | 60 => ⟨S1x4096x256, .f32⟩
  | 61 => ⟨S4096x256, .f32⟩
  | 62 => ⟨S1x256x256, .f32⟩
  | 63 => ⟨S256x256, .f32⟩
  | 64 => ⟨S1x256, .f32⟩
  | 65 => ⟨S256, .f32⟩
  | 66 => ⟨S256x256, .f32⟩
  | 67 => ⟨S4096x256, .f32⟩
  | 68 => ⟨S1x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S_, .f32⟩
  | 75 => ⟨S4096x256, .f32⟩
  | 76 => ⟨S4096x256, .f32⟩
  | 77 => ⟨S_, .f32⟩
  | 78 => ⟨S4096x256, .f32⟩
  | 79 => ⟨S4096x256, .f32⟩
  | 80 => ⟨S4096x256, .f32⟩
  | 81 => ⟨S1x4096x256, .f32⟩
  | 82 => ⟨S1x4096x256, .f32⟩
  | 83 => ⟨S1x4096x256, .f32⟩
  | 84 => ⟨S3x4096x256, .f32⟩
  | 85 => ⟨S1x4096x256, .f32⟩
  | 86 => ⟨S1x4096x256, .f32⟩
  | 87 => ⟨S1x4096x256, .f32⟩
  | 88 => ⟨S3x4096x256, .f32⟩
  | 89 => ⟨S4096x3x256, .f32⟩
  | 90 => ⟨S4096x768, .f32⟩
  | 91 => ⟨S1x256x256, .f32⟩
  | 92 => ⟨S256x256, .f32⟩
  | 93 => ⟨S1x256, .f32⟩
  | 94 => ⟨S256, .f32⟩
  | 95 => ⟨S256x256, .f32⟩
  | 96 => ⟨S4096x256, .f32⟩
  | 97 => ⟨S1x256, .f32⟩
  | 98 => ⟨S4096x256, .f32⟩
  | 99 => ⟨S4096x256, .f32⟩
  | 100 => ⟨S1x4096x256, .f32⟩
  | 101 => ⟨S4096x256, .f32⟩
  | 102 => ⟨S1x256x256, .f32⟩
  | 103 => ⟨S256x256, .f32⟩
  | 104 => ⟨S1x256, .f32⟩
  | 105 => ⟨S256, .f32⟩
  | 106 => ⟨S256x256, .f32⟩
  | 107 => ⟨S4096x256, .f32⟩
  | 108 => ⟨S1x256, .f32⟩
  | 109 => ⟨S4096x256, .f32⟩
  | 110 => ⟨S4096x256, .f32⟩
  | 111 => ⟨S4096x256, .f32⟩
  | 112 => ⟨S4096x256, .f32⟩
  | 113 => ⟨S4096x256, .f32⟩
  | 114 => ⟨S_, .f32⟩
  | 115 => ⟨S4096x256, .f32⟩
  | 116 => ⟨S4096x256, .f32⟩
  | 117 => ⟨S_, .f32⟩
  | 118 => ⟨S4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_11 (i : Nat) : BufTy := match i % 128 with
  | 0 => ⟨S4096x256, .f32⟩
  | 1 => ⟨S1x4096x256, .f32⟩
  | 2 => ⟨S4096x256, .f32⟩
  | 3 => ⟨S1x256x256, .f32⟩
  | 4 => ⟨S256x256, .f32⟩
  | 5 => ⟨S1x256, .f32⟩
  | 6 => ⟨S256, .f32⟩
  | 7 => ⟨S256x256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S_, .f32⟩
  | 19 => ⟨S4096x256, .f32⟩
  | 20 => ⟨S4096x256, .f32⟩
  | 21 => ⟨S1x3x256, .f32⟩
  | 22 => ⟨S3x256, .f32⟩
  | 23 => ⟨S1x3, .f32⟩
  | 24 => ⟨S3, .f32⟩
  | 25 => ⟨S256x3, .f32⟩
  | 26 => ⟨S4096x3, .f32⟩
  | 27 => ⟨S1x3, .f32⟩
  | 28 => ⟨S4096x3, .f32⟩
  | 29 => ⟨S4096x3, .f32⟩
  | 30 => ⟨S1x3x768, .f32⟩
  | 31 => ⟨S3x768, .f32⟩
  | 32 => ⟨S1x3, .f32⟩
  | 33 => ⟨S3, .f32⟩
  | 34 => ⟨S768x3, .f32⟩
  | 35 => ⟨S4096x3, .f32⟩
  | 36 => ⟨S1x3, .f32⟩
  | 37 => ⟨S4096x3, .f32⟩
  | 38 => ⟨S4096x3, .f32⟩
  | 39 => ⟨S4096x3, .f32⟩
  | 40 => ⟨S4096x3, .f32⟩
  | 41 => ⟨S4096x3, .f32⟩
  | 42 => ⟨S_, .f32⟩
  | 43 => ⟨S4096x3, .f32⟩
  | 44 => ⟨S4096x3, .f32⟩
  | 45 => ⟨S_, .f32⟩
  | 46 => ⟨S4096x3, .f32⟩
  | 47 => ⟨S4096x3, .f32⟩
  | 48 => ⟨S1x768x768, .f32⟩
  | 49 => ⟨S768x768, .f32⟩
  | 50 => ⟨S1x768, .f32⟩
  | 51 => ⟨S768, .f32⟩
  | 52 => ⟨S768x768, .f32⟩
  | 53 => ⟨S4096x768, .f32⟩
  | 54 => ⟨S1x768, .f32⟩
  | 55 => ⟨S4096x768, .f32⟩
  | 56 => ⟨S4096x768, .f32⟩
  | 57 => ⟨S4096x3x256, .f32⟩
  | 58 => ⟨S4096x3x1, .f32⟩
  | 59 => ⟨S4096x3x256, .f32⟩
  | 60 => ⟨S4096x3x256, .f32⟩
  | 61 => ⟨S_, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S4096x256, .f32⟩
  | 74 => ⟨S1x4096x256, .f32⟩
  | 75 => ⟨S4096x256, .f32⟩
  | 76 => ⟨S4096x256, .f32⟩
  | 77 => ⟨S4096x256, .f32⟩
  | 78 => ⟨S4096x256, .f32⟩
  | 79 => ⟨S1x256x256, .f32⟩
  | 80 => ⟨S256x256, .f32⟩
  | 81 => ⟨S1x256, .f32⟩
  | 82 => ⟨S256, .f32⟩
  | 83 => ⟨S256x256, .f32⟩
  | 84 => ⟨S4096x256, .f32⟩
  | 85 => ⟨S1x256, .f32⟩
  | 86 => ⟨S4096x256, .f32⟩
  | 87 => ⟨S4096x256, .f32⟩
  | 88 => ⟨S1x4096x256, .f32⟩
  | 89 => ⟨S4096x256, .f32⟩
  | 90 => ⟨S1x256x256, .f32⟩
  | 91 => ⟨S256x256, .f32⟩
  | 92 => ⟨S1x256, .f32⟩
  | 93 => ⟨S256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S_, .f32⟩
  | 106 => ⟨S4096x256, .f32⟩
  | 107 => ⟨S4096x256, .f32⟩
  | 108 => ⟨S4096x256, .f32⟩
  | 109 => ⟨S1x256x256, .f32⟩
  | 110 => ⟨S256x256, .f32⟩
  | 111 => ⟨S1x256, .f32⟩
  | 112 => ⟨S256, .f32⟩
  | 113 => ⟨S256x256, .f32⟩
  | 114 => ⟨S4096x256, .f32⟩
  | 115 => ⟨S1x256, .f32⟩
  | 116 => ⟨S4096x256, .f32⟩
  | 117 => ⟨S4096x256, .f32⟩
  | 118 => ⟨S1x4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_12 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S_, .f32⟩
  | 8 => ⟨S4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S1x4096x256, .f32⟩
  | 20 => ⟨S4096x256, .f32⟩
  | 21 => ⟨S1x256x256, .f32⟩
  | 22 => ⟨S256x256, .f32⟩
  | 23 => ⟨S1x256, .f32⟩
  | 24 => ⟨S256, .f32⟩
  | 25 => ⟨S256x256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S_, .f32⟩
  | 37 => ⟨S4096x256, .f32⟩
  | 38 => ⟨S4096x256, .f32⟩
  | 39 => ⟨S1x3x256, .f32⟩
  | 40 => ⟨S3x256, .f32⟩
  | 41 => ⟨S1x3, .f32⟩
  | 42 => ⟨S3, .f32⟩
  | 43 => ⟨S256x3, .f32⟩
  | 44 => ⟨S4096x3, .f32⟩
  | 45 => ⟨S1x3, .f32⟩
  | 46 => ⟨S4096x3, .f32⟩
  | 47 => ⟨S4096x3, .f32⟩
  | 48 => ⟨S1x3x768, .f32⟩
  | 49 => ⟨S3x768, .f32⟩
  | 50 => ⟨S1x3, .f32⟩
  | 51 => ⟨S3, .f32⟩
  | 52 => ⟨S768x3, .f32⟩
  | 53 => ⟨S4096x3, .f32⟩
  | 54 => ⟨S1x3, .f32⟩
  | 55 => ⟨S4096x3, .f32⟩
  | 56 => ⟨S4096x3, .f32⟩
  | 57 => ⟨S4096x3, .f32⟩
  | 58 => ⟨S4096x3, .f32⟩
  | 59 => ⟨S4096x3, .f32⟩
  | 60 => ⟨S_, .f32⟩
  | 61 => ⟨S4096x3, .f32⟩
  | 62 => ⟨S4096x3, .f32⟩
  | 63 => ⟨S_, .f32⟩
  | 64 => ⟨S4096x3, .f32⟩
  | 65 => ⟨S4096x3, .f32⟩
  | 66 => ⟨S1x768x768, .f32⟩
  | 67 => ⟨S768x768, .f32⟩
  | 68 => ⟨S1x768, .f32⟩
  | 69 => ⟨S768, .f32⟩
  | 70 => ⟨S768x768, .f32⟩
  | 71 => ⟨S4096x768, .f32⟩
  | 72 => ⟨S1x768, .f32⟩
  | 73 => ⟨S4096x768, .f32⟩
  | 74 => ⟨S4096x768, .f32⟩
  | 75 => ⟨S4096x3x256, .f32⟩
  | 76 => ⟨S4096x3x1, .f32⟩
  | 77 => ⟨S4096x3x256, .f32⟩
  | 78 => ⟨S4096x3x256, .f32⟩
  | 79 => ⟨S_, .f32⟩
  | 80 => ⟨S4096x256, .f32⟩
  | 81 => ⟨S1x256x256, .f32⟩
  | 82 => ⟨S256x256, .f32⟩
  | 83 => ⟨S1x256, .f32⟩
  | 84 => ⟨S256, .f32⟩
  | 85 => ⟨S256x256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S4096x256, .f32⟩
  | 92 => ⟨S1x4096x256, .f32⟩
  | 93 => ⟨S4096x256, .f32⟩
  | 94 => ⟨S4096x256, .f32⟩
  | 95 => ⟨S4096x256, .f32⟩
  | 96 => ⟨S4096x256, .f32⟩
  | 97 => ⟨S1x256x256, .f32⟩
  | 98 => ⟨S256x256, .f32⟩
  | 99 => ⟨S1x256, .f32⟩
  | 100 => ⟨S256, .f32⟩
  | 101 => ⟨S256x256, .f32⟩
  | 102 => ⟨S4096x256, .f32⟩
  | 103 => ⟨S1x256, .f32⟩
  | 104 => ⟨S4096x256, .f32⟩
  | 105 => ⟨S4096x256, .f32⟩
  | 106 => ⟨S1x4096x256, .f32⟩
  | 107 => ⟨S4096x256, .f32⟩
  | 108 => ⟨S1x256x256, .f32⟩
  | 109 => ⟨S256x256, .f32⟩
  | 110 => ⟨S1x256, .f32⟩
  | 111 => ⟨S256, .f32⟩
  | 112 => ⟨S256x256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S_, .f32⟩
  | 124 => ⟨S4096x256, .f32⟩
  | 125 => ⟨S4096x256, .f32⟩
  | 126 => ⟨S4096x256, .f32⟩
  | 127 => ⟨S1x256x256, .f32⟩
  | _ => ⟨S4096x256, .f32⟩

abbrev hbmTy0_13 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S1x4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S1x256x256, .f32⟩
  | 29 => ⟨S256x256, .f32⟩
  | 30 => ⟨S1x256, .f32⟩
  | 31 => ⟨S256, .f32⟩
  | 32 => ⟨S256x256, .f32⟩
  | 33 => ⟨S4096x256, .f32⟩
  | 34 => ⟨S1x256, .f32⟩
  | 35 => ⟨S4096x256, .f32⟩
  | 36 => ⟨S4096x256, .f32⟩
  | 37 => ⟨S1x4096x256, .f32⟩
  | 38 => ⟨S4096x256, .f32⟩
  | 39 => ⟨S1x256x256, .f32⟩
  | 40 => ⟨S256x256, .f32⟩
  | 41 => ⟨S1x256, .f32⟩
  | 42 => ⟨S256, .f32⟩
  | 43 => ⟨S256x256, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S4096x256, .f32⟩
  | 50 => ⟨S4096x256, .f32⟩
  | 51 => ⟨S_, .f32⟩
  | 52 => ⟨S4096x256, .f32⟩
  | 53 => ⟨S4096x256, .f32⟩
  | 54 => ⟨S_, .f32⟩
  | 55 => ⟨S4096x256, .f32⟩
  | 56 => ⟨S4096x256, .f32⟩
  | 57 => ⟨S1x3x256, .f32⟩
  | 58 => ⟨S3x256, .f32⟩
  | 59 => ⟨S1x3, .f32⟩
  | 60 => ⟨S3, .f32⟩
  | 61 => ⟨S256x3, .f32⟩
  | 62 => ⟨S4096x3, .f32⟩
  | 63 => ⟨S1x3, .f32⟩
  | 64 => ⟨S4096x3, .f32⟩
  | 65 => ⟨S4096x3, .f32⟩
  | 66 => ⟨S1x3x768, .f32⟩
  | 67 => ⟨S3x768, .f32⟩
  | 68 => ⟨S1x3, .f32⟩
  | 69 => ⟨S3, .f32⟩
  | 70 => ⟨S768x3, .f32⟩
  | 71 => ⟨S4096x3, .f32⟩
  | 72 => ⟨S1x3, .f32⟩
  | 73 => ⟨S4096x3, .f32⟩
  | 74 => ⟨S4096x3, .f32⟩
  | 75 => ⟨S4096x3, .f32⟩
  | 76 => ⟨S4096x3, .f32⟩
  | 77 => ⟨S4096x3, .f32⟩
  | 78 => ⟨S_, .f32⟩
  | 79 => ⟨S4096x3, .f32⟩
  | 80 => ⟨S4096x3, .f32⟩
  | 81 => ⟨S_, .f32⟩
  | 82 => ⟨S4096x3, .f32⟩
  | 83 => ⟨S4096x3, .f32⟩
  | 84 => ⟨S1x768x768, .f32⟩
  | 85 => ⟨S768x768, .f32⟩
  | 86 => ⟨S1x768, .f32⟩
  | 87 => ⟨S768, .f32⟩
  | 88 => ⟨S768x768, .f32⟩
  | 89 => ⟨S4096x768, .f32⟩
  | 90 => ⟨S1x768, .f32⟩
  | 91 => ⟨S4096x768, .f32⟩
  | 92 => ⟨S4096x768, .f32⟩
  | 93 => ⟨S4096x3x256, .f32⟩
  | 94 => ⟨S4096x3x1, .f32⟩
  | 95 => ⟨S4096x3x256, .f32⟩
  | 96 => ⟨S4096x3x256, .f32⟩
  | 97 => ⟨S_, .f32⟩
  | 98 => ⟨S4096x256, .f32⟩
  | 99 => ⟨S1x256x256, .f32⟩
  | 100 => ⟨S256x256, .f32⟩
  | 101 => ⟨S1x256, .f32⟩
  | 102 => ⟨S256, .f32⟩
  | 103 => ⟨S256x256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S4096x256, .f32⟩
  | 110 => ⟨S1x4096x256, .f32⟩
  | 111 => ⟨S4096x256, .f32⟩
  | 112 => ⟨S4096x256, .f32⟩
  | 113 => ⟨S4096x256, .f32⟩
  | 114 => ⟨S4096x256, .f32⟩
  | 115 => ⟨S1x256x256, .f32⟩
  | 116 => ⟨S256x256, .f32⟩
  | 117 => ⟨S1x256, .f32⟩
  | 118 => ⟨S256, .f32⟩
  | 119 => ⟨S256x256, .f32⟩
  | 120 => ⟨S4096x256, .f32⟩
  | 121 => ⟨S1x256, .f32⟩
  | 122 => ⟨S4096x256, .f32⟩
  | 123 => ⟨S4096x256, .f32⟩
  | 124 => ⟨S1x4096x256, .f32⟩
  | 125 => ⟨S4096x256, .f32⟩
  | 126 => ⟨S1x256x256, .f32⟩
  | 127 => ⟨S256x256, .f32⟩
  | _ => ⟨S4096x256, .f32⟩

abbrev hbmTy0_14 (i : Nat) : BufTy := match i % 128 with
  | 0 => ⟨S1x256, .f32⟩
  | 1 => ⟨S256, .f32⟩
  | 2 => ⟨S256x256, .f32⟩
  | 3 => ⟨S4096x256, .f32⟩
  | 4 => ⟨S1x256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S1x4096x256, .f32⟩
  | 18 => ⟨S1x4096x256, .f32⟩
  | 19 => ⟨S1x4096x256, .f32⟩
  | 20 => ⟨S3x4096x256, .f32⟩
  | 21 => ⟨S1x4096x256, .f32⟩
  | 22 => ⟨S1x4096x256, .f32⟩
  | 23 => ⟨S1x4096x256, .f32⟩
  | 24 => ⟨S3x4096x256, .f32⟩
  | 25 => ⟨S4096x3x256, .f32⟩
  | 26 => ⟨S4096x768, .f32⟩
  | 27 => ⟨S1x256x256, .f32⟩
  | 28 => ⟨S256x256, .f32⟩
  | 29 => ⟨S1x256, .f32⟩
  | 30 => ⟨S256, .f32⟩
  | 31 => ⟨S256x256, .f32⟩
  | 32 => ⟨S4096x256, .f32⟩
  | 33 => ⟨S1x256, .f32⟩
  | 34 => ⟨S4096x256, .f32⟩
  | 35 => ⟨S4096x256, .f32⟩
  | 36 => ⟨S1x4096x256, .f32⟩
  | 37 => ⟨S4096x256, .f32⟩
  | 38 => ⟨S1x256x256, .f32⟩
  | 39 => ⟨S256x256, .f32⟩
  | 40 => ⟨S1x256, .f32⟩
  | 41 => ⟨S256, .f32⟩
  | 42 => ⟨S256x256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S1x4096x256, .f32⟩
  | 66 => ⟨S4096x256, .f32⟩
  | 67 => ⟨S1x256x256, .f32⟩
  | 68 => ⟨S256x256, .f32⟩
  | 69 => ⟨S1x256, .f32⟩
  | 70 => ⟨S256, .f32⟩
  | 71 => ⟨S256x256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S1x3x256, .f32⟩
  | 86 => ⟨S3x256, .f32⟩
  | 87 => ⟨S1x3, .f32⟩
  | 88 => ⟨S3, .f32⟩
  | 89 => ⟨S256x3, .f32⟩
  | 90 => ⟨S4096x3, .f32⟩
  | 91 => ⟨S1x3, .f32⟩
  | 92 => ⟨S4096x3, .f32⟩
  | 93 => ⟨S4096x3, .f32⟩
  | 94 => ⟨S1x3x768, .f32⟩
  | 95 => ⟨S3x768, .f32⟩
  | 96 => ⟨S1x3, .f32⟩
  | 97 => ⟨S3, .f32⟩
  | 98 => ⟨S768x3, .f32⟩
  | 99 => ⟨S4096x3, .f32⟩
  | 100 => ⟨S1x3, .f32⟩
  | 101 => ⟨S4096x3, .f32⟩
  | 102 => ⟨S4096x3, .f32⟩
  | 103 => ⟨S4096x3, .f32⟩
  | 104 => ⟨S4096x3, .f32⟩
  | 105 => ⟨S4096x3, .f32⟩
  | 106 => ⟨S_, .f32⟩
  | 107 => ⟨S4096x3, .f32⟩
  | 108 => ⟨S4096x3, .f32⟩
  | 109 => ⟨S_, .f32⟩
  | 110 => ⟨S4096x3, .f32⟩
  | 111 => ⟨S4096x3, .f32⟩
  | 112 => ⟨S1x768x768, .f32⟩
  | 113 => ⟨S768x768, .f32⟩
  | 114 => ⟨S1x768, .f32⟩
  | 115 => ⟨S768, .f32⟩
  | 116 => ⟨S768x768, .f32⟩
  | 117 => ⟨S4096x768, .f32⟩
  | 118 => ⟨S1x768, .f32⟩
  | 119 => ⟨S4096x768, .f32⟩
  | 120 => ⟨S4096x768, .f32⟩
  | 121 => ⟨S4096x3x256, .f32⟩
  | 122 => ⟨S4096x3x1, .f32⟩
  | 123 => ⟨S4096x3x256, .f32⟩
  | 124 => ⟨S4096x3x256, .f32⟩
  | 125 => ⟨S_, .f32⟩
  | 126 => ⟨S4096x256, .f32⟩
  | 127 => ⟨S1x256x256, .f32⟩
  | _ => ⟨S4096x256, .f32⟩

abbrev hbmTy0_15 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S4096x256, .f32⟩
  | 10 => ⟨S1x4096x256, .f32⟩
  | 11 => ⟨S4096x256, .f32⟩
  | 12 => ⟨S4096x256, .f32⟩
  | 13 => ⟨S4096x256, .f32⟩
  | 14 => ⟨S4096x256, .f32⟩
  | 15 => ⟨S1x256x256, .f32⟩
  | 16 => ⟨S256x256, .f32⟩
  | 17 => ⟨S1x256, .f32⟩
  | 18 => ⟨S256, .f32⟩
  | 19 => ⟨S256x256, .f32⟩
  | 20 => ⟨S4096x256, .f32⟩
  | 21 => ⟨S1x256, .f32⟩
  | 22 => ⟨S4096x256, .f32⟩
  | 23 => ⟨S4096x256, .f32⟩
  | 24 => ⟨S1x4096x256, .f32⟩
  | 25 => ⟨S4096x256, .f32⟩
  | 26 => ⟨S1x256x256, .f32⟩
  | 27 => ⟨S256x256, .f32⟩
  | 28 => ⟨S1x256, .f32⟩
  | 29 => ⟨S256, .f32⟩
  | 30 => ⟨S256x256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S_, .f32⟩
  | 39 => ⟨S4096x256, .f32⟩
  | 40 => ⟨S4096x256, .f32⟩
  | 41 => ⟨S_, .f32⟩
  | 42 => ⟨S4096x256, .f32⟩
  | 43 => ⟨S4096x256, .f32⟩
  | 44 => ⟨S4096x256, .f32⟩
  | 45 => ⟨S1x256x256, .f32⟩
  | 46 => ⟨S256x256, .f32⟩
  | 47 => ⟨S1x256, .f32⟩
  | 48 => ⟨S256, .f32⟩
  | 49 => ⟨S256x256, .f32⟩
  | 50 => ⟨S4096x256, .f32⟩
  | 51 => ⟨S1x256, .f32⟩
  | 52 => ⟨S4096x256, .f32⟩
  | 53 => ⟨S4096x256, .f32⟩
  | 54 => ⟨S1x4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S_, .f32⟩
  | 72 => ⟨S4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S1x4096x256, .f32⟩
  | 84 => ⟨S4096x256, .f32⟩
  | 85 => ⟨S1x256x256, .f32⟩
  | 86 => ⟨S256x256, .f32⟩
  | 87 => ⟨S1x256, .f32⟩
  | 88 => ⟨S256, .f32⟩
  | 89 => ⟨S256x256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S1x3x256, .f32⟩
  | 104 => ⟨S3x256, .f32⟩
  | 105 => ⟨S1x3, .f32⟩
  | 106 => ⟨S3, .f32⟩
  | 107 => ⟨S256x3, .f32⟩
  | 108 => ⟨S4096x3, .f32⟩
  | 109 => ⟨S1x3, .f32⟩
  | 110 => ⟨S4096x3, .f32⟩
  | 111 => ⟨S4096x3, .f32⟩
  | 112 => ⟨S1x3x768, .f32⟩
  | 113 => ⟨S3x768, .f32⟩
  | 114 => ⟨S1x3, .f32⟩
  | 115 => ⟨S3, .f32⟩
  | 116 => ⟨S768x3, .f32⟩
  | 117 => ⟨S4096x3, .f32⟩
  | 118 => ⟨S1x3, .f32⟩
  | 119 => ⟨S4096x3, .f32⟩
  | 120 => ⟨S4096x3, .f32⟩
  | 121 => ⟨S4096x3, .f32⟩
  | 122 => ⟨S4096x3, .f32⟩
  | 123 => ⟨S4096x3, .f32⟩
  | 124 => ⟨S_, .f32⟩
  | 125 => ⟨S4096x3, .f32⟩
  | 126 => ⟨S4096x3, .f32⟩
  | 127 => ⟨S_, .f32⟩
  | _ => ⟨S4096x256, .f32⟩

abbrev hbmTy0_16 (i : Nat) : BufTy := match i % 128 with
  | 0 => ⟨S4096x3, .f32⟩
  | 1 => ⟨S4096x3, .f32⟩
  | 2 => ⟨S1x768x768, .f32⟩
  | 3 => ⟨S768x768, .f32⟩
  | 4 => ⟨S1x768, .f32⟩
  | 5 => ⟨S768, .f32⟩
  | 6 => ⟨S768x768, .f32⟩
  | 7 => ⟨S4096x768, .f32⟩
  | 8 => ⟨S1x768, .f32⟩
  | 9 => ⟨S4096x768, .f32⟩
  | 10 => ⟨S4096x768, .f32⟩
  | 11 => ⟨S4096x3x256, .f32⟩
  | 12 => ⟨S4096x3x1, .f32⟩
  | 13 => ⟨S4096x3x256, .f32⟩
  | 14 => ⟨S4096x3x256, .f32⟩
  | 15 => ⟨S_, .f32⟩
  | 16 => ⟨S4096x256, .f32⟩
  | 17 => ⟨S1x256x256, .f32⟩
  | 18 => ⟨S256x256, .f32⟩
  | 19 => ⟨S1x256, .f32⟩
  | 20 => ⟨S256, .f32⟩
  | 21 => ⟨S256x256, .f32⟩
  | 22 => ⟨S4096x256, .f32⟩
  | 23 => ⟨S1x256, .f32⟩
  | 24 => ⟨S4096x256, .f32⟩
  | 25 => ⟨S4096x256, .f32⟩
  | 26 => ⟨S4096x256, .f32⟩
  | 27 => ⟨S4096x256, .f32⟩
  | 28 => ⟨S1x4096x256, .f32⟩
  | 29 => ⟨S4096x256, .f32⟩
  | 30 => ⟨S4096x256, .f32⟩
  | 31 => ⟨S4096x256, .f32⟩
  | 32 => ⟨S4096x256, .f32⟩
  | 33 => ⟨S1x256x256, .f32⟩
  | 34 => ⟨S256x256, .f32⟩
  | 35 => ⟨S1x256, .f32⟩
  | 36 => ⟨S256, .f32⟩
  | 37 => ⟨S256x256, .f32⟩
  | 38 => ⟨S4096x256, .f32⟩
  | 39 => ⟨S1x256, .f32⟩
  | 40 => ⟨S4096x256, .f32⟩
  | 41 => ⟨S4096x256, .f32⟩
  | 42 => ⟨S1x4096x256, .f32⟩
  | 43 => ⟨S4096x256, .f32⟩
  | 44 => ⟨S1x256x256, .f32⟩
  | 45 => ⟨S256x256, .f32⟩
  | 46 => ⟨S1x256, .f32⟩
  | 47 => ⟨S256, .f32⟩
  | 48 => ⟨S256x256, .f32⟩
  | 49 => ⟨S4096x256, .f32⟩
  | 50 => ⟨S1x256, .f32⟩
  | 51 => ⟨S4096x256, .f32⟩
  | 52 => ⟨S4096x256, .f32⟩
  | 53 => ⟨S4096x256, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S1x4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S4096x256, .f32⟩
  | 85 => ⟨S4096x256, .f32⟩
  | 86 => ⟨S_, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S1x256x256, .f32⟩
  | 93 => ⟨S256x256, .f32⟩
  | 94 => ⟨S1x256, .f32⟩
  | 95 => ⟨S256, .f32⟩
  | 96 => ⟨S256x256, .f32⟩
  | 97 => ⟨S4096x256, .f32⟩
  | 98 => ⟨S1x256, .f32⟩
  | 99 => ⟨S4096x256, .f32⟩
  | 100 => ⟨S4096x256, .f32⟩
  | 101 => ⟨S1x4096x256, .f32⟩
  | 102 => ⟨S4096x256, .f32⟩
  | 103 => ⟨S1x256x256, .f32⟩
  | 104 => ⟨S256x256, .f32⟩
  | 105 => ⟨S1x256, .f32⟩
  | 106 => ⟨S256, .f32⟩
  | 107 => ⟨S256x256, .f32⟩
  | 108 => ⟨S4096x256, .f32⟩
  | 109 => ⟨S1x256, .f32⟩
  | 110 => ⟨S4096x256, .f32⟩
  | 111 => ⟨S4096x256, .f32⟩
  | 112 => ⟨S4096x256, .f32⟩
  | 113 => ⟨S4096x256, .f32⟩
  | 114 => ⟨S4096x256, .f32⟩
  | 115 => ⟨S_, .f32⟩
  | 116 => ⟨S4096x256, .f32⟩
  | 117 => ⟨S4096x256, .f32⟩
  | 118 => ⟨S_, .f32⟩
  | 119 => ⟨S4096x256, .f32⟩
  | 120 => ⟨S4096x256, .f32⟩
  | 121 => ⟨S1x3x256, .f32⟩
  | 122 => ⟨S3x256, .f32⟩
  | 123 => ⟨S1x3, .f32⟩
  | 124 => ⟨S3, .f32⟩
  | 125 => ⟨S256x3, .f32⟩
  | 126 => ⟨S4096x3, .f32⟩
  | 127 => ⟨S1x3, .f32⟩
  | _ => ⟨S4096x256, .f32⟩

abbrev hbmTy0_17 (i : Nat) : BufTy := match i % 128 with
  | 0 => ⟨S4096x3, .f32⟩
  | 1 => ⟨S4096x3, .f32⟩
  | 2 => ⟨S1x3x768, .f32⟩
  | 3 => ⟨S3x768, .f32⟩
  | 4 => ⟨S1x3, .f32⟩
  | 5 => ⟨S3, .f32⟩
  | 6 => ⟨S768x3, .f32⟩
  | 7 => ⟨S4096x3, .f32⟩
  | 8 => ⟨S1x3, .f32⟩
  | 9 => ⟨S4096x3, .f32⟩
  | 10 => ⟨S4096x3, .f32⟩
  | 11 => ⟨S4096x3, .f32⟩
  | 12 => ⟨S4096x3, .f32⟩
  | 13 => ⟨S4096x3, .f32⟩
  | 14 => ⟨S_, .f32⟩
  | 15 => ⟨S4096x3, .f32⟩
  | 16 => ⟨S4096x3, .f32⟩
  | 17 => ⟨S_, .f32⟩
  | 18 => ⟨S4096x3, .f32⟩
  | 19 => ⟨S4096x3, .f32⟩
  | 20 => ⟨S1x768x768, .f32⟩
  | 21 => ⟨S768x768, .f32⟩
  | 22 => ⟨S1x768, .f32⟩
  | 23 => ⟨S768, .f32⟩
  | 24 => ⟨S768x768, .f32⟩
  | 25 => ⟨S4096x768, .f32⟩
  | 26 => ⟨S1x768, .f32⟩
  | 27 => ⟨S4096x768, .f32⟩
  | 28 => ⟨S4096x768, .f32⟩
  | 29 => ⟨S4096x3x256, .f32⟩
  | 30 => ⟨S4096x3x1, .f32⟩
  | 31 => ⟨S4096x3x256, .f32⟩
  | 32 => ⟨S4096x3x256, .f32⟩
  | 33 => ⟨S_, .f32⟩
  | 34 => ⟨S4096x256, .f32⟩
  | 35 => ⟨S1x256x256, .f32⟩
  | 36 => ⟨S256x256, .f32⟩
  | 37 => ⟨S1x256, .f32⟩
  | 38 => ⟨S256, .f32⟩
  | 39 => ⟨S256x256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S4096x256, .f32⟩
  | 46 => ⟨S1x4096x256, .f32⟩
  | 47 => ⟨S4096x256, .f32⟩
  | 48 => ⟨S4096x256, .f32⟩
  | 49 => ⟨S4096x256, .f32⟩
  | 50 => ⟨S4096x256, .f32⟩
  | 51 => ⟨S1x256x256, .f32⟩
  | 52 => ⟨S256x256, .f32⟩
  | 53 => ⟨S1x256, .f32⟩
  | 54 => ⟨S256, .f32⟩
  | 55 => ⟨S256x256, .f32⟩
  | 56 => ⟨S4096x256, .f32⟩
  | 57 => ⟨S1x256, .f32⟩
  | 58 => ⟨S4096x256, .f32⟩
  | 59 => ⟨S4096x256, .f32⟩
  | 60 => ⟨S1x4096x256, .f32⟩
  | 61 => ⟨S4096x256, .f32⟩
  | 62 => ⟨S1x256x256, .f32⟩
  | 63 => ⟨S256x256, .f32⟩
  | 64 => ⟨S1x256, .f32⟩
  | 65 => ⟨S256, .f32⟩
  | 66 => ⟨S256x256, .f32⟩
  | 67 => ⟨S4096x256, .f32⟩
  | 68 => ⟨S1x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S_, .f32⟩
  | 75 => ⟨S4096x256, .f32⟩
  | 76 => ⟨S4096x256, .f32⟩
  | 77 => ⟨S_, .f32⟩
  | 78 => ⟨S4096x256, .f32⟩
  | 79 => ⟨S4096x256, .f32⟩
  | 80 => ⟨S4096x256, .f32⟩
  | 81 => ⟨S1x4096x256, .f32⟩
  | 82 => ⟨S1x4096x256, .f32⟩
  | 83 => ⟨S1x4096x256, .f32⟩
  | 84 => ⟨S3x4096x256, .f32⟩
  | 85 => ⟨S1x4096x256, .f32⟩
  | 86 => ⟨S1x4096x256, .f32⟩
  | 87 => ⟨S1x4096x256, .f32⟩
  | 88 => ⟨S3x4096x256, .f32⟩
  | 89 => ⟨S4096x3x256, .f32⟩
  | 90 => ⟨S4096x768, .f32⟩
  | 91 => ⟨S1x256x256, .f32⟩
  | 92 => ⟨S256x256, .f32⟩
  | 93 => ⟨S1x256, .f32⟩
  | 94 => ⟨S256, .f32⟩
  | 95 => ⟨S256x256, .f32⟩
  | 96 => ⟨S4096x256, .f32⟩
  | 97 => ⟨S1x256, .f32⟩
  | 98 => ⟨S4096x256, .f32⟩
  | 99 => ⟨S4096x256, .f32⟩
  | 100 => ⟨S1x4096x256, .f32⟩
  | 101 => ⟨S4096x256, .f32⟩
  | 102 => ⟨S1x256x256, .f32⟩
  | 103 => ⟨S256x256, .f32⟩
  | 104 => ⟨S1x256, .f32⟩
  | 105 => ⟨S256, .f32⟩
  | 106 => ⟨S256x256, .f32⟩
  | 107 => ⟨S4096x256, .f32⟩
  | 108 => ⟨S1x256, .f32⟩
  | 109 => ⟨S4096x256, .f32⟩
  | 110 => ⟨S4096x256, .f32⟩
  | 111 => ⟨S4096x256, .f32⟩
  | 112 => ⟨S4096x256, .f32⟩
  | 113 => ⟨S4096x256, .f32⟩
  | 114 => ⟨S_, .f32⟩
  | 115 => ⟨S4096x256, .f32⟩
  | 116 => ⟨S4096x256, .f32⟩
  | 117 => ⟨S_, .f32⟩
  | 118 => ⟨S4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_18 (i : Nat) : BufTy := match i % 128 with
  | 0 => ⟨S4096x256, .f32⟩
  | 1 => ⟨S1x4096x256, .f32⟩
  | 2 => ⟨S4096x256, .f32⟩
  | 3 => ⟨S1x256x256, .f32⟩
  | 4 => ⟨S256x256, .f32⟩
  | 5 => ⟨S1x256, .f32⟩
  | 6 => ⟨S256, .f32⟩
  | 7 => ⟨S256x256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S_, .f32⟩
  | 19 => ⟨S4096x256, .f32⟩
  | 20 => ⟨S4096x256, .f32⟩
  | 21 => ⟨S1x3x256, .f32⟩
  | 22 => ⟨S3x256, .f32⟩
  | 23 => ⟨S1x3, .f32⟩
  | 24 => ⟨S3, .f32⟩
  | 25 => ⟨S256x3, .f32⟩
  | 26 => ⟨S4096x3, .f32⟩
  | 27 => ⟨S1x3, .f32⟩
  | 28 => ⟨S4096x3, .f32⟩
  | 29 => ⟨S4096x3, .f32⟩
  | 30 => ⟨S1x3x768, .f32⟩
  | 31 => ⟨S3x768, .f32⟩
  | 32 => ⟨S1x3, .f32⟩
  | 33 => ⟨S3, .f32⟩
  | 34 => ⟨S768x3, .f32⟩
  | 35 => ⟨S4096x3, .f32⟩
  | 36 => ⟨S1x3, .f32⟩
  | 37 => ⟨S4096x3, .f32⟩
  | 38 => ⟨S4096x3, .f32⟩
  | 39 => ⟨S4096x3, .f32⟩
  | 40 => ⟨S4096x3, .f32⟩
  | 41 => ⟨S4096x3, .f32⟩
  | 42 => ⟨S_, .f32⟩
  | 43 => ⟨S4096x3, .f32⟩
  | 44 => ⟨S4096x3, .f32⟩
  | 45 => ⟨S_, .f32⟩
  | 46 => ⟨S4096x3, .f32⟩
  | 47 => ⟨S4096x3, .f32⟩
  | 48 => ⟨S1x768x768, .f32⟩
  | 49 => ⟨S768x768, .f32⟩
  | 50 => ⟨S1x768, .f32⟩
  | 51 => ⟨S768, .f32⟩
  | 52 => ⟨S768x768, .f32⟩
  | 53 => ⟨S4096x768, .f32⟩
  | 54 => ⟨S1x768, .f32⟩
  | 55 => ⟨S4096x768, .f32⟩
  | 56 => ⟨S4096x768, .f32⟩
  | 57 => ⟨S4096x3x256, .f32⟩
  | 58 => ⟨S4096x3x1, .f32⟩
  | 59 => ⟨S4096x3x256, .f32⟩
  | 60 => ⟨S4096x3x256, .f32⟩
  | 61 => ⟨S_, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S4096x256, .f32⟩
  | 74 => ⟨S1x4096x256, .f32⟩
  | 75 => ⟨S4096x256, .f32⟩
  | 76 => ⟨S4096x256, .f32⟩
  | 77 => ⟨S4096x256, .f32⟩
  | 78 => ⟨S4096x256, .f32⟩
  | 79 => ⟨S1x256x256, .f32⟩
  | 80 => ⟨S256x256, .f32⟩
  | 81 => ⟨S1x256, .f32⟩
  | 82 => ⟨S256, .f32⟩
  | 83 => ⟨S256x256, .f32⟩
  | 84 => ⟨S4096x256, .f32⟩
  | 85 => ⟨S1x256, .f32⟩
  | 86 => ⟨S4096x256, .f32⟩
  | 87 => ⟨S4096x256, .f32⟩
  | 88 => ⟨S1x4096x256, .f32⟩
  | 89 => ⟨S4096x256, .f32⟩
  | 90 => ⟨S1x256x256, .f32⟩
  | 91 => ⟨S256x256, .f32⟩
  | 92 => ⟨S1x256, .f32⟩
  | 93 => ⟨S256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S_, .f32⟩
  | 106 => ⟨S4096x256, .f32⟩
  | 107 => ⟨S4096x256, .f32⟩
  | 108 => ⟨S4096x256, .f32⟩
  | 109 => ⟨S1x256x256, .f32⟩
  | 110 => ⟨S256x256, .f32⟩
  | 111 => ⟨S1x256, .f32⟩
  | 112 => ⟨S256, .f32⟩
  | 113 => ⟨S256x256, .f32⟩
  | 114 => ⟨S4096x256, .f32⟩
  | 115 => ⟨S1x256, .f32⟩
  | 116 => ⟨S4096x256, .f32⟩
  | 117 => ⟨S4096x256, .f32⟩
  | 118 => ⟨S1x4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_19 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S_, .f32⟩
  | 8 => ⟨S4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S1x4096x256, .f32⟩
  | 20 => ⟨S4096x256, .f32⟩
  | 21 => ⟨S1x256x256, .f32⟩
  | 22 => ⟨S256x256, .f32⟩
  | 23 => ⟨S1x256, .f32⟩
  | 24 => ⟨S256, .f32⟩
  | 25 => ⟨S256x256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S_, .f32⟩
  | 37 => ⟨S4096x256, .f32⟩
  | 38 => ⟨S4096x256, .f32⟩
  | 39 => ⟨S1x3x256, .f32⟩
  | 40 => ⟨S3x256, .f32⟩
  | 41 => ⟨S1x3, .f32⟩
  | 42 => ⟨S3, .f32⟩
  | 43 => ⟨S256x3, .f32⟩
  | 44 => ⟨S4096x3, .f32⟩
  | 45 => ⟨S1x3, .f32⟩
  | 46 => ⟨S4096x3, .f32⟩
  | 47 => ⟨S4096x3, .f32⟩
  | 48 => ⟨S1x3x768, .f32⟩
  | 49 => ⟨S3x768, .f32⟩
  | 50 => ⟨S1x3, .f32⟩
  | 51 => ⟨S3, .f32⟩
  | 52 => ⟨S768x3, .f32⟩
  | 53 => ⟨S4096x3, .f32⟩
  | 54 => ⟨S1x3, .f32⟩
  | 55 => ⟨S4096x3, .f32⟩
  | 56 => ⟨S4096x3, .f32⟩
  | 57 => ⟨S4096x3, .f32⟩
  | 58 => ⟨S4096x3, .f32⟩
  | 59 => ⟨S4096x3, .f32⟩
  | 60 => ⟨S_, .f32⟩
  | 61 => ⟨S4096x3, .f32⟩
  | 62 => ⟨S4096x3, .f32⟩
  | 63 => ⟨S_, .f32⟩
  | 64 => ⟨S4096x3, .f32⟩
  | 65 => ⟨S4096x3, .f32⟩
  | 66 => ⟨S1x768x768, .f32⟩
  | 67 => ⟨S768x768, .f32⟩
  | 68 => ⟨S1x768, .f32⟩
  | 69 => ⟨S768, .f32⟩
  | 70 => ⟨S768x768, .f32⟩
  | 71 => ⟨S4096x768, .f32⟩
  | 72 => ⟨S1x768, .f32⟩
  | 73 => ⟨S4096x768, .f32⟩
  | 74 => ⟨S4096x768, .f32⟩
  | 75 => ⟨S4096x3x256, .f32⟩
  | 76 => ⟨S4096x3x1, .f32⟩
  | 77 => ⟨S4096x3x256, .f32⟩
  | 78 => ⟨S4096x3x256, .f32⟩
  | 79 => ⟨S_, .f32⟩
  | 80 => ⟨S4096x256, .f32⟩
  | 81 => ⟨S1x256x256, .f32⟩
  | 82 => ⟨S256x256, .f32⟩
  | 83 => ⟨S1x256, .f32⟩
  | 84 => ⟨S256, .f32⟩
  | 85 => ⟨S256x256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S4096x256, .f32⟩
  | 92 => ⟨S1x4096x256, .f32⟩
  | 93 => ⟨S4096x256, .f32⟩
  | 94 => ⟨S4096x256, .f32⟩
  | 95 => ⟨S4096x256, .f32⟩
  | 96 => ⟨S4096x256, .f32⟩
  | 97 => ⟨S1x256x256, .f32⟩
  | 98 => ⟨S256x256, .f32⟩
  | 99 => ⟨S1x256, .f32⟩
  | 100 => ⟨S256, .f32⟩
  | 101 => ⟨S256x256, .f32⟩
  | 102 => ⟨S4096x256, .f32⟩
  | 103 => ⟨S1x256, .f32⟩
  | 104 => ⟨S4096x256, .f32⟩
  | 105 => ⟨S4096x256, .f32⟩
  | 106 => ⟨S1x4096x256, .f32⟩
  | 107 => ⟨S4096x256, .f32⟩
  | 108 => ⟨S1x256x256, .f32⟩
  | 109 => ⟨S256x256, .f32⟩
  | 110 => ⟨S1x256, .f32⟩
  | 111 => ⟨S256, .f32⟩
  | 112 => ⟨S256x256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S_, .f32⟩
  | 124 => ⟨S4096x256, .f32⟩
  | 125 => ⟨S4096x256, .f32⟩
  | 126 => ⟨S4096x256, .f32⟩
  | 127 => ⟨S1x256x256, .f32⟩
  | _ => ⟨S4096x256, .f32⟩

abbrev hbmTy0_20 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S1x4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S1x256x256, .f32⟩
  | 29 => ⟨S256x256, .f32⟩
  | 30 => ⟨S1x256, .f32⟩
  | 31 => ⟨S256, .f32⟩
  | 32 => ⟨S256x256, .f32⟩
  | 33 => ⟨S4096x256, .f32⟩
  | 34 => ⟨S1x256, .f32⟩
  | 35 => ⟨S4096x256, .f32⟩
  | 36 => ⟨S4096x256, .f32⟩
  | 37 => ⟨S1x4096x256, .f32⟩
  | 38 => ⟨S4096x256, .f32⟩
  | 39 => ⟨S1x256x256, .f32⟩
  | 40 => ⟨S256x256, .f32⟩
  | 41 => ⟨S1x256, .f32⟩
  | 42 => ⟨S256, .f32⟩
  | 43 => ⟨S256x256, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S4096x256, .f32⟩
  | 50 => ⟨S4096x256, .f32⟩
  | 51 => ⟨S_, .f32⟩
  | 52 => ⟨S4096x256, .f32⟩
  | 53 => ⟨S4096x256, .f32⟩
  | 54 => ⟨S_, .f32⟩
  | 55 => ⟨S4096x256, .f32⟩
  | 56 => ⟨S4096x256, .f32⟩
  | 57 => ⟨S1x3x256, .f32⟩
  | 58 => ⟨S3x256, .f32⟩
  | 59 => ⟨S1x3, .f32⟩
  | 60 => ⟨S3, .f32⟩
  | 61 => ⟨S256x3, .f32⟩
  | 62 => ⟨S4096x3, .f32⟩
  | 63 => ⟨S1x3, .f32⟩
  | 64 => ⟨S4096x3, .f32⟩
  | 65 => ⟨S4096x3, .f32⟩
  | 66 => ⟨S1x3x768, .f32⟩
  | 67 => ⟨S3x768, .f32⟩
  | 68 => ⟨S1x3, .f32⟩
  | 69 => ⟨S3, .f32⟩
  | 70 => ⟨S768x3, .f32⟩
  | 71 => ⟨S4096x3, .f32⟩
  | 72 => ⟨S1x3, .f32⟩
  | 73 => ⟨S4096x3, .f32⟩
  | 74 => ⟨S4096x3, .f32⟩
  | 75 => ⟨S4096x3, .f32⟩
  | 76 => ⟨S4096x3, .f32⟩
  | 77 => ⟨S4096x3, .f32⟩
  | 78 => ⟨S_, .f32⟩
  | 79 => ⟨S4096x3, .f32⟩
  | 80 => ⟨S4096x3, .f32⟩
  | 81 => ⟨S_, .f32⟩
  | 82 => ⟨S4096x3, .f32⟩
  | 83 => ⟨S4096x3, .f32⟩
  | 84 => ⟨S1x768x768, .f32⟩
  | 85 => ⟨S768x768, .f32⟩
  | 86 => ⟨S1x768, .f32⟩
  | 87 => ⟨S768, .f32⟩
  | 88 => ⟨S768x768, .f32⟩
  | 89 => ⟨S4096x768, .f32⟩
  | 90 => ⟨S1x768, .f32⟩
  | 91 => ⟨S4096x768, .f32⟩
  | 92 => ⟨S4096x768, .f32⟩
  | 93 => ⟨S4096x3x256, .f32⟩
  | 94 => ⟨S4096x3x1, .f32⟩
  | 95 => ⟨S4096x3x256, .f32⟩
  | 96 => ⟨S4096x3x256, .f32⟩
  | 97 => ⟨S_, .f32⟩
  | 98 => ⟨S4096x256, .f32⟩
  | 99 => ⟨S1x256x256, .f32⟩
  | 100 => ⟨S256x256, .f32⟩
  | 101 => ⟨S1x256, .f32⟩
  | 102 => ⟨S256, .f32⟩
  | 103 => ⟨S256x256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S4096x256, .f32⟩
  | 110 => ⟨S1x4096x256, .f32⟩
  | 111 => ⟨S4096x256, .f32⟩
  | 112 => ⟨S4096x256, .f32⟩
  | 113 => ⟨S4096x256, .f32⟩
  | 114 => ⟨S4096x256, .f32⟩
  | 115 => ⟨S1x256x256, .f32⟩
  | 116 => ⟨S256x256, .f32⟩
  | 117 => ⟨S1x256, .f32⟩
  | 118 => ⟨S256, .f32⟩
  | 119 => ⟨S256x256, .f32⟩
  | 120 => ⟨S4096x256, .f32⟩
  | 121 => ⟨S1x256, .f32⟩
  | 122 => ⟨S4096x256, .f32⟩
  | 123 => ⟨S4096x256, .f32⟩
  | 124 => ⟨S1x4096x256, .f32⟩
  | 125 => ⟨S4096x256, .f32⟩
  | 126 => ⟨S1x256x256, .f32⟩
  | 127 => ⟨S256x256, .f32⟩
  | _ => ⟨S4096x256, .f32⟩

abbrev hbmTy0_21 (i : Nat) : BufTy := match i % 128 with
  | 0 => ⟨S1x256, .f32⟩
  | 1 => ⟨S256, .f32⟩
  | 2 => ⟨S256x256, .f32⟩
  | 3 => ⟨S4096x256, .f32⟩
  | 4 => ⟨S1x256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S1x4096x256, .f32⟩
  | 18 => ⟨S1x4096x256, .f32⟩
  | 19 => ⟨S1x4096x256, .f32⟩
  | 20 => ⟨S3x4096x256, .f32⟩
  | 21 => ⟨S1x4096x256, .f32⟩
  | 22 => ⟨S1x4096x256, .f32⟩
  | 23 => ⟨S1x4096x256, .f32⟩
  | 24 => ⟨S3x4096x256, .f32⟩
  | 25 => ⟨S4096x3x256, .f32⟩
  | 26 => ⟨S4096x768, .f32⟩
  | 27 => ⟨S1x256x256, .f32⟩
  | 28 => ⟨S256x256, .f32⟩
  | 29 => ⟨S1x256, .f32⟩
  | 30 => ⟨S256, .f32⟩
  | 31 => ⟨S256x256, .f32⟩
  | 32 => ⟨S4096x256, .f32⟩
  | 33 => ⟨S1x256, .f32⟩
  | 34 => ⟨S4096x256, .f32⟩
  | 35 => ⟨S4096x256, .f32⟩
  | 36 => ⟨S1x4096x256, .f32⟩
  | 37 => ⟨S4096x256, .f32⟩
  | 38 => ⟨S1x256x256, .f32⟩
  | 39 => ⟨S256x256, .f32⟩
  | 40 => ⟨S1x256, .f32⟩
  | 41 => ⟨S256, .f32⟩
  | 42 => ⟨S256x256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S1x4096x256, .f32⟩
  | 66 => ⟨S4096x256, .f32⟩
  | 67 => ⟨S1x256x256, .f32⟩
  | 68 => ⟨S256x256, .f32⟩
  | 69 => ⟨S1x256, .f32⟩
  | 70 => ⟨S256, .f32⟩
  | 71 => ⟨S256x256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S1x3x256, .f32⟩
  | 86 => ⟨S3x256, .f32⟩
  | 87 => ⟨S1x3, .f32⟩
  | 88 => ⟨S3, .f32⟩
  | 89 => ⟨S256x3, .f32⟩
  | 90 => ⟨S4096x3, .f32⟩
  | 91 => ⟨S1x3, .f32⟩
  | 92 => ⟨S4096x3, .f32⟩
  | 93 => ⟨S4096x3, .f32⟩
  | 94 => ⟨S1x3x768, .f32⟩
  | 95 => ⟨S3x768, .f32⟩
  | 96 => ⟨S1x3, .f32⟩
  | 97 => ⟨S3, .f32⟩
  | 98 => ⟨S768x3, .f32⟩
  | 99 => ⟨S4096x3, .f32⟩
  | 100 => ⟨S1x3, .f32⟩
  | 101 => ⟨S4096x3, .f32⟩
  | 102 => ⟨S4096x3, .f32⟩
  | 103 => ⟨S4096x3, .f32⟩
  | 104 => ⟨S4096x3, .f32⟩
  | 105 => ⟨S4096x3, .f32⟩
  | 106 => ⟨S_, .f32⟩
  | 107 => ⟨S4096x3, .f32⟩
  | 108 => ⟨S4096x3, .f32⟩
  | 109 => ⟨S_, .f32⟩
  | 110 => ⟨S4096x3, .f32⟩
  | 111 => ⟨S4096x3, .f32⟩
  | 112 => ⟨S1x768x768, .f32⟩
  | 113 => ⟨S768x768, .f32⟩
  | 114 => ⟨S1x768, .f32⟩
  | 115 => ⟨S768, .f32⟩
  | 116 => ⟨S768x768, .f32⟩
  | 117 => ⟨S4096x768, .f32⟩
  | 118 => ⟨S1x768, .f32⟩
  | 119 => ⟨S4096x768, .f32⟩
  | 120 => ⟨S4096x768, .f32⟩
  | 121 => ⟨S4096x3x256, .f32⟩
  | 122 => ⟨S4096x3x1, .f32⟩
  | 123 => ⟨S4096x3x256, .f32⟩
  | 124 => ⟨S4096x3x256, .f32⟩
  | 125 => ⟨S_, .f32⟩
  | 126 => ⟨S4096x256, .f32⟩
  | 127 => ⟨S1x256x256, .f32⟩
  | _ => ⟨S4096x256, .f32⟩

abbrev hbmTy0_22 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S4096x256, .f32⟩
  | 10 => ⟨S1x4096x256, .f32⟩
  | 11 => ⟨S4096x256, .f32⟩
  | 12 => ⟨S4096x256, .f32⟩
  | 13 => ⟨S4096x256, .f32⟩
  | 14 => ⟨S4096x256, .f32⟩
  | 15 => ⟨S1x256x256, .f32⟩
  | 16 => ⟨S256x256, .f32⟩
  | 17 => ⟨S1x256, .f32⟩
  | 18 => ⟨S256, .f32⟩
  | 19 => ⟨S256x256, .f32⟩
  | 20 => ⟨S4096x256, .f32⟩
  | 21 => ⟨S1x256, .f32⟩
  | 22 => ⟨S4096x256, .f32⟩
  | 23 => ⟨S4096x256, .f32⟩
  | 24 => ⟨S1x4096x256, .f32⟩
  | 25 => ⟨S4096x256, .f32⟩
  | 26 => ⟨S1x256x256, .f32⟩
  | 27 => ⟨S256x256, .f32⟩
  | 28 => ⟨S1x256, .f32⟩
  | 29 => ⟨S256, .f32⟩
  | 30 => ⟨S256x256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S_, .f32⟩
  | 39 => ⟨S4096x256, .f32⟩
  | 40 => ⟨S4096x256, .f32⟩
  | 41 => ⟨S_, .f32⟩
  | 42 => ⟨S4096x256, .f32⟩
  | 43 => ⟨S4096x256, .f32⟩
  | 44 => ⟨S4096x256, .f32⟩
  | 45 => ⟨S1x256x256, .f32⟩
  | 46 => ⟨S256x256, .f32⟩
  | 47 => ⟨S1x256, .f32⟩
  | 48 => ⟨S256, .f32⟩
  | 49 => ⟨S256x256, .f32⟩
  | 50 => ⟨S4096x256, .f32⟩
  | 51 => ⟨S1x256, .f32⟩
  | 52 => ⟨S4096x256, .f32⟩
  | 53 => ⟨S4096x256, .f32⟩
  | 54 => ⟨S1x4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S_, .f32⟩
  | 72 => ⟨S4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S1x4096x256, .f32⟩
  | 84 => ⟨S4096x256, .f32⟩
  | 85 => ⟨S1x256x256, .f32⟩
  | 86 => ⟨S256x256, .f32⟩
  | 87 => ⟨S1x256, .f32⟩
  | 88 => ⟨S256, .f32⟩
  | 89 => ⟨S256x256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S1x3x256, .f32⟩
  | 104 => ⟨S3x256, .f32⟩
  | 105 => ⟨S1x3, .f32⟩
  | 106 => ⟨S3, .f32⟩
  | 107 => ⟨S256x3, .f32⟩
  | 108 => ⟨S4096x3, .f32⟩
  | 109 => ⟨S1x3, .f32⟩
  | 110 => ⟨S4096x3, .f32⟩
  | 111 => ⟨S4096x3, .f32⟩
  | 112 => ⟨S1x3x768, .f32⟩
  | 113 => ⟨S3x768, .f32⟩
  | 114 => ⟨S1x3, .f32⟩
  | 115 => ⟨S3, .f32⟩
  | 116 => ⟨S768x3, .f32⟩
  | 117 => ⟨S4096x3, .f32⟩
  | 118 => ⟨S1x3, .f32⟩
  | 119 => ⟨S4096x3, .f32⟩
  | 120 => ⟨S4096x3, .f32⟩
  | 121 => ⟨S4096x3, .f32⟩
  | 122 => ⟨S4096x3, .f32⟩
  | 123 => ⟨S4096x3, .f32⟩
  | 124 => ⟨S_, .f32⟩
  | 125 => ⟨S4096x3, .f32⟩
  | 126 => ⟨S4096x3, .f32⟩
  | 127 => ⟨S_, .f32⟩
  | _ => ⟨S4096x256, .f32⟩

abbrev hbmTy0_23 (i : Nat) : BufTy := match i % 128 with
  | 0 => ⟨S4096x3, .f32⟩
  | 1 => ⟨S4096x3, .f32⟩
  | 2 => ⟨S1x768x768, .f32⟩
  | 3 => ⟨S768x768, .f32⟩
  | 4 => ⟨S1x768, .f32⟩
  | 5 => ⟨S768, .f32⟩
  | 6 => ⟨S768x768, .f32⟩
  | 7 => ⟨S4096x768, .f32⟩
  | 8 => ⟨S1x768, .f32⟩
  | 9 => ⟨S4096x768, .f32⟩
  | 10 => ⟨S4096x768, .f32⟩
  | 11 => ⟨S4096x3x256, .f32⟩
  | 12 => ⟨S4096x3x1, .f32⟩
  | 13 => ⟨S4096x3x256, .f32⟩
  | 14 => ⟨S4096x3x256, .f32⟩
  | 15 => ⟨S_, .f32⟩
  | 16 => ⟨S4096x256, .f32⟩
  | 17 => ⟨S1x256x256, .f32⟩
  | 18 => ⟨S256x256, .f32⟩
  | 19 => ⟨S1x256, .f32⟩
  | 20 => ⟨S256, .f32⟩
  | 21 => ⟨S256x256, .f32⟩
  | 22 => ⟨S4096x256, .f32⟩
  | 23 => ⟨S1x256, .f32⟩
  | 24 => ⟨S4096x256, .f32⟩
  | 25 => ⟨S4096x256, .f32⟩
  | 26 => ⟨S4096x256, .f32⟩
  | 27 => ⟨S4096x256, .f32⟩
  | 28 => ⟨S1x4096x256, .f32⟩
  | 29 => ⟨S4096x256, .f32⟩
  | 30 => ⟨S4096x256, .f32⟩
  | 31 => ⟨S4096x256, .f32⟩
  | 32 => ⟨S4096x256, .f32⟩
  | 33 => ⟨S1x256x256, .f32⟩
  | 34 => ⟨S256x256, .f32⟩
  | 35 => ⟨S1x256, .f32⟩
  | 36 => ⟨S256, .f32⟩
  | 37 => ⟨S256x256, .f32⟩
  | 38 => ⟨S4096x256, .f32⟩
  | 39 => ⟨S1x256, .f32⟩
  | 40 => ⟨S4096x256, .f32⟩
  | 41 => ⟨S4096x256, .f32⟩
  | 42 => ⟨S1x4096x256, .f32⟩
  | 43 => ⟨S4096x256, .f32⟩
  | 44 => ⟨S1x256x256, .f32⟩
  | 45 => ⟨S256x256, .f32⟩
  | 46 => ⟨S1x256, .f32⟩
  | 47 => ⟨S256, .f32⟩
  | 48 => ⟨S256x256, .f32⟩
  | 49 => ⟨S4096x256, .f32⟩
  | 50 => ⟨S1x256, .f32⟩
  | 51 => ⟨S4096x256, .f32⟩
  | 52 => ⟨S4096x256, .f32⟩
  | 53 => ⟨S4096x256, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S1x4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S4096x256, .f32⟩
  | 85 => ⟨S4096x256, .f32⟩
  | 86 => ⟨S_, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S1x256x256, .f32⟩
  | 93 => ⟨S256x256, .f32⟩
  | 94 => ⟨S1x256, .f32⟩
  | 95 => ⟨S256, .f32⟩
  | 96 => ⟨S256x256, .f32⟩
  | 97 => ⟨S4096x256, .f32⟩
  | 98 => ⟨S1x256, .f32⟩
  | 99 => ⟨S4096x256, .f32⟩
  | 100 => ⟨S4096x256, .f32⟩
  | 101 => ⟨S1x4096x256, .f32⟩
  | 102 => ⟨S4096x256, .f32⟩
  | 103 => ⟨S1x256x256, .f32⟩
  | 104 => ⟨S256x256, .f32⟩
  | 105 => ⟨S1x256, .f32⟩
  | 106 => ⟨S256, .f32⟩
  | 107 => ⟨S256x256, .f32⟩
  | 108 => ⟨S4096x256, .f32⟩
  | 109 => ⟨S1x256, .f32⟩
  | 110 => ⟨S4096x256, .f32⟩
  | 111 => ⟨S4096x256, .f32⟩
  | 112 => ⟨S4096x256, .f32⟩
  | 113 => ⟨S4096x256, .f32⟩
  | 114 => ⟨S4096x256, .f32⟩
  | 115 => ⟨S_, .f32⟩
  | 116 => ⟨S4096x256, .f32⟩
  | 117 => ⟨S4096x256, .f32⟩
  | 118 => ⟨S_, .f32⟩
  | 119 => ⟨S4096x256, .f32⟩
  | 120 => ⟨S4096x256, .f32⟩
  | 121 => ⟨S1x3x256, .f32⟩
  | 122 => ⟨S3x256, .f32⟩
  | 123 => ⟨S1x3, .f32⟩
  | 124 => ⟨S3, .f32⟩
  | 125 => ⟨S256x3, .f32⟩
  | 126 => ⟨S4096x3, .f32⟩
  | 127 => ⟨S1x3, .f32⟩
  | _ => ⟨S4096x256, .f32⟩

abbrev hbmTy0_24 (i : Nat) : BufTy := match i % 128 with
  | 0 => ⟨S4096x3, .f32⟩
  | 1 => ⟨S4096x3, .f32⟩
  | 2 => ⟨S1x3x768, .f32⟩
  | 3 => ⟨S3x768, .f32⟩
  | 4 => ⟨S1x3, .f32⟩
  | 5 => ⟨S3, .f32⟩
  | 6 => ⟨S768x3, .f32⟩
  | 7 => ⟨S4096x3, .f32⟩
  | 8 => ⟨S1x3, .f32⟩
  | 9 => ⟨S4096x3, .f32⟩
  | 10 => ⟨S4096x3, .f32⟩
  | 11 => ⟨S4096x3, .f32⟩
  | 12 => ⟨S4096x3, .f32⟩
  | 13 => ⟨S4096x3, .f32⟩
  | 14 => ⟨S_, .f32⟩
  | 15 => ⟨S4096x3, .f32⟩
  | 16 => ⟨S4096x3, .f32⟩
  | 17 => ⟨S_, .f32⟩
  | 18 => ⟨S4096x3, .f32⟩
  | 19 => ⟨S4096x3, .f32⟩
  | 20 => ⟨S1x768x768, .f32⟩
  | 21 => ⟨S768x768, .f32⟩
  | 22 => ⟨S1x768, .f32⟩
  | 23 => ⟨S768, .f32⟩
  | 24 => ⟨S768x768, .f32⟩
  | 25 => ⟨S4096x768, .f32⟩
  | 26 => ⟨S1x768, .f32⟩
  | 27 => ⟨S4096x768, .f32⟩
  | 28 => ⟨S4096x768, .f32⟩
  | 29 => ⟨S4096x3x256, .f32⟩
  | 30 => ⟨S4096x3x1, .f32⟩
  | 31 => ⟨S4096x3x256, .f32⟩
  | 32 => ⟨S4096x3x256, .f32⟩
  | 33 => ⟨S_, .f32⟩
  | 34 => ⟨S4096x256, .f32⟩
  | 35 => ⟨S1x256x256, .f32⟩
  | 36 => ⟨S256x256, .f32⟩
  | 37 => ⟨S1x256, .f32⟩
  | 38 => ⟨S256, .f32⟩
  | 39 => ⟨S256x256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S4096x256, .f32⟩
  | 46 => ⟨S1x4096x256, .f32⟩
  | 47 => ⟨S4096x256, .f32⟩
  | 48 => ⟨S4096x256, .f32⟩
  | 49 => ⟨S4096x256, .f32⟩
  | 50 => ⟨S4096x256, .f32⟩
  | 51 => ⟨S1x256x256, .f32⟩
  | 52 => ⟨S256x256, .f32⟩
  | 53 => ⟨S1x256, .f32⟩
  | 54 => ⟨S256, .f32⟩
  | 55 => ⟨S256x256, .f32⟩
  | 56 => ⟨S4096x256, .f32⟩
  | 57 => ⟨S1x256, .f32⟩
  | 58 => ⟨S4096x256, .f32⟩
  | 59 => ⟨S4096x256, .f32⟩
  | 60 => ⟨S1x4096x256, .f32⟩
  | 61 => ⟨S4096x256, .f32⟩
  | 62 => ⟨S1x256x256, .f32⟩
  | 63 => ⟨S256x256, .f32⟩
  | 64 => ⟨S1x256, .f32⟩
  | 65 => ⟨S256, .f32⟩
  | 66 => ⟨S256x256, .f32⟩
  | 67 => ⟨S4096x256, .f32⟩
  | 68 => ⟨S1x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S_, .f32⟩
  | 75 => ⟨S4096x256, .f32⟩
  | 76 => ⟨S4096x256, .f32⟩
  | 77 => ⟨S_, .f32⟩
  | 78 => ⟨S4096x256, .f32⟩
  | 79 => ⟨S4096x256, .f32⟩
  | 80 => ⟨S4096x256, .f32⟩
  | 81 => ⟨S1x4096x256, .f32⟩
  | 82 => ⟨S1x4096x256, .f32⟩
  | 83 => ⟨S1x4096x256, .f32⟩
  | 84 => ⟨S3x4096x256, .f32⟩
  | 85 => ⟨S1x4096x256, .f32⟩
  | 86 => ⟨S1x4096x256, .f32⟩
  | 87 => ⟨S1x4096x256, .f32⟩
  | 88 => ⟨S3x4096x256, .f32⟩
  | 89 => ⟨S4096x3x256, .f32⟩
  | 90 => ⟨S4096x768, .f32⟩
  | 91 => ⟨S1x256x256, .f32⟩
  | 92 => ⟨S256x256, .f32⟩
  | 93 => ⟨S1x256, .f32⟩
  | 94 => ⟨S256, .f32⟩
  | 95 => ⟨S256x256, .f32⟩
  | 96 => ⟨S4096x256, .f32⟩
  | 97 => ⟨S1x256, .f32⟩
  | 98 => ⟨S4096x256, .f32⟩
  | 99 => ⟨S4096x256, .f32⟩
  | 100 => ⟨S1x4096x256, .f32⟩
  | 101 => ⟨S4096x256, .f32⟩
  | 102 => ⟨S1x256x256, .f32⟩
  | 103 => ⟨S256x256, .f32⟩
  | 104 => ⟨S1x256, .f32⟩
  | 105 => ⟨S256, .f32⟩
  | 106 => ⟨S256x256, .f32⟩
  | 107 => ⟨S4096x256, .f32⟩
  | 108 => ⟨S1x256, .f32⟩
  | 109 => ⟨S4096x256, .f32⟩
  | 110 => ⟨S4096x256, .f32⟩
  | 111 => ⟨S4096x256, .f32⟩
  | 112 => ⟨S4096x256, .f32⟩
  | 113 => ⟨S4096x256, .f32⟩
  | 114 => ⟨S_, .f32⟩
  | 115 => ⟨S4096x256, .f32⟩
  | 116 => ⟨S4096x256, .f32⟩
  | 117 => ⟨S_, .f32⟩
  | 118 => ⟨S4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_25 (i : Nat) : BufTy := match i % 128 with
  | 0 => ⟨S4096x256, .f32⟩
  | 1 => ⟨S1x4096x256, .f32⟩
  | 2 => ⟨S4096x256, .f32⟩
  | 3 => ⟨S1x256x256, .f32⟩
  | 4 => ⟨S256x256, .f32⟩
  | 5 => ⟨S1x256, .f32⟩
  | 6 => ⟨S256, .f32⟩
  | 7 => ⟨S256x256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S_, .f32⟩
  | 19 => ⟨S4096x256, .f32⟩
  | 20 => ⟨S4096x256, .f32⟩
  | 21 => ⟨S1x3x256, .f32⟩
  | 22 => ⟨S3x256, .f32⟩
  | 23 => ⟨S1x3, .f32⟩
  | 24 => ⟨S3, .f32⟩
  | 25 => ⟨S256x3, .f32⟩
  | 26 => ⟨S4096x3, .f32⟩
  | 27 => ⟨S1x3, .f32⟩
  | 28 => ⟨S4096x3, .f32⟩
  | 29 => ⟨S4096x3, .f32⟩
  | 30 => ⟨S1x3x768, .f32⟩
  | 31 => ⟨S3x768, .f32⟩
  | 32 => ⟨S1x3, .f32⟩
  | 33 => ⟨S3, .f32⟩
  | 34 => ⟨S768x3, .f32⟩
  | 35 => ⟨S4096x3, .f32⟩
  | 36 => ⟨S1x3, .f32⟩
  | 37 => ⟨S4096x3, .f32⟩
  | 38 => ⟨S4096x3, .f32⟩
  | 39 => ⟨S4096x3, .f32⟩
  | 40 => ⟨S4096x3, .f32⟩
  | 41 => ⟨S4096x3, .f32⟩
  | 42 => ⟨S_, .f32⟩
  | 43 => ⟨S4096x3, .f32⟩
  | 44 => ⟨S4096x3, .f32⟩
  | 45 => ⟨S_, .f32⟩
  | 46 => ⟨S4096x3, .f32⟩
  | 47 => ⟨S4096x3, .f32⟩
  | 48 => ⟨S1x768x768, .f32⟩
  | 49 => ⟨S768x768, .f32⟩
  | 50 => ⟨S1x768, .f32⟩
  | 51 => ⟨S768, .f32⟩
  | 52 => ⟨S768x768, .f32⟩
  | 53 => ⟨S4096x768, .f32⟩
  | 54 => ⟨S1x768, .f32⟩
  | 55 => ⟨S4096x768, .f32⟩
  | 56 => ⟨S4096x768, .f32⟩
  | 57 => ⟨S4096x3x256, .f32⟩
  | 58 => ⟨S4096x3x1, .f32⟩
  | 59 => ⟨S4096x3x256, .f32⟩
  | 60 => ⟨S4096x3x256, .f32⟩
  | 61 => ⟨S_, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S4096x256, .f32⟩
  | 74 => ⟨S1x4096x256, .f32⟩
  | 75 => ⟨S4096x256, .f32⟩
  | 76 => ⟨S4096x256, .f32⟩
  | 77 => ⟨S4096x256, .f32⟩
  | 78 => ⟨S4096x256, .f32⟩
  | 79 => ⟨S1x256x256, .f32⟩
  | 80 => ⟨S256x256, .f32⟩
  | 81 => ⟨S1x256, .f32⟩
  | 82 => ⟨S256, .f32⟩
  | 83 => ⟨S256x256, .f32⟩
  | 84 => ⟨S4096x256, .f32⟩
  | 85 => ⟨S1x256, .f32⟩
  | 86 => ⟨S4096x256, .f32⟩
  | 87 => ⟨S4096x256, .f32⟩
  | 88 => ⟨S1x4096x256, .f32⟩
  | 89 => ⟨S4096x256, .f32⟩
  | 90 => ⟨S1x256x256, .f32⟩
  | 91 => ⟨S256x256, .f32⟩
  | 92 => ⟨S1x256, .f32⟩
  | 93 => ⟨S256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S_, .f32⟩
  | 106 => ⟨S4096x256, .f32⟩
  | 107 => ⟨S4096x256, .f32⟩
  | 108 => ⟨S4096x256, .f32⟩
  | 109 => ⟨S1x256x256, .f32⟩
  | 110 => ⟨S256x256, .f32⟩
  | 111 => ⟨S1x256, .f32⟩
  | 112 => ⟨S256, .f32⟩
  | 113 => ⟨S256x256, .f32⟩
  | 114 => ⟨S4096x256, .f32⟩
  | 115 => ⟨S1x256, .f32⟩
  | 116 => ⟨S4096x256, .f32⟩
  | 117 => ⟨S4096x256, .f32⟩
  | 118 => ⟨S1x4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_26 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S_, .f32⟩
  | 8 => ⟨S4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S1x4096x256, .f32⟩
  | 20 => ⟨S4096x256, .f32⟩
  | 21 => ⟨S1x256x256, .f32⟩
  | 22 => ⟨S256x256, .f32⟩
  | 23 => ⟨S1x256, .f32⟩
  | 24 => ⟨S256, .f32⟩
  | 25 => ⟨S256x256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S_, .f32⟩
  | 37 => ⟨S4096x256, .f32⟩
  | 38 => ⟨S4096x256, .f32⟩
  | 39 => ⟨S1x3x256, .f32⟩
  | 40 => ⟨S3x256, .f32⟩
  | 41 => ⟨S1x3, .f32⟩
  | 42 => ⟨S3, .f32⟩
  | 43 => ⟨S256x3, .f32⟩
  | 44 => ⟨S4096x3, .f32⟩
  | 45 => ⟨S1x3, .f32⟩
  | 46 => ⟨S4096x3, .f32⟩
  | 47 => ⟨S4096x3, .f32⟩
  | 48 => ⟨S1x3x768, .f32⟩
  | 49 => ⟨S3x768, .f32⟩
  | 50 => ⟨S1x3, .f32⟩
  | 51 => ⟨S3, .f32⟩
  | 52 => ⟨S768x3, .f32⟩
  | 53 => ⟨S4096x3, .f32⟩
  | 54 => ⟨S1x3, .f32⟩
  | 55 => ⟨S4096x3, .f32⟩
  | 56 => ⟨S4096x3, .f32⟩
  | 57 => ⟨S4096x3, .f32⟩
  | 58 => ⟨S4096x3, .f32⟩
  | 59 => ⟨S4096x3, .f32⟩
  | 60 => ⟨S_, .f32⟩
  | 61 => ⟨S4096x3, .f32⟩
  | 62 => ⟨S4096x3, .f32⟩
  | 63 => ⟨S_, .f32⟩
  | 64 => ⟨S4096x3, .f32⟩
  | 65 => ⟨S4096x3, .f32⟩
  | 66 => ⟨S1x768x768, .f32⟩
  | 67 => ⟨S768x768, .f32⟩
  | 68 => ⟨S1x768, .f32⟩
  | 69 => ⟨S768, .f32⟩
  | 70 => ⟨S768x768, .f32⟩
  | 71 => ⟨S4096x768, .f32⟩
  | 72 => ⟨S1x768, .f32⟩
  | 73 => ⟨S4096x768, .f32⟩
  | 74 => ⟨S4096x768, .f32⟩
  | 75 => ⟨S4096x3x256, .f32⟩
  | 76 => ⟨S4096x3x1, .f32⟩
  | 77 => ⟨S4096x3x256, .f32⟩
  | 78 => ⟨S4096x3x256, .f32⟩
  | 79 => ⟨S_, .f32⟩
  | 80 => ⟨S4096x256, .f32⟩
  | 81 => ⟨S1x256x256, .f32⟩
  | 82 => ⟨S256x256, .f32⟩
  | 83 => ⟨S1x256, .f32⟩
  | 84 => ⟨S256, .f32⟩
  | 85 => ⟨S256x256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S4096x256, .f32⟩
  | 92 => ⟨S1x4096x256, .f32⟩
  | 93 => ⟨S4096x256, .f32⟩
  | 94 => ⟨S4096x256, .f32⟩
  | 95 => ⟨S4096x256, .f32⟩
  | 96 => ⟨S4096x256, .f32⟩
  | 97 => ⟨S1x256x256, .f32⟩
  | 98 => ⟨S256x256, .f32⟩
  | 99 => ⟨S1x256, .f32⟩
  | 100 => ⟨S256, .f32⟩
  | 101 => ⟨S256x256, .f32⟩
  | 102 => ⟨S4096x256, .f32⟩
  | 103 => ⟨S1x256, .f32⟩
  | 104 => ⟨S4096x256, .f32⟩
  | 105 => ⟨S4096x256, .f32⟩
  | 106 => ⟨S1x4096x256, .f32⟩
  | 107 => ⟨S4096x256, .f32⟩
  | 108 => ⟨S1x256x256, .f32⟩
  | 109 => ⟨S256x256, .f32⟩
  | 110 => ⟨S1x256, .f32⟩
  | 111 => ⟨S256, .f32⟩
  | 112 => ⟨S256x256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S_, .f32⟩
  | 124 => ⟨S4096x256, .f32⟩
  | 125 => ⟨S4096x256, .f32⟩
  | 126 => ⟨S4096x256, .f32⟩
  | 127 => ⟨S1x256x256, .f32⟩
  | _ => ⟨S4096x256, .f32⟩

abbrev hbmTy0_27 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S1x4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S1x256x256, .f32⟩
  | 29 => ⟨S256x256, .f32⟩
  | 30 => ⟨S1x256, .f32⟩
  | 31 => ⟨S256, .f32⟩
  | 32 => ⟨S256x256, .f32⟩
  | 33 => ⟨S4096x256, .f32⟩
  | 34 => ⟨S1x256, .f32⟩
  | 35 => ⟨S4096x256, .f32⟩
  | 36 => ⟨S4096x256, .f32⟩
  | 37 => ⟨S1x4096x256, .f32⟩
  | 38 => ⟨S4096x256, .f32⟩
  | 39 => ⟨S1x256x256, .f32⟩
  | 40 => ⟨S256x256, .f32⟩
  | 41 => ⟨S1x256, .f32⟩
  | 42 => ⟨S256, .f32⟩
  | 43 => ⟨S256x256, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S4096x256, .f32⟩
  | 50 => ⟨S4096x256, .f32⟩
  | 51 => ⟨S_, .f32⟩
  | 52 => ⟨S4096x256, .f32⟩
  | 53 => ⟨S4096x256, .f32⟩
  | 54 => ⟨S_, .f32⟩
  | 55 => ⟨S4096x256, .f32⟩
  | 56 => ⟨S4096x256, .f32⟩
  | 57 => ⟨S1x3x256, .f32⟩
  | 58 => ⟨S3x256, .f32⟩
  | 59 => ⟨S1x3, .f32⟩
  | 60 => ⟨S3, .f32⟩
  | 61 => ⟨S256x3, .f32⟩
  | 62 => ⟨S4096x3, .f32⟩
  | 63 => ⟨S1x3, .f32⟩
  | 64 => ⟨S4096x3, .f32⟩
  | 65 => ⟨S4096x3, .f32⟩
  | 66 => ⟨S1x3x768, .f32⟩
  | 67 => ⟨S3x768, .f32⟩
  | 68 => ⟨S1x3, .f32⟩
  | 69 => ⟨S3, .f32⟩
  | 70 => ⟨S768x3, .f32⟩
  | 71 => ⟨S4096x3, .f32⟩
  | 72 => ⟨S1x3, .f32⟩
  | 73 => ⟨S4096x3, .f32⟩
  | 74 => ⟨S4096x3, .f32⟩
  | 75 => ⟨S4096x3, .f32⟩
  | 76 => ⟨S4096x3, .f32⟩
  | 77 => ⟨S4096x3, .f32⟩
  | 78 => ⟨S_, .f32⟩
  | 79 => ⟨S4096x3, .f32⟩
  | 80 => ⟨S4096x3, .f32⟩
  | 81 => ⟨S_, .f32⟩
  | 82 => ⟨S4096x3, .f32⟩
  | 83 => ⟨S4096x3, .f32⟩
  | 84 => ⟨S1x768x768, .f32⟩
  | 85 => ⟨S768x768, .f32⟩
  | 86 => ⟨S1x768, .f32⟩
  | 87 => ⟨S768, .f32⟩
  | 88 => ⟨S768x768, .f32⟩
  | 89 => ⟨S4096x768, .f32⟩
  | 90 => ⟨S1x768, .f32⟩
  | 91 => ⟨S4096x768, .f32⟩
  | 92 => ⟨S4096x768, .f32⟩
  | 93 => ⟨S4096x3x256, .f32⟩
  | 94 => ⟨S4096x3x1, .f32⟩
  | 95 => ⟨S4096x3x256, .f32⟩
  | 96 => ⟨S4096x3x256, .f32⟩
  | 97 => ⟨S_, .f32⟩
  | 98 => ⟨S4096x256, .f32⟩
  | 99 => ⟨S1x256x256, .f32⟩
  | 100 => ⟨S256x256, .f32⟩
  | 101 => ⟨S1x256, .f32⟩
  | 102 => ⟨S256, .f32⟩
  | 103 => ⟨S256x256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S4096x256, .f32⟩
  | 110 => ⟨S1x4096x256, .f32⟩
  | 111 => ⟨S4096x256, .f32⟩
  | 112 => ⟨S4096x256, .f32⟩
  | 113 => ⟨S4096x256, .f32⟩
  | 114 => ⟨S4096x256, .f32⟩
  | 115 => ⟨S1x256x256, .f32⟩
  | 116 => ⟨S256x256, .f32⟩
  | 117 => ⟨S1x256, .f32⟩
  | 118 => ⟨S256, .f32⟩
  | 119 => ⟨S256x256, .f32⟩
  | 120 => ⟨S4096x256, .f32⟩
  | 121 => ⟨S1x256, .f32⟩
  | 122 => ⟨S4096x256, .f32⟩
  | 123 => ⟨S4096x256, .f32⟩
  | 124 => ⟨S1x4096x256, .f32⟩
  | 125 => ⟨S4096x256, .f32⟩
  | 126 => ⟨S1x256x256, .f32⟩
  | 127 => ⟨S256x256, .f32⟩
  | _ => ⟨S4096x256, .f32⟩

abbrev hbmTy0_28 (i : Nat) : BufTy := match i % 128 with
  | 0 => ⟨S1x256, .f32⟩
  | 1 => ⟨S256, .f32⟩
  | 2 => ⟨S256x256, .f32⟩
  | 3 => ⟨S4096x256, .f32⟩
  | 4 => ⟨S1x256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S1x4096x256, .f32⟩
  | 18 => ⟨S1x4096x256, .f32⟩
  | 19 => ⟨S1x4096x256, .f32⟩
  | 20 => ⟨S3x4096x256, .f32⟩
  | 21 => ⟨S1x4096x256, .f32⟩
  | 22 => ⟨S1x4096x256, .f32⟩
  | 23 => ⟨S1x4096x256, .f32⟩
  | 24 => ⟨S3x4096x256, .f32⟩
  | 25 => ⟨S4096x3x256, .f32⟩
  | 26 => ⟨S4096x768, .f32⟩
  | 27 => ⟨S1x256x256, .f32⟩
  | 28 => ⟨S256x256, .f32⟩
  | 29 => ⟨S1x256, .f32⟩
  | 30 => ⟨S256, .f32⟩
  | 31 => ⟨S256x256, .f32⟩
  | 32 => ⟨S4096x256, .f32⟩
  | 33 => ⟨S1x256, .f32⟩
  | 34 => ⟨S4096x256, .f32⟩
  | 35 => ⟨S4096x256, .f32⟩
  | 36 => ⟨S1x4096x256, .f32⟩
  | 37 => ⟨S4096x256, .f32⟩
  | 38 => ⟨S1x256x256, .f32⟩
  | 39 => ⟨S256x256, .f32⟩
  | 40 => ⟨S1x256, .f32⟩
  | 41 => ⟨S256, .f32⟩
  | 42 => ⟨S256x256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S1x4096x256, .f32⟩
  | 66 => ⟨S4096x256, .f32⟩
  | 67 => ⟨S1x256x256, .f32⟩
  | 68 => ⟨S256x256, .f32⟩
  | 69 => ⟨S1x256, .f32⟩
  | 70 => ⟨S256, .f32⟩
  | 71 => ⟨S256x256, .f32⟩
  | 72 => ⟨S4096x256, .f32⟩
  | 73 => ⟨S1x256, .f32⟩
  | 74 => ⟨S4096x256, .f32⟩
  | 75 => ⟨S4096x256, .f32⟩
  | 76 => ⟨S4096x256, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S1x3x256, .f32⟩
  | 86 => ⟨S3x256, .f32⟩
  | 87 => ⟨S1x3, .f32⟩
  | 88 => ⟨S3, .f32⟩
  | 89 => ⟨S256x3, .f32⟩
  | 90 => ⟨S4096x3, .f32⟩
  | 91 => ⟨S1x3, .f32⟩
  | 92 => ⟨S4096x3, .f32⟩
  | 93 => ⟨S4096x3, .f32⟩
  | 94 => ⟨S1x3x768, .f32⟩
  | 95 => ⟨S3x768, .f32⟩
  | 96 => ⟨S1x3, .f32⟩
  | 97 => ⟨S3, .f32⟩
  | 98 => ⟨S768x3, .f32⟩
  | 99 => ⟨S4096x3, .f32⟩
  | 100 => ⟨S1x3, .f32⟩
  | 101 => ⟨S4096x3, .f32⟩
  | 102 => ⟨S4096x3, .f32⟩
  | 103 => ⟨S4096x3, .f32⟩
  | 104 => ⟨S4096x3, .f32⟩
  | 105 => ⟨S4096x3, .f32⟩
  | 106 => ⟨S_, .f32⟩
  | 107 => ⟨S4096x3, .f32⟩
  | 108 => ⟨S4096x3, .f32⟩
  | 109 => ⟨S_, .f32⟩
  | 110 => ⟨S4096x3, .f32⟩
  | 111 => ⟨S4096x3, .f32⟩
  | 112 => ⟨S1x768x768, .f32⟩
  | 113 => ⟨S768x768, .f32⟩
  | 114 => ⟨S1x768, .f32⟩
  | 115 => ⟨S768, .f32⟩
  | 116 => ⟨S768x768, .f32⟩
  | 117 => ⟨S4096x768, .f32⟩
  | 118 => ⟨S1x768, .f32⟩
  | 119 => ⟨S4096x768, .f32⟩
  | 120 => ⟨S4096x768, .f32⟩
  | 121 => ⟨S4096x3x256, .f32⟩
  | 122 => ⟨S4096x3x1, .f32⟩
  | 123 => ⟨S4096x3x256, .f32⟩
  | 124 => ⟨S4096x3x256, .f32⟩
  | 125 => ⟨S_, .f32⟩
  | 126 => ⟨S4096x256, .f32⟩
  | 127 => ⟨S1x256x256, .f32⟩
  | _ => ⟨S4096x256, .f32⟩

abbrev hbmTy0_29 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S4096x256, .f32⟩
  | 9 => ⟨S4096x256, .f32⟩
  | 10 => ⟨S1x4096x256, .f32⟩
  | 11 => ⟨S4096x256, .f32⟩
  | 12 => ⟨S4096x256, .f32⟩
  | 13 => ⟨S4096x256, .f32⟩
  | 14 => ⟨S4096x256, .f32⟩
  | 15 => ⟨S1x256x256, .f32⟩
  | 16 => ⟨S256x256, .f32⟩
  | 17 => ⟨S1x256, .f32⟩
  | 18 => ⟨S256, .f32⟩
  | 19 => ⟨S256x256, .f32⟩
  | 20 => ⟨S4096x256, .f32⟩
  | 21 => ⟨S1x256, .f32⟩
  | 22 => ⟨S4096x256, .f32⟩
  | 23 => ⟨S4096x256, .f32⟩
  | 24 => ⟨S1x4096x256, .f32⟩
  | 25 => ⟨S4096x256, .f32⟩
  | 26 => ⟨S1x256x256, .f32⟩
  | 27 => ⟨S256x256, .f32⟩
  | 28 => ⟨S1x256, .f32⟩
  | 29 => ⟨S256, .f32⟩
  | 30 => ⟨S256x256, .f32⟩
  | 31 => ⟨S4096x256, .f32⟩
  | 32 => ⟨S1x256, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S_, .f32⟩
  | 39 => ⟨S4096x256, .f32⟩
  | 40 => ⟨S4096x256, .f32⟩
  | 41 => ⟨S_, .f32⟩
  | 42 => ⟨S4096x256, .f32⟩
  | 43 => ⟨S4096x256, .f32⟩
  | 44 => ⟨S4096x256, .f32⟩
  | 45 => ⟨S1x256x256, .f32⟩
  | 46 => ⟨S256x256, .f32⟩
  | 47 => ⟨S1x256, .f32⟩
  | 48 => ⟨S256, .f32⟩
  | 49 => ⟨S256x256, .f32⟩
  | 50 => ⟨S4096x256, .f32⟩
  | 51 => ⟨S1x256, .f32⟩
  | 52 => ⟨S4096x256, .f32⟩
  | 53 => ⟨S4096x256, .f32⟩
  | 54 => ⟨S1x4096x256, .f32⟩
  | 55 => ⟨S4096x256, .f32⟩
  | 56 => ⟨S1x256x256, .f32⟩
  | 57 => ⟨S256x256, .f32⟩
  | 58 => ⟨S1x256, .f32⟩
  | 59 => ⟨S256, .f32⟩
  | 60 => ⟨S256x256, .f32⟩
  | 61 => ⟨S4096x256, .f32⟩
  | 62 => ⟨S1x256, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S_, .f32⟩
  | 69 => ⟨S4096x256, .f32⟩
  | 70 => ⟨S4096x256, .f32⟩
  | 71 => ⟨S_, .f32⟩
  | 72 => ⟨S4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S1x4096x256, .f32⟩
  | 84 => ⟨S4096x256, .f32⟩
  | 85 => ⟨S1x256x256, .f32⟩
  | 86 => ⟨S256x256, .f32⟩
  | 87 => ⟨S1x256, .f32⟩
  | 88 => ⟨S256, .f32⟩
  | 89 => ⟨S256x256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S4096x256, .f32⟩
  | 96 => ⟨S4096x256, .f32⟩
  | 97 => ⟨S_, .f32⟩
  | 98 => ⟨S4096x256, .f32⟩
  | 99 => ⟨S4096x256, .f32⟩
  | 100 => ⟨S_, .f32⟩
  | 101 => ⟨S4096x256, .f32⟩
  | 102 => ⟨S4096x256, .f32⟩
  | 103 => ⟨S1x3x256, .f32⟩
  | 104 => ⟨S3x256, .f32⟩
  | 105 => ⟨S1x3, .f32⟩
  | 106 => ⟨S3, .f32⟩
  | 107 => ⟨S256x3, .f32⟩
  | 108 => ⟨S4096x3, .f32⟩
  | 109 => ⟨S1x3, .f32⟩
  | 110 => ⟨S4096x3, .f32⟩
  | 111 => ⟨S4096x3, .f32⟩
  | 112 => ⟨S1x3x768, .f32⟩
  | 113 => ⟨S3x768, .f32⟩
  | 114 => ⟨S1x3, .f32⟩
  | 115 => ⟨S3, .f32⟩
  | 116 => ⟨S768x3, .f32⟩
  | 117 => ⟨S4096x3, .f32⟩
  | 118 => ⟨S1x3, .f32⟩
  | 119 => ⟨S4096x3, .f32⟩
  | 120 => ⟨S4096x3, .f32⟩
  | 121 => ⟨S4096x3, .f32⟩
  | 122 => ⟨S4096x3, .f32⟩
  | 123 => ⟨S4096x3, .f32⟩
  | 124 => ⟨S_, .f32⟩
  | 125 => ⟨S4096x3, .f32⟩
  | 126 => ⟨S4096x3, .f32⟩
  | 127 => ⟨S_, .f32⟩
  | _ => ⟨S4096x256, .f32⟩

abbrev hbmTy0_30 (i : Nat) : BufTy := match i % 128 with
  | 0 => ⟨S4096x3, .f32⟩
  | 1 => ⟨S4096x3, .f32⟩
  | 2 => ⟨S1x768x768, .f32⟩
  | 3 => ⟨S768x768, .f32⟩
  | 4 => ⟨S1x768, .f32⟩
  | 5 => ⟨S768, .f32⟩
  | 6 => ⟨S768x768, .f32⟩
  | 7 => ⟨S4096x768, .f32⟩
  | 8 => ⟨S1x768, .f32⟩
  | 9 => ⟨S4096x768, .f32⟩
  | 10 => ⟨S4096x768, .f32⟩
  | 11 => ⟨S4096x3x256, .f32⟩
  | 12 => ⟨S4096x3x1, .f32⟩
  | 13 => ⟨S4096x3x256, .f32⟩
  | 14 => ⟨S4096x3x256, .f32⟩
  | 15 => ⟨S_, .f32⟩
  | 16 => ⟨S4096x256, .f32⟩
  | 17 => ⟨S1x256x256, .f32⟩
  | 18 => ⟨S256x256, .f32⟩
  | 19 => ⟨S1x256, .f32⟩
  | 20 => ⟨S256, .f32⟩
  | 21 => ⟨S256x256, .f32⟩
  | 22 => ⟨S4096x256, .f32⟩
  | 23 => ⟨S1x256, .f32⟩
  | 24 => ⟨S4096x256, .f32⟩
  | 25 => ⟨S4096x256, .f32⟩
  | 26 => ⟨S4096x256, .f32⟩
  | 27 => ⟨S4096x256, .f32⟩
  | 28 => ⟨S1x4096x256, .f32⟩
  | 29 => ⟨S4096x256, .f32⟩
  | 30 => ⟨S4096x256, .f32⟩
  | 31 => ⟨S4096x256, .f32⟩
  | 32 => ⟨S4096x256, .f32⟩
  | 33 => ⟨S1x256x256, .f32⟩
  | 34 => ⟨S256x256, .f32⟩
  | 35 => ⟨S1x256, .f32⟩
  | 36 => ⟨S256, .f32⟩
  | 37 => ⟨S256x256, .f32⟩
  | 38 => ⟨S4096x256, .f32⟩
  | 39 => ⟨S1x256, .f32⟩
  | 40 => ⟨S4096x256, .f32⟩
  | 41 => ⟨S4096x256, .f32⟩
  | 42 => ⟨S1x4096x256, .f32⟩
  | 43 => ⟨S4096x256, .f32⟩
  | 44 => ⟨S1x256x256, .f32⟩
  | 45 => ⟨S256x256, .f32⟩
  | 46 => ⟨S1x256, .f32⟩
  | 47 => ⟨S256, .f32⟩
  | 48 => ⟨S256x256, .f32⟩
  | 49 => ⟨S4096x256, .f32⟩
  | 50 => ⟨S1x256, .f32⟩
  | 51 => ⟨S4096x256, .f32⟩
  | 52 => ⟨S4096x256, .f32⟩
  | 53 => ⟨S4096x256, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S1x4096x256, .f32⟩
  | 73 => ⟨S4096x256, .f32⟩
  | 74 => ⟨S1x256x256, .f32⟩
  | 75 => ⟨S256x256, .f32⟩
  | 76 => ⟨S1x256, .f32⟩
  | 77 => ⟨S256, .f32⟩
  | 78 => ⟨S256x256, .f32⟩
  | 79 => ⟨S4096x256, .f32⟩
  | 80 => ⟨S1x256, .f32⟩
  | 81 => ⟨S4096x256, .f32⟩
  | 82 => ⟨S4096x256, .f32⟩
  | 83 => ⟨S4096x256, .f32⟩
  | 84 => ⟨S4096x256, .f32⟩
  | 85 => ⟨S4096x256, .f32⟩
  | 86 => ⟨S_, .f32⟩
  | 87 => ⟨S4096x256, .f32⟩
  | 88 => ⟨S4096x256, .f32⟩
  | 89 => ⟨S_, .f32⟩
  | 90 => ⟨S4096x256, .f32⟩
  | 91 => ⟨S4096x256, .f32⟩
  | 92 => ⟨S1x256x256, .f32⟩
  | 93 => ⟨S256x256, .f32⟩
  | 94 => ⟨S1x256, .f32⟩
  | 95 => ⟨S256, .f32⟩
  | 96 => ⟨S256x256, .f32⟩
  | 97 => ⟨S4096x256, .f32⟩
  | 98 => ⟨S1x256, .f32⟩
  | 99 => ⟨S4096x256, .f32⟩
  | 100 => ⟨S4096x256, .f32⟩
  | 101 => ⟨S1x4096x256, .f32⟩
  | 102 => ⟨S4096x256, .f32⟩
  | 103 => ⟨S1x256x256, .f32⟩
  | 104 => ⟨S256x256, .f32⟩
  | 105 => ⟨S1x256, .f32⟩
  | 106 => ⟨S256, .f32⟩
  | 107 => ⟨S256x256, .f32⟩
  | 108 => ⟨S4096x256, .f32⟩
  | 109 => ⟨S1x256, .f32⟩
  | 110 => ⟨S4096x256, .f32⟩
  | 111 => ⟨S4096x256, .f32⟩
  | 112 => ⟨S4096x256, .f32⟩
  | 113 => ⟨S4096x256, .f32⟩
  | 114 => ⟨S4096x256, .f32⟩
  | 115 => ⟨S_, .f32⟩
  | 116 => ⟨S4096x256, .f32⟩
  | 117 => ⟨S4096x256, .f32⟩
  | 118 => ⟨S_, .f32⟩
  | 119 => ⟨S4096x256, .f32⟩
  | 120 => ⟨S4096x256, .f32⟩
  | 121 => ⟨S1x3x256, .f32⟩
  | 122 => ⟨S3x256, .f32⟩
  | 123 => ⟨S1x3, .f32⟩
  | 124 => ⟨S3, .f32⟩
  | 125 => ⟨S256x3, .f32⟩
  | 126 => ⟨S4096x3, .f32⟩
  | 127 => ⟨S1x3, .f32⟩
  | _ => ⟨S4096x256, .f32⟩

abbrev hbmTy0_31 (i : Nat) : BufTy := match i % 128 with
  | 0 => ⟨S4096x3, .f32⟩
  | 1 => ⟨S4096x3, .f32⟩
  | 2 => ⟨S1x3x768, .f32⟩
  | 3 => ⟨S3x768, .f32⟩
  | 4 => ⟨S1x3, .f32⟩
  | 5 => ⟨S3, .f32⟩
  | 6 => ⟨S768x3, .f32⟩
  | 7 => ⟨S4096x3, .f32⟩
  | 8 => ⟨S1x3, .f32⟩
  | 9 => ⟨S4096x3, .f32⟩
  | 10 => ⟨S4096x3, .f32⟩
  | 11 => ⟨S4096x3, .f32⟩
  | 12 => ⟨S4096x3, .f32⟩
  | 13 => ⟨S4096x3, .f32⟩
  | 14 => ⟨S_, .f32⟩
  | 15 => ⟨S4096x3, .f32⟩
  | 16 => ⟨S4096x3, .f32⟩
  | 17 => ⟨S_, .f32⟩
  | 18 => ⟨S4096x3, .f32⟩
  | 19 => ⟨S4096x3, .f32⟩
  | 20 => ⟨S1x768x768, .f32⟩
  | 21 => ⟨S768x768, .f32⟩
  | 22 => ⟨S1x768, .f32⟩
  | 23 => ⟨S768, .f32⟩
  | 24 => ⟨S768x768, .f32⟩
  | 25 => ⟨S4096x768, .f32⟩
  | 26 => ⟨S1x768, .f32⟩
  | 27 => ⟨S4096x768, .f32⟩
  | 28 => ⟨S4096x768, .f32⟩
  | 29 => ⟨S4096x3x256, .f32⟩
  | 30 => ⟨S4096x3x1, .f32⟩
  | 31 => ⟨S4096x3x256, .f32⟩
  | 32 => ⟨S4096x3x256, .f32⟩
  | 33 => ⟨S_, .f32⟩
  | 34 => ⟨S4096x256, .f32⟩
  | 35 => ⟨S1x256x256, .f32⟩
  | 36 => ⟨S256x256, .f32⟩
  | 37 => ⟨S1x256, .f32⟩
  | 38 => ⟨S256, .f32⟩
  | 39 => ⟨S256x256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S4096x256, .f32⟩
  | 46 => ⟨S1x4096x256, .f32⟩
  | 47 => ⟨S4096x256, .f32⟩
  | 48 => ⟨S4096x256, .f32⟩
  | 49 => ⟨S4096x256, .f32⟩
  | 50 => ⟨S4096x256, .f32⟩
  | 51 => ⟨S1x256x256, .f32⟩
  | 52 => ⟨S256x256, .f32⟩
  | 53 => ⟨S1x256, .f32⟩
  | 54 => ⟨S256, .f32⟩
  | 55 => ⟨S256x256, .f32⟩
  | 56 => ⟨S4096x256, .f32⟩
  | 57 => ⟨S1x256, .f32⟩
  | 58 => ⟨S4096x256, .f32⟩
  | 59 => ⟨S4096x256, .f32⟩
  | 60 => ⟨S1x4096x256, .f32⟩
  | 61 => ⟨S4096x256, .f32⟩
  | 62 => ⟨S1x256x256, .f32⟩
  | 63 => ⟨S256x256, .f32⟩
  | 64 => ⟨S1x256, .f32⟩
  | 65 => ⟨S256, .f32⟩
  | 66 => ⟨S256x256, .f32⟩
  | 67 => ⟨S4096x256, .f32⟩
  | 68 => ⟨S1x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S_, .f32⟩
  | 75 => ⟨S4096x256, .f32⟩
  | 76 => ⟨S4096x256, .f32⟩
  | 77 => ⟨S_, .f32⟩
  | 78 => ⟨S4096x256, .f32⟩
  | 79 => ⟨S4096x256, .f32⟩
  | 80 => ⟨S4096x256, .f32⟩
  | 81 => ⟨S1x4096x256, .f32⟩
  | 82 => ⟨S1x4096x256, .f32⟩
  | 83 => ⟨S1x4096x256, .f32⟩
  | 84 => ⟨S3x4096x256, .f32⟩
  | 85 => ⟨S1x4096x256, .f32⟩
  | 86 => ⟨S1x4096x256, .f32⟩
  | 87 => ⟨S1x4096x256, .f32⟩
  | 88 => ⟨S3x4096x256, .f32⟩
  | 89 => ⟨S4096x3x256, .f32⟩
  | 90 => ⟨S4096x768, .f32⟩
  | 91 => ⟨S1x256x256, .f32⟩
  | 92 => ⟨S256x256, .f32⟩
  | 93 => ⟨S1x256, .f32⟩
  | 94 => ⟨S256, .f32⟩
  | 95 => ⟨S256x256, .f32⟩
  | 96 => ⟨S4096x256, .f32⟩
  | 97 => ⟨S1x256, .f32⟩
  | 98 => ⟨S4096x256, .f32⟩
  | 99 => ⟨S4096x256, .f32⟩
  | 100 => ⟨S1x4096x256, .f32⟩
  | 101 => ⟨S4096x256, .f32⟩
  | 102 => ⟨S1x256x256, .f32⟩
  | 103 => ⟨S256x256, .f32⟩
  | 104 => ⟨S1x256, .f32⟩
  | 105 => ⟨S256, .f32⟩
  | 106 => ⟨S256x256, .f32⟩
  | 107 => ⟨S4096x256, .f32⟩
  | 108 => ⟨S1x256, .f32⟩
  | 109 => ⟨S4096x256, .f32⟩
  | 110 => ⟨S4096x256, .f32⟩
  | 111 => ⟨S4096x256, .f32⟩
  | 112 => ⟨S4096x256, .f32⟩
  | 113 => ⟨S4096x256, .f32⟩
  | 114 => ⟨S_, .f32⟩
  | 115 => ⟨S4096x256, .f32⟩
  | 116 => ⟨S4096x256, .f32⟩
  | 117 => ⟨S_, .f32⟩
  | 118 => ⟨S4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_32 (i : Nat) : BufTy := match i % 128 with
  | 0 => ⟨S4096x256, .f32⟩
  | 1 => ⟨S1x4096x256, .f32⟩
  | 2 => ⟨S4096x256, .f32⟩
  | 3 => ⟨S1x256x256, .f32⟩
  | 4 => ⟨S256x256, .f32⟩
  | 5 => ⟨S1x256, .f32⟩
  | 6 => ⟨S256, .f32⟩
  | 7 => ⟨S256x256, .f32⟩
  | 8 => ⟨S4096x256, .f32⟩
  | 9 => ⟨S1x256, .f32⟩
  | 10 => ⟨S4096x256, .f32⟩
  | 11 => ⟨S4096x256, .f32⟩
  | 12 => ⟨S4096x256, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S_, .f32⟩
  | 19 => ⟨S4096x256, .f32⟩
  | 20 => ⟨S4096x256, .f32⟩
  | 21 => ⟨S1x3x256, .f32⟩
  | 22 => ⟨S3x256, .f32⟩
  | 23 => ⟨S1x3, .f32⟩
  | 24 => ⟨S3, .f32⟩
  | 25 => ⟨S256x3, .f32⟩
  | 26 => ⟨S4096x3, .f32⟩
  | 27 => ⟨S1x3, .f32⟩
  | 28 => ⟨S4096x3, .f32⟩
  | 29 => ⟨S4096x3, .f32⟩
  | 30 => ⟨S1x3x768, .f32⟩
  | 31 => ⟨S3x768, .f32⟩
  | 32 => ⟨S1x3, .f32⟩
  | 33 => ⟨S3, .f32⟩
  | 34 => ⟨S768x3, .f32⟩
  | 35 => ⟨S4096x3, .f32⟩
  | 36 => ⟨S1x3, .f32⟩
  | 37 => ⟨S4096x3, .f32⟩
  | 38 => ⟨S4096x3, .f32⟩
  | 39 => ⟨S4096x3, .f32⟩
  | 40 => ⟨S4096x3, .f32⟩
  | 41 => ⟨S4096x3, .f32⟩
  | 42 => ⟨S_, .f32⟩
  | 43 => ⟨S4096x3, .f32⟩
  | 44 => ⟨S4096x3, .f32⟩
  | 45 => ⟨S_, .f32⟩
  | 46 => ⟨S4096x3, .f32⟩
  | 47 => ⟨S4096x3, .f32⟩
  | 48 => ⟨S1x768x768, .f32⟩
  | 49 => ⟨S768x768, .f32⟩
  | 50 => ⟨S1x768, .f32⟩
  | 51 => ⟨S768, .f32⟩
  | 52 => ⟨S768x768, .f32⟩
  | 53 => ⟨S4096x768, .f32⟩
  | 54 => ⟨S1x768, .f32⟩
  | 55 => ⟨S4096x768, .f32⟩
  | 56 => ⟨S4096x768, .f32⟩
  | 57 => ⟨S4096x3x256, .f32⟩
  | 58 => ⟨S4096x3x1, .f32⟩
  | 59 => ⟨S4096x3x256, .f32⟩
  | 60 => ⟨S4096x3x256, .f32⟩
  | 61 => ⟨S_, .f32⟩
  | 62 => ⟨S4096x256, .f32⟩
  | 63 => ⟨S1x256x256, .f32⟩
  | 64 => ⟨S256x256, .f32⟩
  | 65 => ⟨S1x256, .f32⟩
  | 66 => ⟨S256, .f32⟩
  | 67 => ⟨S256x256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S4096x256, .f32⟩
  | 74 => ⟨S1x4096x256, .f32⟩
  | 75 => ⟨S4096x256, .f32⟩
  | 76 => ⟨S4096x256, .f32⟩
  | 77 => ⟨S4096x256, .f32⟩
  | 78 => ⟨S4096x256, .f32⟩
  | 79 => ⟨S1x256x256, .f32⟩
  | 80 => ⟨S256x256, .f32⟩
  | 81 => ⟨S1x256, .f32⟩
  | 82 => ⟨S256, .f32⟩
  | 83 => ⟨S256x256, .f32⟩
  | 84 => ⟨S4096x256, .f32⟩
  | 85 => ⟨S1x256, .f32⟩
  | 86 => ⟨S4096x256, .f32⟩
  | 87 => ⟨S4096x256, .f32⟩
  | 88 => ⟨S1x4096x256, .f32⟩
  | 89 => ⟨S4096x256, .f32⟩
  | 90 => ⟨S1x256x256, .f32⟩
  | 91 => ⟨S256x256, .f32⟩
  | 92 => ⟨S1x256, .f32⟩
  | 93 => ⟨S256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S4096x256, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S_, .f32⟩
  | 106 => ⟨S4096x256, .f32⟩
  | 107 => ⟨S4096x256, .f32⟩
  | 108 => ⟨S4096x256, .f32⟩
  | 109 => ⟨S1x256x256, .f32⟩
  | 110 => ⟨S256x256, .f32⟩
  | 111 => ⟨S1x256, .f32⟩
  | 112 => ⟨S256, .f32⟩
  | 113 => ⟨S256x256, .f32⟩
  | 114 => ⟨S4096x256, .f32⟩
  | 115 => ⟨S1x256, .f32⟩
  | 116 => ⟨S4096x256, .f32⟩
  | 117 => ⟨S4096x256, .f32⟩
  | 118 => ⟨S1x4096x256, .f32⟩
  | 119 => ⟨S4096x256, .f32⟩
  | 120 => ⟨S1x256x256, .f32⟩
  | 121 => ⟨S256x256, .f32⟩
  | 122 => ⟨S1x256, .f32⟩
  | 123 => ⟨S256, .f32⟩
  | 124 => ⟨S256x256, .f32⟩
  | 125 => ⟨S4096x256, .f32⟩
  | 126 => ⟨S1x256, .f32⟩
  | 127 => ⟨S4096x256, .f32⟩
  | _ => ⟨S4096x256, .f32⟩

abbrev hbmTy0_33 (i : Nat) : BufTy := match i % 128 with
  | 0 => ⟨S4096x256, .f32⟩
  | 1 => ⟨S4096x256, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S_, .f32⟩
  | 8 => ⟨S4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S1x4096x256, .f32⟩
  | 20 => ⟨S4096x256, .f32⟩
  | 21 => ⟨S1x256x256, .f32⟩
  | 22 => ⟨S256x256, .f32⟩
  | 23 => ⟨S1x256, .f32⟩
  | 24 => ⟨S256, .f32⟩
  | 25 => ⟨S256x256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S_, .f32⟩
  | 34 => ⟨S4096x256, .f32⟩
  | 35 => ⟨S4096x256, .f32⟩
  | 36 => ⟨S_, .f32⟩
  | 37 => ⟨S4096x256, .f32⟩
  | 38 => ⟨S4096x256, .f32⟩
  | 39 => ⟨S1x3x256, .f32⟩
  | 40 => ⟨S3x256, .f32⟩
  | 41 => ⟨S1x3, .f32⟩
  | 42 => ⟨S3, .f32⟩
  | 43 => ⟨S256x3, .f32⟩
  | 44 => ⟨S4096x3, .f32⟩
  | 45 => ⟨S1x3, .f32⟩
  | 46 => ⟨S4096x3, .f32⟩
  | 47 => ⟨S4096x3, .f32⟩
  | 48 => ⟨S1x3x768, .f32⟩
  | 49 => ⟨S3x768, .f32⟩
  | 50 => ⟨S1x3, .f32⟩
  | 51 => ⟨S3, .f32⟩
  | 52 => ⟨S768x3, .f32⟩
  | 53 => ⟨S4096x3, .f32⟩
  | 54 => ⟨S1x3, .f32⟩
  | 55 => ⟨S4096x3, .f32⟩
  | 56 => ⟨S4096x3, .f32⟩
  | 57 => ⟨S4096x3, .f32⟩
  | 58 => ⟨S4096x3, .f32⟩
  | 59 => ⟨S4096x3, .f32⟩
  | 60 => ⟨S_, .f32⟩
  | 61 => ⟨S4096x3, .f32⟩
  | 62 => ⟨S4096x3, .f32⟩
  | 63 => ⟨S_, .f32⟩
  | 64 => ⟨S4096x3, .f32⟩
  | 65 => ⟨S4096x3, .f32⟩
  | 66 => ⟨S1x768x768, .f32⟩
  | 67 => ⟨S768x768, .f32⟩
  | 68 => ⟨S1x768, .f32⟩
  | 69 => ⟨S768, .f32⟩
  | 70 => ⟨S768x768, .f32⟩
  | 71 => ⟨S4096x768, .f32⟩
  | 72 => ⟨S1x768, .f32⟩
  | 73 => ⟨S4096x768, .f32⟩
  | 74 => ⟨S4096x768, .f32⟩
  | 75 => ⟨S4096x3x256, .f32⟩
  | 76 => ⟨S4096x3x1, .f32⟩
  | 77 => ⟨S4096x3x256, .f32⟩
  | 78 => ⟨S4096x3x256, .f32⟩
  | 79 => ⟨S_, .f32⟩
  | 80 => ⟨S4096x256, .f32⟩
  | 81 => ⟨S1x256x256, .f32⟩
  | 82 => ⟨S256x256, .f32⟩
  | 83 => ⟨S1x256, .f32⟩
  | 84 => ⟨S256, .f32⟩
  | 85 => ⟨S256x256, .f32⟩
  | 86 => ⟨S4096x256, .f32⟩
  | 87 => ⟨S1x256, .f32⟩
  | 88 => ⟨S4096x256, .f32⟩
  | 89 => ⟨S4096x256, .f32⟩
  | 90 => ⟨S4096x256, .f32⟩
  | 91 => ⟨S4096x256, .f32⟩
  | 92 => ⟨S1x4096x256, .f32⟩
  | 93 => ⟨S4096x256, .f32⟩
  | 94 => ⟨S4096x256, .f32⟩
  | 95 => ⟨S4096x256, .f32⟩
  | 96 => ⟨S4096x256, .f32⟩
  | 97 => ⟨S1x256x256, .f32⟩
  | 98 => ⟨S256x256, .f32⟩
  | 99 => ⟨S1x256, .f32⟩
  | 100 => ⟨S256, .f32⟩
  | 101 => ⟨S256x256, .f32⟩
  | 102 => ⟨S4096x256, .f32⟩
  | 103 => ⟨S1x256, .f32⟩
  | 104 => ⟨S4096x256, .f32⟩
  | 105 => ⟨S4096x256, .f32⟩
  | 106 => ⟨S1x4096x256, .f32⟩
  | 107 => ⟨S4096x256, .f32⟩
  | 108 => ⟨S1x256x256, .f32⟩
  | 109 => ⟨S256x256, .f32⟩
  | 110 => ⟨S1x256, .f32⟩
  | 111 => ⟨S256, .f32⟩
  | 112 => ⟨S256x256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S_, .f32⟩
  | 124 => ⟨S4096x256, .f32⟩
  | 125 => ⟨S4096x256, .f32⟩
  | 126 => ⟨S4096x256, .f32⟩
  | 127 => ⟨S1x256x256, .f32⟩
  | _ => ⟨S4096x256, .f32⟩

abbrev hbmTy0_34 (i : Nat) : BufTy := match i % 128 with
  | 0 => ⟨S256x256, .f32⟩
  | 1 => ⟨S1x256, .f32⟩
  | 2 => ⟨S256, .f32⟩
  | 3 => ⟨S256x256, .f32⟩
  | 4 => ⟨S4096x256, .f32⟩
  | 5 => ⟨S1x256, .f32⟩
  | 6 => ⟨S4096x256, .f32⟩
  | 7 => ⟨S4096x256, .f32⟩
  | 8 => ⟨S1x4096x256, .f32⟩
  | 9 => ⟨S4096x256, .f32⟩
  | 10 => ⟨S1x256x256, .f32⟩
  | 11 => ⟨S256x256, .f32⟩
  | 12 => ⟨S1x256, .f32⟩
  | 13 => ⟨S256, .f32⟩
  | 14 => ⟨S256x256, .f32⟩
  | 15 => ⟨S4096x256, .f32⟩
  | 16 => ⟨S1x256, .f32⟩
  | 17 => ⟨S4096x256, .f32⟩
  | 18 => ⟨S4096x256, .f32⟩
  | 19 => ⟨S4096x256, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S_, .f32⟩
  | 26 => ⟨S4096x256, .f32⟩
  | 27 => ⟨S4096x256, .f32⟩
  | 28 => ⟨S1x256x256, .f32⟩
  | 29 => ⟨S256x256, .f32⟩
  | 30 => ⟨S1x256, .f32⟩
  | 31 => ⟨S256, .f32⟩
  | 32 => ⟨S256x256, .f32⟩
  | 33 => ⟨S4096x256, .f32⟩
  | 34 => ⟨S1x256, .f32⟩
  | 35 => ⟨S4096x256, .f32⟩
  | 36 => ⟨S4096x256, .f32⟩
  | 37 => ⟨S1x4096x256, .f32⟩
  | 38 => ⟨S4096x256, .f32⟩
  | 39 => ⟨S1x256x256, .f32⟩
  | 40 => ⟨S256x256, .f32⟩
  | 41 => ⟨S1x256, .f32⟩
  | 42 => ⟨S256, .f32⟩
  | 43 => ⟨S256x256, .f32⟩
  | 44 => ⟨S4096x256, .f32⟩
  | 45 => ⟨S1x256, .f32⟩
  | 46 => ⟨S4096x256, .f32⟩
  | 47 => ⟨S4096x256, .f32⟩
  | 48 => ⟨S4096x256, .f32⟩
  | 49 => ⟨S4096x256, .f32⟩
  | 50 => ⟨S4096x256, .f32⟩
  | 51 => ⟨S_, .f32⟩
  | 52 => ⟨S4096x256, .f32⟩
  | 53 => ⟨S4096x256, .f32⟩
  | 54 => ⟨S_, .f32⟩
  | 55 => ⟨S4096x256, .f32⟩
  | 56 => ⟨S4096x256, .f32⟩
  | 57 => ⟨S1x3x256, .f32⟩
  | 58 => ⟨S3x256, .f32⟩
  | 59 => ⟨S1x3, .f32⟩
  | 60 => ⟨S3, .f32⟩
  | 61 => ⟨S256x3, .f32⟩
  | 62 => ⟨S4096x3, .f32⟩
  | 63 => ⟨S1x3, .f32⟩
  | 64 => ⟨S4096x3, .f32⟩
  | 65 => ⟨S4096x3, .f32⟩
  | 66 => ⟨S1x3x768, .f32⟩
  | 67 => ⟨S3x768, .f32⟩
  | 68 => ⟨S1x3, .f32⟩
  | 69 => ⟨S3, .f32⟩
  | 70 => ⟨S768x3, .f32⟩
  | 71 => ⟨S4096x3, .f32⟩
  | 72 => ⟨S1x3, .f32⟩
  | 73 => ⟨S4096x3, .f32⟩
  | 74 => ⟨S4096x3, .f32⟩
  | 75 => ⟨S4096x3, .f32⟩
  | 76 => ⟨S4096x3, .f32⟩
  | 77 => ⟨S4096x3, .f32⟩
  | 78 => ⟨S_, .f32⟩
  | 79 => ⟨S4096x3, .f32⟩
  | 80 => ⟨S4096x3, .f32⟩
  | 81 => ⟨S_, .f32⟩
  | 82 => ⟨S4096x3, .f32⟩
  | 83 => ⟨S4096x3, .f32⟩
  | 84 => ⟨S1x768x768, .f32⟩
  | 85 => ⟨S768x768, .f32⟩
  | 86 => ⟨S1x768, .f32⟩
  | 87 => ⟨S768, .f32⟩
  | 88 => ⟨S768x768, .f32⟩
  | 89 => ⟨S4096x768, .f32⟩
  | 90 => ⟨S1x768, .f32⟩
  | 91 => ⟨S4096x768, .f32⟩
  | 92 => ⟨S4096x768, .f32⟩
  | 93 => ⟨S4096x3x256, .f32⟩
  | 94 => ⟨S4096x3x1, .f32⟩
  | 95 => ⟨S4096x3x256, .f32⟩
  | 96 => ⟨S4096x3x256, .f32⟩
  | 97 => ⟨S_, .f32⟩
  | 98 => ⟨S4096x256, .f32⟩
  | 99 => ⟨S1x256x256, .f32⟩
  | 100 => ⟨S256x256, .f32⟩
  | 101 => ⟨S1x256, .f32⟩
  | 102 => ⟨S256, .f32⟩
  | 103 => ⟨S256x256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S4096x256, .f32⟩
  | 110 => ⟨S1x4096x256, .f32⟩
  | 111 => ⟨S4096x256, .f32⟩
  | 112 => ⟨S4096x256, .f32⟩
  | 113 => ⟨S4096x256, .f32⟩
  | 114 => ⟨S4096x256, .f32⟩
  | 115 => ⟨S1x256x256, .f32⟩
  | 116 => ⟨S256x256, .f32⟩
  | 117 => ⟨S1x256, .f32⟩
  | 118 => ⟨S256, .f32⟩
  | 119 => ⟨S256x256, .f32⟩
  | 120 => ⟨S4096x256, .f32⟩
  | 121 => ⟨S1x256, .f32⟩
  | 122 => ⟨S4096x256, .f32⟩
  | 123 => ⟨S4096x256, .f32⟩
  | 124 => ⟨S1x4096x256, .f32⟩
  | 125 => ⟨S4096x256, .f32⟩
  | 126 => ⟨S1x256x256, .f32⟩
  | 127 => ⟨S256x256, .f32⟩
  | _ => ⟨S4096x256, .f32⟩

abbrev hbmTy0_35 (i : Nat) : BufTy := match i % 128 with
  | 0 => ⟨S1x256, .f32⟩
  | 1 => ⟨S256, .f32⟩
  | 2 => ⟨S256x256, .f32⟩
  | 3 => ⟨S4096x256, .f32⟩
  | 4 => ⟨S1x256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S1x4096x256, .f32⟩
  | 18 => ⟨S1x4096x256, .f32⟩
  | 19 => ⟨S1x4096x256, .f32⟩
  | 20 => ⟨S3x4096x256, .f32⟩
  | 21 => ⟨S1x4096x256, .f32⟩
  | 22 => ⟨S1x4096x256, .f32⟩
  | 23 => ⟨S1x4096x256, .f32⟩
  | 24 => ⟨S3x4096x256, .f32⟩
  | 25 => ⟨S4096x2304, .f32⟩
  | 26 => ⟨S2304x44, .f32⟩
  | 27 => ⟨S4096x44, .f32⟩
  | 28 => ⟨S1x44, .f32⟩
  | 29 => ⟨S4096x44, .f32⟩
  | 30 => ⟨S4096x44, .f32⟩
  | 31 => ⟨S4096x44, .f32⟩
  | 32 => ⟨S4096x44, .f32⟩
  | 33 => ⟨S_, .f32⟩
  | 34 => ⟨S4096x44, .f32⟩
  | 35 => ⟨S4096x44, .f32⟩
  | 36 => ⟨S_, .f32⟩
  | 37 => ⟨S4096x44, .f32⟩
  | 38 => ⟨S4096x44, .f32⟩
  | _ => ⟨S4096x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | 35 => hbmTy0_35 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst : Ref sig .tc := ⟨.hbm, 50, rfl⟩
abbrev main_v25 : Ref sig .tc := ⟨.hbm, 51, rfl⟩
abbrev main_v26 : Ref sig .tc := ⟨.hbm, 52, rfl⟩
abbrev main_cst_0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_1 : Ref sig .tc := ⟨.hbm, 79, rfl⟩
abbrev main_v52 : Ref sig .tc := ⟨.hbm, 80, rfl⟩
abbrev main_v53 : Ref sig .tc := ⟨.hbm, 81, rfl⟩
abbrev main_cst_2 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_3 : Ref sig .tc := ⟨.hbm, 106, rfl⟩
abbrev main_v77 : Ref sig .tc := ⟨.hbm, 107, rfl⟩
abbrev main_v78 : Ref sig .tc := ⟨.hbm, 108, rfl⟩
abbrev main_cst_4 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_5 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_6 : Ref sig .tc := ⟨.hbm, 166, rfl⟩
abbrev main_v134 : Ref sig .tc := ⟨.hbm, 167, rfl⟩
abbrev main_v135 : Ref sig .tc := ⟨.hbm, 168, rfl⟩
abbrev main_cst_7 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_cst_8 : Ref sig .tc := ⟨.hbm, 196, rfl⟩
abbrev main_v162 : Ref sig .tc := ⟨.hbm, 197, rfl⟩
abbrev main_v163 : Ref sig .tc := ⟨.hbm, 198, rfl⟩
abbrev main_cst_9 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_cst_10 : Ref sig .tc := ⟨.hbm, 225, rfl⟩
abbrev main_v189 : Ref sig .tc := ⟨.hbm, 226, rfl⟩
abbrev main_v190 : Ref sig .tc := ⟨.hbm, 227, rfl⟩
abbrev main_cst_11 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_cst_12 : Ref sig .tc := ⟨.hbm, 252, rfl⟩
abbrev main_v214 : Ref sig .tc := ⟨.hbm, 253, rfl⟩
abbrev main_v215 : Ref sig .tc := ⟨.hbm, 254, rfl⟩
abbrev main_cst_13 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_cst_14 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_cst_15 : Ref sig .tc := ⟨.hbm, 312, rfl⟩
abbrev main_v271 : Ref sig .tc := ⟨.hbm, 313, rfl⟩
abbrev main_v272 : Ref sig .tc := ⟨.hbm, 314, rfl⟩
abbrev main_cst_16 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_v282 : Ref sig .tc := ⟨.hbm, 325, rfl⟩
abbrev main_v283 : Ref sig .tc := ⟨.hbm, 326, rfl⟩
abbrev main_v284 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_v290 : Ref sig .tc := ⟨.hbm, 333, rfl⟩
abbrev main_v291 : Ref sig .tc := ⟨.hbm, 334, rfl⟩
abbrev main_v292 : Ref sig .tc := ⟨.hbm, 335, rfl⟩
abbrev main_v293 : Ref sig .tc := ⟨.hbm, 336, rfl⟩
abbrev main_v294 : Ref sig .tc := ⟨.hbm, 337, rfl⟩
abbrev main_v295 : Ref sig .tc := ⟨.hbm, 338, rfl⟩
abbrev main_v296 : Ref sig .tc := ⟨.hbm, 339, rfl⟩
abbrev main_v297 : Ref sig .tc := ⟨.hbm, 340, rfl⟩
abbrev main_v298 : Ref sig .tc := ⟨.hbm, 341, rfl⟩
abbrev main_cst_17 : Ref sig .tc := ⟨.hbm, 342, rfl⟩
abbrev main_v299 : Ref sig .tc := ⟨.hbm, 343, rfl⟩
abbrev main_v300 : Ref sig .tc := ⟨.hbm, 344, rfl⟩
abbrev main_cst_18 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_v318 : Ref sig .tc := ⟨.hbm, 363, rfl⟩
abbrev main_v319 : Ref sig .tc := ⟨.hbm, 364, rfl⟩
abbrev main_v320 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_v324 : Ref sig .tc := ⟨.hbm, 369, rfl⟩
abbrev main_v325 : Ref sig .tc := ⟨.hbm, 370, rfl⟩
abbrev main_cst_19 : Ref sig .tc := ⟨.hbm, 371, rfl⟩
abbrev main_v326 : Ref sig .tc := ⟨.hbm, 372, rfl⟩
abbrev main_v327 : Ref sig .tc := ⟨.hbm, 373, rfl⟩
abbrev main_cst_20 : Ref sig .tc := ⟨.hbm, 374, rfl⟩
abbrev main_v328 : Ref sig .tc := ⟨.hbm, 375, rfl⟩
abbrev main_v329 : Ref sig .tc := ⟨.hbm, 376, rfl⟩
abbrev main_v330 : Ref sig .tc := ⟨.hbm, 377, rfl⟩
abbrev main_v331 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩
abbrev main_v344 : Ref sig .tc := ⟨.hbm, 391, rfl⟩
abbrev main_v345 : Ref sig .tc := ⟨.hbm, 392, rfl⟩
abbrev main_v346 : Ref sig .tc := ⟨.hbm, 393, rfl⟩
abbrev main_v347 : Ref sig .tc := ⟨.hbm, 394, rfl⟩
abbrev main_v348 : Ref sig .tc := ⟨.hbm, 395, rfl⟩
abbrev main_v349 : Ref sig .tc := ⟨.hbm, 396, rfl⟩
abbrev main_v350 : Ref sig .tc := ⟨.hbm, 397, rfl⟩
abbrev main_cst_21 : Ref sig .tc := ⟨.hbm, 398, rfl⟩
abbrev main_v351 : Ref sig .tc := ⟨.hbm, 399, rfl⟩
abbrev main_v352 : Ref sig .tc := ⟨.hbm, 400, rfl⟩
abbrev main_cst_22 : Ref sig .tc := ⟨.hbm, 401, rfl⟩
abbrev main_v353 : Ref sig .tc := ⟨.hbm, 402, rfl⟩
abbrev main_v354 : Ref sig .tc := ⟨.hbm, 403, rfl⟩
abbrev main_v355 : Ref sig .tc := ⟨.hbm, 404, rfl⟩
abbrev main_v356 : Ref sig .tc := ⟨.hbm, 405, rfl⟩
abbrev main_v357 : Ref sig .tc := ⟨.hbm, 406, rfl⟩
abbrev main_v358 : Ref sig .tc := ⟨.hbm, 407, rfl⟩
abbrev main_v359 : Ref sig .tc := ⟨.hbm, 408, rfl⟩
abbrev main_v360 : Ref sig .tc := ⟨.hbm, 409, rfl⟩
abbrev main_v361 : Ref sig .tc := ⟨.hbm, 410, rfl⟩
abbrev main_v362 : Ref sig .tc := ⟨.hbm, 411, rfl⟩
abbrev main_v363 : Ref sig .tc := ⟨.hbm, 412, rfl⟩
abbrev main_v364 : Ref sig .tc := ⟨.hbm, 413, rfl⟩
abbrev main_v365 : Ref sig .tc := ⟨.hbm, 414, rfl⟩
abbrev main_v366 : Ref sig .tc := ⟨.hbm, 415, rfl⟩
abbrev main_v367 : Ref sig .tc := ⟨.hbm, 416, rfl⟩
abbrev main_cst_23 : Ref sig .tc := ⟨.hbm, 417, rfl⟩
abbrev main_v368 : Ref sig .tc := ⟨.hbm, 418, rfl⟩
abbrev main_v369 : Ref sig .tc := ⟨.hbm, 419, rfl⟩
abbrev main_v370 : Ref sig .tc := ⟨.hbm, 420, rfl⟩
abbrev main_v371 : Ref sig .tc := ⟨.hbm, 421, rfl⟩
abbrev main_v372 : Ref sig .tc := ⟨.hbm, 422, rfl⟩
abbrev main_v373 : Ref sig .tc := ⟨.hbm, 423, rfl⟩
abbrev main_v374 : Ref sig .tc := ⟨.hbm, 424, rfl⟩
abbrev main_v375 : Ref sig .tc := ⟨.hbm, 425, rfl⟩
abbrev main_v376 : Ref sig .tc := ⟨.hbm, 426, rfl⟩
abbrev main_v377 : Ref sig .tc := ⟨.hbm, 427, rfl⟩
abbrev main_v378 : Ref sig .tc := ⟨.hbm, 428, rfl⟩
abbrev main_v379 : Ref sig .tc := ⟨.hbm, 429, rfl⟩
abbrev main_v380 : Ref sig .tc := ⟨.hbm, 430, rfl⟩
abbrev main_v381 : Ref sig .tc := ⟨.hbm, 431, rfl⟩
abbrev main_v382 : Ref sig .tc := ⟨.hbm, 432, rfl⟩
abbrev main_v383 : Ref sig .tc := ⟨.hbm, 433, rfl⟩
abbrev main_v384 : Ref sig .tc := ⟨.hbm, 434, rfl⟩
abbrev main_v385 : Ref sig .tc := ⟨.hbm, 435, rfl⟩
abbrev main_v386 : Ref sig .tc := ⟨.hbm, 436, rfl⟩
abbrev main_v387 : Ref sig .tc := ⟨.hbm, 437, rfl⟩
abbrev main_v388 : Ref sig .tc := ⟨.hbm, 438, rfl⟩
abbrev main_v389 : Ref sig .tc := ⟨.hbm, 439, rfl⟩
abbrev main_v390 : Ref sig .tc := ⟨.hbm, 440, rfl⟩
abbrev main_v391 : Ref sig .tc := ⟨.hbm, 441, rfl⟩
abbrev main_v392 : Ref sig .tc := ⟨.hbm, 442, rfl⟩
abbrev main_v393 : Ref sig .tc := ⟨.hbm, 443, rfl⟩
abbrev main_v394 : Ref sig .tc := ⟨.hbm, 444, rfl⟩
abbrev main_v395 : Ref sig .tc := ⟨.hbm, 445, rfl⟩
abbrev main_v396 : Ref sig .tc := ⟨.hbm, 446, rfl⟩
abbrev main_v397 : Ref sig .tc := ⟨.hbm, 447, rfl⟩
abbrev main_v398 : Ref sig .tc := ⟨.hbm, 448, rfl⟩
abbrev main_v399 : Ref sig .tc := ⟨.hbm, 449, rfl⟩
abbrev main_v400 : Ref sig .tc := ⟨.hbm, 450, rfl⟩
abbrev main_v401 : Ref sig .tc := ⟨.hbm, 451, rfl⟩
abbrev main_v402 : Ref sig .tc := ⟨.hbm, 452, rfl⟩
abbrev main_v403 : Ref sig .tc := ⟨.hbm, 453, rfl⟩
abbrev main_v404 : Ref sig .tc := ⟨.hbm, 454, rfl⟩
abbrev main_v405 : Ref sig .tc := ⟨.hbm, 455, rfl⟩
abbrev main_v406 : Ref sig .tc := ⟨.hbm, 456, rfl⟩
abbrev main_v407 : Ref sig .tc := ⟨.hbm, 457, rfl⟩
abbrev main_cst_24 : Ref sig .tc := ⟨.hbm, 458, rfl⟩
abbrev main_v408 : Ref sig .tc := ⟨.hbm, 459, rfl⟩
abbrev main_v409 : Ref sig .tc := ⟨.hbm, 460, rfl⟩
abbrev main_cst_25 : Ref sig .tc := ⟨.hbm, 461, rfl⟩
abbrev main_v410 : Ref sig .tc := ⟨.hbm, 462, rfl⟩
abbrev main_v411 : Ref sig .tc := ⟨.hbm, 463, rfl⟩
abbrev main_v412 : Ref sig .tc := ⟨.hbm, 464, rfl⟩
abbrev main_v413 : Ref sig .tc := ⟨.hbm, 465, rfl⟩
abbrev main_v414 : Ref sig .tc := ⟨.hbm, 466, rfl⟩
abbrev main_v415 : Ref sig .tc := ⟨.hbm, 467, rfl⟩
abbrev main_v416 : Ref sig .tc := ⟨.hbm, 468, rfl⟩
abbrev main_v417 : Ref sig .tc := ⟨.hbm, 469, rfl⟩
abbrev main_v418 : Ref sig .tc := ⟨.hbm, 470, rfl⟩
abbrev main_v419 : Ref sig .tc := ⟨.hbm, 471, rfl⟩
abbrev main_v420 : Ref sig .tc := ⟨.hbm, 472, rfl⟩
abbrev main_v421 : Ref sig .tc := ⟨.hbm, 473, rfl⟩
abbrev main_v422 : Ref sig .tc := ⟨.hbm, 474, rfl⟩
abbrev main_v423 : Ref sig .tc := ⟨.hbm, 475, rfl⟩
abbrev main_v424 : Ref sig .tc := ⟨.hbm, 476, rfl⟩
abbrev main_v425 : Ref sig .tc := ⟨.hbm, 477, rfl⟩
abbrev main_v426 : Ref sig .tc := ⟨.hbm, 478, rfl⟩
abbrev main_v427 : Ref sig .tc := ⟨.hbm, 479, rfl⟩
abbrev main_v428 : Ref sig .tc := ⟨.hbm, 480, rfl⟩
abbrev main_v429 : Ref sig .tc := ⟨.hbm, 481, rfl⟩
abbrev main_v430 : Ref sig .tc := ⟨.hbm, 482, rfl⟩
abbrev main_v431 : Ref sig .tc := ⟨.hbm, 483, rfl⟩
abbrev main_v432 : Ref sig .tc := ⟨.hbm, 484, rfl⟩
abbrev main_v433 : Ref sig .tc := ⟨.hbm, 485, rfl⟩
abbrev main_v434 : Ref sig .tc := ⟨.hbm, 486, rfl⟩
abbrev main_v435 : Ref sig .tc := ⟨.hbm, 487, rfl⟩
abbrev main_v436 : Ref sig .tc := ⟨.hbm, 488, rfl⟩
abbrev main_v437 : Ref sig .tc := ⟨.hbm, 489, rfl⟩
abbrev main_v438 : Ref sig .tc := ⟨.hbm, 490, rfl⟩
abbrev main_v439 : Ref sig .tc := ⟨.hbm, 491, rfl⟩
abbrev main_v440 : Ref sig .tc := ⟨.hbm, 492, rfl⟩
abbrev main_v441 : Ref sig .tc := ⟨.hbm, 493, rfl⟩
abbrev main_v442 : Ref sig .tc := ⟨.hbm, 494, rfl⟩
abbrev main_v443 : Ref sig .tc := ⟨.hbm, 495, rfl⟩
abbrev main_v444 : Ref sig .tc := ⟨.hbm, 496, rfl⟩
abbrev main_v445 : Ref sig .tc := ⟨.hbm, 497, rfl⟩
abbrev main_cst_26 : Ref sig .tc := ⟨.hbm, 498, rfl⟩
abbrev main_v446 : Ref sig .tc := ⟨.hbm, 499, rfl⟩
abbrev main_v447 : Ref sig .tc := ⟨.hbm, 500, rfl⟩
abbrev main_cst_27 : Ref sig .tc := ⟨.hbm, 501, rfl⟩
abbrev main_v448 : Ref sig .tc := ⟨.hbm, 502, rfl⟩
abbrev main_v449 : Ref sig .tc := ⟨.hbm, 503, rfl⟩
abbrev main_v450 : Ref sig .tc := ⟨.hbm, 504, rfl⟩
abbrev main_v451 : Ref sig .tc := ⟨.hbm, 505, rfl⟩
abbrev main_v452 : Ref sig .tc := ⟨.hbm, 506, rfl⟩
abbrev main_v453 : Ref sig .tc := ⟨.hbm, 507, rfl⟩
abbrev main_v454 : Ref sig .tc := ⟨.hbm, 508, rfl⟩
abbrev main_v455 : Ref sig .tc := ⟨.hbm, 509, rfl⟩
abbrev main_v456 : Ref sig .tc := ⟨.hbm, 510, rfl⟩
abbrev main_v457 : Ref sig .tc := ⟨.hbm, 511, rfl⟩
abbrev main_v458 : Ref sig .tc := ⟨.hbm, 512, rfl⟩
abbrev main_v459 : Ref sig .tc := ⟨.hbm, 513, rfl⟩
abbrev main_v460 : Ref sig .tc := ⟨.hbm, 514, rfl⟩
abbrev main_v461 : Ref sig .tc := ⟨.hbm, 515, rfl⟩
abbrev main_v462 : Ref sig .tc := ⟨.hbm, 516, rfl⟩
abbrev main_v463 : Ref sig .tc := ⟨.hbm, 517, rfl⟩
abbrev main_v464 : Ref sig .tc := ⟨.hbm, 518, rfl⟩
abbrev main_v465 : Ref sig .tc := ⟨.hbm, 519, rfl⟩
abbrev main_v466 : Ref sig .tc := ⟨.hbm, 520, rfl⟩
abbrev main_v467 : Ref sig .tc := ⟨.hbm, 521, rfl⟩
abbrev main_v468 : Ref sig .tc := ⟨.hbm, 522, rfl⟩
abbrev main_v469 : Ref sig .tc := ⟨.hbm, 523, rfl⟩
abbrev main_v470 : Ref sig .tc := ⟨.hbm, 524, rfl⟩
abbrev main_v471 : Ref sig .tc := ⟨.hbm, 525, rfl⟩
abbrev main_v472 : Ref sig .tc := ⟨.hbm, 526, rfl⟩
abbrev main_cst_28 : Ref sig .tc := ⟨.hbm, 527, rfl⟩
abbrev main_v473 : Ref sig .tc := ⟨.hbm, 528, rfl⟩
abbrev main_v474 : Ref sig .tc := ⟨.hbm, 529, rfl⟩
abbrev main_cst_29 : Ref sig .tc := ⟨.hbm, 530, rfl⟩
abbrev main_v475 : Ref sig .tc := ⟨.hbm, 531, rfl⟩
abbrev main_v476 : Ref sig .tc := ⟨.hbm, 532, rfl⟩
abbrev main_v477 : Ref sig .tc := ⟨.hbm, 533, rfl⟩
abbrev main_v478 : Ref sig .tc := ⟨.hbm, 534, rfl⟩
abbrev main_v479 : Ref sig .tc := ⟨.hbm, 535, rfl⟩
abbrev main_v480 : Ref sig .tc := ⟨.hbm, 536, rfl⟩
abbrev main_v481 : Ref sig .tc := ⟨.hbm, 537, rfl⟩
abbrev main_v482 : Ref sig .tc := ⟨.hbm, 538, rfl⟩
abbrev main_v483 : Ref sig .tc := ⟨.hbm, 539, rfl⟩
abbrev main_v484 : Ref sig .tc := ⟨.hbm, 540, rfl⟩
abbrev main_v485 : Ref sig .tc := ⟨.hbm, 541, rfl⟩
abbrev main_v486 : Ref sig .tc := ⟨.hbm, 542, rfl⟩
abbrev main_v487 : Ref sig .tc := ⟨.hbm, 543, rfl⟩
abbrev main_v488 : Ref sig .tc := ⟨.hbm, 544, rfl⟩
abbrev main_v489 : Ref sig .tc := ⟨.hbm, 545, rfl⟩
abbrev main_v490 : Ref sig .tc := ⟨.hbm, 546, rfl⟩
abbrev main_v491 : Ref sig .tc := ⟨.hbm, 547, rfl⟩
abbrev main_v492 : Ref sig .tc := ⟨.hbm, 548, rfl⟩
abbrev main_v493 : Ref sig .tc := ⟨.hbm, 549, rfl⟩
abbrev main_v494 : Ref sig .tc := ⟨.hbm, 550, rfl⟩
abbrev main_v495 : Ref sig .tc := ⟨.hbm, 551, rfl⟩
abbrev main_v496 : Ref sig .tc := ⟨.hbm, 552, rfl⟩
abbrev main_v497 : Ref sig .tc := ⟨.hbm, 553, rfl⟩
abbrev main_cst_30 : Ref sig .tc := ⟨.hbm, 554, rfl⟩
abbrev main_v498 : Ref sig .tc := ⟨.hbm, 555, rfl⟩
abbrev main_v499 : Ref sig .tc := ⟨.hbm, 556, rfl⟩
abbrev main_cst_31 : Ref sig .tc := ⟨.hbm, 557, rfl⟩
abbrev main_v500 : Ref sig .tc := ⟨.hbm, 558, rfl⟩
abbrev main_v501 : Ref sig .tc := ⟨.hbm, 559, rfl⟩
abbrev main_v502 : Ref sig .tc := ⟨.hbm, 560, rfl⟩
abbrev main_v503 : Ref sig .tc := ⟨.hbm, 561, rfl⟩
abbrev main_v504 : Ref sig .tc := ⟨.hbm, 562, rfl⟩
abbrev main_v505 : Ref sig .tc := ⟨.hbm, 563, rfl⟩
abbrev main_v506 : Ref sig .tc := ⟨.hbm, 564, rfl⟩
abbrev main_v507 : Ref sig .tc := ⟨.hbm, 565, rfl⟩
abbrev main_v508 : Ref sig .tc := ⟨.hbm, 566, rfl⟩
abbrev main_v509 : Ref sig .tc := ⟨.hbm, 567, rfl⟩
abbrev main_v510 : Ref sig .tc := ⟨.hbm, 568, rfl⟩
abbrev main_v511 : Ref sig .tc := ⟨.hbm, 569, rfl⟩
abbrev main_v512 : Ref sig .tc := ⟨.hbm, 570, rfl⟩
abbrev main_v513 : Ref sig .tc := ⟨.hbm, 571, rfl⟩
abbrev main_v514 : Ref sig .tc := ⟨.hbm, 572, rfl⟩
abbrev main_cst_32 : Ref sig .tc := ⟨.hbm, 573, rfl⟩
abbrev main_v515 : Ref sig .tc := ⟨.hbm, 574, rfl⟩
abbrev main_v516 : Ref sig .tc := ⟨.hbm, 575, rfl⟩
abbrev main_v517 : Ref sig .tc := ⟨.hbm, 576, rfl⟩
abbrev main_v518 : Ref sig .tc := ⟨.hbm, 577, rfl⟩
abbrev main_v519 : Ref sig .tc := ⟨.hbm, 578, rfl⟩
abbrev main_v520 : Ref sig .tc := ⟨.hbm, 579, rfl⟩
abbrev main_v521 : Ref sig .tc := ⟨.hbm, 580, rfl⟩
abbrev main_v522 : Ref sig .tc := ⟨.hbm, 581, rfl⟩
abbrev main_v523 : Ref sig .tc := ⟨.hbm, 582, rfl⟩
abbrev main_v524 : Ref sig .tc := ⟨.hbm, 583, rfl⟩
abbrev main_v525 : Ref sig .tc := ⟨.hbm, 584, rfl⟩
abbrev main_v526 : Ref sig .tc := ⟨.hbm, 585, rfl⟩
abbrev main_v527 : Ref sig .tc := ⟨.hbm, 586, rfl⟩
abbrev main_v528 : Ref sig .tc := ⟨.hbm, 587, rfl⟩
abbrev main_v529 : Ref sig .tc := ⟨.hbm, 588, rfl⟩
abbrev main_v530 : Ref sig .tc := ⟨.hbm, 589, rfl⟩
abbrev main_v531 : Ref sig .tc := ⟨.hbm, 590, rfl⟩
abbrev main_v532 : Ref sig .tc := ⟨.hbm, 591, rfl⟩
abbrev main_v533 : Ref sig .tc := ⟨.hbm, 592, rfl⟩
abbrev main_v534 : Ref sig .tc := ⟨.hbm, 593, rfl⟩
abbrev main_v535 : Ref sig .tc := ⟨.hbm, 594, rfl⟩
abbrev main_v536 : Ref sig .tc := ⟨.hbm, 595, rfl⟩
abbrev main_v537 : Ref sig .tc := ⟨.hbm, 596, rfl⟩
abbrev main_v538 : Ref sig .tc := ⟨.hbm, 597, rfl⟩
abbrev main_v539 : Ref sig .tc := ⟨.hbm, 598, rfl⟩
abbrev main_v540 : Ref sig .tc := ⟨.hbm, 599, rfl⟩
abbrev main_v541 : Ref sig .tc := ⟨.hbm, 600, rfl⟩
abbrev main_v542 : Ref sig .tc := ⟨.hbm, 601, rfl⟩
abbrev main_v543 : Ref sig .tc := ⟨.hbm, 602, rfl⟩
abbrev main_v544 : Ref sig .tc := ⟨.hbm, 603, rfl⟩
abbrev main_v545 : Ref sig .tc := ⟨.hbm, 604, rfl⟩
abbrev main_v546 : Ref sig .tc := ⟨.hbm, 605, rfl⟩
abbrev main_v547 : Ref sig .tc := ⟨.hbm, 606, rfl⟩
abbrev main_v548 : Ref sig .tc := ⟨.hbm, 607, rfl⟩
abbrev main_v549 : Ref sig .tc := ⟨.hbm, 608, rfl⟩
abbrev main_v550 : Ref sig .tc := ⟨.hbm, 609, rfl⟩
abbrev main_v551 : Ref sig .tc := ⟨.hbm, 610, rfl⟩
abbrev main_v552 : Ref sig .tc := ⟨.hbm, 611, rfl⟩
abbrev main_v553 : Ref sig .tc := ⟨.hbm, 612, rfl⟩
abbrev main_v554 : Ref sig .tc := ⟨.hbm, 613, rfl⟩
abbrev main_cst_33 : Ref sig .tc := ⟨.hbm, 614, rfl⟩
abbrev main_v555 : Ref sig .tc := ⟨.hbm, 615, rfl⟩
abbrev main_v556 : Ref sig .tc := ⟨.hbm, 616, rfl⟩
abbrev main_cst_34 : Ref sig .tc := ⟨.hbm, 617, rfl⟩
abbrev main_v557 : Ref sig .tc := ⟨.hbm, 618, rfl⟩
abbrev main_v558 : Ref sig .tc := ⟨.hbm, 619, rfl⟩
abbrev main_v559 : Ref sig .tc := ⟨.hbm, 620, rfl⟩
abbrev main_v560 : Ref sig .tc := ⟨.hbm, 621, rfl⟩
abbrev main_v561 : Ref sig .tc := ⟨.hbm, 622, rfl⟩
abbrev main_v562 : Ref sig .tc := ⟨.hbm, 623, rfl⟩
abbrev main_v563 : Ref sig .tc := ⟨.hbm, 624, rfl⟩
abbrev main_v564 : Ref sig .tc := ⟨.hbm, 625, rfl⟩
abbrev main_v565 : Ref sig .tc := ⟨.hbm, 626, rfl⟩
abbrev main_v566 : Ref sig .tc := ⟨.hbm, 627, rfl⟩
abbrev main_v567 : Ref sig .tc := ⟨.hbm, 628, rfl⟩
abbrev main_v568 : Ref sig .tc := ⟨.hbm, 629, rfl⟩
abbrev main_v569 : Ref sig .tc := ⟨.hbm, 630, rfl⟩
abbrev main_v570 : Ref sig .tc := ⟨.hbm, 631, rfl⟩
abbrev main_v571 : Ref sig .tc := ⟨.hbm, 632, rfl⟩
abbrev main_v572 : Ref sig .tc := ⟨.hbm, 633, rfl⟩
abbrev main_v573 : Ref sig .tc := ⟨.hbm, 634, rfl⟩
abbrev main_v574 : Ref sig .tc := ⟨.hbm, 635, rfl⟩
abbrev main_v575 : Ref sig .tc := ⟨.hbm, 636, rfl⟩
abbrev main_v576 : Ref sig .tc := ⟨.hbm, 637, rfl⟩
abbrev main_v577 : Ref sig .tc := ⟨.hbm, 638, rfl⟩
abbrev main_v578 : Ref sig .tc := ⟨.hbm, 639, rfl⟩
abbrev main_v579 : Ref sig .tc := ⟨.hbm, 640, rfl⟩
abbrev main_v580 : Ref sig .tc := ⟨.hbm, 641, rfl⟩
abbrev main_v581 : Ref sig .tc := ⟨.hbm, 642, rfl⟩
abbrev main_v582 : Ref sig .tc := ⟨.hbm, 643, rfl⟩
abbrev main_cst_35 : Ref sig .tc := ⟨.hbm, 644, rfl⟩
abbrev main_v583 : Ref sig .tc := ⟨.hbm, 645, rfl⟩
abbrev main_v584 : Ref sig .tc := ⟨.hbm, 646, rfl⟩
abbrev main_cst_36 : Ref sig .tc := ⟨.hbm, 647, rfl⟩
abbrev main_v585 : Ref sig .tc := ⟨.hbm, 648, rfl⟩
abbrev main_v586 : Ref sig .tc := ⟨.hbm, 649, rfl⟩
abbrev main_v587 : Ref sig .tc := ⟨.hbm, 650, rfl⟩
abbrev main_v588 : Ref sig .tc := ⟨.hbm, 651, rfl⟩
abbrev main_v589 : Ref sig .tc := ⟨.hbm, 652, rfl⟩
abbrev main_v590 : Ref sig .tc := ⟨.hbm, 653, rfl⟩
abbrev main_v591 : Ref sig .tc := ⟨.hbm, 654, rfl⟩
abbrev main_v592 : Ref sig .tc := ⟨.hbm, 655, rfl⟩
abbrev main_v593 : Ref sig .tc := ⟨.hbm, 656, rfl⟩
abbrev main_v594 : Ref sig .tc := ⟨.hbm, 657, rfl⟩
abbrev main_v595 : Ref sig .tc := ⟨.hbm, 658, rfl⟩
abbrev main_v596 : Ref sig .tc := ⟨.hbm, 659, rfl⟩
abbrev main_v597 : Ref sig .tc := ⟨.hbm, 660, rfl⟩
abbrev main_v598 : Ref sig .tc := ⟨.hbm, 661, rfl⟩
abbrev main_v599 : Ref sig .tc := ⟨.hbm, 662, rfl⟩
abbrev main_v600 : Ref sig .tc := ⟨.hbm, 663, rfl⟩
abbrev main_v601 : Ref sig .tc := ⟨.hbm, 664, rfl⟩
abbrev main_v602 : Ref sig .tc := ⟨.hbm, 665, rfl⟩
abbrev main_v603 : Ref sig .tc := ⟨.hbm, 666, rfl⟩
abbrev main_v604 : Ref sig .tc := ⟨.hbm, 667, rfl⟩
abbrev main_v605 : Ref sig .tc := ⟨.hbm, 668, rfl⟩
abbrev main_v606 : Ref sig .tc := ⟨.hbm, 669, rfl⟩
abbrev main_v607 : Ref sig .tc := ⟨.hbm, 670, rfl⟩
abbrev main_v608 : Ref sig .tc := ⟨.hbm, 671, rfl⟩
abbrev main_v609 : Ref sig .tc := ⟨.hbm, 672, rfl⟩
abbrev main_cst_37 : Ref sig .tc := ⟨.hbm, 673, rfl⟩
abbrev main_v610 : Ref sig .tc := ⟨.hbm, 674, rfl⟩
abbrev main_v611 : Ref sig .tc := ⟨.hbm, 675, rfl⟩
abbrev main_cst_38 : Ref sig .tc := ⟨.hbm, 676, rfl⟩
abbrev main_v612 : Ref sig .tc := ⟨.hbm, 677, rfl⟩
abbrev main_v613 : Ref sig .tc := ⟨.hbm, 678, rfl⟩
abbrev main_v614 : Ref sig .tc := ⟨.hbm, 679, rfl⟩
abbrev main_v615 : Ref sig .tc := ⟨.hbm, 680, rfl⟩
abbrev main_v616 : Ref sig .tc := ⟨.hbm, 681, rfl⟩
abbrev main_v617 : Ref sig .tc := ⟨.hbm, 682, rfl⟩
abbrev main_v618 : Ref sig .tc := ⟨.hbm, 683, rfl⟩
abbrev main_v619 : Ref sig .tc := ⟨.hbm, 684, rfl⟩
abbrev main_v620 : Ref sig .tc := ⟨.hbm, 685, rfl⟩
abbrev main_v621 : Ref sig .tc := ⟨.hbm, 686, rfl⟩
abbrev main_v622 : Ref sig .tc := ⟨.hbm, 687, rfl⟩
abbrev main_v623 : Ref sig .tc := ⟨.hbm, 688, rfl⟩
abbrev main_v624 : Ref sig .tc := ⟨.hbm, 689, rfl⟩
abbrev main_v625 : Ref sig .tc := ⟨.hbm, 690, rfl⟩
abbrev main_v626 : Ref sig .tc := ⟨.hbm, 691, rfl⟩
abbrev main_v627 : Ref sig .tc := ⟨.hbm, 692, rfl⟩
abbrev main_v628 : Ref sig .tc := ⟨.hbm, 693, rfl⟩
abbrev main_v629 : Ref sig .tc := ⟨.hbm, 694, rfl⟩
abbrev main_v630 : Ref sig .tc := ⟨.hbm, 695, rfl⟩
abbrev main_v631 : Ref sig .tc := ⟨.hbm, 696, rfl⟩
abbrev main_v632 : Ref sig .tc := ⟨.hbm, 697, rfl⟩
abbrev main_v633 : Ref sig .tc := ⟨.hbm, 698, rfl⟩
abbrev main_v634 : Ref sig .tc := ⟨.hbm, 699, rfl⟩
abbrev main_cst_39 : Ref sig .tc := ⟨.hbm, 700, rfl⟩
abbrev main_v635 : Ref sig .tc := ⟨.hbm, 701, rfl⟩
abbrev main_v636 : Ref sig .tc := ⟨.hbm, 702, rfl⟩
abbrev main_cst_40 : Ref sig .tc := ⟨.hbm, 703, rfl⟩
abbrev main_v637 : Ref sig .tc := ⟨.hbm, 704, rfl⟩
abbrev main_v638 : Ref sig .tc := ⟨.hbm, 705, rfl⟩
abbrev main_v639 : Ref sig .tc := ⟨.hbm, 706, rfl⟩
abbrev main_v640 : Ref sig .tc := ⟨.hbm, 707, rfl⟩
abbrev main_v641 : Ref sig .tc := ⟨.hbm, 708, rfl⟩
abbrev main_v642 : Ref sig .tc := ⟨.hbm, 709, rfl⟩
abbrev main_v643 : Ref sig .tc := ⟨.hbm, 710, rfl⟩
abbrev main_v644 : Ref sig .tc := ⟨.hbm, 711, rfl⟩
abbrev main_v645 : Ref sig .tc := ⟨.hbm, 712, rfl⟩
abbrev main_v646 : Ref sig .tc := ⟨.hbm, 713, rfl⟩
abbrev main_v647 : Ref sig .tc := ⟨.hbm, 714, rfl⟩
abbrev main_v648 : Ref sig .tc := ⟨.hbm, 715, rfl⟩
abbrev main_v649 : Ref sig .tc := ⟨.hbm, 716, rfl⟩
abbrev main_v650 : Ref sig .tc := ⟨.hbm, 717, rfl⟩
abbrev main_v651 : Ref sig .tc := ⟨.hbm, 718, rfl⟩
abbrev main_cst_41 : Ref sig .tc := ⟨.hbm, 719, rfl⟩
abbrev main_v652 : Ref sig .tc := ⟨.hbm, 720, rfl⟩
abbrev main_v653 : Ref sig .tc := ⟨.hbm, 721, rfl⟩
abbrev main_v654 : Ref sig .tc := ⟨.hbm, 722, rfl⟩
abbrev main_v655 : Ref sig .tc := ⟨.hbm, 723, rfl⟩
abbrev main_v656 : Ref sig .tc := ⟨.hbm, 724, rfl⟩
abbrev main_v657 : Ref sig .tc := ⟨.hbm, 725, rfl⟩
abbrev main_v658 : Ref sig .tc := ⟨.hbm, 726, rfl⟩
abbrev main_v659 : Ref sig .tc := ⟨.hbm, 727, rfl⟩
abbrev main_v660 : Ref sig .tc := ⟨.hbm, 728, rfl⟩
abbrev main_v661 : Ref sig .tc := ⟨.hbm, 729, rfl⟩
abbrev main_v662 : Ref sig .tc := ⟨.hbm, 730, rfl⟩
abbrev main_v663 : Ref sig .tc := ⟨.hbm, 731, rfl⟩
abbrev main_v664 : Ref sig .tc := ⟨.hbm, 732, rfl⟩
abbrev main_v665 : Ref sig .tc := ⟨.hbm, 733, rfl⟩
abbrev main_v666 : Ref sig .tc := ⟨.hbm, 734, rfl⟩
abbrev main_v667 : Ref sig .tc := ⟨.hbm, 735, rfl⟩
abbrev main_v668 : Ref sig .tc := ⟨.hbm, 736, rfl⟩
abbrev main_v669 : Ref sig .tc := ⟨.hbm, 737, rfl⟩
abbrev main_v670 : Ref sig .tc := ⟨.hbm, 738, rfl⟩
abbrev main_v671 : Ref sig .tc := ⟨.hbm, 739, rfl⟩
abbrev main_v672 : Ref sig .tc := ⟨.hbm, 740, rfl⟩
abbrev main_v673 : Ref sig .tc := ⟨.hbm, 741, rfl⟩
abbrev main_v674 : Ref sig .tc := ⟨.hbm, 742, rfl⟩
abbrev main_v675 : Ref sig .tc := ⟨.hbm, 743, rfl⟩
abbrev main_v676 : Ref sig .tc := ⟨.hbm, 744, rfl⟩
abbrev main_v677 : Ref sig .tc := ⟨.hbm, 745, rfl⟩
abbrev main_v678 : Ref sig .tc := ⟨.hbm, 746, rfl⟩
abbrev main_v679 : Ref sig .tc := ⟨.hbm, 747, rfl⟩
abbrev main_v680 : Ref sig .tc := ⟨.hbm, 748, rfl⟩
abbrev main_v681 : Ref sig .tc := ⟨.hbm, 749, rfl⟩
abbrev main_v682 : Ref sig .tc := ⟨.hbm, 750, rfl⟩
abbrev main_v683 : Ref sig .tc := ⟨.hbm, 751, rfl⟩
abbrev main_v684 : Ref sig .tc := ⟨.hbm, 752, rfl⟩
abbrev main_v685 : Ref sig .tc := ⟨.hbm, 753, rfl⟩
abbrev main_v686 : Ref sig .tc := ⟨.hbm, 754, rfl⟩
abbrev main_v687 : Ref sig .tc := ⟨.hbm, 755, rfl⟩
abbrev main_v688 : Ref sig .tc := ⟨.hbm, 756, rfl⟩
abbrev main_v689 : Ref sig .tc := ⟨.hbm, 757, rfl⟩
abbrev main_v690 : Ref sig .tc := ⟨.hbm, 758, rfl⟩
abbrev main_v691 : Ref sig .tc := ⟨.hbm, 759, rfl⟩
abbrev main_cst_42 : Ref sig .tc := ⟨.hbm, 760, rfl⟩
abbrev main_v692 : Ref sig .tc := ⟨.hbm, 761, rfl⟩
abbrev main_v693 : Ref sig .tc := ⟨.hbm, 762, rfl⟩
abbrev main_cst_43 : Ref sig .tc := ⟨.hbm, 763, rfl⟩
abbrev main_v694 : Ref sig .tc := ⟨.hbm, 764, rfl⟩
abbrev main_v695 : Ref sig .tc := ⟨.hbm, 765, rfl⟩
abbrev main_v696 : Ref sig .tc := ⟨.hbm, 766, rfl⟩
abbrev main_v697 : Ref sig .tc := ⟨.hbm, 767, rfl⟩
abbrev main_v698 : Ref sig .tc := ⟨.hbm, 768, rfl⟩
abbrev main_v699 : Ref sig .tc := ⟨.hbm, 769, rfl⟩
abbrev main_v700 : Ref sig .tc := ⟨.hbm, 770, rfl⟩
abbrev main_v701 : Ref sig .tc := ⟨.hbm, 771, rfl⟩
abbrev main_v702 : Ref sig .tc := ⟨.hbm, 772, rfl⟩
abbrev main_v703 : Ref sig .tc := ⟨.hbm, 773, rfl⟩
abbrev main_v704 : Ref sig .tc := ⟨.hbm, 774, rfl⟩
abbrev main_v705 : Ref sig .tc := ⟨.hbm, 775, rfl⟩
abbrev main_v706 : Ref sig .tc := ⟨.hbm, 776, rfl⟩
abbrev main_v707 : Ref sig .tc := ⟨.hbm, 777, rfl⟩
abbrev main_v708 : Ref sig .tc := ⟨.hbm, 778, rfl⟩
abbrev main_v709 : Ref sig .tc := ⟨.hbm, 779, rfl⟩
abbrev main_v710 : Ref sig .tc := ⟨.hbm, 780, rfl⟩
abbrev main_v711 : Ref sig .tc := ⟨.hbm, 781, rfl⟩
abbrev main_v712 : Ref sig .tc := ⟨.hbm, 782, rfl⟩
abbrev main_v713 : Ref sig .tc := ⟨.hbm, 783, rfl⟩
abbrev main_v714 : Ref sig .tc := ⟨.hbm, 784, rfl⟩
abbrev main_v715 : Ref sig .tc := ⟨.hbm, 785, rfl⟩
abbrev main_v716 : Ref sig .tc := ⟨.hbm, 786, rfl⟩
abbrev main_v717 : Ref sig .tc := ⟨.hbm, 787, rfl⟩
abbrev main_v718 : Ref sig .tc := ⟨.hbm, 788, rfl⟩
abbrev main_v719 : Ref sig .tc := ⟨.hbm, 789, rfl⟩
abbrev main_cst_44 : Ref sig .tc := ⟨.hbm, 790, rfl⟩
abbrev main_v720 : Ref sig .tc := ⟨.hbm, 791, rfl⟩
abbrev main_v721 : Ref sig .tc := ⟨.hbm, 792, rfl⟩
abbrev main_cst_45 : Ref sig .tc := ⟨.hbm, 793, rfl⟩
abbrev main_v722 : Ref sig .tc := ⟨.hbm, 794, rfl⟩
abbrev main_v723 : Ref sig .tc := ⟨.hbm, 795, rfl⟩
abbrev main_v724 : Ref sig .tc := ⟨.hbm, 796, rfl⟩
abbrev main_v725 : Ref sig .tc := ⟨.hbm, 797, rfl⟩
abbrev main_v726 : Ref sig .tc := ⟨.hbm, 798, rfl⟩
abbrev main_v727 : Ref sig .tc := ⟨.hbm, 799, rfl⟩
abbrev main_v728 : Ref sig .tc := ⟨.hbm, 800, rfl⟩
abbrev main_v729 : Ref sig .tc := ⟨.hbm, 801, rfl⟩
abbrev main_v730 : Ref sig .tc := ⟨.hbm, 802, rfl⟩
abbrev main_v731 : Ref sig .tc := ⟨.hbm, 803, rfl⟩
abbrev main_v732 : Ref sig .tc := ⟨.hbm, 804, rfl⟩
abbrev main_v733 : Ref sig .tc := ⟨.hbm, 805, rfl⟩
abbrev main_v734 : Ref sig .tc := ⟨.hbm, 806, rfl⟩
abbrev main_v735 : Ref sig .tc := ⟨.hbm, 807, rfl⟩
abbrev main_v736 : Ref sig .tc := ⟨.hbm, 808, rfl⟩
abbrev main_v737 : Ref sig .tc := ⟨.hbm, 809, rfl⟩
abbrev main_v738 : Ref sig .tc := ⟨.hbm, 810, rfl⟩
abbrev main_v739 : Ref sig .tc := ⟨.hbm, 811, rfl⟩
abbrev main_v740 : Ref sig .tc := ⟨.hbm, 812, rfl⟩
abbrev main_v741 : Ref sig .tc := ⟨.hbm, 813, rfl⟩
abbrev main_v742 : Ref sig .tc := ⟨.hbm, 814, rfl⟩
abbrev main_v743 : Ref sig .tc := ⟨.hbm, 815, rfl⟩
abbrev main_v744 : Ref sig .tc := ⟨.hbm, 816, rfl⟩
abbrev main_v745 : Ref sig .tc := ⟨.hbm, 817, rfl⟩
abbrev main_v746 : Ref sig .tc := ⟨.hbm, 818, rfl⟩
abbrev main_cst_46 : Ref sig .tc := ⟨.hbm, 819, rfl⟩
abbrev main_v747 : Ref sig .tc := ⟨.hbm, 820, rfl⟩
abbrev main_v748 : Ref sig .tc := ⟨.hbm, 821, rfl⟩
abbrev main_cst_47 : Ref sig .tc := ⟨.hbm, 822, rfl⟩
abbrev main_v749 : Ref sig .tc := ⟨.hbm, 823, rfl⟩
abbrev main_v750 : Ref sig .tc := ⟨.hbm, 824, rfl⟩
abbrev main_v751 : Ref sig .tc := ⟨.hbm, 825, rfl⟩
abbrev main_v752 : Ref sig .tc := ⟨.hbm, 826, rfl⟩
abbrev main_v753 : Ref sig .tc := ⟨.hbm, 827, rfl⟩
abbrev main_v754 : Ref sig .tc := ⟨.hbm, 828, rfl⟩
abbrev main_v755 : Ref sig .tc := ⟨.hbm, 829, rfl⟩
abbrev main_v756 : Ref sig .tc := ⟨.hbm, 830, rfl⟩
abbrev main_v757 : Ref sig .tc := ⟨.hbm, 831, rfl⟩
abbrev main_v758 : Ref sig .tc := ⟨.hbm, 832, rfl⟩
abbrev main_v759 : Ref sig .tc := ⟨.hbm, 833, rfl⟩
abbrev main_v760 : Ref sig .tc := ⟨.hbm, 834, rfl⟩
abbrev main_v761 : Ref sig .tc := ⟨.hbm, 835, rfl⟩
abbrev main_v762 : Ref sig .tc := ⟨.hbm, 836, rfl⟩
abbrev main_v763 : Ref sig .tc := ⟨.hbm, 837, rfl⟩
abbrev main_v764 : Ref sig .tc := ⟨.hbm, 838, rfl⟩
abbrev main_v765 : Ref sig .tc := ⟨.hbm, 839, rfl⟩
abbrev main_v766 : Ref sig .tc := ⟨.hbm, 840, rfl⟩
abbrev main_v767 : Ref sig .tc := ⟨.hbm, 841, rfl⟩
abbrev main_v768 : Ref sig .tc := ⟨.hbm, 842, rfl⟩
abbrev main_v769 : Ref sig .tc := ⟨.hbm, 843, rfl⟩
abbrev main_v770 : Ref sig .tc := ⟨.hbm, 844, rfl⟩
abbrev main_v771 : Ref sig .tc := ⟨.hbm, 845, rfl⟩
abbrev main_cst_48 : Ref sig .tc := ⟨.hbm, 846, rfl⟩
abbrev main_v772 : Ref sig .tc := ⟨.hbm, 847, rfl⟩
abbrev main_v773 : Ref sig .tc := ⟨.hbm, 848, rfl⟩
abbrev main_cst_49 : Ref sig .tc := ⟨.hbm, 849, rfl⟩
abbrev main_v774 : Ref sig .tc := ⟨.hbm, 850, rfl⟩
abbrev main_v775 : Ref sig .tc := ⟨.hbm, 851, rfl⟩
abbrev main_v776 : Ref sig .tc := ⟨.hbm, 852, rfl⟩
abbrev main_v777 : Ref sig .tc := ⟨.hbm, 853, rfl⟩
abbrev main_v778 : Ref sig .tc := ⟨.hbm, 854, rfl⟩
abbrev main_v779 : Ref sig .tc := ⟨.hbm, 855, rfl⟩
abbrev main_v780 : Ref sig .tc := ⟨.hbm, 856, rfl⟩
abbrev main_v781 : Ref sig .tc := ⟨.hbm, 857, rfl⟩
abbrev main_v782 : Ref sig .tc := ⟨.hbm, 858, rfl⟩
abbrev main_v783 : Ref sig .tc := ⟨.hbm, 859, rfl⟩
abbrev main_v784 : Ref sig .tc := ⟨.hbm, 860, rfl⟩
abbrev main_v785 : Ref sig .tc := ⟨.hbm, 861, rfl⟩
abbrev main_v786 : Ref sig .tc := ⟨.hbm, 862, rfl⟩
abbrev main_v787 : Ref sig .tc := ⟨.hbm, 863, rfl⟩
abbrev main_v788 : Ref sig .tc := ⟨.hbm, 864, rfl⟩
abbrev main_cst_50 : Ref sig .tc := ⟨.hbm, 865, rfl⟩
abbrev main_v789 : Ref sig .tc := ⟨.hbm, 866, rfl⟩
abbrev main_v790 : Ref sig .tc := ⟨.hbm, 867, rfl⟩
abbrev main_v791 : Ref sig .tc := ⟨.hbm, 868, rfl⟩
abbrev main_v792 : Ref sig .tc := ⟨.hbm, 869, rfl⟩
abbrev main_v793 : Ref sig .tc := ⟨.hbm, 870, rfl⟩
abbrev main_v794 : Ref sig .tc := ⟨.hbm, 871, rfl⟩
abbrev main_v795 : Ref sig .tc := ⟨.hbm, 872, rfl⟩
abbrev main_v796 : Ref sig .tc := ⟨.hbm, 873, rfl⟩
abbrev main_v797 : Ref sig .tc := ⟨.hbm, 874, rfl⟩
abbrev main_v798 : Ref sig .tc := ⟨.hbm, 875, rfl⟩
abbrev main_v799 : Ref sig .tc := ⟨.hbm, 876, rfl⟩
abbrev main_v800 : Ref sig .tc := ⟨.hbm, 877, rfl⟩
abbrev main_v801 : Ref sig .tc := ⟨.hbm, 878, rfl⟩
abbrev main_v802 : Ref sig .tc := ⟨.hbm, 879, rfl⟩
abbrev main_v803 : Ref sig .tc := ⟨.hbm, 880, rfl⟩
abbrev main_v804 : Ref sig .tc := ⟨.hbm, 881, rfl⟩
abbrev main_v805 : Ref sig .tc := ⟨.hbm, 882, rfl⟩
abbrev main_v806 : Ref sig .tc := ⟨.hbm, 883, rfl⟩
abbrev main_v807 : Ref sig .tc := ⟨.hbm, 884, rfl⟩
abbrev main_v808 : Ref sig .tc := ⟨.hbm, 885, rfl⟩
abbrev main_v809 : Ref sig .tc := ⟨.hbm, 886, rfl⟩
abbrev main_v810 : Ref sig .tc := ⟨.hbm, 887, rfl⟩
abbrev main_v811 : Ref sig .tc := ⟨.hbm, 888, rfl⟩
abbrev main_v812 : Ref sig .tc := ⟨.hbm, 889, rfl⟩
abbrev main_v813 : Ref sig .tc := ⟨.hbm, 890, rfl⟩
abbrev main_v814 : Ref sig .tc := ⟨.hbm, 891, rfl⟩
abbrev main_v815 : Ref sig .tc := ⟨.hbm, 892, rfl⟩
abbrev main_v816 : Ref sig .tc := ⟨.hbm, 893, rfl⟩
abbrev main_v817 : Ref sig .tc := ⟨.hbm, 894, rfl⟩
abbrev main_v818 : Ref sig .tc := ⟨.hbm, 895, rfl⟩
abbrev main_v819 : Ref sig .tc := ⟨.hbm, 896, rfl⟩
abbrev main_v820 : Ref sig .tc := ⟨.hbm, 897, rfl⟩
abbrev main_v821 : Ref sig .tc := ⟨.hbm, 898, rfl⟩
abbrev main_v822 : Ref sig .tc := ⟨.hbm, 899, rfl⟩
abbrev main_v823 : Ref sig .tc := ⟨.hbm, 900, rfl⟩
abbrev main_v824 : Ref sig .tc := ⟨.hbm, 901, rfl⟩
abbrev main_v825 : Ref sig .tc := ⟨.hbm, 902, rfl⟩
abbrev main_v826 : Ref sig .tc := ⟨.hbm, 903, rfl⟩
abbrev main_v827 : Ref sig .tc := ⟨.hbm, 904, rfl⟩
abbrev main_v828 : Ref sig .tc := ⟨.hbm, 905, rfl⟩
abbrev main_cst_51 : Ref sig .tc := ⟨.hbm, 906, rfl⟩
abbrev main_v829 : Ref sig .tc := ⟨.hbm, 907, rfl⟩
abbrev main_v830 : Ref sig .tc := ⟨.hbm, 908, rfl⟩
abbrev main_cst_52 : Ref sig .tc := ⟨.hbm, 909, rfl⟩
abbrev main_v831 : Ref sig .tc := ⟨.hbm, 910, rfl⟩
abbrev main_v832 : Ref sig .tc := ⟨.hbm, 911, rfl⟩
abbrev main_v833 : Ref sig .tc := ⟨.hbm, 912, rfl⟩
abbrev main_v834 : Ref sig .tc := ⟨.hbm, 913, rfl⟩
abbrev main_v835 : Ref sig .tc := ⟨.hbm, 914, rfl⟩
abbrev main_v836 : Ref sig .tc := ⟨.hbm, 915, rfl⟩
abbrev main_v837 : Ref sig .tc := ⟨.hbm, 916, rfl⟩
abbrev main_v838 : Ref sig .tc := ⟨.hbm, 917, rfl⟩
abbrev main_v839 : Ref sig .tc := ⟨.hbm, 918, rfl⟩
abbrev main_v840 : Ref sig .tc := ⟨.hbm, 919, rfl⟩
abbrev main_v841 : Ref sig .tc := ⟨.hbm, 920, rfl⟩
abbrev main_v842 : Ref sig .tc := ⟨.hbm, 921, rfl⟩
abbrev main_v843 : Ref sig .tc := ⟨.hbm, 922, rfl⟩
abbrev main_v844 : Ref sig .tc := ⟨.hbm, 923, rfl⟩
abbrev main_v845 : Ref sig .tc := ⟨.hbm, 924, rfl⟩
abbrev main_v846 : Ref sig .tc := ⟨.hbm, 925, rfl⟩
abbrev main_v847 : Ref sig .tc := ⟨.hbm, 926, rfl⟩
abbrev main_v848 : Ref sig .tc := ⟨.hbm, 927, rfl⟩
abbrev main_v849 : Ref sig .tc := ⟨.hbm, 928, rfl⟩
abbrev main_v850 : Ref sig .tc := ⟨.hbm, 929, rfl⟩
abbrev main_v851 : Ref sig .tc := ⟨.hbm, 930, rfl⟩
abbrev main_v852 : Ref sig .tc := ⟨.hbm, 931, rfl⟩
abbrev main_v853 : Ref sig .tc := ⟨.hbm, 932, rfl⟩
abbrev main_v854 : Ref sig .tc := ⟨.hbm, 933, rfl⟩
abbrev main_v855 : Ref sig .tc := ⟨.hbm, 934, rfl⟩
abbrev main_v856 : Ref sig .tc := ⟨.hbm, 935, rfl⟩
abbrev main_v857 : Ref sig .tc := ⟨.hbm, 936, rfl⟩
abbrev main_v858 : Ref sig .tc := ⟨.hbm, 937, rfl⟩
abbrev main_v859 : Ref sig .tc := ⟨.hbm, 938, rfl⟩
abbrev main_v860 : Ref sig .tc := ⟨.hbm, 939, rfl⟩
abbrev main_v861 : Ref sig .tc := ⟨.hbm, 940, rfl⟩
abbrev main_v862 : Ref sig .tc := ⟨.hbm, 941, rfl⟩
abbrev main_v863 : Ref sig .tc := ⟨.hbm, 942, rfl⟩
abbrev main_v864 : Ref sig .tc := ⟨.hbm, 943, rfl⟩
abbrev main_v865 : Ref sig .tc := ⟨.hbm, 944, rfl⟩
abbrev main_v866 : Ref sig .tc := ⟨.hbm, 945, rfl⟩
abbrev main_cst_53 : Ref sig .tc := ⟨.hbm, 946, rfl⟩
abbrev main_v867 : Ref sig .tc := ⟨.hbm, 947, rfl⟩
abbrev main_v868 : Ref sig .tc := ⟨.hbm, 948, rfl⟩
abbrev main_cst_54 : Ref sig .tc := ⟨.hbm, 949, rfl⟩
abbrev main_v869 : Ref sig .tc := ⟨.hbm, 950, rfl⟩
abbrev main_v870 : Ref sig .tc := ⟨.hbm, 951, rfl⟩
abbrev main_v871 : Ref sig .tc := ⟨.hbm, 952, rfl⟩
abbrev main_v872 : Ref sig .tc := ⟨.hbm, 953, rfl⟩
abbrev main_v873 : Ref sig .tc := ⟨.hbm, 954, rfl⟩
abbrev main_v874 : Ref sig .tc := ⟨.hbm, 955, rfl⟩
abbrev main_v875 : Ref sig .tc := ⟨.hbm, 956, rfl⟩
abbrev main_v876 : Ref sig .tc := ⟨.hbm, 957, rfl⟩
abbrev main_v877 : Ref sig .tc := ⟨.hbm, 958, rfl⟩
abbrev main_v878 : Ref sig .tc := ⟨.hbm, 959, rfl⟩
abbrev main_v879 : Ref sig .tc := ⟨.hbm, 960, rfl⟩
abbrev main_v880 : Ref sig .tc := ⟨.hbm, 961, rfl⟩
abbrev main_v881 : Ref sig .tc := ⟨.hbm, 962, rfl⟩
abbrev main_v882 : Ref sig .tc := ⟨.hbm, 963, rfl⟩
abbrev main_v883 : Ref sig .tc := ⟨.hbm, 964, rfl⟩
abbrev main_v884 : Ref sig .tc := ⟨.hbm, 965, rfl⟩
abbrev main_v885 : Ref sig .tc := ⟨.hbm, 966, rfl⟩
abbrev main_v886 : Ref sig .tc := ⟨.hbm, 967, rfl⟩
abbrev main_v887 : Ref sig .tc := ⟨.hbm, 968, rfl⟩
abbrev main_v888 : Ref sig .tc := ⟨.hbm, 969, rfl⟩
abbrev main_v889 : Ref sig .tc := ⟨.hbm, 970, rfl⟩
abbrev main_v890 : Ref sig .tc := ⟨.hbm, 971, rfl⟩
abbrev main_v891 : Ref sig .tc := ⟨.hbm, 972, rfl⟩
abbrev main_v892 : Ref sig .tc := ⟨.hbm, 973, rfl⟩
abbrev main_v893 : Ref sig .tc := ⟨.hbm, 974, rfl⟩
abbrev main_cst_55 : Ref sig .tc := ⟨.hbm, 975, rfl⟩
abbrev main_v894 : Ref sig .tc := ⟨.hbm, 976, rfl⟩
abbrev main_v895 : Ref sig .tc := ⟨.hbm, 977, rfl⟩
abbrev main_cst_56 : Ref sig .tc := ⟨.hbm, 978, rfl⟩
abbrev main_v896 : Ref sig .tc := ⟨.hbm, 979, rfl⟩
abbrev main_v897 : Ref sig .tc := ⟨.hbm, 980, rfl⟩
abbrev main_v898 : Ref sig .tc := ⟨.hbm, 981, rfl⟩
abbrev main_v899 : Ref sig .tc := ⟨.hbm, 982, rfl⟩
abbrev main_v900 : Ref sig .tc := ⟨.hbm, 983, rfl⟩
abbrev main_v901 : Ref sig .tc := ⟨.hbm, 984, rfl⟩
abbrev main_v902 : Ref sig .tc := ⟨.hbm, 985, rfl⟩
abbrev main_v903 : Ref sig .tc := ⟨.hbm, 986, rfl⟩
abbrev main_v904 : Ref sig .tc := ⟨.hbm, 987, rfl⟩
abbrev main_v905 : Ref sig .tc := ⟨.hbm, 988, rfl⟩
abbrev main_v906 : Ref sig .tc := ⟨.hbm, 989, rfl⟩
abbrev main_v907 : Ref sig .tc := ⟨.hbm, 990, rfl⟩
abbrev main_v908 : Ref sig .tc := ⟨.hbm, 991, rfl⟩
abbrev main_v909 : Ref sig .tc := ⟨.hbm, 992, rfl⟩
abbrev main_v910 : Ref sig .tc := ⟨.hbm, 993, rfl⟩
abbrev main_v911 : Ref sig .tc := ⟨.hbm, 994, rfl⟩
abbrev main_v912 : Ref sig .tc := ⟨.hbm, 995, rfl⟩
abbrev main_v913 : Ref sig .tc := ⟨.hbm, 996, rfl⟩
abbrev main_v914 : Ref sig .tc := ⟨.hbm, 997, rfl⟩
abbrev main_v915 : Ref sig .tc := ⟨.hbm, 998, rfl⟩
abbrev main_v916 : Ref sig .tc := ⟨.hbm, 999, rfl⟩
abbrev main_v917 : Ref sig .tc := ⟨.hbm, 1000, rfl⟩
abbrev main_v918 : Ref sig .tc := ⟨.hbm, 1001, rfl⟩
abbrev main_cst_57 : Ref sig .tc := ⟨.hbm, 1002, rfl⟩
abbrev main_v919 : Ref sig .tc := ⟨.hbm, 1003, rfl⟩
abbrev main_v920 : Ref sig .tc := ⟨.hbm, 1004, rfl⟩
abbrev main_cst_58 : Ref sig .tc := ⟨.hbm, 1005, rfl⟩
abbrev main_v921 : Ref sig .tc := ⟨.hbm, 1006, rfl⟩
abbrev main_v922 : Ref sig .tc := ⟨.hbm, 1007, rfl⟩
abbrev main_v923 : Ref sig .tc := ⟨.hbm, 1008, rfl⟩
abbrev main_v924 : Ref sig .tc := ⟨.hbm, 1009, rfl⟩
abbrev main_v925 : Ref sig .tc := ⟨.hbm, 1010, rfl⟩
abbrev main_v926 : Ref sig .tc := ⟨.hbm, 1011, rfl⟩
abbrev main_v927 : Ref sig .tc := ⟨.hbm, 1012, rfl⟩
abbrev main_v928 : Ref sig .tc := ⟨.hbm, 1013, rfl⟩
abbrev main_v929 : Ref sig .tc := ⟨.hbm, 1014, rfl⟩
abbrev main_v930 : Ref sig .tc := ⟨.hbm, 1015, rfl⟩
abbrev main_v931 : Ref sig .tc := ⟨.hbm, 1016, rfl⟩
abbrev main_v932 : Ref sig .tc := ⟨.hbm, 1017, rfl⟩
abbrev main_v933 : Ref sig .tc := ⟨.hbm, 1018, rfl⟩
abbrev main_v934 : Ref sig .tc := ⟨.hbm, 1019, rfl⟩
abbrev main_v935 : Ref sig .tc := ⟨.hbm, 1020, rfl⟩
abbrev main_cst_59 : Ref sig .tc := ⟨.hbm, 1021, rfl⟩
abbrev main_v936 : Ref sig .tc := ⟨.hbm, 1022, rfl⟩
abbrev main_v937 : Ref sig .tc := ⟨.hbm, 1023, rfl⟩
abbrev main_v938 : Ref sig .tc := ⟨.hbm, 1024, rfl⟩
abbrev main_v939 : Ref sig .tc := ⟨.hbm, 1025, rfl⟩
abbrev main_v940 : Ref sig .tc := ⟨.hbm, 1026, rfl⟩
abbrev main_v941 : Ref sig .tc := ⟨.hbm, 1027, rfl⟩
abbrev main_v942 : Ref sig .tc := ⟨.hbm, 1028, rfl⟩
abbrev main_v943 : Ref sig .tc := ⟨.hbm, 1029, rfl⟩
abbrev main_v944 : Ref sig .tc := ⟨.hbm, 1030, rfl⟩
abbrev main_v945 : Ref sig .tc := ⟨.hbm, 1031, rfl⟩
abbrev main_v946 : Ref sig .tc := ⟨.hbm, 1032, rfl⟩
abbrev main_v947 : Ref sig .tc := ⟨.hbm, 1033, rfl⟩
abbrev main_v948 : Ref sig .tc := ⟨.hbm, 1034, rfl⟩
abbrev main_v949 : Ref sig .tc := ⟨.hbm, 1035, rfl⟩
abbrev main_v950 : Ref sig .tc := ⟨.hbm, 1036, rfl⟩
abbrev main_v951 : Ref sig .tc := ⟨.hbm, 1037, rfl⟩
abbrev main_v952 : Ref sig .tc := ⟨.hbm, 1038, rfl⟩
abbrev main_v953 : Ref sig .tc := ⟨.hbm, 1039, rfl⟩
abbrev main_v954 : Ref sig .tc := ⟨.hbm, 1040, rfl⟩
abbrev main_v955 : Ref sig .tc := ⟨.hbm, 1041, rfl⟩
abbrev main_v956 : Ref sig .tc := ⟨.hbm, 1042, rfl⟩
abbrev main_v957 : Ref sig .tc := ⟨.hbm, 1043, rfl⟩
abbrev main_v958 : Ref sig .tc := ⟨.hbm, 1044, rfl⟩
abbrev main_v959 : Ref sig .tc := ⟨.hbm, 1045, rfl⟩
abbrev main_v960 : Ref sig .tc := ⟨.hbm, 1046, rfl⟩
abbrev main_v961 : Ref sig .tc := ⟨.hbm, 1047, rfl⟩
abbrev main_v962 : Ref sig .tc := ⟨.hbm, 1048, rfl⟩
abbrev main_v963 : Ref sig .tc := ⟨.hbm, 1049, rfl⟩
abbrev main_v964 : Ref sig .tc := ⟨.hbm, 1050, rfl⟩
abbrev main_v965 : Ref sig .tc := ⟨.hbm, 1051, rfl⟩
abbrev main_v966 : Ref sig .tc := ⟨.hbm, 1052, rfl⟩
abbrev main_v967 : Ref sig .tc := ⟨.hbm, 1053, rfl⟩
abbrev main_v968 : Ref sig .tc := ⟨.hbm, 1054, rfl⟩
abbrev main_v969 : Ref sig .tc := ⟨.hbm, 1055, rfl⟩
abbrev main_v970 : Ref sig .tc := ⟨.hbm, 1056, rfl⟩
abbrev main_v971 : Ref sig .tc := ⟨.hbm, 1057, rfl⟩
abbrev main_v972 : Ref sig .tc := ⟨.hbm, 1058, rfl⟩
abbrev main_v973 : Ref sig .tc := ⟨.hbm, 1059, rfl⟩
abbrev main_v974 : Ref sig .tc := ⟨.hbm, 1060, rfl⟩
abbrev main_v975 : Ref sig .tc := ⟨.hbm, 1061, rfl⟩
abbrev main_cst_60 : Ref sig .tc := ⟨.hbm, 1062, rfl⟩
abbrev main_v976 : Ref sig .tc := ⟨.hbm, 1063, rfl⟩
abbrev main_v977 : Ref sig .tc := ⟨.hbm, 1064, rfl⟩
abbrev main_cst_61 : Ref sig .tc := ⟨.hbm, 1065, rfl⟩
abbrev main_v978 : Ref sig .tc := ⟨.hbm, 1066, rfl⟩
abbrev main_v979 : Ref sig .tc := ⟨.hbm, 1067, rfl⟩
abbrev main_v980 : Ref sig .tc := ⟨.hbm, 1068, rfl⟩
abbrev main_v981 : Ref sig .tc := ⟨.hbm, 1069, rfl⟩
abbrev main_v982 : Ref sig .tc := ⟨.hbm, 1070, rfl⟩
abbrev main_v983 : Ref sig .tc := ⟨.hbm, 1071, rfl⟩
abbrev main_v984 : Ref sig .tc := ⟨.hbm, 1072, rfl⟩
abbrev main_v985 : Ref sig .tc := ⟨.hbm, 1073, rfl⟩
abbrev main_v986 : Ref sig .tc := ⟨.hbm, 1074, rfl⟩
abbrev main_v987 : Ref sig .tc := ⟨.hbm, 1075, rfl⟩
abbrev main_v988 : Ref sig .tc := ⟨.hbm, 1076, rfl⟩
abbrev main_v989 : Ref sig .tc := ⟨.hbm, 1077, rfl⟩
abbrev main_v990 : Ref sig .tc := ⟨.hbm, 1078, rfl⟩
abbrev main_v991 : Ref sig .tc := ⟨.hbm, 1079, rfl⟩
abbrev main_v992 : Ref sig .tc := ⟨.hbm, 1080, rfl⟩
abbrev main_v993 : Ref sig .tc := ⟨.hbm, 1081, rfl⟩
abbrev main_v994 : Ref sig .tc := ⟨.hbm, 1082, rfl⟩
abbrev main_v995 : Ref sig .tc := ⟨.hbm, 1083, rfl⟩
abbrev main_v996 : Ref sig .tc := ⟨.hbm, 1084, rfl⟩
abbrev main_v997 : Ref sig .tc := ⟨.hbm, 1085, rfl⟩
abbrev main_v998 : Ref sig .tc := ⟨.hbm, 1086, rfl⟩
abbrev main_v999 : Ref sig .tc := ⟨.hbm, 1087, rfl⟩
abbrev main_v1000 : Ref sig .tc := ⟨.hbm, 1088, rfl⟩
abbrev main_v1001 : Ref sig .tc := ⟨.hbm, 1089, rfl⟩
abbrev main_v1002 : Ref sig .tc := ⟨.hbm, 1090, rfl⟩
abbrev main_v1003 : Ref sig .tc := ⟨.hbm, 1091, rfl⟩
abbrev main_cst_62 : Ref sig .tc := ⟨.hbm, 1092, rfl⟩
abbrev main_v1004 : Ref sig .tc := ⟨.hbm, 1093, rfl⟩
abbrev main_v1005 : Ref sig .tc := ⟨.hbm, 1094, rfl⟩
abbrev main_cst_63 : Ref sig .tc := ⟨.hbm, 1095, rfl⟩
abbrev main_v1006 : Ref sig .tc := ⟨.hbm, 1096, rfl⟩
abbrev main_v1007 : Ref sig .tc := ⟨.hbm, 1097, rfl⟩
abbrev main_v1008 : Ref sig .tc := ⟨.hbm, 1098, rfl⟩
abbrev main_v1009 : Ref sig .tc := ⟨.hbm, 1099, rfl⟩
abbrev main_v1010 : Ref sig .tc := ⟨.hbm, 1100, rfl⟩
abbrev main_v1011 : Ref sig .tc := ⟨.hbm, 1101, rfl⟩
abbrev main_v1012 : Ref sig .tc := ⟨.hbm, 1102, rfl⟩
abbrev main_v1013 : Ref sig .tc := ⟨.hbm, 1103, rfl⟩
abbrev main_v1014 : Ref sig .tc := ⟨.hbm, 1104, rfl⟩
abbrev main_v1015 : Ref sig .tc := ⟨.hbm, 1105, rfl⟩
abbrev main_v1016 : Ref sig .tc := ⟨.hbm, 1106, rfl⟩
abbrev main_v1017 : Ref sig .tc := ⟨.hbm, 1107, rfl⟩
abbrev main_v1018 : Ref sig .tc := ⟨.hbm, 1108, rfl⟩
abbrev main_v1019 : Ref sig .tc := ⟨.hbm, 1109, rfl⟩
abbrev main_v1020 : Ref sig .tc := ⟨.hbm, 1110, rfl⟩
abbrev main_v1021 : Ref sig .tc := ⟨.hbm, 1111, rfl⟩
abbrev main_v1022 : Ref sig .tc := ⟨.hbm, 1112, rfl⟩
abbrev main_v1023 : Ref sig .tc := ⟨.hbm, 1113, rfl⟩
abbrev main_v1024 : Ref sig .tc := ⟨.hbm, 1114, rfl⟩
abbrev main_v1025 : Ref sig .tc := ⟨.hbm, 1115, rfl⟩
abbrev main_v1026 : Ref sig .tc := ⟨.hbm, 1116, rfl⟩
abbrev main_v1027 : Ref sig .tc := ⟨.hbm, 1117, rfl⟩
abbrev main_v1028 : Ref sig .tc := ⟨.hbm, 1118, rfl⟩
abbrev main_v1029 : Ref sig .tc := ⟨.hbm, 1119, rfl⟩
abbrev main_v1030 : Ref sig .tc := ⟨.hbm, 1120, rfl⟩
abbrev main_cst_64 : Ref sig .tc := ⟨.hbm, 1121, rfl⟩
abbrev main_v1031 : Ref sig .tc := ⟨.hbm, 1122, rfl⟩
abbrev main_v1032 : Ref sig .tc := ⟨.hbm, 1123, rfl⟩
abbrev main_cst_65 : Ref sig .tc := ⟨.hbm, 1124, rfl⟩
abbrev main_v1033 : Ref sig .tc := ⟨.hbm, 1125, rfl⟩
abbrev main_v1034 : Ref sig .tc := ⟨.hbm, 1126, rfl⟩
abbrev main_v1035 : Ref sig .tc := ⟨.hbm, 1127, rfl⟩
abbrev main_v1036 : Ref sig .tc := ⟨.hbm, 1128, rfl⟩
abbrev main_v1037 : Ref sig .tc := ⟨.hbm, 1129, rfl⟩
abbrev main_v1038 : Ref sig .tc := ⟨.hbm, 1130, rfl⟩
abbrev main_v1039 : Ref sig .tc := ⟨.hbm, 1131, rfl⟩
abbrev main_v1040 : Ref sig .tc := ⟨.hbm, 1132, rfl⟩
abbrev main_v1041 : Ref sig .tc := ⟨.hbm, 1133, rfl⟩
abbrev main_v1042 : Ref sig .tc := ⟨.hbm, 1134, rfl⟩
abbrev main_v1043 : Ref sig .tc := ⟨.hbm, 1135, rfl⟩
abbrev main_v1044 : Ref sig .tc := ⟨.hbm, 1136, rfl⟩
abbrev main_v1045 : Ref sig .tc := ⟨.hbm, 1137, rfl⟩
abbrev main_v1046 : Ref sig .tc := ⟨.hbm, 1138, rfl⟩
abbrev main_v1047 : Ref sig .tc := ⟨.hbm, 1139, rfl⟩
abbrev main_v1048 : Ref sig .tc := ⟨.hbm, 1140, rfl⟩
abbrev main_v1049 : Ref sig .tc := ⟨.hbm, 1141, rfl⟩
abbrev main_v1050 : Ref sig .tc := ⟨.hbm, 1142, rfl⟩
abbrev main_v1051 : Ref sig .tc := ⟨.hbm, 1143, rfl⟩
abbrev main_v1052 : Ref sig .tc := ⟨.hbm, 1144, rfl⟩
abbrev main_v1053 : Ref sig .tc := ⟨.hbm, 1145, rfl⟩
abbrev main_v1054 : Ref sig .tc := ⟨.hbm, 1146, rfl⟩
abbrev main_v1055 : Ref sig .tc := ⟨.hbm, 1147, rfl⟩
abbrev main_cst_66 : Ref sig .tc := ⟨.hbm, 1148, rfl⟩
abbrev main_v1056 : Ref sig .tc := ⟨.hbm, 1149, rfl⟩
abbrev main_v1057 : Ref sig .tc := ⟨.hbm, 1150, rfl⟩
abbrev main_cst_67 : Ref sig .tc := ⟨.hbm, 1151, rfl⟩
abbrev main_v1058 : Ref sig .tc := ⟨.hbm, 1152, rfl⟩
abbrev main_v1059 : Ref sig .tc := ⟨.hbm, 1153, rfl⟩
abbrev main_v1060 : Ref sig .tc := ⟨.hbm, 1154, rfl⟩
abbrev main_v1061 : Ref sig .tc := ⟨.hbm, 1155, rfl⟩
abbrev main_v1062 : Ref sig .tc := ⟨.hbm, 1156, rfl⟩
abbrev main_v1063 : Ref sig .tc := ⟨.hbm, 1157, rfl⟩
abbrev main_v1064 : Ref sig .tc := ⟨.hbm, 1158, rfl⟩
abbrev main_v1065 : Ref sig .tc := ⟨.hbm, 1159, rfl⟩
abbrev main_v1066 : Ref sig .tc := ⟨.hbm, 1160, rfl⟩
abbrev main_v1067 : Ref sig .tc := ⟨.hbm, 1161, rfl⟩
abbrev main_v1068 : Ref sig .tc := ⟨.hbm, 1162, rfl⟩
abbrev main_v1069 : Ref sig .tc := ⟨.hbm, 1163, rfl⟩
abbrev main_v1070 : Ref sig .tc := ⟨.hbm, 1164, rfl⟩
abbrev main_v1071 : Ref sig .tc := ⟨.hbm, 1165, rfl⟩
abbrev main_v1072 : Ref sig .tc := ⟨.hbm, 1166, rfl⟩
abbrev main_cst_68 : Ref sig .tc := ⟨.hbm, 1167, rfl⟩
abbrev main_v1073 : Ref sig .tc := ⟨.hbm, 1168, rfl⟩
abbrev main_v1074 : Ref sig .tc := ⟨.hbm, 1169, rfl⟩
abbrev main_v1075 : Ref sig .tc := ⟨.hbm, 1170, rfl⟩
abbrev main_v1076 : Ref sig .tc := ⟨.hbm, 1171, rfl⟩
abbrev main_v1077 : Ref sig .tc := ⟨.hbm, 1172, rfl⟩
abbrev main_v1078 : Ref sig .tc := ⟨.hbm, 1173, rfl⟩
abbrev main_v1079 : Ref sig .tc := ⟨.hbm, 1174, rfl⟩
abbrev main_v1080 : Ref sig .tc := ⟨.hbm, 1175, rfl⟩
abbrev main_v1081 : Ref sig .tc := ⟨.hbm, 1176, rfl⟩
abbrev main_v1082 : Ref sig .tc := ⟨.hbm, 1177, rfl⟩
abbrev main_v1083 : Ref sig .tc := ⟨.hbm, 1178, rfl⟩
abbrev main_v1084 : Ref sig .tc := ⟨.hbm, 1179, rfl⟩
abbrev main_v1085 : Ref sig .tc := ⟨.hbm, 1180, rfl⟩
abbrev main_v1086 : Ref sig .tc := ⟨.hbm, 1181, rfl⟩
abbrev main_v1087 : Ref sig .tc := ⟨.hbm, 1182, rfl⟩
abbrev main_v1088 : Ref sig .tc := ⟨.hbm, 1183, rfl⟩
abbrev main_v1089 : Ref sig .tc := ⟨.hbm, 1184, rfl⟩
abbrev main_v1090 : Ref sig .tc := ⟨.hbm, 1185, rfl⟩
abbrev main_v1091 : Ref sig .tc := ⟨.hbm, 1186, rfl⟩
abbrev main_v1092 : Ref sig .tc := ⟨.hbm, 1187, rfl⟩
abbrev main_v1093 : Ref sig .tc := ⟨.hbm, 1188, rfl⟩
abbrev main_v1094 : Ref sig .tc := ⟨.hbm, 1189, rfl⟩
abbrev main_v1095 : Ref sig .tc := ⟨.hbm, 1190, rfl⟩
abbrev main_v1096 : Ref sig .tc := ⟨.hbm, 1191, rfl⟩
abbrev main_v1097 : Ref sig .tc := ⟨.hbm, 1192, rfl⟩
abbrev main_v1098 : Ref sig .tc := ⟨.hbm, 1193, rfl⟩
abbrev main_v1099 : Ref sig .tc := ⟨.hbm, 1194, rfl⟩
abbrev main_v1100 : Ref sig .tc := ⟨.hbm, 1195, rfl⟩
abbrev main_v1101 : Ref sig .tc := ⟨.hbm, 1196, rfl⟩
abbrev main_v1102 : Ref sig .tc := ⟨.hbm, 1197, rfl⟩
abbrev main_v1103 : Ref sig .tc := ⟨.hbm, 1198, rfl⟩
abbrev main_v1104 : Ref sig .tc := ⟨.hbm, 1199, rfl⟩
abbrev main_v1105 : Ref sig .tc := ⟨.hbm, 1200, rfl⟩
abbrev main_v1106 : Ref sig .tc := ⟨.hbm, 1201, rfl⟩
abbrev main_v1107 : Ref sig .tc := ⟨.hbm, 1202, rfl⟩
abbrev main_v1108 : Ref sig .tc := ⟨.hbm, 1203, rfl⟩
abbrev main_v1109 : Ref sig .tc := ⟨.hbm, 1204, rfl⟩
abbrev main_v1110 : Ref sig .tc := ⟨.hbm, 1205, rfl⟩
abbrev main_v1111 : Ref sig .tc := ⟨.hbm, 1206, rfl⟩
abbrev main_v1112 : Ref sig .tc := ⟨.hbm, 1207, rfl⟩
abbrev main_cst_69 : Ref sig .tc := ⟨.hbm, 1208, rfl⟩
abbrev main_v1113 : Ref sig .tc := ⟨.hbm, 1209, rfl⟩
abbrev main_v1114 : Ref sig .tc := ⟨.hbm, 1210, rfl⟩
abbrev main_cst_70 : Ref sig .tc := ⟨.hbm, 1211, rfl⟩
abbrev main_v1115 : Ref sig .tc := ⟨.hbm, 1212, rfl⟩
abbrev main_v1116 : Ref sig .tc := ⟨.hbm, 1213, rfl⟩
abbrev main_v1117 : Ref sig .tc := ⟨.hbm, 1214, rfl⟩
abbrev main_v1118 : Ref sig .tc := ⟨.hbm, 1215, rfl⟩
abbrev main_v1119 : Ref sig .tc := ⟨.hbm, 1216, rfl⟩
abbrev main_v1120 : Ref sig .tc := ⟨.hbm, 1217, rfl⟩
abbrev main_v1121 : Ref sig .tc := ⟨.hbm, 1218, rfl⟩
abbrev main_v1122 : Ref sig .tc := ⟨.hbm, 1219, rfl⟩
abbrev main_v1123 : Ref sig .tc := ⟨.hbm, 1220, rfl⟩
abbrev main_v1124 : Ref sig .tc := ⟨.hbm, 1221, rfl⟩
abbrev main_v1125 : Ref sig .tc := ⟨.hbm, 1222, rfl⟩
abbrev main_v1126 : Ref sig .tc := ⟨.hbm, 1223, rfl⟩
abbrev main_v1127 : Ref sig .tc := ⟨.hbm, 1224, rfl⟩
abbrev main_v1128 : Ref sig .tc := ⟨.hbm, 1225, rfl⟩
abbrev main_v1129 : Ref sig .tc := ⟨.hbm, 1226, rfl⟩
abbrev main_v1130 : Ref sig .tc := ⟨.hbm, 1227, rfl⟩
abbrev main_v1131 : Ref sig .tc := ⟨.hbm, 1228, rfl⟩
abbrev main_v1132 : Ref sig .tc := ⟨.hbm, 1229, rfl⟩
abbrev main_v1133 : Ref sig .tc := ⟨.hbm, 1230, rfl⟩
abbrev main_v1134 : Ref sig .tc := ⟨.hbm, 1231, rfl⟩
abbrev main_v1135 : Ref sig .tc := ⟨.hbm, 1232, rfl⟩
abbrev main_v1136 : Ref sig .tc := ⟨.hbm, 1233, rfl⟩
abbrev main_v1137 : Ref sig .tc := ⟨.hbm, 1234, rfl⟩
abbrev main_v1138 : Ref sig .tc := ⟨.hbm, 1235, rfl⟩
abbrev main_v1139 : Ref sig .tc := ⟨.hbm, 1236, rfl⟩
abbrev main_v1140 : Ref sig .tc := ⟨.hbm, 1237, rfl⟩
abbrev main_cst_71 : Ref sig .tc := ⟨.hbm, 1238, rfl⟩
abbrev main_v1141 : Ref sig .tc := ⟨.hbm, 1239, rfl⟩
abbrev main_v1142 : Ref sig .tc := ⟨.hbm, 1240, rfl⟩
abbrev main_cst_72 : Ref sig .tc := ⟨.hbm, 1241, rfl⟩
abbrev main_v1143 : Ref sig .tc := ⟨.hbm, 1242, rfl⟩
abbrev main_v1144 : Ref sig .tc := ⟨.hbm, 1243, rfl⟩
abbrev main_v1145 : Ref sig .tc := ⟨.hbm, 1244, rfl⟩
abbrev main_v1146 : Ref sig .tc := ⟨.hbm, 1245, rfl⟩
abbrev main_v1147 : Ref sig .tc := ⟨.hbm, 1246, rfl⟩
abbrev main_v1148 : Ref sig .tc := ⟨.hbm, 1247, rfl⟩
abbrev main_v1149 : Ref sig .tc := ⟨.hbm, 1248, rfl⟩
abbrev main_v1150 : Ref sig .tc := ⟨.hbm, 1249, rfl⟩
abbrev main_v1151 : Ref sig .tc := ⟨.hbm, 1250, rfl⟩
abbrev main_v1152 : Ref sig .tc := ⟨.hbm, 1251, rfl⟩
abbrev main_v1153 : Ref sig .tc := ⟨.hbm, 1252, rfl⟩
abbrev main_v1154 : Ref sig .tc := ⟨.hbm, 1253, rfl⟩
abbrev main_v1155 : Ref sig .tc := ⟨.hbm, 1254, rfl⟩
abbrev main_v1156 : Ref sig .tc := ⟨.hbm, 1255, rfl⟩
abbrev main_v1157 : Ref sig .tc := ⟨.hbm, 1256, rfl⟩
abbrev main_v1158 : Ref sig .tc := ⟨.hbm, 1257, rfl⟩
abbrev main_v1159 : Ref sig .tc := ⟨.hbm, 1258, rfl⟩
abbrev main_v1160 : Ref sig .tc := ⟨.hbm, 1259, rfl⟩
abbrev main_v1161 : Ref sig .tc := ⟨.hbm, 1260, rfl⟩
abbrev main_v1162 : Ref sig .tc := ⟨.hbm, 1261, rfl⟩
abbrev main_v1163 : Ref sig .tc := ⟨.hbm, 1262, rfl⟩
abbrev main_v1164 : Ref sig .tc := ⟨.hbm, 1263, rfl⟩
abbrev main_v1165 : Ref sig .tc := ⟨.hbm, 1264, rfl⟩
abbrev main_v1166 : Ref sig .tc := ⟨.hbm, 1265, rfl⟩
abbrev main_v1167 : Ref sig .tc := ⟨.hbm, 1266, rfl⟩
abbrev main_cst_73 : Ref sig .tc := ⟨.hbm, 1267, rfl⟩
abbrev main_v1168 : Ref sig .tc := ⟨.hbm, 1268, rfl⟩
abbrev main_v1169 : Ref sig .tc := ⟨.hbm, 1269, rfl⟩
abbrev main_cst_74 : Ref sig .tc := ⟨.hbm, 1270, rfl⟩
abbrev main_v1170 : Ref sig .tc := ⟨.hbm, 1271, rfl⟩
abbrev main_v1171 : Ref sig .tc := ⟨.hbm, 1272, rfl⟩
abbrev main_v1172 : Ref sig .tc := ⟨.hbm, 1273, rfl⟩
abbrev main_v1173 : Ref sig .tc := ⟨.hbm, 1274, rfl⟩
abbrev main_v1174 : Ref sig .tc := ⟨.hbm, 1275, rfl⟩
abbrev main_v1175 : Ref sig .tc := ⟨.hbm, 1276, rfl⟩
abbrev main_v1176 : Ref sig .tc := ⟨.hbm, 1277, rfl⟩
abbrev main_v1177 : Ref sig .tc := ⟨.hbm, 1278, rfl⟩
abbrev main_v1178 : Ref sig .tc := ⟨.hbm, 1279, rfl⟩
abbrev main_v1179 : Ref sig .tc := ⟨.hbm, 1280, rfl⟩
abbrev main_v1180 : Ref sig .tc := ⟨.hbm, 1281, rfl⟩
abbrev main_v1181 : Ref sig .tc := ⟨.hbm, 1282, rfl⟩
abbrev main_v1182 : Ref sig .tc := ⟨.hbm, 1283, rfl⟩
abbrev main_v1183 : Ref sig .tc := ⟨.hbm, 1284, rfl⟩
abbrev main_v1184 : Ref sig .tc := ⟨.hbm, 1285, rfl⟩
abbrev main_v1185 : Ref sig .tc := ⟨.hbm, 1286, rfl⟩
abbrev main_v1186 : Ref sig .tc := ⟨.hbm, 1287, rfl⟩
abbrev main_v1187 : Ref sig .tc := ⟨.hbm, 1288, rfl⟩
abbrev main_v1188 : Ref sig .tc := ⟨.hbm, 1289, rfl⟩
abbrev main_v1189 : Ref sig .tc := ⟨.hbm, 1290, rfl⟩
abbrev main_v1190 : Ref sig .tc := ⟨.hbm, 1291, rfl⟩
abbrev main_v1191 : Ref sig .tc := ⟨.hbm, 1292, rfl⟩
abbrev main_v1192 : Ref sig .tc := ⟨.hbm, 1293, rfl⟩
abbrev main_cst_75 : Ref sig .tc := ⟨.hbm, 1294, rfl⟩
abbrev main_v1193 : Ref sig .tc := ⟨.hbm, 1295, rfl⟩
abbrev main_v1194 : Ref sig .tc := ⟨.hbm, 1296, rfl⟩
abbrev main_cst_76 : Ref sig .tc := ⟨.hbm, 1297, rfl⟩
abbrev main_v1195 : Ref sig .tc := ⟨.hbm, 1298, rfl⟩
abbrev main_v1196 : Ref sig .tc := ⟨.hbm, 1299, rfl⟩
abbrev main_v1197 : Ref sig .tc := ⟨.hbm, 1300, rfl⟩
abbrev main_v1198 : Ref sig .tc := ⟨.hbm, 1301, rfl⟩
abbrev main_v1199 : Ref sig .tc := ⟨.hbm, 1302, rfl⟩
abbrev main_v1200 : Ref sig .tc := ⟨.hbm, 1303, rfl⟩
abbrev main_v1201 : Ref sig .tc := ⟨.hbm, 1304, rfl⟩
abbrev main_v1202 : Ref sig .tc := ⟨.hbm, 1305, rfl⟩
abbrev main_v1203 : Ref sig .tc := ⟨.hbm, 1306, rfl⟩
abbrev main_v1204 : Ref sig .tc := ⟨.hbm, 1307, rfl⟩
abbrev main_v1205 : Ref sig .tc := ⟨.hbm, 1308, rfl⟩
abbrev main_v1206 : Ref sig .tc := ⟨.hbm, 1309, rfl⟩
abbrev main_v1207 : Ref sig .tc := ⟨.hbm, 1310, rfl⟩
abbrev main_v1208 : Ref sig .tc := ⟨.hbm, 1311, rfl⟩
abbrev main_v1209 : Ref sig .tc := ⟨.hbm, 1312, rfl⟩
abbrev main_cst_77 : Ref sig .tc := ⟨.hbm, 1313, rfl⟩
abbrev main_v1210 : Ref sig .tc := ⟨.hbm, 1314, rfl⟩
abbrev main_v1211 : Ref sig .tc := ⟨.hbm, 1315, rfl⟩
abbrev main_v1212 : Ref sig .tc := ⟨.hbm, 1316, rfl⟩
abbrev main_v1213 : Ref sig .tc := ⟨.hbm, 1317, rfl⟩
abbrev main_v1214 : Ref sig .tc := ⟨.hbm, 1318, rfl⟩
abbrev main_v1215 : Ref sig .tc := ⟨.hbm, 1319, rfl⟩
abbrev main_v1216 : Ref sig .tc := ⟨.hbm, 1320, rfl⟩
abbrev main_v1217 : Ref sig .tc := ⟨.hbm, 1321, rfl⟩
abbrev main_v1218 : Ref sig .tc := ⟨.hbm, 1322, rfl⟩
abbrev main_v1219 : Ref sig .tc := ⟨.hbm, 1323, rfl⟩
abbrev main_v1220 : Ref sig .tc := ⟨.hbm, 1324, rfl⟩
abbrev main_v1221 : Ref sig .tc := ⟨.hbm, 1325, rfl⟩
abbrev main_v1222 : Ref sig .tc := ⟨.hbm, 1326, rfl⟩
abbrev main_v1223 : Ref sig .tc := ⟨.hbm, 1327, rfl⟩
abbrev main_v1224 : Ref sig .tc := ⟨.hbm, 1328, rfl⟩
abbrev main_v1225 : Ref sig .tc := ⟨.hbm, 1329, rfl⟩
abbrev main_v1226 : Ref sig .tc := ⟨.hbm, 1330, rfl⟩
abbrev main_v1227 : Ref sig .tc := ⟨.hbm, 1331, rfl⟩
abbrev main_v1228 : Ref sig .tc := ⟨.hbm, 1332, rfl⟩
abbrev main_v1229 : Ref sig .tc := ⟨.hbm, 1333, rfl⟩
abbrev main_v1230 : Ref sig .tc := ⟨.hbm, 1334, rfl⟩
abbrev main_v1231 : Ref sig .tc := ⟨.hbm, 1335, rfl⟩
abbrev main_v1232 : Ref sig .tc := ⟨.hbm, 1336, rfl⟩
abbrev main_v1233 : Ref sig .tc := ⟨.hbm, 1337, rfl⟩
abbrev main_v1234 : Ref sig .tc := ⟨.hbm, 1338, rfl⟩
abbrev main_v1235 : Ref sig .tc := ⟨.hbm, 1339, rfl⟩
abbrev main_v1236 : Ref sig .tc := ⟨.hbm, 1340, rfl⟩
abbrev main_v1237 : Ref sig .tc := ⟨.hbm, 1341, rfl⟩
abbrev main_v1238 : Ref sig .tc := ⟨.hbm, 1342, rfl⟩
abbrev main_v1239 : Ref sig .tc := ⟨.hbm, 1343, rfl⟩
abbrev main_v1240 : Ref sig .tc := ⟨.hbm, 1344, rfl⟩
abbrev main_v1241 : Ref sig .tc := ⟨.hbm, 1345, rfl⟩
abbrev main_v1242 : Ref sig .tc := ⟨.hbm, 1346, rfl⟩
abbrev main_v1243 : Ref sig .tc := ⟨.hbm, 1347, rfl⟩
abbrev main_v1244 : Ref sig .tc := ⟨.hbm, 1348, rfl⟩
abbrev main_v1245 : Ref sig .tc := ⟨.hbm, 1349, rfl⟩
abbrev main_v1246 : Ref sig .tc := ⟨.hbm, 1350, rfl⟩
abbrev main_v1247 : Ref sig .tc := ⟨.hbm, 1351, rfl⟩
abbrev main_v1248 : Ref sig .tc := ⟨.hbm, 1352, rfl⟩
abbrev main_v1249 : Ref sig .tc := ⟨.hbm, 1353, rfl⟩
abbrev main_cst_78 : Ref sig .tc := ⟨.hbm, 1354, rfl⟩
abbrev main_v1250 : Ref sig .tc := ⟨.hbm, 1355, rfl⟩
abbrev main_v1251 : Ref sig .tc := ⟨.hbm, 1356, rfl⟩
abbrev main_cst_79 : Ref sig .tc := ⟨.hbm, 1357, rfl⟩
abbrev main_v1252 : Ref sig .tc := ⟨.hbm, 1358, rfl⟩
abbrev main_v1253 : Ref sig .tc := ⟨.hbm, 1359, rfl⟩
abbrev main_v1254 : Ref sig .tc := ⟨.hbm, 1360, rfl⟩
abbrev main_v1255 : Ref sig .tc := ⟨.hbm, 1361, rfl⟩
abbrev main_v1256 : Ref sig .tc := ⟨.hbm, 1362, rfl⟩
abbrev main_v1257 : Ref sig .tc := ⟨.hbm, 1363, rfl⟩
abbrev main_v1258 : Ref sig .tc := ⟨.hbm, 1364, rfl⟩
abbrev main_v1259 : Ref sig .tc := ⟨.hbm, 1365, rfl⟩
abbrev main_v1260 : Ref sig .tc := ⟨.hbm, 1366, rfl⟩
abbrev main_v1261 : Ref sig .tc := ⟨.hbm, 1367, rfl⟩
abbrev main_v1262 : Ref sig .tc := ⟨.hbm, 1368, rfl⟩
abbrev main_v1263 : Ref sig .tc := ⟨.hbm, 1369, rfl⟩
abbrev main_v1264 : Ref sig .tc := ⟨.hbm, 1370, rfl⟩
abbrev main_v1265 : Ref sig .tc := ⟨.hbm, 1371, rfl⟩
abbrev main_v1266 : Ref sig .tc := ⟨.hbm, 1372, rfl⟩
abbrev main_v1267 : Ref sig .tc := ⟨.hbm, 1373, rfl⟩
abbrev main_v1268 : Ref sig .tc := ⟨.hbm, 1374, rfl⟩
abbrev main_v1269 : Ref sig .tc := ⟨.hbm, 1375, rfl⟩
abbrev main_v1270 : Ref sig .tc := ⟨.hbm, 1376, rfl⟩
abbrev main_v1271 : Ref sig .tc := ⟨.hbm, 1377, rfl⟩
abbrev main_v1272 : Ref sig .tc := ⟨.hbm, 1378, rfl⟩
abbrev main_v1273 : Ref sig .tc := ⟨.hbm, 1379, rfl⟩
abbrev main_v1274 : Ref sig .tc := ⟨.hbm, 1380, rfl⟩
abbrev main_v1275 : Ref sig .tc := ⟨.hbm, 1381, rfl⟩
abbrev main_v1276 : Ref sig .tc := ⟨.hbm, 1382, rfl⟩
abbrev main_v1277 : Ref sig .tc := ⟨.hbm, 1383, rfl⟩
abbrev main_v1278 : Ref sig .tc := ⟨.hbm, 1384, rfl⟩
abbrev main_v1279 : Ref sig .tc := ⟨.hbm, 1385, rfl⟩
abbrev main_v1280 : Ref sig .tc := ⟨.hbm, 1386, rfl⟩
abbrev main_v1281 : Ref sig .tc := ⟨.hbm, 1387, rfl⟩
abbrev main_v1282 : Ref sig .tc := ⟨.hbm, 1388, rfl⟩
abbrev main_v1283 : Ref sig .tc := ⟨.hbm, 1389, rfl⟩
abbrev main_v1284 : Ref sig .tc := ⟨.hbm, 1390, rfl⟩
abbrev main_v1285 : Ref sig .tc := ⟨.hbm, 1391, rfl⟩
abbrev main_v1286 : Ref sig .tc := ⟨.hbm, 1392, rfl⟩
abbrev main_v1287 : Ref sig .tc := ⟨.hbm, 1393, rfl⟩
abbrev main_cst_80 : Ref sig .tc := ⟨.hbm, 1394, rfl⟩
abbrev main_v1288 : Ref sig .tc := ⟨.hbm, 1395, rfl⟩
abbrev main_v1289 : Ref sig .tc := ⟨.hbm, 1396, rfl⟩
abbrev main_cst_81 : Ref sig .tc := ⟨.hbm, 1397, rfl⟩
abbrev main_v1290 : Ref sig .tc := ⟨.hbm, 1398, rfl⟩
abbrev main_v1291 : Ref sig .tc := ⟨.hbm, 1399, rfl⟩
abbrev main_v1292 : Ref sig .tc := ⟨.hbm, 1400, rfl⟩
abbrev main_v1293 : Ref sig .tc := ⟨.hbm, 1401, rfl⟩
abbrev main_v1294 : Ref sig .tc := ⟨.hbm, 1402, rfl⟩
abbrev main_v1295 : Ref sig .tc := ⟨.hbm, 1403, rfl⟩
abbrev main_v1296 : Ref sig .tc := ⟨.hbm, 1404, rfl⟩
abbrev main_v1297 : Ref sig .tc := ⟨.hbm, 1405, rfl⟩
abbrev main_v1298 : Ref sig .tc := ⟨.hbm, 1406, rfl⟩
abbrev main_v1299 : Ref sig .tc := ⟨.hbm, 1407, rfl⟩
abbrev main_v1300 : Ref sig .tc := ⟨.hbm, 1408, rfl⟩
abbrev main_v1301 : Ref sig .tc := ⟨.hbm, 1409, rfl⟩
abbrev main_v1302 : Ref sig .tc := ⟨.hbm, 1410, rfl⟩
abbrev main_v1303 : Ref sig .tc := ⟨.hbm, 1411, rfl⟩
abbrev main_v1304 : Ref sig .tc := ⟨.hbm, 1412, rfl⟩
abbrev main_v1305 : Ref sig .tc := ⟨.hbm, 1413, rfl⟩
abbrev main_v1306 : Ref sig .tc := ⟨.hbm, 1414, rfl⟩
abbrev main_v1307 : Ref sig .tc := ⟨.hbm, 1415, rfl⟩
abbrev main_v1308 : Ref sig .tc := ⟨.hbm, 1416, rfl⟩
abbrev main_v1309 : Ref sig .tc := ⟨.hbm, 1417, rfl⟩
abbrev main_v1310 : Ref sig .tc := ⟨.hbm, 1418, rfl⟩
abbrev main_v1311 : Ref sig .tc := ⟨.hbm, 1419, rfl⟩
abbrev main_v1312 : Ref sig .tc := ⟨.hbm, 1420, rfl⟩
abbrev main_v1313 : Ref sig .tc := ⟨.hbm, 1421, rfl⟩
abbrev main_v1314 : Ref sig .tc := ⟨.hbm, 1422, rfl⟩
abbrev main_cst_82 : Ref sig .tc := ⟨.hbm, 1423, rfl⟩
abbrev main_v1315 : Ref sig .tc := ⟨.hbm, 1424, rfl⟩
abbrev main_v1316 : Ref sig .tc := ⟨.hbm, 1425, rfl⟩
abbrev main_cst_83 : Ref sig .tc := ⟨.hbm, 1426, rfl⟩
abbrev main_v1317 : Ref sig .tc := ⟨.hbm, 1427, rfl⟩
abbrev main_v1318 : Ref sig .tc := ⟨.hbm, 1428, rfl⟩
abbrev main_v1319 : Ref sig .tc := ⟨.hbm, 1429, rfl⟩
abbrev main_v1320 : Ref sig .tc := ⟨.hbm, 1430, rfl⟩
abbrev main_v1321 : Ref sig .tc := ⟨.hbm, 1431, rfl⟩
abbrev main_v1322 : Ref sig .tc := ⟨.hbm, 1432, rfl⟩
abbrev main_v1323 : Ref sig .tc := ⟨.hbm, 1433, rfl⟩
abbrev main_v1324 : Ref sig .tc := ⟨.hbm, 1434, rfl⟩
abbrev main_v1325 : Ref sig .tc := ⟨.hbm, 1435, rfl⟩
abbrev main_v1326 : Ref sig .tc := ⟨.hbm, 1436, rfl⟩
abbrev main_v1327 : Ref sig .tc := ⟨.hbm, 1437, rfl⟩
abbrev main_v1328 : Ref sig .tc := ⟨.hbm, 1438, rfl⟩
abbrev main_v1329 : Ref sig .tc := ⟨.hbm, 1439, rfl⟩
abbrev main_v1330 : Ref sig .tc := ⟨.hbm, 1440, rfl⟩
abbrev main_v1331 : Ref sig .tc := ⟨.hbm, 1441, rfl⟩
abbrev main_v1332 : Ref sig .tc := ⟨.hbm, 1442, rfl⟩
abbrev main_v1333 : Ref sig .tc := ⟨.hbm, 1443, rfl⟩
abbrev main_v1334 : Ref sig .tc := ⟨.hbm, 1444, rfl⟩
abbrev main_v1335 : Ref sig .tc := ⟨.hbm, 1445, rfl⟩
abbrev main_v1336 : Ref sig .tc := ⟨.hbm, 1446, rfl⟩
abbrev main_v1337 : Ref sig .tc := ⟨.hbm, 1447, rfl⟩
abbrev main_v1338 : Ref sig .tc := ⟨.hbm, 1448, rfl⟩
abbrev main_v1339 : Ref sig .tc := ⟨.hbm, 1449, rfl⟩
abbrev main_cst_84 : Ref sig .tc := ⟨.hbm, 1450, rfl⟩
abbrev main_v1340 : Ref sig .tc := ⟨.hbm, 1451, rfl⟩
abbrev main_v1341 : Ref sig .tc := ⟨.hbm, 1452, rfl⟩
abbrev main_cst_85 : Ref sig .tc := ⟨.hbm, 1453, rfl⟩
abbrev main_v1342 : Ref sig .tc := ⟨.hbm, 1454, rfl⟩
abbrev main_v1343 : Ref sig .tc := ⟨.hbm, 1455, rfl⟩
abbrev main_v1344 : Ref sig .tc := ⟨.hbm, 1456, rfl⟩
abbrev main_v1345 : Ref sig .tc := ⟨.hbm, 1457, rfl⟩
abbrev main_v1346 : Ref sig .tc := ⟨.hbm, 1458, rfl⟩
abbrev main_v1347 : Ref sig .tc := ⟨.hbm, 1459, rfl⟩
abbrev main_v1348 : Ref sig .tc := ⟨.hbm, 1460, rfl⟩
abbrev main_v1349 : Ref sig .tc := ⟨.hbm, 1461, rfl⟩
abbrev main_v1350 : Ref sig .tc := ⟨.hbm, 1462, rfl⟩
abbrev main_v1351 : Ref sig .tc := ⟨.hbm, 1463, rfl⟩
abbrev main_v1352 : Ref sig .tc := ⟨.hbm, 1464, rfl⟩
abbrev main_v1353 : Ref sig .tc := ⟨.hbm, 1465, rfl⟩
abbrev main_v1354 : Ref sig .tc := ⟨.hbm, 1466, rfl⟩
abbrev main_v1355 : Ref sig .tc := ⟨.hbm, 1467, rfl⟩
abbrev main_v1356 : Ref sig .tc := ⟨.hbm, 1468, rfl⟩
abbrev main_cst_86 : Ref sig .tc := ⟨.hbm, 1469, rfl⟩
abbrev main_v1357 : Ref sig .tc := ⟨.hbm, 1470, rfl⟩
abbrev main_v1358 : Ref sig .tc := ⟨.hbm, 1471, rfl⟩
abbrev main_v1359 : Ref sig .tc := ⟨.hbm, 1472, rfl⟩
abbrev main_v1360 : Ref sig .tc := ⟨.hbm, 1473, rfl⟩
abbrev main_v1361 : Ref sig .tc := ⟨.hbm, 1474, rfl⟩
abbrev main_v1362 : Ref sig .tc := ⟨.hbm, 1475, rfl⟩
abbrev main_v1363 : Ref sig .tc := ⟨.hbm, 1476, rfl⟩
abbrev main_v1364 : Ref sig .tc := ⟨.hbm, 1477, rfl⟩
abbrev main_v1365 : Ref sig .tc := ⟨.hbm, 1478, rfl⟩
abbrev main_v1366 : Ref sig .tc := ⟨.hbm, 1479, rfl⟩
abbrev main_v1367 : Ref sig .tc := ⟨.hbm, 1480, rfl⟩
abbrev main_v1368 : Ref sig .tc := ⟨.hbm, 1481, rfl⟩
abbrev main_v1369 : Ref sig .tc := ⟨.hbm, 1482, rfl⟩
abbrev main_v1370 : Ref sig .tc := ⟨.hbm, 1483, rfl⟩
abbrev main_v1371 : Ref sig .tc := ⟨.hbm, 1484, rfl⟩
abbrev main_v1372 : Ref sig .tc := ⟨.hbm, 1485, rfl⟩
abbrev main_v1373 : Ref sig .tc := ⟨.hbm, 1486, rfl⟩
abbrev main_v1374 : Ref sig .tc := ⟨.hbm, 1487, rfl⟩
abbrev main_v1375 : Ref sig .tc := ⟨.hbm, 1488, rfl⟩
abbrev main_v1376 : Ref sig .tc := ⟨.hbm, 1489, rfl⟩
abbrev main_v1377 : Ref sig .tc := ⟨.hbm, 1490, rfl⟩
abbrev main_v1378 : Ref sig .tc := ⟨.hbm, 1491, rfl⟩
abbrev main_v1379 : Ref sig .tc := ⟨.hbm, 1492, rfl⟩
abbrev main_v1380 : Ref sig .tc := ⟨.hbm, 1493, rfl⟩
abbrev main_v1381 : Ref sig .tc := ⟨.hbm, 1494, rfl⟩
abbrev main_v1382 : Ref sig .tc := ⟨.hbm, 1495, rfl⟩
abbrev main_v1383 : Ref sig .tc := ⟨.hbm, 1496, rfl⟩
abbrev main_v1384 : Ref sig .tc := ⟨.hbm, 1497, rfl⟩
abbrev main_v1385 : Ref sig .tc := ⟨.hbm, 1498, rfl⟩
abbrev main_v1386 : Ref sig .tc := ⟨.hbm, 1499, rfl⟩
abbrev main_v1387 : Ref sig .tc := ⟨.hbm, 1500, rfl⟩
abbrev main_v1388 : Ref sig .tc := ⟨.hbm, 1501, rfl⟩
abbrev main_v1389 : Ref sig .tc := ⟨.hbm, 1502, rfl⟩
abbrev main_v1390 : Ref sig .tc := ⟨.hbm, 1503, rfl⟩
abbrev main_v1391 : Ref sig .tc := ⟨.hbm, 1504, rfl⟩
abbrev main_v1392 : Ref sig .tc := ⟨.hbm, 1505, rfl⟩
abbrev main_v1393 : Ref sig .tc := ⟨.hbm, 1506, rfl⟩
abbrev main_v1394 : Ref sig .tc := ⟨.hbm, 1507, rfl⟩
abbrev main_v1395 : Ref sig .tc := ⟨.hbm, 1508, rfl⟩
abbrev main_v1396 : Ref sig .tc := ⟨.hbm, 1509, rfl⟩
abbrev main_cst_87 : Ref sig .tc := ⟨.hbm, 1510, rfl⟩
abbrev main_v1397 : Ref sig .tc := ⟨.hbm, 1511, rfl⟩
abbrev main_v1398 : Ref sig .tc := ⟨.hbm, 1512, rfl⟩
abbrev main_cst_88 : Ref sig .tc := ⟨.hbm, 1513, rfl⟩
abbrev main_v1399 : Ref sig .tc := ⟨.hbm, 1514, rfl⟩
abbrev main_v1400 : Ref sig .tc := ⟨.hbm, 1515, rfl⟩
abbrev main_v1401 : Ref sig .tc := ⟨.hbm, 1516, rfl⟩
abbrev main_v1402 : Ref sig .tc := ⟨.hbm, 1517, rfl⟩
abbrev main_v1403 : Ref sig .tc := ⟨.hbm, 1518, rfl⟩
abbrev main_v1404 : Ref sig .tc := ⟨.hbm, 1519, rfl⟩
abbrev main_v1405 : Ref sig .tc := ⟨.hbm, 1520, rfl⟩
abbrev main_v1406 : Ref sig .tc := ⟨.hbm, 1521, rfl⟩
abbrev main_v1407 : Ref sig .tc := ⟨.hbm, 1522, rfl⟩
abbrev main_v1408 : Ref sig .tc := ⟨.hbm, 1523, rfl⟩
abbrev main_v1409 : Ref sig .tc := ⟨.hbm, 1524, rfl⟩
abbrev main_v1410 : Ref sig .tc := ⟨.hbm, 1525, rfl⟩
abbrev main_v1411 : Ref sig .tc := ⟨.hbm, 1526, rfl⟩
abbrev main_v1412 : Ref sig .tc := ⟨.hbm, 1527, rfl⟩
abbrev main_v1413 : Ref sig .tc := ⟨.hbm, 1528, rfl⟩
abbrev main_v1414 : Ref sig .tc := ⟨.hbm, 1529, rfl⟩
abbrev main_v1415 : Ref sig .tc := ⟨.hbm, 1530, rfl⟩
abbrev main_v1416 : Ref sig .tc := ⟨.hbm, 1531, rfl⟩
abbrev main_v1417 : Ref sig .tc := ⟨.hbm, 1532, rfl⟩
abbrev main_v1418 : Ref sig .tc := ⟨.hbm, 1533, rfl⟩
abbrev main_v1419 : Ref sig .tc := ⟨.hbm, 1534, rfl⟩
abbrev main_v1420 : Ref sig .tc := ⟨.hbm, 1535, rfl⟩
abbrev main_v1421 : Ref sig .tc := ⟨.hbm, 1536, rfl⟩
abbrev main_v1422 : Ref sig .tc := ⟨.hbm, 1537, rfl⟩
abbrev main_v1423 : Ref sig .tc := ⟨.hbm, 1538, rfl⟩
abbrev main_v1424 : Ref sig .tc := ⟨.hbm, 1539, rfl⟩
abbrev main_cst_89 : Ref sig .tc := ⟨.hbm, 1540, rfl⟩
abbrev main_v1425 : Ref sig .tc := ⟨.hbm, 1541, rfl⟩
abbrev main_v1426 : Ref sig .tc := ⟨.hbm, 1542, rfl⟩
abbrev main_cst_90 : Ref sig .tc := ⟨.hbm, 1543, rfl⟩
abbrev main_v1427 : Ref sig .tc := ⟨.hbm, 1544, rfl⟩
abbrev main_v1428 : Ref sig .tc := ⟨.hbm, 1545, rfl⟩
abbrev main_v1429 : Ref sig .tc := ⟨.hbm, 1546, rfl⟩
abbrev main_v1430 : Ref sig .tc := ⟨.hbm, 1547, rfl⟩
abbrev main_v1431 : Ref sig .tc := ⟨.hbm, 1548, rfl⟩
abbrev main_v1432 : Ref sig .tc := ⟨.hbm, 1549, rfl⟩
abbrev main_v1433 : Ref sig .tc := ⟨.hbm, 1550, rfl⟩
abbrev main_v1434 : Ref sig .tc := ⟨.hbm, 1551, rfl⟩
abbrev main_v1435 : Ref sig .tc := ⟨.hbm, 1552, rfl⟩
abbrev main_v1436 : Ref sig .tc := ⟨.hbm, 1553, rfl⟩
abbrev main_v1437 : Ref sig .tc := ⟨.hbm, 1554, rfl⟩
abbrev main_v1438 : Ref sig .tc := ⟨.hbm, 1555, rfl⟩
abbrev main_v1439 : Ref sig .tc := ⟨.hbm, 1556, rfl⟩
abbrev main_v1440 : Ref sig .tc := ⟨.hbm, 1557, rfl⟩
abbrev main_v1441 : Ref sig .tc := ⟨.hbm, 1558, rfl⟩
abbrev main_v1442 : Ref sig .tc := ⟨.hbm, 1559, rfl⟩
abbrev main_v1443 : Ref sig .tc := ⟨.hbm, 1560, rfl⟩
abbrev main_v1444 : Ref sig .tc := ⟨.hbm, 1561, rfl⟩
abbrev main_v1445 : Ref sig .tc := ⟨.hbm, 1562, rfl⟩
abbrev main_v1446 : Ref sig .tc := ⟨.hbm, 1563, rfl⟩
abbrev main_v1447 : Ref sig .tc := ⟨.hbm, 1564, rfl⟩
abbrev main_v1448 : Ref sig .tc := ⟨.hbm, 1565, rfl⟩
abbrev main_v1449 : Ref sig .tc := ⟨.hbm, 1566, rfl⟩
abbrev main_v1450 : Ref sig .tc := ⟨.hbm, 1567, rfl⟩
abbrev main_v1451 : Ref sig .tc := ⟨.hbm, 1568, rfl⟩
abbrev main_cst_91 : Ref sig .tc := ⟨.hbm, 1569, rfl⟩
abbrev main_v1452 : Ref sig .tc := ⟨.hbm, 1570, rfl⟩
abbrev main_v1453 : Ref sig .tc := ⟨.hbm, 1571, rfl⟩
abbrev main_cst_92 : Ref sig .tc := ⟨.hbm, 1572, rfl⟩
abbrev main_v1454 : Ref sig .tc := ⟨.hbm, 1573, rfl⟩
abbrev main_v1455 : Ref sig .tc := ⟨.hbm, 1574, rfl⟩
abbrev main_v1456 : Ref sig .tc := ⟨.hbm, 1575, rfl⟩
abbrev main_v1457 : Ref sig .tc := ⟨.hbm, 1576, rfl⟩
abbrev main_v1458 : Ref sig .tc := ⟨.hbm, 1577, rfl⟩
abbrev main_v1459 : Ref sig .tc := ⟨.hbm, 1578, rfl⟩
abbrev main_v1460 : Ref sig .tc := ⟨.hbm, 1579, rfl⟩
abbrev main_v1461 : Ref sig .tc := ⟨.hbm, 1580, rfl⟩
abbrev main_v1462 : Ref sig .tc := ⟨.hbm, 1581, rfl⟩
abbrev main_v1463 : Ref sig .tc := ⟨.hbm, 1582, rfl⟩
abbrev main_v1464 : Ref sig .tc := ⟨.hbm, 1583, rfl⟩
abbrev main_v1465 : Ref sig .tc := ⟨.hbm, 1584, rfl⟩
abbrev main_v1466 : Ref sig .tc := ⟨.hbm, 1585, rfl⟩
abbrev main_v1467 : Ref sig .tc := ⟨.hbm, 1586, rfl⟩
abbrev main_v1468 : Ref sig .tc := ⟨.hbm, 1587, rfl⟩
abbrev main_v1469 : Ref sig .tc := ⟨.hbm, 1588, rfl⟩
abbrev main_v1470 : Ref sig .tc := ⟨.hbm, 1589, rfl⟩
abbrev main_v1471 : Ref sig .tc := ⟨.hbm, 1590, rfl⟩
abbrev main_v1472 : Ref sig .tc := ⟨.hbm, 1591, rfl⟩
abbrev main_v1473 : Ref sig .tc := ⟨.hbm, 1592, rfl⟩
abbrev main_v1474 : Ref sig .tc := ⟨.hbm, 1593, rfl⟩
abbrev main_v1475 : Ref sig .tc := ⟨.hbm, 1594, rfl⟩
abbrev main_v1476 : Ref sig .tc := ⟨.hbm, 1595, rfl⟩
abbrev main_cst_93 : Ref sig .tc := ⟨.hbm, 1596, rfl⟩
abbrev main_v1477 : Ref sig .tc := ⟨.hbm, 1597, rfl⟩
abbrev main_v1478 : Ref sig .tc := ⟨.hbm, 1598, rfl⟩
abbrev main_cst_94 : Ref sig .tc := ⟨.hbm, 1599, rfl⟩
abbrev main_v1479 : Ref sig .tc := ⟨.hbm, 1600, rfl⟩
abbrev main_v1480 : Ref sig .tc := ⟨.hbm, 1601, rfl⟩
abbrev main_v1481 : Ref sig .tc := ⟨.hbm, 1602, rfl⟩
abbrev main_v1482 : Ref sig .tc := ⟨.hbm, 1603, rfl⟩
abbrev main_v1483 : Ref sig .tc := ⟨.hbm, 1604, rfl⟩
abbrev main_v1484 : Ref sig .tc := ⟨.hbm, 1605, rfl⟩
abbrev main_v1485 : Ref sig .tc := ⟨.hbm, 1606, rfl⟩
abbrev main_v1486 : Ref sig .tc := ⟨.hbm, 1607, rfl⟩
abbrev main_v1487 : Ref sig .tc := ⟨.hbm, 1608, rfl⟩
abbrev main_v1488 : Ref sig .tc := ⟨.hbm, 1609, rfl⟩
abbrev main_v1489 : Ref sig .tc := ⟨.hbm, 1610, rfl⟩
abbrev main_v1490 : Ref sig .tc := ⟨.hbm, 1611, rfl⟩
abbrev main_v1491 : Ref sig .tc := ⟨.hbm, 1612, rfl⟩
abbrev main_v1492 : Ref sig .tc := ⟨.hbm, 1613, rfl⟩
abbrev main_v1493 : Ref sig .tc := ⟨.hbm, 1614, rfl⟩
abbrev main_cst_95 : Ref sig .tc := ⟨.hbm, 1615, rfl⟩
abbrev main_v1494 : Ref sig .tc := ⟨.hbm, 1616, rfl⟩
abbrev main_v1495 : Ref sig .tc := ⟨.hbm, 1617, rfl⟩
abbrev main_v1496 : Ref sig .tc := ⟨.hbm, 1618, rfl⟩
abbrev main_v1497 : Ref sig .tc := ⟨.hbm, 1619, rfl⟩
abbrev main_v1498 : Ref sig .tc := ⟨.hbm, 1620, rfl⟩
abbrev main_v1499 : Ref sig .tc := ⟨.hbm, 1621, rfl⟩
abbrev main_v1500 : Ref sig .tc := ⟨.hbm, 1622, rfl⟩
abbrev main_v1501 : Ref sig .tc := ⟨.hbm, 1623, rfl⟩
abbrev main_v1502 : Ref sig .tc := ⟨.hbm, 1624, rfl⟩
abbrev main_v1503 : Ref sig .tc := ⟨.hbm, 1625, rfl⟩
abbrev main_v1504 : Ref sig .tc := ⟨.hbm, 1626, rfl⟩
abbrev main_v1505 : Ref sig .tc := ⟨.hbm, 1627, rfl⟩
abbrev main_v1506 : Ref sig .tc := ⟨.hbm, 1628, rfl⟩
abbrev main_v1507 : Ref sig .tc := ⟨.hbm, 1629, rfl⟩
abbrev main_v1508 : Ref sig .tc := ⟨.hbm, 1630, rfl⟩
abbrev main_v1509 : Ref sig .tc := ⟨.hbm, 1631, rfl⟩
abbrev main_v1510 : Ref sig .tc := ⟨.hbm, 1632, rfl⟩
abbrev main_v1511 : Ref sig .tc := ⟨.hbm, 1633, rfl⟩
abbrev main_v1512 : Ref sig .tc := ⟨.hbm, 1634, rfl⟩
abbrev main_v1513 : Ref sig .tc := ⟨.hbm, 1635, rfl⟩
abbrev main_v1514 : Ref sig .tc := ⟨.hbm, 1636, rfl⟩
abbrev main_v1515 : Ref sig .tc := ⟨.hbm, 1637, rfl⟩
abbrev main_v1516 : Ref sig .tc := ⟨.hbm, 1638, rfl⟩
abbrev main_v1517 : Ref sig .tc := ⟨.hbm, 1639, rfl⟩
abbrev main_v1518 : Ref sig .tc := ⟨.hbm, 1640, rfl⟩
abbrev main_v1519 : Ref sig .tc := ⟨.hbm, 1641, rfl⟩
abbrev main_v1520 : Ref sig .tc := ⟨.hbm, 1642, rfl⟩
abbrev main_v1521 : Ref sig .tc := ⟨.hbm, 1643, rfl⟩
abbrev main_v1522 : Ref sig .tc := ⟨.hbm, 1644, rfl⟩
abbrev main_v1523 : Ref sig .tc := ⟨.hbm, 1645, rfl⟩
abbrev main_v1524 : Ref sig .tc := ⟨.hbm, 1646, rfl⟩
abbrev main_v1525 : Ref sig .tc := ⟨.hbm, 1647, rfl⟩
abbrev main_v1526 : Ref sig .tc := ⟨.hbm, 1648, rfl⟩
abbrev main_v1527 : Ref sig .tc := ⟨.hbm, 1649, rfl⟩
abbrev main_v1528 : Ref sig .tc := ⟨.hbm, 1650, rfl⟩
abbrev main_v1529 : Ref sig .tc := ⟨.hbm, 1651, rfl⟩
abbrev main_v1530 : Ref sig .tc := ⟨.hbm, 1652, rfl⟩
abbrev main_v1531 : Ref sig .tc := ⟨.hbm, 1653, rfl⟩
abbrev main_v1532 : Ref sig .tc := ⟨.hbm, 1654, rfl⟩
abbrev main_v1533 : Ref sig .tc := ⟨.hbm, 1655, rfl⟩
abbrev main_cst_96 : Ref sig .tc := ⟨.hbm, 1656, rfl⟩
abbrev main_v1534 : Ref sig .tc := ⟨.hbm, 1657, rfl⟩
abbrev main_v1535 : Ref sig .tc := ⟨.hbm, 1658, rfl⟩
abbrev main_cst_97 : Ref sig .tc := ⟨.hbm, 1659, rfl⟩
abbrev main_v1536 : Ref sig .tc := ⟨.hbm, 1660, rfl⟩
abbrev main_v1537 : Ref sig .tc := ⟨.hbm, 1661, rfl⟩
abbrev main_v1538 : Ref sig .tc := ⟨.hbm, 1662, rfl⟩
abbrev main_v1539 : Ref sig .tc := ⟨.hbm, 1663, rfl⟩
abbrev main_v1540 : Ref sig .tc := ⟨.hbm, 1664, rfl⟩
abbrev main_v1541 : Ref sig .tc := ⟨.hbm, 1665, rfl⟩
abbrev main_v1542 : Ref sig .tc := ⟨.hbm, 1666, rfl⟩
abbrev main_v1543 : Ref sig .tc := ⟨.hbm, 1667, rfl⟩
abbrev main_v1544 : Ref sig .tc := ⟨.hbm, 1668, rfl⟩
abbrev main_v1545 : Ref sig .tc := ⟨.hbm, 1669, rfl⟩
abbrev main_v1546 : Ref sig .tc := ⟨.hbm, 1670, rfl⟩
abbrev main_v1547 : Ref sig .tc := ⟨.hbm, 1671, rfl⟩
abbrev main_v1548 : Ref sig .tc := ⟨.hbm, 1672, rfl⟩
abbrev main_v1549 : Ref sig .tc := ⟨.hbm, 1673, rfl⟩
abbrev main_v1550 : Ref sig .tc := ⟨.hbm, 1674, rfl⟩
abbrev main_v1551 : Ref sig .tc := ⟨.hbm, 1675, rfl⟩
abbrev main_v1552 : Ref sig .tc := ⟨.hbm, 1676, rfl⟩
abbrev main_v1553 : Ref sig .tc := ⟨.hbm, 1677, rfl⟩
abbrev main_v1554 : Ref sig .tc := ⟨.hbm, 1678, rfl⟩
abbrev main_v1555 : Ref sig .tc := ⟨.hbm, 1679, rfl⟩
abbrev main_v1556 : Ref sig .tc := ⟨.hbm, 1680, rfl⟩
abbrev main_v1557 : Ref sig .tc := ⟨.hbm, 1681, rfl⟩
abbrev main_v1558 : Ref sig .tc := ⟨.hbm, 1682, rfl⟩
abbrev main_v1559 : Ref sig .tc := ⟨.hbm, 1683, rfl⟩
abbrev main_v1560 : Ref sig .tc := ⟨.hbm, 1684, rfl⟩
abbrev main_v1561 : Ref sig .tc := ⟨.hbm, 1685, rfl⟩
abbrev main_cst_98 : Ref sig .tc := ⟨.hbm, 1686, rfl⟩
abbrev main_v1562 : Ref sig .tc := ⟨.hbm, 1687, rfl⟩
abbrev main_v1563 : Ref sig .tc := ⟨.hbm, 1688, rfl⟩
abbrev main_cst_99 : Ref sig .tc := ⟨.hbm, 1689, rfl⟩
abbrev main_v1564 : Ref sig .tc := ⟨.hbm, 1690, rfl⟩
abbrev main_v1565 : Ref sig .tc := ⟨.hbm, 1691, rfl⟩
abbrev main_v1566 : Ref sig .tc := ⟨.hbm, 1692, rfl⟩
abbrev main_v1567 : Ref sig .tc := ⟨.hbm, 1693, rfl⟩
abbrev main_v1568 : Ref sig .tc := ⟨.hbm, 1694, rfl⟩
abbrev main_v1569 : Ref sig .tc := ⟨.hbm, 1695, rfl⟩
abbrev main_v1570 : Ref sig .tc := ⟨.hbm, 1696, rfl⟩
abbrev main_v1571 : Ref sig .tc := ⟨.hbm, 1697, rfl⟩
abbrev main_v1572 : Ref sig .tc := ⟨.hbm, 1698, rfl⟩
abbrev main_v1573 : Ref sig .tc := ⟨.hbm, 1699, rfl⟩
abbrev main_v1574 : Ref sig .tc := ⟨.hbm, 1700, rfl⟩
abbrev main_v1575 : Ref sig .tc := ⟨.hbm, 1701, rfl⟩
abbrev main_v1576 : Ref sig .tc := ⟨.hbm, 1702, rfl⟩
abbrev main_v1577 : Ref sig .tc := ⟨.hbm, 1703, rfl⟩
abbrev main_v1578 : Ref sig .tc := ⟨.hbm, 1704, rfl⟩
abbrev main_v1579 : Ref sig .tc := ⟨.hbm, 1705, rfl⟩
abbrev main_v1580 : Ref sig .tc := ⟨.hbm, 1706, rfl⟩
abbrev main_v1581 : Ref sig .tc := ⟨.hbm, 1707, rfl⟩
abbrev main_v1582 : Ref sig .tc := ⟨.hbm, 1708, rfl⟩
abbrev main_v1583 : Ref sig .tc := ⟨.hbm, 1709, rfl⟩
abbrev main_v1584 : Ref sig .tc := ⟨.hbm, 1710, rfl⟩
abbrev main_v1585 : Ref sig .tc := ⟨.hbm, 1711, rfl⟩
abbrev main_v1586 : Ref sig .tc := ⟨.hbm, 1712, rfl⟩
abbrev main_v1587 : Ref sig .tc := ⟨.hbm, 1713, rfl⟩
abbrev main_v1588 : Ref sig .tc := ⟨.hbm, 1714, rfl⟩
abbrev main_cst_100 : Ref sig .tc := ⟨.hbm, 1715, rfl⟩
abbrev main_v1589 : Ref sig .tc := ⟨.hbm, 1716, rfl⟩
abbrev main_v1590 : Ref sig .tc := ⟨.hbm, 1717, rfl⟩
abbrev main_cst_101 : Ref sig .tc := ⟨.hbm, 1718, rfl⟩
abbrev main_v1591 : Ref sig .tc := ⟨.hbm, 1719, rfl⟩
abbrev main_v1592 : Ref sig .tc := ⟨.hbm, 1720, rfl⟩
abbrev main_v1593 : Ref sig .tc := ⟨.hbm, 1721, rfl⟩
abbrev main_v1594 : Ref sig .tc := ⟨.hbm, 1722, rfl⟩
abbrev main_v1595 : Ref sig .tc := ⟨.hbm, 1723, rfl⟩
abbrev main_v1596 : Ref sig .tc := ⟨.hbm, 1724, rfl⟩
abbrev main_v1597 : Ref sig .tc := ⟨.hbm, 1725, rfl⟩
abbrev main_v1598 : Ref sig .tc := ⟨.hbm, 1726, rfl⟩
abbrev main_v1599 : Ref sig .tc := ⟨.hbm, 1727, rfl⟩
abbrev main_v1600 : Ref sig .tc := ⟨.hbm, 1728, rfl⟩
abbrev main_v1601 : Ref sig .tc := ⟨.hbm, 1729, rfl⟩
abbrev main_v1602 : Ref sig .tc := ⟨.hbm, 1730, rfl⟩
abbrev main_v1603 : Ref sig .tc := ⟨.hbm, 1731, rfl⟩
abbrev main_v1604 : Ref sig .tc := ⟨.hbm, 1732, rfl⟩
abbrev main_v1605 : Ref sig .tc := ⟨.hbm, 1733, rfl⟩
abbrev main_v1606 : Ref sig .tc := ⟨.hbm, 1734, rfl⟩
abbrev main_v1607 : Ref sig .tc := ⟨.hbm, 1735, rfl⟩
abbrev main_v1608 : Ref sig .tc := ⟨.hbm, 1736, rfl⟩
abbrev main_v1609 : Ref sig .tc := ⟨.hbm, 1737, rfl⟩
abbrev main_v1610 : Ref sig .tc := ⟨.hbm, 1738, rfl⟩
abbrev main_v1611 : Ref sig .tc := ⟨.hbm, 1739, rfl⟩
abbrev main_v1612 : Ref sig .tc := ⟨.hbm, 1740, rfl⟩
abbrev main_v1613 : Ref sig .tc := ⟨.hbm, 1741, rfl⟩
abbrev main_cst_102 : Ref sig .tc := ⟨.hbm, 1742, rfl⟩
abbrev main_v1614 : Ref sig .tc := ⟨.hbm, 1743, rfl⟩
abbrev main_v1615 : Ref sig .tc := ⟨.hbm, 1744, rfl⟩
abbrev main_cst_103 : Ref sig .tc := ⟨.hbm, 1745, rfl⟩
abbrev main_v1616 : Ref sig .tc := ⟨.hbm, 1746, rfl⟩
abbrev main_v1617 : Ref sig .tc := ⟨.hbm, 1747, rfl⟩
abbrev main_v1618 : Ref sig .tc := ⟨.hbm, 1748, rfl⟩
abbrev main_v1619 : Ref sig .tc := ⟨.hbm, 1749, rfl⟩
abbrev main_v1620 : Ref sig .tc := ⟨.hbm, 1750, rfl⟩
abbrev main_v1621 : Ref sig .tc := ⟨.hbm, 1751, rfl⟩
abbrev main_v1622 : Ref sig .tc := ⟨.hbm, 1752, rfl⟩
abbrev main_v1623 : Ref sig .tc := ⟨.hbm, 1753, rfl⟩
abbrev main_v1624 : Ref sig .tc := ⟨.hbm, 1754, rfl⟩
abbrev main_v1625 : Ref sig .tc := ⟨.hbm, 1755, rfl⟩
abbrev main_v1626 : Ref sig .tc := ⟨.hbm, 1756, rfl⟩
abbrev main_v1627 : Ref sig .tc := ⟨.hbm, 1757, rfl⟩
abbrev main_v1628 : Ref sig .tc := ⟨.hbm, 1758, rfl⟩
abbrev main_v1629 : Ref sig .tc := ⟨.hbm, 1759, rfl⟩
abbrev main_v1630 : Ref sig .tc := ⟨.hbm, 1760, rfl⟩
abbrev main_cst_104 : Ref sig .tc := ⟨.hbm, 1761, rfl⟩
abbrev main_v1631 : Ref sig .tc := ⟨.hbm, 1762, rfl⟩
abbrev main_v1632 : Ref sig .tc := ⟨.hbm, 1763, rfl⟩
abbrev main_v1633 : Ref sig .tc := ⟨.hbm, 1764, rfl⟩
abbrev main_v1634 : Ref sig .tc := ⟨.hbm, 1765, rfl⟩
abbrev main_v1635 : Ref sig .tc := ⟨.hbm, 1766, rfl⟩
abbrev main_v1636 : Ref sig .tc := ⟨.hbm, 1767, rfl⟩
abbrev main_v1637 : Ref sig .tc := ⟨.hbm, 1768, rfl⟩
abbrev main_v1638 : Ref sig .tc := ⟨.hbm, 1769, rfl⟩
abbrev main_v1639 : Ref sig .tc := ⟨.hbm, 1770, rfl⟩
abbrev main_v1640 : Ref sig .tc := ⟨.hbm, 1771, rfl⟩
abbrev main_v1641 : Ref sig .tc := ⟨.hbm, 1772, rfl⟩
abbrev main_v1642 : Ref sig .tc := ⟨.hbm, 1773, rfl⟩
abbrev main_v1643 : Ref sig .tc := ⟨.hbm, 1774, rfl⟩
abbrev main_v1644 : Ref sig .tc := ⟨.hbm, 1775, rfl⟩
abbrev main_v1645 : Ref sig .tc := ⟨.hbm, 1776, rfl⟩
abbrev main_v1646 : Ref sig .tc := ⟨.hbm, 1777, rfl⟩
abbrev main_v1647 : Ref sig .tc := ⟨.hbm, 1778, rfl⟩
abbrev main_v1648 : Ref sig .tc := ⟨.hbm, 1779, rfl⟩
abbrev main_v1649 : Ref sig .tc := ⟨.hbm, 1780, rfl⟩
abbrev main_v1650 : Ref sig .tc := ⟨.hbm, 1781, rfl⟩
abbrev main_v1651 : Ref sig .tc := ⟨.hbm, 1782, rfl⟩
abbrev main_v1652 : Ref sig .tc := ⟨.hbm, 1783, rfl⟩
abbrev main_v1653 : Ref sig .tc := ⟨.hbm, 1784, rfl⟩
abbrev main_v1654 : Ref sig .tc := ⟨.hbm, 1785, rfl⟩
abbrev main_v1655 : Ref sig .tc := ⟨.hbm, 1786, rfl⟩
abbrev main_v1656 : Ref sig .tc := ⟨.hbm, 1787, rfl⟩
abbrev main_v1657 : Ref sig .tc := ⟨.hbm, 1788, rfl⟩
abbrev main_v1658 : Ref sig .tc := ⟨.hbm, 1789, rfl⟩
abbrev main_v1659 : Ref sig .tc := ⟨.hbm, 1790, rfl⟩
abbrev main_v1660 : Ref sig .tc := ⟨.hbm, 1791, rfl⟩
abbrev main_v1661 : Ref sig .tc := ⟨.hbm, 1792, rfl⟩
abbrev main_v1662 : Ref sig .tc := ⟨.hbm, 1793, rfl⟩
abbrev main_v1663 : Ref sig .tc := ⟨.hbm, 1794, rfl⟩
abbrev main_v1664 : Ref sig .tc := ⟨.hbm, 1795, rfl⟩
abbrev main_v1665 : Ref sig .tc := ⟨.hbm, 1796, rfl⟩
abbrev main_v1666 : Ref sig .tc := ⟨.hbm, 1797, rfl⟩
abbrev main_v1667 : Ref sig .tc := ⟨.hbm, 1798, rfl⟩
abbrev main_v1668 : Ref sig .tc := ⟨.hbm, 1799, rfl⟩
abbrev main_v1669 : Ref sig .tc := ⟨.hbm, 1800, rfl⟩
abbrev main_v1670 : Ref sig .tc := ⟨.hbm, 1801, rfl⟩
abbrev main_cst_105 : Ref sig .tc := ⟨.hbm, 1802, rfl⟩
abbrev main_v1671 : Ref sig .tc := ⟨.hbm, 1803, rfl⟩
abbrev main_v1672 : Ref sig .tc := ⟨.hbm, 1804, rfl⟩
abbrev main_cst_106 : Ref sig .tc := ⟨.hbm, 1805, rfl⟩
abbrev main_v1673 : Ref sig .tc := ⟨.hbm, 1806, rfl⟩
abbrev main_v1674 : Ref sig .tc := ⟨.hbm, 1807, rfl⟩
abbrev main_v1675 : Ref sig .tc := ⟨.hbm, 1808, rfl⟩
abbrev main_v1676 : Ref sig .tc := ⟨.hbm, 1809, rfl⟩
abbrev main_v1677 : Ref sig .tc := ⟨.hbm, 1810, rfl⟩
abbrev main_v1678 : Ref sig .tc := ⟨.hbm, 1811, rfl⟩
abbrev main_v1679 : Ref sig .tc := ⟨.hbm, 1812, rfl⟩
abbrev main_v1680 : Ref sig .tc := ⟨.hbm, 1813, rfl⟩
abbrev main_v1681 : Ref sig .tc := ⟨.hbm, 1814, rfl⟩
abbrev main_v1682 : Ref sig .tc := ⟨.hbm, 1815, rfl⟩
abbrev main_v1683 : Ref sig .tc := ⟨.hbm, 1816, rfl⟩
abbrev main_v1684 : Ref sig .tc := ⟨.hbm, 1817, rfl⟩
abbrev main_v1685 : Ref sig .tc := ⟨.hbm, 1818, rfl⟩
abbrev main_v1686 : Ref sig .tc := ⟨.hbm, 1819, rfl⟩
abbrev main_v1687 : Ref sig .tc := ⟨.hbm, 1820, rfl⟩
abbrev main_v1688 : Ref sig .tc := ⟨.hbm, 1821, rfl⟩
abbrev main_v1689 : Ref sig .tc := ⟨.hbm, 1822, rfl⟩
abbrev main_v1690 : Ref sig .tc := ⟨.hbm, 1823, rfl⟩
abbrev main_v1691 : Ref sig .tc := ⟨.hbm, 1824, rfl⟩
abbrev main_v1692 : Ref sig .tc := ⟨.hbm, 1825, rfl⟩
abbrev main_v1693 : Ref sig .tc := ⟨.hbm, 1826, rfl⟩
abbrev main_v1694 : Ref sig .tc := ⟨.hbm, 1827, rfl⟩
abbrev main_v1695 : Ref sig .tc := ⟨.hbm, 1828, rfl⟩
abbrev main_v1696 : Ref sig .tc := ⟨.hbm, 1829, rfl⟩
abbrev main_v1697 : Ref sig .tc := ⟨.hbm, 1830, rfl⟩
abbrev main_v1698 : Ref sig .tc := ⟨.hbm, 1831, rfl⟩
abbrev main_v1699 : Ref sig .tc := ⟨.hbm, 1832, rfl⟩
abbrev main_v1700 : Ref sig .tc := ⟨.hbm, 1833, rfl⟩
abbrev main_v1701 : Ref sig .tc := ⟨.hbm, 1834, rfl⟩
abbrev main_v1702 : Ref sig .tc := ⟨.hbm, 1835, rfl⟩
abbrev main_v1703 : Ref sig .tc := ⟨.hbm, 1836, rfl⟩
abbrev main_v1704 : Ref sig .tc := ⟨.hbm, 1837, rfl⟩
abbrev main_v1705 : Ref sig .tc := ⟨.hbm, 1838, rfl⟩
abbrev main_v1706 : Ref sig .tc := ⟨.hbm, 1839, rfl⟩
abbrev main_v1707 : Ref sig .tc := ⟨.hbm, 1840, rfl⟩
abbrev main_v1708 : Ref sig .tc := ⟨.hbm, 1841, rfl⟩
abbrev main_cst_107 : Ref sig .tc := ⟨.hbm, 1842, rfl⟩
abbrev main_v1709 : Ref sig .tc := ⟨.hbm, 1843, rfl⟩
abbrev main_v1710 : Ref sig .tc := ⟨.hbm, 1844, rfl⟩
abbrev main_cst_108 : Ref sig .tc := ⟨.hbm, 1845, rfl⟩
abbrev main_v1711 : Ref sig .tc := ⟨.hbm, 1846, rfl⟩
abbrev main_v1712 : Ref sig .tc := ⟨.hbm, 1847, rfl⟩
abbrev main_v1713 : Ref sig .tc := ⟨.hbm, 1848, rfl⟩
abbrev main_v1714 : Ref sig .tc := ⟨.hbm, 1849, rfl⟩
abbrev main_v1715 : Ref sig .tc := ⟨.hbm, 1850, rfl⟩
abbrev main_v1716 : Ref sig .tc := ⟨.hbm, 1851, rfl⟩
abbrev main_v1717 : Ref sig .tc := ⟨.hbm, 1852, rfl⟩
abbrev main_v1718 : Ref sig .tc := ⟨.hbm, 1853, rfl⟩
abbrev main_v1719 : Ref sig .tc := ⟨.hbm, 1854, rfl⟩
abbrev main_v1720 : Ref sig .tc := ⟨.hbm, 1855, rfl⟩
abbrev main_v1721 : Ref sig .tc := ⟨.hbm, 1856, rfl⟩
abbrev main_v1722 : Ref sig .tc := ⟨.hbm, 1857, rfl⟩
abbrev main_v1723 : Ref sig .tc := ⟨.hbm, 1858, rfl⟩
abbrev main_v1724 : Ref sig .tc := ⟨.hbm, 1859, rfl⟩
abbrev main_v1725 : Ref sig .tc := ⟨.hbm, 1860, rfl⟩
abbrev main_v1726 : Ref sig .tc := ⟨.hbm, 1861, rfl⟩
abbrev main_v1727 : Ref sig .tc := ⟨.hbm, 1862, rfl⟩
abbrev main_v1728 : Ref sig .tc := ⟨.hbm, 1863, rfl⟩
abbrev main_v1729 : Ref sig .tc := ⟨.hbm, 1864, rfl⟩
abbrev main_v1730 : Ref sig .tc := ⟨.hbm, 1865, rfl⟩
abbrev main_v1731 : Ref sig .tc := ⟨.hbm, 1866, rfl⟩
abbrev main_v1732 : Ref sig .tc := ⟨.hbm, 1867, rfl⟩
abbrev main_v1733 : Ref sig .tc := ⟨.hbm, 1868, rfl⟩
abbrev main_v1734 : Ref sig .tc := ⟨.hbm, 1869, rfl⟩
abbrev main_v1735 : Ref sig .tc := ⟨.hbm, 1870, rfl⟩
abbrev main_cst_109 : Ref sig .tc := ⟨.hbm, 1871, rfl⟩
abbrev main_v1736 : Ref sig .tc := ⟨.hbm, 1872, rfl⟩
abbrev main_v1737 : Ref sig .tc := ⟨.hbm, 1873, rfl⟩
abbrev main_cst_110 : Ref sig .tc := ⟨.hbm, 1874, rfl⟩
abbrev main_v1738 : Ref sig .tc := ⟨.hbm, 1875, rfl⟩
abbrev main_v1739 : Ref sig .tc := ⟨.hbm, 1876, rfl⟩
abbrev main_v1740 : Ref sig .tc := ⟨.hbm, 1877, rfl⟩
abbrev main_v1741 : Ref sig .tc := ⟨.hbm, 1878, rfl⟩
abbrev main_v1742 : Ref sig .tc := ⟨.hbm, 1879, rfl⟩
abbrev main_v1743 : Ref sig .tc := ⟨.hbm, 1880, rfl⟩
abbrev main_v1744 : Ref sig .tc := ⟨.hbm, 1881, rfl⟩
abbrev main_v1745 : Ref sig .tc := ⟨.hbm, 1882, rfl⟩
abbrev main_v1746 : Ref sig .tc := ⟨.hbm, 1883, rfl⟩
abbrev main_v1747 : Ref sig .tc := ⟨.hbm, 1884, rfl⟩
abbrev main_v1748 : Ref sig .tc := ⟨.hbm, 1885, rfl⟩
abbrev main_v1749 : Ref sig .tc := ⟨.hbm, 1886, rfl⟩
abbrev main_v1750 : Ref sig .tc := ⟨.hbm, 1887, rfl⟩
abbrev main_v1751 : Ref sig .tc := ⟨.hbm, 1888, rfl⟩
abbrev main_v1752 : Ref sig .tc := ⟨.hbm, 1889, rfl⟩
abbrev main_v1753 : Ref sig .tc := ⟨.hbm, 1890, rfl⟩
abbrev main_v1754 : Ref sig .tc := ⟨.hbm, 1891, rfl⟩
abbrev main_v1755 : Ref sig .tc := ⟨.hbm, 1892, rfl⟩
abbrev main_v1756 : Ref sig .tc := ⟨.hbm, 1893, rfl⟩
abbrev main_v1757 : Ref sig .tc := ⟨.hbm, 1894, rfl⟩
abbrev main_v1758 : Ref sig .tc := ⟨.hbm, 1895, rfl⟩
abbrev main_v1759 : Ref sig .tc := ⟨.hbm, 1896, rfl⟩
abbrev main_v1760 : Ref sig .tc := ⟨.hbm, 1897, rfl⟩
abbrev main_cst_111 : Ref sig .tc := ⟨.hbm, 1898, rfl⟩
abbrev main_v1761 : Ref sig .tc := ⟨.hbm, 1899, rfl⟩
abbrev main_v1762 : Ref sig .tc := ⟨.hbm, 1900, rfl⟩
abbrev main_cst_112 : Ref sig .tc := ⟨.hbm, 1901, rfl⟩
abbrev main_v1763 : Ref sig .tc := ⟨.hbm, 1902, rfl⟩
abbrev main_v1764 : Ref sig .tc := ⟨.hbm, 1903, rfl⟩
abbrev main_v1765 : Ref sig .tc := ⟨.hbm, 1904, rfl⟩
abbrev main_v1766 : Ref sig .tc := ⟨.hbm, 1905, rfl⟩
abbrev main_v1767 : Ref sig .tc := ⟨.hbm, 1906, rfl⟩
abbrev main_v1768 : Ref sig .tc := ⟨.hbm, 1907, rfl⟩
abbrev main_v1769 : Ref sig .tc := ⟨.hbm, 1908, rfl⟩
abbrev main_v1770 : Ref sig .tc := ⟨.hbm, 1909, rfl⟩
abbrev main_v1771 : Ref sig .tc := ⟨.hbm, 1910, rfl⟩
abbrev main_v1772 : Ref sig .tc := ⟨.hbm, 1911, rfl⟩
abbrev main_v1773 : Ref sig .tc := ⟨.hbm, 1912, rfl⟩
abbrev main_v1774 : Ref sig .tc := ⟨.hbm, 1913, rfl⟩
abbrev main_v1775 : Ref sig .tc := ⟨.hbm, 1914, rfl⟩
abbrev main_v1776 : Ref sig .tc := ⟨.hbm, 1915, rfl⟩
abbrev main_v1777 : Ref sig .tc := ⟨.hbm, 1916, rfl⟩
abbrev main_cst_113 : Ref sig .tc := ⟨.hbm, 1917, rfl⟩
abbrev main_v1778 : Ref sig .tc := ⟨.hbm, 1918, rfl⟩
abbrev main_v1779 : Ref sig .tc := ⟨.hbm, 1919, rfl⟩
abbrev main_v1780 : Ref sig .tc := ⟨.hbm, 1920, rfl⟩
abbrev main_v1781 : Ref sig .tc := ⟨.hbm, 1921, rfl⟩
abbrev main_v1782 : Ref sig .tc := ⟨.hbm, 1922, rfl⟩
abbrev main_v1783 : Ref sig .tc := ⟨.hbm, 1923, rfl⟩
abbrev main_v1784 : Ref sig .tc := ⟨.hbm, 1924, rfl⟩
abbrev main_v1785 : Ref sig .tc := ⟨.hbm, 1925, rfl⟩
abbrev main_v1786 : Ref sig .tc := ⟨.hbm, 1926, rfl⟩
abbrev main_v1787 : Ref sig .tc := ⟨.hbm, 1927, rfl⟩
abbrev main_v1788 : Ref sig .tc := ⟨.hbm, 1928, rfl⟩
abbrev main_v1789 : Ref sig .tc := ⟨.hbm, 1929, rfl⟩
abbrev main_v1790 : Ref sig .tc := ⟨.hbm, 1930, rfl⟩
abbrev main_v1791 : Ref sig .tc := ⟨.hbm, 1931, rfl⟩
abbrev main_v1792 : Ref sig .tc := ⟨.hbm, 1932, rfl⟩
abbrev main_v1793 : Ref sig .tc := ⟨.hbm, 1933, rfl⟩
abbrev main_v1794 : Ref sig .tc := ⟨.hbm, 1934, rfl⟩
abbrev main_v1795 : Ref sig .tc := ⟨.hbm, 1935, rfl⟩
abbrev main_v1796 : Ref sig .tc := ⟨.hbm, 1936, rfl⟩
abbrev main_v1797 : Ref sig .tc := ⟨.hbm, 1937, rfl⟩
abbrev main_v1798 : Ref sig .tc := ⟨.hbm, 1938, rfl⟩
abbrev main_v1799 : Ref sig .tc := ⟨.hbm, 1939, rfl⟩
abbrev main_v1800 : Ref sig .tc := ⟨.hbm, 1940, rfl⟩
abbrev main_v1801 : Ref sig .tc := ⟨.hbm, 1941, rfl⟩
abbrev main_v1802 : Ref sig .tc := ⟨.hbm, 1942, rfl⟩
abbrev main_v1803 : Ref sig .tc := ⟨.hbm, 1943, rfl⟩
abbrev main_v1804 : Ref sig .tc := ⟨.hbm, 1944, rfl⟩
abbrev main_v1805 : Ref sig .tc := ⟨.hbm, 1945, rfl⟩
abbrev main_v1806 : Ref sig .tc := ⟨.hbm, 1946, rfl⟩
abbrev main_v1807 : Ref sig .tc := ⟨.hbm, 1947, rfl⟩
abbrev main_v1808 : Ref sig .tc := ⟨.hbm, 1948, rfl⟩
abbrev main_v1809 : Ref sig .tc := ⟨.hbm, 1949, rfl⟩
abbrev main_v1810 : Ref sig .tc := ⟨.hbm, 1950, rfl⟩
abbrev main_v1811 : Ref sig .tc := ⟨.hbm, 1951, rfl⟩
abbrev main_v1812 : Ref sig .tc := ⟨.hbm, 1952, rfl⟩
abbrev main_v1813 : Ref sig .tc := ⟨.hbm, 1953, rfl⟩
abbrev main_v1814 : Ref sig .tc := ⟨.hbm, 1954, rfl⟩
abbrev main_v1815 : Ref sig .tc := ⟨.hbm, 1955, rfl⟩
abbrev main_v1816 : Ref sig .tc := ⟨.hbm, 1956, rfl⟩
abbrev main_v1817 : Ref sig .tc := ⟨.hbm, 1957, rfl⟩
abbrev main_cst_114 : Ref sig .tc := ⟨.hbm, 1958, rfl⟩
abbrev main_v1818 : Ref sig .tc := ⟨.hbm, 1959, rfl⟩
abbrev main_v1819 : Ref sig .tc := ⟨.hbm, 1960, rfl⟩
abbrev main_cst_115 : Ref sig .tc := ⟨.hbm, 1961, rfl⟩
abbrev main_v1820 : Ref sig .tc := ⟨.hbm, 1962, rfl⟩
abbrev main_v1821 : Ref sig .tc := ⟨.hbm, 1963, rfl⟩
abbrev main_v1822 : Ref sig .tc := ⟨.hbm, 1964, rfl⟩
abbrev main_v1823 : Ref sig .tc := ⟨.hbm, 1965, rfl⟩
abbrev main_v1824 : Ref sig .tc := ⟨.hbm, 1966, rfl⟩
abbrev main_v1825 : Ref sig .tc := ⟨.hbm, 1967, rfl⟩
abbrev main_v1826 : Ref sig .tc := ⟨.hbm, 1968, rfl⟩
abbrev main_v1827 : Ref sig .tc := ⟨.hbm, 1969, rfl⟩
abbrev main_v1828 : Ref sig .tc := ⟨.hbm, 1970, rfl⟩
abbrev main_v1829 : Ref sig .tc := ⟨.hbm, 1971, rfl⟩
abbrev main_v1830 : Ref sig .tc := ⟨.hbm, 1972, rfl⟩
abbrev main_v1831 : Ref sig .tc := ⟨.hbm, 1973, rfl⟩
abbrev main_v1832 : Ref sig .tc := ⟨.hbm, 1974, rfl⟩
abbrev main_v1833 : Ref sig .tc := ⟨.hbm, 1975, rfl⟩
abbrev main_v1834 : Ref sig .tc := ⟨.hbm, 1976, rfl⟩
abbrev main_v1835 : Ref sig .tc := ⟨.hbm, 1977, rfl⟩
abbrev main_v1836 : Ref sig .tc := ⟨.hbm, 1978, rfl⟩
abbrev main_v1837 : Ref sig .tc := ⟨.hbm, 1979, rfl⟩
abbrev main_v1838 : Ref sig .tc := ⟨.hbm, 1980, rfl⟩
abbrev main_v1839 : Ref sig .tc := ⟨.hbm, 1981, rfl⟩
abbrev main_v1840 : Ref sig .tc := ⟨.hbm, 1982, rfl⟩
abbrev main_v1841 : Ref sig .tc := ⟨.hbm, 1983, rfl⟩
abbrev main_v1842 : Ref sig .tc := ⟨.hbm, 1984, rfl⟩
abbrev main_v1843 : Ref sig .tc := ⟨.hbm, 1985, rfl⟩
abbrev main_v1844 : Ref sig .tc := ⟨.hbm, 1986, rfl⟩
abbrev main_v1845 : Ref sig .tc := ⟨.hbm, 1987, rfl⟩
abbrev main_cst_116 : Ref sig .tc := ⟨.hbm, 1988, rfl⟩
abbrev main_v1846 : Ref sig .tc := ⟨.hbm, 1989, rfl⟩
abbrev main_v1847 : Ref sig .tc := ⟨.hbm, 1990, rfl⟩
abbrev main_cst_117 : Ref sig .tc := ⟨.hbm, 1991, rfl⟩
abbrev main_v1848 : Ref sig .tc := ⟨.hbm, 1992, rfl⟩
abbrev main_v1849 : Ref sig .tc := ⟨.hbm, 1993, rfl⟩
abbrev main_v1850 : Ref sig .tc := ⟨.hbm, 1994, rfl⟩
abbrev main_v1851 : Ref sig .tc := ⟨.hbm, 1995, rfl⟩
abbrev main_v1852 : Ref sig .tc := ⟨.hbm, 1996, rfl⟩
abbrev main_v1853 : Ref sig .tc := ⟨.hbm, 1997, rfl⟩
abbrev main_v1854 : Ref sig .tc := ⟨.hbm, 1998, rfl⟩
abbrev main_v1855 : Ref sig .tc := ⟨.hbm, 1999, rfl⟩
abbrev main_v1856 : Ref sig .tc := ⟨.hbm, 2000, rfl⟩
abbrev main_v1857 : Ref sig .tc := ⟨.hbm, 2001, rfl⟩
abbrev main_v1858 : Ref sig .tc := ⟨.hbm, 2002, rfl⟩
abbrev main_v1859 : Ref sig .tc := ⟨.hbm, 2003, rfl⟩
abbrev main_v1860 : Ref sig .tc := ⟨.hbm, 2004, rfl⟩
abbrev main_v1861 : Ref sig .tc := ⟨.hbm, 2005, rfl⟩
abbrev main_v1862 : Ref sig .tc := ⟨.hbm, 2006, rfl⟩
abbrev main_v1863 : Ref sig .tc := ⟨.hbm, 2007, rfl⟩
abbrev main_v1864 : Ref sig .tc := ⟨.hbm, 2008, rfl⟩
abbrev main_v1865 : Ref sig .tc := ⟨.hbm, 2009, rfl⟩
abbrev main_v1866 : Ref sig .tc := ⟨.hbm, 2010, rfl⟩
abbrev main_v1867 : Ref sig .tc := ⟨.hbm, 2011, rfl⟩
abbrev main_v1868 : Ref sig .tc := ⟨.hbm, 2012, rfl⟩
abbrev main_v1869 : Ref sig .tc := ⟨.hbm, 2013, rfl⟩
abbrev main_v1870 : Ref sig .tc := ⟨.hbm, 2014, rfl⟩
abbrev main_v1871 : Ref sig .tc := ⟨.hbm, 2015, rfl⟩
abbrev main_v1872 : Ref sig .tc := ⟨.hbm, 2016, rfl⟩
abbrev main_cst_118 : Ref sig .tc := ⟨.hbm, 2017, rfl⟩
abbrev main_v1873 : Ref sig .tc := ⟨.hbm, 2018, rfl⟩
abbrev main_v1874 : Ref sig .tc := ⟨.hbm, 2019, rfl⟩
abbrev main_cst_119 : Ref sig .tc := ⟨.hbm, 2020, rfl⟩
abbrev main_v1875 : Ref sig .tc := ⟨.hbm, 2021, rfl⟩
abbrev main_v1876 : Ref sig .tc := ⟨.hbm, 2022, rfl⟩
abbrev main_v1877 : Ref sig .tc := ⟨.hbm, 2023, rfl⟩
abbrev main_v1878 : Ref sig .tc := ⟨.hbm, 2024, rfl⟩
abbrev main_v1879 : Ref sig .tc := ⟨.hbm, 2025, rfl⟩
abbrev main_v1880 : Ref sig .tc := ⟨.hbm, 2026, rfl⟩
abbrev main_v1881 : Ref sig .tc := ⟨.hbm, 2027, rfl⟩
abbrev main_v1882 : Ref sig .tc := ⟨.hbm, 2028, rfl⟩
abbrev main_v1883 : Ref sig .tc := ⟨.hbm, 2029, rfl⟩
abbrev main_v1884 : Ref sig .tc := ⟨.hbm, 2030, rfl⟩
abbrev main_v1885 : Ref sig .tc := ⟨.hbm, 2031, rfl⟩
abbrev main_v1886 : Ref sig .tc := ⟨.hbm, 2032, rfl⟩
abbrev main_v1887 : Ref sig .tc := ⟨.hbm, 2033, rfl⟩
abbrev main_v1888 : Ref sig .tc := ⟨.hbm, 2034, rfl⟩
abbrev main_v1889 : Ref sig .tc := ⟨.hbm, 2035, rfl⟩
abbrev main_v1890 : Ref sig .tc := ⟨.hbm, 2036, rfl⟩
abbrev main_v1891 : Ref sig .tc := ⟨.hbm, 2037, rfl⟩
abbrev main_v1892 : Ref sig .tc := ⟨.hbm, 2038, rfl⟩
abbrev main_v1893 : Ref sig .tc := ⟨.hbm, 2039, rfl⟩
abbrev main_v1894 : Ref sig .tc := ⟨.hbm, 2040, rfl⟩
abbrev main_v1895 : Ref sig .tc := ⟨.hbm, 2041, rfl⟩
abbrev main_v1896 : Ref sig .tc := ⟨.hbm, 2042, rfl⟩
abbrev main_v1897 : Ref sig .tc := ⟨.hbm, 2043, rfl⟩
abbrev main_cst_120 : Ref sig .tc := ⟨.hbm, 2044, rfl⟩
abbrev main_v1898 : Ref sig .tc := ⟨.hbm, 2045, rfl⟩
abbrev main_v1899 : Ref sig .tc := ⟨.hbm, 2046, rfl⟩
abbrev main_cst_121 : Ref sig .tc := ⟨.hbm, 2047, rfl⟩
abbrev main_v1900 : Ref sig .tc := ⟨.hbm, 2048, rfl⟩
abbrev main_v1901 : Ref sig .tc := ⟨.hbm, 2049, rfl⟩
abbrev main_v1902 : Ref sig .tc := ⟨.hbm, 2050, rfl⟩
abbrev main_v1903 : Ref sig .tc := ⟨.hbm, 2051, rfl⟩
abbrev main_v1904 : Ref sig .tc := ⟨.hbm, 2052, rfl⟩
abbrev main_v1905 : Ref sig .tc := ⟨.hbm, 2053, rfl⟩
abbrev main_v1906 : Ref sig .tc := ⟨.hbm, 2054, rfl⟩
abbrev main_v1907 : Ref sig .tc := ⟨.hbm, 2055, rfl⟩
abbrev main_v1908 : Ref sig .tc := ⟨.hbm, 2056, rfl⟩
abbrev main_v1909 : Ref sig .tc := ⟨.hbm, 2057, rfl⟩
abbrev main_v1910 : Ref sig .tc := ⟨.hbm, 2058, rfl⟩
abbrev main_v1911 : Ref sig .tc := ⟨.hbm, 2059, rfl⟩
abbrev main_v1912 : Ref sig .tc := ⟨.hbm, 2060, rfl⟩
abbrev main_v1913 : Ref sig .tc := ⟨.hbm, 2061, rfl⟩
abbrev main_v1914 : Ref sig .tc := ⟨.hbm, 2062, rfl⟩
abbrev main_cst_122 : Ref sig .tc := ⟨.hbm, 2063, rfl⟩
abbrev main_v1915 : Ref sig .tc := ⟨.hbm, 2064, rfl⟩
abbrev main_v1916 : Ref sig .tc := ⟨.hbm, 2065, rfl⟩
abbrev main_v1917 : Ref sig .tc := ⟨.hbm, 2066, rfl⟩
abbrev main_v1918 : Ref sig .tc := ⟨.hbm, 2067, rfl⟩
abbrev main_v1919 : Ref sig .tc := ⟨.hbm, 2068, rfl⟩
abbrev main_v1920 : Ref sig .tc := ⟨.hbm, 2069, rfl⟩
abbrev main_v1921 : Ref sig .tc := ⟨.hbm, 2070, rfl⟩
abbrev main_v1922 : Ref sig .tc := ⟨.hbm, 2071, rfl⟩
abbrev main_v1923 : Ref sig .tc := ⟨.hbm, 2072, rfl⟩
abbrev main_v1924 : Ref sig .tc := ⟨.hbm, 2073, rfl⟩
abbrev main_v1925 : Ref sig .tc := ⟨.hbm, 2074, rfl⟩
abbrev main_v1926 : Ref sig .tc := ⟨.hbm, 2075, rfl⟩
abbrev main_v1927 : Ref sig .tc := ⟨.hbm, 2076, rfl⟩
abbrev main_v1928 : Ref sig .tc := ⟨.hbm, 2077, rfl⟩
abbrev main_v1929 : Ref sig .tc := ⟨.hbm, 2078, rfl⟩
abbrev main_v1930 : Ref sig .tc := ⟨.hbm, 2079, rfl⟩
abbrev main_v1931 : Ref sig .tc := ⟨.hbm, 2080, rfl⟩
abbrev main_v1932 : Ref sig .tc := ⟨.hbm, 2081, rfl⟩
abbrev main_v1933 : Ref sig .tc := ⟨.hbm, 2082, rfl⟩
abbrev main_v1934 : Ref sig .tc := ⟨.hbm, 2083, rfl⟩
abbrev main_v1935 : Ref sig .tc := ⟨.hbm, 2084, rfl⟩
abbrev main_v1936 : Ref sig .tc := ⟨.hbm, 2085, rfl⟩
abbrev main_v1937 : Ref sig .tc := ⟨.hbm, 2086, rfl⟩
abbrev main_v1938 : Ref sig .tc := ⟨.hbm, 2087, rfl⟩
abbrev main_v1939 : Ref sig .tc := ⟨.hbm, 2088, rfl⟩
abbrev main_v1940 : Ref sig .tc := ⟨.hbm, 2089, rfl⟩
abbrev main_v1941 : Ref sig .tc := ⟨.hbm, 2090, rfl⟩
abbrev main_v1942 : Ref sig .tc := ⟨.hbm, 2091, rfl⟩
abbrev main_v1943 : Ref sig .tc := ⟨.hbm, 2092, rfl⟩
abbrev main_v1944 : Ref sig .tc := ⟨.hbm, 2093, rfl⟩
abbrev main_v1945 : Ref sig .tc := ⟨.hbm, 2094, rfl⟩
abbrev main_v1946 : Ref sig .tc := ⟨.hbm, 2095, rfl⟩
abbrev main_v1947 : Ref sig .tc := ⟨.hbm, 2096, rfl⟩
abbrev main_v1948 : Ref sig .tc := ⟨.hbm, 2097, rfl⟩
abbrev main_v1949 : Ref sig .tc := ⟨.hbm, 2098, rfl⟩
abbrev main_v1950 : Ref sig .tc := ⟨.hbm, 2099, rfl⟩
abbrev main_v1951 : Ref sig .tc := ⟨.hbm, 2100, rfl⟩
abbrev main_v1952 : Ref sig .tc := ⟨.hbm, 2101, rfl⟩
abbrev main_v1953 : Ref sig .tc := ⟨.hbm, 2102, rfl⟩
abbrev main_v1954 : Ref sig .tc := ⟨.hbm, 2103, rfl⟩
abbrev main_cst_123 : Ref sig .tc := ⟨.hbm, 2104, rfl⟩
abbrev main_v1955 : Ref sig .tc := ⟨.hbm, 2105, rfl⟩
abbrev main_v1956 : Ref sig .tc := ⟨.hbm, 2106, rfl⟩
abbrev main_cst_124 : Ref sig .tc := ⟨.hbm, 2107, rfl⟩
abbrev main_v1957 : Ref sig .tc := ⟨.hbm, 2108, rfl⟩
abbrev main_v1958 : Ref sig .tc := ⟨.hbm, 2109, rfl⟩
abbrev main_v1959 : Ref sig .tc := ⟨.hbm, 2110, rfl⟩
abbrev main_v1960 : Ref sig .tc := ⟨.hbm, 2111, rfl⟩
abbrev main_v1961 : Ref sig .tc := ⟨.hbm, 2112, rfl⟩
abbrev main_v1962 : Ref sig .tc := ⟨.hbm, 2113, rfl⟩
abbrev main_v1963 : Ref sig .tc := ⟨.hbm, 2114, rfl⟩
abbrev main_v1964 : Ref sig .tc := ⟨.hbm, 2115, rfl⟩
abbrev main_v1965 : Ref sig .tc := ⟨.hbm, 2116, rfl⟩
abbrev main_v1966 : Ref sig .tc := ⟨.hbm, 2117, rfl⟩
abbrev main_v1967 : Ref sig .tc := ⟨.hbm, 2118, rfl⟩
abbrev main_v1968 : Ref sig .tc := ⟨.hbm, 2119, rfl⟩
abbrev main_v1969 : Ref sig .tc := ⟨.hbm, 2120, rfl⟩
abbrev main_v1970 : Ref sig .tc := ⟨.hbm, 2121, rfl⟩
abbrev main_v1971 : Ref sig .tc := ⟨.hbm, 2122, rfl⟩
abbrev main_v1972 : Ref sig .tc := ⟨.hbm, 2123, rfl⟩
abbrev main_v1973 : Ref sig .tc := ⟨.hbm, 2124, rfl⟩
abbrev main_v1974 : Ref sig .tc := ⟨.hbm, 2125, rfl⟩
abbrev main_v1975 : Ref sig .tc := ⟨.hbm, 2126, rfl⟩
abbrev main_v1976 : Ref sig .tc := ⟨.hbm, 2127, rfl⟩
abbrev main_v1977 : Ref sig .tc := ⟨.hbm, 2128, rfl⟩
abbrev main_v1978 : Ref sig .tc := ⟨.hbm, 2129, rfl⟩
abbrev main_v1979 : Ref sig .tc := ⟨.hbm, 2130, rfl⟩
abbrev main_v1980 : Ref sig .tc := ⟨.hbm, 2131, rfl⟩
abbrev main_v1981 : Ref sig .tc := ⟨.hbm, 2132, rfl⟩
abbrev main_v1982 : Ref sig .tc := ⟨.hbm, 2133, rfl⟩
abbrev main_cst_125 : Ref sig .tc := ⟨.hbm, 2134, rfl⟩
abbrev main_v1983 : Ref sig .tc := ⟨.hbm, 2135, rfl⟩
abbrev main_v1984 : Ref sig .tc := ⟨.hbm, 2136, rfl⟩
abbrev main_cst_126 : Ref sig .tc := ⟨.hbm, 2137, rfl⟩
abbrev main_v1985 : Ref sig .tc := ⟨.hbm, 2138, rfl⟩
abbrev main_v1986 : Ref sig .tc := ⟨.hbm, 2139, rfl⟩
abbrev main_v1987 : Ref sig .tc := ⟨.hbm, 2140, rfl⟩
abbrev main_v1988 : Ref sig .tc := ⟨.hbm, 2141, rfl⟩
abbrev main_v1989 : Ref sig .tc := ⟨.hbm, 2142, rfl⟩
abbrev main_v1990 : Ref sig .tc := ⟨.hbm, 2143, rfl⟩
abbrev main_v1991 : Ref sig .tc := ⟨.hbm, 2144, rfl⟩
abbrev main_v1992 : Ref sig .tc := ⟨.hbm, 2145, rfl⟩
abbrev main_v1993 : Ref sig .tc := ⟨.hbm, 2146, rfl⟩
abbrev main_v1994 : Ref sig .tc := ⟨.hbm, 2147, rfl⟩
abbrev main_v1995 : Ref sig .tc := ⟨.hbm, 2148, rfl⟩
abbrev main_v1996 : Ref sig .tc := ⟨.hbm, 2149, rfl⟩
abbrev main_v1997 : Ref sig .tc := ⟨.hbm, 2150, rfl⟩
abbrev main_v1998 : Ref sig .tc := ⟨.hbm, 2151, rfl⟩
abbrev main_v1999 : Ref sig .tc := ⟨.hbm, 2152, rfl⟩
abbrev main_v2000 : Ref sig .tc := ⟨.hbm, 2153, rfl⟩
abbrev main_v2001 : Ref sig .tc := ⟨.hbm, 2154, rfl⟩
abbrev main_v2002 : Ref sig .tc := ⟨.hbm, 2155, rfl⟩
abbrev main_v2003 : Ref sig .tc := ⟨.hbm, 2156, rfl⟩
abbrev main_v2004 : Ref sig .tc := ⟨.hbm, 2157, rfl⟩
abbrev main_v2005 : Ref sig .tc := ⟨.hbm, 2158, rfl⟩
abbrev main_v2006 : Ref sig .tc := ⟨.hbm, 2159, rfl⟩
abbrev main_v2007 : Ref sig .tc := ⟨.hbm, 2160, rfl⟩
abbrev main_v2008 : Ref sig .tc := ⟨.hbm, 2161, rfl⟩
abbrev main_v2009 : Ref sig .tc := ⟨.hbm, 2162, rfl⟩
abbrev main_cst_127 : Ref sig .tc := ⟨.hbm, 2163, rfl⟩
abbrev main_v2010 : Ref sig .tc := ⟨.hbm, 2164, rfl⟩
abbrev main_v2011 : Ref sig .tc := ⟨.hbm, 2165, rfl⟩
abbrev main_cst_128 : Ref sig .tc := ⟨.hbm, 2166, rfl⟩
abbrev main_v2012 : Ref sig .tc := ⟨.hbm, 2167, rfl⟩
abbrev main_v2013 : Ref sig .tc := ⟨.hbm, 2168, rfl⟩
abbrev main_v2014 : Ref sig .tc := ⟨.hbm, 2169, rfl⟩
abbrev main_v2015 : Ref sig .tc := ⟨.hbm, 2170, rfl⟩
abbrev main_v2016 : Ref sig .tc := ⟨.hbm, 2171, rfl⟩
abbrev main_v2017 : Ref sig .tc := ⟨.hbm, 2172, rfl⟩
abbrev main_v2018 : Ref sig .tc := ⟨.hbm, 2173, rfl⟩
abbrev main_v2019 : Ref sig .tc := ⟨.hbm, 2174, rfl⟩
abbrev main_v2020 : Ref sig .tc := ⟨.hbm, 2175, rfl⟩
abbrev main_v2021 : Ref sig .tc := ⟨.hbm, 2176, rfl⟩
abbrev main_v2022 : Ref sig .tc := ⟨.hbm, 2177, rfl⟩
abbrev main_v2023 : Ref sig .tc := ⟨.hbm, 2178, rfl⟩
abbrev main_v2024 : Ref sig .tc := ⟨.hbm, 2179, rfl⟩
abbrev main_v2025 : Ref sig .tc := ⟨.hbm, 2180, rfl⟩
abbrev main_v2026 : Ref sig .tc := ⟨.hbm, 2181, rfl⟩
abbrev main_v2027 : Ref sig .tc := ⟨.hbm, 2182, rfl⟩
abbrev main_v2028 : Ref sig .tc := ⟨.hbm, 2183, rfl⟩
abbrev main_v2029 : Ref sig .tc := ⟨.hbm, 2184, rfl⟩
abbrev main_v2030 : Ref sig .tc := ⟨.hbm, 2185, rfl⟩
abbrev main_v2031 : Ref sig .tc := ⟨.hbm, 2186, rfl⟩
abbrev main_v2032 : Ref sig .tc := ⟨.hbm, 2187, rfl⟩
abbrev main_v2033 : Ref sig .tc := ⟨.hbm, 2188, rfl⟩
abbrev main_v2034 : Ref sig .tc := ⟨.hbm, 2189, rfl⟩
abbrev main_cst_129 : Ref sig .tc := ⟨.hbm, 2190, rfl⟩
abbrev main_v2035 : Ref sig .tc := ⟨.hbm, 2191, rfl⟩
abbrev main_v2036 : Ref sig .tc := ⟨.hbm, 2192, rfl⟩
abbrev main_cst_130 : Ref sig .tc := ⟨.hbm, 2193, rfl⟩
abbrev main_v2037 : Ref sig .tc := ⟨.hbm, 2194, rfl⟩
abbrev main_v2038 : Ref sig .tc := ⟨.hbm, 2195, rfl⟩
abbrev main_v2039 : Ref sig .tc := ⟨.hbm, 2196, rfl⟩
abbrev main_v2040 : Ref sig .tc := ⟨.hbm, 2197, rfl⟩
abbrev main_v2041 : Ref sig .tc := ⟨.hbm, 2198, rfl⟩
abbrev main_v2042 : Ref sig .tc := ⟨.hbm, 2199, rfl⟩
abbrev main_v2043 : Ref sig .tc := ⟨.hbm, 2200, rfl⟩
abbrev main_v2044 : Ref sig .tc := ⟨.hbm, 2201, rfl⟩
abbrev main_v2045 : Ref sig .tc := ⟨.hbm, 2202, rfl⟩
abbrev main_v2046 : Ref sig .tc := ⟨.hbm, 2203, rfl⟩
abbrev main_v2047 : Ref sig .tc := ⟨.hbm, 2204, rfl⟩
abbrev main_v2048 : Ref sig .tc := ⟨.hbm, 2205, rfl⟩
abbrev main_v2049 : Ref sig .tc := ⟨.hbm, 2206, rfl⟩
abbrev main_v2050 : Ref sig .tc := ⟨.hbm, 2207, rfl⟩
abbrev main_v2051 : Ref sig .tc := ⟨.hbm, 2208, rfl⟩
abbrev main_cst_131 : Ref sig .tc := ⟨.hbm, 2209, rfl⟩
abbrev main_v2052 : Ref sig .tc := ⟨.hbm, 2210, rfl⟩
abbrev main_v2053 : Ref sig .tc := ⟨.hbm, 2211, rfl⟩
abbrev main_v2054 : Ref sig .tc := ⟨.hbm, 2212, rfl⟩
abbrev main_v2055 : Ref sig .tc := ⟨.hbm, 2213, rfl⟩
abbrev main_v2056 : Ref sig .tc := ⟨.hbm, 2214, rfl⟩
abbrev main_v2057 : Ref sig .tc := ⟨.hbm, 2215, rfl⟩
abbrev main_v2058 : Ref sig .tc := ⟨.hbm, 2216, rfl⟩
abbrev main_v2059 : Ref sig .tc := ⟨.hbm, 2217, rfl⟩
abbrev main_v2060 : Ref sig .tc := ⟨.hbm, 2218, rfl⟩
abbrev main_v2061 : Ref sig .tc := ⟨.hbm, 2219, rfl⟩
abbrev main_v2062 : Ref sig .tc := ⟨.hbm, 2220, rfl⟩
abbrev main_v2063 : Ref sig .tc := ⟨.hbm, 2221, rfl⟩
abbrev main_v2064 : Ref sig .tc := ⟨.hbm, 2222, rfl⟩
abbrev main_v2065 : Ref sig .tc := ⟨.hbm, 2223, rfl⟩
abbrev main_v2066 : Ref sig .tc := ⟨.hbm, 2224, rfl⟩
abbrev main_v2067 : Ref sig .tc := ⟨.hbm, 2225, rfl⟩
abbrev main_v2068 : Ref sig .tc := ⟨.hbm, 2226, rfl⟩
abbrev main_v2069 : Ref sig .tc := ⟨.hbm, 2227, rfl⟩
abbrev main_v2070 : Ref sig .tc := ⟨.hbm, 2228, rfl⟩
abbrev main_v2071 : Ref sig .tc := ⟨.hbm, 2229, rfl⟩
abbrev main_v2072 : Ref sig .tc := ⟨.hbm, 2230, rfl⟩
abbrev main_v2073 : Ref sig .tc := ⟨.hbm, 2231, rfl⟩
abbrev main_v2074 : Ref sig .tc := ⟨.hbm, 2232, rfl⟩
abbrev main_v2075 : Ref sig .tc := ⟨.hbm, 2233, rfl⟩
abbrev main_v2076 : Ref sig .tc := ⟨.hbm, 2234, rfl⟩
abbrev main_v2077 : Ref sig .tc := ⟨.hbm, 2235, rfl⟩
abbrev main_v2078 : Ref sig .tc := ⟨.hbm, 2236, rfl⟩
abbrev main_v2079 : Ref sig .tc := ⟨.hbm, 2237, rfl⟩
abbrev main_v2080 : Ref sig .tc := ⟨.hbm, 2238, rfl⟩
abbrev main_v2081 : Ref sig .tc := ⟨.hbm, 2239, rfl⟩
abbrev main_v2082 : Ref sig .tc := ⟨.hbm, 2240, rfl⟩
abbrev main_v2083 : Ref sig .tc := ⟨.hbm, 2241, rfl⟩
abbrev main_v2084 : Ref sig .tc := ⟨.hbm, 2242, rfl⟩
abbrev main_v2085 : Ref sig .tc := ⟨.hbm, 2243, rfl⟩
abbrev main_v2086 : Ref sig .tc := ⟨.hbm, 2244, rfl⟩
abbrev main_v2087 : Ref sig .tc := ⟨.hbm, 2245, rfl⟩
abbrev main_v2088 : Ref sig .tc := ⟨.hbm, 2246, rfl⟩
abbrev main_v2089 : Ref sig .tc := ⟨.hbm, 2247, rfl⟩
abbrev main_v2090 : Ref sig .tc := ⟨.hbm, 2248, rfl⟩
abbrev main_v2091 : Ref sig .tc := ⟨.hbm, 2249, rfl⟩
abbrev main_cst_132 : Ref sig .tc := ⟨.hbm, 2250, rfl⟩
abbrev main_v2092 : Ref sig .tc := ⟨.hbm, 2251, rfl⟩
abbrev main_v2093 : Ref sig .tc := ⟨.hbm, 2252, rfl⟩
abbrev main_cst_133 : Ref sig .tc := ⟨.hbm, 2253, rfl⟩
abbrev main_v2094 : Ref sig .tc := ⟨.hbm, 2254, rfl⟩
abbrev main_v2095 : Ref sig .tc := ⟨.hbm, 2255, rfl⟩
abbrev main_v2096 : Ref sig .tc := ⟨.hbm, 2256, rfl⟩
abbrev main_v2097 : Ref sig .tc := ⟨.hbm, 2257, rfl⟩
abbrev main_v2098 : Ref sig .tc := ⟨.hbm, 2258, rfl⟩
abbrev main_v2099 : Ref sig .tc := ⟨.hbm, 2259, rfl⟩
abbrev main_v2100 : Ref sig .tc := ⟨.hbm, 2260, rfl⟩
abbrev main_v2101 : Ref sig .tc := ⟨.hbm, 2261, rfl⟩
abbrev main_v2102 : Ref sig .tc := ⟨.hbm, 2262, rfl⟩
abbrev main_v2103 : Ref sig .tc := ⟨.hbm, 2263, rfl⟩
abbrev main_v2104 : Ref sig .tc := ⟨.hbm, 2264, rfl⟩
abbrev main_v2105 : Ref sig .tc := ⟨.hbm, 2265, rfl⟩
abbrev main_v2106 : Ref sig .tc := ⟨.hbm, 2266, rfl⟩
abbrev main_v2107 : Ref sig .tc := ⟨.hbm, 2267, rfl⟩
abbrev main_v2108 : Ref sig .tc := ⟨.hbm, 2268, rfl⟩
abbrev main_v2109 : Ref sig .tc := ⟨.hbm, 2269, rfl⟩
abbrev main_v2110 : Ref sig .tc := ⟨.hbm, 2270, rfl⟩
abbrev main_v2111 : Ref sig .tc := ⟨.hbm, 2271, rfl⟩
abbrev main_v2112 : Ref sig .tc := ⟨.hbm, 2272, rfl⟩
abbrev main_v2113 : Ref sig .tc := ⟨.hbm, 2273, rfl⟩
abbrev main_v2114 : Ref sig .tc := ⟨.hbm, 2274, rfl⟩
abbrev main_v2115 : Ref sig .tc := ⟨.hbm, 2275, rfl⟩
abbrev main_v2116 : Ref sig .tc := ⟨.hbm, 2276, rfl⟩
abbrev main_v2117 : Ref sig .tc := ⟨.hbm, 2277, rfl⟩
abbrev main_v2118 : Ref sig .tc := ⟨.hbm, 2278, rfl⟩
abbrev main_v2119 : Ref sig .tc := ⟨.hbm, 2279, rfl⟩
abbrev main_v2120 : Ref sig .tc := ⟨.hbm, 2280, rfl⟩
abbrev main_v2121 : Ref sig .tc := ⟨.hbm, 2281, rfl⟩
abbrev main_v2122 : Ref sig .tc := ⟨.hbm, 2282, rfl⟩
abbrev main_v2123 : Ref sig .tc := ⟨.hbm, 2283, rfl⟩
abbrev main_v2124 : Ref sig .tc := ⟨.hbm, 2284, rfl⟩
abbrev main_v2125 : Ref sig .tc := ⟨.hbm, 2285, rfl⟩
abbrev main_v2126 : Ref sig .tc := ⟨.hbm, 2286, rfl⟩
abbrev main_v2127 : Ref sig .tc := ⟨.hbm, 2287, rfl⟩
abbrev main_v2128 : Ref sig .tc := ⟨.hbm, 2288, rfl⟩
abbrev main_v2129 : Ref sig .tc := ⟨.hbm, 2289, rfl⟩
abbrev main_cst_134 : Ref sig .tc := ⟨.hbm, 2290, rfl⟩
abbrev main_v2130 : Ref sig .tc := ⟨.hbm, 2291, rfl⟩
abbrev main_v2131 : Ref sig .tc := ⟨.hbm, 2292, rfl⟩
abbrev main_cst_135 : Ref sig .tc := ⟨.hbm, 2293, rfl⟩
abbrev main_v2132 : Ref sig .tc := ⟨.hbm, 2294, rfl⟩
abbrev main_v2133 : Ref sig .tc := ⟨.hbm, 2295, rfl⟩
abbrev main_v2134 : Ref sig .tc := ⟨.hbm, 2296, rfl⟩
abbrev main_v2135 : Ref sig .tc := ⟨.hbm, 2297, rfl⟩
abbrev main_v2136 : Ref sig .tc := ⟨.hbm, 2298, rfl⟩
abbrev main_v2137 : Ref sig .tc := ⟨.hbm, 2299, rfl⟩
abbrev main_v2138 : Ref sig .tc := ⟨.hbm, 2300, rfl⟩
abbrev main_v2139 : Ref sig .tc := ⟨.hbm, 2301, rfl⟩
abbrev main_v2140 : Ref sig .tc := ⟨.hbm, 2302, rfl⟩
abbrev main_v2141 : Ref sig .tc := ⟨.hbm, 2303, rfl⟩
abbrev main_v2142 : Ref sig .tc := ⟨.hbm, 2304, rfl⟩
abbrev main_v2143 : Ref sig .tc := ⟨.hbm, 2305, rfl⟩
abbrev main_v2144 : Ref sig .tc := ⟨.hbm, 2306, rfl⟩
abbrev main_v2145 : Ref sig .tc := ⟨.hbm, 2307, rfl⟩
abbrev main_v2146 : Ref sig .tc := ⟨.hbm, 2308, rfl⟩
abbrev main_v2147 : Ref sig .tc := ⟨.hbm, 2309, rfl⟩
abbrev main_v2148 : Ref sig .tc := ⟨.hbm, 2310, rfl⟩
abbrev main_v2149 : Ref sig .tc := ⟨.hbm, 2311, rfl⟩
abbrev main_v2150 : Ref sig .tc := ⟨.hbm, 2312, rfl⟩
abbrev main_v2151 : Ref sig .tc := ⟨.hbm, 2313, rfl⟩
abbrev main_v2152 : Ref sig .tc := ⟨.hbm, 2314, rfl⟩
abbrev main_v2153 : Ref sig .tc := ⟨.hbm, 2315, rfl⟩
abbrev main_v2154 : Ref sig .tc := ⟨.hbm, 2316, rfl⟩
abbrev main_v2155 : Ref sig .tc := ⟨.hbm, 2317, rfl⟩
abbrev main_v2156 : Ref sig .tc := ⟨.hbm, 2318, rfl⟩
abbrev main_cst_136 : Ref sig .tc := ⟨.hbm, 2319, rfl⟩
abbrev main_v2157 : Ref sig .tc := ⟨.hbm, 2320, rfl⟩
abbrev main_v2158 : Ref sig .tc := ⟨.hbm, 2321, rfl⟩
abbrev main_cst_137 : Ref sig .tc := ⟨.hbm, 2322, rfl⟩
abbrev main_v2159 : Ref sig .tc := ⟨.hbm, 2323, rfl⟩
abbrev main_v2160 : Ref sig .tc := ⟨.hbm, 2324, rfl⟩
abbrev main_v2161 : Ref sig .tc := ⟨.hbm, 2325, rfl⟩
abbrev main_v2162 : Ref sig .tc := ⟨.hbm, 2326, rfl⟩
abbrev main_v2163 : Ref sig .tc := ⟨.hbm, 2327, rfl⟩
abbrev main_v2164 : Ref sig .tc := ⟨.hbm, 2328, rfl⟩
abbrev main_v2165 : Ref sig .tc := ⟨.hbm, 2329, rfl⟩
abbrev main_v2166 : Ref sig .tc := ⟨.hbm, 2330, rfl⟩
abbrev main_v2167 : Ref sig .tc := ⟨.hbm, 2331, rfl⟩
abbrev main_v2168 : Ref sig .tc := ⟨.hbm, 2332, rfl⟩
abbrev main_v2169 : Ref sig .tc := ⟨.hbm, 2333, rfl⟩
abbrev main_v2170 : Ref sig .tc := ⟨.hbm, 2334, rfl⟩
abbrev main_v2171 : Ref sig .tc := ⟨.hbm, 2335, rfl⟩
abbrev main_v2172 : Ref sig .tc := ⟨.hbm, 2336, rfl⟩
abbrev main_v2173 : Ref sig .tc := ⟨.hbm, 2337, rfl⟩
abbrev main_v2174 : Ref sig .tc := ⟨.hbm, 2338, rfl⟩
abbrev main_v2175 : Ref sig .tc := ⟨.hbm, 2339, rfl⟩
abbrev main_v2176 : Ref sig .tc := ⟨.hbm, 2340, rfl⟩
abbrev main_v2177 : Ref sig .tc := ⟨.hbm, 2341, rfl⟩
abbrev main_v2178 : Ref sig .tc := ⟨.hbm, 2342, rfl⟩
abbrev main_v2179 : Ref sig .tc := ⟨.hbm, 2343, rfl⟩
abbrev main_v2180 : Ref sig .tc := ⟨.hbm, 2344, rfl⟩
abbrev main_v2181 : Ref sig .tc := ⟨.hbm, 2345, rfl⟩
abbrev main_cst_138 : Ref sig .tc := ⟨.hbm, 2346, rfl⟩
abbrev main_v2182 : Ref sig .tc := ⟨.hbm, 2347, rfl⟩
abbrev main_v2183 : Ref sig .tc := ⟨.hbm, 2348, rfl⟩
abbrev main_cst_139 : Ref sig .tc := ⟨.hbm, 2349, rfl⟩
abbrev main_v2184 : Ref sig .tc := ⟨.hbm, 2350, rfl⟩
abbrev main_v2185 : Ref sig .tc := ⟨.hbm, 2351, rfl⟩
abbrev main_v2186 : Ref sig .tc := ⟨.hbm, 2352, rfl⟩
abbrev main_v2187 : Ref sig .tc := ⟨.hbm, 2353, rfl⟩
abbrev main_v2188 : Ref sig .tc := ⟨.hbm, 2354, rfl⟩
abbrev main_v2189 : Ref sig .tc := ⟨.hbm, 2355, rfl⟩
abbrev main_v2190 : Ref sig .tc := ⟨.hbm, 2356, rfl⟩
abbrev main_v2191 : Ref sig .tc := ⟨.hbm, 2357, rfl⟩
abbrev main_v2192 : Ref sig .tc := ⟨.hbm, 2358, rfl⟩
abbrev main_v2193 : Ref sig .tc := ⟨.hbm, 2359, rfl⟩
abbrev main_v2194 : Ref sig .tc := ⟨.hbm, 2360, rfl⟩
abbrev main_v2195 : Ref sig .tc := ⟨.hbm, 2361, rfl⟩
abbrev main_v2196 : Ref sig .tc := ⟨.hbm, 2362, rfl⟩
abbrev main_v2197 : Ref sig .tc := ⟨.hbm, 2363, rfl⟩
abbrev main_v2198 : Ref sig .tc := ⟨.hbm, 2364, rfl⟩
abbrev main_cst_140 : Ref sig .tc := ⟨.hbm, 2365, rfl⟩
abbrev main_v2199 : Ref sig .tc := ⟨.hbm, 2366, rfl⟩
abbrev main_v2200 : Ref sig .tc := ⟨.hbm, 2367, rfl⟩
abbrev main_v2201 : Ref sig .tc := ⟨.hbm, 2368, rfl⟩
abbrev main_v2202 : Ref sig .tc := ⟨.hbm, 2369, rfl⟩
abbrev main_v2203 : Ref sig .tc := ⟨.hbm, 2370, rfl⟩
abbrev main_v2204 : Ref sig .tc := ⟨.hbm, 2371, rfl⟩
abbrev main_v2205 : Ref sig .tc := ⟨.hbm, 2372, rfl⟩
abbrev main_v2206 : Ref sig .tc := ⟨.hbm, 2373, rfl⟩
abbrev main_v2207 : Ref sig .tc := ⟨.hbm, 2374, rfl⟩
abbrev main_v2208 : Ref sig .tc := ⟨.hbm, 2375, rfl⟩
abbrev main_v2209 : Ref sig .tc := ⟨.hbm, 2376, rfl⟩
abbrev main_v2210 : Ref sig .tc := ⟨.hbm, 2377, rfl⟩
abbrev main_v2211 : Ref sig .tc := ⟨.hbm, 2378, rfl⟩
abbrev main_v2212 : Ref sig .tc := ⟨.hbm, 2379, rfl⟩
abbrev main_v2213 : Ref sig .tc := ⟨.hbm, 2380, rfl⟩
abbrev main_v2214 : Ref sig .tc := ⟨.hbm, 2381, rfl⟩
abbrev main_v2215 : Ref sig .tc := ⟨.hbm, 2382, rfl⟩
abbrev main_v2216 : Ref sig .tc := ⟨.hbm, 2383, rfl⟩
abbrev main_v2217 : Ref sig .tc := ⟨.hbm, 2384, rfl⟩
abbrev main_v2218 : Ref sig .tc := ⟨.hbm, 2385, rfl⟩
abbrev main_v2219 : Ref sig .tc := ⟨.hbm, 2386, rfl⟩
abbrev main_v2220 : Ref sig .tc := ⟨.hbm, 2387, rfl⟩
abbrev main_v2221 : Ref sig .tc := ⟨.hbm, 2388, rfl⟩
abbrev main_v2222 : Ref sig .tc := ⟨.hbm, 2389, rfl⟩
abbrev main_v2223 : Ref sig .tc := ⟨.hbm, 2390, rfl⟩
abbrev main_v2224 : Ref sig .tc := ⟨.hbm, 2391, rfl⟩
abbrev main_v2225 : Ref sig .tc := ⟨.hbm, 2392, rfl⟩
abbrev main_v2226 : Ref sig .tc := ⟨.hbm, 2393, rfl⟩
abbrev main_v2227 : Ref sig .tc := ⟨.hbm, 2394, rfl⟩
abbrev main_v2228 : Ref sig .tc := ⟨.hbm, 2395, rfl⟩
abbrev main_v2229 : Ref sig .tc := ⟨.hbm, 2396, rfl⟩
abbrev main_v2230 : Ref sig .tc := ⟨.hbm, 2397, rfl⟩
abbrev main_v2231 : Ref sig .tc := ⟨.hbm, 2398, rfl⟩
abbrev main_v2232 : Ref sig .tc := ⟨.hbm, 2399, rfl⟩
abbrev main_v2233 : Ref sig .tc := ⟨.hbm, 2400, rfl⟩
abbrev main_v2234 : Ref sig .tc := ⟨.hbm, 2401, rfl⟩
abbrev main_v2235 : Ref sig .tc := ⟨.hbm, 2402, rfl⟩
abbrev main_v2236 : Ref sig .tc := ⟨.hbm, 2403, rfl⟩
abbrev main_v2237 : Ref sig .tc := ⟨.hbm, 2404, rfl⟩
abbrev main_v2238 : Ref sig .tc := ⟨.hbm, 2405, rfl⟩
abbrev main_cst_141 : Ref sig .tc := ⟨.hbm, 2406, rfl⟩
abbrev main_v2239 : Ref sig .tc := ⟨.hbm, 2407, rfl⟩
abbrev main_v2240 : Ref sig .tc := ⟨.hbm, 2408, rfl⟩
abbrev main_cst_142 : Ref sig .tc := ⟨.hbm, 2409, rfl⟩
abbrev main_v2241 : Ref sig .tc := ⟨.hbm, 2410, rfl⟩
abbrev main_v2242 : Ref sig .tc := ⟨.hbm, 2411, rfl⟩
abbrev main_v2243 : Ref sig .tc := ⟨.hbm, 2412, rfl⟩
abbrev main_v2244 : Ref sig .tc := ⟨.hbm, 2413, rfl⟩
abbrev main_v2245 : Ref sig .tc := ⟨.hbm, 2414, rfl⟩
abbrev main_v2246 : Ref sig .tc := ⟨.hbm, 2415, rfl⟩
abbrev main_v2247 : Ref sig .tc := ⟨.hbm, 2416, rfl⟩
abbrev main_v2248 : Ref sig .tc := ⟨.hbm, 2417, rfl⟩
abbrev main_v2249 : Ref sig .tc := ⟨.hbm, 2418, rfl⟩
abbrev main_v2250 : Ref sig .tc := ⟨.hbm, 2419, rfl⟩
abbrev main_v2251 : Ref sig .tc := ⟨.hbm, 2420, rfl⟩
abbrev main_v2252 : Ref sig .tc := ⟨.hbm, 2421, rfl⟩
abbrev main_v2253 : Ref sig .tc := ⟨.hbm, 2422, rfl⟩
abbrev main_v2254 : Ref sig .tc := ⟨.hbm, 2423, rfl⟩
abbrev main_v2255 : Ref sig .tc := ⟨.hbm, 2424, rfl⟩
abbrev main_v2256 : Ref sig .tc := ⟨.hbm, 2425, rfl⟩
abbrev main_v2257 : Ref sig .tc := ⟨.hbm, 2426, rfl⟩
abbrev main_v2258 : Ref sig .tc := ⟨.hbm, 2427, rfl⟩
abbrev main_v2259 : Ref sig .tc := ⟨.hbm, 2428, rfl⟩
abbrev main_v2260 : Ref sig .tc := ⟨.hbm, 2429, rfl⟩
abbrev main_v2261 : Ref sig .tc := ⟨.hbm, 2430, rfl⟩
abbrev main_v2262 : Ref sig .tc := ⟨.hbm, 2431, rfl⟩
abbrev main_v2263 : Ref sig .tc := ⟨.hbm, 2432, rfl⟩
abbrev main_v2264 : Ref sig .tc := ⟨.hbm, 2433, rfl⟩
abbrev main_v2265 : Ref sig .tc := ⟨.hbm, 2434, rfl⟩
abbrev main_v2266 : Ref sig .tc := ⟨.hbm, 2435, rfl⟩
abbrev main_cst_143 : Ref sig .tc := ⟨.hbm, 2436, rfl⟩
abbrev main_v2267 : Ref sig .tc := ⟨.hbm, 2437, rfl⟩
abbrev main_v2268 : Ref sig .tc := ⟨.hbm, 2438, rfl⟩
abbrev main_cst_144 : Ref sig .tc := ⟨.hbm, 2439, rfl⟩
abbrev main_v2269 : Ref sig .tc := ⟨.hbm, 2440, rfl⟩
abbrev main_v2270 : Ref sig .tc := ⟨.hbm, 2441, rfl⟩
abbrev main_v2271 : Ref sig .tc := ⟨.hbm, 2442, rfl⟩
abbrev main_v2272 : Ref sig .tc := ⟨.hbm, 2443, rfl⟩
abbrev main_v2273 : Ref sig .tc := ⟨.hbm, 2444, rfl⟩
abbrev main_v2274 : Ref sig .tc := ⟨.hbm, 2445, rfl⟩
abbrev main_v2275 : Ref sig .tc := ⟨.hbm, 2446, rfl⟩
abbrev main_v2276 : Ref sig .tc := ⟨.hbm, 2447, rfl⟩
abbrev main_v2277 : Ref sig .tc := ⟨.hbm, 2448, rfl⟩
abbrev main_v2278 : Ref sig .tc := ⟨.hbm, 2449, rfl⟩
abbrev main_v2279 : Ref sig .tc := ⟨.hbm, 2450, rfl⟩
abbrev main_v2280 : Ref sig .tc := ⟨.hbm, 2451, rfl⟩
abbrev main_v2281 : Ref sig .tc := ⟨.hbm, 2452, rfl⟩
abbrev main_v2282 : Ref sig .tc := ⟨.hbm, 2453, rfl⟩
abbrev main_v2283 : Ref sig .tc := ⟨.hbm, 2454, rfl⟩
abbrev main_v2284 : Ref sig .tc := ⟨.hbm, 2455, rfl⟩
abbrev main_v2285 : Ref sig .tc := ⟨.hbm, 2456, rfl⟩
abbrev main_v2286 : Ref sig .tc := ⟨.hbm, 2457, rfl⟩
abbrev main_v2287 : Ref sig .tc := ⟨.hbm, 2458, rfl⟩
abbrev main_v2288 : Ref sig .tc := ⟨.hbm, 2459, rfl⟩
abbrev main_v2289 : Ref sig .tc := ⟨.hbm, 2460, rfl⟩
abbrev main_v2290 : Ref sig .tc := ⟨.hbm, 2461, rfl⟩
abbrev main_v2291 : Ref sig .tc := ⟨.hbm, 2462, rfl⟩
abbrev main_v2292 : Ref sig .tc := ⟨.hbm, 2463, rfl⟩
abbrev main_v2293 : Ref sig .tc := ⟨.hbm, 2464, rfl⟩
abbrev main_cst_145 : Ref sig .tc := ⟨.hbm, 2465, rfl⟩
abbrev main_v2294 : Ref sig .tc := ⟨.hbm, 2466, rfl⟩
abbrev main_v2295 : Ref sig .tc := ⟨.hbm, 2467, rfl⟩
abbrev main_cst_146 : Ref sig .tc := ⟨.hbm, 2468, rfl⟩
abbrev main_v2296 : Ref sig .tc := ⟨.hbm, 2469, rfl⟩
abbrev main_v2297 : Ref sig .tc := ⟨.hbm, 2470, rfl⟩
abbrev main_v2298 : Ref sig .tc := ⟨.hbm, 2471, rfl⟩
abbrev main_v2299 : Ref sig .tc := ⟨.hbm, 2472, rfl⟩
abbrev main_v2300 : Ref sig .tc := ⟨.hbm, 2473, rfl⟩
abbrev main_v2301 : Ref sig .tc := ⟨.hbm, 2474, rfl⟩
abbrev main_v2302 : Ref sig .tc := ⟨.hbm, 2475, rfl⟩
abbrev main_v2303 : Ref sig .tc := ⟨.hbm, 2476, rfl⟩
abbrev main_v2304 : Ref sig .tc := ⟨.hbm, 2477, rfl⟩
abbrev main_v2305 : Ref sig .tc := ⟨.hbm, 2478, rfl⟩
abbrev main_v2306 : Ref sig .tc := ⟨.hbm, 2479, rfl⟩
abbrev main_v2307 : Ref sig .tc := ⟨.hbm, 2480, rfl⟩
abbrev main_v2308 : Ref sig .tc := ⟨.hbm, 2481, rfl⟩
abbrev main_v2309 : Ref sig .tc := ⟨.hbm, 2482, rfl⟩
abbrev main_v2310 : Ref sig .tc := ⟨.hbm, 2483, rfl⟩
abbrev main_v2311 : Ref sig .tc := ⟨.hbm, 2484, rfl⟩
abbrev main_v2312 : Ref sig .tc := ⟨.hbm, 2485, rfl⟩
abbrev main_v2313 : Ref sig .tc := ⟨.hbm, 2486, rfl⟩
abbrev main_v2314 : Ref sig .tc := ⟨.hbm, 2487, rfl⟩
abbrev main_v2315 : Ref sig .tc := ⟨.hbm, 2488, rfl⟩
abbrev main_v2316 : Ref sig .tc := ⟨.hbm, 2489, rfl⟩
abbrev main_v2317 : Ref sig .tc := ⟨.hbm, 2490, rfl⟩
abbrev main_v2318 : Ref sig .tc := ⟨.hbm, 2491, rfl⟩
abbrev main_cst_147 : Ref sig .tc := ⟨.hbm, 2492, rfl⟩
abbrev main_v2319 : Ref sig .tc := ⟨.hbm, 2493, rfl⟩
abbrev main_v2320 : Ref sig .tc := ⟨.hbm, 2494, rfl⟩
abbrev main_cst_148 : Ref sig .tc := ⟨.hbm, 2495, rfl⟩
abbrev main_v2321 : Ref sig .tc := ⟨.hbm, 2496, rfl⟩
abbrev main_v2322 : Ref sig .tc := ⟨.hbm, 2497, rfl⟩
abbrev main_v2323 : Ref sig .tc := ⟨.hbm, 2498, rfl⟩
abbrev main_v2324 : Ref sig .tc := ⟨.hbm, 2499, rfl⟩
abbrev main_v2325 : Ref sig .tc := ⟨.hbm, 2500, rfl⟩
abbrev main_v2326 : Ref sig .tc := ⟨.hbm, 2501, rfl⟩
abbrev main_v2327 : Ref sig .tc := ⟨.hbm, 2502, rfl⟩
abbrev main_v2328 : Ref sig .tc := ⟨.hbm, 2503, rfl⟩
abbrev main_v2329 : Ref sig .tc := ⟨.hbm, 2504, rfl⟩
abbrev main_v2330 : Ref sig .tc := ⟨.hbm, 2505, rfl⟩
abbrev main_v2331 : Ref sig .tc := ⟨.hbm, 2506, rfl⟩
abbrev main_v2332 : Ref sig .tc := ⟨.hbm, 2507, rfl⟩
abbrev main_v2333 : Ref sig .tc := ⟨.hbm, 2508, rfl⟩
abbrev main_v2334 : Ref sig .tc := ⟨.hbm, 2509, rfl⟩
abbrev main_v2335 : Ref sig .tc := ⟨.hbm, 2510, rfl⟩
abbrev main_cst_149 : Ref sig .tc := ⟨.hbm, 2511, rfl⟩
abbrev main_v2336 : Ref sig .tc := ⟨.hbm, 2512, rfl⟩
abbrev main_v2337 : Ref sig .tc := ⟨.hbm, 2513, rfl⟩
abbrev main_v2338 : Ref sig .tc := ⟨.hbm, 2514, rfl⟩
abbrev main_v2339 : Ref sig .tc := ⟨.hbm, 2515, rfl⟩
abbrev main_v2340 : Ref sig .tc := ⟨.hbm, 2516, rfl⟩
abbrev main_v2341 : Ref sig .tc := ⟨.hbm, 2517, rfl⟩
abbrev main_v2342 : Ref sig .tc := ⟨.hbm, 2518, rfl⟩
abbrev main_v2343 : Ref sig .tc := ⟨.hbm, 2519, rfl⟩
abbrev main_v2344 : Ref sig .tc := ⟨.hbm, 2520, rfl⟩
abbrev main_v2345 : Ref sig .tc := ⟨.hbm, 2521, rfl⟩
abbrev main_v2346 : Ref sig .tc := ⟨.hbm, 2522, rfl⟩
abbrev main_v2347 : Ref sig .tc := ⟨.hbm, 2523, rfl⟩
abbrev main_v2348 : Ref sig .tc := ⟨.hbm, 2524, rfl⟩
abbrev main_v2349 : Ref sig .tc := ⟨.hbm, 2525, rfl⟩
abbrev main_v2350 : Ref sig .tc := ⟨.hbm, 2526, rfl⟩
abbrev main_v2351 : Ref sig .tc := ⟨.hbm, 2527, rfl⟩
abbrev main_v2352 : Ref sig .tc := ⟨.hbm, 2528, rfl⟩
abbrev main_v2353 : Ref sig .tc := ⟨.hbm, 2529, rfl⟩
abbrev main_v2354 : Ref sig .tc := ⟨.hbm, 2530, rfl⟩
abbrev main_v2355 : Ref sig .tc := ⟨.hbm, 2531, rfl⟩
abbrev main_v2356 : Ref sig .tc := ⟨.hbm, 2532, rfl⟩
abbrev main_v2357 : Ref sig .tc := ⟨.hbm, 2533, rfl⟩
abbrev main_v2358 : Ref sig .tc := ⟨.hbm, 2534, rfl⟩
abbrev main_v2359 : Ref sig .tc := ⟨.hbm, 2535, rfl⟩
abbrev main_v2360 : Ref sig .tc := ⟨.hbm, 2536, rfl⟩
abbrev main_v2361 : Ref sig .tc := ⟨.hbm, 2537, rfl⟩
abbrev main_v2362 : Ref sig .tc := ⟨.hbm, 2538, rfl⟩
abbrev main_v2363 : Ref sig .tc := ⟨.hbm, 2539, rfl⟩
abbrev main_v2364 : Ref sig .tc := ⟨.hbm, 2540, rfl⟩
abbrev main_v2365 : Ref sig .tc := ⟨.hbm, 2541, rfl⟩
abbrev main_v2366 : Ref sig .tc := ⟨.hbm, 2542, rfl⟩
abbrev main_v2367 : Ref sig .tc := ⟨.hbm, 2543, rfl⟩
abbrev main_v2368 : Ref sig .tc := ⟨.hbm, 2544, rfl⟩
abbrev main_v2369 : Ref sig .tc := ⟨.hbm, 2545, rfl⟩
abbrev main_v2370 : Ref sig .tc := ⟨.hbm, 2546, rfl⟩
abbrev main_v2371 : Ref sig .tc := ⟨.hbm, 2547, rfl⟩
abbrev main_v2372 : Ref sig .tc := ⟨.hbm, 2548, rfl⟩
abbrev main_v2373 : Ref sig .tc := ⟨.hbm, 2549, rfl⟩
abbrev main_v2374 : Ref sig .tc := ⟨.hbm, 2550, rfl⟩
abbrev main_v2375 : Ref sig .tc := ⟨.hbm, 2551, rfl⟩
abbrev main_cst_150 : Ref sig .tc := ⟨.hbm, 2552, rfl⟩
abbrev main_v2376 : Ref sig .tc := ⟨.hbm, 2553, rfl⟩
abbrev main_v2377 : Ref sig .tc := ⟨.hbm, 2554, rfl⟩
abbrev main_cst_151 : Ref sig .tc := ⟨.hbm, 2555, rfl⟩
abbrev main_v2378 : Ref sig .tc := ⟨.hbm, 2556, rfl⟩
abbrev main_v2379 : Ref sig .tc := ⟨.hbm, 2557, rfl⟩
abbrev main_v2380 : Ref sig .tc := ⟨.hbm, 2558, rfl⟩
abbrev main_v2381 : Ref sig .tc := ⟨.hbm, 2559, rfl⟩
abbrev main_v2382 : Ref sig .tc := ⟨.hbm, 2560, rfl⟩
abbrev main_v2383 : Ref sig .tc := ⟨.hbm, 2561, rfl⟩
abbrev main_v2384 : Ref sig .tc := ⟨.hbm, 2562, rfl⟩
abbrev main_v2385 : Ref sig .tc := ⟨.hbm, 2563, rfl⟩
abbrev main_v2386 : Ref sig .tc := ⟨.hbm, 2564, rfl⟩
abbrev main_v2387 : Ref sig .tc := ⟨.hbm, 2565, rfl⟩
abbrev main_v2388 : Ref sig .tc := ⟨.hbm, 2566, rfl⟩
abbrev main_v2389 : Ref sig .tc := ⟨.hbm, 2567, rfl⟩
abbrev main_v2390 : Ref sig .tc := ⟨.hbm, 2568, rfl⟩
abbrev main_v2391 : Ref sig .tc := ⟨.hbm, 2569, rfl⟩
abbrev main_v2392 : Ref sig .tc := ⟨.hbm, 2570, rfl⟩
abbrev main_v2393 : Ref sig .tc := ⟨.hbm, 2571, rfl⟩
abbrev main_v2394 : Ref sig .tc := ⟨.hbm, 2572, rfl⟩
abbrev main_v2395 : Ref sig .tc := ⟨.hbm, 2573, rfl⟩
abbrev main_v2396 : Ref sig .tc := ⟨.hbm, 2574, rfl⟩
abbrev main_v2397 : Ref sig .tc := ⟨.hbm, 2575, rfl⟩
abbrev main_v2398 : Ref sig .tc := ⟨.hbm, 2576, rfl⟩
abbrev main_v2399 : Ref sig .tc := ⟨.hbm, 2577, rfl⟩
abbrev main_v2400 : Ref sig .tc := ⟨.hbm, 2578, rfl⟩
abbrev main_v2401 : Ref sig .tc := ⟨.hbm, 2579, rfl⟩
abbrev main_v2402 : Ref sig .tc := ⟨.hbm, 2580, rfl⟩
abbrev main_v2403 : Ref sig .tc := ⟨.hbm, 2581, rfl⟩
abbrev main_cst_152 : Ref sig .tc := ⟨.hbm, 2582, rfl⟩
abbrev main_v2404 : Ref sig .tc := ⟨.hbm, 2583, rfl⟩
abbrev main_v2405 : Ref sig .tc := ⟨.hbm, 2584, rfl⟩
abbrev main_cst_153 : Ref sig .tc := ⟨.hbm, 2585, rfl⟩
abbrev main_v2406 : Ref sig .tc := ⟨.hbm, 2586, rfl⟩
abbrev main_v2407 : Ref sig .tc := ⟨.hbm, 2587, rfl⟩
abbrev main_v2408 : Ref sig .tc := ⟨.hbm, 2588, rfl⟩
abbrev main_v2409 : Ref sig .tc := ⟨.hbm, 2589, rfl⟩
abbrev main_v2410 : Ref sig .tc := ⟨.hbm, 2590, rfl⟩
abbrev main_v2411 : Ref sig .tc := ⟨.hbm, 2591, rfl⟩
abbrev main_v2412 : Ref sig .tc := ⟨.hbm, 2592, rfl⟩
abbrev main_v2413 : Ref sig .tc := ⟨.hbm, 2593, rfl⟩
abbrev main_v2414 : Ref sig .tc := ⟨.hbm, 2594, rfl⟩
abbrev main_v2415 : Ref sig .tc := ⟨.hbm, 2595, rfl⟩
abbrev main_v2416 : Ref sig .tc := ⟨.hbm, 2596, rfl⟩
abbrev main_v2417 : Ref sig .tc := ⟨.hbm, 2597, rfl⟩
abbrev main_v2418 : Ref sig .tc := ⟨.hbm, 2598, rfl⟩
abbrev main_v2419 : Ref sig .tc := ⟨.hbm, 2599, rfl⟩
abbrev main_v2420 : Ref sig .tc := ⟨.hbm, 2600, rfl⟩
abbrev main_v2421 : Ref sig .tc := ⟨.hbm, 2601, rfl⟩
abbrev main_v2422 : Ref sig .tc := ⟨.hbm, 2602, rfl⟩
abbrev main_v2423 : Ref sig .tc := ⟨.hbm, 2603, rfl⟩
abbrev main_v2424 : Ref sig .tc := ⟨.hbm, 2604, rfl⟩
abbrev main_v2425 : Ref sig .tc := ⟨.hbm, 2605, rfl⟩
abbrev main_v2426 : Ref sig .tc := ⟨.hbm, 2606, rfl⟩
abbrev main_v2427 : Ref sig .tc := ⟨.hbm, 2607, rfl⟩
abbrev main_v2428 : Ref sig .tc := ⟨.hbm, 2608, rfl⟩
abbrev main_v2429 : Ref sig .tc := ⟨.hbm, 2609, rfl⟩
abbrev main_v2430 : Ref sig .tc := ⟨.hbm, 2610, rfl⟩
abbrev main_cst_154 : Ref sig .tc := ⟨.hbm, 2611, rfl⟩
abbrev main_v2431 : Ref sig .tc := ⟨.hbm, 2612, rfl⟩
abbrev main_v2432 : Ref sig .tc := ⟨.hbm, 2613, rfl⟩
abbrev main_cst_155 : Ref sig .tc := ⟨.hbm, 2614, rfl⟩
abbrev main_v2433 : Ref sig .tc := ⟨.hbm, 2615, rfl⟩
abbrev main_v2434 : Ref sig .tc := ⟨.hbm, 2616, rfl⟩
abbrev main_v2435 : Ref sig .tc := ⟨.hbm, 2617, rfl⟩
abbrev main_v2436 : Ref sig .tc := ⟨.hbm, 2618, rfl⟩
abbrev main_v2437 : Ref sig .tc := ⟨.hbm, 2619, rfl⟩
abbrev main_v2438 : Ref sig .tc := ⟨.hbm, 2620, rfl⟩
abbrev main_v2439 : Ref sig .tc := ⟨.hbm, 2621, rfl⟩
abbrev main_v2440 : Ref sig .tc := ⟨.hbm, 2622, rfl⟩
abbrev main_v2441 : Ref sig .tc := ⟨.hbm, 2623, rfl⟩
abbrev main_v2442 : Ref sig .tc := ⟨.hbm, 2624, rfl⟩
abbrev main_v2443 : Ref sig .tc := ⟨.hbm, 2625, rfl⟩
abbrev main_v2444 : Ref sig .tc := ⟨.hbm, 2626, rfl⟩
abbrev main_v2445 : Ref sig .tc := ⟨.hbm, 2627, rfl⟩
abbrev main_v2446 : Ref sig .tc := ⟨.hbm, 2628, rfl⟩
abbrev main_v2447 : Ref sig .tc := ⟨.hbm, 2629, rfl⟩
abbrev main_v2448 : Ref sig .tc := ⟨.hbm, 2630, rfl⟩
abbrev main_v2449 : Ref sig .tc := ⟨.hbm, 2631, rfl⟩
abbrev main_v2450 : Ref sig .tc := ⟨.hbm, 2632, rfl⟩
abbrev main_v2451 : Ref sig .tc := ⟨.hbm, 2633, rfl⟩
abbrev main_v2452 : Ref sig .tc := ⟨.hbm, 2634, rfl⟩
abbrev main_v2453 : Ref sig .tc := ⟨.hbm, 2635, rfl⟩
abbrev main_v2454 : Ref sig .tc := ⟨.hbm, 2636, rfl⟩
abbrev main_v2455 : Ref sig .tc := ⟨.hbm, 2637, rfl⟩
abbrev main_cst_156 : Ref sig .tc := ⟨.hbm, 2638, rfl⟩
abbrev main_v2456 : Ref sig .tc := ⟨.hbm, 2639, rfl⟩
abbrev main_v2457 : Ref sig .tc := ⟨.hbm, 2640, rfl⟩
abbrev main_cst_157 : Ref sig .tc := ⟨.hbm, 2641, rfl⟩
abbrev main_v2458 : Ref sig .tc := ⟨.hbm, 2642, rfl⟩
abbrev main_v2459 : Ref sig .tc := ⟨.hbm, 2643, rfl⟩
abbrev main_v2460 : Ref sig .tc := ⟨.hbm, 2644, rfl⟩
abbrev main_v2461 : Ref sig .tc := ⟨.hbm, 2645, rfl⟩
abbrev main_v2462 : Ref sig .tc := ⟨.hbm, 2646, rfl⟩
abbrev main_v2463 : Ref sig .tc := ⟨.hbm, 2647, rfl⟩
abbrev main_v2464 : Ref sig .tc := ⟨.hbm, 2648, rfl⟩
abbrev main_v2465 : Ref sig .tc := ⟨.hbm, 2649, rfl⟩
abbrev main_v2466 : Ref sig .tc := ⟨.hbm, 2650, rfl⟩
abbrev main_v2467 : Ref sig .tc := ⟨.hbm, 2651, rfl⟩
abbrev main_v2468 : Ref sig .tc := ⟨.hbm, 2652, rfl⟩
abbrev main_v2469 : Ref sig .tc := ⟨.hbm, 2653, rfl⟩
abbrev main_v2470 : Ref sig .tc := ⟨.hbm, 2654, rfl⟩
abbrev main_v2471 : Ref sig .tc := ⟨.hbm, 2655, rfl⟩
abbrev main_v2472 : Ref sig .tc := ⟨.hbm, 2656, rfl⟩
abbrev main_cst_158 : Ref sig .tc := ⟨.hbm, 2657, rfl⟩
abbrev main_v2473 : Ref sig .tc := ⟨.hbm, 2658, rfl⟩
abbrev main_v2474 : Ref sig .tc := ⟨.hbm, 2659, rfl⟩
abbrev main_v2475 : Ref sig .tc := ⟨.hbm, 2660, rfl⟩
abbrev main_v2476 : Ref sig .tc := ⟨.hbm, 2661, rfl⟩
abbrev main_v2477 : Ref sig .tc := ⟨.hbm, 2662, rfl⟩
abbrev main_v2478 : Ref sig .tc := ⟨.hbm, 2663, rfl⟩
abbrev main_v2479 : Ref sig .tc := ⟨.hbm, 2664, rfl⟩
abbrev main_v2480 : Ref sig .tc := ⟨.hbm, 2665, rfl⟩
abbrev main_v2481 : Ref sig .tc := ⟨.hbm, 2666, rfl⟩
abbrev main_v2482 : Ref sig .tc := ⟨.hbm, 2667, rfl⟩
abbrev main_v2483 : Ref sig .tc := ⟨.hbm, 2668, rfl⟩
abbrev main_v2484 : Ref sig .tc := ⟨.hbm, 2669, rfl⟩
abbrev main_v2485 : Ref sig .tc := ⟨.hbm, 2670, rfl⟩
abbrev main_v2486 : Ref sig .tc := ⟨.hbm, 2671, rfl⟩
abbrev main_v2487 : Ref sig .tc := ⟨.hbm, 2672, rfl⟩
abbrev main_v2488 : Ref sig .tc := ⟨.hbm, 2673, rfl⟩
abbrev main_v2489 : Ref sig .tc := ⟨.hbm, 2674, rfl⟩
abbrev main_v2490 : Ref sig .tc := ⟨.hbm, 2675, rfl⟩
abbrev main_v2491 : Ref sig .tc := ⟨.hbm, 2676, rfl⟩
abbrev main_v2492 : Ref sig .tc := ⟨.hbm, 2677, rfl⟩
abbrev main_v2493 : Ref sig .tc := ⟨.hbm, 2678, rfl⟩
abbrev main_v2494 : Ref sig .tc := ⟨.hbm, 2679, rfl⟩
abbrev main_v2495 : Ref sig .tc := ⟨.hbm, 2680, rfl⟩
abbrev main_v2496 : Ref sig .tc := ⟨.hbm, 2681, rfl⟩
abbrev main_v2497 : Ref sig .tc := ⟨.hbm, 2682, rfl⟩
abbrev main_v2498 : Ref sig .tc := ⟨.hbm, 2683, rfl⟩
abbrev main_v2499 : Ref sig .tc := ⟨.hbm, 2684, rfl⟩
abbrev main_v2500 : Ref sig .tc := ⟨.hbm, 2685, rfl⟩
abbrev main_v2501 : Ref sig .tc := ⟨.hbm, 2686, rfl⟩
abbrev main_v2502 : Ref sig .tc := ⟨.hbm, 2687, rfl⟩
abbrev main_v2503 : Ref sig .tc := ⟨.hbm, 2688, rfl⟩
abbrev main_v2504 : Ref sig .tc := ⟨.hbm, 2689, rfl⟩
abbrev main_v2505 : Ref sig .tc := ⟨.hbm, 2690, rfl⟩
abbrev main_v2506 : Ref sig .tc := ⟨.hbm, 2691, rfl⟩
abbrev main_v2507 : Ref sig .tc := ⟨.hbm, 2692, rfl⟩
abbrev main_v2508 : Ref sig .tc := ⟨.hbm, 2693, rfl⟩
abbrev main_v2509 : Ref sig .tc := ⟨.hbm, 2694, rfl⟩
abbrev main_v2510 : Ref sig .tc := ⟨.hbm, 2695, rfl⟩
abbrev main_v2511 : Ref sig .tc := ⟨.hbm, 2696, rfl⟩
abbrev main_v2512 : Ref sig .tc := ⟨.hbm, 2697, rfl⟩
abbrev main_cst_159 : Ref sig .tc := ⟨.hbm, 2698, rfl⟩
abbrev main_v2513 : Ref sig .tc := ⟨.hbm, 2699, rfl⟩
abbrev main_v2514 : Ref sig .tc := ⟨.hbm, 2700, rfl⟩
abbrev main_cst_160 : Ref sig .tc := ⟨.hbm, 2701, rfl⟩
abbrev main_v2515 : Ref sig .tc := ⟨.hbm, 2702, rfl⟩
abbrev main_v2516 : Ref sig .tc := ⟨.hbm, 2703, rfl⟩
abbrev main_v2517 : Ref sig .tc := ⟨.hbm, 2704, rfl⟩
abbrev main_v2518 : Ref sig .tc := ⟨.hbm, 2705, rfl⟩
abbrev main_v2519 : Ref sig .tc := ⟨.hbm, 2706, rfl⟩
abbrev main_v2520 : Ref sig .tc := ⟨.hbm, 2707, rfl⟩
abbrev main_v2521 : Ref sig .tc := ⟨.hbm, 2708, rfl⟩
abbrev main_v2522 : Ref sig .tc := ⟨.hbm, 2709, rfl⟩
abbrev main_v2523 : Ref sig .tc := ⟨.hbm, 2710, rfl⟩
abbrev main_v2524 : Ref sig .tc := ⟨.hbm, 2711, rfl⟩
abbrev main_v2525 : Ref sig .tc := ⟨.hbm, 2712, rfl⟩
abbrev main_v2526 : Ref sig .tc := ⟨.hbm, 2713, rfl⟩
abbrev main_v2527 : Ref sig .tc := ⟨.hbm, 2714, rfl⟩
abbrev main_v2528 : Ref sig .tc := ⟨.hbm, 2715, rfl⟩
abbrev main_v2529 : Ref sig .tc := ⟨.hbm, 2716, rfl⟩
abbrev main_v2530 : Ref sig .tc := ⟨.hbm, 2717, rfl⟩
abbrev main_v2531 : Ref sig .tc := ⟨.hbm, 2718, rfl⟩
abbrev main_v2532 : Ref sig .tc := ⟨.hbm, 2719, rfl⟩
abbrev main_v2533 : Ref sig .tc := ⟨.hbm, 2720, rfl⟩
abbrev main_v2534 : Ref sig .tc := ⟨.hbm, 2721, rfl⟩
abbrev main_v2535 : Ref sig .tc := ⟨.hbm, 2722, rfl⟩
abbrev main_v2536 : Ref sig .tc := ⟨.hbm, 2723, rfl⟩
abbrev main_v2537 : Ref sig .tc := ⟨.hbm, 2724, rfl⟩
abbrev main_v2538 : Ref sig .tc := ⟨.hbm, 2725, rfl⟩
abbrev main_v2539 : Ref sig .tc := ⟨.hbm, 2726, rfl⟩
abbrev main_v2540 : Ref sig .tc := ⟨.hbm, 2727, rfl⟩
abbrev main_v2541 : Ref sig .tc := ⟨.hbm, 2728, rfl⟩
abbrev main_v2542 : Ref sig .tc := ⟨.hbm, 2729, rfl⟩
abbrev main_v2543 : Ref sig .tc := ⟨.hbm, 2730, rfl⟩
abbrev main_v2544 : Ref sig .tc := ⟨.hbm, 2731, rfl⟩
abbrev main_v2545 : Ref sig .tc := ⟨.hbm, 2732, rfl⟩
abbrev main_v2546 : Ref sig .tc := ⟨.hbm, 2733, rfl⟩
abbrev main_v2547 : Ref sig .tc := ⟨.hbm, 2734, rfl⟩
abbrev main_v2548 : Ref sig .tc := ⟨.hbm, 2735, rfl⟩
abbrev main_v2549 : Ref sig .tc := ⟨.hbm, 2736, rfl⟩
abbrev main_v2550 : Ref sig .tc := ⟨.hbm, 2737, rfl⟩
abbrev main_cst_161 : Ref sig .tc := ⟨.hbm, 2738, rfl⟩
abbrev main_v2551 : Ref sig .tc := ⟨.hbm, 2739, rfl⟩
abbrev main_v2552 : Ref sig .tc := ⟨.hbm, 2740, rfl⟩
abbrev main_cst_162 : Ref sig .tc := ⟨.hbm, 2741, rfl⟩
abbrev main_v2553 : Ref sig .tc := ⟨.hbm, 2742, rfl⟩
abbrev main_v2554 : Ref sig .tc := ⟨.hbm, 2743, rfl⟩
abbrev main_v2555 : Ref sig .tc := ⟨.hbm, 2744, rfl⟩
abbrev main_v2556 : Ref sig .tc := ⟨.hbm, 2745, rfl⟩
abbrev main_v2557 : Ref sig .tc := ⟨.hbm, 2746, rfl⟩
abbrev main_v2558 : Ref sig .tc := ⟨.hbm, 2747, rfl⟩
abbrev main_v2559 : Ref sig .tc := ⟨.hbm, 2748, rfl⟩
abbrev main_v2560 : Ref sig .tc := ⟨.hbm, 2749, rfl⟩
abbrev main_v2561 : Ref sig .tc := ⟨.hbm, 2750, rfl⟩
abbrev main_v2562 : Ref sig .tc := ⟨.hbm, 2751, rfl⟩
abbrev main_v2563 : Ref sig .tc := ⟨.hbm, 2752, rfl⟩
abbrev main_v2564 : Ref sig .tc := ⟨.hbm, 2753, rfl⟩
abbrev main_v2565 : Ref sig .tc := ⟨.hbm, 2754, rfl⟩
abbrev main_v2566 : Ref sig .tc := ⟨.hbm, 2755, rfl⟩
abbrev main_v2567 : Ref sig .tc := ⟨.hbm, 2756, rfl⟩
abbrev main_v2568 : Ref sig .tc := ⟨.hbm, 2757, rfl⟩
abbrev main_v2569 : Ref sig .tc := ⟨.hbm, 2758, rfl⟩
abbrev main_v2570 : Ref sig .tc := ⟨.hbm, 2759, rfl⟩
abbrev main_v2571 : Ref sig .tc := ⟨.hbm, 2760, rfl⟩
abbrev main_v2572 : Ref sig .tc := ⟨.hbm, 2761, rfl⟩
abbrev main_v2573 : Ref sig .tc := ⟨.hbm, 2762, rfl⟩
abbrev main_v2574 : Ref sig .tc := ⟨.hbm, 2763, rfl⟩
abbrev main_v2575 : Ref sig .tc := ⟨.hbm, 2764, rfl⟩
abbrev main_v2576 : Ref sig .tc := ⟨.hbm, 2765, rfl⟩
abbrev main_v2577 : Ref sig .tc := ⟨.hbm, 2766, rfl⟩
abbrev main_cst_163 : Ref sig .tc := ⟨.hbm, 2767, rfl⟩
abbrev main_v2578 : Ref sig .tc := ⟨.hbm, 2768, rfl⟩
abbrev main_v2579 : Ref sig .tc := ⟨.hbm, 2769, rfl⟩
abbrev main_cst_164 : Ref sig .tc := ⟨.hbm, 2770, rfl⟩
abbrev main_v2580 : Ref sig .tc := ⟨.hbm, 2771, rfl⟩
abbrev main_v2581 : Ref sig .tc := ⟨.hbm, 2772, rfl⟩
abbrev main_v2582 : Ref sig .tc := ⟨.hbm, 2773, rfl⟩
abbrev main_v2583 : Ref sig .tc := ⟨.hbm, 2774, rfl⟩
abbrev main_v2584 : Ref sig .tc := ⟨.hbm, 2775, rfl⟩
abbrev main_v2585 : Ref sig .tc := ⟨.hbm, 2776, rfl⟩
abbrev main_v2586 : Ref sig .tc := ⟨.hbm, 2777, rfl⟩
abbrev main_v2587 : Ref sig .tc := ⟨.hbm, 2778, rfl⟩
abbrev main_v2588 : Ref sig .tc := ⟨.hbm, 2779, rfl⟩
abbrev main_v2589 : Ref sig .tc := ⟨.hbm, 2780, rfl⟩
abbrev main_v2590 : Ref sig .tc := ⟨.hbm, 2781, rfl⟩
abbrev main_v2591 : Ref sig .tc := ⟨.hbm, 2782, rfl⟩
abbrev main_v2592 : Ref sig .tc := ⟨.hbm, 2783, rfl⟩
abbrev main_v2593 : Ref sig .tc := ⟨.hbm, 2784, rfl⟩
abbrev main_v2594 : Ref sig .tc := ⟨.hbm, 2785, rfl⟩
abbrev main_v2595 : Ref sig .tc := ⟨.hbm, 2786, rfl⟩
abbrev main_v2596 : Ref sig .tc := ⟨.hbm, 2787, rfl⟩
abbrev main_v2597 : Ref sig .tc := ⟨.hbm, 2788, rfl⟩
abbrev main_v2598 : Ref sig .tc := ⟨.hbm, 2789, rfl⟩
abbrev main_v2599 : Ref sig .tc := ⟨.hbm, 2790, rfl⟩
abbrev main_v2600 : Ref sig .tc := ⟨.hbm, 2791, rfl⟩
abbrev main_v2601 : Ref sig .tc := ⟨.hbm, 2792, rfl⟩
abbrev main_v2602 : Ref sig .tc := ⟨.hbm, 2793, rfl⟩
abbrev main_cst_165 : Ref sig .tc := ⟨.hbm, 2794, rfl⟩
abbrev main_v2603 : Ref sig .tc := ⟨.hbm, 2795, rfl⟩
abbrev main_v2604 : Ref sig .tc := ⟨.hbm, 2796, rfl⟩
abbrev main_cst_166 : Ref sig .tc := ⟨.hbm, 2797, rfl⟩
abbrev main_v2605 : Ref sig .tc := ⟨.hbm, 2798, rfl⟩
abbrev main_v2606 : Ref sig .tc := ⟨.hbm, 2799, rfl⟩
abbrev main_v2607 : Ref sig .tc := ⟨.hbm, 2800, rfl⟩
abbrev main_v2608 : Ref sig .tc := ⟨.hbm, 2801, rfl⟩
abbrev main_v2609 : Ref sig .tc := ⟨.hbm, 2802, rfl⟩
abbrev main_v2610 : Ref sig .tc := ⟨.hbm, 2803, rfl⟩
abbrev main_v2611 : Ref sig .tc := ⟨.hbm, 2804, rfl⟩
abbrev main_v2612 : Ref sig .tc := ⟨.hbm, 2805, rfl⟩
abbrev main_v2613 : Ref sig .tc := ⟨.hbm, 2806, rfl⟩
abbrev main_v2614 : Ref sig .tc := ⟨.hbm, 2807, rfl⟩
abbrev main_v2615 : Ref sig .tc := ⟨.hbm, 2808, rfl⟩
abbrev main_v2616 : Ref sig .tc := ⟨.hbm, 2809, rfl⟩
abbrev main_v2617 : Ref sig .tc := ⟨.hbm, 2810, rfl⟩
abbrev main_v2618 : Ref sig .tc := ⟨.hbm, 2811, rfl⟩
abbrev main_v2619 : Ref sig .tc := ⟨.hbm, 2812, rfl⟩
abbrev main_cst_167 : Ref sig .tc := ⟨.hbm, 2813, rfl⟩
abbrev main_v2620 : Ref sig .tc := ⟨.hbm, 2814, rfl⟩
abbrev main_v2621 : Ref sig .tc := ⟨.hbm, 2815, rfl⟩
abbrev main_v2622 : Ref sig .tc := ⟨.hbm, 2816, rfl⟩
abbrev main_v2623 : Ref sig .tc := ⟨.hbm, 2817, rfl⟩
abbrev main_v2624 : Ref sig .tc := ⟨.hbm, 2818, rfl⟩
abbrev main_v2625 : Ref sig .tc := ⟨.hbm, 2819, rfl⟩
abbrev main_v2626 : Ref sig .tc := ⟨.hbm, 2820, rfl⟩
abbrev main_v2627 : Ref sig .tc := ⟨.hbm, 2821, rfl⟩
abbrev main_v2628 : Ref sig .tc := ⟨.hbm, 2822, rfl⟩
abbrev main_v2629 : Ref sig .tc := ⟨.hbm, 2823, rfl⟩
abbrev main_v2630 : Ref sig .tc := ⟨.hbm, 2824, rfl⟩
abbrev main_v2631 : Ref sig .tc := ⟨.hbm, 2825, rfl⟩
abbrev main_v2632 : Ref sig .tc := ⟨.hbm, 2826, rfl⟩
abbrev main_v2633 : Ref sig .tc := ⟨.hbm, 2827, rfl⟩
abbrev main_v2634 : Ref sig .tc := ⟨.hbm, 2828, rfl⟩
abbrev main_v2635 : Ref sig .tc := ⟨.hbm, 2829, rfl⟩
abbrev main_v2636 : Ref sig .tc := ⟨.hbm, 2830, rfl⟩
abbrev main_v2637 : Ref sig .tc := ⟨.hbm, 2831, rfl⟩
abbrev main_v2638 : Ref sig .tc := ⟨.hbm, 2832, rfl⟩
abbrev main_v2639 : Ref sig .tc := ⟨.hbm, 2833, rfl⟩
abbrev main_v2640 : Ref sig .tc := ⟨.hbm, 2834, rfl⟩
abbrev main_v2641 : Ref sig .tc := ⟨.hbm, 2835, rfl⟩
abbrev main_v2642 : Ref sig .tc := ⟨.hbm, 2836, rfl⟩
abbrev main_v2643 : Ref sig .tc := ⟨.hbm, 2837, rfl⟩
abbrev main_v2644 : Ref sig .tc := ⟨.hbm, 2838, rfl⟩
abbrev main_v2645 : Ref sig .tc := ⟨.hbm, 2839, rfl⟩
abbrev main_v2646 : Ref sig .tc := ⟨.hbm, 2840, rfl⟩
abbrev main_v2647 : Ref sig .tc := ⟨.hbm, 2841, rfl⟩
abbrev main_v2648 : Ref sig .tc := ⟨.hbm, 2842, rfl⟩
abbrev main_v2649 : Ref sig .tc := ⟨.hbm, 2843, rfl⟩
abbrev main_v2650 : Ref sig .tc := ⟨.hbm, 2844, rfl⟩
abbrev main_v2651 : Ref sig .tc := ⟨.hbm, 2845, rfl⟩
abbrev main_v2652 : Ref sig .tc := ⟨.hbm, 2846, rfl⟩
abbrev main_v2653 : Ref sig .tc := ⟨.hbm, 2847, rfl⟩
abbrev main_v2654 : Ref sig .tc := ⟨.hbm, 2848, rfl⟩
abbrev main_v2655 : Ref sig .tc := ⟨.hbm, 2849, rfl⟩
abbrev main_v2656 : Ref sig .tc := ⟨.hbm, 2850, rfl⟩
abbrev main_v2657 : Ref sig .tc := ⟨.hbm, 2851, rfl⟩
abbrev main_v2658 : Ref sig .tc := ⟨.hbm, 2852, rfl⟩
abbrev main_v2659 : Ref sig .tc := ⟨.hbm, 2853, rfl⟩
abbrev main_cst_168 : Ref sig .tc := ⟨.hbm, 2854, rfl⟩
abbrev main_v2660 : Ref sig .tc := ⟨.hbm, 2855, rfl⟩
abbrev main_v2661 : Ref sig .tc := ⟨.hbm, 2856, rfl⟩
abbrev main_cst_169 : Ref sig .tc := ⟨.hbm, 2857, rfl⟩
abbrev main_v2662 : Ref sig .tc := ⟨.hbm, 2858, rfl⟩
abbrev main_v2663 : Ref sig .tc := ⟨.hbm, 2859, rfl⟩
abbrev main_v2664 : Ref sig .tc := ⟨.hbm, 2860, rfl⟩
abbrev main_v2665 : Ref sig .tc := ⟨.hbm, 2861, rfl⟩
abbrev main_v2666 : Ref sig .tc := ⟨.hbm, 2862, rfl⟩
abbrev main_v2667 : Ref sig .tc := ⟨.hbm, 2863, rfl⟩
abbrev main_v2668 : Ref sig .tc := ⟨.hbm, 2864, rfl⟩
abbrev main_v2669 : Ref sig .tc := ⟨.hbm, 2865, rfl⟩
abbrev main_v2670 : Ref sig .tc := ⟨.hbm, 2866, rfl⟩
abbrev main_v2671 : Ref sig .tc := ⟨.hbm, 2867, rfl⟩
abbrev main_v2672 : Ref sig .tc := ⟨.hbm, 2868, rfl⟩
abbrev main_v2673 : Ref sig .tc := ⟨.hbm, 2869, rfl⟩
abbrev main_v2674 : Ref sig .tc := ⟨.hbm, 2870, rfl⟩
abbrev main_v2675 : Ref sig .tc := ⟨.hbm, 2871, rfl⟩
abbrev main_v2676 : Ref sig .tc := ⟨.hbm, 2872, rfl⟩
abbrev main_v2677 : Ref sig .tc := ⟨.hbm, 2873, rfl⟩
abbrev main_v2678 : Ref sig .tc := ⟨.hbm, 2874, rfl⟩
abbrev main_v2679 : Ref sig .tc := ⟨.hbm, 2875, rfl⟩
abbrev main_v2680 : Ref sig .tc := ⟨.hbm, 2876, rfl⟩
abbrev main_v2681 : Ref sig .tc := ⟨.hbm, 2877, rfl⟩
abbrev main_v2682 : Ref sig .tc := ⟨.hbm, 2878, rfl⟩
abbrev main_v2683 : Ref sig .tc := ⟨.hbm, 2879, rfl⟩
abbrev main_v2684 : Ref sig .tc := ⟨.hbm, 2880, rfl⟩
abbrev main_v2685 : Ref sig .tc := ⟨.hbm, 2881, rfl⟩
abbrev main_v2686 : Ref sig .tc := ⟨.hbm, 2882, rfl⟩
abbrev main_v2687 : Ref sig .tc := ⟨.hbm, 2883, rfl⟩
abbrev main_cst_170 : Ref sig .tc := ⟨.hbm, 2884, rfl⟩
abbrev main_v2688 : Ref sig .tc := ⟨.hbm, 2885, rfl⟩
abbrev main_v2689 : Ref sig .tc := ⟨.hbm, 2886, rfl⟩
abbrev main_cst_171 : Ref sig .tc := ⟨.hbm, 2887, rfl⟩
abbrev main_v2690 : Ref sig .tc := ⟨.hbm, 2888, rfl⟩
abbrev main_v2691 : Ref sig .tc := ⟨.hbm, 2889, rfl⟩
abbrev main_v2692 : Ref sig .tc := ⟨.hbm, 2890, rfl⟩
abbrev main_v2693 : Ref sig .tc := ⟨.hbm, 2891, rfl⟩
abbrev main_v2694 : Ref sig .tc := ⟨.hbm, 2892, rfl⟩
abbrev main_v2695 : Ref sig .tc := ⟨.hbm, 2893, rfl⟩
abbrev main_v2696 : Ref sig .tc := ⟨.hbm, 2894, rfl⟩
abbrev main_v2697 : Ref sig .tc := ⟨.hbm, 2895, rfl⟩
abbrev main_v2698 : Ref sig .tc := ⟨.hbm, 2896, rfl⟩
abbrev main_v2699 : Ref sig .tc := ⟨.hbm, 2897, rfl⟩
abbrev main_v2700 : Ref sig .tc := ⟨.hbm, 2898, rfl⟩
abbrev main_v2701 : Ref sig .tc := ⟨.hbm, 2899, rfl⟩
abbrev main_v2702 : Ref sig .tc := ⟨.hbm, 2900, rfl⟩
abbrev main_v2703 : Ref sig .tc := ⟨.hbm, 2901, rfl⟩
abbrev main_v2704 : Ref sig .tc := ⟨.hbm, 2902, rfl⟩
abbrev main_v2705 : Ref sig .tc := ⟨.hbm, 2903, rfl⟩
abbrev main_v2706 : Ref sig .tc := ⟨.hbm, 2904, rfl⟩
abbrev main_v2707 : Ref sig .tc := ⟨.hbm, 2905, rfl⟩
abbrev main_v2708 : Ref sig .tc := ⟨.hbm, 2906, rfl⟩
abbrev main_v2709 : Ref sig .tc := ⟨.hbm, 2907, rfl⟩
abbrev main_v2710 : Ref sig .tc := ⟨.hbm, 2908, rfl⟩
abbrev main_v2711 : Ref sig .tc := ⟨.hbm, 2909, rfl⟩
abbrev main_v2712 : Ref sig .tc := ⟨.hbm, 2910, rfl⟩
abbrev main_v2713 : Ref sig .tc := ⟨.hbm, 2911, rfl⟩
abbrev main_v2714 : Ref sig .tc := ⟨.hbm, 2912, rfl⟩
abbrev main_cst_172 : Ref sig .tc := ⟨.hbm, 2913, rfl⟩
abbrev main_v2715 : Ref sig .tc := ⟨.hbm, 2914, rfl⟩
abbrev main_v2716 : Ref sig .tc := ⟨.hbm, 2915, rfl⟩
abbrev main_cst_173 : Ref sig .tc := ⟨.hbm, 2916, rfl⟩
abbrev main_v2717 : Ref sig .tc := ⟨.hbm, 2917, rfl⟩
abbrev main_v2718 : Ref sig .tc := ⟨.hbm, 2918, rfl⟩
abbrev main_v2719 : Ref sig .tc := ⟨.hbm, 2919, rfl⟩
abbrev main_v2720 : Ref sig .tc := ⟨.hbm, 2920, rfl⟩
abbrev main_v2721 : Ref sig .tc := ⟨.hbm, 2921, rfl⟩
abbrev main_v2722 : Ref sig .tc := ⟨.hbm, 2922, rfl⟩
abbrev main_v2723 : Ref sig .tc := ⟨.hbm, 2923, rfl⟩
abbrev main_v2724 : Ref sig .tc := ⟨.hbm, 2924, rfl⟩
abbrev main_v2725 : Ref sig .tc := ⟨.hbm, 2925, rfl⟩
abbrev main_v2726 : Ref sig .tc := ⟨.hbm, 2926, rfl⟩
abbrev main_v2727 : Ref sig .tc := ⟨.hbm, 2927, rfl⟩
abbrev main_v2728 : Ref sig .tc := ⟨.hbm, 2928, rfl⟩
abbrev main_v2729 : Ref sig .tc := ⟨.hbm, 2929, rfl⟩
abbrev main_v2730 : Ref sig .tc := ⟨.hbm, 2930, rfl⟩
abbrev main_v2731 : Ref sig .tc := ⟨.hbm, 2931, rfl⟩
abbrev main_v2732 : Ref sig .tc := ⟨.hbm, 2932, rfl⟩
abbrev main_v2733 : Ref sig .tc := ⟨.hbm, 2933, rfl⟩
abbrev main_v2734 : Ref sig .tc := ⟨.hbm, 2934, rfl⟩
abbrev main_v2735 : Ref sig .tc := ⟨.hbm, 2935, rfl⟩
abbrev main_v2736 : Ref sig .tc := ⟨.hbm, 2936, rfl⟩
abbrev main_v2737 : Ref sig .tc := ⟨.hbm, 2937, rfl⟩
abbrev main_v2738 : Ref sig .tc := ⟨.hbm, 2938, rfl⟩
abbrev main_v2739 : Ref sig .tc := ⟨.hbm, 2939, rfl⟩
abbrev main_cst_174 : Ref sig .tc := ⟨.hbm, 2940, rfl⟩
abbrev main_v2740 : Ref sig .tc := ⟨.hbm, 2941, rfl⟩
abbrev main_v2741 : Ref sig .tc := ⟨.hbm, 2942, rfl⟩
abbrev main_cst_175 : Ref sig .tc := ⟨.hbm, 2943, rfl⟩
abbrev main_v2742 : Ref sig .tc := ⟨.hbm, 2944, rfl⟩
abbrev main_v2743 : Ref sig .tc := ⟨.hbm, 2945, rfl⟩
abbrev main_v2744 : Ref sig .tc := ⟨.hbm, 2946, rfl⟩
abbrev main_v2745 : Ref sig .tc := ⟨.hbm, 2947, rfl⟩
abbrev main_v2746 : Ref sig .tc := ⟨.hbm, 2948, rfl⟩
abbrev main_v2747 : Ref sig .tc := ⟨.hbm, 2949, rfl⟩
abbrev main_v2748 : Ref sig .tc := ⟨.hbm, 2950, rfl⟩
abbrev main_v2749 : Ref sig .tc := ⟨.hbm, 2951, rfl⟩
abbrev main_v2750 : Ref sig .tc := ⟨.hbm, 2952, rfl⟩
abbrev main_v2751 : Ref sig .tc := ⟨.hbm, 2953, rfl⟩
abbrev main_v2752 : Ref sig .tc := ⟨.hbm, 2954, rfl⟩
abbrev main_v2753 : Ref sig .tc := ⟨.hbm, 2955, rfl⟩
abbrev main_v2754 : Ref sig .tc := ⟨.hbm, 2956, rfl⟩
abbrev main_v2755 : Ref sig .tc := ⟨.hbm, 2957, rfl⟩
abbrev main_v2756 : Ref sig .tc := ⟨.hbm, 2958, rfl⟩
abbrev main_cst_176 : Ref sig .tc := ⟨.hbm, 2959, rfl⟩
abbrev main_v2757 : Ref sig .tc := ⟨.hbm, 2960, rfl⟩
abbrev main_v2758 : Ref sig .tc := ⟨.hbm, 2961, rfl⟩
abbrev main_v2759 : Ref sig .tc := ⟨.hbm, 2962, rfl⟩
abbrev main_v2760 : Ref sig .tc := ⟨.hbm, 2963, rfl⟩
abbrev main_v2761 : Ref sig .tc := ⟨.hbm, 2964, rfl⟩
abbrev main_v2762 : Ref sig .tc := ⟨.hbm, 2965, rfl⟩
abbrev main_v2763 : Ref sig .tc := ⟨.hbm, 2966, rfl⟩
abbrev main_v2764 : Ref sig .tc := ⟨.hbm, 2967, rfl⟩
abbrev main_v2765 : Ref sig .tc := ⟨.hbm, 2968, rfl⟩
abbrev main_v2766 : Ref sig .tc := ⟨.hbm, 2969, rfl⟩
abbrev main_v2767 : Ref sig .tc := ⟨.hbm, 2970, rfl⟩
abbrev main_v2768 : Ref sig .tc := ⟨.hbm, 2971, rfl⟩
abbrev main_v2769 : Ref sig .tc := ⟨.hbm, 2972, rfl⟩
abbrev main_v2770 : Ref sig .tc := ⟨.hbm, 2973, rfl⟩
abbrev main_v2771 : Ref sig .tc := ⟨.hbm, 2974, rfl⟩
abbrev main_v2772 : Ref sig .tc := ⟨.hbm, 2975, rfl⟩
abbrev main_v2773 : Ref sig .tc := ⟨.hbm, 2976, rfl⟩
abbrev main_v2774 : Ref sig .tc := ⟨.hbm, 2977, rfl⟩
abbrev main_v2775 : Ref sig .tc := ⟨.hbm, 2978, rfl⟩
abbrev main_v2776 : Ref sig .tc := ⟨.hbm, 2979, rfl⟩
abbrev main_v2777 : Ref sig .tc := ⟨.hbm, 2980, rfl⟩
abbrev main_v2778 : Ref sig .tc := ⟨.hbm, 2981, rfl⟩
abbrev main_v2779 : Ref sig .tc := ⟨.hbm, 2982, rfl⟩
abbrev main_v2780 : Ref sig .tc := ⟨.hbm, 2983, rfl⟩
abbrev main_v2781 : Ref sig .tc := ⟨.hbm, 2984, rfl⟩
abbrev main_v2782 : Ref sig .tc := ⟨.hbm, 2985, rfl⟩
abbrev main_v2783 : Ref sig .tc := ⟨.hbm, 2986, rfl⟩
abbrev main_v2784 : Ref sig .tc := ⟨.hbm, 2987, rfl⟩
abbrev main_v2785 : Ref sig .tc := ⟨.hbm, 2988, rfl⟩
abbrev main_v2786 : Ref sig .tc := ⟨.hbm, 2989, rfl⟩
abbrev main_v2787 : Ref sig .tc := ⟨.hbm, 2990, rfl⟩
abbrev main_v2788 : Ref sig .tc := ⟨.hbm, 2991, rfl⟩
abbrev main_v2789 : Ref sig .tc := ⟨.hbm, 2992, rfl⟩
abbrev main_v2790 : Ref sig .tc := ⟨.hbm, 2993, rfl⟩
abbrev main_v2791 : Ref sig .tc := ⟨.hbm, 2994, rfl⟩
abbrev main_v2792 : Ref sig .tc := ⟨.hbm, 2995, rfl⟩
abbrev main_v2793 : Ref sig .tc := ⟨.hbm, 2996, rfl⟩
abbrev main_v2794 : Ref sig .tc := ⟨.hbm, 2997, rfl⟩
abbrev main_v2795 : Ref sig .tc := ⟨.hbm, 2998, rfl⟩
abbrev main_v2796 : Ref sig .tc := ⟨.hbm, 2999, rfl⟩
abbrev main_cst_177 : Ref sig .tc := ⟨.hbm, 3000, rfl⟩
abbrev main_v2797 : Ref sig .tc := ⟨.hbm, 3001, rfl⟩
abbrev main_v2798 : Ref sig .tc := ⟨.hbm, 3002, rfl⟩
abbrev main_cst_178 : Ref sig .tc := ⟨.hbm, 3003, rfl⟩
abbrev main_v2799 : Ref sig .tc := ⟨.hbm, 3004, rfl⟩
abbrev main_v2800 : Ref sig .tc := ⟨.hbm, 3005, rfl⟩
abbrev main_v2801 : Ref sig .tc := ⟨.hbm, 3006, rfl⟩
abbrev main_v2802 : Ref sig .tc := ⟨.hbm, 3007, rfl⟩
abbrev main_v2803 : Ref sig .tc := ⟨.hbm, 3008, rfl⟩
abbrev main_v2804 : Ref sig .tc := ⟨.hbm, 3009, rfl⟩
abbrev main_v2805 : Ref sig .tc := ⟨.hbm, 3010, rfl⟩
abbrev main_v2806 : Ref sig .tc := ⟨.hbm, 3011, rfl⟩
abbrev main_v2807 : Ref sig .tc := ⟨.hbm, 3012, rfl⟩
abbrev main_v2808 : Ref sig .tc := ⟨.hbm, 3013, rfl⟩
abbrev main_v2809 : Ref sig .tc := ⟨.hbm, 3014, rfl⟩
abbrev main_v2810 : Ref sig .tc := ⟨.hbm, 3015, rfl⟩
abbrev main_v2811 : Ref sig .tc := ⟨.hbm, 3016, rfl⟩
abbrev main_v2812 : Ref sig .tc := ⟨.hbm, 3017, rfl⟩
abbrev main_v2813 : Ref sig .tc := ⟨.hbm, 3018, rfl⟩
abbrev main_v2814 : Ref sig .tc := ⟨.hbm, 3019, rfl⟩
abbrev main_v2815 : Ref sig .tc := ⟨.hbm, 3020, rfl⟩
abbrev main_v2816 : Ref sig .tc := ⟨.hbm, 3021, rfl⟩
abbrev main_v2817 : Ref sig .tc := ⟨.hbm, 3022, rfl⟩
abbrev main_v2818 : Ref sig .tc := ⟨.hbm, 3023, rfl⟩
abbrev main_v2819 : Ref sig .tc := ⟨.hbm, 3024, rfl⟩
abbrev main_v2820 : Ref sig .tc := ⟨.hbm, 3025, rfl⟩
abbrev main_v2821 : Ref sig .tc := ⟨.hbm, 3026, rfl⟩
abbrev main_v2822 : Ref sig .tc := ⟨.hbm, 3027, rfl⟩
abbrev main_v2823 : Ref sig .tc := ⟨.hbm, 3028, rfl⟩
abbrev main_v2824 : Ref sig .tc := ⟨.hbm, 3029, rfl⟩
abbrev main_cst_179 : Ref sig .tc := ⟨.hbm, 3030, rfl⟩
abbrev main_v2825 : Ref sig .tc := ⟨.hbm, 3031, rfl⟩
abbrev main_v2826 : Ref sig .tc := ⟨.hbm, 3032, rfl⟩
abbrev main_cst_180 : Ref sig .tc := ⟨.hbm, 3033, rfl⟩
abbrev main_v2827 : Ref sig .tc := ⟨.hbm, 3034, rfl⟩
abbrev main_v2828 : Ref sig .tc := ⟨.hbm, 3035, rfl⟩
abbrev main_v2829 : Ref sig .tc := ⟨.hbm, 3036, rfl⟩
abbrev main_v2830 : Ref sig .tc := ⟨.hbm, 3037, rfl⟩
abbrev main_v2831 : Ref sig .tc := ⟨.hbm, 3038, rfl⟩
abbrev main_v2832 : Ref sig .tc := ⟨.hbm, 3039, rfl⟩
abbrev main_v2833 : Ref sig .tc := ⟨.hbm, 3040, rfl⟩
abbrev main_v2834 : Ref sig .tc := ⟨.hbm, 3041, rfl⟩
abbrev main_v2835 : Ref sig .tc := ⟨.hbm, 3042, rfl⟩
abbrev main_v2836 : Ref sig .tc := ⟨.hbm, 3043, rfl⟩
abbrev main_v2837 : Ref sig .tc := ⟨.hbm, 3044, rfl⟩
abbrev main_v2838 : Ref sig .tc := ⟨.hbm, 3045, rfl⟩
abbrev main_v2839 : Ref sig .tc := ⟨.hbm, 3046, rfl⟩
abbrev main_v2840 : Ref sig .tc := ⟨.hbm, 3047, rfl⟩
abbrev main_v2841 : Ref sig .tc := ⟨.hbm, 3048, rfl⟩
abbrev main_v2842 : Ref sig .tc := ⟨.hbm, 3049, rfl⟩
abbrev main_v2843 : Ref sig .tc := ⟨.hbm, 3050, rfl⟩
abbrev main_v2844 : Ref sig .tc := ⟨.hbm, 3051, rfl⟩
abbrev main_v2845 : Ref sig .tc := ⟨.hbm, 3052, rfl⟩
abbrev main_v2846 : Ref sig .tc := ⟨.hbm, 3053, rfl⟩
abbrev main_v2847 : Ref sig .tc := ⟨.hbm, 3054, rfl⟩
abbrev main_v2848 : Ref sig .tc := ⟨.hbm, 3055, rfl⟩
abbrev main_v2849 : Ref sig .tc := ⟨.hbm, 3056, rfl⟩
abbrev main_v2850 : Ref sig .tc := ⟨.hbm, 3057, rfl⟩
abbrev main_v2851 : Ref sig .tc := ⟨.hbm, 3058, rfl⟩
abbrev main_cst_181 : Ref sig .tc := ⟨.hbm, 3059, rfl⟩
abbrev main_v2852 : Ref sig .tc := ⟨.hbm, 3060, rfl⟩
abbrev main_v2853 : Ref sig .tc := ⟨.hbm, 3061, rfl⟩
abbrev main_cst_182 : Ref sig .tc := ⟨.hbm, 3062, rfl⟩
abbrev main_v2854 : Ref sig .tc := ⟨.hbm, 3063, rfl⟩
abbrev main_v2855 : Ref sig .tc := ⟨.hbm, 3064, rfl⟩
abbrev main_v2856 : Ref sig .tc := ⟨.hbm, 3065, rfl⟩
abbrev main_v2857 : Ref sig .tc := ⟨.hbm, 3066, rfl⟩
abbrev main_v2858 : Ref sig .tc := ⟨.hbm, 3067, rfl⟩
abbrev main_v2859 : Ref sig .tc := ⟨.hbm, 3068, rfl⟩
abbrev main_v2860 : Ref sig .tc := ⟨.hbm, 3069, rfl⟩
abbrev main_v2861 : Ref sig .tc := ⟨.hbm, 3070, rfl⟩
abbrev main_v2862 : Ref sig .tc := ⟨.hbm, 3071, rfl⟩
abbrev main_v2863 : Ref sig .tc := ⟨.hbm, 3072, rfl⟩
abbrev main_v2864 : Ref sig .tc := ⟨.hbm, 3073, rfl⟩
abbrev main_v2865 : Ref sig .tc := ⟨.hbm, 3074, rfl⟩
abbrev main_v2866 : Ref sig .tc := ⟨.hbm, 3075, rfl⟩
abbrev main_v2867 : Ref sig .tc := ⟨.hbm, 3076, rfl⟩
abbrev main_v2868 : Ref sig .tc := ⟨.hbm, 3077, rfl⟩
abbrev main_v2869 : Ref sig .tc := ⟨.hbm, 3078, rfl⟩
abbrev main_v2870 : Ref sig .tc := ⟨.hbm, 3079, rfl⟩
abbrev main_v2871 : Ref sig .tc := ⟨.hbm, 3080, rfl⟩
abbrev main_v2872 : Ref sig .tc := ⟨.hbm, 3081, rfl⟩
abbrev main_v2873 : Ref sig .tc := ⟨.hbm, 3082, rfl⟩
abbrev main_v2874 : Ref sig .tc := ⟨.hbm, 3083, rfl⟩
abbrev main_v2875 : Ref sig .tc := ⟨.hbm, 3084, rfl⟩
abbrev main_v2876 : Ref sig .tc := ⟨.hbm, 3085, rfl⟩
abbrev main_cst_183 : Ref sig .tc := ⟨.hbm, 3086, rfl⟩
abbrev main_v2877 : Ref sig .tc := ⟨.hbm, 3087, rfl⟩
abbrev main_v2878 : Ref sig .tc := ⟨.hbm, 3088, rfl⟩
abbrev main_cst_184 : Ref sig .tc := ⟨.hbm, 3089, rfl⟩
abbrev main_v2879 : Ref sig .tc := ⟨.hbm, 3090, rfl⟩
abbrev main_v2880 : Ref sig .tc := ⟨.hbm, 3091, rfl⟩
abbrev main_v2881 : Ref sig .tc := ⟨.hbm, 3092, rfl⟩
abbrev main_v2882 : Ref sig .tc := ⟨.hbm, 3093, rfl⟩
abbrev main_v2883 : Ref sig .tc := ⟨.hbm, 3094, rfl⟩
abbrev main_v2884 : Ref sig .tc := ⟨.hbm, 3095, rfl⟩
abbrev main_v2885 : Ref sig .tc := ⟨.hbm, 3096, rfl⟩
abbrev main_v2886 : Ref sig .tc := ⟨.hbm, 3097, rfl⟩
abbrev main_v2887 : Ref sig .tc := ⟨.hbm, 3098, rfl⟩
abbrev main_v2888 : Ref sig .tc := ⟨.hbm, 3099, rfl⟩
abbrev main_v2889 : Ref sig .tc := ⟨.hbm, 3100, rfl⟩
abbrev main_v2890 : Ref sig .tc := ⟨.hbm, 3101, rfl⟩
abbrev main_v2891 : Ref sig .tc := ⟨.hbm, 3102, rfl⟩
abbrev main_v2892 : Ref sig .tc := ⟨.hbm, 3103, rfl⟩
abbrev main_v2893 : Ref sig .tc := ⟨.hbm, 3104, rfl⟩
abbrev main_cst_185 : Ref sig .tc := ⟨.hbm, 3105, rfl⟩
abbrev main_v2894 : Ref sig .tc := ⟨.hbm, 3106, rfl⟩
abbrev main_v2895 : Ref sig .tc := ⟨.hbm, 3107, rfl⟩
abbrev main_v2896 : Ref sig .tc := ⟨.hbm, 3108, rfl⟩
abbrev main_v2897 : Ref sig .tc := ⟨.hbm, 3109, rfl⟩
abbrev main_v2898 : Ref sig .tc := ⟨.hbm, 3110, rfl⟩
abbrev main_v2899 : Ref sig .tc := ⟨.hbm, 3111, rfl⟩
abbrev main_v2900 : Ref sig .tc := ⟨.hbm, 3112, rfl⟩
abbrev main_v2901 : Ref sig .tc := ⟨.hbm, 3113, rfl⟩
abbrev main_v2902 : Ref sig .tc := ⟨.hbm, 3114, rfl⟩
abbrev main_v2903 : Ref sig .tc := ⟨.hbm, 3115, rfl⟩
abbrev main_v2904 : Ref sig .tc := ⟨.hbm, 3116, rfl⟩
abbrev main_v2905 : Ref sig .tc := ⟨.hbm, 3117, rfl⟩
abbrev main_v2906 : Ref sig .tc := ⟨.hbm, 3118, rfl⟩
abbrev main_v2907 : Ref sig .tc := ⟨.hbm, 3119, rfl⟩
abbrev main_v2908 : Ref sig .tc := ⟨.hbm, 3120, rfl⟩
abbrev main_v2909 : Ref sig .tc := ⟨.hbm, 3121, rfl⟩
abbrev main_v2910 : Ref sig .tc := ⟨.hbm, 3122, rfl⟩
abbrev main_v2911 : Ref sig .tc := ⟨.hbm, 3123, rfl⟩
abbrev main_v2912 : Ref sig .tc := ⟨.hbm, 3124, rfl⟩
abbrev main_v2913 : Ref sig .tc := ⟨.hbm, 3125, rfl⟩
abbrev main_v2914 : Ref sig .tc := ⟨.hbm, 3126, rfl⟩
abbrev main_v2915 : Ref sig .tc := ⟨.hbm, 3127, rfl⟩
abbrev main_v2916 : Ref sig .tc := ⟨.hbm, 3128, rfl⟩
abbrev main_v2917 : Ref sig .tc := ⟨.hbm, 3129, rfl⟩
abbrev main_v2918 : Ref sig .tc := ⟨.hbm, 3130, rfl⟩
abbrev main_v2919 : Ref sig .tc := ⟨.hbm, 3131, rfl⟩
abbrev main_v2920 : Ref sig .tc := ⟨.hbm, 3132, rfl⟩
abbrev main_v2921 : Ref sig .tc := ⟨.hbm, 3133, rfl⟩
abbrev main_v2922 : Ref sig .tc := ⟨.hbm, 3134, rfl⟩
abbrev main_v2923 : Ref sig .tc := ⟨.hbm, 3135, rfl⟩
abbrev main_v2924 : Ref sig .tc := ⟨.hbm, 3136, rfl⟩
abbrev main_v2925 : Ref sig .tc := ⟨.hbm, 3137, rfl⟩
abbrev main_v2926 : Ref sig .tc := ⟨.hbm, 3138, rfl⟩
abbrev main_v2927 : Ref sig .tc := ⟨.hbm, 3139, rfl⟩
abbrev main_v2928 : Ref sig .tc := ⟨.hbm, 3140, rfl⟩
abbrev main_v2929 : Ref sig .tc := ⟨.hbm, 3141, rfl⟩
abbrev main_v2930 : Ref sig .tc := ⟨.hbm, 3142, rfl⟩
abbrev main_v2931 : Ref sig .tc := ⟨.hbm, 3143, rfl⟩
abbrev main_v2932 : Ref sig .tc := ⟨.hbm, 3144, rfl⟩
abbrev main_v2933 : Ref sig .tc := ⟨.hbm, 3145, rfl⟩
abbrev main_cst_186 : Ref sig .tc := ⟨.hbm, 3146, rfl⟩
abbrev main_v2934 : Ref sig .tc := ⟨.hbm, 3147, rfl⟩
abbrev main_v2935 : Ref sig .tc := ⟨.hbm, 3148, rfl⟩
abbrev main_cst_187 : Ref sig .tc := ⟨.hbm, 3149, rfl⟩
abbrev main_v2936 : Ref sig .tc := ⟨.hbm, 3150, rfl⟩
abbrev main_v2937 : Ref sig .tc := ⟨.hbm, 3151, rfl⟩
abbrev main_v2938 : Ref sig .tc := ⟨.hbm, 3152, rfl⟩
abbrev main_v2939 : Ref sig .tc := ⟨.hbm, 3153, rfl⟩
abbrev main_v2940 : Ref sig .tc := ⟨.hbm, 3154, rfl⟩
abbrev main_v2941 : Ref sig .tc := ⟨.hbm, 3155, rfl⟩
abbrev main_v2942 : Ref sig .tc := ⟨.hbm, 3156, rfl⟩
abbrev main_v2943 : Ref sig .tc := ⟨.hbm, 3157, rfl⟩
abbrev main_v2944 : Ref sig .tc := ⟨.hbm, 3158, rfl⟩
abbrev main_v2945 : Ref sig .tc := ⟨.hbm, 3159, rfl⟩
abbrev main_v2946 : Ref sig .tc := ⟨.hbm, 3160, rfl⟩
abbrev main_v2947 : Ref sig .tc := ⟨.hbm, 3161, rfl⟩
abbrev main_v2948 : Ref sig .tc := ⟨.hbm, 3162, rfl⟩
abbrev main_v2949 : Ref sig .tc := ⟨.hbm, 3163, rfl⟩
abbrev main_v2950 : Ref sig .tc := ⟨.hbm, 3164, rfl⟩
abbrev main_v2951 : Ref sig .tc := ⟨.hbm, 3165, rfl⟩
abbrev main_v2952 : Ref sig .tc := ⟨.hbm, 3166, rfl⟩
abbrev main_v2953 : Ref sig .tc := ⟨.hbm, 3167, rfl⟩
abbrev main_v2954 : Ref sig .tc := ⟨.hbm, 3168, rfl⟩
abbrev main_v2955 : Ref sig .tc := ⟨.hbm, 3169, rfl⟩
abbrev main_v2956 : Ref sig .tc := ⟨.hbm, 3170, rfl⟩
abbrev main_v2957 : Ref sig .tc := ⟨.hbm, 3171, rfl⟩
abbrev main_v2958 : Ref sig .tc := ⟨.hbm, 3172, rfl⟩
abbrev main_v2959 : Ref sig .tc := ⟨.hbm, 3173, rfl⟩
abbrev main_v2960 : Ref sig .tc := ⟨.hbm, 3174, rfl⟩
abbrev main_v2961 : Ref sig .tc := ⟨.hbm, 3175, rfl⟩
abbrev main_v2962 : Ref sig .tc := ⟨.hbm, 3176, rfl⟩
abbrev main_v2963 : Ref sig .tc := ⟨.hbm, 3177, rfl⟩
abbrev main_v2964 : Ref sig .tc := ⟨.hbm, 3178, rfl⟩
abbrev main_v2965 : Ref sig .tc := ⟨.hbm, 3179, rfl⟩
abbrev main_v2966 : Ref sig .tc := ⟨.hbm, 3180, rfl⟩
abbrev main_v2967 : Ref sig .tc := ⟨.hbm, 3181, rfl⟩
abbrev main_v2968 : Ref sig .tc := ⟨.hbm, 3182, rfl⟩
abbrev main_v2969 : Ref sig .tc := ⟨.hbm, 3183, rfl⟩
abbrev main_v2970 : Ref sig .tc := ⟨.hbm, 3184, rfl⟩
abbrev main_v2971 : Ref sig .tc := ⟨.hbm, 3185, rfl⟩
abbrev main_cst_188 : Ref sig .tc := ⟨.hbm, 3186, rfl⟩
abbrev main_v2972 : Ref sig .tc := ⟨.hbm, 3187, rfl⟩
abbrev main_v2973 : Ref sig .tc := ⟨.hbm, 3188, rfl⟩
abbrev main_cst_189 : Ref sig .tc := ⟨.hbm, 3189, rfl⟩
abbrev main_v2974 : Ref sig .tc := ⟨.hbm, 3190, rfl⟩
abbrev main_v2975 : Ref sig .tc := ⟨.hbm, 3191, rfl⟩
abbrev main_v2976 : Ref sig .tc := ⟨.hbm, 3192, rfl⟩
abbrev main_v2977 : Ref sig .tc := ⟨.hbm, 3193, rfl⟩
abbrev main_v2978 : Ref sig .tc := ⟨.hbm, 3194, rfl⟩
abbrev main_v2979 : Ref sig .tc := ⟨.hbm, 3195, rfl⟩
abbrev main_v2980 : Ref sig .tc := ⟨.hbm, 3196, rfl⟩
abbrev main_v2981 : Ref sig .tc := ⟨.hbm, 3197, rfl⟩
abbrev main_v2982 : Ref sig .tc := ⟨.hbm, 3198, rfl⟩
abbrev main_v2983 : Ref sig .tc := ⟨.hbm, 3199, rfl⟩
abbrev main_v2984 : Ref sig .tc := ⟨.hbm, 3200, rfl⟩
abbrev main_v2985 : Ref sig .tc := ⟨.hbm, 3201, rfl⟩
abbrev main_v2986 : Ref sig .tc := ⟨.hbm, 3202, rfl⟩
abbrev main_v2987 : Ref sig .tc := ⟨.hbm, 3203, rfl⟩
abbrev main_v2988 : Ref sig .tc := ⟨.hbm, 3204, rfl⟩
abbrev main_v2989 : Ref sig .tc := ⟨.hbm, 3205, rfl⟩
abbrev main_v2990 : Ref sig .tc := ⟨.hbm, 3206, rfl⟩
abbrev main_v2991 : Ref sig .tc := ⟨.hbm, 3207, rfl⟩
abbrev main_v2992 : Ref sig .tc := ⟨.hbm, 3208, rfl⟩
abbrev main_v2993 : Ref sig .tc := ⟨.hbm, 3209, rfl⟩
abbrev main_v2994 : Ref sig .tc := ⟨.hbm, 3210, rfl⟩
abbrev main_v2995 : Ref sig .tc := ⟨.hbm, 3211, rfl⟩
abbrev main_v2996 : Ref sig .tc := ⟨.hbm, 3212, rfl⟩
abbrev main_v2997 : Ref sig .tc := ⟨.hbm, 3213, rfl⟩
abbrev main_v2998 : Ref sig .tc := ⟨.hbm, 3214, rfl⟩
abbrev main_cst_190 : Ref sig .tc := ⟨.hbm, 3215, rfl⟩
abbrev main_v2999 : Ref sig .tc := ⟨.hbm, 3216, rfl⟩
abbrev main_v3000 : Ref sig .tc := ⟨.hbm, 3217, rfl⟩
abbrev main_cst_191 : Ref sig .tc := ⟨.hbm, 3218, rfl⟩
abbrev main_v3001 : Ref sig .tc := ⟨.hbm, 3219, rfl⟩
abbrev main_v3002 : Ref sig .tc := ⟨.hbm, 3220, rfl⟩
abbrev main_v3003 : Ref sig .tc := ⟨.hbm, 3221, rfl⟩
abbrev main_v3004 : Ref sig .tc := ⟨.hbm, 3222, rfl⟩
abbrev main_v3005 : Ref sig .tc := ⟨.hbm, 3223, rfl⟩
abbrev main_v3006 : Ref sig .tc := ⟨.hbm, 3224, rfl⟩
abbrev main_v3007 : Ref sig .tc := ⟨.hbm, 3225, rfl⟩
abbrev main_v3008 : Ref sig .tc := ⟨.hbm, 3226, rfl⟩
abbrev main_v3009 : Ref sig .tc := ⟨.hbm, 3227, rfl⟩
abbrev main_v3010 : Ref sig .tc := ⟨.hbm, 3228, rfl⟩
abbrev main_v3011 : Ref sig .tc := ⟨.hbm, 3229, rfl⟩
abbrev main_v3012 : Ref sig .tc := ⟨.hbm, 3230, rfl⟩
abbrev main_v3013 : Ref sig .tc := ⟨.hbm, 3231, rfl⟩
abbrev main_v3014 : Ref sig .tc := ⟨.hbm, 3232, rfl⟩
abbrev main_v3015 : Ref sig .tc := ⟨.hbm, 3233, rfl⟩
abbrev main_v3016 : Ref sig .tc := ⟨.hbm, 3234, rfl⟩
abbrev main_v3017 : Ref sig .tc := ⟨.hbm, 3235, rfl⟩
abbrev main_v3018 : Ref sig .tc := ⟨.hbm, 3236, rfl⟩
abbrev main_v3019 : Ref sig .tc := ⟨.hbm, 3237, rfl⟩
abbrev main_v3020 : Ref sig .tc := ⟨.hbm, 3238, rfl⟩
abbrev main_v3021 : Ref sig .tc := ⟨.hbm, 3239, rfl⟩
abbrev main_v3022 : Ref sig .tc := ⟨.hbm, 3240, rfl⟩
abbrev main_v3023 : Ref sig .tc := ⟨.hbm, 3241, rfl⟩
abbrev main_cst_192 : Ref sig .tc := ⟨.hbm, 3242, rfl⟩
abbrev main_v3024 : Ref sig .tc := ⟨.hbm, 3243, rfl⟩
abbrev main_v3025 : Ref sig .tc := ⟨.hbm, 3244, rfl⟩
abbrev main_cst_193 : Ref sig .tc := ⟨.hbm, 3245, rfl⟩
abbrev main_v3026 : Ref sig .tc := ⟨.hbm, 3246, rfl⟩
abbrev main_v3027 : Ref sig .tc := ⟨.hbm, 3247, rfl⟩
abbrev main_v3028 : Ref sig .tc := ⟨.hbm, 3248, rfl⟩
abbrev main_v3029 : Ref sig .tc := ⟨.hbm, 3249, rfl⟩
abbrev main_v3030 : Ref sig .tc := ⟨.hbm, 3250, rfl⟩
abbrev main_v3031 : Ref sig .tc := ⟨.hbm, 3251, rfl⟩
abbrev main_v3032 : Ref sig .tc := ⟨.hbm, 3252, rfl⟩
abbrev main_v3033 : Ref sig .tc := ⟨.hbm, 3253, rfl⟩
abbrev main_v3034 : Ref sig .tc := ⟨.hbm, 3254, rfl⟩
abbrev main_v3035 : Ref sig .tc := ⟨.hbm, 3255, rfl⟩
abbrev main_v3036 : Ref sig .tc := ⟨.hbm, 3256, rfl⟩
abbrev main_v3037 : Ref sig .tc := ⟨.hbm, 3257, rfl⟩
abbrev main_v3038 : Ref sig .tc := ⟨.hbm, 3258, rfl⟩
abbrev main_v3039 : Ref sig .tc := ⟨.hbm, 3259, rfl⟩
abbrev main_v3040 : Ref sig .tc := ⟨.hbm, 3260, rfl⟩
abbrev main_cst_194 : Ref sig .tc := ⟨.hbm, 3261, rfl⟩
abbrev main_v3041 : Ref sig .tc := ⟨.hbm, 3262, rfl⟩
abbrev main_v3042 : Ref sig .tc := ⟨.hbm, 3263, rfl⟩
abbrev main_v3043 : Ref sig .tc := ⟨.hbm, 3264, rfl⟩
abbrev main_v3044 : Ref sig .tc := ⟨.hbm, 3265, rfl⟩
abbrev main_v3045 : Ref sig .tc := ⟨.hbm, 3266, rfl⟩
abbrev main_v3046 : Ref sig .tc := ⟨.hbm, 3267, rfl⟩
abbrev main_v3047 : Ref sig .tc := ⟨.hbm, 3268, rfl⟩
abbrev main_v3048 : Ref sig .tc := ⟨.hbm, 3269, rfl⟩
abbrev main_v3049 : Ref sig .tc := ⟨.hbm, 3270, rfl⟩
abbrev main_v3050 : Ref sig .tc := ⟨.hbm, 3271, rfl⟩
abbrev main_v3051 : Ref sig .tc := ⟨.hbm, 3272, rfl⟩
abbrev main_v3052 : Ref sig .tc := ⟨.hbm, 3273, rfl⟩
abbrev main_v3053 : Ref sig .tc := ⟨.hbm, 3274, rfl⟩
abbrev main_v3054 : Ref sig .tc := ⟨.hbm, 3275, rfl⟩
abbrev main_v3055 : Ref sig .tc := ⟨.hbm, 3276, rfl⟩
abbrev main_v3056 : Ref sig .tc := ⟨.hbm, 3277, rfl⟩
abbrev main_v3057 : Ref sig .tc := ⟨.hbm, 3278, rfl⟩
abbrev main_v3058 : Ref sig .tc := ⟨.hbm, 3279, rfl⟩
abbrev main_v3059 : Ref sig .tc := ⟨.hbm, 3280, rfl⟩
abbrev main_v3060 : Ref sig .tc := ⟨.hbm, 3281, rfl⟩
abbrev main_v3061 : Ref sig .tc := ⟨.hbm, 3282, rfl⟩
abbrev main_v3062 : Ref sig .tc := ⟨.hbm, 3283, rfl⟩
abbrev main_v3063 : Ref sig .tc := ⟨.hbm, 3284, rfl⟩
abbrev main_v3064 : Ref sig .tc := ⟨.hbm, 3285, rfl⟩
abbrev main_v3065 : Ref sig .tc := ⟨.hbm, 3286, rfl⟩
abbrev main_v3066 : Ref sig .tc := ⟨.hbm, 3287, rfl⟩
abbrev main_v3067 : Ref sig .tc := ⟨.hbm, 3288, rfl⟩
abbrev main_v3068 : Ref sig .tc := ⟨.hbm, 3289, rfl⟩
abbrev main_v3069 : Ref sig .tc := ⟨.hbm, 3290, rfl⟩
abbrev main_v3070 : Ref sig .tc := ⟨.hbm, 3291, rfl⟩
abbrev main_v3071 : Ref sig .tc := ⟨.hbm, 3292, rfl⟩
abbrev main_v3072 : Ref sig .tc := ⟨.hbm, 3293, rfl⟩
abbrev main_v3073 : Ref sig .tc := ⟨.hbm, 3294, rfl⟩
abbrev main_v3074 : Ref sig .tc := ⟨.hbm, 3295, rfl⟩
abbrev main_v3075 : Ref sig .tc := ⟨.hbm, 3296, rfl⟩
abbrev main_v3076 : Ref sig .tc := ⟨.hbm, 3297, rfl⟩
abbrev main_v3077 : Ref sig .tc := ⟨.hbm, 3298, rfl⟩
abbrev main_v3078 : Ref sig .tc := ⟨.hbm, 3299, rfl⟩
abbrev main_v3079 : Ref sig .tc := ⟨.hbm, 3300, rfl⟩
abbrev main_v3080 : Ref sig .tc := ⟨.hbm, 3301, rfl⟩
abbrev main_cst_195 : Ref sig .tc := ⟨.hbm, 3302, rfl⟩
abbrev main_v3081 : Ref sig .tc := ⟨.hbm, 3303, rfl⟩
abbrev main_v3082 : Ref sig .tc := ⟨.hbm, 3304, rfl⟩
abbrev main_cst_196 : Ref sig .tc := ⟨.hbm, 3305, rfl⟩
abbrev main_v3083 : Ref sig .tc := ⟨.hbm, 3306, rfl⟩
abbrev main_v3084 : Ref sig .tc := ⟨.hbm, 3307, rfl⟩
abbrev main_v3085 : Ref sig .tc := ⟨.hbm, 3308, rfl⟩
abbrev main_v3086 : Ref sig .tc := ⟨.hbm, 3309, rfl⟩
abbrev main_v3087 : Ref sig .tc := ⟨.hbm, 3310, rfl⟩
abbrev main_v3088 : Ref sig .tc := ⟨.hbm, 3311, rfl⟩
abbrev main_v3089 : Ref sig .tc := ⟨.hbm, 3312, rfl⟩
abbrev main_v3090 : Ref sig .tc := ⟨.hbm, 3313, rfl⟩
abbrev main_v3091 : Ref sig .tc := ⟨.hbm, 3314, rfl⟩
abbrev main_v3092 : Ref sig .tc := ⟨.hbm, 3315, rfl⟩
abbrev main_v3093 : Ref sig .tc := ⟨.hbm, 3316, rfl⟩
abbrev main_v3094 : Ref sig .tc := ⟨.hbm, 3317, rfl⟩
abbrev main_v3095 : Ref sig .tc := ⟨.hbm, 3318, rfl⟩
abbrev main_v3096 : Ref sig .tc := ⟨.hbm, 3319, rfl⟩
abbrev main_v3097 : Ref sig .tc := ⟨.hbm, 3320, rfl⟩
abbrev main_v3098 : Ref sig .tc := ⟨.hbm, 3321, rfl⟩
abbrev main_v3099 : Ref sig .tc := ⟨.hbm, 3322, rfl⟩
abbrev main_v3100 : Ref sig .tc := ⟨.hbm, 3323, rfl⟩
abbrev main_v3101 : Ref sig .tc := ⟨.hbm, 3324, rfl⟩
abbrev main_v3102 : Ref sig .tc := ⟨.hbm, 3325, rfl⟩
abbrev main_v3103 : Ref sig .tc := ⟨.hbm, 3326, rfl⟩
abbrev main_v3104 : Ref sig .tc := ⟨.hbm, 3327, rfl⟩
abbrev main_v3105 : Ref sig .tc := ⟨.hbm, 3328, rfl⟩
abbrev main_v3106 : Ref sig .tc := ⟨.hbm, 3329, rfl⟩
abbrev main_v3107 : Ref sig .tc := ⟨.hbm, 3330, rfl⟩
abbrev main_v3108 : Ref sig .tc := ⟨.hbm, 3331, rfl⟩
abbrev main_cst_197 : Ref sig .tc := ⟨.hbm, 3332, rfl⟩
abbrev main_v3109 : Ref sig .tc := ⟨.hbm, 3333, rfl⟩
abbrev main_v3110 : Ref sig .tc := ⟨.hbm, 3334, rfl⟩
abbrev main_cst_198 : Ref sig .tc := ⟨.hbm, 3335, rfl⟩
abbrev main_v3111 : Ref sig .tc := ⟨.hbm, 3336, rfl⟩
abbrev main_v3112 : Ref sig .tc := ⟨.hbm, 3337, rfl⟩
abbrev main_v3113 : Ref sig .tc := ⟨.hbm, 3338, rfl⟩
abbrev main_v3114 : Ref sig .tc := ⟨.hbm, 3339, rfl⟩
abbrev main_v3115 : Ref sig .tc := ⟨.hbm, 3340, rfl⟩
abbrev main_v3116 : Ref sig .tc := ⟨.hbm, 3341, rfl⟩
abbrev main_v3117 : Ref sig .tc := ⟨.hbm, 3342, rfl⟩
abbrev main_v3118 : Ref sig .tc := ⟨.hbm, 3343, rfl⟩
abbrev main_v3119 : Ref sig .tc := ⟨.hbm, 3344, rfl⟩
abbrev main_v3120 : Ref sig .tc := ⟨.hbm, 3345, rfl⟩
abbrev main_v3121 : Ref sig .tc := ⟨.hbm, 3346, rfl⟩
abbrev main_v3122 : Ref sig .tc := ⟨.hbm, 3347, rfl⟩
abbrev main_v3123 : Ref sig .tc := ⟨.hbm, 3348, rfl⟩
abbrev main_v3124 : Ref sig .tc := ⟨.hbm, 3349, rfl⟩
abbrev main_v3125 : Ref sig .tc := ⟨.hbm, 3350, rfl⟩
abbrev main_v3126 : Ref sig .tc := ⟨.hbm, 3351, rfl⟩
abbrev main_v3127 : Ref sig .tc := ⟨.hbm, 3352, rfl⟩
abbrev main_v3128 : Ref sig .tc := ⟨.hbm, 3353, rfl⟩
abbrev main_v3129 : Ref sig .tc := ⟨.hbm, 3354, rfl⟩
abbrev main_v3130 : Ref sig .tc := ⟨.hbm, 3355, rfl⟩
abbrev main_v3131 : Ref sig .tc := ⟨.hbm, 3356, rfl⟩
abbrev main_v3132 : Ref sig .tc := ⟨.hbm, 3357, rfl⟩
abbrev main_v3133 : Ref sig .tc := ⟨.hbm, 3358, rfl⟩
abbrev main_v3134 : Ref sig .tc := ⟨.hbm, 3359, rfl⟩
abbrev main_v3135 : Ref sig .tc := ⟨.hbm, 3360, rfl⟩
abbrev main_cst_199 : Ref sig .tc := ⟨.hbm, 3361, rfl⟩
abbrev main_v3136 : Ref sig .tc := ⟨.hbm, 3362, rfl⟩
abbrev main_v3137 : Ref sig .tc := ⟨.hbm, 3363, rfl⟩
abbrev main_cst_200 : Ref sig .tc := ⟨.hbm, 3364, rfl⟩
abbrev main_v3138 : Ref sig .tc := ⟨.hbm, 3365, rfl⟩
abbrev main_v3139 : Ref sig .tc := ⟨.hbm, 3366, rfl⟩
abbrev main_v3140 : Ref sig .tc := ⟨.hbm, 3367, rfl⟩
abbrev main_v3141 : Ref sig .tc := ⟨.hbm, 3368, rfl⟩
abbrev main_v3142 : Ref sig .tc := ⟨.hbm, 3369, rfl⟩
abbrev main_v3143 : Ref sig .tc := ⟨.hbm, 3370, rfl⟩
abbrev main_v3144 : Ref sig .tc := ⟨.hbm, 3371, rfl⟩
abbrev main_v3145 : Ref sig .tc := ⟨.hbm, 3372, rfl⟩
abbrev main_v3146 : Ref sig .tc := ⟨.hbm, 3373, rfl⟩
abbrev main_v3147 : Ref sig .tc := ⟨.hbm, 3374, rfl⟩
abbrev main_v3148 : Ref sig .tc := ⟨.hbm, 3375, rfl⟩
abbrev main_v3149 : Ref sig .tc := ⟨.hbm, 3376, rfl⟩
abbrev main_v3150 : Ref sig .tc := ⟨.hbm, 3377, rfl⟩
abbrev main_v3151 : Ref sig .tc := ⟨.hbm, 3378, rfl⟩
abbrev main_v3152 : Ref sig .tc := ⟨.hbm, 3379, rfl⟩
abbrev main_v3153 : Ref sig .tc := ⟨.hbm, 3380, rfl⟩
abbrev main_v3154 : Ref sig .tc := ⟨.hbm, 3381, rfl⟩
abbrev main_v3155 : Ref sig .tc := ⟨.hbm, 3382, rfl⟩
abbrev main_v3156 : Ref sig .tc := ⟨.hbm, 3383, rfl⟩
abbrev main_v3157 : Ref sig .tc := ⟨.hbm, 3384, rfl⟩
abbrev main_v3158 : Ref sig .tc := ⟨.hbm, 3385, rfl⟩
abbrev main_v3159 : Ref sig .tc := ⟨.hbm, 3386, rfl⟩
abbrev main_v3160 : Ref sig .tc := ⟨.hbm, 3387, rfl⟩
abbrev main_cst_201 : Ref sig .tc := ⟨.hbm, 3388, rfl⟩
abbrev main_v3161 : Ref sig .tc := ⟨.hbm, 3389, rfl⟩
abbrev main_v3162 : Ref sig .tc := ⟨.hbm, 3390, rfl⟩
abbrev main_cst_202 : Ref sig .tc := ⟨.hbm, 3391, rfl⟩
abbrev main_v3163 : Ref sig .tc := ⟨.hbm, 3392, rfl⟩
abbrev main_v3164 : Ref sig .tc := ⟨.hbm, 3393, rfl⟩
abbrev main_v3165 : Ref sig .tc := ⟨.hbm, 3394, rfl⟩
abbrev main_v3166 : Ref sig .tc := ⟨.hbm, 3395, rfl⟩
abbrev main_v3167 : Ref sig .tc := ⟨.hbm, 3396, rfl⟩
abbrev main_v3168 : Ref sig .tc := ⟨.hbm, 3397, rfl⟩
abbrev main_v3169 : Ref sig .tc := ⟨.hbm, 3398, rfl⟩
abbrev main_v3170 : Ref sig .tc := ⟨.hbm, 3399, rfl⟩
abbrev main_v3171 : Ref sig .tc := ⟨.hbm, 3400, rfl⟩
abbrev main_v3172 : Ref sig .tc := ⟨.hbm, 3401, rfl⟩
abbrev main_v3173 : Ref sig .tc := ⟨.hbm, 3402, rfl⟩
abbrev main_v3174 : Ref sig .tc := ⟨.hbm, 3403, rfl⟩
abbrev main_v3175 : Ref sig .tc := ⟨.hbm, 3404, rfl⟩
abbrev main_v3176 : Ref sig .tc := ⟨.hbm, 3405, rfl⟩
abbrev main_v3177 : Ref sig .tc := ⟨.hbm, 3406, rfl⟩
abbrev main_cst_203 : Ref sig .tc := ⟨.hbm, 3407, rfl⟩
abbrev main_v3178 : Ref sig .tc := ⟨.hbm, 3408, rfl⟩
abbrev main_v3179 : Ref sig .tc := ⟨.hbm, 3409, rfl⟩
abbrev main_v3180 : Ref sig .tc := ⟨.hbm, 3410, rfl⟩
abbrev main_v3181 : Ref sig .tc := ⟨.hbm, 3411, rfl⟩
abbrev main_v3182 : Ref sig .tc := ⟨.hbm, 3412, rfl⟩
abbrev main_v3183 : Ref sig .tc := ⟨.hbm, 3413, rfl⟩
abbrev main_v3184 : Ref sig .tc := ⟨.hbm, 3414, rfl⟩
abbrev main_v3185 : Ref sig .tc := ⟨.hbm, 3415, rfl⟩
abbrev main_v3186 : Ref sig .tc := ⟨.hbm, 3416, rfl⟩
abbrev main_v3187 : Ref sig .tc := ⟨.hbm, 3417, rfl⟩
abbrev main_v3188 : Ref sig .tc := ⟨.hbm, 3418, rfl⟩
abbrev main_v3189 : Ref sig .tc := ⟨.hbm, 3419, rfl⟩
abbrev main_v3190 : Ref sig .tc := ⟨.hbm, 3420, rfl⟩
abbrev main_v3191 : Ref sig .tc := ⟨.hbm, 3421, rfl⟩
abbrev main_v3192 : Ref sig .tc := ⟨.hbm, 3422, rfl⟩
abbrev main_v3193 : Ref sig .tc := ⟨.hbm, 3423, rfl⟩
abbrev main_v3194 : Ref sig .tc := ⟨.hbm, 3424, rfl⟩
abbrev main_v3195 : Ref sig .tc := ⟨.hbm, 3425, rfl⟩
abbrev main_v3196 : Ref sig .tc := ⟨.hbm, 3426, rfl⟩
abbrev main_v3197 : Ref sig .tc := ⟨.hbm, 3427, rfl⟩
abbrev main_v3198 : Ref sig .tc := ⟨.hbm, 3428, rfl⟩
abbrev main_v3199 : Ref sig .tc := ⟨.hbm, 3429, rfl⟩
abbrev main_v3200 : Ref sig .tc := ⟨.hbm, 3430, rfl⟩
abbrev main_v3201 : Ref sig .tc := ⟨.hbm, 3431, rfl⟩
abbrev main_v3202 : Ref sig .tc := ⟨.hbm, 3432, rfl⟩
abbrev main_v3203 : Ref sig .tc := ⟨.hbm, 3433, rfl⟩
abbrev main_v3204 : Ref sig .tc := ⟨.hbm, 3434, rfl⟩
abbrev main_v3205 : Ref sig .tc := ⟨.hbm, 3435, rfl⟩
abbrev main_v3206 : Ref sig .tc := ⟨.hbm, 3436, rfl⟩
abbrev main_v3207 : Ref sig .tc := ⟨.hbm, 3437, rfl⟩
abbrev main_v3208 : Ref sig .tc := ⟨.hbm, 3438, rfl⟩
abbrev main_v3209 : Ref sig .tc := ⟨.hbm, 3439, rfl⟩
abbrev main_v3210 : Ref sig .tc := ⟨.hbm, 3440, rfl⟩
abbrev main_v3211 : Ref sig .tc := ⟨.hbm, 3441, rfl⟩
abbrev main_v3212 : Ref sig .tc := ⟨.hbm, 3442, rfl⟩
abbrev main_v3213 : Ref sig .tc := ⟨.hbm, 3443, rfl⟩
abbrev main_v3214 : Ref sig .tc := ⟨.hbm, 3444, rfl⟩
abbrev main_v3215 : Ref sig .tc := ⟨.hbm, 3445, rfl⟩
abbrev main_v3216 : Ref sig .tc := ⟨.hbm, 3446, rfl⟩
abbrev main_v3217 : Ref sig .tc := ⟨.hbm, 3447, rfl⟩
abbrev main_cst_204 : Ref sig .tc := ⟨.hbm, 3448, rfl⟩
abbrev main_v3218 : Ref sig .tc := ⟨.hbm, 3449, rfl⟩
abbrev main_v3219 : Ref sig .tc := ⟨.hbm, 3450, rfl⟩
abbrev main_cst_205 : Ref sig .tc := ⟨.hbm, 3451, rfl⟩
abbrev main_v3220 : Ref sig .tc := ⟨.hbm, 3452, rfl⟩
abbrev main_v3221 : Ref sig .tc := ⟨.hbm, 3453, rfl⟩
abbrev main_v3222 : Ref sig .tc := ⟨.hbm, 3454, rfl⟩
abbrev main_v3223 : Ref sig .tc := ⟨.hbm, 3455, rfl⟩
abbrev main_v3224 : Ref sig .tc := ⟨.hbm, 3456, rfl⟩
abbrev main_v3225 : Ref sig .tc := ⟨.hbm, 3457, rfl⟩
abbrev main_v3226 : Ref sig .tc := ⟨.hbm, 3458, rfl⟩
abbrev main_v3227 : Ref sig .tc := ⟨.hbm, 3459, rfl⟩
abbrev main_v3228 : Ref sig .tc := ⟨.hbm, 3460, rfl⟩
abbrev main_v3229 : Ref sig .tc := ⟨.hbm, 3461, rfl⟩
abbrev main_v3230 : Ref sig .tc := ⟨.hbm, 3462, rfl⟩
abbrev main_v3231 : Ref sig .tc := ⟨.hbm, 3463, rfl⟩
abbrev main_v3232 : Ref sig .tc := ⟨.hbm, 3464, rfl⟩
abbrev main_v3233 : Ref sig .tc := ⟨.hbm, 3465, rfl⟩
abbrev main_v3234 : Ref sig .tc := ⟨.hbm, 3466, rfl⟩
abbrev main_v3235 : Ref sig .tc := ⟨.hbm, 3467, rfl⟩
abbrev main_v3236 : Ref sig .tc := ⟨.hbm, 3468, rfl⟩
abbrev main_v3237 : Ref sig .tc := ⟨.hbm, 3469, rfl⟩
abbrev main_v3238 : Ref sig .tc := ⟨.hbm, 3470, rfl⟩
abbrev main_v3239 : Ref sig .tc := ⟨.hbm, 3471, rfl⟩
abbrev main_v3240 : Ref sig .tc := ⟨.hbm, 3472, rfl⟩
abbrev main_v3241 : Ref sig .tc := ⟨.hbm, 3473, rfl⟩
abbrev main_v3242 : Ref sig .tc := ⟨.hbm, 3474, rfl⟩
abbrev main_v3243 : Ref sig .tc := ⟨.hbm, 3475, rfl⟩
abbrev main_v3244 : Ref sig .tc := ⟨.hbm, 3476, rfl⟩
abbrev main_v3245 : Ref sig .tc := ⟨.hbm, 3477, rfl⟩
abbrev main_cst_206 : Ref sig .tc := ⟨.hbm, 3478, rfl⟩
abbrev main_v3246 : Ref sig .tc := ⟨.hbm, 3479, rfl⟩
abbrev main_v3247 : Ref sig .tc := ⟨.hbm, 3480, rfl⟩
abbrev main_cst_207 : Ref sig .tc := ⟨.hbm, 3481, rfl⟩
abbrev main_v3248 : Ref sig .tc := ⟨.hbm, 3482, rfl⟩
abbrev main_v3249 : Ref sig .tc := ⟨.hbm, 3483, rfl⟩
abbrev main_v3250 : Ref sig .tc := ⟨.hbm, 3484, rfl⟩
abbrev main_v3251 : Ref sig .tc := ⟨.hbm, 3485, rfl⟩
abbrev main_v3252 : Ref sig .tc := ⟨.hbm, 3486, rfl⟩
abbrev main_v3253 : Ref sig .tc := ⟨.hbm, 3487, rfl⟩
abbrev main_v3254 : Ref sig .tc := ⟨.hbm, 3488, rfl⟩
abbrev main_v3255 : Ref sig .tc := ⟨.hbm, 3489, rfl⟩
abbrev main_v3256 : Ref sig .tc := ⟨.hbm, 3490, rfl⟩
abbrev main_v3257 : Ref sig .tc := ⟨.hbm, 3491, rfl⟩
abbrev main_v3258 : Ref sig .tc := ⟨.hbm, 3492, rfl⟩
abbrev main_v3259 : Ref sig .tc := ⟨.hbm, 3493, rfl⟩
abbrev main_v3260 : Ref sig .tc := ⟨.hbm, 3494, rfl⟩
abbrev main_v3261 : Ref sig .tc := ⟨.hbm, 3495, rfl⟩
abbrev main_v3262 : Ref sig .tc := ⟨.hbm, 3496, rfl⟩
abbrev main_v3263 : Ref sig .tc := ⟨.hbm, 3497, rfl⟩
abbrev main_v3264 : Ref sig .tc := ⟨.hbm, 3498, rfl⟩
abbrev main_v3265 : Ref sig .tc := ⟨.hbm, 3499, rfl⟩
abbrev main_v3266 : Ref sig .tc := ⟨.hbm, 3500, rfl⟩
abbrev main_v3267 : Ref sig .tc := ⟨.hbm, 3501, rfl⟩
abbrev main_v3268 : Ref sig .tc := ⟨.hbm, 3502, rfl⟩
abbrev main_v3269 : Ref sig .tc := ⟨.hbm, 3503, rfl⟩
abbrev main_v3270 : Ref sig .tc := ⟨.hbm, 3504, rfl⟩
abbrev main_v3271 : Ref sig .tc := ⟨.hbm, 3505, rfl⟩
abbrev main_v3272 : Ref sig .tc := ⟨.hbm, 3506, rfl⟩
abbrev main_cst_208 : Ref sig .tc := ⟨.hbm, 3507, rfl⟩
abbrev main_v3273 : Ref sig .tc := ⟨.hbm, 3508, rfl⟩
abbrev main_v3274 : Ref sig .tc := ⟨.hbm, 3509, rfl⟩
abbrev main_cst_209 : Ref sig .tc := ⟨.hbm, 3510, rfl⟩
abbrev main_v3275 : Ref sig .tc := ⟨.hbm, 3511, rfl⟩
abbrev main_v3276 : Ref sig .tc := ⟨.hbm, 3512, rfl⟩
abbrev main_v3277 : Ref sig .tc := ⟨.hbm, 3513, rfl⟩
abbrev main_v3278 : Ref sig .tc := ⟨.hbm, 3514, rfl⟩
abbrev main_v3279 : Ref sig .tc := ⟨.hbm, 3515, rfl⟩
abbrev main_v3280 : Ref sig .tc := ⟨.hbm, 3516, rfl⟩
abbrev main_v3281 : Ref sig .tc := ⟨.hbm, 3517, rfl⟩
abbrev main_v3282 : Ref sig .tc := ⟨.hbm, 3518, rfl⟩
abbrev main_v3283 : Ref sig .tc := ⟨.hbm, 3519, rfl⟩
abbrev main_v3284 : Ref sig .tc := ⟨.hbm, 3520, rfl⟩
abbrev main_v3285 : Ref sig .tc := ⟨.hbm, 3521, rfl⟩
abbrev main_v3286 : Ref sig .tc := ⟨.hbm, 3522, rfl⟩
abbrev main_v3287 : Ref sig .tc := ⟨.hbm, 3523, rfl⟩
abbrev main_v3288 : Ref sig .tc := ⟨.hbm, 3524, rfl⟩
abbrev main_v3289 : Ref sig .tc := ⟨.hbm, 3525, rfl⟩
abbrev main_v3290 : Ref sig .tc := ⟨.hbm, 3526, rfl⟩
abbrev main_v3291 : Ref sig .tc := ⟨.hbm, 3527, rfl⟩
abbrev main_v3292 : Ref sig .tc := ⟨.hbm, 3528, rfl⟩
abbrev main_v3293 : Ref sig .tc := ⟨.hbm, 3529, rfl⟩
abbrev main_v3294 : Ref sig .tc := ⟨.hbm, 3530, rfl⟩
abbrev main_v3295 : Ref sig .tc := ⟨.hbm, 3531, rfl⟩
abbrev main_v3296 : Ref sig .tc := ⟨.hbm, 3532, rfl⟩
abbrev main_v3297 : Ref sig .tc := ⟨.hbm, 3533, rfl⟩
abbrev main_cst_210 : Ref sig .tc := ⟨.hbm, 3534, rfl⟩
abbrev main_v3298 : Ref sig .tc := ⟨.hbm, 3535, rfl⟩
abbrev main_v3299 : Ref sig .tc := ⟨.hbm, 3536, rfl⟩
abbrev main_cst_211 : Ref sig .tc := ⟨.hbm, 3537, rfl⟩
abbrev main_v3300 : Ref sig .tc := ⟨.hbm, 3538, rfl⟩
abbrev main_v3301 : Ref sig .tc := ⟨.hbm, 3539, rfl⟩
abbrev main_v3302 : Ref sig .tc := ⟨.hbm, 3540, rfl⟩
abbrev main_v3303 : Ref sig .tc := ⟨.hbm, 3541, rfl⟩
abbrev main_v3304 : Ref sig .tc := ⟨.hbm, 3542, rfl⟩
abbrev main_v3305 : Ref sig .tc := ⟨.hbm, 3543, rfl⟩
abbrev main_v3306 : Ref sig .tc := ⟨.hbm, 3544, rfl⟩
abbrev main_v3307 : Ref sig .tc := ⟨.hbm, 3545, rfl⟩
abbrev main_v3308 : Ref sig .tc := ⟨.hbm, 3546, rfl⟩
abbrev main_v3309 : Ref sig .tc := ⟨.hbm, 3547, rfl⟩
abbrev main_v3310 : Ref sig .tc := ⟨.hbm, 3548, rfl⟩
abbrev main_v3311 : Ref sig .tc := ⟨.hbm, 3549, rfl⟩
abbrev main_v3312 : Ref sig .tc := ⟨.hbm, 3550, rfl⟩
abbrev main_v3313 : Ref sig .tc := ⟨.hbm, 3551, rfl⟩
abbrev main_v3314 : Ref sig .tc := ⟨.hbm, 3552, rfl⟩
abbrev main_cst_212 : Ref sig .tc := ⟨.hbm, 3553, rfl⟩
abbrev main_v3315 : Ref sig .tc := ⟨.hbm, 3554, rfl⟩
abbrev main_v3316 : Ref sig .tc := ⟨.hbm, 3555, rfl⟩
abbrev main_v3317 : Ref sig .tc := ⟨.hbm, 3556, rfl⟩
abbrev main_v3318 : Ref sig .tc := ⟨.hbm, 3557, rfl⟩
abbrev main_v3319 : Ref sig .tc := ⟨.hbm, 3558, rfl⟩
abbrev main_v3320 : Ref sig .tc := ⟨.hbm, 3559, rfl⟩
abbrev main_v3321 : Ref sig .tc := ⟨.hbm, 3560, rfl⟩
abbrev main_v3322 : Ref sig .tc := ⟨.hbm, 3561, rfl⟩
abbrev main_v3323 : Ref sig .tc := ⟨.hbm, 3562, rfl⟩
abbrev main_v3324 : Ref sig .tc := ⟨.hbm, 3563, rfl⟩
abbrev main_v3325 : Ref sig .tc := ⟨.hbm, 3564, rfl⟩
abbrev main_v3326 : Ref sig .tc := ⟨.hbm, 3565, rfl⟩
abbrev main_v3327 : Ref sig .tc := ⟨.hbm, 3566, rfl⟩
abbrev main_v3328 : Ref sig .tc := ⟨.hbm, 3567, rfl⟩
abbrev main_v3329 : Ref sig .tc := ⟨.hbm, 3568, rfl⟩
abbrev main_v3330 : Ref sig .tc := ⟨.hbm, 3569, rfl⟩
abbrev main_v3331 : Ref sig .tc := ⟨.hbm, 3570, rfl⟩
abbrev main_v3332 : Ref sig .tc := ⟨.hbm, 3571, rfl⟩
abbrev main_v3333 : Ref sig .tc := ⟨.hbm, 3572, rfl⟩
abbrev main_v3334 : Ref sig .tc := ⟨.hbm, 3573, rfl⟩
abbrev main_v3335 : Ref sig .tc := ⟨.hbm, 3574, rfl⟩
abbrev main_v3336 : Ref sig .tc := ⟨.hbm, 3575, rfl⟩
abbrev main_v3337 : Ref sig .tc := ⟨.hbm, 3576, rfl⟩
abbrev main_v3338 : Ref sig .tc := ⟨.hbm, 3577, rfl⟩
abbrev main_v3339 : Ref sig .tc := ⟨.hbm, 3578, rfl⟩
abbrev main_v3340 : Ref sig .tc := ⟨.hbm, 3579, rfl⟩
abbrev main_v3341 : Ref sig .tc := ⟨.hbm, 3580, rfl⟩
abbrev main_v3342 : Ref sig .tc := ⟨.hbm, 3581, rfl⟩
abbrev main_v3343 : Ref sig .tc := ⟨.hbm, 3582, rfl⟩
abbrev main_v3344 : Ref sig .tc := ⟨.hbm, 3583, rfl⟩
abbrev main_v3345 : Ref sig .tc := ⟨.hbm, 3584, rfl⟩
abbrev main_v3346 : Ref sig .tc := ⟨.hbm, 3585, rfl⟩
abbrev main_v3347 : Ref sig .tc := ⟨.hbm, 3586, rfl⟩
abbrev main_v3348 : Ref sig .tc := ⟨.hbm, 3587, rfl⟩
abbrev main_v3349 : Ref sig .tc := ⟨.hbm, 3588, rfl⟩
abbrev main_v3350 : Ref sig .tc := ⟨.hbm, 3589, rfl⟩
abbrev main_v3351 : Ref sig .tc := ⟨.hbm, 3590, rfl⟩
abbrev main_v3352 : Ref sig .tc := ⟨.hbm, 3591, rfl⟩
abbrev main_v3353 : Ref sig .tc := ⟨.hbm, 3592, rfl⟩
abbrev main_v3354 : Ref sig .tc := ⟨.hbm, 3593, rfl⟩
abbrev main_cst_213 : Ref sig .tc := ⟨.hbm, 3594, rfl⟩
abbrev main_v3355 : Ref sig .tc := ⟨.hbm, 3595, rfl⟩
abbrev main_v3356 : Ref sig .tc := ⟨.hbm, 3596, rfl⟩
abbrev main_cst_214 : Ref sig .tc := ⟨.hbm, 3597, rfl⟩
abbrev main_v3357 : Ref sig .tc := ⟨.hbm, 3598, rfl⟩
abbrev main_v3358 : Ref sig .tc := ⟨.hbm, 3599, rfl⟩
abbrev main_v3359 : Ref sig .tc := ⟨.hbm, 3600, rfl⟩
abbrev main_v3360 : Ref sig .tc := ⟨.hbm, 3601, rfl⟩
abbrev main_v3361 : Ref sig .tc := ⟨.hbm, 3602, rfl⟩
abbrev main_v3362 : Ref sig .tc := ⟨.hbm, 3603, rfl⟩
abbrev main_v3363 : Ref sig .tc := ⟨.hbm, 3604, rfl⟩
abbrev main_v3364 : Ref sig .tc := ⟨.hbm, 3605, rfl⟩
abbrev main_v3365 : Ref sig .tc := ⟨.hbm, 3606, rfl⟩
abbrev main_v3366 : Ref sig .tc := ⟨.hbm, 3607, rfl⟩
abbrev main_v3367 : Ref sig .tc := ⟨.hbm, 3608, rfl⟩
abbrev main_v3368 : Ref sig .tc := ⟨.hbm, 3609, rfl⟩
abbrev main_v3369 : Ref sig .tc := ⟨.hbm, 3610, rfl⟩
abbrev main_v3370 : Ref sig .tc := ⟨.hbm, 3611, rfl⟩
abbrev main_v3371 : Ref sig .tc := ⟨.hbm, 3612, rfl⟩
abbrev main_v3372 : Ref sig .tc := ⟨.hbm, 3613, rfl⟩
abbrev main_v3373 : Ref sig .tc := ⟨.hbm, 3614, rfl⟩
abbrev main_v3374 : Ref sig .tc := ⟨.hbm, 3615, rfl⟩
abbrev main_v3375 : Ref sig .tc := ⟨.hbm, 3616, rfl⟩
abbrev main_v3376 : Ref sig .tc := ⟨.hbm, 3617, rfl⟩
abbrev main_v3377 : Ref sig .tc := ⟨.hbm, 3618, rfl⟩
abbrev main_v3378 : Ref sig .tc := ⟨.hbm, 3619, rfl⟩
abbrev main_v3379 : Ref sig .tc := ⟨.hbm, 3620, rfl⟩
abbrev main_v3380 : Ref sig .tc := ⟨.hbm, 3621, rfl⟩
abbrev main_v3381 : Ref sig .tc := ⟨.hbm, 3622, rfl⟩
abbrev main_v3382 : Ref sig .tc := ⟨.hbm, 3623, rfl⟩
abbrev main_v3383 : Ref sig .tc := ⟨.hbm, 3624, rfl⟩
abbrev main_v3384 : Ref sig .tc := ⟨.hbm, 3625, rfl⟩
abbrev main_v3385 : Ref sig .tc := ⟨.hbm, 3626, rfl⟩
abbrev main_v3386 : Ref sig .tc := ⟨.hbm, 3627, rfl⟩
abbrev main_v3387 : Ref sig .tc := ⟨.hbm, 3628, rfl⟩
abbrev main_v3388 : Ref sig .tc := ⟨.hbm, 3629, rfl⟩
abbrev main_v3389 : Ref sig .tc := ⟨.hbm, 3630, rfl⟩
abbrev main_v3390 : Ref sig .tc := ⟨.hbm, 3631, rfl⟩
abbrev main_v3391 : Ref sig .tc := ⟨.hbm, 3632, rfl⟩
abbrev main_v3392 : Ref sig .tc := ⟨.hbm, 3633, rfl⟩
abbrev main_cst_215 : Ref sig .tc := ⟨.hbm, 3634, rfl⟩
abbrev main_v3393 : Ref sig .tc := ⟨.hbm, 3635, rfl⟩
abbrev main_v3394 : Ref sig .tc := ⟨.hbm, 3636, rfl⟩
abbrev main_cst_216 : Ref sig .tc := ⟨.hbm, 3637, rfl⟩
abbrev main_v3395 : Ref sig .tc := ⟨.hbm, 3638, rfl⟩
abbrev main_v3396 : Ref sig .tc := ⟨.hbm, 3639, rfl⟩
abbrev main_v3397 : Ref sig .tc := ⟨.hbm, 3640, rfl⟩
abbrev main_v3398 : Ref sig .tc := ⟨.hbm, 3641, rfl⟩
abbrev main_v3399 : Ref sig .tc := ⟨.hbm, 3642, rfl⟩
abbrev main_v3400 : Ref sig .tc := ⟨.hbm, 3643, rfl⟩
abbrev main_v3401 : Ref sig .tc := ⟨.hbm, 3644, rfl⟩
abbrev main_v3402 : Ref sig .tc := ⟨.hbm, 3645, rfl⟩
abbrev main_v3403 : Ref sig .tc := ⟨.hbm, 3646, rfl⟩
abbrev main_v3404 : Ref sig .tc := ⟨.hbm, 3647, rfl⟩
abbrev main_v3405 : Ref sig .tc := ⟨.hbm, 3648, rfl⟩
abbrev main_v3406 : Ref sig .tc := ⟨.hbm, 3649, rfl⟩
abbrev main_v3407 : Ref sig .tc := ⟨.hbm, 3650, rfl⟩
abbrev main_v3408 : Ref sig .tc := ⟨.hbm, 3651, rfl⟩
abbrev main_v3409 : Ref sig .tc := ⟨.hbm, 3652, rfl⟩
abbrev main_v3410 : Ref sig .tc := ⟨.hbm, 3653, rfl⟩
abbrev main_v3411 : Ref sig .tc := ⟨.hbm, 3654, rfl⟩
abbrev main_v3412 : Ref sig .tc := ⟨.hbm, 3655, rfl⟩
abbrev main_v3413 : Ref sig .tc := ⟨.hbm, 3656, rfl⟩
abbrev main_v3414 : Ref sig .tc := ⟨.hbm, 3657, rfl⟩
abbrev main_v3415 : Ref sig .tc := ⟨.hbm, 3658, rfl⟩
abbrev main_v3416 : Ref sig .tc := ⟨.hbm, 3659, rfl⟩
abbrev main_v3417 : Ref sig .tc := ⟨.hbm, 3660, rfl⟩
abbrev main_v3418 : Ref sig .tc := ⟨.hbm, 3661, rfl⟩
abbrev main_v3419 : Ref sig .tc := ⟨.hbm, 3662, rfl⟩
abbrev main_cst_217 : Ref sig .tc := ⟨.hbm, 3663, rfl⟩
abbrev main_v3420 : Ref sig .tc := ⟨.hbm, 3664, rfl⟩
abbrev main_v3421 : Ref sig .tc := ⟨.hbm, 3665, rfl⟩
abbrev main_cst_218 : Ref sig .tc := ⟨.hbm, 3666, rfl⟩
abbrev main_v3422 : Ref sig .tc := ⟨.hbm, 3667, rfl⟩
abbrev main_v3423 : Ref sig .tc := ⟨.hbm, 3668, rfl⟩
abbrev main_v3424 : Ref sig .tc := ⟨.hbm, 3669, rfl⟩
abbrev main_v3425 : Ref sig .tc := ⟨.hbm, 3670, rfl⟩
abbrev main_v3426 : Ref sig .tc := ⟨.hbm, 3671, rfl⟩
abbrev main_v3427 : Ref sig .tc := ⟨.hbm, 3672, rfl⟩
abbrev main_v3428 : Ref sig .tc := ⟨.hbm, 3673, rfl⟩
abbrev main_v3429 : Ref sig .tc := ⟨.hbm, 3674, rfl⟩
abbrev main_v3430 : Ref sig .tc := ⟨.hbm, 3675, rfl⟩
abbrev main_v3431 : Ref sig .tc := ⟨.hbm, 3676, rfl⟩
abbrev main_v3432 : Ref sig .tc := ⟨.hbm, 3677, rfl⟩
abbrev main_v3433 : Ref sig .tc := ⟨.hbm, 3678, rfl⟩
abbrev main_v3434 : Ref sig .tc := ⟨.hbm, 3679, rfl⟩
abbrev main_v3435 : Ref sig .tc := ⟨.hbm, 3680, rfl⟩
abbrev main_v3436 : Ref sig .tc := ⟨.hbm, 3681, rfl⟩
abbrev main_v3437 : Ref sig .tc := ⟨.hbm, 3682, rfl⟩
abbrev main_v3438 : Ref sig .tc := ⟨.hbm, 3683, rfl⟩
abbrev main_v3439 : Ref sig .tc := ⟨.hbm, 3684, rfl⟩
abbrev main_v3440 : Ref sig .tc := ⟨.hbm, 3685, rfl⟩
abbrev main_v3441 : Ref sig .tc := ⟨.hbm, 3686, rfl⟩
abbrev main_v3442 : Ref sig .tc := ⟨.hbm, 3687, rfl⟩
abbrev main_v3443 : Ref sig .tc := ⟨.hbm, 3688, rfl⟩
abbrev main_v3444 : Ref sig .tc := ⟨.hbm, 3689, rfl⟩
abbrev main_cst_219 : Ref sig .tc := ⟨.hbm, 3690, rfl⟩
abbrev main_v3445 : Ref sig .tc := ⟨.hbm, 3691, rfl⟩
abbrev main_v3446 : Ref sig .tc := ⟨.hbm, 3692, rfl⟩
abbrev main_cst_220 : Ref sig .tc := ⟨.hbm, 3693, rfl⟩
abbrev main_v3447 : Ref sig .tc := ⟨.hbm, 3694, rfl⟩
abbrev main_v3448 : Ref sig .tc := ⟨.hbm, 3695, rfl⟩
abbrev main_v3449 : Ref sig .tc := ⟨.hbm, 3696, rfl⟩
abbrev main_v3450 : Ref sig .tc := ⟨.hbm, 3697, rfl⟩
abbrev main_v3451 : Ref sig .tc := ⟨.hbm, 3698, rfl⟩
abbrev main_v3452 : Ref sig .tc := ⟨.hbm, 3699, rfl⟩
abbrev main_v3453 : Ref sig .tc := ⟨.hbm, 3700, rfl⟩
abbrev main_v3454 : Ref sig .tc := ⟨.hbm, 3701, rfl⟩
abbrev main_v3455 : Ref sig .tc := ⟨.hbm, 3702, rfl⟩
abbrev main_v3456 : Ref sig .tc := ⟨.hbm, 3703, rfl⟩
abbrev main_v3457 : Ref sig .tc := ⟨.hbm, 3704, rfl⟩
abbrev main_v3458 : Ref sig .tc := ⟨.hbm, 3705, rfl⟩
abbrev main_v3459 : Ref sig .tc := ⟨.hbm, 3706, rfl⟩
abbrev main_v3460 : Ref sig .tc := ⟨.hbm, 3707, rfl⟩
abbrev main_v3461 : Ref sig .tc := ⟨.hbm, 3708, rfl⟩
abbrev main_cst_221 : Ref sig .tc := ⟨.hbm, 3709, rfl⟩
abbrev main_v3462 : Ref sig .tc := ⟨.hbm, 3710, rfl⟩
abbrev main_v3463 : Ref sig .tc := ⟨.hbm, 3711, rfl⟩
abbrev main_v3464 : Ref sig .tc := ⟨.hbm, 3712, rfl⟩
abbrev main_v3465 : Ref sig .tc := ⟨.hbm, 3713, rfl⟩
abbrev main_v3466 : Ref sig .tc := ⟨.hbm, 3714, rfl⟩
abbrev main_v3467 : Ref sig .tc := ⟨.hbm, 3715, rfl⟩
abbrev main_v3468 : Ref sig .tc := ⟨.hbm, 3716, rfl⟩
abbrev main_v3469 : Ref sig .tc := ⟨.hbm, 3717, rfl⟩
abbrev main_v3470 : Ref sig .tc := ⟨.hbm, 3718, rfl⟩
abbrev main_v3471 : Ref sig .tc := ⟨.hbm, 3719, rfl⟩
abbrev main_v3472 : Ref sig .tc := ⟨.hbm, 3720, rfl⟩
abbrev main_v3473 : Ref sig .tc := ⟨.hbm, 3721, rfl⟩
abbrev main_v3474 : Ref sig .tc := ⟨.hbm, 3722, rfl⟩
abbrev main_v3475 : Ref sig .tc := ⟨.hbm, 3723, rfl⟩
abbrev main_v3476 : Ref sig .tc := ⟨.hbm, 3724, rfl⟩
abbrev main_v3477 : Ref sig .tc := ⟨.hbm, 3725, rfl⟩
abbrev main_v3478 : Ref sig .tc := ⟨.hbm, 3726, rfl⟩
abbrev main_v3479 : Ref sig .tc := ⟨.hbm, 3727, rfl⟩
abbrev main_v3480 : Ref sig .tc := ⟨.hbm, 3728, rfl⟩
abbrev main_v3481 : Ref sig .tc := ⟨.hbm, 3729, rfl⟩
abbrev main_v3482 : Ref sig .tc := ⟨.hbm, 3730, rfl⟩
abbrev main_v3483 : Ref sig .tc := ⟨.hbm, 3731, rfl⟩
abbrev main_v3484 : Ref sig .tc := ⟨.hbm, 3732, rfl⟩
abbrev main_v3485 : Ref sig .tc := ⟨.hbm, 3733, rfl⟩
abbrev main_v3486 : Ref sig .tc := ⟨.hbm, 3734, rfl⟩
abbrev main_v3487 : Ref sig .tc := ⟨.hbm, 3735, rfl⟩
abbrev main_v3488 : Ref sig .tc := ⟨.hbm, 3736, rfl⟩
abbrev main_v3489 : Ref sig .tc := ⟨.hbm, 3737, rfl⟩
abbrev main_v3490 : Ref sig .tc := ⟨.hbm, 3738, rfl⟩
abbrev main_v3491 : Ref sig .tc := ⟨.hbm, 3739, rfl⟩
abbrev main_v3492 : Ref sig .tc := ⟨.hbm, 3740, rfl⟩
abbrev main_v3493 : Ref sig .tc := ⟨.hbm, 3741, rfl⟩
abbrev main_v3494 : Ref sig .tc := ⟨.hbm, 3742, rfl⟩
abbrev main_v3495 : Ref sig .tc := ⟨.hbm, 3743, rfl⟩
abbrev main_v3496 : Ref sig .tc := ⟨.hbm, 3744, rfl⟩
abbrev main_v3497 : Ref sig .tc := ⟨.hbm, 3745, rfl⟩
abbrev main_v3498 : Ref sig .tc := ⟨.hbm, 3746, rfl⟩
abbrev main_v3499 : Ref sig .tc := ⟨.hbm, 3747, rfl⟩
abbrev main_v3500 : Ref sig .tc := ⟨.hbm, 3748, rfl⟩
abbrev main_v3501 : Ref sig .tc := ⟨.hbm, 3749, rfl⟩
abbrev main_cst_222 : Ref sig .tc := ⟨.hbm, 3750, rfl⟩
abbrev main_v3502 : Ref sig .tc := ⟨.hbm, 3751, rfl⟩
abbrev main_v3503 : Ref sig .tc := ⟨.hbm, 3752, rfl⟩
abbrev main_cst_223 : Ref sig .tc := ⟨.hbm, 3753, rfl⟩
abbrev main_v3504 : Ref sig .tc := ⟨.hbm, 3754, rfl⟩
abbrev main_v3505 : Ref sig .tc := ⟨.hbm, 3755, rfl⟩
abbrev main_v3506 : Ref sig .tc := ⟨.hbm, 3756, rfl⟩
abbrev main_v3507 : Ref sig .tc := ⟨.hbm, 3757, rfl⟩
abbrev main_v3508 : Ref sig .tc := ⟨.hbm, 3758, rfl⟩
abbrev main_v3509 : Ref sig .tc := ⟨.hbm, 3759, rfl⟩
abbrev main_v3510 : Ref sig .tc := ⟨.hbm, 3760, rfl⟩
abbrev main_v3511 : Ref sig .tc := ⟨.hbm, 3761, rfl⟩
abbrev main_v3512 : Ref sig .tc := ⟨.hbm, 3762, rfl⟩
abbrev main_v3513 : Ref sig .tc := ⟨.hbm, 3763, rfl⟩
abbrev main_v3514 : Ref sig .tc := ⟨.hbm, 3764, rfl⟩
abbrev main_v3515 : Ref sig .tc := ⟨.hbm, 3765, rfl⟩
abbrev main_v3516 : Ref sig .tc := ⟨.hbm, 3766, rfl⟩
abbrev main_v3517 : Ref sig .tc := ⟨.hbm, 3767, rfl⟩
abbrev main_v3518 : Ref sig .tc := ⟨.hbm, 3768, rfl⟩
abbrev main_v3519 : Ref sig .tc := ⟨.hbm, 3769, rfl⟩
abbrev main_v3520 : Ref sig .tc := ⟨.hbm, 3770, rfl⟩
abbrev main_v3521 : Ref sig .tc := ⟨.hbm, 3771, rfl⟩
abbrev main_v3522 : Ref sig .tc := ⟨.hbm, 3772, rfl⟩
abbrev main_v3523 : Ref sig .tc := ⟨.hbm, 3773, rfl⟩
abbrev main_v3524 : Ref sig .tc := ⟨.hbm, 3774, rfl⟩
abbrev main_v3525 : Ref sig .tc := ⟨.hbm, 3775, rfl⟩
abbrev main_v3526 : Ref sig .tc := ⟨.hbm, 3776, rfl⟩
abbrev main_v3527 : Ref sig .tc := ⟨.hbm, 3777, rfl⟩
abbrev main_v3528 : Ref sig .tc := ⟨.hbm, 3778, rfl⟩
abbrev main_v3529 : Ref sig .tc := ⟨.hbm, 3779, rfl⟩
abbrev main_cst_224 : Ref sig .tc := ⟨.hbm, 3780, rfl⟩
abbrev main_v3530 : Ref sig .tc := ⟨.hbm, 3781, rfl⟩
abbrev main_v3531 : Ref sig .tc := ⟨.hbm, 3782, rfl⟩
abbrev main_cst_225 : Ref sig .tc := ⟨.hbm, 3783, rfl⟩
abbrev main_v3532 : Ref sig .tc := ⟨.hbm, 3784, rfl⟩
abbrev main_v3533 : Ref sig .tc := ⟨.hbm, 3785, rfl⟩
abbrev main_v3534 : Ref sig .tc := ⟨.hbm, 3786, rfl⟩
abbrev main_v3535 : Ref sig .tc := ⟨.hbm, 3787, rfl⟩
abbrev main_v3536 : Ref sig .tc := ⟨.hbm, 3788, rfl⟩
abbrev main_v3537 : Ref sig .tc := ⟨.hbm, 3789, rfl⟩
abbrev main_v3538 : Ref sig .tc := ⟨.hbm, 3790, rfl⟩
abbrev main_v3539 : Ref sig .tc := ⟨.hbm, 3791, rfl⟩
abbrev main_v3540 : Ref sig .tc := ⟨.hbm, 3792, rfl⟩
abbrev main_v3541 : Ref sig .tc := ⟨.hbm, 3793, rfl⟩
abbrev main_v3542 : Ref sig .tc := ⟨.hbm, 3794, rfl⟩
abbrev main_v3543 : Ref sig .tc := ⟨.hbm, 3795, rfl⟩
abbrev main_v3544 : Ref sig .tc := ⟨.hbm, 3796, rfl⟩
abbrev main_v3545 : Ref sig .tc := ⟨.hbm, 3797, rfl⟩
abbrev main_v3546 : Ref sig .tc := ⟨.hbm, 3798, rfl⟩
abbrev main_v3547 : Ref sig .tc := ⟨.hbm, 3799, rfl⟩
abbrev main_v3548 : Ref sig .tc := ⟨.hbm, 3800, rfl⟩
abbrev main_v3549 : Ref sig .tc := ⟨.hbm, 3801, rfl⟩
abbrev main_v3550 : Ref sig .tc := ⟨.hbm, 3802, rfl⟩
abbrev main_v3551 : Ref sig .tc := ⟨.hbm, 3803, rfl⟩
abbrev main_v3552 : Ref sig .tc := ⟨.hbm, 3804, rfl⟩
abbrev main_v3553 : Ref sig .tc := ⟨.hbm, 3805, rfl⟩
abbrev main_v3554 : Ref sig .tc := ⟨.hbm, 3806, rfl⟩
abbrev main_v3555 : Ref sig .tc := ⟨.hbm, 3807, rfl⟩
abbrev main_v3556 : Ref sig .tc := ⟨.hbm, 3808, rfl⟩
abbrev main_cst_226 : Ref sig .tc := ⟨.hbm, 3809, rfl⟩
abbrev main_v3557 : Ref sig .tc := ⟨.hbm, 3810, rfl⟩
abbrev main_v3558 : Ref sig .tc := ⟨.hbm, 3811, rfl⟩
abbrev main_cst_227 : Ref sig .tc := ⟨.hbm, 3812, rfl⟩
abbrev main_v3559 : Ref sig .tc := ⟨.hbm, 3813, rfl⟩
abbrev main_v3560 : Ref sig .tc := ⟨.hbm, 3814, rfl⟩
abbrev main_v3561 : Ref sig .tc := ⟨.hbm, 3815, rfl⟩
abbrev main_v3562 : Ref sig .tc := ⟨.hbm, 3816, rfl⟩
abbrev main_v3563 : Ref sig .tc := ⟨.hbm, 3817, rfl⟩
abbrev main_v3564 : Ref sig .tc := ⟨.hbm, 3818, rfl⟩
abbrev main_v3565 : Ref sig .tc := ⟨.hbm, 3819, rfl⟩
abbrev main_v3566 : Ref sig .tc := ⟨.hbm, 3820, rfl⟩
abbrev main_v3567 : Ref sig .tc := ⟨.hbm, 3821, rfl⟩
abbrev main_v3568 : Ref sig .tc := ⟨.hbm, 3822, rfl⟩
abbrev main_v3569 : Ref sig .tc := ⟨.hbm, 3823, rfl⟩
abbrev main_v3570 : Ref sig .tc := ⟨.hbm, 3824, rfl⟩
abbrev main_v3571 : Ref sig .tc := ⟨.hbm, 3825, rfl⟩
abbrev main_v3572 : Ref sig .tc := ⟨.hbm, 3826, rfl⟩
abbrev main_v3573 : Ref sig .tc := ⟨.hbm, 3827, rfl⟩
abbrev main_v3574 : Ref sig .tc := ⟨.hbm, 3828, rfl⟩
abbrev main_v3575 : Ref sig .tc := ⟨.hbm, 3829, rfl⟩
abbrev main_v3576 : Ref sig .tc := ⟨.hbm, 3830, rfl⟩
abbrev main_v3577 : Ref sig .tc := ⟨.hbm, 3831, rfl⟩
abbrev main_v3578 : Ref sig .tc := ⟨.hbm, 3832, rfl⟩
abbrev main_v3579 : Ref sig .tc := ⟨.hbm, 3833, rfl⟩
abbrev main_v3580 : Ref sig .tc := ⟨.hbm, 3834, rfl⟩
abbrev main_v3581 : Ref sig .tc := ⟨.hbm, 3835, rfl⟩
abbrev main_cst_228 : Ref sig .tc := ⟨.hbm, 3836, rfl⟩
abbrev main_v3582 : Ref sig .tc := ⟨.hbm, 3837, rfl⟩
abbrev main_v3583 : Ref sig .tc := ⟨.hbm, 3838, rfl⟩
abbrev main_cst_229 : Ref sig .tc := ⟨.hbm, 3839, rfl⟩
abbrev main_v3584 : Ref sig .tc := ⟨.hbm, 3840, rfl⟩
abbrev main_v3585 : Ref sig .tc := ⟨.hbm, 3841, rfl⟩
abbrev main_v3586 : Ref sig .tc := ⟨.hbm, 3842, rfl⟩
abbrev main_v3587 : Ref sig .tc := ⟨.hbm, 3843, rfl⟩
abbrev main_v3588 : Ref sig .tc := ⟨.hbm, 3844, rfl⟩
abbrev main_v3589 : Ref sig .tc := ⟨.hbm, 3845, rfl⟩
abbrev main_v3590 : Ref sig .tc := ⟨.hbm, 3846, rfl⟩
abbrev main_v3591 : Ref sig .tc := ⟨.hbm, 3847, rfl⟩
abbrev main_v3592 : Ref sig .tc := ⟨.hbm, 3848, rfl⟩
abbrev main_v3593 : Ref sig .tc := ⟨.hbm, 3849, rfl⟩
abbrev main_v3594 : Ref sig .tc := ⟨.hbm, 3850, rfl⟩
abbrev main_v3595 : Ref sig .tc := ⟨.hbm, 3851, rfl⟩
abbrev main_v3596 : Ref sig .tc := ⟨.hbm, 3852, rfl⟩
abbrev main_v3597 : Ref sig .tc := ⟨.hbm, 3853, rfl⟩
abbrev main_v3598 : Ref sig .tc := ⟨.hbm, 3854, rfl⟩
abbrev main_cst_230 : Ref sig .tc := ⟨.hbm, 3855, rfl⟩
abbrev main_v3599 : Ref sig .tc := ⟨.hbm, 3856, rfl⟩
abbrev main_v3600 : Ref sig .tc := ⟨.hbm, 3857, rfl⟩
abbrev main_v3601 : Ref sig .tc := ⟨.hbm, 3858, rfl⟩
abbrev main_v3602 : Ref sig .tc := ⟨.hbm, 3859, rfl⟩
abbrev main_v3603 : Ref sig .tc := ⟨.hbm, 3860, rfl⟩
abbrev main_v3604 : Ref sig .tc := ⟨.hbm, 3861, rfl⟩
abbrev main_v3605 : Ref sig .tc := ⟨.hbm, 3862, rfl⟩
abbrev main_v3606 : Ref sig .tc := ⟨.hbm, 3863, rfl⟩
abbrev main_v3607 : Ref sig .tc := ⟨.hbm, 3864, rfl⟩
abbrev main_v3608 : Ref sig .tc := ⟨.hbm, 3865, rfl⟩
abbrev main_v3609 : Ref sig .tc := ⟨.hbm, 3866, rfl⟩
abbrev main_v3610 : Ref sig .tc := ⟨.hbm, 3867, rfl⟩
abbrev main_v3611 : Ref sig .tc := ⟨.hbm, 3868, rfl⟩
abbrev main_v3612 : Ref sig .tc := ⟨.hbm, 3869, rfl⟩
abbrev main_v3613 : Ref sig .tc := ⟨.hbm, 3870, rfl⟩
abbrev main_v3614 : Ref sig .tc := ⟨.hbm, 3871, rfl⟩
abbrev main_v3615 : Ref sig .tc := ⟨.hbm, 3872, rfl⟩
abbrev main_v3616 : Ref sig .tc := ⟨.hbm, 3873, rfl⟩
abbrev main_v3617 : Ref sig .tc := ⟨.hbm, 3874, rfl⟩
abbrev main_v3618 : Ref sig .tc := ⟨.hbm, 3875, rfl⟩
abbrev main_v3619 : Ref sig .tc := ⟨.hbm, 3876, rfl⟩
abbrev main_v3620 : Ref sig .tc := ⟨.hbm, 3877, rfl⟩
abbrev main_v3621 : Ref sig .tc := ⟨.hbm, 3878, rfl⟩
abbrev main_v3622 : Ref sig .tc := ⟨.hbm, 3879, rfl⟩
abbrev main_v3623 : Ref sig .tc := ⟨.hbm, 3880, rfl⟩
abbrev main_v3624 : Ref sig .tc := ⟨.hbm, 3881, rfl⟩
abbrev main_v3625 : Ref sig .tc := ⟨.hbm, 3882, rfl⟩
abbrev main_v3626 : Ref sig .tc := ⟨.hbm, 3883, rfl⟩
abbrev main_v3627 : Ref sig .tc := ⟨.hbm, 3884, rfl⟩
abbrev main_v3628 : Ref sig .tc := ⟨.hbm, 3885, rfl⟩
abbrev main_v3629 : Ref sig .tc := ⟨.hbm, 3886, rfl⟩
abbrev main_v3630 : Ref sig .tc := ⟨.hbm, 3887, rfl⟩
abbrev main_v3631 : Ref sig .tc := ⟨.hbm, 3888, rfl⟩
abbrev main_v3632 : Ref sig .tc := ⟨.hbm, 3889, rfl⟩
abbrev main_v3633 : Ref sig .tc := ⟨.hbm, 3890, rfl⟩
abbrev main_v3634 : Ref sig .tc := ⟨.hbm, 3891, rfl⟩
abbrev main_v3635 : Ref sig .tc := ⟨.hbm, 3892, rfl⟩
abbrev main_v3636 : Ref sig .tc := ⟨.hbm, 3893, rfl⟩
abbrev main_v3637 : Ref sig .tc := ⟨.hbm, 3894, rfl⟩
abbrev main_v3638 : Ref sig .tc := ⟨.hbm, 3895, rfl⟩
abbrev main_cst_231 : Ref sig .tc := ⟨.hbm, 3896, rfl⟩
abbrev main_v3639 : Ref sig .tc := ⟨.hbm, 3897, rfl⟩
abbrev main_v3640 : Ref sig .tc := ⟨.hbm, 3898, rfl⟩
abbrev main_cst_232 : Ref sig .tc := ⟨.hbm, 3899, rfl⟩
abbrev main_v3641 : Ref sig .tc := ⟨.hbm, 3900, rfl⟩
abbrev main_v3642 : Ref sig .tc := ⟨.hbm, 3901, rfl⟩
abbrev main_v3643 : Ref sig .tc := ⟨.hbm, 3902, rfl⟩
abbrev main_v3644 : Ref sig .tc := ⟨.hbm, 3903, rfl⟩
abbrev main_v3645 : Ref sig .tc := ⟨.hbm, 3904, rfl⟩
abbrev main_v3646 : Ref sig .tc := ⟨.hbm, 3905, rfl⟩
abbrev main_v3647 : Ref sig .tc := ⟨.hbm, 3906, rfl⟩
abbrev main_v3648 : Ref sig .tc := ⟨.hbm, 3907, rfl⟩
abbrev main_v3649 : Ref sig .tc := ⟨.hbm, 3908, rfl⟩
abbrev main_v3650 : Ref sig .tc := ⟨.hbm, 3909, rfl⟩
abbrev main_v3651 : Ref sig .tc := ⟨.hbm, 3910, rfl⟩
abbrev main_v3652 : Ref sig .tc := ⟨.hbm, 3911, rfl⟩
abbrev main_v3653 : Ref sig .tc := ⟨.hbm, 3912, rfl⟩
abbrev main_v3654 : Ref sig .tc := ⟨.hbm, 3913, rfl⟩
abbrev main_v3655 : Ref sig .tc := ⟨.hbm, 3914, rfl⟩
abbrev main_v3656 : Ref sig .tc := ⟨.hbm, 3915, rfl⟩
abbrev main_v3657 : Ref sig .tc := ⟨.hbm, 3916, rfl⟩
abbrev main_v3658 : Ref sig .tc := ⟨.hbm, 3917, rfl⟩
abbrev main_v3659 : Ref sig .tc := ⟨.hbm, 3918, rfl⟩
abbrev main_v3660 : Ref sig .tc := ⟨.hbm, 3919, rfl⟩
abbrev main_v3661 : Ref sig .tc := ⟨.hbm, 3920, rfl⟩
abbrev main_v3662 : Ref sig .tc := ⟨.hbm, 3921, rfl⟩
abbrev main_v3663 : Ref sig .tc := ⟨.hbm, 3922, rfl⟩
abbrev main_v3664 : Ref sig .tc := ⟨.hbm, 3923, rfl⟩
abbrev main_v3665 : Ref sig .tc := ⟨.hbm, 3924, rfl⟩
abbrev main_v3666 : Ref sig .tc := ⟨.hbm, 3925, rfl⟩
abbrev main_cst_233 : Ref sig .tc := ⟨.hbm, 3926, rfl⟩
abbrev main_v3667 : Ref sig .tc := ⟨.hbm, 3927, rfl⟩
abbrev main_v3668 : Ref sig .tc := ⟨.hbm, 3928, rfl⟩
abbrev main_cst_234 : Ref sig .tc := ⟨.hbm, 3929, rfl⟩
abbrev main_v3669 : Ref sig .tc := ⟨.hbm, 3930, rfl⟩
abbrev main_v3670 : Ref sig .tc := ⟨.hbm, 3931, rfl⟩
abbrev main_v3671 : Ref sig .tc := ⟨.hbm, 3932, rfl⟩
abbrev main_v3672 : Ref sig .tc := ⟨.hbm, 3933, rfl⟩
abbrev main_v3673 : Ref sig .tc := ⟨.hbm, 3934, rfl⟩
abbrev main_v3674 : Ref sig .tc := ⟨.hbm, 3935, rfl⟩
abbrev main_v3675 : Ref sig .tc := ⟨.hbm, 3936, rfl⟩
abbrev main_v3676 : Ref sig .tc := ⟨.hbm, 3937, rfl⟩
abbrev main_v3677 : Ref sig .tc := ⟨.hbm, 3938, rfl⟩
abbrev main_v3678 : Ref sig .tc := ⟨.hbm, 3939, rfl⟩
abbrev main_v3679 : Ref sig .tc := ⟨.hbm, 3940, rfl⟩
abbrev main_v3680 : Ref sig .tc := ⟨.hbm, 3941, rfl⟩
abbrev main_v3681 : Ref sig .tc := ⟨.hbm, 3942, rfl⟩
abbrev main_v3682 : Ref sig .tc := ⟨.hbm, 3943, rfl⟩
abbrev main_v3683 : Ref sig .tc := ⟨.hbm, 3944, rfl⟩
abbrev main_v3684 : Ref sig .tc := ⟨.hbm, 3945, rfl⟩
abbrev main_v3685 : Ref sig .tc := ⟨.hbm, 3946, rfl⟩
abbrev main_v3686 : Ref sig .tc := ⟨.hbm, 3947, rfl⟩
abbrev main_v3687 : Ref sig .tc := ⟨.hbm, 3948, rfl⟩
abbrev main_v3688 : Ref sig .tc := ⟨.hbm, 3949, rfl⟩
abbrev main_v3689 : Ref sig .tc := ⟨.hbm, 3950, rfl⟩
abbrev main_v3690 : Ref sig .tc := ⟨.hbm, 3951, rfl⟩
abbrev main_v3691 : Ref sig .tc := ⟨.hbm, 3952, rfl⟩
abbrev main_v3692 : Ref sig .tc := ⟨.hbm, 3953, rfl⟩
abbrev main_v3693 : Ref sig .tc := ⟨.hbm, 3954, rfl⟩
abbrev main_cst_235 : Ref sig .tc := ⟨.hbm, 3955, rfl⟩
abbrev main_v3694 : Ref sig .tc := ⟨.hbm, 3956, rfl⟩
abbrev main_v3695 : Ref sig .tc := ⟨.hbm, 3957, rfl⟩
abbrev main_cst_236 : Ref sig .tc := ⟨.hbm, 3958, rfl⟩
abbrev main_v3696 : Ref sig .tc := ⟨.hbm, 3959, rfl⟩
abbrev main_v3697 : Ref sig .tc := ⟨.hbm, 3960, rfl⟩
abbrev main_v3698 : Ref sig .tc := ⟨.hbm, 3961, rfl⟩
abbrev main_v3699 : Ref sig .tc := ⟨.hbm, 3962, rfl⟩
abbrev main_v3700 : Ref sig .tc := ⟨.hbm, 3963, rfl⟩
abbrev main_v3701 : Ref sig .tc := ⟨.hbm, 3964, rfl⟩
abbrev main_v3702 : Ref sig .tc := ⟨.hbm, 3965, rfl⟩
abbrev main_v3703 : Ref sig .tc := ⟨.hbm, 3966, rfl⟩
abbrev main_v3704 : Ref sig .tc := ⟨.hbm, 3967, rfl⟩
abbrev main_v3705 : Ref sig .tc := ⟨.hbm, 3968, rfl⟩
abbrev main_v3706 : Ref sig .tc := ⟨.hbm, 3969, rfl⟩
abbrev main_v3707 : Ref sig .tc := ⟨.hbm, 3970, rfl⟩
abbrev main_v3708 : Ref sig .tc := ⟨.hbm, 3971, rfl⟩
abbrev main_v3709 : Ref sig .tc := ⟨.hbm, 3972, rfl⟩
abbrev main_v3710 : Ref sig .tc := ⟨.hbm, 3973, rfl⟩
abbrev main_v3711 : Ref sig .tc := ⟨.hbm, 3974, rfl⟩
abbrev main_v3712 : Ref sig .tc := ⟨.hbm, 3975, rfl⟩
abbrev main_v3713 : Ref sig .tc := ⟨.hbm, 3976, rfl⟩
abbrev main_v3714 : Ref sig .tc := ⟨.hbm, 3977, rfl⟩
abbrev main_v3715 : Ref sig .tc := ⟨.hbm, 3978, rfl⟩
abbrev main_v3716 : Ref sig .tc := ⟨.hbm, 3979, rfl⟩
abbrev main_v3717 : Ref sig .tc := ⟨.hbm, 3980, rfl⟩
abbrev main_v3718 : Ref sig .tc := ⟨.hbm, 3981, rfl⟩
abbrev main_cst_237 : Ref sig .tc := ⟨.hbm, 3982, rfl⟩
abbrev main_v3719 : Ref sig .tc := ⟨.hbm, 3983, rfl⟩
abbrev main_v3720 : Ref sig .tc := ⟨.hbm, 3984, rfl⟩
abbrev main_cst_238 : Ref sig .tc := ⟨.hbm, 3985, rfl⟩
abbrev main_v3721 : Ref sig .tc := ⟨.hbm, 3986, rfl⟩
abbrev main_v3722 : Ref sig .tc := ⟨.hbm, 3987, rfl⟩
abbrev main_v3723 : Ref sig .tc := ⟨.hbm, 3988, rfl⟩
abbrev main_v3724 : Ref sig .tc := ⟨.hbm, 3989, rfl⟩
abbrev main_v3725 : Ref sig .tc := ⟨.hbm, 3990, rfl⟩
abbrev main_v3726 : Ref sig .tc := ⟨.hbm, 3991, rfl⟩
abbrev main_v3727 : Ref sig .tc := ⟨.hbm, 3992, rfl⟩
abbrev main_v3728 : Ref sig .tc := ⟨.hbm, 3993, rfl⟩
abbrev main_v3729 : Ref sig .tc := ⟨.hbm, 3994, rfl⟩
abbrev main_v3730 : Ref sig .tc := ⟨.hbm, 3995, rfl⟩
abbrev main_v3731 : Ref sig .tc := ⟨.hbm, 3996, rfl⟩
abbrev main_v3732 : Ref sig .tc := ⟨.hbm, 3997, rfl⟩
abbrev main_v3733 : Ref sig .tc := ⟨.hbm, 3998, rfl⟩
abbrev main_v3734 : Ref sig .tc := ⟨.hbm, 3999, rfl⟩
abbrev main_v3735 : Ref sig .tc := ⟨.hbm, 4000, rfl⟩
abbrev main_cst_239 : Ref sig .tc := ⟨.hbm, 4001, rfl⟩
abbrev main_v3736 : Ref sig .tc := ⟨.hbm, 4002, rfl⟩
abbrev main_v3737 : Ref sig .tc := ⟨.hbm, 4003, rfl⟩
abbrev main_v3738 : Ref sig .tc := ⟨.hbm, 4004, rfl⟩
abbrev main_v3739 : Ref sig .tc := ⟨.hbm, 4005, rfl⟩
abbrev main_v3740 : Ref sig .tc := ⟨.hbm, 4006, rfl⟩
abbrev main_v3741 : Ref sig .tc := ⟨.hbm, 4007, rfl⟩
abbrev main_v3742 : Ref sig .tc := ⟨.hbm, 4008, rfl⟩
abbrev main_v3743 : Ref sig .tc := ⟨.hbm, 4009, rfl⟩
abbrev main_v3744 : Ref sig .tc := ⟨.hbm, 4010, rfl⟩
abbrev main_v3745 : Ref sig .tc := ⟨.hbm, 4011, rfl⟩
abbrev main_v3746 : Ref sig .tc := ⟨.hbm, 4012, rfl⟩
abbrev main_v3747 : Ref sig .tc := ⟨.hbm, 4013, rfl⟩
abbrev main_v3748 : Ref sig .tc := ⟨.hbm, 4014, rfl⟩
abbrev main_v3749 : Ref sig .tc := ⟨.hbm, 4015, rfl⟩
abbrev main_v3750 : Ref sig .tc := ⟨.hbm, 4016, rfl⟩
abbrev main_v3751 : Ref sig .tc := ⟨.hbm, 4017, rfl⟩
abbrev main_v3752 : Ref sig .tc := ⟨.hbm, 4018, rfl⟩
abbrev main_v3753 : Ref sig .tc := ⟨.hbm, 4019, rfl⟩
abbrev main_v3754 : Ref sig .tc := ⟨.hbm, 4020, rfl⟩
abbrev main_v3755 : Ref sig .tc := ⟨.hbm, 4021, rfl⟩
abbrev main_v3756 : Ref sig .tc := ⟨.hbm, 4022, rfl⟩
abbrev main_v3757 : Ref sig .tc := ⟨.hbm, 4023, rfl⟩
abbrev main_v3758 : Ref sig .tc := ⟨.hbm, 4024, rfl⟩
abbrev main_v3759 : Ref sig .tc := ⟨.hbm, 4025, rfl⟩
abbrev main_v3760 : Ref sig .tc := ⟨.hbm, 4026, rfl⟩
abbrev main_v3761 : Ref sig .tc := ⟨.hbm, 4027, rfl⟩
abbrev main_v3762 : Ref sig .tc := ⟨.hbm, 4028, rfl⟩
abbrev main_v3763 : Ref sig .tc := ⟨.hbm, 4029, rfl⟩
abbrev main_v3764 : Ref sig .tc := ⟨.hbm, 4030, rfl⟩
abbrev main_v3765 : Ref sig .tc := ⟨.hbm, 4031, rfl⟩
abbrev main_v3766 : Ref sig .tc := ⟨.hbm, 4032, rfl⟩
abbrev main_v3767 : Ref sig .tc := ⟨.hbm, 4033, rfl⟩
abbrev main_v3768 : Ref sig .tc := ⟨.hbm, 4034, rfl⟩
abbrev main_v3769 : Ref sig .tc := ⟨.hbm, 4035, rfl⟩
abbrev main_v3770 : Ref sig .tc := ⟨.hbm, 4036, rfl⟩
abbrev main_v3771 : Ref sig .tc := ⟨.hbm, 4037, rfl⟩
abbrev main_v3772 : Ref sig .tc := ⟨.hbm, 4038, rfl⟩
abbrev main_v3773 : Ref sig .tc := ⟨.hbm, 4039, rfl⟩
abbrev main_v3774 : Ref sig .tc := ⟨.hbm, 4040, rfl⟩
abbrev main_v3775 : Ref sig .tc := ⟨.hbm, 4041, rfl⟩
abbrev main_cst_240 : Ref sig .tc := ⟨.hbm, 4042, rfl⟩
abbrev main_v3776 : Ref sig .tc := ⟨.hbm, 4043, rfl⟩
abbrev main_v3777 : Ref sig .tc := ⟨.hbm, 4044, rfl⟩
abbrev main_cst_241 : Ref sig .tc := ⟨.hbm, 4045, rfl⟩
abbrev main_v3778 : Ref sig .tc := ⟨.hbm, 4046, rfl⟩
abbrev main_v3779 : Ref sig .tc := ⟨.hbm, 4047, rfl⟩
abbrev main_v3780 : Ref sig .tc := ⟨.hbm, 4048, rfl⟩
abbrev main_v3781 : Ref sig .tc := ⟨.hbm, 4049, rfl⟩
abbrev main_v3782 : Ref sig .tc := ⟨.hbm, 4050, rfl⟩
abbrev main_v3783 : Ref sig .tc := ⟨.hbm, 4051, rfl⟩
abbrev main_v3784 : Ref sig .tc := ⟨.hbm, 4052, rfl⟩
abbrev main_v3785 : Ref sig .tc := ⟨.hbm, 4053, rfl⟩
abbrev main_v3786 : Ref sig .tc := ⟨.hbm, 4054, rfl⟩
abbrev main_v3787 : Ref sig .tc := ⟨.hbm, 4055, rfl⟩
abbrev main_v3788 : Ref sig .tc := ⟨.hbm, 4056, rfl⟩
abbrev main_v3789 : Ref sig .tc := ⟨.hbm, 4057, rfl⟩
abbrev main_v3790 : Ref sig .tc := ⟨.hbm, 4058, rfl⟩
abbrev main_v3791 : Ref sig .tc := ⟨.hbm, 4059, rfl⟩
abbrev main_v3792 : Ref sig .tc := ⟨.hbm, 4060, rfl⟩
abbrev main_v3793 : Ref sig .tc := ⟨.hbm, 4061, rfl⟩
abbrev main_v3794 : Ref sig .tc := ⟨.hbm, 4062, rfl⟩
abbrev main_v3795 : Ref sig .tc := ⟨.hbm, 4063, rfl⟩
abbrev main_v3796 : Ref sig .tc := ⟨.hbm, 4064, rfl⟩
abbrev main_v3797 : Ref sig .tc := ⟨.hbm, 4065, rfl⟩
abbrev main_v3798 : Ref sig .tc := ⟨.hbm, 4066, rfl⟩
abbrev main_v3799 : Ref sig .tc := ⟨.hbm, 4067, rfl⟩
abbrev main_v3800 : Ref sig .tc := ⟨.hbm, 4068, rfl⟩
abbrev main_v3801 : Ref sig .tc := ⟨.hbm, 4069, rfl⟩
abbrev main_v3802 : Ref sig .tc := ⟨.hbm, 4070, rfl⟩
abbrev main_v3803 : Ref sig .tc := ⟨.hbm, 4071, rfl⟩
abbrev main_v3804 : Ref sig .tc := ⟨.hbm, 4072, rfl⟩
abbrev main_v3805 : Ref sig .tc := ⟨.hbm, 4073, rfl⟩
abbrev main_v3806 : Ref sig .tc := ⟨.hbm, 4074, rfl⟩
abbrev main_v3807 : Ref sig .tc := ⟨.hbm, 4075, rfl⟩
abbrev main_v3808 : Ref sig .tc := ⟨.hbm, 4076, rfl⟩
abbrev main_v3809 : Ref sig .tc := ⟨.hbm, 4077, rfl⟩
abbrev main_v3810 : Ref sig .tc := ⟨.hbm, 4078, rfl⟩
abbrev main_v3811 : Ref sig .tc := ⟨.hbm, 4079, rfl⟩
abbrev main_v3812 : Ref sig .tc := ⟨.hbm, 4080, rfl⟩
abbrev main_v3813 : Ref sig .tc := ⟨.hbm, 4081, rfl⟩
abbrev main_cst_242 : Ref sig .tc := ⟨.hbm, 4082, rfl⟩
abbrev main_v3814 : Ref sig .tc := ⟨.hbm, 4083, rfl⟩
abbrev main_v3815 : Ref sig .tc := ⟨.hbm, 4084, rfl⟩
abbrev main_cst_243 : Ref sig .tc := ⟨.hbm, 4085, rfl⟩
abbrev main_v3816 : Ref sig .tc := ⟨.hbm, 4086, rfl⟩
abbrev main_v3817 : Ref sig .tc := ⟨.hbm, 4087, rfl⟩
abbrev main_v3818 : Ref sig .tc := ⟨.hbm, 4088, rfl⟩
abbrev main_v3819 : Ref sig .tc := ⟨.hbm, 4089, rfl⟩
abbrev main_v3820 : Ref sig .tc := ⟨.hbm, 4090, rfl⟩
abbrev main_v3821 : Ref sig .tc := ⟨.hbm, 4091, rfl⟩
abbrev main_v3822 : Ref sig .tc := ⟨.hbm, 4092, rfl⟩
abbrev main_v3823 : Ref sig .tc := ⟨.hbm, 4093, rfl⟩
abbrev main_v3824 : Ref sig .tc := ⟨.hbm, 4094, rfl⟩
abbrev main_v3825 : Ref sig .tc := ⟨.hbm, 4095, rfl⟩
abbrev main_v3826 : Ref sig .tc := ⟨.hbm, 4096, rfl⟩
abbrev main_v3827 : Ref sig .tc := ⟨.hbm, 4097, rfl⟩
abbrev main_v3828 : Ref sig .tc := ⟨.hbm, 4098, rfl⟩
abbrev main_v3829 : Ref sig .tc := ⟨.hbm, 4099, rfl⟩
abbrev main_v3830 : Ref sig .tc := ⟨.hbm, 4100, rfl⟩
abbrev main_v3831 : Ref sig .tc := ⟨.hbm, 4101, rfl⟩
abbrev main_v3832 : Ref sig .tc := ⟨.hbm, 4102, rfl⟩
abbrev main_v3833 : Ref sig .tc := ⟨.hbm, 4103, rfl⟩
abbrev main_v3834 : Ref sig .tc := ⟨.hbm, 4104, rfl⟩
abbrev main_v3835 : Ref sig .tc := ⟨.hbm, 4105, rfl⟩
abbrev main_v3836 : Ref sig .tc := ⟨.hbm, 4106, rfl⟩
abbrev main_v3837 : Ref sig .tc := ⟨.hbm, 4107, rfl⟩
abbrev main_v3838 : Ref sig .tc := ⟨.hbm, 4108, rfl⟩
abbrev main_v3839 : Ref sig .tc := ⟨.hbm, 4109, rfl⟩
abbrev main_v3840 : Ref sig .tc := ⟨.hbm, 4110, rfl⟩
abbrev main_cst_244 : Ref sig .tc := ⟨.hbm, 4111, rfl⟩
abbrev main_v3841 : Ref sig .tc := ⟨.hbm, 4112, rfl⟩
abbrev main_v3842 : Ref sig .tc := ⟨.hbm, 4113, rfl⟩
abbrev main_cst_245 : Ref sig .tc := ⟨.hbm, 4114, rfl⟩
abbrev main_v3843 : Ref sig .tc := ⟨.hbm, 4115, rfl⟩
abbrev main_v3844 : Ref sig .tc := ⟨.hbm, 4116, rfl⟩
abbrev main_v3845 : Ref sig .tc := ⟨.hbm, 4117, rfl⟩
abbrev main_v3846 : Ref sig .tc := ⟨.hbm, 4118, rfl⟩
abbrev main_v3847 : Ref sig .tc := ⟨.hbm, 4119, rfl⟩
abbrev main_v3848 : Ref sig .tc := ⟨.hbm, 4120, rfl⟩
abbrev main_v3849 : Ref sig .tc := ⟨.hbm, 4121, rfl⟩
abbrev main_v3850 : Ref sig .tc := ⟨.hbm, 4122, rfl⟩
abbrev main_v3851 : Ref sig .tc := ⟨.hbm, 4123, rfl⟩
abbrev main_v3852 : Ref sig .tc := ⟨.hbm, 4124, rfl⟩
abbrev main_v3853 : Ref sig .tc := ⟨.hbm, 4125, rfl⟩
abbrev main_v3854 : Ref sig .tc := ⟨.hbm, 4126, rfl⟩
abbrev main_v3855 : Ref sig .tc := ⟨.hbm, 4127, rfl⟩
abbrev main_v3856 : Ref sig .tc := ⟨.hbm, 4128, rfl⟩
abbrev main_v3857 : Ref sig .tc := ⟨.hbm, 4129, rfl⟩
abbrev main_v3858 : Ref sig .tc := ⟨.hbm, 4130, rfl⟩
abbrev main_v3859 : Ref sig .tc := ⟨.hbm, 4131, rfl⟩
abbrev main_v3860 : Ref sig .tc := ⟨.hbm, 4132, rfl⟩
abbrev main_v3861 : Ref sig .tc := ⟨.hbm, 4133, rfl⟩
abbrev main_v3862 : Ref sig .tc := ⟨.hbm, 4134, rfl⟩
abbrev main_v3863 : Ref sig .tc := ⟨.hbm, 4135, rfl⟩
abbrev main_v3864 : Ref sig .tc := ⟨.hbm, 4136, rfl⟩
abbrev main_v3865 : Ref sig .tc := ⟨.hbm, 4137, rfl⟩
abbrev main_cst_246 : Ref sig .tc := ⟨.hbm, 4138, rfl⟩
abbrev main_v3866 : Ref sig .tc := ⟨.hbm, 4139, rfl⟩
abbrev main_v3867 : Ref sig .tc := ⟨.hbm, 4140, rfl⟩
abbrev main_cst_247 : Ref sig .tc := ⟨.hbm, 4141, rfl⟩
abbrev main_v3868 : Ref sig .tc := ⟨.hbm, 4142, rfl⟩
abbrev main_v3869 : Ref sig .tc := ⟨.hbm, 4143, rfl⟩
abbrev main_v3870 : Ref sig .tc := ⟨.hbm, 4144, rfl⟩
abbrev main_v3871 : Ref sig .tc := ⟨.hbm, 4145, rfl⟩
abbrev main_v3872 : Ref sig .tc := ⟨.hbm, 4146, rfl⟩
abbrev main_v3873 : Ref sig .tc := ⟨.hbm, 4147, rfl⟩
abbrev main_v3874 : Ref sig .tc := ⟨.hbm, 4148, rfl⟩
abbrev main_v3875 : Ref sig .tc := ⟨.hbm, 4149, rfl⟩
abbrev main_v3876 : Ref sig .tc := ⟨.hbm, 4150, rfl⟩
abbrev main_v3877 : Ref sig .tc := ⟨.hbm, 4151, rfl⟩
abbrev main_v3878 : Ref sig .tc := ⟨.hbm, 4152, rfl⟩
abbrev main_v3879 : Ref sig .tc := ⟨.hbm, 4153, rfl⟩
abbrev main_v3880 : Ref sig .tc := ⟨.hbm, 4154, rfl⟩
abbrev main_v3881 : Ref sig .tc := ⟨.hbm, 4155, rfl⟩
abbrev main_v3882 : Ref sig .tc := ⟨.hbm, 4156, rfl⟩
abbrev main_cst_248 : Ref sig .tc := ⟨.hbm, 4157, rfl⟩
abbrev main_v3883 : Ref sig .tc := ⟨.hbm, 4158, rfl⟩
abbrev main_v3884 : Ref sig .tc := ⟨.hbm, 4159, rfl⟩
abbrev main_v3885 : Ref sig .tc := ⟨.hbm, 4160, rfl⟩
abbrev main_v3886 : Ref sig .tc := ⟨.hbm, 4161, rfl⟩
abbrev main_v3887 : Ref sig .tc := ⟨.hbm, 4162, rfl⟩
abbrev main_v3888 : Ref sig .tc := ⟨.hbm, 4163, rfl⟩
abbrev main_v3889 : Ref sig .tc := ⟨.hbm, 4164, rfl⟩
abbrev main_v3890 : Ref sig .tc := ⟨.hbm, 4165, rfl⟩
abbrev main_v3891 : Ref sig .tc := ⟨.hbm, 4166, rfl⟩
abbrev main_v3892 : Ref sig .tc := ⟨.hbm, 4167, rfl⟩
abbrev main_v3893 : Ref sig .tc := ⟨.hbm, 4168, rfl⟩
abbrev main_v3894 : Ref sig .tc := ⟨.hbm, 4169, rfl⟩
abbrev main_v3895 : Ref sig .tc := ⟨.hbm, 4170, rfl⟩
abbrev main_v3896 : Ref sig .tc := ⟨.hbm, 4171, rfl⟩
abbrev main_v3897 : Ref sig .tc := ⟨.hbm, 4172, rfl⟩
abbrev main_v3898 : Ref sig .tc := ⟨.hbm, 4173, rfl⟩
abbrev main_v3899 : Ref sig .tc := ⟨.hbm, 4174, rfl⟩
abbrev main_v3900 : Ref sig .tc := ⟨.hbm, 4175, rfl⟩
abbrev main_v3901 : Ref sig .tc := ⟨.hbm, 4176, rfl⟩
abbrev main_v3902 : Ref sig .tc := ⟨.hbm, 4177, rfl⟩
abbrev main_v3903 : Ref sig .tc := ⟨.hbm, 4178, rfl⟩
abbrev main_v3904 : Ref sig .tc := ⟨.hbm, 4179, rfl⟩
abbrev main_v3905 : Ref sig .tc := ⟨.hbm, 4180, rfl⟩
abbrev main_v3906 : Ref sig .tc := ⟨.hbm, 4181, rfl⟩
abbrev main_v3907 : Ref sig .tc := ⟨.hbm, 4182, rfl⟩
abbrev main_v3908 : Ref sig .tc := ⟨.hbm, 4183, rfl⟩
abbrev main_v3909 : Ref sig .tc := ⟨.hbm, 4184, rfl⟩
abbrev main_v3910 : Ref sig .tc := ⟨.hbm, 4185, rfl⟩
abbrev main_v3911 : Ref sig .tc := ⟨.hbm, 4186, rfl⟩
abbrev main_v3912 : Ref sig .tc := ⟨.hbm, 4187, rfl⟩
abbrev main_v3913 : Ref sig .tc := ⟨.hbm, 4188, rfl⟩
abbrev main_v3914 : Ref sig .tc := ⟨.hbm, 4189, rfl⟩
abbrev main_v3915 : Ref sig .tc := ⟨.hbm, 4190, rfl⟩
abbrev main_v3916 : Ref sig .tc := ⟨.hbm, 4191, rfl⟩
abbrev main_v3917 : Ref sig .tc := ⟨.hbm, 4192, rfl⟩
abbrev main_v3918 : Ref sig .tc := ⟨.hbm, 4193, rfl⟩
abbrev main_v3919 : Ref sig .tc := ⟨.hbm, 4194, rfl⟩
abbrev main_v3920 : Ref sig .tc := ⟨.hbm, 4195, rfl⟩
abbrev main_v3921 : Ref sig .tc := ⟨.hbm, 4196, rfl⟩
abbrev main_v3922 : Ref sig .tc := ⟨.hbm, 4197, rfl⟩
abbrev main_cst_249 : Ref sig .tc := ⟨.hbm, 4198, rfl⟩
abbrev main_v3923 : Ref sig .tc := ⟨.hbm, 4199, rfl⟩
abbrev main_v3924 : Ref sig .tc := ⟨.hbm, 4200, rfl⟩
abbrev main_cst_250 : Ref sig .tc := ⟨.hbm, 4201, rfl⟩
abbrev main_v3925 : Ref sig .tc := ⟨.hbm, 4202, rfl⟩
abbrev main_v3926 : Ref sig .tc := ⟨.hbm, 4203, rfl⟩
abbrev main_v3927 : Ref sig .tc := ⟨.hbm, 4204, rfl⟩
abbrev main_v3928 : Ref sig .tc := ⟨.hbm, 4205, rfl⟩
abbrev main_v3929 : Ref sig .tc := ⟨.hbm, 4206, rfl⟩
abbrev main_v3930 : Ref sig .tc := ⟨.hbm, 4207, rfl⟩
abbrev main_v3931 : Ref sig .tc := ⟨.hbm, 4208, rfl⟩
abbrev main_v3932 : Ref sig .tc := ⟨.hbm, 4209, rfl⟩
abbrev main_v3933 : Ref sig .tc := ⟨.hbm, 4210, rfl⟩
abbrev main_v3934 : Ref sig .tc := ⟨.hbm, 4211, rfl⟩
abbrev main_v3935 : Ref sig .tc := ⟨.hbm, 4212, rfl⟩
abbrev main_v3936 : Ref sig .tc := ⟨.hbm, 4213, rfl⟩
abbrev main_v3937 : Ref sig .tc := ⟨.hbm, 4214, rfl⟩
abbrev main_v3938 : Ref sig .tc := ⟨.hbm, 4215, rfl⟩
abbrev main_v3939 : Ref sig .tc := ⟨.hbm, 4216, rfl⟩
abbrev main_v3940 : Ref sig .tc := ⟨.hbm, 4217, rfl⟩
abbrev main_v3941 : Ref sig .tc := ⟨.hbm, 4218, rfl⟩
abbrev main_v3942 : Ref sig .tc := ⟨.hbm, 4219, rfl⟩
abbrev main_v3943 : Ref sig .tc := ⟨.hbm, 4220, rfl⟩
abbrev main_v3944 : Ref sig .tc := ⟨.hbm, 4221, rfl⟩
abbrev main_v3945 : Ref sig .tc := ⟨.hbm, 4222, rfl⟩
abbrev main_v3946 : Ref sig .tc := ⟨.hbm, 4223, rfl⟩
abbrev main_v3947 : Ref sig .tc := ⟨.hbm, 4224, rfl⟩
abbrev main_v3948 : Ref sig .tc := ⟨.hbm, 4225, rfl⟩
abbrev main_v3949 : Ref sig .tc := ⟨.hbm, 4226, rfl⟩
abbrev main_v3950 : Ref sig .tc := ⟨.hbm, 4227, rfl⟩
abbrev main_cst_251 : Ref sig .tc := ⟨.hbm, 4228, rfl⟩
abbrev main_v3951 : Ref sig .tc := ⟨.hbm, 4229, rfl⟩
abbrev main_v3952 : Ref sig .tc := ⟨.hbm, 4230, rfl⟩
abbrev main_cst_252 : Ref sig .tc := ⟨.hbm, 4231, rfl⟩
abbrev main_v3953 : Ref sig .tc := ⟨.hbm, 4232, rfl⟩
abbrev main_v3954 : Ref sig .tc := ⟨.hbm, 4233, rfl⟩
abbrev main_v3955 : Ref sig .tc := ⟨.hbm, 4234, rfl⟩
abbrev main_v3956 : Ref sig .tc := ⟨.hbm, 4235, rfl⟩
abbrev main_v3957 : Ref sig .tc := ⟨.hbm, 4236, rfl⟩
abbrev main_v3958 : Ref sig .tc := ⟨.hbm, 4237, rfl⟩
abbrev main_v3959 : Ref sig .tc := ⟨.hbm, 4238, rfl⟩
abbrev main_v3960 : Ref sig .tc := ⟨.hbm, 4239, rfl⟩
abbrev main_v3961 : Ref sig .tc := ⟨.hbm, 4240, rfl⟩
abbrev main_v3962 : Ref sig .tc := ⟨.hbm, 4241, rfl⟩
abbrev main_v3963 : Ref sig .tc := ⟨.hbm, 4242, rfl⟩
abbrev main_v3964 : Ref sig .tc := ⟨.hbm, 4243, rfl⟩
abbrev main_v3965 : Ref sig .tc := ⟨.hbm, 4244, rfl⟩
abbrev main_v3966 : Ref sig .tc := ⟨.hbm, 4245, rfl⟩
abbrev main_v3967 : Ref sig .tc := ⟨.hbm, 4246, rfl⟩
abbrev main_v3968 : Ref sig .tc := ⟨.hbm, 4247, rfl⟩
abbrev main_v3969 : Ref sig .tc := ⟨.hbm, 4248, rfl⟩
abbrev main_v3970 : Ref sig .tc := ⟨.hbm, 4249, rfl⟩
abbrev main_v3971 : Ref sig .tc := ⟨.hbm, 4250, rfl⟩
abbrev main_v3972 : Ref sig .tc := ⟨.hbm, 4251, rfl⟩
abbrev main_v3973 : Ref sig .tc := ⟨.hbm, 4252, rfl⟩
abbrev main_v3974 : Ref sig .tc := ⟨.hbm, 4253, rfl⟩
abbrev main_v3975 : Ref sig .tc := ⟨.hbm, 4254, rfl⟩
abbrev main_v3976 : Ref sig .tc := ⟨.hbm, 4255, rfl⟩
abbrev main_v3977 : Ref sig .tc := ⟨.hbm, 4256, rfl⟩
abbrev main_cst_253 : Ref sig .tc := ⟨.hbm, 4257, rfl⟩
abbrev main_v3978 : Ref sig .tc := ⟨.hbm, 4258, rfl⟩
abbrev main_v3979 : Ref sig .tc := ⟨.hbm, 4259, rfl⟩
abbrev main_cst_254 : Ref sig .tc := ⟨.hbm, 4260, rfl⟩
abbrev main_v3980 : Ref sig .tc := ⟨.hbm, 4261, rfl⟩
abbrev main_v3981 : Ref sig .tc := ⟨.hbm, 4262, rfl⟩
abbrev main_v3982 : Ref sig .tc := ⟨.hbm, 4263, rfl⟩
abbrev main_v3983 : Ref sig .tc := ⟨.hbm, 4264, rfl⟩
abbrev main_v3984 : Ref sig .tc := ⟨.hbm, 4265, rfl⟩
abbrev main_v3985 : Ref sig .tc := ⟨.hbm, 4266, rfl⟩
abbrev main_v3986 : Ref sig .tc := ⟨.hbm, 4267, rfl⟩
abbrev main_v3987 : Ref sig .tc := ⟨.hbm, 4268, rfl⟩
abbrev main_v3988 : Ref sig .tc := ⟨.hbm, 4269, rfl⟩
abbrev main_v3989 : Ref sig .tc := ⟨.hbm, 4270, rfl⟩
abbrev main_v3990 : Ref sig .tc := ⟨.hbm, 4271, rfl⟩
abbrev main_v3991 : Ref sig .tc := ⟨.hbm, 4272, rfl⟩
abbrev main_v3992 : Ref sig .tc := ⟨.hbm, 4273, rfl⟩
abbrev main_v3993 : Ref sig .tc := ⟨.hbm, 4274, rfl⟩
abbrev main_v3994 : Ref sig .tc := ⟨.hbm, 4275, rfl⟩
abbrev main_v3995 : Ref sig .tc := ⟨.hbm, 4276, rfl⟩
abbrev main_v3996 : Ref sig .tc := ⟨.hbm, 4277, rfl⟩
abbrev main_v3997 : Ref sig .tc := ⟨.hbm, 4278, rfl⟩
abbrev main_v3998 : Ref sig .tc := ⟨.hbm, 4279, rfl⟩
abbrev main_v3999 : Ref sig .tc := ⟨.hbm, 4280, rfl⟩
abbrev main_v4000 : Ref sig .tc := ⟨.hbm, 4281, rfl⟩
abbrev main_v4001 : Ref sig .tc := ⟨.hbm, 4282, rfl⟩
abbrev main_v4002 : Ref sig .tc := ⟨.hbm, 4283, rfl⟩
abbrev main_cst_255 : Ref sig .tc := ⟨.hbm, 4284, rfl⟩
abbrev main_v4003 : Ref sig .tc := ⟨.hbm, 4285, rfl⟩
abbrev main_v4004 : Ref sig .tc := ⟨.hbm, 4286, rfl⟩
abbrev main_cst_256 : Ref sig .tc := ⟨.hbm, 4287, rfl⟩
abbrev main_v4005 : Ref sig .tc := ⟨.hbm, 4288, rfl⟩
abbrev main_v4006 : Ref sig .tc := ⟨.hbm, 4289, rfl⟩
abbrev main_v4007 : Ref sig .tc := ⟨.hbm, 4290, rfl⟩
abbrev main_v4008 : Ref sig .tc := ⟨.hbm, 4291, rfl⟩
abbrev main_v4009 : Ref sig .tc := ⟨.hbm, 4292, rfl⟩
abbrev main_v4010 : Ref sig .tc := ⟨.hbm, 4293, rfl⟩
abbrev main_v4011 : Ref sig .tc := ⟨.hbm, 4294, rfl⟩
abbrev main_v4012 : Ref sig .tc := ⟨.hbm, 4295, rfl⟩
abbrev main_v4013 : Ref sig .tc := ⟨.hbm, 4296, rfl⟩
abbrev main_v4014 : Ref sig .tc := ⟨.hbm, 4297, rfl⟩
abbrev main_v4015 : Ref sig .tc := ⟨.hbm, 4298, rfl⟩
abbrev main_v4016 : Ref sig .tc := ⟨.hbm, 4299, rfl⟩
abbrev main_v4017 : Ref sig .tc := ⟨.hbm, 4300, rfl⟩
abbrev main_v4018 : Ref sig .tc := ⟨.hbm, 4301, rfl⟩
abbrev main_v4019 : Ref sig .tc := ⟨.hbm, 4302, rfl⟩
abbrev main_cst_257 : Ref sig .tc := ⟨.hbm, 4303, rfl⟩
abbrev main_v4020 : Ref sig .tc := ⟨.hbm, 4304, rfl⟩
abbrev main_v4021 : Ref sig .tc := ⟨.hbm, 4305, rfl⟩
abbrev main_v4022 : Ref sig .tc := ⟨.hbm, 4306, rfl⟩
abbrev main_v4023 : Ref sig .tc := ⟨.hbm, 4307, rfl⟩
abbrev main_v4024 : Ref sig .tc := ⟨.hbm, 4308, rfl⟩
abbrev main_v4025 : Ref sig .tc := ⟨.hbm, 4309, rfl⟩
abbrev main_v4026 : Ref sig .tc := ⟨.hbm, 4310, rfl⟩
abbrev main_v4027 : Ref sig .tc := ⟨.hbm, 4311, rfl⟩
abbrev main_v4028 : Ref sig .tc := ⟨.hbm, 4312, rfl⟩
abbrev main_v4029 : Ref sig .tc := ⟨.hbm, 4313, rfl⟩
abbrev main_v4030 : Ref sig .tc := ⟨.hbm, 4314, rfl⟩
abbrev main_v4031 : Ref sig .tc := ⟨.hbm, 4315, rfl⟩
abbrev main_v4032 : Ref sig .tc := ⟨.hbm, 4316, rfl⟩
abbrev main_v4033 : Ref sig .tc := ⟨.hbm, 4317, rfl⟩
abbrev main_v4034 : Ref sig .tc := ⟨.hbm, 4318, rfl⟩
abbrev main_v4035 : Ref sig .tc := ⟨.hbm, 4319, rfl⟩
abbrev main_v4036 : Ref sig .tc := ⟨.hbm, 4320, rfl⟩
abbrev main_v4037 : Ref sig .tc := ⟨.hbm, 4321, rfl⟩
abbrev main_v4038 : Ref sig .tc := ⟨.hbm, 4322, rfl⟩
abbrev main_v4039 : Ref sig .tc := ⟨.hbm, 4323, rfl⟩
abbrev main_v4040 : Ref sig .tc := ⟨.hbm, 4324, rfl⟩
abbrev main_v4041 : Ref sig .tc := ⟨.hbm, 4325, rfl⟩
abbrev main_v4042 : Ref sig .tc := ⟨.hbm, 4326, rfl⟩
abbrev main_v4043 : Ref sig .tc := ⟨.hbm, 4327, rfl⟩
abbrev main_v4044 : Ref sig .tc := ⟨.hbm, 4328, rfl⟩
abbrev main_v4045 : Ref sig .tc := ⟨.hbm, 4329, rfl⟩
abbrev main_v4046 : Ref sig .tc := ⟨.hbm, 4330, rfl⟩
abbrev main_v4047 : Ref sig .tc := ⟨.hbm, 4331, rfl⟩
abbrev main_v4048 : Ref sig .tc := ⟨.hbm, 4332, rfl⟩
abbrev main_v4049 : Ref sig .tc := ⟨.hbm, 4333, rfl⟩
abbrev main_v4050 : Ref sig .tc := ⟨.hbm, 4334, rfl⟩
abbrev main_v4051 : Ref sig .tc := ⟨.hbm, 4335, rfl⟩
abbrev main_v4052 : Ref sig .tc := ⟨.hbm, 4336, rfl⟩
abbrev main_v4053 : Ref sig .tc := ⟨.hbm, 4337, rfl⟩
abbrev main_v4054 : Ref sig .tc := ⟨.hbm, 4338, rfl⟩
abbrev main_v4055 : Ref sig .tc := ⟨.hbm, 4339, rfl⟩
abbrev main_v4056 : Ref sig .tc := ⟨.hbm, 4340, rfl⟩
abbrev main_v4057 : Ref sig .tc := ⟨.hbm, 4341, rfl⟩
abbrev main_v4058 : Ref sig .tc := ⟨.hbm, 4342, rfl⟩
abbrev main_v4059 : Ref sig .tc := ⟨.hbm, 4343, rfl⟩
abbrev main_cst_258 : Ref sig .tc := ⟨.hbm, 4344, rfl⟩
abbrev main_v4060 : Ref sig .tc := ⟨.hbm, 4345, rfl⟩
abbrev main_v4061 : Ref sig .tc := ⟨.hbm, 4346, rfl⟩
abbrev main_cst_259 : Ref sig .tc := ⟨.hbm, 4347, rfl⟩
abbrev main_v4062 : Ref sig .tc := ⟨.hbm, 4348, rfl⟩
abbrev main_v4063 : Ref sig .tc := ⟨.hbm, 4349, rfl⟩
abbrev main_v4064 : Ref sig .tc := ⟨.hbm, 4350, rfl⟩
abbrev main_v4065 : Ref sig .tc := ⟨.hbm, 4351, rfl⟩
abbrev main_v4066 : Ref sig .tc := ⟨.hbm, 4352, rfl⟩
abbrev main_v4067 : Ref sig .tc := ⟨.hbm, 4353, rfl⟩
abbrev main_v4068 : Ref sig .tc := ⟨.hbm, 4354, rfl⟩
abbrev main_v4069 : Ref sig .tc := ⟨.hbm, 4355, rfl⟩
abbrev main_v4070 : Ref sig .tc := ⟨.hbm, 4356, rfl⟩
abbrev main_v4071 : Ref sig .tc := ⟨.hbm, 4357, rfl⟩
abbrev main_v4072 : Ref sig .tc := ⟨.hbm, 4358, rfl⟩
abbrev main_v4073 : Ref sig .tc := ⟨.hbm, 4359, rfl⟩
abbrev main_v4074 : Ref sig .tc := ⟨.hbm, 4360, rfl⟩
abbrev main_v4075 : Ref sig .tc := ⟨.hbm, 4361, rfl⟩
abbrev main_v4076 : Ref sig .tc := ⟨.hbm, 4362, rfl⟩
abbrev main_v4077 : Ref sig .tc := ⟨.hbm, 4363, rfl⟩
abbrev main_v4078 : Ref sig .tc := ⟨.hbm, 4364, rfl⟩
abbrev main_v4079 : Ref sig .tc := ⟨.hbm, 4365, rfl⟩
abbrev main_v4080 : Ref sig .tc := ⟨.hbm, 4366, rfl⟩
abbrev main_v4081 : Ref sig .tc := ⟨.hbm, 4367, rfl⟩
abbrev main_v4082 : Ref sig .tc := ⟨.hbm, 4368, rfl⟩
abbrev main_v4083 : Ref sig .tc := ⟨.hbm, 4369, rfl⟩
abbrev main_v4084 : Ref sig .tc := ⟨.hbm, 4370, rfl⟩
abbrev main_v4085 : Ref sig .tc := ⟨.hbm, 4371, rfl⟩
abbrev main_v4086 : Ref sig .tc := ⟨.hbm, 4372, rfl⟩
abbrev main_v4087 : Ref sig .tc := ⟨.hbm, 4373, rfl⟩
abbrev main_cst_260 : Ref sig .tc := ⟨.hbm, 4374, rfl⟩
abbrev main_v4088 : Ref sig .tc := ⟨.hbm, 4375, rfl⟩
abbrev main_v4089 : Ref sig .tc := ⟨.hbm, 4376, rfl⟩
abbrev main_cst_261 : Ref sig .tc := ⟨.hbm, 4377, rfl⟩
abbrev main_v4090 : Ref sig .tc := ⟨.hbm, 4378, rfl⟩
abbrev main_v4091 : Ref sig .tc := ⟨.hbm, 4379, rfl⟩
abbrev main_v4092 : Ref sig .tc := ⟨.hbm, 4380, rfl⟩
abbrev main_v4093 : Ref sig .tc := ⟨.hbm, 4381, rfl⟩
abbrev main_v4094 : Ref sig .tc := ⟨.hbm, 4382, rfl⟩
abbrev main_v4095 : Ref sig .tc := ⟨.hbm, 4383, rfl⟩
abbrev main_v4096 : Ref sig .tc := ⟨.hbm, 4384, rfl⟩
abbrev main_v4097 : Ref sig .tc := ⟨.hbm, 4385, rfl⟩
abbrev main_v4098 : Ref sig .tc := ⟨.hbm, 4386, rfl⟩
abbrev main_v4099 : Ref sig .tc := ⟨.hbm, 4387, rfl⟩
abbrev main_v4100 : Ref sig .tc := ⟨.hbm, 4388, rfl⟩
abbrev main_v4101 : Ref sig .tc := ⟨.hbm, 4389, rfl⟩
abbrev main_v4102 : Ref sig .tc := ⟨.hbm, 4390, rfl⟩
abbrev main_v4103 : Ref sig .tc := ⟨.hbm, 4391, rfl⟩
abbrev main_v4104 : Ref sig .tc := ⟨.hbm, 4392, rfl⟩
abbrev main_v4105 : Ref sig .tc := ⟨.hbm, 4393, rfl⟩
abbrev main_v4106 : Ref sig .tc := ⟨.hbm, 4394, rfl⟩
abbrev main_v4107 : Ref sig .tc := ⟨.hbm, 4395, rfl⟩
abbrev main_v4108 : Ref sig .tc := ⟨.hbm, 4396, rfl⟩
abbrev main_v4109 : Ref sig .tc := ⟨.hbm, 4397, rfl⟩
abbrev main_v4110 : Ref sig .tc := ⟨.hbm, 4398, rfl⟩
abbrev main_v4111 : Ref sig .tc := ⟨.hbm, 4399, rfl⟩
abbrev main_v4112 : Ref sig .tc := ⟨.hbm, 4400, rfl⟩
abbrev main_v4113 : Ref sig .tc := ⟨.hbm, 4401, rfl⟩
abbrev main_v4114 : Ref sig .tc := ⟨.hbm, 4402, rfl⟩
abbrev main_cst_262 : Ref sig .tc := ⟨.hbm, 4403, rfl⟩
abbrev main_v4115 : Ref sig .tc := ⟨.hbm, 4404, rfl⟩
abbrev main_v4116 : Ref sig .tc := ⟨.hbm, 4405, rfl⟩
abbrev main_cst_263 : Ref sig .tc := ⟨.hbm, 4406, rfl⟩
abbrev main_v4117 : Ref sig .tc := ⟨.hbm, 4407, rfl⟩
abbrev main_v4118 : Ref sig .tc := ⟨.hbm, 4408, rfl⟩
abbrev main_v4119 : Ref sig .tc := ⟨.hbm, 4409, rfl⟩
abbrev main_v4120 : Ref sig .tc := ⟨.hbm, 4410, rfl⟩
abbrev main_v4121 : Ref sig .tc := ⟨.hbm, 4411, rfl⟩
abbrev main_v4122 : Ref sig .tc := ⟨.hbm, 4412, rfl⟩
abbrev main_v4123 : Ref sig .tc := ⟨.hbm, 4413, rfl⟩
abbrev main_v4124 : Ref sig .tc := ⟨.hbm, 4414, rfl⟩
abbrev main_v4125 : Ref sig .tc := ⟨.hbm, 4415, rfl⟩
abbrev main_v4126 : Ref sig .tc := ⟨.hbm, 4416, rfl⟩
abbrev main_v4127 : Ref sig .tc := ⟨.hbm, 4417, rfl⟩
abbrev main_v4128 : Ref sig .tc := ⟨.hbm, 4418, rfl⟩
abbrev main_v4129 : Ref sig .tc := ⟨.hbm, 4419, rfl⟩
abbrev main_v4130 : Ref sig .tc := ⟨.hbm, 4420, rfl⟩
abbrev main_v4131 : Ref sig .tc := ⟨.hbm, 4421, rfl⟩
abbrev main_v4132 : Ref sig .tc := ⟨.hbm, 4422, rfl⟩
abbrev main_v4133 : Ref sig .tc := ⟨.hbm, 4423, rfl⟩
abbrev main_v4134 : Ref sig .tc := ⟨.hbm, 4424, rfl⟩
abbrev main_v4135 : Ref sig .tc := ⟨.hbm, 4425, rfl⟩
abbrev main_v4136 : Ref sig .tc := ⟨.hbm, 4426, rfl⟩
abbrev main_v4137 : Ref sig .tc := ⟨.hbm, 4427, rfl⟩
abbrev main_v4138 : Ref sig .tc := ⟨.hbm, 4428, rfl⟩
abbrev main_v4139 : Ref sig .tc := ⟨.hbm, 4429, rfl⟩
abbrev main_cst_264 : Ref sig .tc := ⟨.hbm, 4430, rfl⟩
abbrev main_v4140 : Ref sig .tc := ⟨.hbm, 4431, rfl⟩
abbrev main_v4141 : Ref sig .tc := ⟨.hbm, 4432, rfl⟩
abbrev main_cst_265 : Ref sig .tc := ⟨.hbm, 4433, rfl⟩
abbrev main_v4142 : Ref sig .tc := ⟨.hbm, 4434, rfl⟩
abbrev main_v4143 : Ref sig .tc := ⟨.hbm, 4435, rfl⟩
abbrev main_v4144 : Ref sig .tc := ⟨.hbm, 4436, rfl⟩
abbrev main_v4145 : Ref sig .tc := ⟨.hbm, 4437, rfl⟩
abbrev main_v4146 : Ref sig .tc := ⟨.hbm, 4438, rfl⟩
abbrev main_v4147 : Ref sig .tc := ⟨.hbm, 4439, rfl⟩
abbrev main_v4148 : Ref sig .tc := ⟨.hbm, 4440, rfl⟩
abbrev main_v4149 : Ref sig .tc := ⟨.hbm, 4441, rfl⟩
abbrev main_v4150 : Ref sig .tc := ⟨.hbm, 4442, rfl⟩
abbrev main_v4151 : Ref sig .tc := ⟨.hbm, 4443, rfl⟩
abbrev main_v4152 : Ref sig .tc := ⟨.hbm, 4444, rfl⟩
abbrev main_v4153 : Ref sig .tc := ⟨.hbm, 4445, rfl⟩
abbrev main_v4154 : Ref sig .tc := ⟨.hbm, 4446, rfl⟩
abbrev main_v4155 : Ref sig .tc := ⟨.hbm, 4447, rfl⟩
abbrev main_v4156 : Ref sig .tc := ⟨.hbm, 4448, rfl⟩
abbrev main_cst_266 : Ref sig .tc := ⟨.hbm, 4449, rfl⟩
abbrev main_v4157 : Ref sig .tc := ⟨.hbm, 4450, rfl⟩
abbrev main_v4158 : Ref sig .tc := ⟨.hbm, 4451, rfl⟩
abbrev main_v4159 : Ref sig .tc := ⟨.hbm, 4452, rfl⟩
abbrev main_v4160 : Ref sig .tc := ⟨.hbm, 4453, rfl⟩
abbrev main_v4161 : Ref sig .tc := ⟨.hbm, 4454, rfl⟩
abbrev main_v4162 : Ref sig .tc := ⟨.hbm, 4455, rfl⟩
abbrev main_v4163 : Ref sig .tc := ⟨.hbm, 4456, rfl⟩
abbrev main_v4164 : Ref sig .tc := ⟨.hbm, 4457, rfl⟩
abbrev main_v4165 : Ref sig .tc := ⟨.hbm, 4458, rfl⟩
abbrev main_v4166 : Ref sig .tc := ⟨.hbm, 4459, rfl⟩
abbrev main_v4167 : Ref sig .tc := ⟨.hbm, 4460, rfl⟩
abbrev main_v4168 : Ref sig .tc := ⟨.hbm, 4461, rfl⟩
abbrev main_v4169 : Ref sig .tc := ⟨.hbm, 4462, rfl⟩
abbrev main_v4170 : Ref sig .tc := ⟨.hbm, 4463, rfl⟩
abbrev main_v4171 : Ref sig .tc := ⟨.hbm, 4464, rfl⟩
abbrev main_v4172 : Ref sig .tc := ⟨.hbm, 4465, rfl⟩
abbrev main_v4173 : Ref sig .tc := ⟨.hbm, 4466, rfl⟩
abbrev main_v4174 : Ref sig .tc := ⟨.hbm, 4467, rfl⟩
abbrev main_v4175 : Ref sig .tc := ⟨.hbm, 4468, rfl⟩
abbrev main_v4176 : Ref sig .tc := ⟨.hbm, 4469, rfl⟩
abbrev main_v4177 : Ref sig .tc := ⟨.hbm, 4470, rfl⟩
abbrev main_v4178 : Ref sig .tc := ⟨.hbm, 4471, rfl⟩
abbrev main_v4179 : Ref sig .tc := ⟨.hbm, 4472, rfl⟩
abbrev main_v4180 : Ref sig .tc := ⟨.hbm, 4473, rfl⟩
abbrev main_v4181 : Ref sig .tc := ⟨.hbm, 4474, rfl⟩
abbrev main_v4182 : Ref sig .tc := ⟨.hbm, 4475, rfl⟩
abbrev main_v4183 : Ref sig .tc := ⟨.hbm, 4476, rfl⟩
abbrev main_v4184 : Ref sig .tc := ⟨.hbm, 4477, rfl⟩
abbrev main_v4185 : Ref sig .tc := ⟨.hbm, 4478, rfl⟩
abbrev main_v4186 : Ref sig .tc := ⟨.hbm, 4479, rfl⟩
abbrev main_v4187 : Ref sig .tc := ⟨.hbm, 4480, rfl⟩
abbrev main_v4188 : Ref sig .tc := ⟨.hbm, 4481, rfl⟩
abbrev main_v4189 : Ref sig .tc := ⟨.hbm, 4482, rfl⟩
abbrev main_v4190 : Ref sig .tc := ⟨.hbm, 4483, rfl⟩
abbrev main_v4191 : Ref sig .tc := ⟨.hbm, 4484, rfl⟩
abbrev main_v4192 : Ref sig .tc := ⟨.hbm, 4485, rfl⟩
abbrev main_v4193 : Ref sig .tc := ⟨.hbm, 4486, rfl⟩
abbrev main_v4194 : Ref sig .tc := ⟨.hbm, 4487, rfl⟩
abbrev main_v4195 : Ref sig .tc := ⟨.hbm, 4488, rfl⟩
abbrev main_v4196 : Ref sig .tc := ⟨.hbm, 4489, rfl⟩
abbrev main_cst_267 : Ref sig .tc := ⟨.hbm, 4490, rfl⟩
abbrev main_v4197 : Ref sig .tc := ⟨.hbm, 4491, rfl⟩
abbrev main_v4198 : Ref sig .tc := ⟨.hbm, 4492, rfl⟩
abbrev main_cst_268 : Ref sig .tc := ⟨.hbm, 4493, rfl⟩
abbrev main_v4199 : Ref sig .tc := ⟨.hbm, 4494, rfl⟩
abbrev main_v4200 : Ref sig .tc := ⟨.hbm, 4495, rfl⟩
abbrev main_v4201 : Ref sig .tc := ⟨.hbm, 4496, rfl⟩
abbrev main_v4202 : Ref sig .tc := ⟨.hbm, 4497, rfl⟩
abbrev main_v4203 : Ref sig .tc := ⟨.hbm, 4498, rfl⟩
abbrev main_v4204 : Ref sig .tc := ⟨.hbm, 4499, rfl⟩
abbrev main_v4205 : Ref sig .tc := ⟨.hbm, 4500, rfl⟩
abbrev main_v4206 : Ref sig .tc := ⟨.hbm, 4501, rfl⟩
abbrev main_v4207 : Ref sig .tc := ⟨.hbm, 4502, rfl⟩
abbrev main_v4208 : Ref sig .tc := ⟨.hbm, 4503, rfl⟩
abbrev main_v4209 : Ref sig .tc := ⟨.hbm, 4504, rfl⟩
abbrev main_v4210 : Ref sig .tc := ⟨.hbm, 4505, rfl⟩
abbrev main_v4211 : Ref sig .tc := ⟨.hbm, 4506, rfl⟩
abbrev main_v4212 : Ref sig .tc := ⟨.hbm, 4507, rfl⟩
abbrev main_v4213 : Ref sig .tc := ⟨.hbm, 4508, rfl⟩
abbrev main_v4214 : Ref sig .tc := ⟨.hbm, 4509, rfl⟩
abbrev main_v4215 : Ref sig .tc := ⟨.hbm, 4510, rfl⟩
abbrev main_v4216 : Ref sig .tc := ⟨.hbm, 4511, rfl⟩
abbrev main_v4217 : Ref sig .tc := ⟨.hbm, 4512, rfl⟩
abbrev main_cst_269 : Ref sig .tc := ⟨.hbm, 4513, rfl⟩
abbrev main_v4218 : Ref sig .tc := ⟨.hbm, 4514, rfl⟩
abbrev main_v4219 : Ref sig .tc := ⟨.hbm, 4515, rfl⟩
abbrev main_cst_270 : Ref sig .tc := ⟨.hbm, 4516, rfl⟩
abbrev main_v4220 : Ref sig .tc := ⟨.hbm, 4517, rfl⟩
abbrev main_v4221 : Ref sig .tc := ⟨.hbm, 4518, rfl⟩

abbrev nD : Nat := 1
abbrev τ : Topo := Topo.v7x

variable {F : FTy → Type} [FloatOps F]

class Facts₀ : Prop where
  transposes_S3x4096x256_S4096x3x256_1_0_2 : S3x4096x256.Transposes [1, 0, 2] S4096x3x256
  shapeCasts_S4096x3x256_S4096x768 : S4096x3x256.ShapeCasts S4096x768
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  slices_S3x4096x256_S1x4096x256_0_0_0 : S3x4096x256.Slices ![0, 0, 0] S1x4096x256
  shapeCasts_S1x4096x256_S4096x256 : S1x4096x256.ShapeCasts S4096x256
  bcast_S_S4096x256 : S_.BroadcastsInDim S4096x256 (![] : Fin 0 → Fin S4096x256.rank)
  slices_S3x3x256_S1x3x256_0_0_0 : S3x3x256.Slices ![0, 0, 0] S1x3x256
  shapeCasts_S1x3x256_S3x256 : S1x3x256.ShapeCasts S3x256
  slices_S3x3_S1x3_0_0 : S3x3.Slices ![0, 0] S1x3
  shapeCasts_S1x3_S3 : S1x3.ShapeCasts S3
  transposes_S3x256_S256x3_1_0 : S3x256.Transposes [1, 0] S256x3
  bcast_S3_S1x3_1 : S3.BroadcastsInDim S1x3 (![1] : Fin 1 → Fin S1x3.rank)
  bcast_S1x3_S4096x3_0_1 : S1x3.BroadcastsInDim S4096x3 (![0, 1] : Fin 2 → Fin S4096x3.rank)
  slices_S3x3x768_S1x3x768_0_0_0 : S3x3x768.Slices ![0, 0, 0] S1x3x768
  shapeCasts_S1x3x768_S3x768 : S1x3x768.ShapeCasts S3x768
  transposes_S3x768_S768x3_1_0 : S3x768.Transposes [1, 0] S768x3
  bcast_S_S4096x3 : S_.BroadcastsInDim S4096x3 (![] : Fin 0 → Fin S4096x3.rank)
  slices_S3x768x768_S1x768x768_0_0_0 : S3x768x768.Slices ![0, 0, 0] S1x768x768
  shapeCasts_S1x768x768_S768x768 : S1x768x768.ShapeCasts S768x768
  slices_S3x768_S1x768_0_0 : S3x768.Slices ![0, 0] S1x768
  shapeCasts_S1x768_S768 : S1x768.ShapeCasts S768
  transposes_S768x768_S768x768_1_0 : S768x768.Transposes [1, 0] S768x768
  bcast_S768_S1x768_1 : S768.BroadcastsInDim S1x768 (![1] : Fin 1 → Fin S1x768.rank)
  bcast_S1x768_S4096x768_0_1 : S1x768.BroadcastsInDim S4096x768 (![0, 1] : Fin 2 → Fin S4096x768.rank)
  shapeCasts_S4096x768_S4096x3x256 : S4096x768.ShapeCasts S4096x3x256
  bcast_S4096x3_S4096x3x1_0_1 : S4096x3.BroadcastsInDim S4096x3x1 (![0, 1] : Fin 2 → Fin S4096x3x1.rank)
  bcast_S4096x3x1_S4096x3x256_0_1_2 : S4096x3x1.BroadcastsInDim S4096x3x256 (![0, 1, 2] : Fin 3 → Fin S4096x3x256.rank)
  reducesTo_S4096x3x256_S4096x256_d1 : S4096x3x256.ReducesTo [1] S4096x256
  h_S_ : 0 < S_.numel
  slices_S3x256x256_S1x256x256_1_0_0 : S3x256x256.Slices ![1, 0, 0] S1x256x256
  slices_S3x256_S1x256_1_0 : S3x256.Slices ![1, 0] S1x256
  slices_S3x4096x256_S1x4096x256_1_0_0 : S3x4096x256.Slices ![1, 0, 0] S1x4096x256
  slices_S3x3x256_S1x3x256_1_0_0 : S3x3x256.Slices ![1, 0, 0] S1x3x256
  slices_S3x3_S1x3_1_0 : S3x3.Slices ![1, 0] S1x3
  slices_S3x3x768_S1x3x768_1_0_0 : S3x3x768.Slices ![1, 0, 0] S1x3x768
  slices_S3x768x768_S1x768x768_1_0_0 : S3x768x768.Slices ![1, 0, 0] S1x768x768
  slices_S3x768_S1x768_1_0 : S3x768.Slices ![1, 0] S1x768
  slices_S3x256x256_S1x256x256_2_0_0 : S3x256x256.Slices ![2, 0, 0] S1x256x256
  slices_S3x256_S1x256_2_0 : S3x256.Slices ![2, 0] S1x256
  slices_S3x4096x256_S1x4096x256_2_0_0 : S3x4096x256.Slices ![2, 0, 0] S1x4096x256
  slices_S3x3x256_S1x3x256_2_0_0 : S3x3x256.Slices ![2, 0, 0] S1x3x256
  slices_S3x3_S1x3_2_0 : S3x3.Slices ![2, 0] S1x3
  slices_S3x3x768_S1x3x768_2_0_0 : S3x3x768.Slices ![2, 0, 0] S1x3x768
  slices_S3x768x768_S1x768x768_2_0_0 : S3x768x768.Slices ![2, 0, 0] S1x768x768
  slices_S3x768_S1x768_2_0 : S3x768.Slices ![2, 0] S1x768
  bcast_S4096x256_S1x4096x256_1_2 : S4096x256.BroadcastsInDim S1x4096x256 (![1, 2] : Fin 2 → Fin S1x4096x256.rank)
  concatenates_S1x4096x256_S1x4096x256_S1x4096x256_S3x4096x256_d0 : Shape.Concatenates [S1x4096x256, S1x4096x256, S1x4096x256] S3x4096x256 0
  concatenates_S4096x256_S4096x256_S4096x256_S4096x256_S4096x256_S4096x256_S4096x256_S4096x256_S4096x256_S4096x2304_d1 : Shape.Concatenates [S4096x256, S4096x256, S4096x256, S4096x256, S4096x256, S4096x256, S4096x256, S4096x256, S4096x256] S4096x2304 1
  transposes_S44x2304_S2304x44_1_0 : S44x2304.Transposes [1, 0] S2304x44
  bcast_S44_S1x44_1 : S44.BroadcastsInDim S1x44 (![1] : Fin 1 → Fin S1x44.rank)
  bcast_S1x44_S4096x44_0_1 : S1x44.BroadcastsInDim S4096x44 (![0, 1] : Fin 2 → Fin S4096x44.rank)
  bcast_S_S4096x44 : S_.BroadcastsInDim S4096x44 (![] : Fin 0 → Fin S4096x44.rank)
  dot_S4096x256_S256x256_S4096x256_1_0_0_1_n_n_wf : DotDims.WF S4096x256 S256x256 S4096x256 [1] [0] [0] [1] [] []
  dot_S4096x256_S256x3_S4096x3_1_0_0_1_n_n_wf : DotDims.WF S4096x256 S256x3 S4096x3 [1] [0] [0] [1] [] []
  dot_S4096x768_S768x3_S4096x3_1_0_0_1_n_n_wf : DotDims.WF S4096x768 S768x3 S4096x3 [1] [0] [0] [1] [] []
  dot_S4096x768_S768x768_S4096x768_1_0_0_1_n_n_wf : DotDims.WF S4096x768 S768x768 S4096x768 [1] [0] [0] [1] [] []
  dot_S4096x2304_S2304x44_S4096x44_1_0_0_1_n_n_wf : DotDims.WF S4096x2304 S2304x44 S4096x44 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x3_S4096x3_1_0_0_1_n_n : DotDims S4096x256 S256x3 S4096x3 where
  lhsContracting := [1]
  rhsContracting := [0]
  lhsNonContracting := [0]
  rhsNonContracting := [1]
  lhsBatch := []
  rhsBatch := []
  wf := dot_S4096x256_S256x3_S4096x3_1_0_0_1_n_n_wf
def dot_S4096x768_S768x3_S4096x3_1_0_0_1_n_n : DotDims S4096x768 S768x3 S4096x3 where
  lhsContracting := [1]
  rhsContracting := [0]
  lhsNonContracting := [0]
  rhsNonContracting := [1]
  lhsBatch := []
  rhsBatch := []
  wf := dot_S4096x768_S768x3_S4096x3_1_0_0_1_n_n_wf
def dot_S4096x768_S768x768_S4096x768_1_0_0_1_n_n : DotDims S4096x768 S768x768 S4096x768 where
  lhsContracting := [1]
  rhsContracting := [0]
  lhsNonContracting := [0]
  rhsNonContracting := [1]
  lhsBatch := []
  rhsBatch := []
  wf := dot_S4096x768_S768x768_S4096x768_1_0_0_1_n_n_wf
def dot_S4096x2304_S2304x44_S4096x44_1_0_0_1_n_n : DotDims S4096x2304 S2304x44 S4096x44 where
  lhsContracting := [1]
  rhsContracting := [0]
  lhsNonContracting := [0]
  rhsNonContracting := [1]
  lhsBatch := []
  rhsBatch := []
  wf := dot_S4096x2304_S2304x44_S4096x44_1_0_0_1_n_n_wf

class Facts : Prop extends Facts₀ where

variable [Facts]
-- ==== Proof.KB.Kit.lean ====
import proofs.«161507_j76424648065777_2_alg».proof.Proof.Gen.Kernel.Launch
import proofs.«161507_j76424648065777_2_alg».proof.Proof.Gen.Kernel.Points
import Idealize.ShloMosaic.Lib.Pipeline.FrameBody
import Idealize.ShloMosaic.Lib.Ring
import Idealize.ShloMosaic.Lib.Tactic

/-! # The launch side of the frame: @main up to its one region

@main is 27 host operations (transposes, concatenations, conversions, reshapes: each writes one fresh result
buffer and nothing else) followed by one pipelined region over 16 windows, and nothing after it. This module
holds what is the launch's and not the kernel body's:

* the buffer contents the region finds (`V`): the launched memory after the host operations;
* that none of the 25 argument arrays is written by a host operation, so the region finds each as launched;
* each window's block at a grid point, read off its array as the region finds it (`iblk`), and that an input
  window's current staging buffer holds that block at every point, whether the pipeline fetched it there or
  not (a window whose block index never moves is fetched at the first point only, and still holds its block);
* the frame claim's post from a run to the library's frame post, for any proof data over these arrays. -/

-- deciding facts over the 16 windows and the 53 buffers recurses past the default depth
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered, as a valuation: the launched memory after the host
    operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor

/-- @main up to the region: the line of host operations, then the region; the region finds the launched memory
    as the host operations leave it. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-! ## The argument arrays are as launched -/

/-- The buffers the host operations write: their 27 results, each a buffer of its own. -/
abbrev hostResults : List (Ref sig .tc) :=
  [main_v0, main_v1, main_v2, main_v3, main_v4, main_v5, main_v6, main_v7, main_v8, main_v9, main_v10, main_v11, main_v12,
   main_v13, main_v14, main_v15, main_v16, main_v17, main_v18, main_v19, main_v20, main_v21, main_v22, main_v23, main_v24,
   main_v25, main_v26]

/-- Each host operation writes its one result and nothing else. -/
theorem hostOps0_writes : (List.flatten [hostOps0] : List (HloOp τ sig (Elt F))).Forall fun op =>
    op.writes ⊆ (hostResults.map (Proc.devRef (τ := τ) .tc)).toFinset := by
  simp only [hostOps0, List.flatten_cons, List.flatten_nil, List.append_nil, List.Forall, StableHlo.unary_writes,
    StableHlo.nary_writes, StableHlo.reshape_writes, Finset.singleton_subset_iff, List.mem_toFinset]
  repeat' apply And.intro
  all_goals exact List.mem_map_of_mem (by decide)

/-- A buffer that is no host operation's result is found by the region as launched. -/
theorem V_of_not_result (c : Dev nD) (b : Ref sig .tc) (hb : b ∉ hostResults) : V m c b = m ((c : Thread nD τ).loc b) :=
  StableHlo.after_of_writes_sub _ _ hostOps0_writes hb

theorem V_main_arg0 (c : Dev nD) : V m c main_arg0 = m ((c : Thread nD τ).loc main_arg0) := V_of_not_result m c main_arg0 (by decide)
theorem V_main_arg1 (c : Dev nD) : V m c main_arg1 = m ((c : Thread nD τ).loc main_arg1) := V_of_not_result m c main_arg1 (by decide)
theorem V_main_arg2 (c : Dev nD) : V m c main_arg2 = m ((c : Thread nD τ).loc main_arg2) := V_of_not_result m c main_arg2 (by decide)
theorem V_main_arg3 (c : Dev nD) : V m c main_arg3 = m ((c : Thread nD τ).loc main_arg3) := V_of_not_result m c main_arg3 (by decide)
theorem V_main_arg4 (c : Dev nD) : V m c main_arg4 = m ((c : Thread nD τ).loc main_arg4) := V_of_not_result m c main_arg4 (by decide)
theorem V_main_arg5 (c : Dev nD) : V m c main_arg5 = m ((c : Thread nD τ).loc main_arg5) := V_of_not_result m c main_arg5 (by decide)
theorem V_main_arg6 (c : Dev nD) : V m c main_arg6 = m ((c : Thread nD τ).loc main_arg6) := V_of_not_result m c main_arg6 (by decide)
theorem V_main_arg7 (c : Dev nD) : V m c main_arg7 = m ((c : Thread nD τ).loc main_arg7) := V_of_not_result m c main_arg7 (by decide)
theorem V_main_arg8 (c : Dev nD) : V m c main_arg8 = m ((c : Thread nD τ).loc main_arg8) := V_of_not_result m c main_arg8 (by decide)
theorem V_main_arg9 (c : Dev nD) : V m c main_arg9 = m ((c : Thread nD τ).loc main_arg9) := V_of_not_result m c main_arg9 (by decide)
theorem V_main_arg10 (c : Dev nD) : V m c main_arg10 = m ((c : Thread nD τ).loc main_arg10) := V_of_not_result m c main_arg10 (by decide)
theorem V_main_arg11 (c : Dev nD) : V m c main_arg11 = m ((c : Thread nD τ).loc main_arg11) := V_of_not_result m c main_arg11 (by decide)
theorem V_main_arg12 (c : Dev nD) : V m c main_arg12 = m ((c : Thread nD τ).loc main_arg12) := V_of_not_result m c main_arg12 (by decide)
theorem V_main_arg13 (c : Dev nD) : V m c main_arg13 = m ((c : Thread nD τ).loc main_arg13) := V_of_not_result m c main_arg13 (by decide)
theorem V_main_arg14 (c : Dev nD) : V m c main_arg14 = m ((c : Thread nD τ).loc main_arg14) := V_of_not_result m c main_arg14 (by decide)
theorem V_main_arg15 (c : Dev nD) : V m c main_arg15 = m ((c : Thread nD τ).loc main_arg15) := V_of_not_result m c main_arg15 (by decide)
theorem V_main_arg16 (c : Dev nD) : V m c main_arg16 = m ((c : Thread nD τ).loc main_arg16) := V_of_not_result m c main_arg16 (by decide)
theorem V_main_arg17 (c : Dev nD) : V m c main_arg17 = m ((c : Thread nD τ).loc main_arg17) := V_of_not_result m c main_arg17 (by decide)
theorem V_main_arg18 (c : Dev nD) : V m c main_arg18 = m ((c : Thread nD τ).loc main_arg18) := V_of_not_result m c main_arg18 (by decide)
theorem V_main_arg19 (c : Dev nD) : V m c main_arg19 = m ((c : Thread nD τ).loc main_arg19) := V_of_not_result m c main_arg19 (by decide)
theorem V_main_arg20 (c : Dev nD) : V m c main_arg20 = m ((c : Thread nD τ).loc main_arg20) := V_of_not_result m c main_arg20 (by decide)
theorem V_main_arg21 (c : Dev nD) : V m c main_arg21 = m ((c : Thread nD τ).loc main_arg21) := V_of_not_result m c main_arg21 (by decide)
theorem V_main_arg22 (c : Dev nD) : V m c main_arg22 = m ((c : Thread nD τ).loc main_arg22) := V_of_not_result m c main_arg22 (by decide)
theorem V_main_arg23 (c : Dev nD) : V m c main_arg23 = m ((c : Thread nD τ).loc main_arg23) := V_of_not_result m c main_arg23 (by decide)
theorem V_main_arg24 (c : Dev nD) : V m c main_arg24 = m ((c : Thread nD τ).loc main_arg24) := V_of_not_result m c main_arg24 (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, for ANY proof data whose array is
    `V`'s (`hA`) and whose body leaves the block in place (`hafter`). Where the pipeline fetches the window the
    buffer holds what was fetched; where it does not, the block index has not moved since the previous point, the
    body left the previous block in place, and that block is this point's. Windows 0, 1, 2 are fetched at every
    point; windows 3 to 14 have a constant block index and are fetched at the first point only. Every window is
    uncut and never idle. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to the
    library's frame post is the frame claim's post. An argument that is an input window's array (arguments 0, 1, 2,
    12, 24: windows 0, 1, 2, 6, 14) ends at the window's array contents, which for an input are its entry contents;
    an argument no window stages ends at its entry contents by the post's second clause; and the entry contents
    of every argument are the launched ones. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 6).trans (((dats 0 c).arrAt_in 6 rfl _).trans ((hA c 6).trans (V_main_arg12 m c))),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).1 14).trans (((dats 0 c).arrAt_in 14 rfl _).trans ((hA c 14).trans (V_main_arg24 m c)))⟩) h

end Cert.Kernel.Fr

end
-- ==== Proof.KB.Run.lean ====
/-
  The kernel body of the gated-feedback LSTM cell, run once on whole staging buffers.

  The body loads the batch tile of the input, of the three layers' hidden and cell states and every
  weight and bias, runs ten time steps of three layers each, keeps the top layer's hidden state of
  the first nine steps in the scratch buffer (nine column slabs of 256), reads the scratch back
  whole and stores one block of the output. Here the body is executed symbolically: from the input
  buffers at given contents, and the output and scratch buffers at anything, it ends with the
  inputs as they were and with the output and the scratch written by lists of pieces that the
  execution itself finds.
-/
import proofs.«161507_j76424648065777_2_alg».proof.Proof.Gen.Kernel.Launch
import proofs.«161507_j76424648065777_2_alg».proof.Proof.Gen.Kernel.Skeleton
import proofs.«161507_j76424648065777_2_alg».proof.Proof.Gen.Kernel.Points
import Idealize.ShloMosaic.Lib.Pipeline.FrameBody
import Idealize.ShloMosaic.Lib.Ring
import Idealize.ShloMosaic.Lib.Tactic

set_option maxRecDepth 65536

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- The pieces the body's stores leave in the output buffer (one block of 256 rows by 44) and in the
    scratch buffer (nine slabs of 256 columns), with the proof that the body, started on whole
    buffers, runs to its end, faults nowhere and leaves the inputs untouched. -/
noncomputable def kernelRun (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S768x9 .bf16) (harg10 : arg10.IsWhole) (arg11 : Memref sig .tc .vmem S9 .f32) (harg11 : arg11.IsWhole) (arg12 : Memref sig .tc .vmem S768x2304 .bf16) (harg12 : arg12.IsWhole) (arg13 : Memref sig .tc .vmem S2304 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole) (arg17 : Memref sig .tc .vmem S256x2304 .f32) (harg17 : arg17.IsWhole)
    (x1 : Vec F S256x256 .f32) (x2 : Vec F S3x256x256 .f32) (x3 : Vec F S3x256x256 .f32) (x4 : Vec F S3x256x1024 .bf16) (x5 : Vec F S3x1024 .f32) (x6 : Vec F S3x256x3 .bf16) (x7 : Vec F S3x3 .f32) (x8 : Vec F S3x256x768 .bf16) (x9 : Vec F S3x768 .f32) (x10 : Vec F S768x9 .bf16) (x11 : Vec F S9 .f32) (x12 : Vec F S768x2304 .bf16) (x13 : Vec F S2304 .f32) (x14 : Vec F S2304x44 .bf16) (x15 : Vec F S44 .f32) :
    { L : List (View.Piece (Elt F) S256x44 .f32) × List (View.Piece (Elt F) S256x2304 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L.1) ∗ (∃ f, arg17.view.loc (c : Thread nD τ) ↦[arg17.view.set]{fullShare} arg17.view.writes (Elt F) f L.2)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_), fun E K => ?run⟩
  case run =>
    simp only [cc0_kernel_eq_skeleton]; unfold cc0_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; iexact H16
    iexists _; iexact H17

end Cert.Kernel.Fr

end
-- ==== Proof.KB.Frame.lean ====
import proofs.«161507_j76424648065777_2_alg».proof.Proof.KB.Kit
import proofs.«161507_j76424648065777_2_alg».proof.Proof.KB.Run

/-! # The frame of the one region, and of @main

The launch side (the contents the region finds, each input window's block, the frame claim's post from a frame
run) and the body's run on whole staging buffers are given. Here they are put together:

* what the body leaves in the output window's staging buffer at a grid point: the pieces its run stores there
  cover the block (they tile it), so the buffer's contents are those pieces read back, whatever it held before;
* the proof data of the pipeline: each input window's buffer holds its block before and after the body, the
  output window's holds what the run leaves, and the invariant between points is the kernel's scratch buffer
  at any contents together with the generator register — the body overwrites the scratch whole before it reads
  it, so nothing is carried from one point to the next;
* the body obligation at every point, from the run; the run of @main to the library's frame post; the frame
  claim. -/

-- deciding facts over the 16 windows, and evaluating the run's pieces, recurse past the default depth
set_option maxRecDepth 65536

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

/-- Each window's current staging memref at point `t`, as the pipeline passes it to the body, and its wholeness. -/
abbrev ms0 (t : Fin cfg0.N) : Memref sig .tc .vmem S256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S3x256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x256x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S3x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S3x256x3 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S3x3 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S3x256x768 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S3x768 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S768x9 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S9 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S768x2304 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S2304 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S2304x44 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S44 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S256x44 .f32 := win0_15.stage (cfg0.slots t 15)
abbrev hs15 (t : Fin cfg0.N) : (ms15 t).IsWhole := hstage0_15 ((cfg0.slots t 15).cast nbuf0_15)
/-- The kernel's scratch operand: a whole scoped buffer of its own, passed beside the windows. -/
abbrev scM : Memref sig .tc .vmem S256x2304 .f32 := Memref.whole cc0_scratch0
/-- One staging buffer of the output window, through which its contents are stated (what covering writes leave
    does not depend on the view or on the prior contents, so the choice does not matter). -/
abbrev VO15 : View sig .tc .vmem S256x44 .f32 := (Memref.whole cc0_stg15_0 : Memref sig .tc .vmem S256x44 .f32).view

/-- The invariant between points, with the scratch operand as a memref owned at some contents: the core's only
    scoped buffer that is no staging buffer is the scratch, and a whole buffer owned at contents is its points-to. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the body leaves in the output window's buffer -/

/-- The pieces the run stores in the output buffer tile its block of 256 rows by 44 (checked by evaluating the
    pieces' rectangles), so they cover it. -/
theorem cover15 (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S768x9 .bf16) (harg10 : arg10.IsWhole) (arg11 : Memref sig .tc .vmem S9 .f32) (harg11 : arg11.IsWhole) (arg12 : Memref sig .tc .vmem S768x2304 .bf16) (harg12 : arg12.IsWhole) (arg13 : Memref sig .tc .vmem S2304 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole) (arg17 : Memref sig .tc .vmem S256x2304 .f32) (harg17 : arg17.IsWhole)
    (x1 : Vec F S256x256 .f32) (x2 : Vec F S3x256x256 .f32) (x3 : Vec F S3x256x256 .f32) (x4 : Vec F S3x256x1024 .bf16) (x5 : Vec F S3x1024 .f32) (x6 : Vec F S3x256x3 .bf16) (x7 : Vec F S3x3 .f32) (x8 : Vec F S3x256x768 .bf16) (x9 : Vec F S3x768 .f32) (x10 : Vec F S768x9 .bf16) (x11 : Vec F S9 .f32) (x12 : Vec F S768x2304 .bf16) (x13 : Vec F S2304 .f32) (x14 : Vec F S2304x44 .bf16) (x15 : Vec F S44 .f32) (y : S256x44.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15).1.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15).1.1 S256x44.size (by sl_kernel_rfl) y

/-- What the body leaves in the output window's staging buffer: the run's pieces read back over junk. -/
def out15 (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S768x9 .bf16) (harg10 : arg10.IsWhole) (arg11 : Memref sig .tc .vmem S9 .f32) (harg11 : arg11.IsWhole) (arg12 : Memref sig .tc .vmem S768x2304 .bf16) (harg12 : arg12.IsWhole) (arg13 : Memref sig .tc .vmem S2304 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole) (arg17 : Memref sig .tc .vmem S256x2304 .f32) (harg17 : arg17.IsWhole)
    (x1 : Vec F S256x256 .f32) (x2 : Vec F S3x256x256 .f32) (x3 : Vec F S3x256x256 .f32) (x4 : Vec F S3x256x1024 .bf16) (x5 : Vec F S3x1024 .f32) (x6 : Vec F S3x256x3 .bf16) (x7 : Vec F S3x3 .f32) (x8 : Vec F S3x256x768 .bf16) (x9 : Vec F S3x768 .f32) (x10 : Vec F S768x9 .bf16) (x11 : Vec F S9 .f32) (x12 : Vec F S768x2304 .bf16) (x13 : Vec F S2304 .f32) (x14 : Vec F S2304x44 .bf16) (x15 : Vec F S44 .f32) : Vec F S256x44 .f32 :=
  VO15.read (Elt F) (VO15.writes (Elt F) VO15.junk (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15).1.1)

/-- The same at grid point `t`: the run at the point's staging memrefs, on the input windows' blocks there. -/
def outAt (c : Dev nD) (t : Fin cfg0.N) : Vec F S256x44 .f32 :=
  out15 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-! ## The pipeline's proof data -/

/-- The proof data of the one pipeline on core `c`: the arrays as the region finds them (`V`); after the body at
    point `t` each input's buffer at its block and the output's at `outAt`; the invariant the scratch at anything
    and the generator register at some state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt m c t
    | ⟨_ + 16, h⟩ => absurd h (Nat.not_lt.2 (Nat.le_add_left _ _))
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t))

set_option maxHeartbeats 4000000 in
/-- The body at any point: the inputs' memrefs hold their blocks (`before0_W`) and the invariant hands over the
    scratch at some contents, so the run applies; it returns the inputs as they were, the output buffer written by
    pieces that cover it — so at `outAt`, whatever it held —, and the scratch written by its pieces, whose
    contents the invariant forgets; the generator register passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  unfold outAt out15
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [HS]; · iexact HS
  iintro ⟨H0, H1, H2, H3, H4, H5, H6, H7, H8, H9, H10, H11, H12, H13, H14, ⟨%e15, H15⟩, ⟨%es, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold owns; iexists _; isplitr
  swap; · iexact H15
  ipureintro; exact View.read_writes_of_cover _ _ _ _ _ (cover15 c _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's implicit arguments are found by unifying its conclusion with this one, which takes unfolding plain
-- definitions in a metavariable's type
set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: @main runs, terminates without fault, and its 25 argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

end Cert.Kernel.Fr

end
-- ==== Proof.KI.Kit.lean ====
import proofs.«161507_j76424648065777_2_alg».proof.Proof.Gen.KernelIdeal.Launch
import proofs.«161507_j76424648065777_2_alg».proof.Proof.Gen.KernelIdeal.Points
import Idealize.ShloMosaic.Lib.Pipeline.FrameBody
import Idealize.ShloMosaic.Lib.Ring
import Idealize.ShloMosaic.Lib.Tactic

/-! # The launch side of the frame: @main up to its one region

@main is 27 host operations (transposes, concatenations, conversions, reshapes: each writes one fresh result
buffer and nothing else) followed by one pipelined region over 16 windows, and nothing after it. This module
holds what is the launch's and not the kernel body's:

* the buffer contents the region finds (`V`): the launched memory after the host operations;
* that none of the 25 argument arrays is written by a host operation, so the region finds each as launched;
* each window's block at a grid point, read off its array as the region finds it (`iblk`), and that an input
  window's current staging buffer holds that block at every point, whether the pipeline fetched it there or
  not (a window whose block index never moves is fetched at the first point only, and still holds its block);
* the frame claim's post from a run to the library's frame post, for any proof data over these arrays. -/

-- deciding facts over the 16 windows and the 53 buffers recurses past the default depth
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered, as a valuation: the launched memory after the host
    operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor

/-- @main up to the region: the line of host operations, then the region; the region finds the launched memory
    as the host operations leave it. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-! ## The argument arrays are as launched -/

/-- The buffers the host operations write: their 27 results, each a buffer of its own. -/
abbrev hostResults : List (Ref sig .tc) :=
  [main_v0, main_v1, main_v2, main_v3, main_v4, main_v5, main_v6, main_v7, main_v8, main_v9, main_v10, main_v11, main_v12,
   main_v13, main_v14, main_v15, main_v16, main_v17, main_v18, main_v19, main_v20, main_v21, main_v22, main_v23, main_v24,
   main_v25, main_v26]

/-- Each host operation writes its one result and nothing else. -/
theorem hostOps0_writes : (List.flatten [hostOps0] : List (HloOp τ sig (Elt F))).Forall fun op =>
    op.writes ⊆ (hostResults.map (Proc.devRef (τ := τ) .tc)).toFinset := by
  simp only [hostOps0, List.flatten_cons, List.flatten_nil, List.append_nil, List.Forall, StableHlo.unary_writes,
    StableHlo.nary_writes, StableHlo.reshape_writes, Finset.singleton_subset_iff, List.mem_toFinset]
  repeat' apply And.intro
  all_goals exact List.mem_map_of_mem (by decide)

/-- A buffer that is no host operation's result is found by the region as launched. -/
theorem V_of_not_result (c : Dev nD) (b : Ref sig .tc) (hb : b ∉ hostResults) : V m c b = m ((c : Thread nD τ).loc b) :=
  StableHlo.after_of_writes_sub _ _ hostOps0_writes hb

theorem V_main_arg0 (c : Dev nD) : V m c main_arg0 = m ((c : Thread nD τ).loc main_arg0) := V_of_not_result m c main_arg0 (by decide)
theorem V_main_arg1 (c : Dev nD) : V m c main_arg1 = m ((c : Thread nD τ).loc main_arg1) := V_of_not_result m c main_arg1 (by decide)
theorem V_main_arg2 (c : Dev nD) : V m c main_arg2 = m ((c : Thread nD τ).loc main_arg2) := V_of_not_result m c main_arg2 (by decide)
theorem V_main_arg3 (c : Dev nD) : V m c main_arg3 = m ((c : Thread nD τ).loc main_arg3) := V_of_not_result m c main_arg3 (by decide)
theorem V_main_arg4 (c : Dev nD) : V m c main_arg4 = m ((c : Thread nD τ).loc main_arg4) := V_of_not_result m c main_arg4 (by decide)
theorem V_main_arg5 (c : Dev nD) : V m c main_arg5 = m ((c : Thread nD τ).loc main_arg5) := V_of_not_result m c main_arg5 (by decide)
theorem V_main_arg6 (c : Dev nD) : V m c main_arg6 = m ((c : Thread nD τ).loc main_arg6) := V_of_not_result m c main_arg6 (by decide)
theorem V_main_arg7 (c : Dev nD) : V m c main_arg7 = m ((c : Thread nD τ).loc main_arg7) := V_of_not_result m c main_arg7 (by decide)
theorem V_main_arg8 (c : Dev nD) : V m c main_arg8 = m ((c : Thread nD τ).loc main_arg8) := V_of_not_result m c main_arg8 (by decide)
theorem V_main_arg9 (c : Dev nD) : V m c main_arg9 = m ((c : Thread nD τ).loc main_arg9) := V_of_not_result m c main_arg9 (by decide)
theorem V_main_arg10 (c : Dev nD) : V m c main_arg10 = m ((c : Thread nD τ).loc main_arg10) := V_of_not_result m c main_arg10 (by decide)
theorem V_main_arg11 (c : Dev nD) : V m c main_arg11 = m ((c : Thread nD τ).loc main_arg11) := V_of_not_result m c main_arg11 (by decide)
theorem V_main_arg12 (c : Dev nD) : V m c main_arg12 = m ((c : Thread nD τ).loc main_arg12) := V_of_not_result m c main_arg12 (by decide)
theorem V_main_arg13 (c : Dev nD) : V m c main_arg13 = m ((c : Thread nD τ).loc main_arg13) := V_of_not_result m c main_arg13 (by decide)
theorem V_main_arg14 (c : Dev nD) : V m c main_arg14 = m ((c : Thread nD τ).loc main_arg14) := V_of_not_result m c main_arg14 (by decide)
theorem V_main_arg15 (c : Dev nD) : V m c main_arg15 = m ((c : Thread nD τ).loc main_arg15) := V_of_not_result m c main_arg15 (by decide)
theorem V_main_arg16 (c : Dev nD) : V m c main_arg16 = m ((c : Thread nD τ).loc main_arg16) := V_of_not_result m c main_arg16 (by decide)
theorem V_main_arg17 (c : Dev nD) : V m c main_arg17 = m ((c : Thread nD τ).loc main_arg17) := V_of_not_result m c main_arg17 (by decide)
theorem V_main_arg18 (c : Dev nD) : V m c main_arg18 = m ((c : Thread nD τ).loc main_arg18) := V_of_not_result m c main_arg18 (by decide)
theorem V_main_arg19 (c : Dev nD) : V m c main_arg19 = m ((c : Thread nD τ).loc main_arg19) := V_of_not_result m c main_arg19 (by decide)
theorem V_main_arg20 (c : Dev nD) : V m c main_arg20 = m ((c : Thread nD τ).loc main_arg20) := V_of_not_result m c main_arg20 (by decide)
theorem V_main_arg21 (c : Dev nD) : V m c main_arg21 = m ((c : Thread nD τ).loc main_arg21) := V_of_not_result m c main_arg21 (by decide)
theorem V_main_arg22 (c : Dev nD) : V m c main_arg22 = m ((c : Thread nD τ).loc main_arg22) := V_of_not_result m c main_arg22 (by decide)
theorem V_main_arg23 (c : Dev nD) : V m c main_arg23 = m ((c : Thread nD τ).loc main_arg23) := V_of_not_result m c main_arg23 (by decide)
theorem V_main_arg24 (c : Dev nD) : V m c main_arg24 = m ((c : Thread nD τ).loc main_arg24) := V_of_not_result m c main_arg24 (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, for ANY proof data whose array is
    `V`'s (`hA`) and whose body leaves the block in place (`hafter`). Where the pipeline fetches the window the
    buffer holds what was fetched; where it does not, the block index has not moved since the previous point, the
    body left the previous block in place, and that block is this point's. Windows 0, 1, 2 are fetched at every
    point; windows 3 to 14 have a constant block index and are fetched at the first point only. Every window is
    uncut and never idle. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to the
    library's frame post is the frame claim's post. An argument that is an input window's array (arguments 0, 1, 2,
    12, 24: windows 0, 1, 2, 6, 14) ends at the window's array contents, which for an input are its entry contents;
    an argument no window stages ends at its entry contents by the post's second clause; and the entry contents
    of every argument are the launched ones. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 6).trans (((dats 0 c).arrAt_in 6 rfl _).trans ((hA c 6).trans (V_main_arg12 m c))),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).1 14).trans (((dats 0 c).arrAt_in 14 rfl _).trans ((hA c 14).trans (V_main_arg24 m c)))⟩) h

end Cert.KernelIdeal.Fr

end
-- ==== Proof.KI.Run.lean ====
/-
  The kernel body of the gated-feedback LSTM cell, run once on whole staging buffers.

  The body loads the batch tile of the input, of the three layers' hidden and cell states and every
  weight and bias, runs ten time steps of three layers each, keeps the top layer's hidden state of
  the first nine steps in the scratch buffer (nine column slabs of 256), reads the scratch back
  whole and stores one block of the output. Here the body is executed symbolically: from the input
  buffers at given contents, and the output and scratch buffers at anything, it ends with the
  inputs as they were and with the output and the scratch written by lists of pieces that the
  execution itself finds.
-/
import proofs.«161507_j76424648065777_2_alg».proof.Proof.Gen.KernelIdeal.Launch
import proofs.«161507_j76424648065777_2_alg».proof.Proof.Gen.KernelIdeal.Skeleton
import proofs.«161507_j76424648065777_2_alg».proof.Proof.Gen.KernelIdeal.Points
import Idealize.ShloMosaic.Lib.Pipeline.FrameBody
import Idealize.ShloMosaic.Lib.Ring
import Idealize.ShloMosaic.Lib.Tactic

set_option maxRecDepth 65536

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- The pieces the body's stores leave in the output buffer (one block of 256 rows by 44) and in the
    scratch buffer (nine slabs of 256 columns), with the proof that the body, started on whole
    buffers, runs to its end, faults nowhere and leaves the inputs untouched. -/
noncomputable def kernelRun (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S768x9 .bf16) (harg10 : arg10.IsWhole) (arg11 : Memref sig .tc .vmem S9 .f32) (harg11 : arg11.IsWhole) (arg12 : Memref sig .tc .vmem S768x2304 .bf16) (harg12 : arg12.IsWhole) (arg13 : Memref sig .tc .vmem S2304 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole) (arg17 : Memref sig .tc .vmem S256x2304 .f32) (harg17 : arg17.IsWhole)
    (x1 : Vec F S256x256 .f32) (x2 : Vec F S3x256x256 .f32) (x3 : Vec F S3x256x256 .f32) (x4 : Vec F S3x256x1024 .bf16) (x5 : Vec F S3x1024 .f32) (x6 : Vec F S3x256x3 .bf16) (x7 : Vec F S3x3 .f32) (x8 : Vec F S3x256x768 .bf16) (x9 : Vec F S3x768 .f32) (x10 : Vec F S768x9 .bf16) (x11 : Vec F S9 .f32) (x12 : Vec F S768x2304 .bf16) (x13 : Vec F S2304 .f32) (x14 : Vec F S2304x44 .bf16) (x15 : Vec F S44 .f32) :
    { L : List (View.Piece (Elt F) S256x44 .f32) × List (View.Piece (Elt F) S256x2304 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L.1) ∗ (∃ f, arg17.view.loc (c : Thread nD τ) ↦[arg17.view.set]{fullShare} arg17.view.writes (Elt F) f L.2)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_), fun E K => ?run⟩
  case run =>
    simp only [cc0_kernel_eq_skeleton]; unfold cc0_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; iexact H16
    iexists _; iexact H17

end Cert.KernelIdeal.Fr

end
-- ==== Proof.KI.Frame.lean ====
import proofs.«161507_j76424648065777_2_alg».proof.Proof.KI.Kit
import proofs.«161507_j76424648065777_2_alg».proof.Proof.KI.Run

/-! # The frame of the one region, and of @main

The launch side (the contents the region finds, each input window's block, the frame claim's post from a frame
run) and the body's run on whole staging buffers are given. Here they are put together:

* what the body leaves in the output window's staging buffer at a grid point: the pieces its run stores there
  cover the block (they tile it), so the buffer's contents are those pieces read back, whatever it held before;
* the proof data of the pipeline: each input window's buffer holds its block before and after the body, the
  output window's holds what the run leaves, and the invariant between points is the kernel's scratch buffer
  at any contents together with the generator register — the body overwrites the scratch whole before it reads
  it, so nothing is carried from one point to the next;
* the body obligation at every point, from the run; the run of @main to the library's frame post; the frame
  claim. -/

-- deciding facts over the 16 windows, and evaluating the run's pieces, recurse past the default depth
set_option maxRecDepth 65536

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

/-- Each window's current staging memref at point `t`, as the pipeline passes it to the body, and its wholeness. -/
abbrev ms0 (t : Fin cfg0.N) : Memref sig .tc .vmem S256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S3x256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x256x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S3x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S3x256x3 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S3x3 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S3x256x768 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S3x768 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S768x9 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S9 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S768x2304 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S2304 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S2304x44 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S44 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S256x44 .f32 := win0_15.stage (cfg0.slots t 15)
abbrev hs15 (t : Fin cfg0.N) : (ms15 t).IsWhole := hstage0_15 ((cfg0.slots t 15).cast nbuf0_15)
/-- The kernel's scratch operand: a whole scoped buffer of its own, passed beside the windows. -/
abbrev scM : Memref sig .tc .vmem S256x2304 .f32 := Memref.whole cc0_scratch0
/-- One staging buffer of the output window, through which its contents are stated (what covering writes leave
    does not depend on the view or on the prior contents, so the choice does not matter). -/
abbrev VO15 : View sig .tc .vmem S256x44 .f32 := (Memref.whole cc0_stg15_0 : Memref sig .tc .vmem S256x44 .f32).view

/-- The invariant between points, with the scratch operand as a memref owned at some contents: the core's only
    scoped buffer that is no staging buffer is the scratch, and a whole buffer owned at contents is its points-to. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the body leaves in the output window's buffer -/

/-- The pieces the run stores in the output buffer tile its block of 256 rows by 44 (checked by evaluating the
    pieces' rectangles), so they cover it. -/
theorem cover15 (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S768x9 .bf16) (harg10 : arg10.IsWhole) (arg11 : Memref sig .tc .vmem S9 .f32) (harg11 : arg11.IsWhole) (arg12 : Memref sig .tc .vmem S768x2304 .bf16) (harg12 : arg12.IsWhole) (arg13 : Memref sig .tc .vmem S2304 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole) (arg17 : Memref sig .tc .vmem S256x2304 .f32) (harg17 : arg17.IsWhole)
    (x1 : Vec F S256x256 .f32) (x2 : Vec F S3x256x256 .f32) (x3 : Vec F S3x256x256 .f32) (x4 : Vec F S3x256x1024 .bf16) (x5 : Vec F S3x1024 .f32) (x6 : Vec F S3x256x3 .bf16) (x7 : Vec F S3x3 .f32) (x8 : Vec F S3x256x768 .bf16) (x9 : Vec F S3x768 .f32) (x10 : Vec F S768x9 .bf16) (x11 : Vec F S9 .f32) (x12 : Vec F S768x2304 .bf16) (x13 : Vec F S2304 .f32) (x14 : Vec F S2304x44 .bf16) (x15 : Vec F S44 .f32) (y : S256x44.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15).1.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15).1.1 S256x44.size (by sl_kernel_rfl) y

/-- What the body leaves in the output window's staging buffer: the run's pieces read back over junk. -/
def out15 (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S768x9 .bf16) (harg10 : arg10.IsWhole) (arg11 : Memref sig .tc .vmem S9 .f32) (harg11 : arg11.IsWhole) (arg12 : Memref sig .tc .vmem S768x2304 .bf16) (harg12 : arg12.IsWhole) (arg13 : Memref sig .tc .vmem S2304 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole) (arg17 : Memref sig .tc .vmem S256x2304 .f32) (harg17 : arg17.IsWhole)
    (x1 : Vec F S256x256 .f32) (x2 : Vec F S3x256x256 .f32) (x3 : Vec F S3x256x256 .f32) (x4 : Vec F S3x256x1024 .bf16) (x5 : Vec F S3x1024 .f32) (x6 : Vec F S3x256x3 .bf16) (x7 : Vec F S3x3 .f32) (x8 : Vec F S3x256x768 .bf16) (x9 : Vec F S3x768 .f32) (x10 : Vec F S768x9 .bf16) (x11 : Vec F S9 .f32) (x12 : Vec F S768x2304 .bf16) (x13 : Vec F S2304 .f32) (x14 : Vec F S2304x44 .bf16) (x15 : Vec F S44 .f32) : Vec F S256x44 .f32 :=
  VO15.read (Elt F) (VO15.writes (Elt F) VO15.junk (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15).1.1)

/-- The same at grid point `t`: the run at the point's staging memrefs, on the input windows' blocks there. -/
def outAt (c : Dev nD) (t : Fin cfg0.N) : Vec F S256x44 .f32 :=
  out15 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scM (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-! ## The pipeline's proof data -/

/-- The proof data of the one pipeline on core `c`: the arrays as the region finds them (`V`); after the body at
    point `t` each input's buffer at its block and the output's at `outAt`; the invariant the scratch at anything
    and the generator register at some state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt m c t
    | ⟨_ + 16, h⟩ => absurd h (Nat.not_lt.2 (Nat.le_add_left _ _))
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t))

set_option maxHeartbeats 4000000 in
/-- The body at any point: the inputs' memrefs hold their blocks (`before0_W`) and the invariant hands over the
    scratch at some contents, so the run applies; it returns the inputs as they were, the output buffer written by
    pieces that cover it — so at `outAt`, whatever it held —, and the scratch written by its pieces, whose
    contents the invariant forgets; the generator register passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  unfold outAt out15
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [HS]; · iexact HS
  iintro ⟨H0, H1, H2, H3, H4, H5, H6, H7, H8, H9, H10, H11, H12, H13, H14, ⟨%e15, H15⟩, ⟨%es, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold owns; iexists _; isplitr
  swap; · iexact H15
  ipureintro; exact View.read_writes_of_cover _ _ _ _ _ (cover15 c _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's implicit arguments are found by unifying its conclusion with this one, which takes unfolding plain
-- definitions in a metavariable's type
set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: @main runs, terminates without fault, and its 25 argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

end Cert.KernelIdeal.Fr

end
-- ==== Proof.Spec.lean ====
/-
  The gated-feedback LSTM cell, one batch row at a time, on the extended reals.

  Every operation of the cell acts on the rows of the batch independently: an affine map
  `v ↦ v Wᵀ + b`, a logistic or hyperbolic-tangent gate, products and sums of gates. So the whole
  computation is a function of ONE row of the input `x`, of that row of the three layers' initial
  hidden and cell states, and of the weights. This module states that function: one layer
  (`layer`), one time step of three layers (`step`), the top layer's hidden state of the first
  nine steps laid side by side (`feat`), and the final affine map and logistic (`out`).
  Both programs are compared with it, row by row.
-/
import Idealize.ShloMosaic.PureOps.Ideal
import Mathlib.Algebra.BigOperators.Fin

noncomputable section

namespace Cert.Spec

open Idealize.ShloMosaic

/-- The weights and biases as functions of their indices. `Wi_* l n k`: layer `l`, output unit `n`,
    input unit `k` (the affine maps are `v ↦ v Wᵀ + b`). -/
structure Params where
  Wi_f : Fin 3 → Fin 256 → Fin 256 → EReal
  bi_f : Fin 3 → Fin 256 → EReal
  Wi_i : Fin 3 → Fin 256 → Fin 256 → EReal
  bi_i : Fin 3 → Fin 256 → EReal
  Wi_o : Fin 3 → Fin 256 → Fin 256 → EReal
  bi_o : Fin 3 → Fin 256 → EReal
  Wi_c : Fin 3 → Fin 256 → Fin 256 → EReal
  bi_c : Fin 3 → Fin 256 → EReal
  Wi_g : Fin 3 → Fin 3 → Fin 256 → EReal
  bi_g : Fin 3 → Fin 3 → EReal
  Wh_f : Fin 3 → Fin 256 → Fin 256 → EReal
  bh_f : Fin 3 → Fin 256 → EReal
  Wh_i : Fin 3 → Fin 256 → Fin 256 → EReal
  bh_i : Fin 3 → Fin 256 → EReal
  Wh_o : Fin 3 → Fin 256 → Fin 256 → EReal
  bh_o : Fin 3 → Fin 256 → EReal
  Wh_g : Fin 3 → Fin 3 → Fin 768 → EReal
  bh_g : Fin 3 → Fin 3 → EReal
  Wh_c : Fin 3 → Fin 768 → Fin 768 → EReal
  bh_c : Fin 3 → Fin 768 → EReal
  W_last : Fin 44 → Fin 2304 → EReal
  b_last : Fin 44 → EReal

/-- One output unit of an affine map: `∑ₖ vₖ wₖ + b`. -/
def lin {K : ℕ} (w : Fin K → EReal) (b : EReal) (v : Fin K → EReal) : EReal := (∑ k, v k * w k) + b

/-- Column `s * 256 + n` of a row of width 768: slab `s`, unit `n`. -/
def slab (s : Fin 3) (n : Fin 256) : Fin 768 := ⟨s.val * 256 + n.val, by have := s.isLt; have := n.isLt; omega⟩

/-- The three layers' hidden rows laid side by side, layer-major. -/
def hcat (h : Fin 3 → Fin 256 → EReal) : Fin 768 → EReal :=
  fun k => h ⟨k.val / 256, by have := k.isLt; omega⟩ ⟨k.val % 256, Nat.mod_lt _ (by norm_num)⟩

/-- A row's state: the three layers' hidden rows and cell rows. -/
abbrev State := (Fin 3 → Fin 256 → EReal) × (Fin 3 → Fin 256 → EReal)

/-- Layer `l` of one time step on one row: from the layer's input row `inp`, the previous step's hidden
    rows `hp` of all layers and this layer's previous cell row `cl`, the new hidden row and cell row.
    The forget, input and output gates see the input and this layer's own previous hidden row; the
    three-way gate `g` and the candidate's cross-layer term see all layers' previous hidden rows. -/
def layer (P : Params) (l : Fin 3) (inp : Fin 256 → EReal) (hp : Fin 3 → Fin 256 → EReal) (cl : Fin 256 → EReal) :
    (Fin 256 → EReal) × (Fin 256 → EReal) :=
  let f : Fin 256 → EReal := fun n => Ideal.logistic (lin (P.Wi_f l n) (P.bi_f l n) inp + lin (P.Wh_f l n) (P.bh_f l n) (hp l))
  let ig : Fin 256 → EReal := fun n => Ideal.logistic (lin (P.Wi_i l n) (P.bi_i l n) inp + lin (P.Wh_i l n) (P.bh_i l n) (hp l))
  let o : Fin 256 → EReal := fun n => Ideal.logistic (lin (P.Wi_o l n) (P.bi_o l n) inp + lin (P.Wh_o l n) (P.bh_o l n) (hp l))
  let g : Fin 3 → EReal := fun s => Ideal.logistic (lin (P.Wi_g l s) (P.bi_g l s) inp + lin (P.Wh_g l s) (P.bh_g l s) (hcat hp))
  let aux : Fin 256 → EReal := fun n => ∑ s : Fin 3, lin (P.Wh_c l (slab s n)) (P.bh_c l (slab s n)) (hcat hp) * g s
  let ct : Fin 256 → EReal := fun n => Ideal.tanh (lin (P.Wi_c l n) (P.bi_c l n) inp + aux n)
  let c : Fin 256 → EReal := fun n => f n * cl n + ig n * ct n
  (fun n => o n * c n, c)

/-- One time step on one row: the three layers in turn, each fed the layer below's new hidden row
    (the bottom one the input row `x`), all reading the PREVIOUS step's hidden rows. -/
def step (P : Params) (x : Fin 256 → EReal) (s : State) : State :=
  let r0 := layer P 0 x s.1 (s.2 0)
  let r1 := layer P 1 r0.1 s.1 (s.2 1)
  let r2 := layer P 2 r1.1 s.1 (s.2 2)
  (![r0.1, r1.1, r2.1], ![r0.2, r1.2, r2.2])

/-- The features of the last map: the top layer's hidden row after steps 1 … 9, side by side. -/
def feat (P : Params) (x : Fin 256 → EReal) (s0 : State) : Fin 2304 → EReal :=
  fun k => ((step P x)^[k.val / 256 + 1] s0).1 2 ⟨k.val % 256, Nat.mod_lt _ (by norm_num)⟩

/-- The cell's output on one row. -/
def out (P : Params) (x : Fin 256 → EReal) (s0 : State) (j : Fin 44) : EReal :=
  Ideal.logistic (lin (P.W_last j) (P.b_last j) (feat P x s0))

end Cert.Spec

end
-- ==== Proof.SpecArgs.lean ====
/-
  The cell's arguments as plain arrays, and the whole-batch function both programs compute.

  `Args` bundles the twenty-five argument arrays at their literal shapes; `Args.params` reads the
  weights and biases off them, `Args.xrow` and `Args.s0` take batch row `b` of the input and of the
  initial hidden and cell states, and `G` is the result array: entry `(b, j)` is the row function
  `Spec.out` of row `b` at output unit `j`.
-/
import proofs.«161507_j76424648065777_2_alg».proof.Proof.Spec
import Idealize.ShloMosaic.Lib.ValueIdx

noncomputable section

namespace Cert.Spec

open Idealize.ShloMosaic Idealize.ShloMosaic.ValueIdx

/-- The argument arrays, in the order of the programs' parameters. -/
structure Args where
  x : (⟨2, ![4096, 256]⟩ : Shape).Idx → EReal
  hidden0 : (⟨3, ![3, 4096, 256]⟩ : Shape).Idx → EReal
  current0 : (⟨3, ![3, 4096, 256]⟩ : Shape).Idx → EReal
  Wi_f : (⟨3, ![3, 256, 256]⟩ : Shape).Idx → EReal
  bi_f : (⟨2, ![3, 256]⟩ : Shape).Idx → EReal
  Wi_i : (⟨3, ![3, 256, 256]⟩ : Shape).Idx → EReal
  bi_i : (⟨2, ![3, 256]⟩ : Shape).Idx → EReal
  Wi_o : (⟨3, ![3, 256, 256]⟩ : Shape).Idx → EReal
  bi_o : (⟨2, ![3, 256]⟩ : Shape).Idx → EReal
  Wi_c : (⟨3, ![3, 256, 256]⟩ : Shape).Idx → EReal
  bi_c : (⟨2, ![3, 256]⟩ : Shape).Idx → EReal
  Wi_g : (⟨3, ![3, 3, 256]⟩ : Shape).Idx → EReal
  bi_g : (⟨2, ![3, 3]⟩ : Shape).Idx → EReal
  Wh_f : (⟨3, ![3, 256, 256]⟩ : Shape).Idx → EReal
  bh_f : (⟨2, ![3, 256]⟩ : Shape).Idx → EReal
  Wh_i : (⟨3, ![3, 256, 256]⟩ : Shape).Idx → EReal
  bh_i : (⟨2, ![3, 256]⟩ : Shape).Idx → EReal
  Wh_o : (⟨3, ![3, 256, 256]⟩ : Shape).Idx → EReal
  bh_o : (⟨2, ![3, 256]⟩ : Shape).Idx → EReal
  Wh_g : (⟨3, ![3, 3, 768]⟩ : Shape).Idx → EReal
  bh_g : (⟨2, ![3, 3]⟩ : Shape).Idx → EReal
  Wh_c : (⟨3, ![3, 768, 768]⟩ : Shape).Idx → EReal
  bh_c : (⟨2, ![3, 768]⟩ : Shape).Idx → EReal
  W_last : (⟨2, ![44, 2304]⟩ : Shape).Idx → EReal
  b_last : (⟨1, ![44]⟩ : Shape).Idx → EReal

/-- The weights and biases read off the arrays, index by index. -/
def Args.params (A : Args) : Params where
  Wi_f l n k := A.Wi_f (ix3 l n k)
  bi_f l n := A.bi_f (ix2 l n)
  Wi_i l n k := A.Wi_i (ix3 l n k)
  bi_i l n := A.bi_i (ix2 l n)
  Wi_o l n k := A.Wi_o (ix3 l n k)
  bi_o l n := A.bi_o (ix2 l n)
  Wi_c l n k := A.Wi_c (ix3 l n k)
  bi_c l n := A.bi_c (ix2 l n)
  Wi_g l s k := A.Wi_g (ix3 l s k)
  bi_g l s := A.bi_g (ix2 l s)
  Wh_f l n k := A.Wh_f (ix3 l n k)
  bh_f l n := A.bh_f (ix2 l n)
  Wh_i l n k := A.Wh_i (ix3 l n k)
  bh_i l n := A.bh_i (ix2 l n)
  Wh_o l n k := A.Wh_o (ix3 l n k)
  bh_o l n := A.bh_o (ix2 l n)
  Wh_g l s k := A.Wh_g (ix3 l s k)
  bh_g l s := A.bh_g (ix2 l s)
  Wh_c l n k := A.Wh_c (ix3 l n k)
  bh_c l n := A.bh_c (ix2 l n)
  W_last j k := A.W_last (ix2 j k)
  b_last j := A.b_last (ix1 j)

/-- Batch row `b` of the input. -/
def Args.xrow (A : Args) (b : Fin 4096) : Fin 256 → EReal := fun k => A.x (ix2 b k)

/-- Batch row `b` of the initial hidden and cell states of the three layers. -/
def Args.s0 (A : Args) (b : Fin 4096) : State := (fun l n => A.hidden0 (ix3 l b n), fun l n => A.current0 (ix3 l b n))

/-- The state of batch row `b` after `t` time steps. -/
def Args.st (A : Args) (b : Fin 4096) (t : ℕ) : State := (step A.params (A.xrow b))^[t] (A.s0 b)

/-- The result array of the whole batch: entry `(b, j)`. -/
def G (A : Args) : (⟨2, ![4096, 44]⟩ : Shape).Idx → EReal :=
  fun i => out A.params (A.xrow ⟨(i 0).val, (i 0).isLt⟩) (A.s0 ⟨(i 0).val, (i 0).isLt⟩) ⟨(i 1).val, (i 1).isLt⟩

theorem G_ix2 (A : Args) (b : Fin 4096) (j : Fin 44) : G A (ix2 b j) = out A.params (A.xrow b) (A.s0 b) j := rfl

end Cert.Spec

end
-- ==== Proof.KV.Struct.lean ====
/-
  The kernel body's arithmetic, arranged by time step.

  The kernel unrolls nine time steps of three layers. In every step it first forms, from the three
  layers' previous hidden blocks, the three "hidden-side" products (the per-layer gate projections
  as one batched product, the three-way gates' projection and the cross-layer projection as two
  wide products), then runs the three layers in turn; the bottom layer's input-side projections do
  not depend on the step and are computed once. `hid` and `cell` are those two stages and `step`
  one whole time step on the six blocks of state; `iter` repeats it.
-/
import proofs.«161507_j76424648065777_2_alg».proof.KernelIdeal

noncomputable section

namespace Cert.KernelIdeal.KV

open Cert.KernelIdeal
open Idealize.ShloMosaic

variable {F : FTy → Type} [FloatOps F]
variable [Facts]
open Facts₀ Facts

/-- The weights and biases as the body loads them, and the bottom layer's two step-independent
    input-side projections. -/
structure Consts (F : FTy → Type) where
  linI0 : FVec F S256x1024 .f32
  gI0 : FVec F S256x3 .f32
  w8 : Vec F S3x256x768 .bf16
  b9 : Vec F S3x768 .f32
  w10 : Vec F S768x9 .bf16
  b11 : Vec F S9 .f32
  w12 : Vec F S768x2304 .bf16
  b13 : Vec F S2304 .f32
  wi1 : Vec F S1x256x1024 .bf16
  bi1 : Vec F S1x1024 .f32
  wg1 : Vec F S1x256x3 .bf16
  bg1 : Vec F S1x3 .f32
  wi2 : Vec F S1x256x1024 .bf16
  bi2 : Vec F S1x1024 .f32
  wg2 : Vec F S1x256x3 .bf16
  bg2 : Vec F S1x3 .f32

/-- The six blocks of state: the three layers' hidden blocks and cell blocks. -/
structure St (F : FTy → Type) where
  h0 : FVec F S256x256 .f32
  h1 : FVec F S256x256 .f32
  h2 : FVec F S256x256 .f32
  c0 : FVec F S256x256 .f32
  c1 : FVec F S256x256 .f32
  c2 : FVec F S256x256 .f32

/-- The previous hidden blocks side by side, narrowed. -/
def hcatBf (h0 h1 h2 : FVec F S256x256 .f32) : FVec F S256x768 .bf16 :=
  truncf .bf16 (concatenate S256x768 1 [⟨S256x256, h0⟩, ⟨S256x256, h1⟩, ⟨S256x256, h2⟩] concatenates_S256x256_S256x256_S256x256_S256x768_d1) bitsLt_bf16_f32

/-- The per-layer gate projections of the previous hidden blocks: one batched product and its bias. -/
def linHS (K : Consts F) (h0 h1 h2 : FVec F S256x256 .f32) : FVec F S3x256x768 .f32 :=
  addf (matmul dot_S3x256x256_S3x256x768_S3x256x768_2_1_1_2_0_0 none
      (concatenate S3x256x256 0 [⟨S1x256x256, shapeCast S1x256x256 (truncf .bf16 h0 bitsLt_bf16_f32) shapeCasts_S256x256_S1x256x256⟩, ⟨S1x256x256, shapeCast S1x256x256 (truncf .bf16 h1 bitsLt_bf16_f32) shapeCasts_S256x256_S1x256x256⟩, ⟨S1x256x256, shapeCast S1x256x256 (truncf .bf16 h2 bitsLt_bf16_f32) shapeCasts_S256x256_S1x256x256⟩] concatenates_S1x256x256_S1x256x256_S1x256x256_S3x256x256_d0)
      (shapeCast S3x256x768 K.w8 shapeCasts_S3x256x768_S3x256x768) (constant S3x256x768 .f32 0x00000000#32))
    (broadcastTo S3x256x768 (shapeCast S3x1x768 (shapeCast S3x768 K.b9 shapeCasts_S3x768_S3x768) shapeCasts_S3x768_S3x1x768) broadcasts_S3x1x768_S3x256x768)

/-- The three-way gates' projection of the previous hidden blocks, all layers at once. -/
def whg (K : Consts F) (h0 h1 h2 : FVec F S256x256 .f32) : FVec F S256x9 .f32 :=
  addf (matmul dot_S256x768_S768x9_S256x9_1_0_0_1_n_n none (hcatBf h0 h1 h2) (shapeCast S768x9 K.w10 shapeCasts_S768x9_S768x9) (constant S256x9 .f32 0x00000000#32))
    (broadcastTo S256x9 (shapeCast S1x9 (shapeCast S9 K.b11 shapeCasts_S9_S9) shapeCasts_S9_S1x9) broadcasts_S1x9_S256x9)

/-- The cross-layer projection of the previous hidden blocks, all layers at once. -/
def whc (K : Consts F) (h0 h1 h2 : FVec F S256x256 .f32) : FVec F S256x2304 .f32 :=
  addf (matmul dot_S256x768_S768x2304_S256x2304_1_0_0_1_n_n none (hcatBf h0 h1 h2) (shapeCast S768x2304 K.w12 shapeCasts_S768x2304_S768x2304) (constant S256x2304 .f32 0x00000000#32))
    (broadcastTo S256x2304 (shapeCast S1x2304 (shapeCast S2304 K.b13 shapeCasts_S2304_S2304) shapeCasts_S2304_S1x2304) broadcasts_S1x2304_S256x2304)

/-- An upper layer's input-side gate projections of the layer below's new hidden block. -/
def linI (w : Vec F S1x256x1024 .bf16) (b : Vec F S1x1024 .f32) (h : FVec F S256x256 .f32) : FVec F S256x1024 .f32 :=
  addf (matmul dot_S256x256_S256x1024_S256x1024_1_0_0_1_n_n none (truncf .bf16 h bitsLt_bf16_f32) (shapeCast S256x1024 w shapeCasts_S1x256x1024_S256x1024) (constant S256x1024 .f32 0x00000000#32))
    (broadcastTo S256x1024 (shapeCast S1x1024 (shapeCast S1024 b shapeCasts_S1x1024_S1024) shapeCasts_S1024_S1x1024) broadcasts_S1x1024_S256x1024)

/-- An upper layer's input-side three-way gate projection. -/
def gLin (w : Vec F S1x256x3 .bf16) (b : Vec F S1x3 .f32) (h : FVec F S256x256 .f32) : FVec F S256x3 .f32 :=
  addf (matmul dot_S256x256_S256x3_S256x3_1_0_0_1_n_n none (truncf .bf16 h bitsLt_bf16_f32) (shapeCast S256x3 w shapeCasts_S1x256x3_S256x3) (constant S256x3 .f32 0x00000000#32))
    (broadcastTo S256x3 (shapeCast S1x3 (shapeCast S3 b shapeCasts_S1x3_S3) shapeCasts_S3_S1x3) broadcasts_S1x3_S256x3)

/-- One layer's cell from its input-side projections (`li`: forget, input, candidate, output, 256
    columns each; `gl`), its slices of the hidden-side products (`lh`: forget, input, output; `gh`;
    `ax`: the three cross-layer slabs) and its previous cell block: the new cell block. -/
def cellC (li : FVec F S256x1024 .f32) (gl : FVec F S256x3 .f32) (lh : FVec F S256x768 .f32) (gh : FVec F S256x3 .f32) (ax : FVec F S256x768 .f32) (cp : FVec F S256x256 .f32) : FVec F S256x256 .f32 :=
  addf (mulf (logistic (addf (extractStridedSlice S256x256 ![0, 0] li slices_S256x1024_o0_0_S256x256) (extractStridedSlice S256x256 ![0, 0] lh slices_S256x768_o0_0_S256x256))) cp)
    (mulf (logistic (addf (extractStridedSlice S256x256 ![0, 256] li slices_S256x1024_o0_256_S256x256) (extractStridedSlice S256x256 ![0, 256] lh slices_S256x768_o0_256_S256x256)))
      (tanh (addf (extractStridedSlice S256x256 ![0, 512] li slices_S256x1024_o0_512_S256x256)
        (addf (addf (addf (broadcast S256x256 (Scalar.ofBits .f32 0x00000000#32))
            (mulf (broadcastTo S256x256 (extractStridedSlice S256x1 ![0, 0] (logistic (addf gl gh)) slices_S256x3_o0_0_S256x1) broadcasts_S256x1_S256x256) (extractStridedSlice S256x256 ![0, 0] ax slices_S256x768_o0_0_S256x256)))
            (mulf (broadcastTo S256x256 (extractStridedSlice S256x1 ![0, 1] (logistic (addf gl gh)) slices_S256x3_o0_1_S256x1) broadcasts_S256x1_S256x256) (extractStridedSlice S256x256 ![0, 256] ax slices_S256x768_o0_256_S256x256)))
            (mulf (broadcastTo S256x256 (extractStridedSlice S256x1 ![0, 2] (logistic (addf gl gh)) slices_S256x3_o0_2_S256x1) broadcasts_S256x1_S256x256) (extractStridedSlice S256x256 ![0, 512] ax slices_S256x768_o0_512_S256x256))))))

/-- The same layer's new hidden block: the output gate times the new cell block. -/
def cellH (li : FVec F S256x1024 .f32) (gl : FVec F S256x3 .f32) (lh : FVec F S256x768 .f32) (gh : FVec F S256x3 .f32) (ax : FVec F S256x768 .f32) (cp : FVec F S256x256 .f32) : FVec F S256x256 .f32 :=
  mulf (logistic (addf (extractStridedSlice S256x256 ![0, 768] li slices_S256x1024_o0_768_S256x256) (extractStridedSlice S256x256 ![0, 512] lh slices_S256x768_o0_512_S256x256))) (cellC li gl lh gh ax cp)

/-- Layer `l`'s slice of the batched gate projections. -/
def lh0 (x : FVec F S3x256x768 .f32) : FVec F S256x768 .f32 := shapeCast S256x768 (extractStridedSlice S1x256x768 ![0, 0, 0] x slices_S3x256x768_o0_0_0_S1x256x768) shapeCasts_S1x256x768_S256x768
def lh1 (x : FVec F S3x256x768 .f32) : FVec F S256x768 .f32 := shapeCast S256x768 (extractStridedSlice S1x256x768 ![1, 0, 0] x slices_S3x256x768_o1_0_0_S1x256x768) shapeCasts_S1x256x768_S256x768
def lh2 (x : FVec F S3x256x768 .f32) : FVec F S256x768 .f32 := shapeCast S256x768 (extractStridedSlice S1x256x768 ![2, 0, 0] x slices_S3x256x768_o2_0_0_S1x256x768) shapeCasts_S1x256x768_S256x768

/-- One time step on the six blocks. -/
def step (K : Consts F) (s : St F) : St F :=
  let H := linHS K s.h0 s.h1 s.h2
  let G := whg K s.h0 s.h1 s.h2
  let C := whc K s.h0 s.h1 s.h2
  let c0 := cellC K.linI0 K.gI0 (lh0 H) (extractStridedSlice S256x3 ![0, 0] G slices_S256x9_o0_0_S256x3) (extractStridedSlice S256x768 ![0, 0] C slices_S256x2304_o0_0_S256x768) s.c0
  let h0 := cellH K.linI0 K.gI0 (lh0 H) (extractStridedSlice S256x3 ![0, 0] G slices_S256x9_o0_0_S256x3) (extractStridedSlice S256x768 ![0, 0] C slices_S256x2304_o0_0_S256x768) s.c0
  let c1 := cellC (linI K.wi1 K.bi1 h0) (gLin K.wg1 K.bg1 h0) (lh1 H) (extractStridedSlice S256x3 ![0, 3] G slices_S256x9_o0_3_S256x3) (extractStridedSlice S256x768 ![0, 768] C slices_S256x2304_o0_768_S256x768) s.c1
  let h1 := cellH (linI K.wi1 K.bi1 h0) (gLin K.wg1 K.bg1 h0) (lh1 H) (extractStridedSlice S256x3 ![0, 3] G slices_S256x9_o0_3_S256x3) (extractStridedSlice S256x768 ![0, 768] C slices_S256x2304_o0_768_S256x768) s.c1
  let c2 := cellC (linI K.wi2 K.bi2 h1) (gLin K.wg2 K.bg2 h1) (lh2 H) (extractStridedSlice S256x3 ![0, 6] G slices_S256x9_o0_6_S256x3) (extractStridedSlice S256x768 ![0, 1536] C slices_S256x2304_o0_1536_S256x768) s.c2
  let h2 := cellH (linI K.wi2 K.bi2 h1) (gLin K.wg2 K.bg2 h1) (lh2 H) (extractStridedSlice S256x3 ![0, 6] G slices_S256x9_o0_6_S256x3) (extractStridedSlice S256x768 ![0, 1536] C slices_S256x2304_o0_1536_S256x768) s.c2
  ⟨h0, h1, h2, c0, c1, c2⟩

/-- The state after `t` steps. -/
def iter (K : Consts F) (s : St F) : ℕ → St F
  | 0 => s
  | t + 1 => step K (iter K s t)

/-- The slab the body keeps of a step: the top layer's new hidden block. -/
def slabOf (s : St F) : FVec F S256x256 .f32 := shapeCast S256x256 s.h2 shapeCasts_S256x256_S256x256

end Cert.KernelIdeal.KV

end
-- ==== Proof.KV.RowDefs.lean ====
/-
  What it means for the kernel's blocks to hold the rows of the cell's state.

  A block of 256 batch rows holds, in row `r`, the state of batch row `r` of the block. `StOk s σ`:
  the six blocks `s` hold the row states `σ r`. `KOk K P x`: the loaded weights and biases `K` are
  the parameters `P` in the kernel's fused layouts, and the bottom layer's two step-independent
  projections are the input-side affine maps of layer 0 applied to the input rows `x r`.
-/
import proofs.«161507_j76424648065777_2_alg».proof.Proof.KV.Struct
import proofs.«161507_j76424648065777_2_alg».proof.Proof.Spec
import Idealize.ShloMosaic.Lib.ValueIdx

noncomputable section

namespace Cert.KernelIdeal.KV

open Cert.KernelIdeal
open Idealize.ShloMosaic Idealize.ShloMosaic.ValueIdx
open Cert.Spec (Params State lin)

variable [Facts]

/-- Column `q * 256 + n` of a row of width `w`. -/
def colq (w q : ℕ) (n : Fin 256) (h : q * 256 + 256 ≤ w) : Fin w := ⟨q * 256 + n.val, by have := n.isLt; omega⟩

/-- The six blocks hold the row states `σ r`, row by row. -/
structure StOk (s : St Ideal) (σ : Fin 256 → State) : Prop where
  h0 : ∀ (r n : Fin 256), s.h0 (ix2 r n) = (σ r).1 0 n
  h1 : ∀ (r n : Fin 256), s.h1 (ix2 r n) = (σ r).1 1 n
  h2 : ∀ (r n : Fin 256), s.h2 (ix2 r n) = (σ r).1 2 n
  c0 : ∀ (r n : Fin 256), s.c0 (ix2 r n) = (σ r).2 0 n
  c1 : ∀ (r n : Fin 256), s.c1 (ix2 r n) = (σ r).2 1 n
  c2 : ∀ (r n : Fin 256), s.c2 (ix2 r n) = (σ r).2 2 n

/-- The loaded constants are the parameters `P` in the fused layouts (every matrix transposed: input
    unit first; the forget / input / candidate / output input-side matrices side by side in that
    order, the forget / input / output hidden-side ones likewise, the three-way gates' and the
    cross-layer matrices layer-major along the output axis), and the two hoisted projections are
    layer 0's input-side affine maps of the input rows. -/
structure KOk (K : Consts Ideal) (P : Params) (x : Fin 256 → Fin 256 → EReal) : Prop where
  linI0_f : ∀ (r n : Fin 256), K.linI0 (ix2 r (colq 1024 0 n (by norm_num))) = lin (P.Wi_f 0 n) (P.bi_f 0 n) (x r)
  linI0_i : ∀ (r n : Fin 256), K.linI0 (ix2 r (colq 1024 1 n (by norm_num))) = lin (P.Wi_i 0 n) (P.bi_i 0 n) (x r)
  linI0_c : ∀ (r n : Fin 256), K.linI0 (ix2 r (colq 1024 2 n (by norm_num))) = lin (P.Wi_c 0 n) (P.bi_c 0 n) (x r)
  linI0_o : ∀ (r n : Fin 256), K.linI0 (ix2 r (colq 1024 3 n (by norm_num))) = lin (P.Wi_o 0 n) (P.bi_o 0 n) (x r)
  gI0 : ∀ (r : Fin 256) (s : Fin 3), K.gI0 (ix2 r s) = lin (P.Wi_g 0 s) (P.bi_g 0 s) (x r)
  w8_f : ∀ (l : Fin 3) (k n : Fin 256), K.w8 (ix3 l k (colq 768 0 n (by norm_num))) = P.Wh_f l n k
  w8_i : ∀ (l : Fin 3) (k n : Fin 256), K.w8 (ix3 l k (colq 768 1 n (by norm_num))) = P.Wh_i l n k
  w8_o : ∀ (l : Fin 3) (k n : Fin 256), K.w8 (ix3 l k (colq 768 2 n (by norm_num))) = P.Wh_o l n k
  b9_f : ∀ (l : Fin 3) (n : Fin 256), K.b9 (ix2 l (colq 768 0 n (by norm_num))) = P.bh_f l n
  b9_i : ∀ (l : Fin 3) (n : Fin 256), K.b9 (ix2 l (colq 768 1 n (by norm_num))) = P.bh_i l n
  b9_o : ∀ (l : Fin 3) (n : Fin 256), K.b9 (ix2 l (colq 768 2 n (by norm_num))) = P.bh_o l n
  w10 : ∀ (l s : Fin 3) (k : Fin 768), K.w10 (ix2 k ⟨l.val * 3 + s.val, by have := l.isLt; have := s.isLt; omega⟩) = P.Wh_g l s k
  b11 : ∀ (l s : Fin 3), K.b11 (ix1 ⟨l.val * 3 + s.val, by have := l.isLt; have := s.isLt; omega⟩) = P.bh_g l s
  w12 : ∀ (l : Fin 3) (n k : Fin 768), K.w12 (ix2 k ⟨l.val * 768 + n.val, by have := l.isLt; have := n.isLt; omega⟩) = P.Wh_c l n k
  b13 : ∀ (l : Fin 3) (n : Fin 768), K.b13 (ix1 ⟨l.val * 768 + n.val, by have := l.isLt; have := n.isLt; omega⟩) = P.bh_c l n
  wi1_f : ∀ (k n : Fin 256), K.wi1 (ix3 0 k (colq 1024 0 n (by norm_num))) = P.Wi_f 1 n k
  wi1_i : ∀ (k n : Fin 256), K.wi1 (ix3 0 k (colq 1024 1 n (by norm_num))) = P.Wi_i 1 n k
  wi1_c : ∀ (k n : Fin 256), K.wi1 (ix3 0 k (colq 1024 2 n (by norm_num))) = P.Wi_c 1 n k
  wi1_o : ∀ (k n : Fin 256), K.wi1 (ix3 0 k (colq 1024 3 n (by norm_num))) = P.Wi_o 1 n k
  bi1_f : ∀ (n : Fin 256), K.bi1 (ix2 0 (colq 1024 0 n (by norm_num))) = P.bi_f 1 n
  bi1_i : ∀ (n : Fin 256), K.bi1 (ix2 0 (colq 1024 1 n (by norm_num))) = P.bi_i 1 n
  bi1_c : ∀ (n : Fin 256), K.bi1 (ix2 0 (colq 1024 2 n (by norm_num))) = P.bi_c 1 n
  bi1_o : ∀ (n : Fin 256), K.bi1 (ix2 0 (colq 1024 3 n (by norm_num))) = P.bi_o 1 n
  wg1 : ∀ (k : Fin 256) (s : Fin 3), K.wg1 (ix3 0 k s) = P.Wi_g 1 s k
  bg1 : ∀ (s : Fin 3), K.bg1 (ix2 0 s) = P.bi_g 1 s
  wi2_f : ∀ (k n : Fin 256), K.wi2 (ix3 0 k (colq 1024 0 n (by norm_num))) = P.Wi_f 2 n k
  wi2_i : ∀ (k n : Fin 256), K.wi2 (ix3 0 k (colq 1024 1 n (by norm_num))) = P.Wi_i 2 n k
  wi2_c : ∀ (k n : Fin 256), K.wi2 (ix3 0 k (colq 1024 2 n (by norm_num))) = P.Wi_c 2 n k
  wi2_o : ∀ (k n : Fin 256), K.wi2 (ix3 0 k (colq 1024 3 n (by norm_num))) = P.Wi_o 2 n k
  bi2_f : ∀ (n : Fin 256), K.bi2 (ix2 0 (colq 1024 0 n (by norm_num))) = P.bi_f 2 n
  bi2_i : ∀ (n : Fin 256), K.bi2 (ix2 0 (colq 1024 1 n (by norm_num))) = P.bi_i 2 n
  bi2_c : ∀ (n : Fin 256), K.bi2 (ix2 0 (colq 1024 2 n (by norm_num))) = P.bi_c 2 n
  bi2_o : ∀ (n : Fin 256), K.bi2 (ix2 0 (colq 1024 3 n (by norm_num))) = P.bi_o 2 n
  wg2 : ∀ (k : Fin 256) (s : Fin 3), K.wg2 (ix3 0 k s) = P.Wi_g 2 s k
  bg2 : ∀ (s : Fin 3), K.bg2 (ix2 0 s) = P.bi_g 2 s

end Cert.KernelIdeal.KV

end
-- ==== Proof.KV.Params.lean ====
/-
  The cell's parameters as the kernel's weight windows hold them.

  The kernel's host code fuses the weights: the four input-side gate matrices of a layer side by
  side along the output axis (forget, input, candidate, output), the three hidden-side ones
  likewise (forget, input, output), the three-way gates' matrices and the cross-layer matrices of
  all layers side by side, layer-major; every matrix is transposed (input unit first).
  `paramsOfBlocks` reads the parameters back, index by index.
-/
import proofs.«161507_j76424648065777_2_alg».proof.KernelIdeal
import proofs.«161507_j76424648065777_2_alg».proof.Proof.SpecArgs
import proofs.«161507_j76424648065777_2_alg».proof.Proof.KV.RowDefs

noncomputable section

namespace Cert.KernelIdeal.KV

open Cert.KernelIdeal
open Idealize.ShloMosaic Idealize.ShloMosaic.ValueIdx

/-- The weights and biases read off the kernel's weight windows (fused layouts, matrices transposed). -/
def paramsOfBlocks (x4 : Vec Ideal S3x256x1024 .bf16) (x5 : Vec Ideal S3x1024 .f32) (x6 : Vec Ideal S3x256x3 .bf16) (x7 : Vec Ideal S3x3 .f32)
    (x8 : Vec Ideal S3x256x768 .bf16) (x9 : Vec Ideal S3x768 .f32) (x10 : Vec Ideal S768x9 .bf16) (x11 : Vec Ideal S9 .f32)
    (x12 : Vec Ideal S768x2304 .bf16) (x13 : Vec Ideal S2304 .f32) (x14 : Vec Ideal S2304x44 .bf16) (x15 : Vec Ideal S44 .f32) : Cert.Spec.Params where
  Wi_f l n k := x4 (ix3 l k (colq 1024 0 n (by norm_num)))
  bi_f l n := x5 (ix2 l (colq 1024 0 n (by norm_num)))
  Wi_i l n k := x4 (ix3 l k (colq 1024 1 n (by norm_num)))
  bi_i l n := x5 (ix2 l (colq 1024 1 n (by norm_num)))
  Wi_c l n k := x4 (ix3 l k (colq 1024 2 n (by norm_num)))
  bi_c l n := x5 (ix2 l (colq 1024 2 n (by norm_num)))
  Wi_o l n k := x4 (ix3 l k (colq 1024 3 n (by norm_num)))
  bi_o l n := x5 (ix2 l (colq 1024 3 n (by norm_num)))
  Wi_g l s k := x6 (ix3 l k s)
  bi_g l s := x7 (ix2 l s)
  Wh_f l n k := x8 (ix3 l k (colq 768 0 n (by norm_num)))
  bh_f l n := x9 (ix2 l (colq 768 0 n (by norm_num)))
  Wh_i l n k := x8 (ix3 l k (colq 768 1 n (by norm_num)))
  bh_i l n := x9 (ix2 l (colq 768 1 n (by norm_num)))
  Wh_o l n k := x8 (ix3 l k (colq 768 2 n (by norm_num)))
  bh_o l n := x9 (ix2 l (colq 768 2 n (by norm_num)))
  Wh_g l s k := x10 (ix2 k ⟨l.val * 3 + s.val, by have := l.isLt; have := s.isLt; omega⟩)
  bh_g l s := x11 (ix1 ⟨l.val * 3 + s.val, by have := l.isLt; have := s.isLt; omega⟩)
  Wh_c l n k := x12 (ix2 k ⟨l.val * 768 + n.val, by have := l.isLt; have := n.isLt; omega⟩)
  bh_c l n := x13 (ix1 ⟨l.val * 768 + n.val, by have := l.isLt; have := n.isLt; omega⟩)
  W_last j k := x14 (ix2 k j)
  b_last j := x15 (ix1 j)

end Cert.KernelIdeal.KV

end
-- ==== Proof.KV.GlueDefs.lean ====
/-
  The kernel's loaded constants and initial state, as the symbolic execution names them.

  `K0` gathers what one block's run loads and computes once: the bottom layer's two hoisted
  input-side projections and every weight and bias load of the hidden side and of the two upper
  layers. `S0` is the initial state: the three hidden blocks and the three cell blocks loaded from
  the hidden and cell windows.
-/
import proofs.«161507_j76424648065777_2_alg».proof.Proof.KI.Run
import proofs.«161507_j76424648065777_2_alg».proof.Proof.KV.Struct

set_option maxRecDepth 65536

noncomputable section

namespace Cert.KernelIdeal.KV

open Cert.KernelIdeal Cert.KernelIdeal.Gen Cert.KernelIdeal.Fr
open Idealize.ShloMosaic Idealize.ShloMosaic.TcCoe Idealize.ShloMosaic.Tactic

variable {F : FTy → Type} [FloatOps F]

/-- The constants of one block's run. -/
abbrev K0 (c : Dev nD) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S768x9 .bf16) (harg10 : arg10.IsWhole) (arg11 : Memref sig .tc .vmem S9 .f32) (harg11 : arg11.IsWhole) (arg12 : Memref sig .tc .vmem S768x2304 .bf16) (harg12 : arg12.IsWhole) (arg13 : Memref sig .tc .vmem S2304 .f32) (harg13 : arg13.IsWhole) (x1 : Vec F S256x256 .f32) (x2 : Vec F S3x256x256 .f32) (x3 : Vec F S3x256x256 .f32) (x4 : Vec F S3x256x1024 .bf16) (x5 : Vec F S3x1024 .f32) (x6 : Vec F S3x256x3 .bf16) (x7 : Vec F S3x3 .f32) (x8 : Vec F S3x256x768 .bf16) (x9 : Vec F S3x768 .f32) (x10 : Vec F S768x9 .bf16) (x11 : Vec F S9 .f32) (x12 : Vec F S768x2304 .bf16) (x13 : Vec F S2304 .f32) : Consts F := (⟨kernelRun.sl.r_6 c arg1 harg1 arg4 harg4 arg5 harg5 x1 x4 x5, kernelRun.sl.r_9 c arg1 harg1 arg6 harg6 arg7 harg7 x1 x6 x7,
    (View.readAt (Elt F) arg8.view (Rect.unit (s := S3x256x768) ![0, 0, 0] S3x256x768.size inb_S3x256x768_S3x256x768_0_0_0).toLoadRect (harg8.unread x8)), (View.readAt (Elt F) arg9.view (Rect.unit (s := S3x768) ![0, 0] S3x768.size inb_S3x768_S3x768_0_0).toLoadRect (harg9.unread x9)), (View.readAt (Elt F) arg10.view (Rect.unit (s := S768x9) ![0, 0] S768x9.size inb_S768x9_S768x9_0_0).toLoadRect (harg10.unread x10)), (View.readAt (Elt F) arg11.view (Rect.unit (s := S9) ![0] S9.size inb_S9_S9_0).toLoadRect (harg11.unread x11)), (View.readAt (Elt F) arg12.view (Rect.unit (s := S768x2304) ![0, 0] S768x2304.size inb_S768x2304_S768x2304_0_0).toLoadRect (harg12.unread x12)), (View.readAt (Elt F) arg13.view (Rect.unit (s := S2304) ![0] S2304.size inb_S2304_S2304_0).toLoadRect (harg13.unread x13)),
    (View.readAt (Elt F) arg4.view (Rect.unit (s := S3x256x1024) ![1, 0, 0] S1x256x1024.size inb_S3x256x1024_S1x256x1024_1_0_0).toLoadRect (harg4.unread x4)), (View.readAt (Elt F) arg5.view (Rect.unit (s := S3x1024) ![1, 0] S1x1024.size inb_S3x1024_S1x1024_1_0).toLoadRect (harg5.unread x5)), (View.readAt (Elt F) arg6.view (Rect.unit (s := S3x256x3) ![1, 0, 0] S1x256x3.size inb_S3x256x3_S1x256x3_1_0_0).toLoadRect (harg6.unread x6)), (View.readAt (Elt F) arg7.view (Rect.unit (s := S3x3) ![1, 0] S1x3.size inb_S3x3_S1x3_1_0).toLoadRect (harg7.unread x7)),
    (View.readAt (Elt F) arg4.view (Rect.unit (s := S3x256x1024) ![2, 0, 0] S1x256x1024.size inb_S3x256x1024_S1x256x1024_2_0_0).toLoadRect (harg4.unread x4)), (View.readAt (Elt F) arg5.view (Rect.unit (s := S3x1024) ![2, 0] S1x1024.size inb_S3x1024_S1x1024_2_0).toLoadRect (harg5.unread x5)), (View.readAt (Elt F) arg6.view (Rect.unit (s := S3x256x3) ![2, 0, 0] S1x256x3.size inb_S3x256x3_S1x256x3_2_0_0).toLoadRect (harg6.unread x6)), (View.readAt (Elt F) arg7.view (Rect.unit (s := S3x3) ![2, 0] S1x3.size inb_S3x3_S1x3_2_0).toLoadRect (harg7.unread x7))⟩ : Consts F)

/-- The initial state of one block's run. -/
abbrev S0 (c : Dev nD) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S768x9 .bf16) (harg10 : arg10.IsWhole) (arg11 : Memref sig .tc .vmem S9 .f32) (harg11 : arg11.IsWhole) (arg12 : Memref sig .tc .vmem S768x2304 .bf16) (harg12 : arg12.IsWhole) (arg13 : Memref sig .tc .vmem S2304 .f32) (harg13 : arg13.IsWhole) (x1 : Vec F S256x256 .f32) (x2 : Vec F S3x256x256 .f32) (x3 : Vec F S3x256x256 .f32) (x4 : Vec F S3x256x1024 .bf16) (x5 : Vec F S3x1024 .f32) (x6 : Vec F S3x256x3 .bf16) (x7 : Vec F S3x3 .f32) (x8 : Vec F S3x256x768 .bf16) (x9 : Vec F S3x768 .f32) (x10 : Vec F S768x9 .bf16) (x11 : Vec F S9 .f32) (x12 : Vec F S768x2304 .bf16) (x13 : Vec F S2304 .f32) : St F := (⟨kernelRun.sl.r c arg2 harg2 x2, kernelRun.sl.r_1 c arg2 harg2 x2, kernelRun.sl.r_2 c arg2 harg2 x2, kernelRun.sl.r_3 c arg3 harg3 x3, kernelRun.sl.r_4 c arg3 harg3 x3, kernelRun.sl.r_5 c arg3 harg3 x3⟩ : St F)

end Cert.KernelIdeal.KV

end
-- ==== Proof.KV.Glue.lean ====
/-
  The slabs the kernel body keeps are the time steps' top hidden blocks.

  The body stores, after each of its nine time steps, the top layer's new hidden block into one
  slab of 256 columns of the scratch buffer. The symbolic execution records these nine stores as a
  list of pieces whose values are long chains of the body's printed operations. Arranged by time
  step (`KV.step`, `KV.iter`) they are the same terms: slab `t` holds the top hidden block after
  `t + 1` steps from the loaded initial state. The two sides are one term up to unfolding of
  definitions, which Lean's kernel checks.
-/
import proofs.«161507_j76424648065777_2_alg».proof.Proof.KV.GlueDefs
import Idealize.ShloMosaic.Lib.Tactic

set_option maxRecDepth 65536

noncomputable section

namespace Cert.KernelIdeal.KV

open Cert.KernelIdeal Cert.KernelIdeal.Gen Cert.KernelIdeal.Fr
open Idealize.ShloMosaic Idealize.ShloMosaic.TcCoe Idealize.ShloMosaic.Tactic

variable {F : FTy → Type} [FloatOps F]

set_option maxHeartbeats 0 in
/-- The scratch buffer's pieces after the body, last stored first: slab `t` (columns `256 t` to
    `256 t + 255`) holds the top layer's hidden block after `t + 1` time steps. -/
theorem pieces_eq (c : Dev nD) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S768x9 .bf16) (harg10 : arg10.IsWhole) (arg11 : Memref sig .tc .vmem S9 .f32) (harg11 : arg11.IsWhole) (arg12 : Memref sig .tc .vmem S768x2304 .bf16) (harg12 : arg12.IsWhole) (arg13 : Memref sig .tc .vmem S2304 .f32) (harg13 : arg13.IsWhole) (x1 : Vec F S256x256 .f32) (x2 : Vec F S3x256x256 .f32) (x3 : Vec F S3x256x256 .f32) (x4 : Vec F S3x256x1024 .bf16) (x5 : Vec F S3x1024 .f32) (x6 : Vec F S3x256x3 .bf16) (x7 : Vec F S3x3 .f32) (x8 : Vec F S3x256x768 .bf16) (x9 : Vec F S3x768 .f32) (x10 : Vec F S768x9 .bf16) (x11 : Vec F S9 .f32) (x12 : Vec F S768x2304 .bf16) (x13 : Vec F S2304 .f32) :
    kernelRun.sl.H17_9 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 =
     [⟨Rect.unit (s := S256x2304) ![0, 2048] S256x256.size inb_S256x2304_S256x256_0_2048, slabOf (iter (K0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) (S0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) 9)⟩,
      ⟨Rect.unit (s := S256x2304) ![0, 1792] S256x256.size inb_S256x2304_S256x256_0_1792, slabOf (iter (K0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) (S0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) 8)⟩,
      ⟨Rect.unit (s := S256x2304) ![0, 1536] S256x256.size inb_S256x2304_S256x256_0_1536, slabOf (iter (K0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) (S0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) 7)⟩,
      ⟨Rect.unit (s := S256x2304) ![0, 1280] S256x256.size inb_S256x2304_S256x256_0_1280, slabOf (iter (K0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) (S0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) 6)⟩,
      ⟨Rect.unit (s := S256x2304) ![0, 1024] S256x256.size inb_S256x2304_S256x256_0_1024, slabOf (iter (K0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) (S0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) 5)⟩,
      ⟨Rect.unit (s := S256x2304) ![0, 768] S256x256.size inb_S256x2304_S256x256_0_768, slabOf (iter (K0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) (S0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) 4)⟩,
      ⟨Rect.unit (s := S256x2304) ![0, 512] S256x256.size inb_S256x2304_S256x256_0_512, slabOf (iter (K0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) (S0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) 3)⟩,
      ⟨Rect.unit (s := S256x2304) ![0, 256] S256x256.size inb_S256x2304_S256x256_0_256, slabOf (iter (K0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) (S0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) 2)⟩,
      ⟨Rect.unit (s := S256x2304) ![0, 0] S256x256.size inb_S256x2304_S256x256_0_0, slabOf (iter (K0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) (S0 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) 1)⟩] := by
  sl_kernel_rfl

end Cert.KernelIdeal.KV

end
-- ==== Proof.KV.RowOps.lean ====
/-
  The block operations of one time step read at an index given by coordinates.

  A matrix product into a zero accumulator is, at row r and column n, the sum over the contraction
  coordinate of the products of row r of the left operand and column n of the right one; with a leading
  batch axis on both operands, slice by slice. A column of width one broadcast along the rows reads its
  one entry of the row; a row vector laid under a middle unit axis and broadcast reads its entry of the column.
-/
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KV

open Idealize.ShloMosaic Idealize.ShloMosaic.ValueIdx

/-! ## A plain product `[M, K] × [K, N]` -/

section Plain
variable {M K N : ℕ} {φ₁ φ₂ : FTy}

/-- The dimension numbers of a plain product: contract the left operand's columns with the right one's rows. -/
abbrev plainDims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

theorem plain_lhs_0 (i : (⟨2, ![M, N]⟩ : Shape).Idx) (q : (plainDims wf).contr.Idx) :
    ((plainDims wf).lhsIdx i q 0).val = (i 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl

theorem plain_lhs_1 (i : (⟨2, ![M, N]⟩ : Shape).Idx) (q : (plainDims wf).contr.Idx) :
    ((plainDims wf).lhsIdx i q 1).val = (q ⟨0, Nat.one_pos⟩).val :=
  (plainDims wf).lhsIdx_val_of_single rfl i q

theorem plain_rhs_0 (i : (⟨2, ![M, N]⟩ : Shape).Idx) (q : (plainDims wf).contr.Idx) :
    ((plainDims wf).rhsIdx i q 0).val = (q ⟨0, Nat.one_pos⟩).val :=
  (plainDims wf).rhsIdx_val_of_single rfl i q

theorem plain_rhs_1 (i : (⟨2, ![M, N]⟩ : Shape).Idx) (q : (plainDims wf).contr.Idx) :
    ((plainDims wf).rhsIdx i q 1).val = (i 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- A plain product into the zero accumulator, at row `r` and column `n`. -/
theorem plain_matmul_apply (prec : Option ContractPrecision) (lhs : FVec Ideal ⟨2, ![M, K]⟩ φ₁) (rhs : FVec Ideal ⟨2, ![K, N]⟩ φ₂)
    (r : Fin M) (n : Fin N) :
    FloatOps.matmul (plainDims wf) prec lhs rhs (constant ⟨2, ![M, N]⟩ .f32 0x00000000#32) (ix2 r n)
      = ∑ k : Fin K, lhs (ix2 r k) * rhs (ix2 k n) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 r n) ((contrEquiv1 (plainDims wf) K rfl rfl).symm k) = ix2 r k := funext fun a => Fin.ext (by
    match a with
    | ⟨0, _⟩ => exact plain_lhs_0 wf _ _
    | ⟨1, _⟩ => exact (plain_lhs_1 wf _ _).trans hk)
  have er : (plainDims wf).rhsIdx (ix2 r n) ((contrEquiv1 (plainDims wf) K rfl rfl).symm k) = ix2 k n := funext fun a => Fin.ext (by
    match a with
    | ⟨0, _⟩ => exact (plain_rhs_0 wf _ _).trans hk
    | ⟨1, _⟩ => exact plain_rhs_1 wf _ _)
  rw [el, er]

end Plain

/-! ## A product with a leading batch axis: `[B, M, K] × [B, K, N]`, slice by slice -/

section Batched
variable {B M K N : ℕ} {φ₁ φ₂ : FTy}

/-- The dimension numbers of a batched product: the leading axes go together, and in every slice the left operand's
    columns are contracted with the right one's rows. -/
abbrev batchDims (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

variable (wf : DotDims.WF ⟨3, ![B, M, K]⟩ ⟨3, ![B, K, N]⟩ ⟨3, ![B, M, N]⟩ [2] [1] [1] [2] [0] [0])

theorem batch_lhs_0 (i : (⟨3, ![B, M, N]⟩ : Shape).Idx) (q : (batchDims wf).contr.Idx) :
    ((batchDims wf).lhsIdx i q 0).val = (i 0).val := by
  unfold DotDims.lhsIdx
  rw [dif_pos (show (0 : Fin (⟨3, ![B, M, K]⟩ : Shape).rank) ∈ (batchDims wf).lhsBatch from List.mem_singleton.mpr rfl)]
  rfl

theorem batch_lhs_1 (i : (⟨3, ![B, M, N]⟩ : Shape).Idx) (q : (batchDims wf).contr.Idx) :
    ((batchDims wf).lhsIdx i q 1).val = (i 1).val := by
  unfold DotDims.lhsIdx
  rw [dif_neg (show ¬(1 : Fin (⟨3, ![B, M, K]⟩ : Shape).rank) ∈ (batchDims wf).lhsBatch by simp),
    dif_pos (show (1 : Fin (⟨3, ![B, M, K]⟩ : Shape).rank) ∈ (batchDims wf).lhsNonContracting from List.mem_singleton.mpr rfl)]
  rfl

theorem batch_lhs_2 (i : (⟨3, ![B, M, N]⟩ : Shape).Idx) (q : (batchDims wf).contr.Idx) :
    ((batchDims wf).lhsIdx i q 2).val = (q ⟨0, Nat.one_pos⟩).val :=
  (batchDims wf).lhsIdx_val_of_single rfl i q

theorem batch_rhs_0 (i : (⟨3, ![B, M, N]⟩ : Shape).Idx) (q : (batchDims wf).contr.Idx) :
    ((batchDims wf).rhsIdx i q 0).val = (i 0).val := by
  unfold DotDims.rhsIdx
  rw [dif_pos (show (0 : Fin (⟨3, ![B, K, N]⟩ : Shape).rank) ∈ (batchDims wf).rhsBatch from List.mem_singleton.mpr rfl)]
  rfl

theorem batch_rhs_1 (i : (⟨3, ![B, M, N]⟩ : Shape).Idx) (q : (batchDims wf).contr.Idx) :
    ((batchDims wf).rhsIdx i q 1).val = (q ⟨0, Nat.one_pos⟩).val :=
  (batchDims wf).rhsIdx_val_of_single rfl i q

theorem batch_rhs_2 (i : (⟨3, ![B, M, N]⟩ : Shape).Idx) (q : (batchDims wf).contr.Idx) :
    ((batchDims wf).rhsIdx i q 2).val = (i 2).val := by
  unfold DotDims.rhsIdx
  rw [dif_neg (show ¬(2 : Fin (⟨3, ![B, K, N]⟩ : Shape).rank) ∈ (batchDims wf).rhsBatch by simp),
    dif_pos (show (2 : Fin (⟨3, ![B, K, N]⟩ : Shape).rank) ∈ (batchDims wf).rhsNonContracting from List.mem_singleton.mpr rfl)]
  rfl

/-- A batched product into the zero accumulator, at slice `l`, row `r` and column `n`. -/
theorem batch_matmul_apply (prec : Option ContractPrecision) (lhs : FVec Ideal ⟨3, ![B, M, K]⟩ φ₁) (rhs : FVec Ideal ⟨3, ![B, K, N]⟩ φ₂)
    (l : Fin B) (r : Fin M) (n : Fin N) :
    FloatOps.matmul (batchDims wf) prec lhs rhs (constant ⟨3, ![B, M, N]⟩ .f32 0x00000000#32) (ix3 l r n)
      = ∑ k : Fin K, lhs (ix3 l r k) * rhs (ix3 l k n) := by
  rw [Ideal.matmul_constant_zero_apply, ← Equiv.sum_comp (contrEquiv1 (batchDims wf) K rfl rfl).symm]
  refine Finset.sum_congr rfl fun k _ => ?_
  have hk := contrEquiv1_symm_val (batchDims wf) K rfl rfl k
  have el : (batchDims wf).lhsIdx (ix3 l r n) ((contrEquiv1 (batchDims wf) K rfl rfl).symm k) = ix3 l r k := funext fun a => Fin.ext (by
    match a with
    | ⟨0, _⟩ => exact batch_lhs_0 wf _ _
    | ⟨1, _⟩ => exact batch_lhs_1 wf _ _
    | ⟨2, _⟩ => exact (batch_lhs_2 wf _ _).trans hk)
  have er : (batchDims wf).rhsIdx (ix3 l r n) ((contrEquiv1 (batchDims wf) K rfl rfl).symm k) = ix3 l k n := funext fun a => Fin.ext (by
    match a with
    | ⟨0, _⟩ => exact batch_rhs_0 wf _ _
    | ⟨1, _⟩ => exact (batch_rhs_1 wf _ _).trans hk
    | ⟨2, _⟩ => exact batch_rhs_2 wf _ _)
  rw [el, er]

end Batched

/-! ## Broadcasts and shape casts with a unit axis that is not the leading one -/

section Layout
variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[m, 1, b]` array broadcast to `[m, a, b]` reads, at `(l, p, c)`, the operand at `(l, 0, c)`. -/
theorem broadcastTo_m1b_mab_apply {m a b : ℕ} (v : (⟨3, ![m, 1, b]⟩ : Shape).Idx → α)
    (h : (⟨3, ![m, 1, b]⟩ : Shape).Broadcasts ⟨3, ![m, a, b]⟩) (l : Fin m) (p : Fin a) (c : Fin b) :
    broadcastTo ⟨3, ![m, a, b]⟩ v h (ix3 l p c) = v (ix3 l (0 : Fin 1) c) := by
  refine broadcastTo_apply v h (ix3 l p c) (ix3 l (0 : Fin 1) c) fun ax => ?_
  match ax with
  | ⟨0, _⟩ =>
    show l.val = if m = 1 then 0 else l.val
    split
    · have := l.isLt; omega
    · rfl
  | ⟨1, _⟩ => rfl
  | ⟨2, _⟩ =>
    show c.val = if b = 1 then 0 else c.val
    split
    · have := c.isLt; omega
    · rfl

/-- An `[m, b]` array cast to `[m, 1, b]` reads, at `(l, u, c)`, the operand at `(l, c)`. -/
theorem shapeCast_mb_m1b_apply {m b : ℕ} (x : (⟨2, ![m, b]⟩ : Shape).Idx → α) (h : (⟨2, ![m, b]⟩ : Shape).ShapeCasts ⟨3, ![m, 1, b]⟩)
    (l : Fin m) (u : Fin 1) (c : Fin b) : shapeCast ⟨3, ![m, 1, b]⟩ x h (ix3 l u c) = x (ix2 l c) :=
  shapeCast_apply x h _ _ (by
    have hu : u.val = 0 := by omega
    rw [Shape.rowMajor_val_three, Shape.rowMajor_val_two]
    show l.val * b + c.val = (l.val * 1 + u.val) * b + c.val
    rw [hu, Nat.mul_one, Nat.add_zero])

end Layout

end Cert.KernelIdeal.KV

end
-- ==== Proof.KV.RowLin.lean ====
/-
  An upper layer's input-side affine maps, row by row.

  The layer's four gate matrices lie side by side in one `[256, 1024]` operand and its three-way gate's in a
  `[256, 3]` one; each column of the product of a block with such an operand, plus the bias, is the affine map
  of that column applied to each row of the block.
-/
import proofs.«161507_j76424648065777_2_alg».proof.Proof.KV.RowDefs
import proofs.«161507_j76424648065777_2_alg».proof.Proof.KV.RowOps

noncomputable section

namespace Cert.KernelIdeal.KV

open Cert.KernelIdeal
open Idealize.ShloMosaic Idealize.ShloMosaic.ValueIdx
open Cert.Spec (lin)

variable [Facts]
open Facts₀ Facts

/-- Column `c` of the input-side gate projections of a block: the affine map of column `c` of the weights
    applied to each row. -/
theorem linI_apply (w : Vec Ideal S1x256x1024 .bf16) (b : Vec Ideal S1x1024 .f32) (h : FVec Ideal S256x256 .f32)
    (r : Fin 256) (c : Fin 1024) :
    linI w b h (ix2 r c) = lin (fun k : Fin 256 => w (ix3 (0 : Fin 1) k c)) (b (ix2 (0 : Fin 1) c)) (fun k : Fin 256 => h (ix2 r k)) := by
  unfold linI lin
  rw [addf_apply]
  congr 1
  · refine (plain_matmul_apply dot_S256x256_S256x1024_S256x1024_1_0_0_1_n_n_wf none _ _ r c).trans ?_
    refine Finset.sum_congr rfl fun k _ => ?_
    rw [truncf_apply, shapeCast_1ab_ab_apply]
  · rw [broadcastTo_1b_ab_apply, shapeCast_a_1a_apply, shapeCast_1a_a_apply]

/-- Column `s` of the input-side three-way gate projection of a block. -/
theorem gLin_apply (w : Vec Ideal S1x256x3 .bf16) (b : Vec Ideal S1x3 .f32) (h : FVec Ideal S256x256 .f32)
    (r : Fin 256) (s : Fin 3) :
    gLin w b h (ix2 r s) = lin (fun k : Fin 256 => w (ix3 (0 : Fin 1) k s)) (b (ix2 (0 : Fin 1) s)) (fun k : Fin 256 => h (ix2 r k)) := by
  unfold gLin lin
  rw [addf_apply]
  congr 1
  · refine (plain_matmul_apply dot_S256x256_S256x3_S256x3_1_0_0_1_n_n_wf none _ _ r s).trans ?_
    refine Finset.sum_congr rfl fun k _ => ?_
    rw [truncf_apply, shapeCast_1ab_ab_apply]
  · rw [broadcastTo_1b_ab_apply, shapeCast_a_1a_apply, shapeCast_1a_a_apply]

end Cert.KernelIdeal.KV

end
-- ==== Proof.KV.RowHid.lean ====
/-
  The three hidden-side products of a time step, row by row.

  The three layers' previous hidden blocks side by side hold, in row `r`, the concatenation of the three hidden
  rows of batch row `r`. Each column of the two wide products, plus the bias, is the affine map of that column
  applied to that concatenated row; each column of slice `l` of the batched product is the affine map of that
  column of layer `l`'s matrix applied to layer `l`'s own hidden row.
-/
import proofs.«161507_j76424648065777_2_alg».proof.Proof.KV.RowDefs
import proofs.«161507_j76424648065777_2_alg».proof.Proof.KV.RowOps

noncomputable section

namespace Cert.KernelIdeal.KV

open Cert.KernelIdeal
open Idealize.ShloMosaic Idealize.ShloMosaic.ValueIdx
open Cert.Spec (lin hcat)

variable [Facts]
open Facts₀ Facts

/-- Row `r` of the three blocks side by side is the three rows side by side: column `c` is block `c / 256` at
    column `c % 256`. -/
theorem hcatBf_apply (h0 h1 h2 : FVec Ideal S256x256 .f32) (v : Fin 3 → Fin 256 → EReal) (r : Fin 256)
    (H0 : ∀ n : Fin 256, h0 (ix2 r n) = v 0 n) (H1 : ∀ n : Fin 256, h1 (ix2 r n) = v 1 n) (H2 : ∀ n : Fin 256, h2 (ix2 r n) = v 2 n)
    (c : Fin 768) : hcatBf h0 h1 h2 (ix2 r c) = hcat v c := by
  unfold hcatBf hcat
  rw [truncf_apply]
  have hc := c.isLt
  by_cases c1 : c.val < 256
  · refine (concatenate_apply_piece (1 : Fin S256x768.rank) _ _ (ix2 r c) 0 (by simp) S256x256 h0 rfl rfl 0 rfl
      (ix2 r (⟨c.val, c1⟩ : Fin 256)) (fun b hb => ?_) ?_).trans ?_
    · match b with
      | ⟨0, _⟩ => rfl
      | ⟨1, _⟩ => exact absurd rfl hb
    · show 0 + c.val = c.val
      omega
    · rw [H0]
      congr 1 <;> exact Fin.ext (by simp only []; omega)
  · by_cases c2 : c.val < 512
    · refine (concatenate_apply_piece (1 : Fin S256x768.rank) _ _ (ix2 r c) 1 (by simp) S256x256 h1 rfl rfl 256 rfl
        (ix2 r (⟨c.val - 256, by omega⟩ : Fin 256)) (fun b hb => ?_) ?_).trans ?_
      · match b with
        | ⟨0, _⟩ => rfl
        | ⟨1, _⟩ => exact absurd rfl hb
      · show 256 + (c.val - 256) = c.val
        omega
      · rw [H1]
        congr 1 <;> exact Fin.ext (by simp only []; omega)
    · refine (concatenate_apply_piece (1 : Fin S256x768.rank) _ _ (ix2 r c) 2 (by simp) S256x256 h2 rfl rfl 512 rfl
        (ix2 r (⟨c.val - 512, by omega⟩ : Fin 256)) (fun b hb => ?_) ?_).trans ?_
      · match b with
        | ⟨0, _⟩ => rfl
        | ⟨1, _⟩ => exact absurd rfl hb
      · show 512 + (c.val - 512) = c.val
        omega
      · rw [H2]
        congr 1 <;> exact Fin.ext (by simp only []; omega)

/-- Column `c` of the three-way gates' projection: the affine map of column `c` of the weights applied to each row
    of the blocks side by side. -/
theorem whg_apply (K : Consts Ideal) (h0 h1 h2 : FVec Ideal S256x256 .f32) (r : Fin 256) (c : Fin 9) :
    whg K h0 h1 h2 (ix2 r c) = lin (fun k : Fin 768 => K.w10 (ix2 k c)) (K.b11 (ix1 c)) (fun k : Fin 768 => hcatBf h0 h1 h2 (ix2 r k)) := by
  unfold whg lin
  rw [addf_apply]
  congr 1
  · refine (plain_matmul_apply dot_S256x768_S768x9_S256x9_1_0_0_1_n_n_wf none _ _ r c).trans ?_
    refine Finset.sum_congr rfl fun k _ => ?_
    rw [shapeCast_self]
  · rw [broadcastTo_1b_ab_apply, shapeCast_a_1a_apply, shapeCast_self]

/-- Column `c` of the cross-layer projection, likewise. -/
theorem whc_apply (K : Consts Ideal) (h0 h1 h2 : FVec Ideal S256x256 .f32) (r : Fin 256) (c : Fin 2304) :
    whc K h0 h1 h2 (ix2 r c) = lin (fun k : Fin 768 => K.w12 (ix2 k c)) (K.b13 (ix1 c)) (fun k : Fin 768 => hcatBf h0 h1 h2 (ix2 r k)) := by
  unfold whc lin
  rw [addf_apply]
  congr 1
  · refine (plain_matmul_apply dot_S256x768_S768x2304_S256x2304_1_0_0_1_n_n_wf none _ _ r c).trans ?_
    refine Finset.sum_congr rfl fun k _ => ?_
    rw [shapeCast_self]
  · rw [broadcastTo_1b_ab_apply, shapeCast_a_1a_apply, shapeCast_self]

/-- Three `[1, a, b]` pieces stacked along the leading axis: slice `l` of the stack is piece `l`. -/
theorem stack3_piece {α : Type} {a b : ℕ} (x0 x1 x2 : (⟨3, ![1, a, b]⟩ : Shape).Idx → α)
    (h : Shape.Concatenates ([(⟨⟨3, ![1, a, b]⟩, x0⟩ : (s : Shape) × (s.Idx → α)), ⟨⟨3, ![1, a, b]⟩, x1⟩, ⟨⟨3, ![1, a, b]⟩, x2⟩].map (·.1)) ⟨3, ![3, a, b]⟩ 0)
    (l : Fin 3) (r : Fin a) (k : Fin b) :
    concatenate ⟨3, ![3, a, b]⟩ 0 [⟨⟨3, ![1, a, b]⟩, x0⟩, ⟨⟨3, ![1, a, b]⟩, x1⟩, ⟨⟨3, ![1, a, b]⟩, x2⟩] h (ix3 l r k)
      = (![x0, x1, x2] l) (ix3 (0 : Fin 1) r k) := by
  have off : ∀ b' : Fin (⟨3, ![1, a, b]⟩ : Shape).rank, b'.cast (rfl : (⟨3, ![1, a, b]⟩ : Shape).rank = (⟨3, ![3, a, b]⟩ : Shape).rank) ≠ 0 →
      ∀ l' : Fin 3, ((ix3 (0 : Fin 1) r k) b').val = ((ix3 l' r k) (b'.cast rfl)).val := fun b' hb l' => by
    match b' with
    | ⟨0, _⟩ => exact absurd rfl hb
    | ⟨1, _⟩ => rfl
    | ⟨2, _⟩ => rfl
  match l with
  | ⟨0, _⟩ =>
    exact concatenate_apply_piece (0 : Fin (⟨3, ![3, a, b]⟩ : Shape).rank) _ h _ 0 (by simp) ⟨3, ![1, a, b]⟩ x0 rfl rfl 0 rfl
      (ix3 (0 : Fin 1) r k) (fun b' hb => off b' hb _) rfl
  | ⟨1, _⟩ =>
    exact concatenate_apply_piece (0 : Fin (⟨3, ![3, a, b]⟩ : Shape).rank) _ h _ 1 (by simp) ⟨3, ![1, a, b]⟩ x1 rfl rfl 1 rfl
      (ix3 (0 : Fin 1) r k) (fun b' hb => off b' hb _) rfl
  | ⟨2, _⟩ =>
    exact concatenate_apply_piece (0 : Fin (⟨3, ![3, a, b]⟩ : Shape).rank) _ h _ 2 (by simp) ⟨3, ![1, a, b]⟩ x2 rfl rfl 2 rfl
      (ix3 (0 : Fin 1) r k) (fun b' hb => off b' hb _) rfl

/-- The three narrowed blocks stacked along a new leading axis: slice `l` is block `l`. -/
theorem stack3_apply (h0 h1 h2 : FVec Ideal S256x256 .f32) (l : Fin 3) (r k : Fin 256) :
    concatenate S3x256x256 0 [⟨S1x256x256, shapeCast S1x256x256 (truncf .bf16 h0 bitsLt_bf16_f32) shapeCasts_S256x256_S1x256x256⟩, ⟨S1x256x256, shapeCast S1x256x256 (truncf .bf16 h1 bitsLt_bf16_f32) shapeCasts_S256x256_S1x256x256⟩, ⟨S1x256x256, shapeCast S1x256x256 (truncf .bf16 h2 bitsLt_bf16_f32) shapeCasts_S256x256_S1x256x256⟩] concatenates_S1x256x256_S1x256x256_S1x256x256_S3x256x256_d0 (ix3 l r k)
      = (![h0, h1, h2] l) (ix2 r k) := by
  refine (stack3_piece _ _ _ _ l r k).trans ?_
  match l with
  | ⟨0, _⟩ => exact (shapeCast_ab_1ab_apply _ _ _ _ _).trans rfl
  | ⟨1, _⟩ => exact (shapeCast_ab_1ab_apply _ _ _ _ _).trans rfl
  | ⟨2, _⟩ => exact (shapeCast_ab_1ab_apply _ _ _ _ _).trans rfl

/-- Column `c` of slice `l` of the per-layer gate projections: the affine map of column `c` of layer `l`'s matrix applied to
    each row of layer `l`'s own block. -/
theorem linHS_apply (K : Consts Ideal) (h0 h1 h2 : FVec Ideal S256x256 .f32) (l : Fin 3) (r : Fin 256) (c : Fin 768) :
    linHS K h0 h1 h2 (ix3 l r c) = lin (fun k : Fin 256 => K.w8 (ix3 l k c)) (K.b9 (ix2 l c)) (fun k : Fin 256 => (![h0, h1, h2] l) (ix2 r k)) := by
  unfold linHS lin
  rw [addf_apply]
  congr 1
  · refine (batch_matmul_apply dot_S3x256x256_S3x256x768_S3x256x768_2_1_1_2_0_0_wf none _ _ l r c).trans ?_
    refine Finset.sum_congr rfl fun k _ => ?_
    rw [stack3_apply, shapeCast_self]
  · rw [broadcastTo_m1b_mab_apply, shapeCast_mb_m1b_apply, shapeCast_self]

end Cert.KernelIdeal.KV

end
-- ==== Proof.KV.RowCell.lean ====
/-
  One layer's cell on a block, row by row.

  The cell's gates are entrywise functions of slices of its operands: columns `q·256 + n` of the input-side
  projections (forget, input, candidate, output for `q = 0, 1, 2, 3`) and of the hidden-side ones (forget, input,
  output for `q = 0, 1, 2`), the three columns of the three-way gate's two projections, and the three slabs of the
  cross-layer projection, each weighted by one of the three-way gates. Read at row `r` and column `n` this is the
  row function's layer.
-/
import proofs.«161507_j76424648065777_2_alg».proof.Proof.KV.RowDefs
import proofs.«161507_j76424648065777_2_alg».proof.Proof.KV.RowOps

noncomputable section

namespace Cert.KernelIdeal.KV

open Cert.KernelIdeal
open Idealize.ShloMosaic Idealize.ShloMosaic.ValueIdx
open Cert.Spec (lin hcat slab)

variable [Facts]
open Facts₀ Facts

/-- A logistic gate of a block at an index is the logistic function of the entry. -/
theorem logistic_apply {s : Shape} {φ : FTy} (x : FVec Ideal s φ) (i : s.Idx) : logistic x i = Ideal.logistic (x i) := rfl
/-- A hyperbolic tangent of a block at an index is the hyperbolic tangent of the entry. -/
theorem tanh_apply {s : Shape} {φ : FTy} (x : FVec Ideal s φ) (i : s.Idx) : tanh x i = Ideal.tanh (x i) := rfl

/-- The new cell block at row `r`, column `n`, in terms of the operands' entries of row `r`. -/
theorem cellC_apply (li : FVec Ideal S256x1024 .f32) (gl : FVec Ideal S256x3 .f32) (lh : FVec Ideal S256x768 .f32)
    (gh : FVec Ideal S256x3 .f32) (ax : FVec Ideal S256x768 .f32) (cp : FVec Ideal S256x256 .f32) (r n : Fin 256) :
    cellC li gl lh gh ax cp (ix2 r n)
      = Ideal.logistic (li (ix2 r (colq 1024 0 n (by norm_num))) + lh (ix2 r (colq 768 0 n (by norm_num)))) * cp (ix2 r n)
        + Ideal.logistic (li (ix2 r (colq 1024 1 n (by norm_num))) + lh (ix2 r (colq 768 1 n (by norm_num))))
          * Ideal.tanh (li (ix2 r (colq 1024 2 n (by norm_num)))
            + (((0 + Ideal.logistic (gl (ix2 r (0 : Fin 3)) + gh (ix2 r (0 : Fin 3))) * ax (ix2 r (colq 768 0 n (by norm_num))))
                + Ideal.logistic (gl (ix2 r (1 : Fin 3)) + gh (ix2 r (1 : Fin 3))) * ax (ix2 r (colq 768 1 n (by norm_num))))
                + Ideal.logistic (gl (ix2 r (2 : Fin 3)) + gh (ix2 r (2 : Fin 3))) * ax (ix2 r (colq 768 2 n (by norm_num))))) := by
  unfold cellC
  simp only [addf_apply, mulf_apply, logistic_apply, tanh_apply, broadcast_apply, broadcastTo_a1_ab_apply, slice2_axis1_eq,
    Ideal.ofBits_def, Ideal.ofBits_zero_f32]
  rfl

/-- The new hidden block at row `r`, column `n`: the output gate times the new cell entry. -/
theorem cellH_apply (li : FVec Ideal S256x1024 .f32) (gl : FVec Ideal S256x3 .f32) (lh : FVec Ideal S256x768 .f32)
    (gh : FVec Ideal S256x3 .f32) (ax : FVec Ideal S256x768 .f32) (cp : FVec Ideal S256x256 .f32) (r n : Fin 256) :
    cellH li gl lh gh ax cp (ix2 r n)
      = Ideal.logistic (li (ix2 r (colq 1024 3 n (by norm_num))) + lh (ix2 r (colq 768 2 n (by norm_num))))
        * cellC li gl lh gh ax cp (ix2 r n) := by
  unfold cellH
  simp only [addf_apply, mulf_apply, logistic_apply, slice2_axis1_eq]
  rfl

/-- The three-way gates' weighted sum of the cross-layer slabs, in the order the kernel accumulates it, is the sum
    over the three gates. -/
theorem aux_sum (g a : Fin 3 → EReal) : ((0 + g 0 * a 0) + g 1 * a 1) + g 2 * a 2 = ∑ s : Fin 3, a s * g s := by
  rw [Fin.sum_univ_three, zero_add, mul_comm (g 0), mul_comm (g 1), mul_comm (g 2)]

/-- ONE LAYER, ROW `r`. If row `r` of the cell's operands holds the layer's affine maps of the layer's input row `inp`,
    of the previous hidden rows `hp` and the previous cell row `cl` of batch row `r`, then row `r` of the new hidden
    and cell blocks is the row function's layer. -/
theorem cell_layer (P : Cert.Spec.Params) (l : Fin 3) (inp : Fin 256 → EReal) (hp : Fin 3 → Fin 256 → EReal) (cl : Fin 256 → EReal)
    (li : FVec Ideal S256x1024 .f32) (gl : FVec Ideal S256x3 .f32) (lh : FVec Ideal S256x768 .f32)
    (gh : FVec Ideal S256x3 .f32) (ax : FVec Ideal S256x768 .f32) (cp : FVec Ideal S256x256 .f32) (r : Fin 256)
    (hli_f : ∀ n : Fin 256, li (ix2 r (colq 1024 0 n (by norm_num))) = lin (P.Wi_f l n) (P.bi_f l n) inp)
    (hli_i : ∀ n : Fin 256, li (ix2 r (colq 1024 1 n (by norm_num))) = lin (P.Wi_i l n) (P.bi_i l n) inp)
    (hli_c : ∀ n : Fin 256, li (ix2 r (colq 1024 2 n (by norm_num))) = lin (P.Wi_c l n) (P.bi_c l n) inp)
    (hli_o : ∀ n : Fin 256, li (ix2 r (colq 1024 3 n (by norm_num))) = lin (P.Wi_o l n) (P.bi_o l n) inp)
    (hgl : ∀ s : Fin 3, gl (ix2 r s) = lin (P.Wi_g l s) (P.bi_g l s) inp)
    (hlh_f : ∀ n : Fin 256, lh (ix2 r (colq 768 0 n (by norm_num))) = lin (P.Wh_f l n) (P.bh_f l n) (hp l))
    (hlh_i : ∀ n : Fin 256, lh (ix2 r (colq 768 1 n (by norm_num))) = lin (P.Wh_i l n) (P.bh_i l n) (hp l))
    (hlh_o : ∀ n : Fin 256, lh (ix2 r (colq 768 2 n (by norm_num))) = lin (P.Wh_o l n) (P.bh_o l n) (hp l))
    (hgh : ∀ s : Fin 3, gh (ix2 r s) = lin (P.Wh_g l s) (P.bh_g l s) (hcat hp))
    (hax0 : ∀ n : Fin 256, ax (ix2 r (colq 768 0 n (by norm_num))) = lin (P.Wh_c l (slab 0 n)) (P.bh_c l (slab 0 n)) (hcat hp))
    (hax1 : ∀ n : Fin 256, ax (ix2 r (colq 768 1 n (by norm_num))) = lin (P.Wh_c l (slab 1 n)) (P.bh_c l (slab 1 n)) (hcat hp))
    (hax2 : ∀ n : Fin 256, ax (ix2 r (colq 768 2 n (by norm_num))) = lin (P.Wh_c l (slab 2 n)) (P.bh_c l (slab 2 n)) (hcat hp))
    (hcp : ∀ n : Fin 256, cp (ix2 r n) = cl n) :
    (∀ n : Fin 256, cellH li gl lh gh ax cp (ix2 r n) = (Cert.Spec.layer P l inp hp cl).1 n)
      ∧ (∀ n : Fin 256, cellC li gl lh gh ax cp (ix2 r n) = (Cert.Spec.layer P l inp hp cl).2 n) := by
  have hC : ∀ n : Fin 256, cellC li gl lh gh ax cp (ix2 r n) = (Cert.Spec.layer P l inp hp cl).2 n := fun n => by
    rw [cellC_apply, hli_f, hli_i, hli_c, hlh_f, hlh_i, hgl, hgl, hgl, hgh, hgh, hgh, hax0, hax1, hax2, hcp]
    rw [aux_sum (fun s => Ideal.logistic (lin (P.Wi_g l s) (P.bi_g l s) inp + lin (P.Wh_g l s) (P.bh_g l s) (hcat hp)))
      (fun s => lin (P.Wh_c l (slab s n)) (P.bh_c l (slab s n)) (hcat hp))]
    rfl
  refine ⟨fun n => ?_, hC⟩
  rw [cellH_apply, hC, hli_o, hlh_o]
  rfl

end Cert.KernelIdeal.KV

end
-- ==== Proof.KV.StepRow.lean ====
/-
  One time step of the kernel, row by row, is one time step of the row function.

  The hidden-side products read the previous hidden blocks, whose row `r` is the previous hidden rows of batch
  row `r`; so their row `r` holds the hidden-side affine maps of those rows, in the fused layouts. Layer 0's
  input-side maps are the hoisted projections; an upper layer's are products of the layer below's new hidden
  block, whose row `r` is by then known to be the row function's. Layer by layer the cell turns these into the
  row function's layer, and the three layers in turn are the row function's step.
-/
import proofs.«161507_j76424648065777_2_alg».proof.Proof.KV.RowLin
import proofs.«161507_j76424648065777_2_alg».proof.Proof.KV.RowHid
import proofs.«161507_j76424648065777_2_alg».proof.Proof.KV.RowCell

noncomputable section

namespace Cert.KernelIdeal.KV

open Cert.KernelIdeal
open Idealize.ShloMosaic Idealize.ShloMosaic.ValueIdx
open Cert.Spec (Params State lin hcat slab)

variable [Facts]
open Facts₀ Facts

/-- An affine map's output unit depends only on the entries of its weights, bias and argument. -/
theorem lin_congr {N : ℕ} {w w' : Fin N → EReal} {b b' : EReal} {v v' : Fin N → EReal}
    (hw : ∀ k, w k = w' k) (hb : b = b') (hv : ∀ k, v k = v' k) : lin w b v = lin w' b' v' := by
  rw [funext hw, hb, funext hv]

variable {K : Consts Ideal} {P : Params} {x : Fin 256 → Fin 256 → EReal} {s : St Ideal} {σ : Fin 256 → State}

/-! ## The hidden-side products' rows -/

/-- Row `r` of the previous hidden blocks side by side is the previous hidden rows side by side. -/
theorem hcat_row (hs : StOk s σ) (r : Fin 256) (c : Fin 768) : hcatBf s.h0 s.h1 s.h2 (ix2 r c) = hcat (σ r).1 c :=
  hcatBf_apply s.h0 s.h1 s.h2 (σ r).1 r (hs.h0 r) (hs.h1 r) (hs.h2 r) c

/-- Row `r` of layer `l`'s previous hidden block is layer `l`'s previous hidden row. -/
theorem stack_row (hs : StOk s σ) (l : Fin 3) (r k : Fin 256) : (![s.h0, s.h1, s.h2] l) (ix2 r k) = (σ r).1 l k := by
  match l with
  | ⟨0, _⟩ => exact hs.h0 r k
  | ⟨1, _⟩ => exact hs.h1 r k
  | ⟨2, _⟩ => exact hs.h2 r k

theorem lhs_row_f (hK : KOk K P x) (hs : StOk s σ) (l : Fin 3) (r n : Fin 256) :
    linHS K s.h0 s.h1 s.h2 (ix3 l r (colq 768 0 n (by norm_num))) = lin (P.Wh_f l n) (P.bh_f l n) ((σ r).1 l) := by
  rw [linHS_apply]
  exact lin_congr (fun k => hK.w8_f l k n) (hK.b9_f l n) (stack_row hs l r)

theorem lhs_row_i (hK : KOk K P x) (hs : StOk s σ) (l : Fin 3) (r n : Fin 256) :
    linHS K s.h0 s.h1 s.h2 (ix3 l r (colq 768 1 n (by norm_num))) = lin (P.Wh_i l n) (P.bh_i l n) ((σ r).1 l) := by
  rw [linHS_apply]
  exact lin_congr (fun k => hK.w8_i l k n) (hK.b9_i l n) (stack_row hs l r)

theorem lhs_row_o (hK : KOk K P x) (hs : StOk s σ) (l : Fin 3) (r n : Fin 256) :
    linHS K s.h0 s.h1 s.h2 (ix3 l r (colq 768 2 n (by norm_num))) = lin (P.Wh_o l n) (P.bh_o l n) ((σ r).1 l) := by
  rw [linHS_apply]
  exact lin_congr (fun k => hK.w8_o l k n) (hK.b9_o l n) (stack_row hs l r)

/-- Slice `l` of a stack of three `[256, 768]` blocks, as a block. -/
theorem slice_l_apply (X : FVec Ideal S3x256x768 .f32) (l : Fin 3) (h : S3x256x768.Slices ![l.val, 0, 0] S1x256x768)
    (r : Fin 256) (c : Fin 768) :
    shapeCast S256x768 (extractStridedSlice S1x256x768 ![l.val, 0, 0] X h) shapeCasts_S1x256x768_S256x768 (ix2 r c) = X (ix3 l r c) := by
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)

theorem lh0_apply (X : FVec Ideal S3x256x768 .f32) (r : Fin 256) (c : Fin 768) : lh0 X (ix2 r c) = X (ix3 (0 : Fin 3) r c) :=
  slice_l_apply X 0 slices_S3x256x768_o0_0_0_S1x256x768 r c
theorem lh1_apply (X : FVec Ideal S3x256x768 .f32) (r : Fin 256) (c : Fin 768) : lh1 X (ix2 r c) = X (ix3 (1 : Fin 3) r c) :=
  slice_l_apply X 1 slices_S3x256x768_o1_0_0_S1x256x768 r c
theorem lh2_apply (X : FVec Ideal S3x256x768 .f32) (r : Fin 256) (c : Fin 768) : lh2 X (ix2 r c) = X (ix3 (2 : Fin 3) r c) :=
  slice_l_apply X 2 slices_S3x256x768_o2_0_0_S1x256x768 r c

/-- Layer `l`'s three columns of the three-way gates' projection: the hidden-side three-way gate maps of the previous
    hidden rows. -/
theorem gh_row (hK : KOk K P x) (hs : StOk s σ) (l : Fin 3) (o : ℕ) (ho : o = l.val * 3) (h : S256x9.Slices ![0, o] S256x3)
    (r : Fin 256) (q : Fin 3) :
    extractStridedSlice S256x3 ![0, o] (whg K s.h0 s.h1 s.h2) h (ix2 r q) = lin (P.Wh_g l q) (P.bh_g l q) (hcat (σ r).1) := by
  subst ho
  rw [slice2_axis1_apply (l.val * 3) _ h r q ⟨l.val * 3 + q.val, by have := l.isLt; have := q.isLt; omega⟩ rfl, whg_apply]
  exact lin_congr (hK.w10 l q) (hK.b11 l q) (hcat_row hs r)

/-- Layer `l`'s slab `q` of the cross-layer projection: the cross-layer maps of the previous hidden rows. -/
theorem ax_row (hK : KOk K P x) (hs : StOk s σ) (l : Fin 3) (o : ℕ) (ho : o = l.val * 768) (h : S256x2304.Slices ![0, o] S256x768)
    (r : Fin 256) (q : Fin 3) (hq : q.val * 256 + 256 ≤ 768) (n : Fin 256) :
    extractStridedSlice S256x768 ![0, o] (whc K s.h0 s.h1 s.h2) h (ix2 r (colq 768 q.val n hq))
      = lin (P.Wh_c l (slab q n)) (P.bh_c l (slab q n)) (hcat (σ r).1) := by
  subst ho
  rw [slice2_axis1_apply (l.val * 768) _ h r (colq 768 q.val n hq)
    ⟨l.val * 768 + (slab q n).val, by have := l.isLt; have := (slab q n).isLt; omega⟩ rfl, whc_apply]
  exact lin_congr (hK.w12 l (slab q n)) (hK.b13 l (slab q n)) (hcat_row hs r)

/-- LAYER `l`'S HIDDEN-SIDE OPERANDS, ROW `r`: its slice `lhX` of the batched gate projections, its three columns of the
    three-way gates' projection (from column `oG = 3 l`) and its three slabs of the cross-layer projection (from column
    `oC = 768 l`) hold the hidden-side affine maps of the previous hidden rows of batch row `r`. -/
theorem hid_rows (hK : KOk K P x) (hs : StOk s σ) (l : Fin 3) (lhX : FVec Ideal S256x768 .f32)
    (hlh : ∀ (r : Fin 256) (c : Fin 768), lhX (ix2 r c) = linHS K s.h0 s.h1 s.h2 (ix3 l r c))
    (oG : ℕ) (hoG : oG = l.val * 3) (hG : S256x9.Slices ![0, oG] S256x3)
    (oC : ℕ) (hoC : oC = l.val * 768) (hC : S256x2304.Slices ![0, oC] S256x768) (r : Fin 256) :
    (∀ n : Fin 256, lhX (ix2 r (colq 768 0 n (by norm_num))) = lin (P.Wh_f l n) (P.bh_f l n) ((σ r).1 l))
    ∧ (∀ n : Fin 256, lhX (ix2 r (colq 768 1 n (by norm_num))) = lin (P.Wh_i l n) (P.bh_i l n) ((σ r).1 l))
    ∧ (∀ n : Fin 256, lhX (ix2 r (colq 768 2 n (by norm_num))) = lin (P.Wh_o l n) (P.bh_o l n) ((σ r).1 l))
    ∧ (∀ q : Fin 3, extractStridedSlice S256x3 ![0, oG] (whg K s.h0 s.h1 s.h2) hG (ix2 r q)
        = lin (P.Wh_g l q) (P.bh_g l q) (hcat (σ r).1))
    ∧ (∀ n : Fin 256, extractStridedSlice S256x768 ![0, oC] (whc K s.h0 s.h1 s.h2) hC (ix2 r (colq 768 0 n (by norm_num)))
        = lin (P.Wh_c l (slab 0 n)) (P.bh_c l (slab 0 n)) (hcat (σ r).1))
    ∧ (∀ n : Fin 256, extractStridedSlice S256x768 ![0, oC] (whc K s.h0 s.h1 s.h2) hC (ix2 r (colq 768 1 n (by norm_num)))
        = lin (P.Wh_c l (slab 1 n)) (P.bh_c l (slab 1 n)) (hcat (σ r).1))
    ∧ (∀ n : Fin 256, extractStridedSlice S256x768 ![0, oC] (whc K s.h0 s.h1 s.h2) hC (ix2 r (colq 768 2 n (by norm_num)))
        = lin (P.Wh_c l (slab 2 n)) (P.bh_c l (slab 2 n)) (hcat (σ r).1)) :=
  ⟨fun n => (hlh r _).trans (lhs_row_f hK hs l r n), fun n => (hlh r _).trans (lhs_row_i hK hs l r n),
    fun n => (hlh r _).trans (lhs_row_o hK hs l r n), gh_row hK hs l oG hoG hG r,
    ax_row hK hs l oC hoC hC r 0 (by norm_num), ax_row hK hs l oC hoC hC r 1 (by norm_num), ax_row hK hs l oC hoC hC r 2 (by norm_num)⟩

/-! ## The three layers -/

/-- AN UPPER LAYER, ROW `r`: its input-side maps are products of the layer below's new hidden block `hb`, whose row
    `r` is `inp`; with the hidden-side operands' rows as in `cell_layer`, the new hidden and cell rows are the row
    function's layer `l` on `inp`. -/
theorem upper_layer (l : Fin 3) (w : Vec Ideal S1x256x1024 .bf16) (b : Vec Ideal S1x1024 .f32)
    (wg : Vec Ideal S1x256x3 .bf16) (bg : Vec Ideal S1x3 .f32)
    (hw_f : ∀ k n : Fin 256, w (ix3 (0 : Fin 1) k (colq 1024 0 n (by norm_num))) = P.Wi_f l n k)
    (hw_i : ∀ k n : Fin 256, w (ix3 (0 : Fin 1) k (colq 1024 1 n (by norm_num))) = P.Wi_i l n k)
    (hw_c : ∀ k n : Fin 256, w (ix3 (0 : Fin 1) k (colq 1024 2 n (by norm_num))) = P.Wi_c l n k)
    (hw_o : ∀ k n : Fin 256, w (ix3 (0 : Fin 1) k (colq 1024 3 n (by norm_num))) = P.Wi_o l n k)
    (hb_f : ∀ n : Fin 256, b (ix2 (0 : Fin 1) (colq 1024 0 n (by norm_num))) = P.bi_f l n)
    (hb_i : ∀ n : Fin 256, b (ix2 (0 : Fin 1) (colq 1024 1 n (by norm_num))) = P.bi_i l n)
    (hb_c : ∀ n : Fin 256, b (ix2 (0 : Fin 1) (colq 1024 2 n (by norm_num))) = P.bi_c l n)
    (hb_o : ∀ n : Fin 256, b (ix2 (0 : Fin 1) (colq 1024 3 n (by norm_num))) = P.bi_o l n)
    (hwg : ∀ (k : Fin 256) (q : Fin 3), wg (ix3 (0 : Fin 1) k q) = P.Wi_g l q k)
    (hbg : ∀ q : Fin 3, bg (ix2 (0 : Fin 1) q) = P.bi_g l q)
    (hb : FVec Ideal S256x256 .f32) (inp : Fin 256 → EReal) (hp : Fin 3 → Fin 256 → EReal) (cl : Fin 256 → EReal)
    (lh : FVec Ideal S256x768 .f32) (gh : FVec Ideal S256x3 .f32) (ax : FVec Ideal S256x768 .f32) (cp : FVec Ideal S256x256 .f32)
    (r : Fin 256) (hin : ∀ n : Fin 256, hb (ix2 r n) = inp n)
    (hlh_f : ∀ n : Fin 256, lh (ix2 r (colq 768 0 n (by norm_num))) = lin (P.Wh_f l n) (P.bh_f l n) (hp l))
    (hlh_i : ∀ n : Fin 256, lh (ix2 r (colq 768 1 n (by norm_num))) = lin (P.Wh_i l n) (P.bh_i l n) (hp l))
    (hlh_o : ∀ n : Fin 256, lh (ix2 r (colq 768 2 n (by norm_num))) = lin (P.Wh_o l n) (P.bh_o l n) (hp l))
    (hgh : ∀ q : Fin 3, gh (ix2 r q) = lin (P.Wh_g l q) (P.bh_g l q) (hcat hp))
    (hax0 : ∀ n : Fin 256, ax (ix2 r (colq 768 0 n (by norm_num))) = lin (P.Wh_c l (slab 0 n)) (P.bh_c l (slab 0 n)) (hcat hp))
    (hax1 : ∀ n : Fin 256, ax (ix2 r (colq 768 1 n (by norm_num))) = lin (P.Wh_c l (slab 1 n)) (P.bh_c l (slab 1 n)) (hcat hp))
    (hax2 : ∀ n : Fin 256, ax (ix2 r (colq 768 2 n (by norm_num))) = lin (P.Wh_c l (slab 2 n)) (P.bh_c l (slab 2 n)) (hcat hp))
    (hcp : ∀ n : Fin 256, cp (ix2 r n) = cl n) :
    (∀ n : Fin 256, cellH (linI w b hb) (gLin wg bg hb) lh gh ax cp (ix2 r n) = (Cert.Spec.layer P l inp hp cl).1 n)
      ∧ (∀ n : Fin 256, cellC (linI w b hb) (gLin wg bg hb) lh gh ax cp (ix2 r n) = (Cert.Spec.layer P l inp hp cl).2 n) :=
  cell_layer P l inp hp cl (linI w b hb) (gLin wg bg hb) lh gh ax cp r
    (fun n => (linI_apply w b hb r _).trans (lin_congr (fun k => hw_f k n) (hb_f n) hin))
    (fun n => (linI_apply w b hb r _).trans (lin_congr (fun k => hw_i k n) (hb_i n) hin))
    (fun n => (linI_apply w b hb r _).trans (lin_congr (fun k => hw_c k n) (hb_c n) hin))
    (fun n => (linI_apply w b hb r _).trans (lin_congr (fun k => hw_o k n) (hb_o n) hin))
    (fun q => (gLin_apply wg bg hb r q).trans (lin_congr (fun k => hwg k q) (hbg q) hin))
    hlh_f hlh_i hlh_o hgh hax0 hax1 hax2 hcp

/-- ROW `r` OF ONE STEP: the six new blocks hold, in row `r`, the three layers of the row function in turn. -/
theorem step_rows (hK : KOk K P x) (hs : StOk s σ) (r : Fin 256) :
    ((∀ n : Fin 256, (step K s).h0 (ix2 r n) = (Cert.Spec.layer P 0 (x r) (σ r).1 ((σ r).2 0)).1 n)
      ∧ (∀ n : Fin 256, (step K s).c0 (ix2 r n) = (Cert.Spec.layer P 0 (x r) (σ r).1 ((σ r).2 0)).2 n))
    ∧ ((∀ n : Fin 256, (step K s).h1 (ix2 r n)
          = (Cert.Spec.layer P 1 (Cert.Spec.layer P 0 (x r) (σ r).1 ((σ r).2 0)).1 (σ r).1 ((σ r).2 1)).1 n)
      ∧ (∀ n : Fin 256, (step K s).c1 (ix2 r n)
          = (Cert.Spec.layer P 1 (Cert.Spec.layer P 0 (x r) (σ r).1 ((σ r).2 0)).1 (σ r).1 ((σ r).2 1)).2 n))
    ∧ ((∀ n : Fin 256, (step K s).h2 (ix2 r n)
          = (Cert.Spec.layer P 2 (Cert.Spec.layer P 1 (Cert.Spec.layer P 0 (x r) (σ r).1 ((σ r).2 0)).1 (σ r).1 ((σ r).2 1)).1
              (σ r).1 ((σ r).2 2)).1 n)
      ∧ (∀ n : Fin 256, (step K s).c2 (ix2 r n)
          = (Cert.Spec.layer P 2 (Cert.Spec.layer P 1 (Cert.Spec.layer P 0 (x r) (σ r).1 ((σ r).2 0)).1 (σ r).1 ((σ r).2 1)).1
              (σ r).1 ((σ r).2 2)).2 n)) := by
  obtain ⟨f0, i0, o0, g0, a00, a01, a02⟩ := hid_rows hK hs 0 (lh0 (linHS K s.h0 s.h1 s.h2)) (lh0_apply _)
    0 rfl slices_S256x9_o0_0_S256x3 0 rfl slices_S256x2304_o0_0_S256x768 r
  obtain ⟨f1, i1, o1, g1, a10, a11, a12⟩ := hid_rows hK hs 1 (lh1 (linHS K s.h0 s.h1 s.h2)) (lh1_apply _)
    3 rfl slices_S256x9_o0_3_S256x3 768 rfl slices_S256x2304_o0_768_S256x768 r
  obtain ⟨f2, i2, o2, g2, a20, a21, a22⟩ := hid_rows hK hs 2 (lh2 (linHS K s.h0 s.h1 s.h2)) (lh2_apply _)
    6 rfl slices_S256x9_o0_6_S256x3 1536 rfl slices_S256x2304_o0_1536_S256x768 r
  have L0 := cell_layer P 0 (x r) (σ r).1 ((σ r).2 0) K.linI0 K.gI0 _ _ _ s.c0 r
    (hK.linI0_f r) (hK.linI0_i r) (hK.linI0_c r) (hK.linI0_o r) (hK.gI0 r) f0 i0 o0 g0 a00 a01 a02 (hs.c0 r)
  have L1 := upper_layer (P := P) 1 K.wi1 K.bi1 K.wg1 K.bg1 hK.wi1_f hK.wi1_i hK.wi1_c hK.wi1_o hK.bi1_f hK.bi1_i hK.bi1_c hK.bi1_o
    hK.wg1 hK.bg1 (step K s).h0 (Cert.Spec.layer P 0 (x r) (σ r).1 ((σ r).2 0)).1 (σ r).1 ((σ r).2 1) _ _ _ s.c1 r
    L0.1 f1 i1 o1 g1 a10 a11 a12 (hs.c1 r)
  have L2 := upper_layer (P := P) 2 K.wi2 K.bi2 K.wg2 K.bg2 hK.wi2_f hK.wi2_i hK.wi2_c hK.wi2_o hK.bi2_f hK.bi2_i hK.bi2_c hK.bi2_o
    hK.wg2 hK.bg2 (step K s).h1
    (Cert.Spec.layer P 1 (Cert.Spec.layer P 0 (x r) (σ r).1 ((σ r).2 0)).1 (σ r).1 ((σ r).2 1)).1 (σ r).1 ((σ r).2 2) _ _ _ s.c2 r
    L1.1 f2 i2 o2 g2 a20 a21 a22 (hs.c2 r)
  exact ⟨L0, L1, L2⟩

/-- ROW BY ROW the kernel's time step is the row function's time step. -/
theorem step_row (hK : KOk K P x) (hs : StOk s σ) : StOk (step K s) (fun r => Cert.Spec.step P (x r) (σ r)) where
  h0 r n := (step_rows hK hs r).1.1 n
  h1 r n := (step_rows hK hs r).2.1.1 n
  h2 r n := (step_rows hK hs r).2.2.1 n
  c0 r n := (step_rows hK hs r).1.2 n
  c1 r n := (step_rows hK hs r).2.1.2 n
  c2 r n := (step_rows hK hs r).2.2.2 n

end Cert.KernelIdeal.KV

end
-- ==== Proof.KV.Loads.lean ====
/-
  What one block's run loads, element by element.

  Every argument of the kernel body is a whole buffer held at contents that read a given array, and
  every load goes through a unit-stride rectangle, so a loaded element is the array's element at
  (offset + coordinate) on each axis. The initial state's six blocks are layer l's slab of the hidden
  and cell arrays with the leading unit axis dropped; the weights and biases of the upper layers are
  layer l's slab with the leading unit axis kept; the hidden side's weights are read whole. The bottom
  layer's two hoisted projections are a product into a zero accumulator plus a bias row broadcast over
  the rows: at (r, j) the sum over k of x(r, k) · W(0, k, j), plus b(0, j), which is the affine map
  `Spec.lin` of column j of layer 0's input-side matrix applied to row r of the input.
-/
import proofs.«161507_j76424648065777_2_alg».proof.Proof.KV.GlueDefs
import proofs.«161507_j76424648065777_2_alg».proof.Proof.KV.RowDefs
import proofs.«161507_j76424648065777_2_alg».proof.Proof.KV.Params
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.WholeRead

set_option maxRecDepth 65536

noncomputable section

namespace Cert.KernelIdeal.KV

open Cert.KernelIdeal Cert.KernelIdeal.Gen Cert.KernelIdeal.Fr
open Idealize.ShloMosaic Idealize.ShloMosaic.ValueIdx
open Cert.Spec (Params State lin)

/-! ## A load of a whole buffer through a unit-stride rectangle, at coordinates -/

section Load

variable {sg : RefSig} {κ : Kind} {sp : Space} {e : EltTy} {Val : EltTy → Type}

/-- Rank 1: the element at coordinate `a` of the load is the array's element at `off 0 + a`. -/
theorem readAt_unit1 {n m : ℕ} (M : Memref sg κ sp ⟨1, ![n]⟩ e) (h : M.IsWhole) (X : (⟨1, ![n]⟩ : Shape).Idx → Val e)
    (off : Fin 1 → ℕ) (inb : ∀ a, off a + (![m] : Fin 1 → ℕ) a ≤ (⟨1, ![n]⟩ : Shape).size a)
    (a : Fin m) (a' : Fin n) (h0 : off 0 + a.val = a'.val) :
    View.readAt Val M.view (Rect.unit (s := ⟨1, ![n]⟩) off ![m] inb).toLoadRect (h.unread X) (ix1 a) = X (ix1 a') := by
  refine (h.readAt_unread X _ _).trans (congrArg X ?_)
  funext d
  refine Fin.ext ?_
  match d with
  | ⟨0, _⟩ => show off 0 + 1 * a.val = a'.val; rw [Nat.one_mul]; exact h0

/-- Rank 2. -/
theorem readAt_unit2 {n0 n1 m0 m1 : ℕ} (M : Memref sg κ sp ⟨2, ![n0, n1]⟩ e) (h : M.IsWhole)
    (X : (⟨2, ![n0, n1]⟩ : Shape).Idx → Val e) (off : Fin 2 → ℕ)
    (inb : ∀ a, off a + (![m0, m1] : Fin 2 → ℕ) a ≤ (⟨2, ![n0, n1]⟩ : Shape).size a)
    (a : Fin m0) (b : Fin m1) (a' : Fin n0) (b' : Fin n1) (h0 : off 0 + a.val = a'.val) (h1 : off 1 + b.val = b'.val) :
    View.readAt Val M.view (Rect.unit (s := ⟨2, ![n0, n1]⟩) off ![m0, m1] inb).toLoadRect (h.unread X) (ix2 a b)
      = X (ix2 a' b') := by
  refine (h.readAt_unread X _ _).trans (congrArg X ?_)
  funext d
  refine Fin.ext ?_
  match d with
  | ⟨0, _⟩ => show off 0 + 1 * a.val = a'.val; rw [Nat.one_mul]; exact h0
  | ⟨1, _⟩ => show off 1 + 1 * b.val = b'.val; rw [Nat.one_mul]; exact h1

/-- Rank 3. -/
theorem readAt_unit3 {n0 n1 n2 m0 m1 m2 : ℕ} (M : Memref sg κ sp ⟨3, ![n0, n1, n2]⟩ e) (h : M.IsWhole)
    (X : (⟨3, ![n0, n1, n2]⟩ : Shape).Idx → Val e) (off : Fin 3 → ℕ)
    (inb : ∀ a, off a + (![m0, m1, m2] : Fin 3 → ℕ) a ≤ (⟨3, ![n0, n1, n2]⟩ : Shape).size a)
    (a : Fin m0) (b : Fin m1) (c : Fin m2) (a' : Fin n0) (b' : Fin n1) (c' : Fin n2)
    (h0 : off 0 + a.val = a'.val) (h1 : off 1 + b.val = b'.val) (h2 : off 2 + c.val = c'.val) :
    View.readAt Val M.view (Rect.unit (s := ⟨3, ![n0, n1, n2]⟩) off ![m0, m1, m2] inb).toLoadRect (h.unread X) (ix3 a b c)
      = X (ix3 a' b' c') := by
  refine (h.readAt_unread X _ _).trans (congrArg X ?_)
  funext d
  refine Fin.ext ?_
  match d with
  | ⟨0, _⟩ => show off 0 + 1 * a.val = a'.val; rw [Nat.one_mul]; exact h0
  | ⟨1, _⟩ => show off 1 + 1 * b.val = b'.val; rw [Nat.one_mul]; exact h1
  | ⟨2, _⟩ => show off 2 + 1 * c.val = c'.val; rw [Nat.one_mul]; exact h2

end Load

/-! ## The operand indices of the two hoisted products, axis by axis

Both contract the 256 input units: the 256 × 256 input block by a 256 × 1024 matrix, and by a 256 × 3 one. -/

theorem lhs_i0_0 (i : S256x1024.Idx) (q : dot_S256x256_S256x1024_S256x1024_1_0_0_1_n_n.contr.Idx) :
    (dot_S256x256_S256x1024_S256x1024_1_0_0_1_n_n.lhsIdx i q 0).val = (i 0).val := by
  unfold DotDims.lhsIdx
  rw [dif_neg (show ¬(0 : Fin S256x256.rank) ∈ dot_S256x256_S256x1024_S256x1024_1_0_0_1_n_n.lhsBatch by decide),
    dif_pos (show (0 : Fin S256x256.rank) ∈ dot_S256x256_S256x1024_S256x1024_1_0_0_1_n_n.lhsNonContracting by decide)]
  rfl

theorem lhs_i0_1 (i : S256x1024.Idx) (q : dot_S256x256_S256x1024_S256x1024_1_0_0_1_n_n.contr.Idx) :
    (dot_S256x256_S256x1024_S256x1024_1_0_0_1_n_n.lhsIdx i q 1).val = (q ⟨0, by decide⟩).val :=
  dot_S256x256_S256x1024_S256x1024_1_0_0_1_n_n.lhsIdx_val_of_single rfl i q

theorem rhs_i0_0 (i : S256x1024.Idx) (q : dot_S256x256_S256x1024_S256x1024_1_0_0_1_n_n.contr.Idx) :
    (dot_S256x256_S256x1024_S256x1024_1_0_0_1_n_n.rhsIdx i q 0).val = (q ⟨0, by decide⟩).val :=
  dot_S256x256_S256x1024_S256x1024_1_0_0_1_n_n.rhsIdx_val_of_single rfl i q

theorem rhs_i0_1 (i : S256x1024.Idx) (q : dot_S256x256_S256x1024_S256x1024_1_0_0_1_n_n.contr.Idx) :
    (dot_S256x256_S256x1024_S256x1024_1_0_0_1_n_n.rhsIdx i q 1).val = (i 1).val := by
  unfold DotDims.rhsIdx
  rw [dif_neg (show ¬(1 : Fin S256x1024.rank) ∈ dot_S256x256_S256x1024_S256x1024_1_0_0_1_n_n.rhsBatch by decide),
    dif_pos (show (1 : Fin S256x1024.rank) ∈ dot_S256x256_S256x1024_S256x1024_1_0_0_1_n_n.rhsNonContracting by decide)]
  rfl

/-- The input block's index at result (r, j) and input unit k is (r, k). -/
theorem lhsIdx_i0 (r : Fin 256) (j : Fin 1024) (k : Fin 256) :
    dot_S256x256_S256x1024_S256x1024_1_0_0_1_n_n.lhsIdx (ix2 r j)
      ((contrEquiv1 dot_S256x256_S256x1024_S256x1024_1_0_0_1_n_n 256 rfl rfl).symm k) = ix2 r k := by
  funext a
  refine Fin.ext ?_
  match a with
  | ⟨0, _⟩ => exact lhs_i0_0 _ _
  | ⟨1, _⟩ => exact (lhs_i0_1 _ _).trans (contrEquiv1_symm_val _ 256 rfl rfl k)

/-- The matrix's index at result (r, j) and input unit k is (k, j). -/
theorem rhsIdx_i0 (r : Fin 256) (j : Fin 1024) (k : Fin 256) :
    dot_S256x256_S256x1024_S256x1024_1_0_0_1_n_n.rhsIdx (ix2 r j)
      ((contrEquiv1 dot_S256x256_S256x1024_S256x1024_1_0_0_1_n_n 256 rfl rfl).symm k) = ix2 k j := by
  funext a
  refine Fin.ext ?_
  match a with
  | ⟨0, _⟩ => exact (rhs_i0_0 _ _).trans (contrEquiv1_symm_val _ 256 rfl rfl k)
  | ⟨1, _⟩ => exact rhs_i0_1 _ _

theorem lhs_g0_0 (i : S256x3.Idx) (q : dot_S256x256_S256x3_S256x3_1_0_0_1_n_n.contr.Idx) :
    (dot_S256x256_S256x3_S256x3_1_0_0_1_n_n.lhsIdx i q 0).val = (i 0).val := by
  unfold DotDims.lhsIdx
  rw [dif_neg (show ¬(0 : Fin S256x256.rank) ∈ dot_S256x256_S256x3_S256x3_1_0_0_1_n_n.lhsBatch by decide),
    dif_pos (show (0 : Fin S256x256.rank) ∈ dot_S256x256_S256x3_S256x3_1_0_0_1_n_n.lhsNonContracting by decide)]
  rfl

theorem lhs_g0_1 (i : S256x3.Idx) (q : dot_S256x256_S256x3_S256x3_1_0_0_1_n_n.contr.Idx) :
    (dot_S256x256_S256x3_S256x3_1_0_0_1_n_n.lhsIdx i q 1).val = (q ⟨0, by decide⟩).val :=
  dot_S256x256_S256x3_S256x3_1_0_0_1_n_n.lhsIdx_val_of_single rfl i q

theorem rhs_g0_0 (i : S256x3.Idx) (q : dot_S256x256_S256x3_S256x3_1_0_0_1_n_n.contr.Idx) :
    (dot_S256x256_S256x3_S256x3_1_0_0_1_n_n.rhsIdx i q 0).val = (q ⟨0, by decide⟩).val :=
  dot_S256x256_S256x3_S256x3_1_0_0_1_n_n.rhsIdx_val_of_single rfl i q

theorem rhs_g0_1 (i : S256x3.Idx) (q : dot_S256x256_S256x3_S256x3_1_0_0_1_n_n.contr.Idx) :
    (dot_S256x256_S256x3_S256x3_1_0_0_1_n_n.rhsIdx i q 1).val = (i 1).val := by
  unfold DotDims.rhsIdx
  rw [dif_neg (show ¬(1 : Fin S256x3.rank) ∈ dot_S256x256_S256x3_S256x3_1_0_0_1_n_n.rhsBatch by decide),
    dif_pos (show (1 : Fin S256x3.rank) ∈ dot_S256x256_S256x3_S256x3_1_0_0_1_n_n.rhsNonContracting by decide)]
  rfl

/-- The input block's index at result (r, s) and input unit k is (r, k). -/
theorem lhsIdx_g0 (r : Fin 256) (s : Fin 3) (k : Fin 256) :
    dot_S256x256_S256x3_S256x3_1_0_0_1_n_n.lhsIdx (ix2 r s)
      ((contrEquiv1 dot_S256x256_S256x3_S256x3_1_0_0_1_n_n 256 rfl rfl).symm k) = ix2 r k := by
  funext a
  refine Fin.ext ?_
  match a with
  | ⟨0, _⟩ => exact lhs_g0_0 _ _
  | ⟨1, _⟩ => exact (lhs_g0_1 _ _).trans (contrEquiv1_symm_val _ 256 rfl rfl k)

/-- The matrix's index at result (r, s) and input unit k is (k, s). -/
theorem rhsIdx_g0 (r : Fin 256) (s : Fin 3) (k : Fin 256) :
    dot_S256x256_S256x3_S256x3_1_0_0_1_n_n.rhsIdx (ix2 r s)
      ((contrEquiv1 dot_S256x256_S256x3_S256x3_1_0_0_1_n_n 256 rfl rfl).symm k) = ix2 k s := by
  funext a
  refine Fin.ext ?_
  match a with
  | ⟨0, _⟩ => exact (rhs_g0_0 _ _).trans (contrEquiv1_symm_val _ 256 rfl rfl k)
  | ⟨1, _⟩ => exact rhs_g0_1 _ _

/-! ## The two hoisted projections at an element -/

/-- The four-gate projection at (r, j): the affine map of column j of the layer's slab of the fused
    matrix and entry j of its bias row, applied to row r of the input block. -/
theorem pay10_apply (v0 : Vec Ideal S256x256 .f32) (v14 : Vec Ideal S1x256x1024 .bf16) (v17 : Vec Ideal S1x1024 .f32)
    (r : Fin 256) (j : Fin 1024) :
    Gen.k0_pay10 (F := Ideal) v0 v14 v17 (ix2 r j)
      = lin (fun k => v14 (ix3 0 k j)) (v17 (ix2 0 j)) (fun k => v0 (ix2 r k)) := by
  unfold Gen.k0_pay10 Gen.k0_pay3
  show _ + _ = _
  simp only [matmul]
  rw [Ideal.matmul_constant_zero_apply, broadcastTo_1b_ab_apply, shapeCast_a_1a_apply, shapeCast_1a_a_apply,
    ← Equiv.sum_comp (contrEquiv1 dot_S256x256_S256x1024_S256x1024_1_0_0_1_n_n 256 rfl rfl).symm]
  simp only [lhsIdx_i0, rhsIdx_i0, truncf_apply, shapeCast_1ab_ab_apply]
  rfl

/-- The three-way gate's projection at (r, s): the same with the 256 × 3 slab and its bias row. -/
theorem pay13_apply (v0 : Vec Ideal S256x256 .f32) (v22 : Vec Ideal S1x256x3 .bf16) (v25 : Vec Ideal S1x3 .f32)
    (r : Fin 256) (s : Fin 3) :
    Gen.k0_pay13 (F := Ideal) (Gen.k0_pay11 v0 v22) (Gen.k0_pay12 v25) (ix2 r s)
      = lin (fun k => v22 (ix3 0 k s)) (v25 (ix2 0 s)) (fun k => v0 (ix2 r k)) := by
  unfold Gen.k0_pay13 Gen.k0_pay11 Gen.k0_pay12 Gen.k0_pay3
  show _ + _ = _
  simp only [matmul]
  rw [Ideal.matmul_constant_zero_apply, broadcastTo_1b_ab_apply, shapeCast_a_1a_apply, shapeCast_1a_a_apply,
    ← Equiv.sum_comp (contrEquiv1 dot_S256x256_S256x3_S256x3_1_0_0_1_n_n 256 rfl rfl).symm]
  simp only [lhsIdx_g0, rhsIdx_g0, truncf_apply, shapeCast_1ab_ab_apply]
  rfl

/-- The four-gate projection of one block's run at (r, j): layer 0's fused input-side matrix and bias. -/
theorem r6_apply (c : Dev nD) (arg1 : Memref sig .tc .vmem S256x256 .f32) (harg1 : arg1.IsWhole)
    (arg4 : Memref sig .tc .vmem S3x256x1024 .bf16) (harg4 : arg4.IsWhole) (arg5 : Memref sig .tc .vmem S3x1024 .f32) (harg5 : arg5.IsWhole)
    (x1 : Vec Ideal S256x256 .f32) (x4 : Vec Ideal S3x256x1024 .bf16) (x5 : Vec Ideal S3x1024 .f32) (r : Fin 256) (j : Fin 1024) :
    kernelRun.sl.r_6 (F := Ideal) c arg1 harg1 arg4 harg4 arg5 harg5 x1 x4 x5 (ix2 r j)
      = lin (fun k => x4 (ix3 0 k j)) (x5 (ix2 0 j)) (fun k => x1 (ix2 r k)) := by
  unfold kernelRun.sl.r_6
  refine (pay10_apply _ _ _ r j).trans ?_
  refine congr (congr (congrArg lin (funext fun k => ?_)) ?_) (funext fun k => ?_)
  · exact readAt_unit3 arg4 harg4 x4 _ _ 0 k j 0 k j rfl (Nat.zero_add _) (Nat.zero_add _)
  · exact readAt_unit2 arg5 harg5 x5 _ _ 0 j 0 j rfl (Nat.zero_add _)
  · exact readAt_unit2 arg1 harg1 x1 _ _ r k r k (Nat.zero_add _) (Nat.zero_add _)

/-- The three-way gate's projection of one block's run at (r, s). -/
theorem r9_apply (c : Dev nD) (arg1 : Memref sig .tc .vmem S256x256 .f32) (harg1 : arg1.IsWhole)
    (arg6 : Memref sig .tc .vmem S3x256x3 .bf16) (harg6 : arg6.IsWhole) (arg7 : Memref sig .tc .vmem S3x3 .f32) (harg7 : arg7.IsWhole)
    (x1 : Vec Ideal S256x256 .f32) (x6 : Vec Ideal S3x256x3 .bf16) (x7 : Vec Ideal S3x3 .f32) (r : Fin 256) (s : Fin 3) :
    kernelRun.sl.r_9 (F := Ideal) c arg1 harg1 arg6 harg6 arg7 harg7 x1 x6 x7 (ix2 r s)
      = lin (fun k => x6 (ix3 0 k s)) (x7 (ix2 0 s)) (fun k => x1 (ix2 r k)) := by
  unfold kernelRun.sl.r_9 kernelRun.sl.r_7 kernelRun.sl.r_8
  refine (pay13_apply _ _ _ r s).trans ?_
  refine congr (congr (congrArg lin (funext fun k => ?_)) ?_) (funext fun k => ?_)
  · exact readAt_unit3 arg6 harg6 x6 _ _ 0 k s 0 k s rfl (Nat.zero_add _) (Nat.zero_add _)
  · exact readAt_unit2 arg7 harg7 x7 _ _ 0 s 0 s rfl (Nat.zero_add _)
  · exact readAt_unit2 arg1 harg1 x1 _ _ r k r k (Nat.zero_add _) (Nat.zero_add _)

/-! ## The fourteen plain loads among the constants of one block's run, each at coordinates

The hidden side's six arrays are read whole; the upper layers' input-side arrays are layer l's slab,
leading unit axis kept. -/

section K0Loads

variable (c : Dev nD) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S768x9 .bf16) (harg10 : arg10.IsWhole) (arg11 : Memref sig .tc .vmem S9 .f32) (harg11 : arg11.IsWhole) (arg12 : Memref sig .tc .vmem S768x2304 .bf16) (harg12 : arg12.IsWhole) (arg13 : Memref sig .tc .vmem S2304 .f32) (harg13 : arg13.IsWhole)
  (x1 : Vec Ideal S256x256 .f32) (x2 : Vec Ideal S3x256x256 .f32) (x3 : Vec Ideal S3x256x256 .f32) (x4 : Vec Ideal S3x256x1024 .bf16) (x5 : Vec Ideal S3x1024 .f32) (x6 : Vec Ideal S3x256x3 .bf16) (x7 : Vec Ideal S3x3 .f32) (x8 : Vec Ideal S3x256x768 .bf16) (x9 : Vec Ideal S3x768 .f32) (x10 : Vec Ideal S768x9 .bf16) (x11 : Vec Ideal S9 .f32) (x12 : Vec Ideal S768x2304 .bf16) (x13 : Vec Ideal S2304 .f32)

theorem K0_w8 (l : Fin 3) (k : Fin 256) (j : Fin 768) :
    (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13).w8 (ix3 l k j) = x8 (ix3 l k j) :=
  readAt_unit3 arg8 harg8 x8 _ _ l k j l k j (Nat.zero_add _) (Nat.zero_add _) (Nat.zero_add _)

theorem K0_b9 (l : Fin 3) (j : Fin 768) :
    (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13).b9 (ix2 l j) = x9 (ix2 l j) :=
  readAt_unit2 arg9 harg9 x9 _ _ l j l j (Nat.zero_add _) (Nat.zero_add _)

theorem K0_w10 (k : Fin 768) (j : Fin 9) :
    (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13).w10 (ix2 k j) = x10 (ix2 k j) :=
  readAt_unit2 arg10 harg10 x10 _ _ k j k j (Nat.zero_add _) (Nat.zero_add _)

theorem K0_b11 (j : Fin 9) :
    (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13).b11 (ix1 j) = x11 (ix1 j) :=
  readAt_unit1 arg11 harg11 x11 _ _ j j (Nat.zero_add _)

theorem K0_w12 (k : Fin 768) (j : Fin 2304) :
    (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13).w12 (ix2 k j) = x12 (ix2 k j) :=
  readAt_unit2 arg12 harg12 x12 _ _ k j k j (Nat.zero_add _) (Nat.zero_add _)

theorem K0_b13 (j : Fin 2304) :
    (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13).b13 (ix1 j) = x13 (ix1 j) :=
  readAt_unit1 arg13 harg13 x13 _ _ j j (Nat.zero_add _)

theorem K0_wi1 (k : Fin 256) (j : Fin 1024) :
    (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13).wi1 (ix3 0 k j) = x4 (ix3 1 k j) :=
  readAt_unit3 arg4 harg4 x4 _ _ 0 k j 1 k j rfl (Nat.zero_add _) (Nat.zero_add _)

theorem K0_bi1 (j : Fin 1024) :
    (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13).bi1 (ix2 0 j) = x5 (ix2 1 j) :=
  readAt_unit2 arg5 harg5 x5 _ _ 0 j 1 j rfl (Nat.zero_add _)

theorem K0_wg1 (k : Fin 256) (s : Fin 3) :
    (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13).wg1 (ix3 0 k s) = x6 (ix3 1 k s) :=
  readAt_unit3 arg6 harg6 x6 _ _ 0 k s 1 k s rfl (Nat.zero_add _) (Nat.zero_add _)

theorem K0_bg1 (s : Fin 3) :
    (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13).bg1 (ix2 0 s) = x7 (ix2 1 s) :=
  readAt_unit2 arg7 harg7 x7 _ _ 0 s 1 s rfl (Nat.zero_add _)

theorem K0_wi2 (k : Fin 256) (j : Fin 1024) :
    (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13).wi2 (ix3 0 k j) = x4 (ix3 2 k j) :=
  readAt_unit3 arg4 harg4 x4 _ _ 0 k j 2 k j rfl (Nat.zero_add _) (Nat.zero_add _)

theorem K0_bi2 (j : Fin 1024) :
    (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13).bi2 (ix2 0 j) = x5 (ix2 2 j) :=
  readAt_unit2 arg5 harg5 x5 _ _ 0 j 2 j rfl (Nat.zero_add _)

theorem K0_wg2 (k : Fin 256) (s : Fin 3) :
    (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13).wg2 (ix3 0 k s) = x6 (ix3 2 k s) :=
  readAt_unit3 arg6 harg6 x6 _ _ 0 k s 2 k s rfl (Nat.zero_add _) (Nat.zero_add _)

theorem K0_bg2 (s : Fin 3) :
    (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13).bg2 (ix2 0 s) = x7 (ix2 2 s) :=
  readAt_unit2 arg7 harg7 x7 _ _ 0 s 2 s rfl (Nat.zero_add _)

end K0Loads

/-! ## The initial state and the constants of one block's run -/

/-- The six initial blocks hold, in row r, layer l's hidden and cell rows of batch row r. -/
theorem s0ok (c : Dev nD) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S768x9 .bf16) (harg10 : arg10.IsWhole) (arg11 : Memref sig .tc .vmem S9 .f32) (harg11 : arg11.IsWhole) (arg12 : Memref sig .tc .vmem S768x2304 .bf16) (harg12 : arg12.IsWhole) (arg13 : Memref sig .tc .vmem S2304 .f32) (harg13 : arg13.IsWhole) (x1 : Vec Ideal S256x256 .f32) (x2 : Vec Ideal S3x256x256 .f32) (x3 : Vec Ideal S3x256x256 .f32) (x4 : Vec Ideal S3x256x1024 .bf16) (x5 : Vec Ideal S3x1024 .f32) (x6 : Vec Ideal S3x256x3 .bf16) (x7 : Vec Ideal S3x3 .f32) (x8 : Vec Ideal S3x256x768 .bf16) (x9 : Vec Ideal S3x768 .f32) (x10 : Vec Ideal S768x9 .bf16) (x11 : Vec Ideal S9 .f32) (x12 : Vec Ideal S768x2304 .bf16) (x13 : Vec Ideal S2304 .f32) :
    StOk (S0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13)
      (fun r => (fun l n => x2 (ix3 l r n), fun l n => x3 (ix3 l r n))) where
  h0 r n := (shapeCast_1ab_ab_apply _ _ r n).trans (readAt_unit3 arg2 harg2 x2 _ _ 0 r n 0 r n rfl (Nat.zero_add _) (Nat.zero_add _))
  h1 r n := (shapeCast_1ab_ab_apply _ _ r n).trans (readAt_unit3 arg2 harg2 x2 _ _ 0 r n 1 r n rfl (Nat.zero_add _) (Nat.zero_add _))
  h2 r n := (shapeCast_1ab_ab_apply _ _ r n).trans (readAt_unit3 arg2 harg2 x2 _ _ 0 r n 2 r n rfl (Nat.zero_add _) (Nat.zero_add _))
  c0 r n := (shapeCast_1ab_ab_apply _ _ r n).trans (readAt_unit3 arg3 harg3 x3 _ _ 0 r n 0 r n rfl (Nat.zero_add _) (Nat.zero_add _))
  c1 r n := (shapeCast_1ab_ab_apply _ _ r n).trans (readAt_unit3 arg3 harg3 x3 _ _ 0 r n 1 r n rfl (Nat.zero_add _) (Nat.zero_add _))
  c2 r n := (shapeCast_1ab_ab_apply _ _ r n).trans (readAt_unit3 arg3 harg3 x3 _ _ 0 r n 2 r n rfl (Nat.zero_add _) (Nat.zero_add _))

/-- The loaded constants are the parameters read off the weight windows, and the two hoisted
    projections are layer 0's input-side affine maps of the input rows. -/
theorem k0ok (c : Dev nD) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S768x9 .bf16) (harg10 : arg10.IsWhole) (arg11 : Memref sig .tc .vmem S9 .f32) (harg11 : arg11.IsWhole) (arg12 : Memref sig .tc .vmem S768x2304 .bf16) (harg12 : arg12.IsWhole) (arg13 : Memref sig .tc .vmem S2304 .f32) (harg13 : arg13.IsWhole) (x1 : Vec Ideal S256x256 .f32) (x2 : Vec Ideal S3x256x256 .f32) (x3 : Vec Ideal S3x256x256 .f32) (x4 : Vec Ideal S3x256x1024 .bf16) (x5 : Vec Ideal S3x1024 .f32) (x6 : Vec Ideal S3x256x3 .bf16) (x7 : Vec Ideal S3x3 .f32) (x8 : Vec Ideal S3x256x768 .bf16) (x9 : Vec Ideal S3x768 .f32) (x10 : Vec Ideal S768x9 .bf16) (x11 : Vec Ideal S9 .f32) (x12 : Vec Ideal S768x2304 .bf16) (x13 : Vec Ideal S2304 .f32) (x14 : Vec Ideal S2304x44 .bf16) (x15 : Vec Ideal S44 .f32) :
    KOk (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13)
      (paramsOfBlocks x4 x5 x6 x7 x8 x9 x10 x11 x12 x13 x14 x15) (fun r k => x1 (ix2 r k)) := by
  constructor
  · intro r n; exact r6_apply c arg1 harg1 arg4 harg4 arg5 harg5 x1 x4 x5 r _
  · intro r n; exact r6_apply c arg1 harg1 arg4 harg4 arg5 harg5 x1 x4 x5 r _
  · intro r n; exact r6_apply c arg1 harg1 arg4 harg4 arg5 harg5 x1 x4 x5 r _
  · intro r n; exact r6_apply c arg1 harg1 arg4 harg4 arg5 harg5 x1 x4 x5 r _
  · intro r s; exact r9_apply c arg1 harg1 arg6 harg6 arg7 harg7 x1 x6 x7 r s
  · intro l k n; exact K0_w8 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 l k _
  · intro l k n; exact K0_w8 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 l k _
  · intro l k n; exact K0_w8 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 l k _
  · intro l n; exact K0_b9 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 l _
  · intro l n; exact K0_b9 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 l _
  · intro l n; exact K0_b9 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 l _
  · intro l s k; exact K0_w10 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 k _
  · intro l s; exact K0_b11 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 _
  · intro l n k; exact K0_w12 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 k _
  · intro l n; exact K0_b13 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 _
  · intro k n; exact K0_wi1 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 k _
  · intro k n; exact K0_wi1 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 k _
  · intro k n; exact K0_wi1 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 k _
  · intro k n; exact K0_wi1 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 k _
  · intro n; exact K0_bi1 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 _
  · intro n; exact K0_bi1 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 _
  · intro n; exact K0_bi1 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 _
  · intro n; exact K0_bi1 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 _
  · intro k s; exact K0_wg1 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 k s
  · intro s; exact K0_bg1 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 s
  · intro k n; exact K0_wi2 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 k _
  · intro k n; exact K0_wi2 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 k _
  · intro k n; exact K0_wi2 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 k _
  · intro k n; exact K0_wi2 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 k _
  · intro n; exact K0_bi2 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 _
  · intro n; exact K0_bi2 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 _
  · intro n; exact K0_bi2 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 _
  · intro n; exact K0_bi2 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 _
  · intro k s; exact K0_wg2 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 k s
  · intro s; exact K0_bg2 c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 s

end Cert.KernelIdeal.KV

end
-- ==== Proof.KV.Out.lean ====
/-
  The last stage of the kernel's body, at one element.

  The stage multiplies the 256 × 2304 block of features by the 2304 × 44 matrix (into a zero
  accumulator), adds the bias row to every row and applies the logistic function. On the extended
  reals the format changes are the identity, so element (r, j) of the result is the logistic of
  ∑ₖ feat(r, k) · w(k, j) + b(j): the affine map `Spec.lin` of column j of the matrix and entry j
  of the bias, applied to row r of the features.
-/
import proofs.«161507_j76424648065777_2_alg».proof.Proof.Gen.KernelIdeal.Skeleton
import proofs.«161507_j76424648065777_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KV

open Cert.KernelIdeal
open Idealize.ShloMosaic Idealize.ShloMosaic.ValueIdx

/-! ## The operand indices of the 256 × 2304 by 2304 × 44 product, axis by axis -/

/-- The left operand's row is the result's row. -/
theorem lhs_last_0 (i : S256x44.Idx) (q : dot_S256x2304_S2304x44_S256x44_1_0_0_1_n_n.contr.Idx) :
    (dot_S256x2304_S2304x44_S256x44_1_0_0_1_n_n.lhsIdx i q 0).val = (i 0).val := by
  unfold DotDims.lhsIdx
  rw [dif_neg (show ¬(0 : Fin S256x2304.rank) ∈ dot_S256x2304_S2304x44_S256x44_1_0_0_1_n_n.lhsBatch by decide),
    dif_pos (show (0 : Fin S256x2304.rank) ∈ dot_S256x2304_S2304x44_S256x44_1_0_0_1_n_n.lhsNonContracting by decide)]
  rfl

/-- The left operand's column is the contraction position. -/
theorem lhs_last_1 (i : S256x44.Idx) (q : dot_S256x2304_S2304x44_S256x44_1_0_0_1_n_n.contr.Idx) :
    (dot_S256x2304_S2304x44_S256x44_1_0_0_1_n_n.lhsIdx i q 1).val = (q ⟨0, by decide⟩).val :=
  dot_S256x2304_S2304x44_S256x44_1_0_0_1_n_n.lhsIdx_val_of_single rfl i q

/-- The right operand's row is the contraction position. -/
theorem rhs_last_0 (i : S256x44.Idx) (q : dot_S256x2304_S2304x44_S256x44_1_0_0_1_n_n.contr.Idx) :
    (dot_S256x2304_S2304x44_S256x44_1_0_0_1_n_n.rhsIdx i q 0).val = (q ⟨0, by decide⟩).val :=
  dot_S256x2304_S2304x44_S256x44_1_0_0_1_n_n.rhsIdx_val_of_single rfl i q

/-- The right operand's column is the result's column. -/
theorem rhs_last_1 (i : S256x44.Idx) (q : dot_S256x2304_S2304x44_S256x44_1_0_0_1_n_n.contr.Idx) :
    (dot_S256x2304_S2304x44_S256x44_1_0_0_1_n_n.rhsIdx i q 1).val = (i 1).val := by
  unfold DotDims.rhsIdx
  rw [dif_neg (show ¬(1 : Fin S2304x44.rank) ∈ dot_S256x2304_S2304x44_S256x44_1_0_0_1_n_n.rhsBatch by decide),
    dif_pos (show (1 : Fin S2304x44.rank) ∈ dot_S256x2304_S2304x44_S256x44_1_0_0_1_n_n.rhsNonContracting by decide)]
  rfl

/-- The left operand's index at result (r, j) and contraction position k is (r, k). -/
theorem lhsIdx_last (r : Fin 256) (j : Fin 44) (k : Fin 2304) :
    dot_S256x2304_S2304x44_S256x44_1_0_0_1_n_n.lhsIdx (ix2 r j)
      ((contrEquiv1 dot_S256x2304_S2304x44_S256x44_1_0_0_1_n_n 2304 rfl rfl).symm k) = ix2 r k := by
  funext a
  refine Fin.ext ?_
  match a with
  | ⟨0, _⟩ => exact lhs_last_0 _ _
  | ⟨1, _⟩ => exact (lhs_last_1 _ _).trans (contrEquiv1_symm_val _ 2304 rfl rfl k)

/-- The right operand's index at result (r, j) and contraction position k is (k, j). -/
theorem rhsIdx_last (r : Fin 256) (j : Fin 44) (k : Fin 2304) :
    dot_S256x2304_S2304x44_S256x44_1_0_0_1_n_n.rhsIdx (ix2 r j)
      ((contrEquiv1 dot_S256x2304_S2304x44_S256x44_1_0_0_1_n_n 2304 rfl rfl).symm k) = ix2 k j := by
  funext a
  refine Fin.ext ?_
  match a with
  | ⟨0, _⟩ => exact (rhs_last_0 _ _).trans (contrEquiv1_symm_val _ 2304 rfl rfl k)
  | ⟨1, _⟩ => exact rhs_last_1 _ _

/-! ## The stage at an element -/

/-- Element (r, j) of the last stage: the logistic of the affine map of column j of the matrix and
    entry j of the bias, applied to row r of the features. -/
theorem pay2_row (feat : Vec Ideal S256x2304 .f32) (w : Vec Ideal S2304x44 .bf16) (b : Vec Ideal S44 .f32)
    (r : Fin 256) (j : Fin 44) :
    Gen.k0_pay2 (F := Ideal) feat w b (ix2 r j)
      = Ideal.logistic (Cert.Spec.lin (fun k => w (ix2 k j)) (b (ix1 j)) (fun k => feat (ix2 r k))) := by
  unfold Gen.k0_pay2
  show Ideal.logistic (_ + _) = _
  simp only [matmul]
  rw [Ideal.matmul_constant_zero_apply, broadcastTo_1b_ab_apply, shapeCast_a_1a_apply,
    ← Equiv.sum_comp (contrEquiv1 dot_S256x2304_S2304x44_S256x44_1_0_0_1_n_n 2304 rfl rfl).symm]
  simp only [lhsIdx_last, rhsIdx_last, truncf_apply, shapeCast_self]
  rfl

end Cert.KernelIdeal.KV

end
-- ==== Proof.KV.Row.lean ====
/-
  The kernel body on one block of 256 batch rows computes the row function of the cell.

  `paramsOfBlocks` reads the weights and biases off the kernel's weight windows, in the fused
  layouts the kernel's host code builds (the four input-side gate matrices side by side along the
  output axis, the three hidden-side ones likewise, the three-way gates' and the cross-layer
  matrices of all layers side by side, every matrix transposed). `out15_row`: entry `(r, j)` of the
  block the body stores is `Spec.out` of row `r` of the input blocks.
-/
import proofs.«161507_j76424648065777_2_alg».proof.Proof.KI.Frame
import proofs.«161507_j76424648065777_2_alg».proof.Proof.SpecArgs
import proofs.«161507_j76424648065777_2_alg».proof.Proof.KV.RowDefs
import proofs.«161507_j76424648065777_2_alg».proof.Proof.KV.Params
import proofs.«161507_j76424648065777_2_alg».proof.Proof.KV.Glue
import proofs.«161507_j76424648065777_2_alg».proof.Proof.KV.StepRow
import proofs.«161507_j76424648065777_2_alg».proof.Proof.KV.Loads
import proofs.«161507_j76424648065777_2_alg».proof.Proof.KV.Out
import Idealize.ShloMosaic.Lib.Pipeline.Value

-- evaluating the run's pieces recurses past the default depth
set_option maxRecDepth 65536

noncomputable section

namespace Cert.KernelIdeal.KV

open Cert.KernelIdeal Cert.KernelIdeal.Gen Cert.KernelIdeal.Fr
open Idealize.ShloMosaic Idealize.ShloMosaic.ValueIdx

/-! ## The state after any number of steps -/

/-- If the blocks hold the row states, after `t` steps they hold the row states after `t` steps of the cell. -/
theorem iter_row [Facts] {K : Consts Ideal} {P : Cert.Spec.Params} {x : Fin 256 → Fin 256 → EReal} {s : St Ideal} {σ : Fin 256 → Cert.Spec.State}
    (hK : KOk K P x) (hs : StOk s σ) : ∀ t : ℕ, StOk (iter K s t) (fun r => (Cert.Spec.step P (x r))^[t] (σ r))
  | 0 => hs
  | t + 1 => by
    have e : (fun r => (Cert.Spec.step P (x r))^[t + 1] (σ r)) = fun r => Cert.Spec.step P (x r) ((Cert.Spec.step P (x r))^[t] (σ r)) :=
      funext fun r => Function.iterate_succ_apply' _ _ _
    rw [e]; exact step_row hK (iter_row hK hs t)

/-! ## The features read back from the scratch buffer -/

private theorem hz2 : (![0, 0] : Fin 2 → Nat) = fun _ => 0 := funext fun a => by fin_cases a <;> rfl
private theorem hz1 : (![0] : Fin 1 → Nat) = fun _ => 0 := funext fun a => by fin_cases a; rfl

/-- The slab the body keeps of a step is the top layer's new hidden block. -/
theorem slabOf_eq [Facts] (s : St Ideal) : slabOf s = s.h2 := shapeCast_self _ _

/-- The scratch buffer's contents as ONE function of its index: column `k` of row `r` is unit `k % 256` of row `r` of
    the top layer's hidden block after step `k / 256 + 1`. -/
def featG [Facts] (K : Consts Ideal) (S : St Ideal) : Vec Ideal S256x2304 .f32 :=
  fun y => (iter K S ((y 1).val / 256 + 1)).h2 (ix2 ⟨(y 0).val, (y 0).isLt⟩ ⟨(y 1).val % 256, Nat.mod_lt _ (by norm_num)⟩)

/-- The slab of step `q + 1`, stored at column offset `256 q`, is that function's block there. -/
theorem featG_slab [Facts] (K : Consts Ideal) (S : St Ideal) (q : ℕ) (x : S256x256.Idx) (y : S256x2304.Idx)
    (h0 : (y 0).val = (x 0).val) (h1 : (y 1).val = q * 256 + (x 1).val) :
    (iter K S (q + 1)).h2 x = featG K S y := by
  have hx : (x 1).val < 256 := (x 1).isLt
  have e1 : (y 1).val / 256 = q := by omega
  have e2 : (y 1).val % 256 = (x 1).val := by omega
  unfold featG
  rw [e1]
  refine congrArg _ (funext fun a => ?_)
  match a with
  | ⟨0, _⟩ => exact Fin.ext h0.symm
  | ⟨1, _⟩ => exact Fin.ext e2.symm

/-- The nine slabs the steps store in the scratch buffer, last stored first: the slab of step `q` at column offset `256 (q - 1)`. -/
abbrev slabPieces [Facts] (K : Consts Ideal) (S : St Ideal) : List (View.Piece (Elt Ideal) S256x2304 .f32) :=
  [⟨Rect.unit (s := S256x2304) ![0, 2048] S256x256.size inb_S256x2304_S256x256_0_2048, slabOf (iter K S 9)⟩,
   ⟨Rect.unit (s := S256x2304) ![0, 1792] S256x256.size inb_S256x2304_S256x256_0_1792, slabOf (iter K S 8)⟩,
   ⟨Rect.unit (s := S256x2304) ![0, 1536] S256x256.size inb_S256x2304_S256x256_0_1536, slabOf (iter K S 7)⟩,
   ⟨Rect.unit (s := S256x2304) ![0, 1280] S256x256.size inb_S256x2304_S256x256_0_1280, slabOf (iter K S 6)⟩,
   ⟨Rect.unit (s := S256x2304) ![0, 1024] S256x256.size inb_S256x2304_S256x256_0_1024, slabOf (iter K S 5)⟩,
   ⟨Rect.unit (s := S256x2304) ![0, 768] S256x256.size inb_S256x2304_S256x256_0_768, slabOf (iter K S 4)⟩,
   ⟨Rect.unit (s := S256x2304) ![0, 512] S256x256.size inb_S256x2304_S256x256_0_512, slabOf (iter K S 3)⟩,
   ⟨Rect.unit (s := S256x2304) ![0, 256] S256x256.size inb_S256x2304_S256x256_0_256, slabOf (iter K S 2)⟩,
   ⟨Rect.unit (s := S256x2304) ![0, 0] S256x256.size inb_S256x2304_S256x256_0_0, slabOf (iter K S 1)⟩]

/-- Each slab is the block of `featG` its rectangle names. -/
theorem slabPieces_block [Facts] (K : Consts Ideal) (S : St Ideal) :
    ∀ p ∈ slabPieces K S, ∀ x : p.1.shape.Idx, p.2 x = featG K S (p.1.emb x) := by
  intro p hp
  simp only [List.mem_cons, List.mem_nil_iff, or_false] at hp
  rcases hp with rfl | rfl | rfl | rfl | rfl | rfl | rfl | rfl | rfl
  all_goals intro x; rw [slabOf_eq]
  · exact featG_slab K S 8 x _ (by show 0 + 1 * (x 0).val = (x 0).val; omega) (by show 2048 + 1 * (x 1).val = 8 * 256 + (x 1).val; omega)
  · exact featG_slab K S 7 x _ (by show 0 + 1 * (x 0).val = (x 0).val; omega) (by show 1792 + 1 * (x 1).val = 7 * 256 + (x 1).val; omega)
  · exact featG_slab K S 6 x _ (by show 0 + 1 * (x 0).val = (x 0).val; omega) (by show 1536 + 1 * (x 1).val = 6 * 256 + (x 1).val; omega)
  · exact featG_slab K S 5 x _ (by show 0 + 1 * (x 0).val = (x 0).val; omega) (by show 1280 + 1 * (x 1).val = 5 * 256 + (x 1).val; omega)
  · exact featG_slab K S 4 x _ (by show 0 + 1 * (x 0).val = (x 0).val; omega) (by show 1024 + 1 * (x 1).val = 4 * 256 + (x 1).val; omega)
  · exact featG_slab K S 3 x _ (by show 0 + 1 * (x 0).val = (x 0).val; omega) (by show 768 + 1 * (x 1).val = 3 * 256 + (x 1).val; omega)
  · exact featG_slab K S 2 x _ (by show 0 + 1 * (x 0).val = (x 0).val; omega) (by show 512 + 1 * (x 1).val = 2 * 256 + (x 1).val; omega)
  · exact featG_slab K S 1 x _ (by show 0 + 1 * (x 0).val = (x 0).val; omega) (by show 256 + 1 * (x 1).val = 1 * 256 + (x 1).val; omega)
  · exact featG_slab K S 0 x _ (by show 0 + 1 * (x 0).val = (x 0).val; omega) (by show 0 + 1 * (x 1).val = 0 * 256 + (x 1).val; omega)

/-- The nine slabs tile the buffer (checked by evaluating their rectangles), so they cover it. -/
theorem slabPieces_cover [Facts] (K : Consts Ideal) (S : St Ideal) (y : S256x2304.Idx) : ∃ p ∈ slabPieces K S, y ∈ p.1.set :=
  View.cover_of_tiledL (slabPieces K S) S256x256.size (by sl_kernel_rfl) y

/-- So the buffer the slabs were stored in reads back as `featG`, at every index. -/
theorem canon_slabs [Facts] (K : Consts Ideal) (S : St Ideal) (y : S256x2304.Idx) : View.canon (slabPieces K S) y = featG K S y :=
  View.canon_apply_of_pieces (featG K S) (slabPieces K S) (slabPieces_block K S) y (slabPieces_cover K S y)

/-- Entry `(r, k)` of what the body reads back from the scratch buffer is entry `k` of the cell's features of row `r`:
    the buffer reads back as `featG` of the run's constants and initial state, and after `k / 256 + 1` steps the
    blocks hold the row states after as many steps of the cell. -/
theorem feat_row (c : Dev nD) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S768x9 .bf16) (harg10 : arg10.IsWhole) (arg11 : Memref sig .tc .vmem S9 .f32) (harg11 : arg11.IsWhole) (arg12 : Memref sig .tc .vmem S768x2304 .bf16) (harg12 : arg12.IsWhole) (arg13 : Memref sig .tc .vmem S2304 .f32) (harg13 : arg13.IsWhole) (arg17 : Memref sig .tc .vmem S256x2304 .f32)
    (x1 : Vec Ideal S256x256 .f32) (x2 : Vec Ideal S3x256x256 .f32) (x3 : Vec Ideal S3x256x256 .f32) (x4 : Vec Ideal S3x256x1024 .bf16) (x5 : Vec Ideal S3x1024 .f32) (x6 : Vec Ideal S3x256x3 .bf16) (x7 : Vec Ideal S3x3 .f32) (x8 : Vec Ideal S3x256x768 .bf16) (x9 : Vec Ideal S3x768 .f32) (x10 : Vec Ideal S768x9 .bf16) (x11 : Vec Ideal S9 .f32) (x12 : Vec Ideal S768x2304 .bf16) (x13 : Vec Ideal S2304 .f32) (x14 : Vec Ideal S2304x44 .bf16) (x15 : Vec Ideal S44 .f32) (r : Fin 256) (k : Fin 2304) :
    Fr.kernelRun.sl.v1767 (F := Ideal) c arg1 harg1 arg2 harg2 arg3 harg3 arg4 harg4 arg5 harg5 arg6 harg6 arg7 harg7 arg8 harg8 arg9 harg9 arg10 harg10 arg11 harg11 arg12 harg12 arg13 harg13 arg17 x1 x2 x3 x4 x5 x6 x7 x8 x9 x10 x11 x12 x13 (ix2 r k)
      = Cert.Spec.feat (paramsOfBlocks x4 x5 x6 x7 x8 x9 x10 x11 x12 x13 x14 x15) (fun k => x1 (ix2 r k))
          (fun l n => x2 (ix3 l r n), fun l n => x3 (ix3 l r n)) k := by
  unfold Fr.kernelRun.sl.v1767
  rw [View.readCov_eq_canon', pieces_eq]
  have hidx : (Rect.unit (s := S256x2304) ![0, 0] S256x2304.size inb_S256x2304_S256x2304_0_0).toLoadRect.idx (ix2 r k) = ix2 r k := by
    refine funext fun a => Fin.ext ?_
    match a with
    | ⟨0, _⟩ => show 0 + 1 * r.val = r.val; omega
    | ⟨1, _⟩ => show 0 + 1 * k.val = k.val; omega
  show View.canon (slabPieces (K0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) (S0 (F := Ideal) c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13))
    ((Rect.unit (s := S256x2304) ![0, 0] S256x2304.size inb_S256x2304_S256x2304_0_0).toLoadRect.idx (ix2 r k)) = _
  rw [hidx, canon_slabs]
  exact (iter_row (k0ok c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13 x14 x15) (s0ok c arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x11 x12 x13) (k.val / 256 + 1)).h2 r ⟨k.val % 256, Nat.mod_lt _ (by norm_num)⟩

/-! ## The last map's weights as loaded -/

theorem load14 (arg14 : Memref sig .tc .vmem S2304x44 .bf16) (harg14 : arg14.IsWhole) (x14 : Vec Ideal S2304x44 .bf16) :
    View.readAt (Elt Ideal) arg14.view (Rect.unit (s := S2304x44) ![0, 0] S2304x44.size inb_S2304x44_S2304x44_0_0).toLoadRect (harg14.unread x14) = x14 := by
  simp only [View.readAt_eq_ld, harg14.read_unread, View.ld_unit_zero (S := S2304x44) hz2]

theorem load15 (arg15 : Memref sig .tc .vmem S44 .f32) (harg15 : arg15.IsWhole) (x15 : Vec Ideal S44 .f32) :
    View.readAt (Elt Ideal) arg15.view (Rect.unit (s := S44) ![0] S44.size inb_S44_S44_0).toLoadRect (harg15.unread x15) = x15 := by
  simp only [View.readAt_eq_ld, harg15.read_unread, View.ld_unit_zero (S := S44) hz1]

/-! ## The stored block, row by row -/

/-- Entry `(r, j)` of the block the body stores is the cell's row function of row `r` of the input block,
    of row `r` of the three layers' hidden and cell blocks, and of the weights. -/
theorem out15_row (c : Dev nD) (i : grid0.Coords) (arg1 : Memref sig .tc .vmem S256x256 .f32) (harg1 : arg1.IsWhole) (arg2 : Memref sig .tc .vmem S3x256x256 .f32) (harg2 : arg2.IsWhole) (arg3 : Memref sig .tc .vmem S3x256x256 .f32) (harg3 : arg3.IsWhole) (arg4 : Memref sig .tc .vmem S3x256x1024 .bf16) (harg4 : arg4.IsWhole) (arg5 : Memref sig .tc .vmem S3x1024 .f32) (harg5 : arg5.IsWhole) (arg6 : Memref sig .tc .vmem S3x256x3 .bf16) (harg6 : arg6.IsWhole) (arg7 : Memref sig .tc .vmem S3x3 .f32) (harg7 : arg7.IsWhole) (arg8 : Memref sig .tc .vmem S3x256x768 .bf16) (harg8 : arg8.IsWhole) (arg9 : Memref sig .tc .vmem S3x768 .f32) (harg9 : arg9.IsWhole) (arg10 : Memref sig .tc .vmem S768x9 .bf16) (harg10 : arg10.IsWhole) (arg11 : Memref sig .tc .vmem S9 .f32) (harg11 : arg11.IsWhole) (arg12 : Memref sig .tc .vmem S768x2304 .bf16) (harg12 : arg12.IsWhole) (arg13 : Memref sig .tc .vmem S2304 .f32) (harg13 : arg13.IsWhole) (arg14 : Memref sig .tc .vmem S2304x44 .bf16) (harg14 : arg14.IsWhole) (arg15 : Memref sig .tc .vmem S44 .f32) (harg15 : arg15.IsWhole) (arg16 : Memref sig .tc .vmem S256x44 .f32) (harg16 : arg16.IsWhole) (arg17 : Memref sig .tc .vmem S256x2304 .f32) (harg17 : arg17.IsWhole)
    (x1 : Vec Ideal S256x256 .f32) (x2 : Vec Ideal S3x256x256 .f32) (x3 : Vec Ideal S3x256x256 .f32) (x4 : Vec Ideal S3x256x1024 .bf16) (x5 : Vec Ideal S3x1024 .f32) (x6 : Vec Ideal S3x256x3 .bf16) (x7 : Vec Ideal S3x3 .f32) (x8 : Vec Ideal S3x256x768 .bf16) (x9 : Vec Ideal S3x768 .f32) (x10 : Vec Ideal S768x9 .bf16) (x11 : Vec Ideal S9 .f32) (x12 : Vec Ideal S768x2304 .bf16) (x13 : Vec Ideal S2304 .f32) (x14 : Vec Ideal S2304x44 .bf16) (x15 : Vec Ideal S44 .f32) (r : Fin 256) (j : Fin 44) :
    out15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15 (ix2 r j)
      = Cert.Spec.out (paramsOfBlocks x4 x5 x6 x7 x8 x9 x10 x11 x12 x13 x14 x15) (fun k => x1 (ix2 r k))
          (fun l n => x2 (ix3 l r n), fun l n => x3 (ix3 l r n)) j := by
  unfold out15
  rw [View.read_writes_eq_canon _ _ _ (cover15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 x11 x12 x13 x14 x15)]
  unfold Fr.kernelRun
  dsimp only
  rw [View.canon_unit_zero (S := S256x44) hz2]
  rw [load14 arg14 harg14 x14, load15 arg15 harg15 x15]
  refine (pay2_row _ x14 x15 r j).trans ?_
  unfold Cert.Spec.out
  simp only [feat_row c arg1 harg1 arg2 harg2 arg3 harg3 arg4 harg4 arg5 harg5 arg6 harg6 arg7 harg7 arg8 harg8 arg9 harg9 arg10 harg10 arg11 harg11 arg12 harg12 arg13 harg13 arg17 x1 x2 x3 x4 x5 x6 x7 x8 x9 x10 x11 x12 x13 x14 x15 r]
  rfl

end Cert.KernelIdeal.KV

end
-- ==== Proof.KV.Weights.lean ====
/-
  The weights the kernel's body finds in its weight windows are the cell's weights.

  Before the region the program lays the weight arrays out anew: the four input-side gate matrices
  of each layer transposed and set side by side along the output axis (likewise their biases), the
  three hidden-side ones likewise, the three-way gates' and the cross-layer matrices transposed and
  the layers set side by side along the output axis, the last matrix transposed. Each of these
  arrays is one whole-array window of the region, so the block a grid point finds is the array
  itself. This module reads every such array at an index: entry by entry it is an entry of one of
  the twenty-five argument arrays, the one `Spec.Args.params` names. At the ideal instance a change
  of float format is the identity, so the conversions to the narrow format drop out.
-/
import proofs.«161507_j76424648065777_2_alg».proof.Proof.KV.Params
import proofs.«161507_j76424648065777_2_alg».proof.Proof.KI.Kit
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KV

open Cert.KernelIdeal Cert.KernelIdeal.Gen Cert.KernelIdeal.Fr
open Idealize.ShloMosaic Idealize.ShloMosaic.ValueIdx

/-! ## Layout operations at an index -/

section Layout
variable {α : Type}

/-! Stacks of 256-column matrices set side by side along the last axis: column `q * 256 + n` of the
    result is column `n` of piece `q`. -/

theorem cat4_0 (X0 X1 X2 X3 : S3x256x256.Idx → α) (h) (l : Fin 3) (k n : Fin 256) (j : Fin 1024) (hj : j.val = 0 * 256 + n.val) :
    concatenate S3x256x1024 2 [⟨S3x256x256, X0⟩, ⟨S3x256x256, X1⟩, ⟨S3x256x256, X2⟩, ⟨S3x256x256, X3⟩] h (ix3 l k j) = X0 (ix3 l k n) :=
  concatenate_apply_piece 2 _ h _ 0 (by show (0 : ℕ) < 4; omega) S3x256x256 X0 rfl rfl 0 rfl (ix3 l k n)
    (fun b hb => match b with | ⟨0, _⟩ => rfl | ⟨1, _⟩ => rfl | ⟨2, _⟩ => absurd (Fin.ext rfl) hb)
    (by show 0 + n.val = j.val; omega)
theorem cat4_1 (X0 X1 X2 X3 : S3x256x256.Idx → α) (h) (l : Fin 3) (k n : Fin 256) (j : Fin 1024) (hj : j.val = 1 * 256 + n.val) :
    concatenate S3x256x1024 2 [⟨S3x256x256, X0⟩, ⟨S3x256x256, X1⟩, ⟨S3x256x256, X2⟩, ⟨S3x256x256, X3⟩] h (ix3 l k j) = X1 (ix3 l k n) :=
  concatenate_apply_piece 2 _ h _ 1 (by show (1 : ℕ) < 4; omega) S3x256x256 X1 rfl rfl 256 rfl (ix3 l k n)
    (fun b hb => match b with | ⟨0, _⟩ => rfl | ⟨1, _⟩ => rfl | ⟨2, _⟩ => absurd (Fin.ext rfl) hb)
    (by show 256 + n.val = j.val; omega)
theorem cat4_2 (X0 X1 X2 X3 : S3x256x256.Idx → α) (h) (l : Fin 3) (k n : Fin 256) (j : Fin 1024) (hj : j.val = 2 * 256 + n.val) :
    concatenate S3x256x1024 2 [⟨S3x256x256, X0⟩, ⟨S3x256x256, X1⟩, ⟨S3x256x256, X2⟩, ⟨S3x256x256, X3⟩] h (ix3 l k j) = X2 (ix3 l k n) :=
  concatenate_apply_piece 2 _ h _ 2 (by show (2 : ℕ) < 4; omega) S3x256x256 X2 rfl rfl 512 rfl (ix3 l k n)
    (fun b hb => match b with | ⟨0, _⟩ => rfl | ⟨1, _⟩ => rfl | ⟨2, _⟩ => absurd (Fin.ext rfl) hb)
    (by show 512 + n.val = j.val; omega)
theorem cat4_3 (X0 X1 X2 X3 : S3x256x256.Idx → α) (h) (l : Fin 3) (k n : Fin 256) (j : Fin 1024) (hj : j.val = 3 * 256 + n.val) :
    concatenate S3x256x1024 2 [⟨S3x256x256, X0⟩, ⟨S3x256x256, X1⟩, ⟨S3x256x256, X2⟩, ⟨S3x256x256, X3⟩] h (ix3 l k j) = X3 (ix3 l k n) :=
  concatenate_apply_piece 2 _ h _ 3 (by show (3 : ℕ) < 4; omega) S3x256x256 X3 rfl rfl 768 rfl (ix3 l k n)
    (fun b hb => match b with | ⟨0, _⟩ => rfl | ⟨1, _⟩ => rfl | ⟨2, _⟩ => absurd (Fin.ext rfl) hb)
    (by show 768 + n.val = j.val; omega)
theorem cat3_0 (X0 X1 X2 : S3x256x256.Idx → α) (h) (l : Fin 3) (k n : Fin 256) (j : Fin 768) (hj : j.val = 0 * 256 + n.val) :
    concatenate S3x256x768 2 [⟨S3x256x256, X0⟩, ⟨S3x256x256, X1⟩, ⟨S3x256x256, X2⟩] h (ix3 l k j) = X0 (ix3 l k n) :=
  concatenate_apply_piece 2 _ h _ 0 (by show (0 : ℕ) < 3; omega) S3x256x256 X0 rfl rfl 0 rfl (ix3 l k n)
    (fun b hb => match b with | ⟨0, _⟩ => rfl | ⟨1, _⟩ => rfl | ⟨2, _⟩ => absurd (Fin.ext rfl) hb)
    (by show 0 + n.val = j.val; omega)
theorem cat3_1 (X0 X1 X2 : S3x256x256.Idx → α) (h) (l : Fin 3) (k n : Fin 256) (j : Fin 768) (hj : j.val = 1 * 256 + n.val) :
    concatenate S3x256x768 2 [⟨S3x256x256, X0⟩, ⟨S3x256x256, X1⟩, ⟨S3x256x256, X2⟩] h (ix3 l k j) = X1 (ix3 l k n) :=
  concatenate_apply_piece 2 _ h _ 1 (by show (1 : ℕ) < 3; omega) S3x256x256 X1 rfl rfl 256 rfl (ix3 l k n)
    (fun b hb => match b with | ⟨0, _⟩ => rfl | ⟨1, _⟩ => rfl | ⟨2, _⟩ => absurd (Fin.ext rfl) hb)
    (by show 256 + n.val = j.val; omega)
theorem cat3_2 (X0 X1 X2 : S3x256x256.Idx → α) (h) (l : Fin 3) (k n : Fin 256) (j : Fin 768) (hj : j.val = 2 * 256 + n.val) :
    concatenate S3x256x768 2 [⟨S3x256x256, X0⟩, ⟨S3x256x256, X1⟩, ⟨S3x256x256, X2⟩] h (ix3 l k j) = X2 (ix3 l k n) :=
  concatenate_apply_piece 2 _ h _ 2 (by show (2 : ℕ) < 3; omega) S3x256x256 X2 rfl rfl 512 rfl (ix3 l k n)
    (fun b hb => match b with | ⟨0, _⟩ => rfl | ⟨1, _⟩ => rfl | ⟨2, _⟩ => absurd (Fin.ext rfl) hb)
    (by show 512 + n.val = j.val; omega)

/-! The same for the bias rows. -/

theorem bcat4_0 (X0 X1 X2 X3 : S3x256.Idx → α) (h) (l : Fin 3) (n : Fin 256) (j : Fin 1024) (hj : j.val = 0 * 256 + n.val) :
    concatenate S3x1024 1 [⟨S3x256, X0⟩, ⟨S3x256, X1⟩, ⟨S3x256, X2⟩, ⟨S3x256, X3⟩] h (ix2 l j) = X0 (ix2 l n) :=
  concatenate_apply_piece 1 _ h _ 0 (by show (0 : ℕ) < 4; omega) S3x256 X0 rfl rfl 0 rfl (ix2 l n)
    (fun b hb => match b with | ⟨0, _⟩ => rfl | ⟨1, _⟩ => absurd (Fin.ext rfl) hb)
    (by show 0 + n.val = j.val; omega)
theorem bcat4_1 (X0 X1 X2 X3 : S3x256.Idx → α) (h) (l : Fin 3) (n : Fin 256) (j : Fin 1024) (hj : j.val = 1 * 256 + n.val) :
    concatenate S3x1024 1 [⟨S3x256, X0⟩, ⟨S3x256, X1⟩, ⟨S3x256, X2⟩, ⟨S3x256, X3⟩] h (ix2 l j) = X1 (ix2 l n) :=
  concatenate_apply_piece 1 _ h _ 1 (by show (1 : ℕ) < 4; omega) S3x256 X1 rfl rfl 256 rfl (ix2 l n)
    (fun b hb => match b with | ⟨0, _⟩ => rfl | ⟨1, _⟩ => absurd (Fin.ext rfl) hb)
    (by show 256 + n.val = j.val; omega)
theorem bcat4_2 (X0 X1 X2 X3 : S3x256.Idx → α) (h) (l : Fin 3) (n : Fin 256) (j : Fin 1024) (hj : j.val = 2 * 256 + n.val) :
    concatenate S3x1024 1 [⟨S3x256, X0⟩, ⟨S3x256, X1⟩, ⟨S3x256, X2⟩, ⟨S3x256, X3⟩] h (ix2 l j) = X2 (ix2 l n) :=
  concatenate_apply_piece 1 _ h _ 2 (by show (2 : ℕ) < 4; omega) S3x256 X2 rfl rfl 512 rfl (ix2 l n)
    (fun b hb => match b with | ⟨0, _⟩ => rfl | ⟨1, _⟩ => absurd (Fin.ext rfl) hb)
    (by show 512 + n.val = j.val; omega)
theorem bcat4_3 (X0 X1 X2 X3 : S3x256.Idx → α) (h) (l : Fin 3) (n : Fin 256) (j : Fin 1024) (hj : j.val = 3 * 256 + n.val) :
    concatenate S3x1024 1 [⟨S3x256, X0⟩, ⟨S3x256, X1⟩, ⟨S3x256, X2⟩, ⟨S3x256, X3⟩] h (ix2 l j) = X3 (ix2 l n) :=
  concatenate_apply_piece 1 _ h _ 3 (by show (3 : ℕ) < 4; omega) S3x256 X3 rfl rfl 768 rfl (ix2 l n)
    (fun b hb => match b with | ⟨0, _⟩ => rfl | ⟨1, _⟩ => absurd (Fin.ext rfl) hb)
    (by show 768 + n.val = j.val; omega)
theorem bcat3_0 (X0 X1 X2 : S3x256.Idx → α) (h) (l : Fin 3) (n : Fin 256) (j : Fin 768) (hj : j.val = 0 * 256 + n.val) :
    concatenate S3x768 1 [⟨S3x256, X0⟩, ⟨S3x256, X1⟩, ⟨S3x256, X2⟩] h (ix2 l j) = X0 (ix2 l n) :=
  concatenate_apply_piece 1 _ h _ 0 (by show (0 : ℕ) < 3; omega) S3x256 X0 rfl rfl 0 rfl (ix2 l n)
    (fun b hb => match b with | ⟨0, _⟩ => rfl | ⟨1, _⟩ => absurd (Fin.ext rfl) hb)
    (by show 0 + n.val = j.val; omega)
theorem bcat3_1 (X0 X1 X2 : S3x256.Idx → α) (h) (l : Fin 3) (n : Fin 256) (j : Fin 768) (hj : j.val = 1 * 256 + n.val) :
    concatenate S3x768 1 [⟨S3x256, X0⟩, ⟨S3x256, X1⟩, ⟨S3x256, X2⟩] h (ix2 l j) = X1 (ix2 l n) :=
  concatenate_apply_piece 1 _ h _ 1 (by show (1 : ℕ) < 3; omega) S3x256 X1 rfl rfl 256 rfl (ix2 l n)
    (fun b hb => match b with | ⟨0, _⟩ => rfl | ⟨1, _⟩ => absurd (Fin.ext rfl) hb)
    (by show 256 + n.val = j.val; omega)
theorem bcat3_2 (X0 X1 X2 : S3x256.Idx → α) (h) (l : Fin 3) (n : Fin 256) (j : Fin 768) (hj : j.val = 2 * 256 + n.val) :
    concatenate S3x768 1 [⟨S3x256, X0⟩, ⟨S3x256, X1⟩, ⟨S3x256, X2⟩] h (ix2 l j) = X2 (ix2 l n) :=
  concatenate_apply_piece 1 _ h _ 2 (by show (2 : ℕ) < 3; omega) S3x256 X2 rfl rfl 512 rfl (ix2 l n)
    (fun b hb => match b with | ⟨0, _⟩ => rfl | ⟨1, _⟩ => absurd (Fin.ext rfl) hb)
    (by show 512 + n.val = j.val; omega)

/-- The layer axis moved behind the row axis: entry `(k, l, s)` is the operand's `(l, k, s)`. -/
theorem transpose_102_apply {a b d : ℕ} (x : (⟨3, ![a, b, d]⟩ : Shape).Idx → α)
    (h : (⟨3, ![a, b, d]⟩ : Shape).Transposes [1, 0, 2] ⟨3, ![b, a, d]⟩) (k : Fin b) (l : Fin a) (s : Fin d) :
    transpose ⟨3, ![b, a, d]⟩ [1, 0, 2] x h (ix3 k l s) = x (ix3 l k s) :=
  transpose_apply _ x h _ _ fun c => match c with | ⟨0, _⟩ => rfl | ⟨1, _⟩ => rfl | ⟨2, _⟩ => rfl

/-- The two trailing axes of a rank-3 array merged: entry `(k, l * d + s)` is the operand's `(k, l, s)`. -/
theorem merge_23_apply {b a d N : ℕ} (hN : N = a * d) (x : (⟨3, ![b, a, d]⟩ : Shape).Idx → α)
    (h : (⟨3, ![b, a, d]⟩ : Shape).ShapeCasts ⟨2, ![b, N]⟩) (k : Fin b) (l : Fin a) (s : Fin d) (j : Fin N)
    (hj : j.val = l.val * d + s.val) :
    shapeCast ⟨2, ![b, N]⟩ x h (ix2 k j) = x (ix3 k l s) := by
  refine shapeCast_apply x h _ _ ?_
  rw [Shape.rowMajor_val_three, Shape.rowMajor_val_two]
  show (k.val * a + l.val) * d + s.val = k.val * N + j.val
  rw [hj, hN, Nat.add_mul, Nat.mul_assoc, Nat.add_assoc]

/-- The two axes of a matrix merged: entry `l * d + s` is the operand's `(l, s)`. -/
theorem merge_12_apply {a d N : ℕ} (x : (⟨2, ![a, d]⟩ : Shape).Idx → α)
    (h : (⟨2, ![a, d]⟩ : Shape).ShapeCasts ⟨1, ![N]⟩) (l : Fin a) (s : Fin d) (j : Fin N)
    (hj : j.val = l.val * d + s.val) :
    shapeCast ⟨1, ![N]⟩ x h (ix1 j) = x (ix2 l s) := by
  refine shapeCast_apply x h _ _ ?_
  rw [Shape.rowMajor_val_two, Shape.rowMajor_val_one]
  show l.val * d + s.val = j.val
  exact hj.symm

end Layout

/-! ## The argument arrays -/

variable (m : (ℓ : Loc nD τ sig) → Buf (Elt Ideal) ℓ)

/-- The twenty-five argument arrays of core `c` as launched, in the order of the program's parameters. -/
def argsOfMem (c : Dev nD) : Cert.Spec.Args where
  x := m ((c.tc : Thread nD τ).loc main_arg0)
  hidden0 := m ((c.tc : Thread nD τ).loc main_arg1)
  current0 := m ((c.tc : Thread nD τ).loc main_arg2)
  Wi_f := m ((c.tc : Thread nD τ).loc main_arg3)
  bi_f := m ((c.tc : Thread nD τ).loc main_arg4)
  Wi_i := m ((c.tc : Thread nD τ).loc main_arg5)
  bi_i := m ((c.tc : Thread nD τ).loc main_arg6)
  Wi_o := m ((c.tc : Thread nD τ).loc main_arg7)
  bi_o := m ((c.tc : Thread nD τ).loc main_arg8)
  Wi_c := m ((c.tc : Thread nD τ).loc main_arg9)
  bi_c := m ((c.tc : Thread nD τ).loc main_arg10)
  Wi_g := m ((c.tc : Thread nD τ).loc main_arg11)
  bi_g := m ((c.tc : Thread nD τ).loc main_arg12)
  Wh_f := m ((c.tc : Thread nD τ).loc main_arg13)
  bh_f := m ((c.tc : Thread nD τ).loc main_arg14)
  Wh_i := m ((c.tc : Thread nD τ).loc main_arg15)
  bh_i := m ((c.tc : Thread nD τ).loc main_arg16)
  Wh_o := m ((c.tc : Thread nD τ).loc main_arg17)
  bh_o := m ((c.tc : Thread nD τ).loc main_arg18)
  Wh_g := m ((c.tc : Thread nD τ).loc main_arg19)
  bh_g := m ((c.tc : Thread nD τ).loc main_arg20)
  Wh_c := m ((c.tc : Thread nD τ).loc main_arg21)
  bh_c := m ((c.tc : Thread nD τ).loc main_arg22)
  W_last := m ((c.tc : Thread nD τ).loc main_arg23)
  b_last := m ((c.tc : Thread nD τ).loc main_arg24)

/-- The results of the operations before the region, rewritten once more after a family of operand
    references has been evaluated at its literal positions. -/
local macro "results_again" : tactic =>
  `(tactic| repeat (first
      | rw [Idealize.ShloMosaic.StableHlo.unary_result] | rw [Idealize.ShloMosaic.StableHlo.reshape_result]
      | (rw [Idealize.ShloMosaic.StableHlo.unary_result_ne]; rotate_left; decide)
      | (rw [Idealize.ShloMosaic.StableHlo.reshape_result_ne]; rotate_left; decide)
      | (rw [Idealize.ShloMosaic.StableHlo.nary_result_ne]; rotate_left; decide)))

/-- The contents of a result of the operations before the region, as those operations' term over the launched memory. -/
local macro "host_results" : tactic =>
  `(tactic| (dsimp only [Fr.V, Fr.V0]
             simp only [Gen.hostOps0, List.flatten_cons, List.flatten_nil, List.append_nil]
             after_results))

/-! ## The weight windows' arrays as the region finds them -/

open Idealize.ShloMosaic.StableHlo in
theorem V5_eq (c : Dev nD) : @Eq (S3x256x1024.Idx → EReal) (Fr.V m c main_v5)
    (truncf (F := Ideal) .bf16 (concatenate S3x256x1024 2 [⟨S3x256x256, transpose S3x256x256 [0, 2, 1] (argsOfMem m c).Wi_f transposes_S3x256x256_S3x256x256_0_2_1⟩, ⟨S3x256x256, transpose S3x256x256 [0, 2, 1] (argsOfMem m c).Wi_i transposes_S3x256x256_S3x256x256_0_2_1⟩, ⟨S3x256x256, transpose S3x256x256 [0, 2, 1] (argsOfMem m c).Wi_c transposes_S3x256x256_S3x256x256_0_2_1⟩, ⟨S3x256x256, transpose S3x256x256 [0, 2, 1] (argsOfMem m c).Wi_o transposes_S3x256x256_S3x256x256_0_2_1⟩]
      concatenates_S3x256x256_S3x256x256_S3x256x256_S3x256x256_S3x256x1024_d2) bitsLt_bf16_f32) := by
  host_results
  dsimp only [Matrix.cons_val]
  results_again
  rfl

open Idealize.ShloMosaic.StableHlo in
theorem V6_eq (c : Dev nD) : @Eq (S3x1024.Idx → EReal) (Fr.V m c main_v6)
    (concatenate S3x1024 1 [⟨S3x256, (argsOfMem m c).bi_f⟩, ⟨S3x256, (argsOfMem m c).bi_i⟩, ⟨S3x256, (argsOfMem m c).bi_c⟩, ⟨S3x256, (argsOfMem m c).bi_o⟩]
      concatenates_S3x256_S3x256_S3x256_S3x256_S3x1024_d1) := by
  host_results
  dsimp only [Matrix.cons_val]
  results_again
  rfl

open Idealize.ShloMosaic.StableHlo in
theorem V14_eq (c : Dev nD) : @Eq (S3x256x3.Idx → EReal) (Fr.V m c main_v14)
    (truncf (F := Ideal) .bf16 (transpose S3x256x3 [0, 2, 1] (argsOfMem m c).Wi_g transposes_S3x3x256_S3x256x3_0_2_1) bitsLt_bf16_f32) := by
  host_results
  rfl

open Idealize.ShloMosaic.StableHlo in
theorem V11_eq (c : Dev nD) : @Eq (S3x256x768.Idx → EReal) (Fr.V m c main_v11)
    (truncf (F := Ideal) .bf16 (concatenate S3x256x768 2 [⟨S3x256x256, transpose S3x256x256 [0, 2, 1] (argsOfMem m c).Wh_f transposes_S3x256x256_S3x256x256_0_2_1⟩, ⟨S3x256x256, transpose S3x256x256 [0, 2, 1] (argsOfMem m c).Wh_i transposes_S3x256x256_S3x256x256_0_2_1⟩, ⟨S3x256x256, transpose S3x256x256 [0, 2, 1] (argsOfMem m c).Wh_o transposes_S3x256x256_S3x256x256_0_2_1⟩]
      concatenates_S3x256x256_S3x256x256_S3x256x256_S3x256x768_d2) bitsLt_bf16_f32) := by
  host_results
  dsimp only [Matrix.cons_val]
  results_again
  rfl

open Idealize.ShloMosaic.StableHlo in
theorem V12_eq (c : Dev nD) : @Eq (S3x768.Idx → EReal) (Fr.V m c main_v12)
    (concatenate S3x768 1 [⟨S3x256, (argsOfMem m c).bh_f⟩, ⟨S3x256, (argsOfMem m c).bh_i⟩, ⟨S3x256, (argsOfMem m c).bh_o⟩]
      concatenates_S3x256_S3x256_S3x256_S3x768_d1) := by
  host_results
  dsimp only [Matrix.cons_val]
  results_again
  rfl

open Idealize.ShloMosaic.StableHlo in
theorem V18_eq (c : Dev nD) : @Eq (S768x9.Idx → EReal) (Fr.V m c main_v18)
    (truncf (F := Ideal) .bf16 (shapeCast S768x9 (transpose S768x3x3 [1, 0, 2] (transpose S3x768x3 [0, 2, 1] (argsOfMem m c).Wh_g
      transposes_S3x3x768_S3x768x3_0_2_1) transposes_S3x768x3_S768x3x3_1_0_2) shapeCasts_S768x3x3_S768x9) bitsLt_bf16_f32) := by
  host_results
  rfl

open Idealize.ShloMosaic.StableHlo in
theorem V19_eq (c : Dev nD) : @Eq (S9.Idx → EReal) (Fr.V m c main_v19)
    (shapeCast S9 (argsOfMem m c).bh_g shapeCasts_S3x3_S9) := by
  host_results
  rfl

open Idealize.ShloMosaic.StableHlo in
theorem V23_eq (c : Dev nD) : @Eq (S768x2304.Idx → EReal) (Fr.V m c main_v23)
    (truncf (F := Ideal) .bf16 (shapeCast S768x2304 (transpose S768x3x768 [1, 0, 2] (transpose S3x768x768 [0, 2, 1] (argsOfMem m c).Wh_c
      transposes_S3x768x768_S3x768x768_0_2_1) transposes_S3x768x768_S768x3x768_1_0_2) shapeCasts_S768x3x768_S768x2304) bitsLt_bf16_f32) := by
  host_results
  rfl

open Idealize.ShloMosaic.StableHlo in
theorem V24_eq (c : Dev nD) : @Eq (S2304.Idx → EReal) (Fr.V m c main_v24)
    (shapeCast S2304 (argsOfMem m c).bh_c shapeCasts_S3x768_S2304) := by
  host_results
  rfl

open Idealize.ShloMosaic.StableHlo in
theorem V26_eq (c : Dev nD) : @Eq (S2304x44.Idx → EReal) (Fr.V m c main_v26)
    (truncf (F := Ideal) .bf16 (transpose S2304x44 [1, 0] (argsOfMem m c).W_last transposes_S44x2304_S2304x44_1_0) bitsLt_bf16_f32) := by
  host_results
  rfl

/-! ## A whole-array window's block is its array

Windows 3 to 14 have the constant block index zero and blocks of the arrays' full sizes: at every grid
point the block's entry `y` is the array's entry `y`. -/

theorem iblk3_eq (c : Dev nD) (t : Fin cfg0.N) : @Eq (S3x256x1024.Idx → EReal) (Fr.iblk m c 3 t) (Fr.V m c main_v5) := by
  funext y
  show (Fr.V m c main_v5 : S3x256x1024.Idx → EReal) (((cfg0.win 3).blk t).view.emb y) = _
  refine congrArg (Fr.V m c main_v5 : S3x256x1024.Idx → EReal) (funext fun a => Fin.ext ?_)
  match a with
  | ⟨0, _⟩ => show 0 * 3 + 1 * (y 0).val = (y 0).val; omega
  | ⟨1, _⟩ => show 0 * 256 + 1 * (y 1).val = (y 1).val; omega
  | ⟨2, _⟩ => show 0 * 1024 + 1 * (y 2).val = (y 2).val; omega
theorem iblk4_eq (c : Dev nD) (t : Fin cfg0.N) : @Eq (S3x1024.Idx → EReal) (Fr.iblk m c 4 t) (Fr.V m c main_v6) := by
  funext y
  show (Fr.V m c main_v6 : S3x1024.Idx → EReal) (((cfg0.win 4).blk t).view.emb y) = _
  refine congrArg (Fr.V m c main_v6 : S3x1024.Idx → EReal) (funext fun a => Fin.ext ?_)
  match a with
  | ⟨0, _⟩ => show 0 * 3 + 1 * (y 0).val = (y 0).val; omega
  | ⟨1, _⟩ => show 0 * 1024 + 1 * (y 1).val = (y 1).val; omega
theorem iblk5_eq (c : Dev nD) (t : Fin cfg0.N) : @Eq (S3x256x3.Idx → EReal) (Fr.iblk m c 5 t) (Fr.V m c main_v14) := by
  funext y
  show (Fr.V m c main_v14 : S3x256x3.Idx → EReal) (((cfg0.win 5).blk t).view.emb y) = _
  refine congrArg (Fr.V m c main_v14 : S3x256x3.Idx → EReal) (funext fun a => Fin.ext ?_)
  match a with
  | ⟨0, _⟩ => show 0 * 3 + 1 * (y 0).val = (y 0).val; omega
  | ⟨1, _⟩ => show 0 * 256 + 1 * (y 1).val = (y 1).val; omega
  | ⟨2, _⟩ => show 0 * 3 + 1 * (y 2).val = (y 2).val; omega
theorem iblk6_eq (c : Dev nD) (t : Fin cfg0.N) : @Eq (S3x3.Idx → EReal) (Fr.iblk m c 6 t) (Fr.V m c main_arg12) := by
  funext y
  show (Fr.V m c main_arg12 : S3x3.Idx → EReal) (((cfg0.win 6).blk t).view.emb y) = _
  refine congrArg (Fr.V m c main_arg12 : S3x3.Idx → EReal) (funext fun a => Fin.ext ?_)
  match a with
  | ⟨0, _⟩ => show 0 * 3 + 1 * (y 0).val = (y 0).val; omega
  | ⟨1, _⟩ => show 0 * 3 + 1 * (y 1).val = (y 1).val; omega
theorem iblk7_eq (c : Dev nD) (t : Fin cfg0.N) : @Eq (S3x256x768.Idx → EReal) (Fr.iblk m c 7 t) (Fr.V m c main_v11) := by
  funext y
  show (Fr.V m c main_v11 : S3x256x768.Idx → EReal) (((cfg0.win 7).blk t).view.emb y) = _
  refine congrArg (Fr.V m c main_v11 : S3x256x768.Idx → EReal) (funext fun a => Fin.ext ?_)
  match a with
  | ⟨0, _⟩ => show 0 * 3 + 1 * (y 0).val = (y 0).val; omega
  | ⟨1, _⟩ => show 0 * 256 + 1 * (y 1).val = (y 1).val; omega
  | ⟨2, _⟩ => show 0 * 768 + 1 * (y 2).val = (y 2).val; omega
theorem iblk8_eq (c : Dev nD) (t : Fin cfg0.N) : @Eq (S3x768.Idx → EReal) (Fr.iblk m c 8 t) (Fr.V m c main_v12) := by
  funext y
  show (Fr.V m c main_v12 : S3x768.Idx → EReal) (((cfg0.win 8).blk t).view.emb y) = _
  refine congrArg (Fr.V m c main_v12 : S3x768.Idx → EReal) (funext fun a => Fin.ext ?_)
  match a with
  | ⟨0, _⟩ => show 0 * 3 + 1 * (y 0).val = (y 0).val; omega
  | ⟨1, _⟩ => show 0 * 768 + 1 * (y 1).val = (y 1).val; omega
theorem iblk9_eq (c : Dev nD) (t : Fin cfg0.N) : @Eq (S768x9.Idx → EReal) (Fr.iblk m c 9 t) (Fr.V m c main_v18) := by
  funext y
  show (Fr.V m c main_v18 : S768x9.Idx → EReal) (((cfg0.win 9).blk t).view.emb y) = _
  refine congrArg (Fr.V m c main_v18 : S768x9.Idx → EReal) (funext fun a => Fin.ext ?_)
  match a with
  | ⟨0, _⟩ => show 0 * 768 + 1 * (y 0).val = (y 0).val; omega
  | ⟨1, _⟩ => show 0 * 9 + 1 * (y 1).val = (y 1).val; omega
theorem iblk10_eq (c : Dev nD) (t : Fin cfg0.N) : @Eq (S9.Idx → EReal) (Fr.iblk m c 10 t) (Fr.V m c main_v19) := by
  funext y
  show (Fr.V m c main_v19 : S9.Idx → EReal) (((cfg0.win 10).blk t).view.emb y) = _
  refine congrArg (Fr.V m c main_v19 : S9.Idx → EReal) (funext fun a => Fin.ext ?_)
  match a with
  | ⟨0, _⟩ => show 0 * 9 + 1 * (y 0).val = (y 0).val; omega
theorem iblk11_eq (c : Dev nD) (t : Fin cfg0.N) : @Eq (S768x2304.Idx → EReal) (Fr.iblk m c 11 t) (Fr.V m c main_v23) := by
  funext y
  show (Fr.V m c main_v23 : S768x2304.Idx → EReal) (((cfg0.win 11).blk t).view.emb y) = _
  refine congrArg (Fr.V m c main_v23 : S768x2304.Idx → EReal) (funext fun a => Fin.ext ?_)
  match a with
  | ⟨0, _⟩ => show 0 * 768 + 1 * (y 0).val = (y 0).val; omega
  | ⟨1, _⟩ => show 0 * 2304 + 1 * (y 1).val = (y 1).val; omega
theorem iblk12_eq (c : Dev nD) (t : Fin cfg0.N) : @Eq (S2304.Idx → EReal) (Fr.iblk m c 12 t) (Fr.V m c main_v24) := by
  funext y
  show (Fr.V m c main_v24 : S2304.Idx → EReal) (((cfg0.win 12).blk t).view.emb y) = _
  refine congrArg (Fr.V m c main_v24 : S2304.Idx → EReal) (funext fun a => Fin.ext ?_)
  match a with
  | ⟨0, _⟩ => show 0 * 2304 + 1 * (y 0).val = (y 0).val; omega
theorem iblk13_eq (c : Dev nD) (t : Fin cfg0.N) : @Eq (S2304x44.Idx → EReal) (Fr.iblk m c 13 t) (Fr.V m c main_v26) := by
  funext y
  show (Fr.V m c main_v26 : S2304x44.Idx → EReal) (((cfg0.win 13).blk t).view.emb y) = _
  refine congrArg (Fr.V m c main_v26 : S2304x44.Idx → EReal) (funext fun a => Fin.ext ?_)
  match a with
  | ⟨0, _⟩ => show 0 * 2304 + 1 * (y 0).val = (y 0).val; omega
  | ⟨1, _⟩ => show 0 * 44 + 1 * (y 1).val = (y 1).val; omega
theorem iblk14_eq (c : Dev nD) (t : Fin cfg0.N) : @Eq (S44.Idx → EReal) (Fr.iblk m c 14 t) (Fr.V m c main_arg24) := by
  funext y
  show (Fr.V m c main_arg24 : S44.Idx → EReal) (((cfg0.win 14).blk t).view.emb y) = _
  refine congrArg (Fr.V m c main_arg24 : S44.Idx → EReal) (funext fun a => Fin.ext ?_)
  match a with
  | ⟨0, _⟩ => show 0 * 44 + 1 * (y 0).val = (y 0).val; omega

/-! ## The weight windows' arrays entry by entry -/

theorem V5_f (c : Dev nD) (l : Fin 3) (k n : Fin 256) (j : Fin 1024) (hj : j.val = 0 * 256 + n.val) :
    (Fr.V m c main_v5 : S3x256x1024.Idx → EReal) (ix3 l k j) = (argsOfMem m c).Wi_f (ix3 l n k) := by
  refine (congrFun (V5_eq m c) (ix3 l k j)).trans ?_
  refine (truncf_apply (φ := .f32) (ψ := .bf16) _ bitsLt_bf16_f32 _).trans ?_
  refine (cat4_0 _ _ _ _ _ l k n j hj).trans ?_
  exact transpose_ix3_021_apply _ _ l k n
theorem V5_i (c : Dev nD) (l : Fin 3) (k n : Fin 256) (j : Fin 1024) (hj : j.val = 1 * 256 + n.val) :
    (Fr.V m c main_v5 : S3x256x1024.Idx → EReal) (ix3 l k j) = (argsOfMem m c).Wi_i (ix3 l n k) := by
  refine (congrFun (V5_eq m c) (ix3 l k j)).trans ?_
  refine (truncf_apply (φ := .f32) (ψ := .bf16) _ bitsLt_bf16_f32 _).trans ?_
  refine (cat4_1 _ _ _ _ _ l k n j hj).trans ?_
  exact transpose_ix3_021_apply _ _ l k n
theorem V5_c (c : Dev nD) (l : Fin 3) (k n : Fin 256) (j : Fin 1024) (hj : j.val = 2 * 256 + n.val) :
    (Fr.V m c main_v5 : S3x256x1024.Idx → EReal) (ix3 l k j) = (argsOfMem m c).Wi_c (ix3 l n k) := by
  refine (congrFun (V5_eq m c) (ix3 l k j)).trans ?_
  refine (truncf_apply (φ := .f32) (ψ := .bf16) _ bitsLt_bf16_f32 _).trans ?_
  refine (cat4_2 _ _ _ _ _ l k n j hj).trans ?_
  exact transpose_ix3_021_apply _ _ l k n
theorem V5_o (c : Dev nD) (l : Fin 3) (k n : Fin 256) (j : Fin 1024) (hj : j.val = 3 * 256 + n.val) :
    (Fr.V m c main_v5 : S3x256x1024.Idx → EReal) (ix3 l k j) = (argsOfMem m c).Wi_o (ix3 l n k) := by
  refine (congrFun (V5_eq m c) (ix3 l k j)).trans ?_
  refine (truncf_apply (φ := .f32) (ψ := .bf16) _ bitsLt_bf16_f32 _).trans ?_
  refine (cat4_3 _ _ _ _ _ l k n j hj).trans ?_
  exact transpose_ix3_021_apply _ _ l k n
theorem V6_f (c : Dev nD) (l : Fin 3) (n : Fin 256) (j : Fin 1024) (hj : j.val = 0 * 256 + n.val) :
    (Fr.V m c main_v6 : S3x1024.Idx → EReal) (ix2 l j) = (argsOfMem m c).bi_f (ix2 l n) :=
  (congrFun (V6_eq m c) (ix2 l j)).trans (bcat4_0 _ _ _ _ _ l n j hj)
theorem V6_i (c : Dev nD) (l : Fin 3) (n : Fin 256) (j : Fin 1024) (hj : j.val = 1 * 256 + n.val) :
    (Fr.V m c main_v6 : S3x1024.Idx → EReal) (ix2 l j) = (argsOfMem m c).bi_i (ix2 l n) :=
  (congrFun (V6_eq m c) (ix2 l j)).trans (bcat4_1 _ _ _ _ _ l n j hj)
theorem V6_c (c : Dev nD) (l : Fin 3) (n : Fin 256) (j : Fin 1024) (hj : j.val = 2 * 256 + n.val) :
    (Fr.V m c main_v6 : S3x1024.Idx → EReal) (ix2 l j) = (argsOfMem m c).bi_c (ix2 l n) :=
  (congrFun (V6_eq m c) (ix2 l j)).trans (bcat4_2 _ _ _ _ _ l n j hj)
theorem V6_o (c : Dev nD) (l : Fin 3) (n : Fin 256) (j : Fin 1024) (hj : j.val = 3 * 256 + n.val) :
    (Fr.V m c main_v6 : S3x1024.Idx → EReal) (ix2 l j) = (argsOfMem m c).bi_o (ix2 l n) :=
  (congrFun (V6_eq m c) (ix2 l j)).trans (bcat4_3 _ _ _ _ _ l n j hj)
theorem V11_f (c : Dev nD) (l : Fin 3) (k n : Fin 256) (j : Fin 768) (hj : j.val = 0 * 256 + n.val) :
    (Fr.V m c main_v11 : S3x256x768.Idx → EReal) (ix3 l k j) = (argsOfMem m c).Wh_f (ix3 l n k) := by
  refine (congrFun (V11_eq m c) (ix3 l k j)).trans ?_
  refine (truncf_apply (φ := .f32) (ψ := .bf16) _ bitsLt_bf16_f32 _).trans ?_
  refine (cat3_0 _ _ _ _ l k n j hj).trans ?_
  exact transpose_ix3_021_apply _ _ l k n
theorem V11_i (c : Dev nD) (l : Fin 3) (k n : Fin 256) (j : Fin 768) (hj : j.val = 1 * 256 + n.val) :
    (Fr.V m c main_v11 : S3x256x768.Idx → EReal) (ix3 l k j) = (argsOfMem m c).Wh_i (ix3 l n k) := by
  refine (congrFun (V11_eq m c) (ix3 l k j)).trans ?_
  refine (truncf_apply (φ := .f32) (ψ := .bf16) _ bitsLt_bf16_f32 _).trans ?_
  refine (cat3_1 _ _ _ _ l k n j hj).trans ?_
  exact transpose_ix3_021_apply _ _ l k n
theorem V11_o (c : Dev nD) (l : Fin 3) (k n : Fin 256) (j : Fin 768) (hj : j.val = 2 * 256 + n.val) :
    (Fr.V m c main_v11 : S3x256x768.Idx → EReal) (ix3 l k j) = (argsOfMem m c).Wh_o (ix3 l n k) := by
  refine (congrFun (V11_eq m c) (ix3 l k j)).trans ?_
  refine (truncf_apply (φ := .f32) (ψ := .bf16) _ bitsLt_bf16_f32 _).trans ?_
  refine (cat3_2 _ _ _ _ l k n j hj).trans ?_
  exact transpose_ix3_021_apply _ _ l k n
theorem V12_f (c : Dev nD) (l : Fin 3) (n : Fin 256) (j : Fin 768) (hj : j.val = 0 * 256 + n.val) :
    (Fr.V m c main_v12 : S3x768.Idx → EReal) (ix2 l j) = (argsOfMem m c).bh_f (ix2 l n) :=
  (congrFun (V12_eq m c) (ix2 l j)).trans (bcat3_0 _ _ _ _ l n j hj)
theorem V12_i (c : Dev nD) (l : Fin 3) (n : Fin 256) (j : Fin 768) (hj : j.val = 1 * 256 + n.val) :
    (Fr.V m c main_v12 : S3x768.Idx → EReal) (ix2 l j) = (argsOfMem m c).bh_i (ix2 l n) :=
  (congrFun (V12_eq m c) (ix2 l j)).trans (bcat3_1 _ _ _ _ l n j hj)
theorem V12_o (c : Dev nD) (l : Fin 3) (n : Fin 256) (j : Fin 768) (hj : j.val = 2 * 256 + n.val) :
    (Fr.V m c main_v12 : S3x768.Idx → EReal) (ix2 l j) = (argsOfMem m c).bh_o (ix2 l n) :=
  (congrFun (V12_eq m c) (ix2 l j)).trans (bcat3_2 _ _ _ _ l n j hj)

theorem V14_at (c : Dev nD) (l : Fin 3) (k : Fin 256) (s : Fin 3) :
    (Fr.V m c main_v14 : S3x256x3.Idx → EReal) (ix3 l k s) = (argsOfMem m c).Wi_g (ix3 l s k) := by
  refine (congrFun (V14_eq m c) (ix3 l k s)).trans ?_
  refine (truncf_apply (φ := .f32) (ψ := .bf16) _ bitsLt_bf16_f32 _).trans ?_
  exact transpose_ix3_021_apply _ _ l k s

theorem V_arg12_eq (c : Dev nD) : @Eq (S3x3.Idx → EReal) (Fr.V m c main_arg12) (argsOfMem m c).bi_g := Fr.V_main_arg12 m c

theorem V18_at (c : Dev nD) (l s : Fin 3) (k : Fin 768) (j : Fin 9) (hj : j.val = l.val * 3 + s.val) :
    (Fr.V m c main_v18 : S768x9.Idx → EReal) (ix2 k j) = (argsOfMem m c).Wh_g (ix3 l s k) := by
  refine (congrFun (V18_eq m c) (ix2 k j)).trans ?_
  refine (truncf_apply (φ := .f32) (ψ := .bf16) _ bitsLt_bf16_f32 _).trans ?_
  refine (merge_23_apply (b := 768) (a := 3) (d := 3) (N := 9) rfl _ _ k l s j hj).trans ?_
  refine (transpose_102_apply _ _ k l s).trans ?_
  exact transpose_ix3_021_apply _ _ l k s

theorem V19_at (c : Dev nD) (l s : Fin 3) (j : Fin 9) (hj : j.val = l.val * 3 + s.val) :
    (Fr.V m c main_v19 : S9.Idx → EReal) (ix1 j) = (argsOfMem m c).bh_g (ix2 l s) :=
  (congrFun (V19_eq m c) (ix1 j)).trans (merge_12_apply (a := 3) (d := 3) (N := 9) _ _ l s j hj)

theorem V23_at (c : Dev nD) (l : Fin 3) (n k : Fin 768) (j : Fin 2304) (hj : j.val = l.val * 768 + n.val) :
    (Fr.V m c main_v23 : S768x2304.Idx → EReal) (ix2 k j) = (argsOfMem m c).Wh_c (ix3 l n k) := by
  refine (congrFun (V23_eq m c) (ix2 k j)).trans ?_
  refine (truncf_apply (φ := .f32) (ψ := .bf16) _ bitsLt_bf16_f32 _).trans ?_
  refine (merge_23_apply (b := 768) (a := 3) (d := 768) (N := 2304) rfl _ _ k l n j hj).trans ?_
  refine (transpose_102_apply _ _ k l n).trans ?_
  exact transpose_ix3_021_apply _ _ l k n

theorem V24_at (c : Dev nD) (l : Fin 3) (n : Fin 768) (j : Fin 2304) (hj : j.val = l.val * 768 + n.val) :
    (Fr.V m c main_v24 : S2304.Idx → EReal) (ix1 j) = (argsOfMem m c).bh_c (ix2 l n) :=
  (congrFun (V24_eq m c) (ix1 j)).trans (merge_12_apply (a := 3) (d := 768) (N := 2304) _ _ l n j hj)

theorem V26_at (c : Dev nD) (k : Fin 2304) (j : Fin 44) :
    (Fr.V m c main_v26 : S2304x44.Idx → EReal) (ix2 k j) = (argsOfMem m c).W_last (ix2 j k) := by
  refine (congrFun (V26_eq m c) (ix2 k j)).trans ?_
  refine (truncf_apply (φ := .f32) (ψ := .bf16) _ bitsLt_bf16_f32 _).trans ?_
  exact transpose_ix2_apply _ _ k j

theorem V_arg24_eq (c : Dev nD) : @Eq (S44.Idx → EReal) (Fr.V m c main_arg24) (argsOfMem m c).b_last := Fr.V_main_arg24 m c

/-! ## The parameters the body reads are the cell's -/

/-- The parameters read off the weight windows' blocks at any grid point are the parameters read off the
    argument arrays. -/
theorem params_eq (c : Dev nD) (t : Fin cfg0.N) :
    paramsOfBlocks (Fr.iblk m c 3 t) (Fr.iblk m c 4 t) (Fr.iblk m c 5 t) (Fr.iblk m c 6 t) (Fr.iblk m c 7 t) (Fr.iblk m c 8 t)
      (Fr.iblk m c 9 t) (Fr.iblk m c 10 t) (Fr.iblk m c 11 t) (Fr.iblk m c 12 t) (Fr.iblk m c 13 t) (Fr.iblk m c 14 t)
      = (argsOfMem m c).params := by
  unfold paramsOfBlocks Cert.Spec.Args.params
  congr 1
  · funext l n k; exact (congrFun (iblk3_eq m c t) _).trans (V5_f m c l k n _ rfl)
  · funext l n; exact (congrFun (iblk4_eq m c t) _).trans (V6_f m c l n _ rfl)
  · funext l n k; exact (congrFun (iblk3_eq m c t) _).trans (V5_i m c l k n _ rfl)
  · funext l n; exact (congrFun (iblk4_eq m c t) _).trans (V6_i m c l n _ rfl)
  · funext l n k; exact (congrFun (iblk3_eq m c t) _).trans (V5_o m c l k n _ rfl)
  · funext l n; exact (congrFun (iblk4_eq m c t) _).trans (V6_o m c l n _ rfl)
  · funext l n k; exact (congrFun (iblk3_eq m c t) _).trans (V5_c m c l k n _ rfl)
  · funext l n; exact (congrFun (iblk4_eq m c t) _).trans (V6_c m c l n _ rfl)
  · funext l s k; exact (congrFun (iblk5_eq m c t) _).trans (V14_at m c l k s)
  · funext l s; exact (congrFun (iblk6_eq m c t) _).trans (congrFun (V_arg12_eq m c) _)
  · funext l n k; exact (congrFun (iblk7_eq m c t) _).trans (V11_f m c l k n _ rfl)
  · funext l n; exact (congrFun (iblk8_eq m c t) _).trans (V12_f m c l n _ rfl)
  · funext l n k; exact (congrFun (iblk7_eq m c t) _).trans (V11_i m c l k n _ rfl)
  · funext l n; exact (congrFun (iblk8_eq m c t) _).trans (V12_i m c l n _ rfl)
  · funext l n k; exact (congrFun (iblk7_eq m c t) _).trans (V11_o m c l k n _ rfl)
  · funext l n; exact (congrFun (iblk8_eq m c t) _).trans (V12_o m c l n _ rfl)
  · funext l s k; exact (congrFun (iblk9_eq m c t) _).trans (V18_at m c l s k _ rfl)
  · funext l s; exact (congrFun (iblk10_eq m c t) _).trans (V19_at m c l s _ rfl)
  · funext l n k; exact (congrFun (iblk11_eq m c t) _).trans (V23_at m c l n k _ rfl)
  · funext l n; exact (congrFun (iblk12_eq m c t) _).trans (V24_at m c l n _ rfl)
  · funext j k; exact (congrFun (iblk13_eq m c t) _).trans (V26_at m c k j)
  · funext j; exact (congrFun (iblk14_eq m c t) _).trans (congrFun (V_arg24_eq m c) _)

end Cert.KernelIdeal.KV

end
-- ==== Proof.KV.Final.lean ====
import proofs.«161507_j76424648065777_2_alg».proof.Proof.KV.Row
import proofs.«161507_j76424648065777_2_alg».proof.Proof.KV.Weights
import Idealize.ShloMosaic.Lib.Pipeline.Value

/-! # From the blocks to the result array

The body's run on one block of 256 batch rows computes the cell's row function of each row of its blocks, and
the weight windows hold the launched weights. Here the 16 blocks are put together: row `r` of the block at
grid point `t` is batch row `256 t + r` of the launched input and states, so what point `t` writes back is
block `t` of ONE array `G` of the launched arguments; the 16 blocks cover the result array (row `b` is in block
`b / 256`), so the result array ends holding `G`; and the argument arrays end as launched. -/

-- deciding facts over the 16 windows and the 53 buffers recurses past the default depth
set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where a block's rows sit in its array -/

/-- The index maps of the three batch-tiled input windows and of the output window, decided over the grid: at
    point `t` the block index is `t` on the batch axis and zero on every other axis. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_15.index t (0 : Fin 2) = t.val ∧ win0_15.index t (1 : Fin 2) = 0 :=
  (by decide +kernel : ∀ t : Fin grid0.N, _)

/-- Row `r` of the block of 256 batch rows at grid point `t` is batch row `256 t + r`. -/
def brow (t : Fin cfg0.N) (r : Fin 256) : Fin 4096 :=
  ⟨256 * t.val + r.val, by have := lt_of_lt_of_eq t.isLt (show cfg0.N = 16 from N_0); have := r.isLt; omega⟩

/-- Row `r` of the input's block at point `t` is batch row `256 t + r` of the launched input. -/
theorem x_row (c : Dev nD) (t : Fin cfg0.N) (r : Fin 256) (k : Fin 256) :
    Fr.iblk m c 0 t (ix2 r k) = m ((c.tc : Thread nD τ).loc main_arg0) (ix2 (brow t r) k) := by
  obtain ⟨e0, e1, -⟩ := idx_facts t
  show V m c main_arg0 (((cfg0.win 0).blk t).view.emb (ix2 r k)) = _
  rw [Fr.V_main_arg0]
  refine congrArg _ (funext fun a => Fin.ext ?_)
  match a with
  | ⟨0, _⟩ => show win0_0.index t (0 : Fin 2) * 256 + 1 * r.val = 256 * t.val + r.val; omega
  | ⟨1, _⟩ => show win0_0.index t (1 : Fin 2) * 256 + 1 * k.val = k.val; omega

/-- Row `r` of layer `l` of the hidden states' block at point `t` is batch row `256 t + r` of the launched ones. -/
theorem h_row (c : Dev nD) (t : Fin cfg0.N) (l : Fin 3) (r : Fin 256) (n : Fin 256) :
    Fr.iblk m c 1 t (ix3 l r n) = m ((c.tc : Thread nD τ).loc main_arg1) (ix3 l (brow t r) n) := by
  obtain ⟨-, -, e0, e1, e2, -⟩ := idx_facts t
  show V m c main_arg1 (((cfg0.win 1).blk t).view.emb (ix3 l r n)) = _
  rw [Fr.V_main_arg1]
  refine congrArg _ (funext fun a => Fin.ext ?_)
  match a with
  | ⟨0, _⟩ => show win0_1.index t (0 : Fin 3) * 3 + 1 * l.val = l.val; omega
  | ⟨1, _⟩ => show win0_1.index t (1 : Fin 3) * 256 + 1 * r.val = 256 * t.val + r.val; omega
  | ⟨2, _⟩ => show win0_1.index t (2 : Fin 3) * 256 + 1 * n.val = n.val; omega

/-- The same of the cell states. -/
theorem c_row (c : Dev nD) (t : Fin cfg0.N) (l : Fin 3) (r : Fin 256) (n : Fin 256) :
    Fr.iblk m c 2 t (ix3 l r n) = m ((c.tc : Thread nD τ).loc main_arg2) (ix3 l (brow t r) n) := by
  obtain ⟨-, -, -, -, -, e0, e1, e2, -⟩ := idx_facts t
  show V m c main_arg2 (((cfg0.win 2).blk t).view.emb (ix3 l r n)) = _
  rw [Fr.V_main_arg2]
  refine congrArg _ (funext fun a => Fin.ext ?_)
  match a with
  | ⟨0, _⟩ => show win0_2.index t (0 : Fin 3) * 3 + 1 * l.val = l.val; omega
  | ⟨1, _⟩ => show win0_2.index t (1 : Fin 3) * 256 + 1 * r.val = 256 * t.val + r.val; omega
  | ⟨2, _⟩ => show win0_2.index t (2 : Fin 3) * 256 + 1 * n.val = n.val; omega

/-- Entry `(r, j)` of the output's block at point `t` sits at `(256 t + r, j)` of the result array. -/
theorem out_emb (t : Fin cfg0.N) (r : Fin 256) (j : Fin 44) :
    ((cfg0.win 15).blk t).view.emb (ix2 r j) = ix2 (brow t r) j := by
  obtain ⟨-, -, -, -, -, -, -, -, e0, e1⟩ := idx_facts t
  refine funext fun a => Fin.ext ?_
  match a with
  | ⟨0, _⟩ => show win0_15.index t (0 : Fin 2) * 256 + 1 * r.val = 256 * t.val + r.val; omega
  | ⟨1, _⟩ => show win0_15.index t (1 : Fin 2) * 44 + 1 * j.val = j.val; omega

/-! ## What each point writes back -/

/-- Entry `(r, j)` of what the body leaves at point `t` is the result array's entry `(256 t + r, j)`: the body
    computes the cell's row function of row `r` of its blocks, the weight windows hold the launched weights, and
    row `r` of the batch-tiled blocks is batch row `256 t + r`. -/
theorem outAt_row (c : Dev nD) (t : Fin cfg0.N) (r : Fin 256) (j : Fin 44) :
    Fr.outAt m c t (ix2 r j) = Cert.Spec.G (argsOfMem m c) (ix2 (brow t r) j) := by
  rw [Cert.Spec.G_ix2]
  unfold Fr.outAt
  rw [out15_row, params_eq m c t]
  simp only [x_row, h_row, c_row]
  rfl

/-- WHAT POINT `t` WRITES BACK is block `t` of the result array `G` of the launched arguments. -/
theorem flushed_eq (c : Dev nD) (t : Fin cfg0.N) :
    (Fr.dats m 0 c).flushed 15 t = ((cfg0.win 15).blk t).view.read (Elt Ideal) (Cert.Spec.G (argsOfMem m c)) := by
  show (cfg0.win 15).cut (grid0.coords t) ((Fr.dats m 0 c).after 15 t) = _
  rw [Fr.after0_15]
  funext y
  show Fr.outAt m c t y = Cert.Spec.G (argsOfMem m c) (((cfg0.win 15).blk t).view.emb y)
  have key := (outAt_row m c t (y 0) (y 1)).trans (congrArg (Cert.Spec.G (argsOfMem m c)) (out_emb t (y 0) (y 1)).symm)
  have hy : y = ix2 (n0 := 256) (n1 := 44) (y 0) (y 1) := eq_ix2 (n0 := 256) (n1 := 44) y
  rw [hy]
  exact key

/-! ## The blocks cover the result array -/

/-- An index of the result array is in point `t`'s block iff each coordinate is in the block's range on its axis. -/
theorem mem_blk (t : Fin cfg0.N) (i : S4096x44.Idx) :
    i ∈ ((cfg0.win 15).blk t).view.set ↔ ∀ a : Fin 2, win0_15.index t a * S256x44.size a ≤ (i a).val ∧ (i a).val < win0_15.index t a * S256x44.size a + S256x44.size a := by
  show i ∈ ((View.whole main_v27).slice (win0_15.rect t)).set ↔ _
  rw [View.set_slice_whole, Rect.mem_set_unit]
  exact Iff.rfl

/-- Every index of the result array is in the block of the point that holds its batch row: row `b` is in block `b / 256`. -/
theorem cover (i : S4096x44.Idx) : ∃ t : Fin cfg0.N, (cfg0.win 15).flush t = true ∧ i ∈ ((cfg0.win 15).blk t).view.set := by
  have hi0 : (i 0).val < 4096 := (i 0).isLt
  have hi1 : (i 1).val < 44 := (i 1).isLt
  have ht : (i 0).val / 256 < cfg0.N := lt_of_lt_of_eq (by omega) (show (16 : ℕ) = cfg0.N from N_0.symm)
  obtain ⟨-, -, -, -, -, -, -, -, e0, e1⟩ := idx_facts ⟨(i 0).val / 256, ht⟩
  have e0' : win0_15.index ⟨(i 0).val / 256, ht⟩ (0 : Fin 2) = (i 0).val / 256 := e0
  refine ⟨⟨(i 0).val / 256, ht⟩, flush0_15 _, ?_⟩
  rw [mem_blk]
  intro a
  match a with
  | ⟨0, _⟩ =>
    show win0_15.index ⟨(i 0).val / 256, ht⟩ (0 : Fin 2) * 256 ≤ (i 0).val ∧ (i 0).val < win0_15.index ⟨(i 0).val / 256, ht⟩ (0 : Fin 2) * 256 + 256
    omega
  | ⟨1, _⟩ =>
    show win0_15.index ⟨(i 0).val / 256, ht⟩ (1 : Fin 2) * 44 ≤ (i 1).val ∧ (i 1).val < win0_15.index ⟨(i 0).val / 256, ht⟩ (1 : Fin 2) * 44 + 44
    omega

/-- THE RESULT ARRAY after the run is `G` of the launched arguments. -/
theorem final (c : Dev nD) : (Fr.dats m 0 c).arrAt 15 cfg0.N = Cert.Spec.G (argsOfMem m c) :=
  (Fr.dats m 0 c).arrAt_eq_of_cover 15 (Cert.Spec.G (argsOfMem m c)) (fun t _ => flushed_eq m c t) cover

/-! ## The run, read -/

/-- After the frame run the 25 argument arrays are as launched: an input window's array ends at its entry contents, an
    array no window stages at its entry contents too, and the host operations before the region write none of them. -/
theorem args_kept (r : PUnit × MemSt nD τ sig (Elt Ideal)) (h : Pipeline.FramePost cfgs (Fr.dats m) 0 (Fr.V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24) :=
  ⟨((h c).1 0).trans (((Fr.dats m 0 c).arrAt_in 0 rfl _).trans ((Fr.A_eq m c 0).trans (Fr.V_main_arg0 m c))),
    ((h c).1 1).trans (((Fr.dats m 0 c).arrAt_in 1 rfl _).trans ((Fr.A_eq m c 1).trans (Fr.V_main_arg1 m c))),
    ((h c).1 2).trans (((Fr.dats m 0 c).arrAt_in 2 rfl _).trans ((Fr.A_eq m c 2).trans (Fr.V_main_arg2 m c))),
    ((h c).2 main_arg3 (Pipeline.mem_restRefs_of main_arg3 (by decide) (by decide))).trans (Fr.V_main_arg3 m c),
    ((h c).2 main_arg4 (Pipeline.mem_restRefs_of main_arg4 (by decide) (by decide))).trans (Fr.V_main_arg4 m c),
    ((h c).2 main_arg5 (Pipeline.mem_restRefs_of main_arg5 (by decide) (by decide))).trans (Fr.V_main_arg5 m c),
    ((h c).2 main_arg6 (Pipeline.mem_restRefs_of main_arg6 (by decide) (by decide))).trans (Fr.V_main_arg6 m c),
    ((h c).2 main_arg7 (Pipeline.mem_restRefs_of main_arg7 (by decide) (by decide))).trans (Fr.V_main_arg7 m c),
    ((h c).2 main_arg8 (Pipeline.mem_restRefs_of main_arg8 (by decide) (by decide))).trans (Fr.V_main_arg8 m c),
    ((h c).2 main_arg9 (Pipeline.mem_restRefs_of main_arg9 (by decide) (by decide))).trans (Fr.V_main_arg9 m c),
    ((h c).2 main_arg10 (Pipeline.mem_restRefs_of main_arg10 (by decide) (by decide))).trans (Fr.V_main_arg10 m c),
    ((h c).2 main_arg11 (Pipeline.mem_restRefs_of main_arg11 (by decide) (by decide))).trans (Fr.V_main_arg11 m c),
    ((h c).1 6).trans (((Fr.dats m 0 c).arrAt_in 6 rfl _).trans ((Fr.A_eq m c 6).trans (Fr.V_main_arg12 m c))),
    ((h c).2 main_arg13 (Pipeline.mem_restRefs_of main_arg13 (by decide) (by decide))).trans (Fr.V_main_arg13 m c),
    ((h c).2 main_arg14 (Pipeline.mem_restRefs_of main_arg14 (by decide) (by decide))).trans (Fr.V_main_arg14 m c),
    ((h c).2 main_arg15 (Pipeline.mem_restRefs_of main_arg15 (by decide) (by decide))).trans (Fr.V_main_arg15 m c),
    ((h c).2 main_arg16 (Pipeline.mem_restRefs_of main_arg16 (by decide) (by decide))).trans (Fr.V_main_arg16 m c),
    ((h c).2 main_arg17 (Pipeline.mem_restRefs_of main_arg17 (by decide) (by decide))).trans (Fr.V_main_arg17 m c),
    ((h c).2 main_arg18 (Pipeline.mem_restRefs_of main_arg18 (by decide) (by decide))).trans (Fr.V_main_arg18 m c),
    ((h c).2 main_arg19 (Pipeline.mem_restRefs_of main_arg19 (by decide) (by decide))).trans (Fr.V_main_arg19 m c),
    ((h c).2 main_arg20 (Pipeline.mem_restRefs_of main_arg20 (by decide) (by decide))).trans (Fr.V_main_arg20 m c),
    ((h c).2 main_arg21 (Pipeline.mem_restRefs_of main_arg21 (by decide) (by decide))).trans (Fr.V_main_arg21 m c),
    ((h c).2 main_arg22 (Pipeline.mem_restRefs_of main_arg22 (by decide) (by decide))).trans (Fr.V_main_arg22 m c),
    ((h c).2 main_arg23 (Pipeline.mem_restRefs_of main_arg23 (by decide) (by decide))).trans (Fr.V_main_arg23 m c),
    ((h c).1 14).trans (((Fr.dats m 0 c).arrAt_in 14 rfl _).trans ((Fr.A_eq m c 14).trans (Fr.V_main_arg24 m c)))⟩

/-- THE KERNEL'S RUN, READ: from any launched memory with zero counters every weakly fair execution of @main ends,
    with the result array at `G` of the launched arguments and the 25 argument arrays as launched. -/
theorem run_G : θ_run (defs (F := Ideal)) (onTc (τ := τ) (main (F := Ideal))) ⟨m, fun _ => 0, ρ⟩ (fun r => ∀ c : Dev nD,
      r.2.mem ((c.tc : Thread nD τ).loc main_v27) = Cert.Spec.G (argsOfMem m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨((h c).1 15).trans (final m c), args_kept m r h c⟩) (Fr.run_main m ρ)

end Cert.KernelIdeal.KV

end
-- ==== Proof.RefFrame.lean ====
/-
  The reference program's frame.

  The reference is a straight line of host operations: nine time steps of the three-layer
  gated-feedback cell on the whole batch, the top layer's hidden states joined side by side, one
  last affine map and a logistic. Its generated run (taken here from the copy of that module cut into a chain of modules) says that every weakly fair execution ends with
  the result at the operations' composed value and every argument array as it was; dropping the
  result's value leaves the frame.
-/
import proofs.«161507_j76424648065777_2_alg».proof.Defs
import proofs.«161507_j76424648065777_2_alg».proof.Proof.RefRun.R10
import proofs.«161507_j76424648065777_2_alg».proof.Proof.Gen.Pre_finite_inputs

noncomputable section

namespace Cert.Proof.RefClaims

open Idealize.ShloMosaic Idealize.SL.Sem

theorem frame_ri : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.Ref.Ops.lean ====
/-
  The reference program's array operations as structured functions, at the ideal values, each read
  at one index as the matching piece of the row computation `Cert.Spec`.

  An affine map `x Wᵀ + b` is a matrix product with the transposed weight plus the bias row repeated
  over the batch; read at `(b, n)` it is `∑ₖ x[b,k]·W[n,k] + b[n]`. A logistic gate is printed as
  `1 / (1 + exp (−z))`, which is the ideal logistic at each element. Layer `l`'s weights are a slice
  of a stacked array with its leading unit axis dropped, transposed for the matrices. The three layers'
  hidden rows side by side are a transpose and a row-major reshape; a stack of three arrays is their
  concatenation along a new leading axis. The cross-layer term reshapes an affine map of the
  concatenated hidden row into three slabs, weights them by a three-way gate and sums over the slabs.
-/
import proofs.«161507_j76424648065777_2_alg».proof.ReferenceIdeal
import proofs.«161507_j76424648065777_2_alg».proof.Proof.SpecArgs
import Idealize.ShloMosaic.Lib.ValueIdx
import Idealize.ShloMosaic.Lib.ValueLayout
import Idealize.ShloMosaic.Lib.Pipeline.Value
import Idealize.ShloMosaic.Lib.IdealHost
import Idealize.ShloMosaic.Lib.StackMember
import Idealize.ShloMosaic.PureOps.Ideal.Laws

noncomputable section

namespace Cert.ReferenceIdeal.RefValue

open Cert.ReferenceIdeal Idealize.ShloMosaic Idealize.ShloMosaic.ValueIdx

variable [Facts]
open Facts₀ Facts

/-- An array of extended reals of shape `s`. -/
abbrev V (s : Shape) := FVec Ideal s .f32

/-! ## The logistic, as the reference spells it -/

/-- `1 / (1 + exp (−z))`, the ones splats of a scalar constant. -/
def sigm {s : Shape} (h : S_.BroadcastsInDim s (![] : Fin 0 → Fin s.rank)) (z : V s) : V s :=
  Host.divf (broadcastInDim s ![] h (constant S_ .f32 0x3F800000#32))
    (addf (broadcastInDim s ![] h (constant S_ .f32 0x3F800000#32)) (Host.exp (Host.negf z)))

/-- At each element it is the ideal logistic. -/
theorem sigm_apply {s : Shape} (h : S_.BroadcastsInDim s (![] : Fin 0 → Fin s.rank)) (z : V s) (j : s.Idx) :
    sigm h z j = Ideal.logistic (z j) := by
  show Ideal.div (Ideal.ofBits .f32 0x3F800000#32) (Ideal.ofBits .f32 0x3F800000#32 + Ideal.exp (-(z j))) = _
  rw [Ideal.ofBits_one_f32]; rfl

/-! ## An affine map of the rows of a batch -/

/-- `x · WT + b`: the product with the (already transposed) weight, plus the bias repeated over the rows. -/
def affine {K N : ℕ} (w : DotDims.WF ⟨2, ![4096, K]⟩ ⟨2, ![K, N]⟩ ⟨2, ![4096, N]⟩ [1] [0] [0] [1] [] [])
    (hb1 : (⟨1, ![N]⟩ : Shape).BroadcastsInDim ⟨2, ![1, N]⟩ ![1])
    (hb2 : (⟨2, ![1, N]⟩ : Shape).BroadcastsInDim ⟨2, ![4096, N]⟩ ![0, 1])
    (x : V ⟨2, ![4096, K]⟩) (WT : V ⟨2, ![K, N]⟩) (bv : V ⟨1, ![N]⟩) : V ⟨2, ![4096, N]⟩ :=
  addf (Host.dotGeneral (⟨[1], [0], [0], [1], [], [], w⟩ : DotDims _ _ _) none x WT)
    (broadcastInDim ⟨2, ![4096, N]⟩ ![0, 1] hb2 (broadcastInDim ⟨2, ![1, N]⟩ ![1] hb1 bv))

/-- Read at `(b, n)`: `∑ₖ x[b,k] · WT[k,n] + bv[n]`. -/
theorem affine_apply {K N : ℕ} (w : DotDims.WF ⟨2, ![4096, K]⟩ ⟨2, ![K, N]⟩ ⟨2, ![4096, N]⟩ [1] [0] [0] [1] [] [])
    (hb1 : (⟨1, ![N]⟩ : Shape).BroadcastsInDim ⟨2, ![1, N]⟩ ![1])
    (hb2 : (⟨2, ![1, N]⟩ : Shape).BroadcastsInDim ⟨2, ![4096, N]⟩ ![0, 1])
    (x : V ⟨2, ![4096, K]⟩) (WT : V ⟨2, ![K, N]⟩) (bv : V ⟨1, ![N]⟩) (b : Fin 4096) (n : Fin N) :
    affine w hb1 hb2 x WT bv (ix2 b n) = (∑ k : Fin K, x (ix2 b k) * WT (ix2 k n)) + bv (ix1 n) := by
  have e1 : Host.dotGeneral (⟨[1], [0], [0], [1], [], [], w⟩ : DotDims _ _ _) none x WT (ix2 b n)
      = ∑ k : Fin K, x (ix2 b k) * WT (ix2 k n) := StackMember.dotGeneral_plain_apply none x WT b n
  have e2 : broadcastInDim ⟨2, ![4096, N]⟩ ![0, 1] hb2 (broadcastInDim ⟨2, ![1, N]⟩ ![1] hb1 bv) (ix2 b n) = bv (ix1 n) := by
    refine (broadcastInDim_apply _ hb2 _ (ix2 b n) (ix2 (0 : Fin 1) n) (fun a => ?_)).trans
      (broadcastInDim_apply _ hb1 bv (ix2 (0 : Fin 1) n) (ix1 n) (fun a => ?_))
    · match a with
      | ⟨0, _⟩ => rfl
      | ⟨1, _⟩ =>
        show n.val = if N = 1 then 0 else n.val
        have := n.isLt
        split <;> omega
    · match a with
      | ⟨0, _⟩ =>
        show n.val = if N = 1 then 0 else n.val
        have := n.isLt
        split <;> omega
  show _ + _ = _
  rw [e1, e2]

/-! ## Layer `l`'s slice of a stacked array -/

/-- Member `l` of three is a block of extent one along the leading axis. -/
theorem slw (N K : ℕ) (l : Fin 3) : (⟨3, ![3, N, K]⟩ : Shape).Slices ![l.val, 0, 0] ⟨3, ![1, N, K]⟩ :=
  ⟨rfl, fun a => by
    match a with
    | ⟨0, _⟩ => show l.val + 1 ≤ 3; omega
    | ⟨1, _⟩ => show 0 + N ≤ N; omega
    | ⟨2, _⟩ => show 0 + K ≤ K; omega⟩

theorem slb (N : ℕ) (l : Fin 3) : (⟨2, ![3, N]⟩ : Shape).Slices ![l.val, 0] ⟨2, ![1, N]⟩ :=
  ⟨rfl, fun a => by
    match a with
    | ⟨0, _⟩ => show l.val + 1 ≤ 3; omega
    | ⟨1, _⟩ => show 0 + N ≤ N; omega⟩

/-- Member `l` of a stack of three matrices. -/
def sl3 {N K : ℕ} (hc : (⟨3, ![1, N, K]⟩ : Shape).ShapeCasts ⟨2, ![N, K]⟩) (W : V ⟨3, ![3, N, K]⟩) (l : Fin 3) :
    V ⟨2, ![N, K]⟩ :=
  shapeCast ⟨2, ![N, K]⟩ (extractStridedSlice ⟨3, ![1, N, K]⟩ ![l.val, 0, 0] W (slw N K l)) hc

theorem sl3_apply {N K : ℕ} (hc : (⟨3, ![1, N, K]⟩ : Shape).ShapeCasts ⟨2, ![N, K]⟩) (W : V ⟨3, ![3, N, K]⟩) (l : Fin 3)
    (i : Fin N) (j : Fin K) : sl3 hc W l (ix2 i j) = W (ix3 l i j) := by
  refine (shapeCast_1ab_ab_apply _ hc i j).trans
    (extractStridedSlice_apply _ W (slw N K l) (ix3 (0 : Fin 1) i j) (ix3 l i j) (fun a => ?_))
  match a with
  | ⟨0, _⟩ => rfl
  | ⟨1, _⟩ => exact (Nat.zero_add _).symm
  | ⟨2, _⟩ => exact (Nat.zero_add _).symm

/-- Member `l` of a stack of three weight matrices, transposed. -/
def wT {N K : ℕ} (hc : (⟨3, ![1, N, K]⟩ : Shape).ShapeCasts ⟨2, ![N, K]⟩)
    (ht : (⟨2, ![N, K]⟩ : Shape).Transposes [1, 0] ⟨2, ![K, N]⟩) (W : V ⟨3, ![3, N, K]⟩) (l : Fin 3) : V ⟨2, ![K, N]⟩ :=
  transpose ⟨2, ![K, N]⟩ [1, 0] (sl3 hc W l) ht

theorem wT_apply {N K : ℕ} (hc : (⟨3, ![1, N, K]⟩ : Shape).ShapeCasts ⟨2, ![N, K]⟩)
    (ht : (⟨2, ![N, K]⟩ : Shape).Transposes [1, 0] ⟨2, ![K, N]⟩) (W : V ⟨3, ![3, N, K]⟩) (l : Fin 3)
    (k : Fin K) (n : Fin N) : wT hc ht W l (ix2 k n) = W (ix3 l n k) :=
  (transpose_ix2_apply _ ht k n).trans (sl3_apply hc W l n k)

/-- Member `l` of a stack of three bias rows. -/
def bsl {N : ℕ} (hc : (⟨2, ![1, N]⟩ : Shape).ShapeCasts ⟨1, ![N]⟩) (B : V ⟨2, ![3, N]⟩) (l : Fin 3) : V ⟨1, ![N]⟩ :=
  shapeCast ⟨1, ![N]⟩ (extractStridedSlice ⟨2, ![1, N]⟩ ![l.val, 0] B (slb N l)) hc

theorem bsl_apply {N : ℕ} (hc : (⟨2, ![1, N]⟩ : Shape).ShapeCasts ⟨1, ![N]⟩) (B : V ⟨2, ![3, N]⟩) (l : Fin 3) (n : Fin N) :
    bsl hc B l (ix1 n) = B (ix2 l n) := by
  refine (shapeCast_1a_a_apply _ hc n).trans
    (extractStridedSlice_apply _ B (slb N l) (ix2 (0 : Fin 1) n) (ix2 l n) (fun a => ?_))
  match a with
  | ⟨0, _⟩ => rfl
  | ⟨1, _⟩ => exact (Nat.zero_add _).symm

/-! ## The three layers' hidden rows side by side, and a stack of three arrays -/

/-- `[3, B, 256] → [B, 768]`, layer-major along the row. -/
def hcatOf (H : V S3x4096x256) : V S4096x768 :=
  shapeCast S4096x768 (transpose S4096x3x256 [1, 0, 2] H transposes_S3x4096x256_S4096x3x256_1_0_2)
    shapeCasts_S4096x3x256_S4096x768

/-- Column `k` of row `b` is unit `k mod 256` of layer `k / 256`. -/
theorem hcatOf_apply (H : V S3x4096x256) (b : Fin 4096) (k : Fin 768) :
    hcatOf H (ix2 b k) = H (ix3 (⟨k.val / 256, by have := k.isLt; omega⟩ : Fin 3) b
      (⟨k.val % 256, Nat.mod_lt _ (by norm_num)⟩ : Fin 256)) := by
  refine (shapeCast_apply _ shapeCasts_S4096x3x256_S4096x768 (ix2 b k)
    (ix3 b (⟨k.val / 256, by have := k.isLt; omega⟩ : Fin 3) (⟨k.val % 256, Nat.mod_lt _ (by norm_num)⟩ : Fin 256)) ?_).trans
    (transpose_apply _ H transposes_S3x4096x256_S4096x3x256_1_0_2 _ _ (fun c => ?_))
  · rw [Shape.rowMajor_val_three, Shape.rowMajor_val_two]
    show (b.val * 3 + k.val / 256) * 256 + k.val % 256 = b.val * 768 + k.val
    omega
  · match c with
    | ⟨0, _⟩ => rfl
    | ⟨1, _⟩ => rfl
    | ⟨2, _⟩ => rfl

/-- The three arrays, each given a leading unit axis. -/
abbrev pieces3 (a0 a1 a2 : V S4096x256) : List ((s : Shape) × (s.Idx → Ideal .f32)) :=
  [⟨S1x4096x256, broadcastInDim S1x4096x256 ![1, 2] bcast_S4096x256_S1x4096x256_1_2 a0⟩,
   ⟨S1x4096x256, broadcastInDim S1x4096x256 ![1, 2] bcast_S4096x256_S1x4096x256_1_2 a1⟩,
   ⟨S1x4096x256, broadcastInDim S1x4096x256 ![1, 2] bcast_S4096x256_S1x4096x256_1_2 a2⟩]

/-- Three `[B, 256]` arrays stacked along a new leading axis. -/
def stack3 (a0 a1 a2 : V S4096x256) : V S3x4096x256 :=
  concatenate S3x4096x256 0 (pieces3 a0 a1 a2) concatenates_S1x4096x256_S1x4096x256_S1x4096x256_S3x4096x256_d0

theorem bc1_apply (a : V S4096x256) (b : Fin 4096) (n : Fin 256) :
    broadcastInDim S1x4096x256 ![1, 2] bcast_S4096x256_S1x4096x256_1_2 a (ix3 (0 : Fin 1) b n) = a (ix2 b n) :=
  broadcastInDim_apply _ bcast_S4096x256_S1x4096x256_1_2 a _ _ (fun c => by
    match c with
    | ⟨0, _⟩ => rfl
    | ⟨1, _⟩ => rfl)

theorem stack3_apply0 (a0 a1 a2 : V S4096x256) (b : Fin 4096) (n : Fin 256) :
    stack3 a0 a1 a2 (ix3 (0 : Fin 3) b n) = a0 (ix2 b n) := by
  refine (concatenate_apply_piece (t := S3x4096x256) (0 : Fin 3) (pieces3 a0 a1 a2) concatenates_S1x4096x256_S1x4096x256_S1x4096x256_S3x4096x256_d0
    (ix3 (0 : Fin 3) b n) 0 (by show 0 < 3; omega) S1x4096x256 _ rfl rfl 0 rfl (ix3 (0 : Fin 1) b n) (fun c hc => ?_) rfl).trans
    (bc1_apply a0 b n)
  match c with
  | ⟨0, _⟩ => exact absurd rfl hc
  | ⟨1, _⟩ => rfl
  | ⟨2, _⟩ => rfl

theorem stack3_apply1 (a0 a1 a2 : V S4096x256) (b : Fin 4096) (n : Fin 256) :
    stack3 a0 a1 a2 (ix3 (1 : Fin 3) b n) = a1 (ix2 b n) := by
  refine (concatenate_apply_piece (t := S3x4096x256) (0 : Fin 3) (pieces3 a0 a1 a2) concatenates_S1x4096x256_S1x4096x256_S1x4096x256_S3x4096x256_d0
    (ix3 (1 : Fin 3) b n) 1 (by show 1 < 3; omega) S1x4096x256 _ rfl rfl 1 rfl (ix3 (0 : Fin 1) b n) (fun c hc => ?_) rfl).trans
    (bc1_apply a1 b n)
  match c with
  | ⟨0, _⟩ => exact absurd rfl hc
  | ⟨1, _⟩ => rfl
  | ⟨2, _⟩ => rfl

theorem stack3_apply2 (a0 a1 a2 : V S4096x256) (b : Fin 4096) (n : Fin 256) :
    stack3 a0 a1 a2 (ix3 (2 : Fin 3) b n) = a2 (ix2 b n) := by
  refine (concatenate_apply_piece (t := S3x4096x256) (0 : Fin 3) (pieces3 a0 a1 a2) concatenates_S1x4096x256_S1x4096x256_S1x4096x256_S3x4096x256_d0
    (ix3 (2 : Fin 3) b n) 2 (by show 2 < 3; omega) S1x4096x256 _ rfl rfl 2 rfl (ix3 (0 : Fin 1) b n) (fun c hc => ?_) rfl).trans
    (bc1_apply a2 b n)
  match c with
  | ⟨0, _⟩ => exact absurd rfl hc
  | ⟨1, _⟩ => rfl
  | ⟨2, _⟩ => rfl

/-- Entry `(l, b, n)` of the stack is entry `(b, n)` of member `l`. -/
theorem stack3_apply (a0 a1 a2 : V S4096x256) (l : Fin 3) (b : Fin 4096) (n : Fin 256) :
    stack3 a0 a1 a2 (ix3 l b n) = (![a0, a1, a2] l) (ix2 b n) := by
  match l with
  | ⟨0, _⟩ => exact stack3_apply0 a0 a1 a2 b n
  | ⟨1, _⟩ => exact stack3_apply1 a0 a1 a2 b n
  | ⟨2, _⟩ => exact stack3_apply2 a0 a1 a2 b n

/-! ## The gates and the cross-layer term -/

/-- `[B, 256] → [B, 256]`. -/
abbrev aff256 (x : V S4096x256) (WT : V S256x256) (bv : V S256) : V S4096x256 :=
  affine dot_S4096x256_S256x256_S4096x256_1_0_0_1_n_n_wf bcast_S256_S1x256_1 bcast_S1x256_S4096x256_0_1 x WT bv
/-- `[B, 256] → [B, 3]`. -/
abbrev aff256x3 (x : V S4096x256) (WT : V S256x3) (bv : V S3) : V S4096x3 :=
  affine dot_S4096x256_S256x3_S4096x3_1_0_0_1_n_n_wf bcast_S3_S1x3_1 bcast_S1x3_S4096x3_0_1 x WT bv
/-- `[B, 768] → [B, 3]`. -/
abbrev aff768x3 (x : V S4096x768) (WT : V S768x3) (bv : V S3) : V S4096x3 :=
  affine dot_S4096x768_S768x3_S4096x3_1_0_0_1_n_n_wf bcast_S3_S1x3_1 bcast_S1x3_S4096x3_0_1 x WT bv
/-- `[B, 768] → [B, 768]`. -/
abbrev aff768 (x : V S4096x768) (WT : V S768x768) (bv : V S768) : V S4096x768 :=
  affine dot_S4096x768_S768x768_S4096x768_1_0_0_1_n_n_wf bcast_S768_S1x768_1 bcast_S1x768_S4096x768_0_1 x WT bv

/-- A gate that sees the layer's input and its own previous hidden rows. -/
def gate256 (x h : V S4096x256) (WiT : V S256x256) (bi : V S256) (WhT : V S256x256) (bh : V S256) : V S4096x256 :=
  sigm bcast_S_S4096x256 (addf (aff256 x WiT bi) (aff256 h WhT bh))

/-- The three-way gate: it sees the layer's input and all layers' previous hidden rows. -/
def gate3 (x : V S4096x256) (hc : V S4096x768) (WiT : V S256x3) (bi : V S3) (WhT : V S768x3) (bh : V S3) : V S4096x3 :=
  sigm bcast_S_S4096x3 (addf (aff256x3 x WiT bi) (aff768x3 hc WhT bh))

/-- The cross-layer term: an affine map of the concatenated hidden rows, cut into three slabs of 256, each weighted
    by its gate, summed over the slabs. -/
def aux (hc : V S4096x768) (WcT : V S768x768) (bc : V S768) (g : V S4096x3) : V S4096x256 :=
  Host.reduceAdd
    (mulf (shapeCast S4096x3x256 (aff768 hc WcT bc) shapeCasts_S4096x768_S4096x3x256)
      (broadcastInDim S4096x3x256 ![0, 1, 2] bcast_S4096x3x1_S4096x3x256_0_1_2
        (broadcastInDim S4096x3x1 ![0, 1] bcast_S4096x3_S4096x3x1_0_1 g)))
    (constant S_ .f32 0x00000000#32) reducesTo_S4096x3x256_S4096x256_d1 h_S_

theorem reduces_d1 : S4096x3x256.Reduces [1] S4096x256 := by decide

theorem aux_apply (hc : V S4096x768) (WcT : V S768x768) (bc : V S768) (g : V S4096x3) (b : Fin 4096) (n : Fin 256) :
    aux hc WcT bc g (ix2 b n) = ∑ s : Fin 3, aff768 hc WcT bc (ix2 b (Cert.Spec.slab s n)) * g (ix2 b s) := by
  unfold aux
  rw [hostReduceAdd_apply, Ideal.hostReduceAdd_single reducesTo_S4096x3x256_S4096x256_d1 reduces_d1]
  show Ideal.ofBits .f32 0x00000000#32 + _ = _
  rw [Ideal.ofBits_zero_f32, zero_add]
  show ∑ s : Fin 3, _ = _
  refine Finset.sum_congr rfl (fun s _ => ?_)
  have hl : reduces_d1.lift (ix2 b n) s = ix3 b s n := by
    funext c
    match c with
    | ⟨0, _⟩ => rfl
    | ⟨1, _⟩ => rfl
    | ⟨2, _⟩ => rfl
  rw [hl]
  show shapeCast S4096x3x256 (aff768 hc WcT bc) shapeCasts_S4096x768_S4096x3x256 (ix3 b s n) * _ = _
  have e1 : shapeCast S4096x3x256 (aff768 hc WcT bc) shapeCasts_S4096x768_S4096x3x256 (ix3 b s n)
      = aff768 hc WcT bc (ix2 b (Cert.Spec.slab s n)) :=
    shapeCast_apply _ shapeCasts_S4096x768_S4096x3x256 (ix3 b s n) (ix2 b (Cert.Spec.slab s n)) (by
      rw [Shape.rowMajor_val_three, Shape.rowMajor_val_two]
      show b.val * 768 + (s.val * 256 + n.val) = (b.val * 3 + s.val) * 256 + n.val
      omega)
  have e2 : broadcastInDim S4096x3x256 ![0, 1, 2] bcast_S4096x3x1_S4096x3x256_0_1_2
      (broadcastInDim S4096x3x1 ![0, 1] bcast_S4096x3_S4096x3x1_0_1 g) (ix3 b s n) = g (ix2 b s) :=
    (broadcastInDim_apply _ bcast_S4096x3x1_S4096x3x256_0_1_2 _ (ix3 b s n) (ix3 b s (0 : Fin 1)) (fun c => by
      match c with
      | ⟨0, _⟩ => rfl
      | ⟨1, _⟩ => rfl
      | ⟨2, _⟩ => rfl)).trans
    (broadcastInDim_apply _ bcast_S4096x3_S4096x3x1_0_1 g (ix3 b s (0 : Fin 1)) (ix2 b s) (fun c => by
      match c with
      | ⟨0, _⟩ => rfl
      | ⟨1, _⟩ => rfl))
  rw [e1, e2]

/-! ## One layer of one time step, on the whole batch -/

/-- A layer's weights as the program uses them: sliced out of the stacks, the matrices transposed. -/
structure LayerW where
  WifT : V S256x256
  bIf : V S256
  WhfT : V S256x256
  bHf : V S256
  WiiT : V S256x256
  bIi : V S256
  WhiT : V S256x256
  bHi : V S256
  WioT : V S256x256
  bIo : V S256
  WhoT : V S256x256
  bHo : V S256
  WicT : V S256x256
  bIc : V S256
  WigT : V S256x3
  bIg : V S3
  WhgT : V S768x3
  bHg : V S3
  WhcT : V S768x768
  bHc : V S768

/-- Layer `l`'s weights, read off the argument arrays. -/
def layerW (A : Cert.Spec.Args) (l : Fin 3) : LayerW where
  WifT := wT shapeCasts_S1x256x256_S256x256 transposes_S256x256_S256x256_1_0 A.Wi_f l
  bIf := bsl shapeCasts_S1x256_S256 A.bi_f l
  WhfT := wT shapeCasts_S1x256x256_S256x256 transposes_S256x256_S256x256_1_0 A.Wh_f l
  bHf := bsl shapeCasts_S1x256_S256 A.bh_f l
  WiiT := wT shapeCasts_S1x256x256_S256x256 transposes_S256x256_S256x256_1_0 A.Wi_i l
  bIi := bsl shapeCasts_S1x256_S256 A.bi_i l
  WhiT := wT shapeCasts_S1x256x256_S256x256 transposes_S256x256_S256x256_1_0 A.Wh_i l
  bHi := bsl shapeCasts_S1x256_S256 A.bh_i l
  WioT := wT shapeCasts_S1x256x256_S256x256 transposes_S256x256_S256x256_1_0 A.Wi_o l
  bIo := bsl shapeCasts_S1x256_S256 A.bi_o l
  WhoT := wT shapeCasts_S1x256x256_S256x256 transposes_S256x256_S256x256_1_0 A.Wh_o l
  bHo := bsl shapeCasts_S1x256_S256 A.bh_o l
  WicT := wT shapeCasts_S1x256x256_S256x256 transposes_S256x256_S256x256_1_0 A.Wi_c l
  bIc := bsl shapeCasts_S1x256_S256 A.bi_c l
  WigT := wT shapeCasts_S1x3x256_S3x256 transposes_S3x256_S256x3_1_0 A.Wi_g l
  bIg := bsl shapeCasts_S1x3_S3 A.bi_g l
  WhgT := wT shapeCasts_S1x3x768_S3x768 transposes_S3x768_S768x3_1_0 A.Wh_g l
  bHg := bsl shapeCasts_S1x3_S3 A.bh_g l
  WhcT := wT shapeCasts_S1x768x768_S768x768 transposes_S768x768_S768x768_1_0 A.Wh_c l
  bHc := bsl shapeCasts_S1x768_S768 A.bh_c l

/-- The input gate times the candidate: `i · tanh (x Wcᵀ + bc + aux)`. -/
def cellI (L : LayerW) (x hl : V S4096x256) (hc : V S4096x768) : V S4096x256 :=
  mulf (gate256 x hl L.WiiT L.bIi L.WhiT L.bHi)
    (Host.tanh (addf (aff256 x L.WicT L.bIc) (aux hc L.WhcT L.bHc (gate3 x hc L.WigT L.bIg L.WhgT L.bHg))))

/-- The new cell rows: `f · c_prev + (i · candidate)`. -/
def cellC (L : LayerW) (x hl cl ict : V S4096x256) : V S4096x256 :=
  addf (mulf (gate256 x hl L.WifT L.bIf L.WhfT L.bHf) cl) ict

/-- The new hidden rows: `o · c`. -/
def cellH (L : LayerW) (x hl c : V S4096x256) : V S4096x256 :=
  mulf (gate256 x hl L.WioT L.bIo L.WhoT L.bHo) c

/-- Member `l` of a stack of hidden or cell arrays. -/
abbrev hsl (H : V S3x4096x256) (l : Fin 3) : V S4096x256 := sl3 shapeCasts_S1x4096x256_S4096x256 H l

/-- Layer `l`'s new cell array, from its input array and the previous step's hidden and cell stacks. -/
def lC (A : Cert.Spec.Args) (l : Fin 3) (x : V S4096x256) (Hst Cst : V S3x4096x256) : V S4096x256 :=
  cellC (layerW A l) x (hsl Hst l) (hsl Cst l) (cellI (layerW A l) x (hsl Hst l) (hcatOf Hst))

/-- Layer `l`'s new hidden array. -/
def lH (A : Cert.Spec.Args) (l : Fin 3) (x : V S4096x256) (Hst Cst : V S3x4096x256) : V S4096x256 :=
  cellH (layerW A l) x (hsl Hst l) (lC A l x Hst Cst)

/-- **One layer, read at a batch row.** If row `b` of the layer's input array is `inp`, row `b` of the previous
    hidden stack is `hp` and row `b` of member `l` of the previous cell stack is `cl`, then row `b` of the layer's
    new cell and hidden arrays is the row function `Spec.layer` of them. -/
theorem layer_row (A : Cert.Spec.Args) (l : Fin 3) (x : V S4096x256) (Hst Cst : V S3x4096x256) (b : Fin 4096)
    (inp : Fin 256 → EReal) (hp : Fin 3 → Fin 256 → EReal) (cl : Fin 256 → EReal)
    (hx : ∀ k, x (ix2 b k) = inp k) (hH : ∀ l' k, Hst (ix3 l' b k) = hp l' k) (hC : ∀ k, Cst (ix3 l b k) = cl k)
    (n : Fin 256) :
    lC A l x Hst Cst (ix2 b n) = (Cert.Spec.layer A.params l inp hp cl).2 n
      ∧ lH A l x Hst Cst (ix2 b n) = (Cert.Spec.layer A.params l inp hp cl).1 n := by
  have hhc : ∀ k, hcatOf Hst (ix2 b k) = Cert.Spec.hcat hp k := fun k => (hcatOf_apply Hst b k).trans (hH _ _)
  have hhl : ∀ k, hsl Hst l (ix2 b k) = hp l k := fun k => (sl3_apply _ Hst l b k).trans (hH l k)
  have hcl : ∀ k, hsl Cst l (ix2 b k) = cl k := fun k => (sl3_apply _ Cst l b k).trans (hC k)
  have hc : lC A l x Hst Cst (ix2 b n) = (Cert.Spec.layer A.params l inp hp cl).2 n := by
    simp only [lC, cellC, cellI, gate256, gate3, addf_apply, mulf_apply, sigm_apply, aux_apply, affine_apply,
      Host.tanh, Ideal.hostUnary_tanh_def, layerW, wT_apply, bsl_apply, hx, hhc, hhl, hcl]
    rfl
  refine ⟨hc, ?_⟩
  show _ * lC A l x Hst Cst (ix2 b n) = _
  rw [hc]
  simp only [gate256, addf_apply, sigm_apply, affine_apply, layerW, wT_apply, bsl_apply, hx, hhl]
  rfl

end Cert.ReferenceIdeal.RefValue

end
-- ==== Proof.Ref.Step.lean ====
/-
  One time step and the whole recurrence on the batch arrays, read at a batch row.

  A time step runs the three layers in turn, each fed the layer below's new hidden array (the bottom
  one the input array), all reading the previous step's stacks, and stacks the three new hidden and
  the three new cell arrays. Row `b` of the stacks after `t` steps is the row state `Args.st b t`
  (induction on `t`, one layer at a time by `layer_row`). The top layer's hidden arrays of nine steps
  side by side, through the last affine map and logistic, are the result array `Spec.G`.
-/
import proofs.«161507_j76424648065777_2_alg».proof.Proof.Ref.Ops

noncomputable section

namespace Cert.ReferenceIdeal.RefValue

open Cert.ReferenceIdeal Idealize.ShloMosaic Idealize.ShloMosaic.ValueIdx

variable [Facts]
open Facts₀ Facts

/-- The hidden stack and the cell stack. -/
abbrev St := V S3x4096x256 × V S3x4096x256

def h0 (A : Cert.Spec.Args) (S : St) : V S4096x256 := lH A 0 A.x S.1 S.2
def c0 (A : Cert.Spec.Args) (S : St) : V S4096x256 := lC A 0 A.x S.1 S.2
def h1 (A : Cert.Spec.Args) (S : St) : V S4096x256 := lH A 1 (h0 A S) S.1 S.2
def c1 (A : Cert.Spec.Args) (S : St) : V S4096x256 := lC A 1 (h0 A S) S.1 S.2
def h2 (A : Cert.Spec.Args) (S : St) : V S4096x256 := lH A 2 (h1 A S) S.1 S.2
def c2 (A : Cert.Spec.Args) (S : St) : V S4096x256 := lC A 2 (h1 A S) S.1 S.2

/-- One time step on the stacks. -/
def stepArr (A : Cert.Spec.Args) (S : St) : St :=
  (stack3 (h0 A S) (h1 A S) (h2 A S), stack3 (c0 A S) (c1 A S) (c2 A S))

/-- Row `b` of the stacks is the row state `s`. -/
def Inv (S : St) (b : Fin 4096) (s : Cert.Spec.State) : Prop :=
  (∀ l n, S.1 (ix3 l b n) = s.1 l n) ∧ (∀ l n, S.2 (ix3 l b n) = s.2 l n)

/-- **One time step, read at a batch row.** -/
theorem step_row (A : Cert.Spec.Args) (S : St) (b : Fin 4096) (s : Cert.Spec.State) (hS : Inv S b s) :
    Inv (stepArr A S) b (Cert.Spec.step A.params (A.xrow b) s)
      ∧ ∀ n, h2 A S (ix2 b n) = (Cert.Spec.step A.params (A.xrow b) s).1 2 n := by
  have r0 := layer_row A 0 A.x S.1 S.2 b (A.xrow b) s.1 (s.2 0) (fun _ => rfl) hS.1 (hS.2 0)
  have r1 := layer_row A 1 (h0 A S) S.1 S.2 b _ s.1 (s.2 1) (fun k => (r0 k).2) hS.1 (hS.2 1)
  have r2 := layer_row A 2 (h1 A S) S.1 S.2 b _ s.1 (s.2 2) (fun k => (r1 k).2) hS.1 (hS.2 2)
  refine ⟨⟨fun l n => ?_, fun l n => ?_⟩, fun n => (r2 n).2⟩
  · show stack3 (h0 A S) (h1 A S) (h2 A S) (ix3 l b n) = _
    rw [stack3_apply]
    match l with
    | ⟨0, _⟩ => exact (r0 n).2
    | ⟨1, _⟩ => exact (r1 n).2
    | ⟨2, _⟩ => exact (r2 n).2
  · show stack3 (c0 A S) (c1 A S) (c2 A S) (ix3 l b n) = _
    rw [stack3_apply]
    match l with
    | ⟨0, _⟩ => exact (r0 n).1
    | ⟨1, _⟩ => exact (r1 n).1
    | ⟨2, _⟩ => exact (r2 n).1

/-- The stacks the program starts from. -/
abbrev S0 (A : Cert.Spec.Args) : St := (A.hidden0, A.current0)

/-- Row `b` of the stacks after `t` steps is the row state after `t` steps. -/
theorem iter_row (A : Cert.Spec.Args) (b : Fin 4096) (t : ℕ) : Inv ((stepArr A)^[t] (S0 A)) b (A.st b t) := by
  induction t with
  | zero => exact ⟨fun _ _ => rfl, fun _ _ => rfl⟩
  | succ t ih =>
    rw [Function.iterate_succ_apply']
    have := (step_row A _ b _ ih).1
    rwa [show Cert.Spec.step A.params (A.xrow b) (A.st b t) = A.st b (t + 1) from
      (Function.iterate_succ_apply' _ _ _).symm] at this

/-- Row `b` of the top layer's hidden array of step `t + 1`. -/
theorem top_row (A : Cert.Spec.Args) (b : Fin 4096) (t : ℕ) (n : Fin 256) :
    h2 A ((stepArr A)^[t] (S0 A)) (ix2 b n) = (A.st b (t + 1)).1 2 n := by
  rw [show A.st b (t + 1) = Cert.Spec.step A.params (A.xrow b) (A.st b t) from Function.iterate_succ_apply' _ _ _]
  exact (step_row A _ b _ (iter_row A b t)).2 n

/-- **The glue of one time step**: the program's eleven named arrays of a step — per layer the gated candidate, the new
    cell array and the new hidden array, then the two stacks — are `stepArr` of the stacks the step reads (`hc` is
    the program's own array of the previous hidden rows side by side). Every hypothesis is closed by `rfl` against
    the program's composed terms. -/
theorem step_glue (A : Cert.Spec.Args) (Hst Cst : V S3x4096x256) (hc : V S4096x768) (hhc : hc = hcatOf Hst)
    (I0 C0 H0 I1 C1 H1 I2 C2 H2 : V S4096x256) (HS CS : V S3x4096x256)
    (eI0 : I0 = cellI (layerW A 0) A.x (hsl Hst 0) hc)
    (eC0 : C0 = cellC (layerW A 0) A.x (hsl Hst 0) (hsl Cst 0) I0)
    (eH0 : H0 = cellH (layerW A 0) A.x (hsl Hst 0) C0)
    (eI1 : I1 = cellI (layerW A 1) H0 (hsl Hst 1) hc)
    (eC1 : C1 = cellC (layerW A 1) H0 (hsl Hst 1) (hsl Cst 1) I1)
    (eH1 : H1 = cellH (layerW A 1) H0 (hsl Hst 1) C1)
    (eI2 : I2 = cellI (layerW A 2) H1 (hsl Hst 2) hc)
    (eC2 : C2 = cellC (layerW A 2) H1 (hsl Hst 2) (hsl Cst 2) I2)
    (eH2 : H2 = cellH (layerW A 2) H1 (hsl Hst 2) C2)
    (eHS : HS = stack3 H0 H1 H2) (eCS : CS = stack3 C0 C1 C2) :
    (HS, CS) = stepArr A (Hst, Cst) ∧ H2 = h2 A (Hst, Cst) := by
  subst hhc eI0 eC0 eH0 eI1 eC1 eH1 eI2 eC2 eH2 eHS eCS
  exact ⟨rfl, rfl⟩

/-! ## The features and the output -/

/-- Nine `[B, 256]` arrays side by side. -/
abbrev pieces9 (p0 p1 p2 p3 p4 p5 p6 p7 p8 : V S4096x256) : List ((s : Shape) × (s.Idx → Ideal .f32)) :=
  [⟨S4096x256, p0⟩, ⟨S4096x256, p1⟩, ⟨S4096x256, p2⟩, ⟨S4096x256, p3⟩, ⟨S4096x256, p4⟩, ⟨S4096x256, p5⟩,
   ⟨S4096x256, p6⟩, ⟨S4096x256, p7⟩, ⟨S4096x256, p8⟩]

def featArr (p0 p1 p2 p3 p4 p5 p6 p7 p8 : V S4096x256) : V S4096x2304 :=
  concatenate S4096x2304 1 (pieces9 p0 p1 p2 p3 p4 p5 p6 p7 p8)
    concatenates_S4096x256_S4096x256_S4096x256_S4096x256_S4096x256_S4096x256_S4096x256_S4096x256_S4096x256_S4096x2304_d1

/-- The last affine map and logistic. -/
def outArr (A : Cert.Spec.Args) (Fe : V S4096x2304) : V S4096x44 :=
  sigm bcast_S_S4096x44 (affine dot_S4096x2304_S2304x44_S4096x44_1_0_0_1_n_n_wf bcast_S44_S1x44_1 bcast_S1x44_S4096x44_0_1 Fe
    (transpose S2304x44 [1, 0] A.W_last transposes_S44x2304_S2304x44_1_0) A.b_last)

/-- Column `k` of row `b` of the features is unit `k mod 256` of piece `k / 256`. -/
theorem featArr_apply (p0 p1 p2 p3 p4 p5 p6 p7 p8 : V S4096x256) (b : Fin 4096) (k : Fin 2304) :
    featArr p0 p1 p2 p3 p4 p5 p6 p7 p8 (ix2 b k)
      = (![p0, p1, p2, p3, p4, p5, p6, p7, p8] (⟨k.val / 256, by have := k.isLt; omega⟩ : Fin 9))
          (ix2 b (⟨k.val % 256, Nat.mod_lt _ (by norm_num)⟩ : Fin 256)) :=
  concatenate_ofFn_apply (t := S4096x2304) (s₁ := S4096x256) (1 : Fin 2)
    (fun n : Fin 9 => ![p0, p1, p2, p3, p4, p5, p6, p7, p8] n)
    concatenates_S4096x256_S4096x256_S4096x256_S4096x256_S4096x256_S4096x256_S4096x256_S4096x256_S4096x256_S4096x2304_d1
    rfl 256 rfl (ix2 b k) (⟨k.val / 256, by have := k.isLt; omega⟩ : Fin 9) rfl
    (ix2 b (⟨k.val % 256, Nat.mod_lt _ (by norm_num)⟩ : Fin 256)) rfl
    (fun c hc => by
      match c with
      | ⟨0, _⟩ => rfl
      | ⟨1, _⟩ => exact absurd rfl hc)

/-- The last affine map and logistic, read at `(b, j)`. -/
theorem outArr_apply (A : Cert.Spec.Args) (Fe : V S4096x2304) (b : Fin 4096) (j : Fin 44) :
    outArr A Fe (ix2 b j)
      = Ideal.logistic ((∑ k : Fin 2304, Fe (ix2 b k) * A.W_last (ix2 j k)) + A.b_last (ix1 j)) := by
  unfold outArr
  rw [sigm_apply, affine_apply]
  have ht : ∀ k : Fin 2304, transpose S2304x44 [1, 0] A.W_last transposes_S44x2304_S2304x44_1_0 (ix2 k j) = A.W_last (ix2 j k) :=
    fun k => transpose_ix2_apply _ transposes_S44x2304_S2304x44_1_0 k j
  simp only [ht]

/-- **The result array.** If the nine arrays `T t` are the top layer's new hidden arrays of steps `1 … 9` of the
    recurrence on the stacks, the last affine map and logistic of them side by side is `Spec.G`. -/
theorem result_G (A : Cert.Spec.Args) (T0 T1 T2 T3 T4 T5 T6 T7 T8 : V S4096x256)
    (e0 : T0 = h2 A ((stepArr A)^[0] (S0 A))) (e1 : T1 = h2 A ((stepArr A)^[1] (S0 A)))
    (e2 : T2 = h2 A ((stepArr A)^[2] (S0 A))) (e3 : T3 = h2 A ((stepArr A)^[3] (S0 A)))
    (e4 : T4 = h2 A ((stepArr A)^[4] (S0 A))) (e5 : T5 = h2 A ((stepArr A)^[5] (S0 A)))
    (e6 : T6 = h2 A ((stepArr A)^[6] (S0 A))) (e7 : T7 = h2 A ((stepArr A)^[7] (S0 A)))
    (e8 : T8 = h2 A ((stepArr A)^[8] (S0 A))) :
    outArr A (featArr T0 T1 T2 T3 T4 T5 T6 T7 T8) = Cert.Spec.G A := by
  subst e0 e1 e2 e3 e4 e5 e6 e7 e8
  funext i
  obtain ⟨b, j, rfl⟩ : ∃ (b : Fin 4096) (j : Fin 44), i = ix2 b j := ⟨i 0, i 1, eq_ix2 i⟩
  rw [Cert.Spec.G_ix2, outArr_apply]
  have hf : ∀ k : Fin 2304, featArr (h2 A ((stepArr A)^[0] (S0 A))) (h2 A ((stepArr A)^[1] (S0 A)))
      (h2 A ((stepArr A)^[2] (S0 A))) (h2 A ((stepArr A)^[3] (S0 A))) (h2 A ((stepArr A)^[4] (S0 A)))
      (h2 A ((stepArr A)^[5] (S0 A))) (h2 A ((stepArr A)^[6] (S0 A))) (h2 A ((stepArr A)^[7] (S0 A)))
      (h2 A ((stepArr A)^[8] (S0 A))) (ix2 b k) = Cert.Spec.feat A.params (A.xrow b) (A.s0 b) k := by
    intro k
    rw [featArr_apply]
    have hq : ∀ (q : Fin 9) (n : Fin 256), (![h2 A ((stepArr A)^[0] (S0 A)), h2 A ((stepArr A)^[1] (S0 A)),
        h2 A ((stepArr A)^[2] (S0 A)), h2 A ((stepArr A)^[3] (S0 A)), h2 A ((stepArr A)^[4] (S0 A)),
        h2 A ((stepArr A)^[5] (S0 A)), h2 A ((stepArr A)^[6] (S0 A)), h2 A ((stepArr A)^[7] (S0 A)),
        h2 A ((stepArr A)^[8] (S0 A))] q) (ix2 b n) = (A.st b (q.val + 1)).1 2 n := by
      intro q n
      match q with
      | ⟨0, _⟩ => exact top_row A b 0 n
      | ⟨1, _⟩ => exact top_row A b 1 n
      | ⟨2, _⟩ => exact top_row A b 2 n
      | ⟨3, _⟩ => exact top_row A b 3 n
      | ⟨4, _⟩ => exact top_row A b 4 n
      | ⟨5, _⟩ => exact top_row A b 5 n
      | ⟨6, _⟩ => exact top_row A b 6 n
      | ⟨7, _⟩ => exact top_row A b 7 n
      | ⟨8, _⟩ => exact top_row A b 8 n
    rw [hq]
    rfl
  simp only [hf]
  rfl

/-- **The chain of nine steps**: from the nine steps' glue (`step_glue`), the top layer's hidden array of step `t + 1`
    is `h2` of the stacks after `t` steps. -/
theorem chain (A : Cert.Spec.Args) (P0 P1 P2 P3 P4 P5 P6 P7 P8 : St) (T0 T1 T2 T3 T4 T5 T6 T7 T8 : V S4096x256)
    (g0 : P0 = stepArr A (S0 A) ∧ T0 = h2 A (S0 A)) (g1 : P1 = stepArr A P0 ∧ T1 = h2 A P0)
    (g2 : P2 = stepArr A P1 ∧ T2 = h2 A P1) (g3 : P3 = stepArr A P2 ∧ T3 = h2 A P2)
    (g4 : P4 = stepArr A P3 ∧ T4 = h2 A P3) (g5 : P5 = stepArr A P4 ∧ T5 = h2 A P4)
    (g6 : P6 = stepArr A P5 ∧ T6 = h2 A P5) (g7 : P7 = stepArr A P6 ∧ T7 = h2 A P6)
    (g8 : P8 = stepArr A P7 ∧ T8 = h2 A P7) :
    outArr A (featArr T0 T1 T2 T3 T4 T5 T6 T7 T8) = Cert.Spec.G A := by
  obtain ⟨rfl, rfl⟩ := g0
  obtain ⟨rfl, rfl⟩ := g1
  obtain ⟨rfl, rfl⟩ := g2
  obtain ⟨rfl, rfl⟩ := g3
  obtain ⟨rfl, rfl⟩ := g4
  obtain ⟨rfl, rfl⟩ := g5
  obtain ⟨rfl, rfl⟩ := g6
  obtain ⟨rfl, rfl⟩ := g7
  obtain ⟨_, rfl⟩ := g8
  exact result_G A _ _ _ _ _ _ _ _ _ rfl rfl rfl rfl rfl rfl rfl rfl rfl

end Cert.ReferenceIdeal.RefValue

end
-- ==== Proof.Ref.Glue.lean ====
/-
  The reference's nine unrolled time steps, each identified with `stepArr`.

  In the generated run of the reference, time step `t` names, for each layer, the gated candidate, the new cell array
  and the new hidden array, and then the stacked hidden arrays, the stacked cell arrays and the hidden rows side by
  side. Each is, by unfolding definitions, the structured function of Ref/Ops.lean of the arrays the step reads, so
  `step_glue` identifies the two stacks with `stepArr` of the previous step's stacks and the top layer's hidden array with `h2`.
-/
import proofs.«161507_j76424648065777_2_alg».proof.Proof.RefRun.R04
import proofs.«161507_j76424648065777_2_alg».proof.Proof.Ref.Step

set_option maxRecDepth 8192

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.ValueIdx

/-- The argument arrays of a valuation of the program's buffers, in the order of the reference's parameters. -/
noncomputable def argsOf (V0 : Valuation τ sig (Elt Ideal)) : Cert.Spec.Args where
  x := V0 (Proc.devRef .tc main_arg0)
  hidden0 := V0 (Proc.devRef .tc main_arg1)
  current0 := V0 (Proc.devRef .tc main_arg2)
  Wi_f := V0 (Proc.devRef .tc main_arg3)
  bi_f := V0 (Proc.devRef .tc main_arg4)
  Wi_i := V0 (Proc.devRef .tc main_arg5)
  bi_i := V0 (Proc.devRef .tc main_arg6)
  Wi_o := V0 (Proc.devRef .tc main_arg7)
  bi_o := V0 (Proc.devRef .tc main_arg8)
  Wi_c := V0 (Proc.devRef .tc main_arg9)
  bi_c := V0 (Proc.devRef .tc main_arg10)
  Wi_g := V0 (Proc.devRef .tc main_arg11)
  bi_g := V0 (Proc.devRef .tc main_arg12)
  Wh_f := V0 (Proc.devRef .tc main_arg13)
  bh_f := V0 (Proc.devRef .tc main_arg14)
  Wh_i := V0 (Proc.devRef .tc main_arg15)
  bh_i := V0 (Proc.devRef .tc main_arg16)
  Wh_o := V0 (Proc.devRef .tc main_arg17)
  bh_o := V0 (Proc.devRef .tc main_arg18)
  Wh_g := V0 (Proc.devRef .tc main_arg19)
  bh_g := V0 (Proc.devRef .tc main_arg20)
  Wh_c := V0 (Proc.devRef .tc main_arg21)
  bh_c := V0 (Proc.devRef .tc main_arg22)
  W_last := V0 (Proc.devRef .tc main_arg23)
  b_last := V0 (Proc.devRef .tc main_arg24)

/-- Time step 1: the stacks `main_v416`, `main_v420` and the top hidden array `main_v412`. -/
theorem glue0 (V0 : Valuation τ sig (Elt Ideal)) :
    ((res_main_v416 V0), (res_main_v420 V0)) = stepArr (argsOf V0) ((argsOf V0).hidden0, (argsOf V0).current0)
      ∧ (res_main_v412 V0) = h2 (argsOf V0) ((argsOf V0).hidden0, (argsOf V0).current0) :=
  step_glue (argsOf V0) (argsOf V0).hidden0 (argsOf V0).current0 (res_main_v1 V0) rfl
    (res_main_v109 V0) (res_main_v110 V0) (res_main_v138 V0) (res_main_v246 V0) (res_main_v247 V0) (res_main_v275 V0) (res_main_v383 V0) (res_main_v384 V0) (res_main_v412 V0)
    (res_main_v416 V0) (res_main_v420 V0)
    rfl rfl rfl rfl rfl rfl rfl rfl rfl rfl rfl

/-- Time step 2: the stacks `main_v837`, `main_v841` and the top hidden array `main_v833`. -/
theorem glue1 (V0 : Valuation τ sig (Elt Ideal)) :
    ((res_main_v837 V0), (res_main_v841 V0)) = stepArr (argsOf V0) ((res_main_v416 V0), (res_main_v420 V0))
      ∧ (res_main_v833 V0) = h2 (argsOf V0) ((res_main_v416 V0), (res_main_v420 V0)) :=
  step_glue (argsOf V0) (res_main_v416 V0) (res_main_v420 V0) (res_main_v422 V0) rfl
    (res_main_v530 V0) (res_main_v531 V0) (res_main_v559 V0) (res_main_v667 V0) (res_main_v668 V0) (res_main_v696 V0) (res_main_v804 V0) (res_main_v805 V0) (res_main_v833 V0)
    (res_main_v837 V0) (res_main_v841 V0)
    rfl rfl rfl rfl rfl rfl rfl rfl rfl rfl rfl

/-- Time step 3: the stacks `main_v1258`, `main_v1262` and the top hidden array `main_v1254`. -/
theorem glue2 (V0 : Valuation τ sig (Elt Ideal)) :
    ((res_main_v1258 V0), (res_main_v1262 V0)) = stepArr (argsOf V0) ((res_main_v837 V0), (res_main_v841 V0))
      ∧ (res_main_v1254 V0) = h2 (argsOf V0) ((res_main_v837 V0), (res_main_v841 V0)) :=
  step_glue (argsOf V0) (res_main_v837 V0) (res_main_v841 V0) (res_main_v843 V0) rfl
    (res_main_v951 V0) (res_main_v952 V0) (res_main_v980 V0) (res_main_v1088 V0) (res_main_v1089 V0) (res_main_v1117 V0) (res_main_v1225 V0) (res_main_v1226 V0) (res_main_v1254 V0)
    (res_main_v1258 V0) (res_main_v1262 V0)
    rfl rfl rfl rfl rfl rfl rfl rfl rfl rfl rfl

/-- Time step 4: the stacks `main_v1679`, `main_v1683` and the top hidden array `main_v1675`. -/
theorem glue3 (V0 : Valuation τ sig (Elt Ideal)) :
    ((res_main_v1679 V0), (res_main_v1683 V0)) = stepArr (argsOf V0) ((res_main_v1258 V0), (res_main_v1262 V0))
      ∧ (res_main_v1675 V0) = h2 (argsOf V0) ((res_main_v1258 V0), (res_main_v1262 V0)) :=
  step_glue (argsOf V0) (res_main_v1258 V0) (res_main_v1262 V0) (res_main_v1264 V0) rfl
    (res_main_v1372 V0) (res_main_v1373 V0) (res_main_v1401 V0) (res_main_v1509 V0) (res_main_v1510 V0) (res_main_v1538 V0) (res_main_v1646 V0) (res_main_v1647 V0) (res_main_v1675 V0)
    (res_main_v1679 V0) (res_main_v1683 V0)
    rfl rfl rfl rfl rfl rfl rfl rfl rfl rfl rfl

/-- Time step 5: the stacks `main_v2100`, `main_v2104` and the top hidden array `main_v2096`. -/
theorem glue4 (V0 : Valuation τ sig (Elt Ideal)) :
    ((res_main_v2100 V0), (res_main_v2104 V0)) = stepArr (argsOf V0) ((res_main_v1679 V0), (res_main_v1683 V0))
      ∧ (res_main_v2096 V0) = h2 (argsOf V0) ((res_main_v1679 V0), (res_main_v1683 V0)) :=
  step_glue (argsOf V0) (res_main_v1679 V0) (res_main_v1683 V0) (res_main_v1685 V0) rfl
    (res_main_v1793 V0) (res_main_v1794 V0) (res_main_v1822 V0) (res_main_v1930 V0) (res_main_v1931 V0) (res_main_v1959 V0) (res_main_v2067 V0) (res_main_v2068 V0) (res_main_v2096 V0)
    (res_main_v2100 V0) (res_main_v2104 V0)
    rfl rfl rfl rfl rfl rfl rfl rfl rfl rfl rfl

/-- Time step 6: the stacks `main_v2521`, `main_v2525` and the top hidden array `main_v2517`. -/
theorem glue5 (V0 : Valuation τ sig (Elt Ideal)) :
    ((res_main_v2521 V0), (res_main_v2525 V0)) = stepArr (argsOf V0) ((res_main_v2100 V0), (res_main_v2104 V0))
      ∧ (res_main_v2517 V0) = h2 (argsOf V0) ((res_main_v2100 V0), (res_main_v2104 V0)) :=
  step_glue (argsOf V0) (res_main_v2100 V0) (res_main_v2104 V0) (res_main_v2106 V0) rfl
    (res_main_v2214 V0) (res_main_v2215 V0) (res_main_v2243 V0) (res_main_v2351 V0) (res_main_v2352 V0) (res_main_v2380 V0) (res_main_v2488 V0) (res_main_v2489 V0) (res_main_v2517 V0)
    (res_main_v2521 V0) (res_main_v2525 V0)
    rfl rfl rfl rfl rfl rfl rfl rfl rfl rfl rfl

/-- Time step 7: the stacks `main_v2942`, `main_v2946` and the top hidden array `main_v2938`. -/
theorem glue6 (V0 : Valuation τ sig (Elt Ideal)) :
    ((res_main_v2942 V0), (res_main_v2946 V0)) = stepArr (argsOf V0) ((res_main_v2521 V0), (res_main_v2525 V0))
      ∧ (res_main_v2938 V0) = h2 (argsOf V0) ((res_main_v2521 V0), (res_main_v2525 V0)) :=
  step_glue (argsOf V0) (res_main_v2521 V0) (res_main_v2525 V0) (res_main_v2527 V0) rfl
    (res_main_v2635 V0) (res_main_v2636 V0) (res_main_v2664 V0) (res_main_v2772 V0) (res_main_v2773 V0) (res_main_v2801 V0) (res_main_v2909 V0) (res_main_v2910 V0) (res_main_v2938 V0)
    (res_main_v2942 V0) (res_main_v2946 V0)
    rfl rfl rfl rfl rfl rfl rfl rfl rfl rfl rfl

/-- Time step 8: the stacks `main_v3363`, `main_v3367` and the top hidden array `main_v3359`. -/
theorem glue7 (V0 : Valuation τ sig (Elt Ideal)) :
    ((res_main_v3363 V0), (res_main_v3367 V0)) = stepArr (argsOf V0) ((res_main_v2942 V0), (res_main_v2946 V0))
      ∧ (res_main_v3359 V0) = h2 (argsOf V0) ((res_main_v2942 V0), (res_main_v2946 V0)) :=
  step_glue (argsOf V0) (res_main_v2942 V0) (res_main_v2946 V0) (res_main_v2948 V0) rfl
    (res_main_v3056 V0) (res_main_v3057 V0) (res_main_v3085 V0) (res_main_v3193 V0) (res_main_v3194 V0) (res_main_v3222 V0) (res_main_v3330 V0) (res_main_v3331 V0) (res_main_v3359 V0)
    (res_main_v3363 V0) (res_main_v3367 V0)
    rfl rfl rfl rfl rfl rfl rfl rfl rfl rfl rfl

/-- Time step 9: the stacks `main_v3784`, `main_v3788` and the top hidden array `main_v3780`. -/
theorem glue8 (V0 : Valuation τ sig (Elt Ideal)) :
    ((res_main_v3784 V0), (res_main_v3788 V0)) = stepArr (argsOf V0) ((res_main_v3363 V0), (res_main_v3367 V0))
      ∧ (res_main_v3780 V0) = h2 (argsOf V0) ((res_main_v3363 V0), (res_main_v3367 V0)) :=
  step_glue (argsOf V0) (res_main_v3363 V0) (res_main_v3367 V0) (res_main_v3369 V0) rfl
    (res_main_v3477 V0) (res_main_v3478 V0) (res_main_v3506 V0) (res_main_v3614 V0) (res_main_v3615 V0) (res_main_v3643 V0) (res_main_v3751 V0) (res_main_v3752 V0) (res_main_v3780 V0)
    (res_main_v3784 V0) (res_main_v3788 V0)
    rfl rfl rfl rfl rfl rfl rfl rfl rfl rfl rfl

end Cert.ReferenceIdeal.RefValue

end
-- ==== Proof.Ref.Result.lean ====
/-
  The reference program computes `Spec.G` of its arguments.

  The generated run ends with the result buffer at a composed term over the nine top-layer hidden arrays of the
  unrolled recurrence. That term is the last affine map and logistic of those arrays side by side; each array is
  `h2` of the stacks after so many steps (the nine steps' glue), so the term is `Spec.G` of the argument arrays.
-/
import proofs.«161507_j76424648065777_2_alg».proof.Proof.RefRun.R10
import proofs.«161507_j76424648065777_2_alg».proof.Proof.Ref.Glue

set_option maxRecDepth 8192

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx

/-- The last affine map and logistic of the nine top-layer hidden arrays side by side — the result buffer's composed
    term, by unfolding definitions — is `Spec.G` of the argument arrays. -/
theorem result_term (V0 : Valuation τ sig (Elt Ideal)) :
    outArr (argsOf V0) (featArr (res_main_v412 V0) (res_main_v833 V0) (res_main_v1254 V0) (res_main_v1675 V0)
      (res_main_v2096 V0) (res_main_v2517 V0) (res_main_v2938 V0) (res_main_v3359 V0) (res_main_v3780 V0))
      = Cert.Spec.G (argsOf V0) :=
  chain (argsOf V0) _ _ _ _ _ _ _ _ _ _ _ _ _ _ _ _ _ _ (glue0 V0) (glue1 V0) (glue2 V0) (glue3 V0) (glue4 V0)
    (glue5 V0) (glue6 V0) (glue7 V0) (glue8 V0)

/-- The argument arrays in a memory, on device `c`. -/
noncomputable def argsOfMem (m : (ℓ : Loc nD τ sig) → Buf (Elt Ideal) ℓ) (c : Dev nD) : Cert.Spec.Args where
  x := m ((c.tc : Thread nD τ).loc main_arg0)
  hidden0 := m ((c.tc : Thread nD τ).loc main_arg1)
  current0 := m ((c.tc : Thread nD τ).loc main_arg2)
  Wi_f := m ((c.tc : Thread nD τ).loc main_arg3)
  bi_f := m ((c.tc : Thread nD τ).loc main_arg4)
  Wi_i := m ((c.tc : Thread nD τ).loc main_arg5)
  bi_i := m ((c.tc : Thread nD τ).loc main_arg6)
  Wi_o := m ((c.tc : Thread nD τ).loc main_arg7)
  bi_o := m ((c.tc : Thread nD τ).loc main_arg8)
  Wi_c := m ((c.tc : Thread nD τ).loc main_arg9)
  bi_c := m ((c.tc : Thread nD τ).loc main_arg10)
  Wi_g := m ((c.tc : Thread nD τ).loc main_arg11)
  bi_g := m ((c.tc : Thread nD τ).loc main_arg12)
  Wh_f := m ((c.tc : Thread nD τ).loc main_arg13)
  bh_f := m ((c.tc : Thread nD τ).loc main_arg14)
  Wh_i := m ((c.tc : Thread nD τ).loc main_arg15)
  bh_i := m ((c.tc : Thread nD τ).loc main_arg16)
  Wh_o := m ((c.tc : Thread nD τ).loc main_arg17)
  bh_o := m ((c.tc : Thread nD τ).loc main_arg18)
  Wh_g := m ((c.tc : Thread nD τ).loc main_arg19)
  bh_g := m ((c.tc : Thread nD τ).loc main_arg20)
  Wh_c := m ((c.tc : Thread nD τ).loc main_arg21)
  bh_c := m ((c.tc : Thread nD τ).loc main_arg22)
  W_last := m ((c.tc : Thread nD τ).loc main_arg23)
  b_last := m ((c.tc : Thread nD τ).loc main_arg24)

theorem argsOfMem_eq (m : (ℓ : Loc nD τ sig) → Buf (Elt Ideal) ℓ) (c : Dev nD) :
    argsOfMem m c = argsOf (launchContents m c) := rfl

/-- Every weakly fair execution of the reference ends with the result buffer at `Spec.G` of the argument arrays and
    the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4221) = Cert.Spec.G (argsOfMem m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c).1.trans (result_term (launchContents m c)), (h c).2⟩)
    (Value.run (F := Ideal) m ρ)

end Cert.ReferenceIdeal.RefValue

end
-- ==== Proof.lean ====
/-
  The certificate of the gated-feedback LSTM cell kernel against its jnp reference.

  Both programs compute, for every batch row independently, the same function of that row of the
  input, of that row of the three layers' initial hidden and cell states, and of the weights
  (`Cert.Spec.out`): nine time steps of three layers — logistic forget, input and output gates, a
  three-way logistic gate weighting the three slabs of a cross-layer projection of all layers'
  previous hidden rows, a hyperbolic-tangent candidate — then one affine map of the top layer's
  nine hidden rows and a logistic. The kernel tiles the batch in sixteen blocks of 256 rows, fuses
  the gate matrices into wide products and keeps the nine hidden blocks in a scratch buffer; the
  reference runs the layers one product at a time on the whole batch. On the extended reals the
  two arrangements agree entry by entry: a change of float format is the identity, a matrix
  product is a finite sum whichever way it is tiled or fused, and the only algebra used is
  commutativity and associativity of sums and products.

  The three frames: the two kernel programs by the launch theorem over the symbolic execution of
  the body; the reference by its generated run. The idealization ledger is empty.
-/
import proofs.«161507_j76424648065777_2_alg».proof.Defs
import proofs.«161507_j76424648065777_2_alg».proof.Proof.Gen.Kernel
import proofs.«161507_j76424648065777_2_alg».proof.Proof.Gen.KernelIdeal
import proofs.«161507_j76424648065777_2_alg».proof.Proof.Gen.ReferenceIdeal
import proofs.«161507_j76424648065777_2_alg».proof.Proof.Gen.Pre_finite_inputs
import proofs.«161507_j76424648065777_2_alg».proof.Proof.KB.Frame
import proofs.«161507_j76424648065777_2_alg».proof.Proof.KI.Frame
import proofs.«161507_j76424648065777_2_alg».proof.Proof.KV.Final
import proofs.«161507_j76424648065777_2_alg».proof.Proof.RefFrame
import proofs.«161507_j76424648065777_2_alg».proof.Proof.Ref.Result
import Idealize.ShloMosaic.Adequacy
import Idealize.ShloMosaic.Init

noncomputable section

namespace Cert.Proof

open Idealize.ShloMosaic Idealize.SL.Sem

/-- The word-level kernel program runs to its end, faults nowhere and leaves its arguments. -/
theorem frame_k : Cert.frame_Kernel := fun m ρ _ => Cert.Kernel.Fr.frame m ρ

/-- The idealized kernel program likewise. -/
theorem frame_ki : Cert.frame_KernelIdeal := fun m ρ _ => Cert.KernelIdeal.Fr.frame m ρ

/-- Both idealized programs end with the whole-batch function `Cert.Spec.G` of their arguments; memories
    that agree on the arguments give the same argument arrays, hence the same result. -/
theorem algebraic : Cert.algebraic_KernelIdeal_ReferenceIdeal := by
  intro m ρ m' ρ' _ hagree
  refine ⟨fun c => Cert.Spec.G (Cert.KernelIdeal.KV.argsOfMem m c), Cert.KernelIdeal.KV.run_G m ρ, ?_⟩
  refine (θ_run Cert.ReferenceIdeal.defs _ _).mono (fun _ h c => ⟨(h c).1.trans ?_, (h c).2⟩)
    (Cert.ReferenceIdeal.RefValue.run_G m' ρ')
  have ha := hagree c
  unfold Cert.ReferenceIdeal.RefValue.argsOfMem Cert.KernelIdeal.KV.argsOfMem
  rw [ha.1, ha.2.1, ha.2.2.1, ha.2.2.2.1, ha.2.2.2.2.1, ha.2.2.2.2.2.1, ha.2.2.2.2.2.2.1, ha.2.2.2.2.2.2.2.1,
    ha.2.2.2.2.2.2.2.2.1, ha.2.2.2.2.2.2.2.2.2.1, ha.2.2.2.2.2.2.2.2.2.2.1, ha.2.2.2.2.2.2.2.2.2.2.2.1,
    ha.2.2.2.2.2.2.2.2.2.2.2.2.1, ha.2.2.2.2.2.2.2.2.2.2.2.2.2.1, ha.2.2.2.2.2.2.2.2.2.2.2.2.2.2.1,
    ha.2.2.2.2.2.2.2.2.2.2.2.2.2.2.2.1, ha.2.2.2.2.2.2.2.2.2.2.2.2.2.2.2.2.1, ha.2.2.2.2.2.2.2.2.2.2.2.2.2.2.2.2.2.1,
    ha.2.2.2.2.2.2.2.2.2.2.2.2.2.2.2.2.2.2.1, ha.2.2.2.2.2.2.2.2.2.2.2.2.2.2.2.2.2.2.2.1,
    ha.2.2.2.2.2.2.2.2.2.2.2.2.2.2.2.2.2.2.2.2.1, ha.2.2.2.2.2.2.2.2.2.2.2.2.2.2.2.2.2.2.2.2.2.1,
    ha.2.2.2.2.2.2.2.2.2.2.2.2.2.2.2.2.2.2.2.2.2.2.1, ha.2.2.2.2.2.2.2.2.2.2.2.2.2.2.2.2.2.2.2.2.2.2.2.1,
    ha.2.2.2.2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.Proof.RefClaims.frame_ri, trivial, algebraic⟩

end Cert.Proof

end
